-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S768x512 : Shape := ⟨2, ![768, 512]⟩
abbrev S384x512 : Shape := ⟨2, ![384, 512]⟩
abbrev S384x128 : Shape := ⟨2, ![384, 128]⟩
abbrev S256x1 : Shape := ⟨2, ![256, 1]⟩
abbrev S1 : Shape := ⟨1, ![1]⟩
abbrev S_ : Shape := ⟨0, ![]⟩
abbrev S256x512 : Shape := ⟨2, ![256, 512]⟩
abbrev S1x512 : Shape := ⟨2, ![1, 512]⟩
abbrev S1x128 : Shape := ⟨2, ![1, 128]⟩
abbrev S256x1x128 : Shape := ⟨3, ![256, 1, 128]⟩
abbrev S1x256x128 : Shape := ⟨3, ![1, 256, 128]⟩
abbrev S256x256x128 : Shape := ⟨3, ![256, 256, 128]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S768x512 : S_.BroadcastsInDim S768x512 (![] : Fin 0 → Fin S768x512.rank)
  reducesTo_S768x512_S_d0_1 : S768x512.ReducesTo [0, 1] S_
  bcast_S_S384x512 : S_.BroadcastsInDim S384x512 (![] : Fin 0 → Fin S384x512.rank)
  reducesTo_S384x512_S_d0_1 : S384x512.ReducesTo [0, 1] S_
  bcast_S_S384x128 : S_.BroadcastsInDim S384x128 (![] : Fin 0 → Fin S384x128.rank)
  reducesTo_S384x128_S_d0_1 : S384x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S256x128_S256x1x128_0_2 : S256x128.BroadcastsInDim S256x1x128 (![0, 2] : Fin 2 → Fin S256x1x128.rank)
  bcast_S256x128_S1x256x128_1_2 : S256x128.BroadcastsInDim S1x256x128 (![1, 2] : Fin 2 → Fin S1x256x128.rank)
  bcast_S256x1x128_S256x256x128_0_1_2 : S256x1x128.BroadcastsInDim S256x256x128 (![0, 1, 2] : Fin 3 → Fin S256x256x128.rank)
  bcast_S1x256x128_S256x256x128_0_1_2 : S1x256x128.BroadcastsInDim S256x256x128 (![0, 1, 2] : Fin 3 → Fin S256x256x128.rank)
  reducesTo_S256x256x128_S256x128_d1 : S256x256x128.ReducesTo [1] S256x128
  dot_S256x128_S128x512_S256x512_1_0_0_1_n_n_wf : DotDims.WF S256x128 S128x512 S256x512 [1] [0] [0] [1] [] []
  dot_S256x512_S512x128_S256x128_1_0_0_1_n_n_wf : DotDims.WF S256x512 S512x128 S256x128 [1] [0] [0] [1] [] []

variable [Facts]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def fn_part8 {F : FTy → Type} [FloatOps F] (main_v118 : IVec S_ 1) (main_v146 : IVec S256x128 1) : IVec S_ 1 :=
  let main_c_43 : IVec S_ 1 := constantI S_ 1 1#1
  let main_v147 : IVec S_ 1 := (fun x v => Host.reduce IntOp.andi x v reducesTo_S256x128_S_d0_1 h_S_) main_v146 main_c_43
  let main_v148 : IVec S_ 1 := andi main_v118 main_v147
  main_v148

def fn_part7 {F : FTy → Type} [FloatOps F] (main_arg0 : FVec F S256x128 .f32) (main_arg2 : FVec F S128x512 .f32) (main_arg3 : FVec F S512 .f32) (main_arg4 : FVec F S512x128 .f32) (main_arg5 : FVec F S128 .f32) (main_v118 : IVec S_ 1) (main_v125 : FVec F S256x128 .f32) : IVec S_ 1 :=
  let main_v126 : FVec F S1x128 .f32 := broadcastInDim S1x128 ![1] bcast_S128_S1x128_1 main_arg5
  let main_v127 : FVec F S256x128 .f32 := broadcastInDim S256x128 ![0, 1] bcast_S1x128_S256x128_0_1 main_v126
  let main_v128 : FVec F S256x128 .f32 := addf main_v125 main_v127
  let main_v129 : FVec F S256x512 .f32 := (fun l r => Host.dotGeneral dot_S256x128_S128x512_S256x512_1_0_0_1_n_n none l r) main_arg0 main_arg2
  let main_v130 : FVec F S1x512 .f32 := broadcastInDim S1x512 ![1] bcast_S512_S1x512_1 main_arg3
  let main_v131 : FVec F S256x512 .f32 := broadcastInDim S256x512 ![0, 1] bcast_S1x512_S256x512_0_1 main_v130
  let main_v132 : FVec F S256x512 .f32 := addf main_v129 main_v131
  let main_cst_40 : FVec F S_ .f32 := constant S_ .f32 0x00000000#32
  let main_v133 : FVec F S256x512 .f32 := broadcastInDim S256x512 ![] bcast_S_S256x512 main_cst_40
  let main_v134 : FVec F S256x512 .f32 := maximumf main_v132 main_v133
  let main_v135 : FVec F S256x128 .f32 := (fun l r => Host.dotGeneral dot_S256x512_S512x128_S256x128_1_0_0_1_n_n none l r) main_v134 main_arg4
  let main_v136 : FVec F S1x128 .f32 := broadcastInDim S1x128 ![1] bcast_S128_S1x128_1 main_arg5
  let main_v137 : FVec F S256x128 .f32 := broadcastInDim S256x128 ![0, 1] bcast_S1x128_S256x128_0_1 main_v136
  let main_v138 : FVec F S256x128 .f32 := addf main_v135 main_v137
  let main_v139 : FVec F S256x1x128 .f32 := broadcastInDim S256x1x128 ![0, 2] bcast_S256x128_S256x1x128_0_2 main_v128
  let main_v140 : FVec F S1x256x128 .f32 := broadcastInDim S1x256x128 ![1, 2] bcast_S256x128_S1x256x128_1_2 main_v138
  let main_v141 : FVec F S256x256x128 .f32 := broadcastInDim S256x256x128 ![0, 1, 2] bcast_S256x1x128_S256x256x128_0_1_2 main_v139
  let main_v142 : FVec F S256x256x128 .f32 := broadcastInDim S256x256x128 ![0, 1, 2] bcast_S1x256x128_S256x256x128_0_1_2 main_v140
  let main_v143 : FVec F S256x256x128 .f32 := mulf main_v141 main_v142
  let main_cst_41 : FVec F S_ .f32 := constant S_ .f32 0x00000000#32
  let main_v144 : FVec F S256x128 .f32 := (fun x v => Host.reduceAdd x v reducesTo_S256x256x128_S256x128_d1 h_S_) main_v143 main_cst_41
  let main_cst_42 : FVec F S_ .f32 := constant S_ .f32 0x00000000#32
  let main_v145 : FVec F S256x128 .f32 := broadcastInDim S256x128 ![] bcast_S_S256x128 main_cst_42
  let main_v146 : IVec S256x128 1 := cmpf .une main_v144 main_v145
  fn_part8 (F := F) main_v118 main_v146

def fn_part6 {F : FTy → Type} [FloatOps F] (main_arg0 : FVec F S256x128 .f32) (main_arg1 : FVec F S256x128 .f32) (main_arg2 : FVec F S128x512 .f32) (main_arg3 : FVec F S512 .f32) (main_arg4 : FVec F S512x128 .f32) (main_arg5 : FVec F S128 .f32) (main_v88 : IVec S_ 1) (main_v98 : FVec F S256x128 .f32) (main_v105 : FVec F S256x128 .f32) : IVec S_ 1 :=
  let main_v106 : FVec F S1x128 .f32 := broadcastInDim S1x128 ![1] bcast_S128_S1x128_1 main_arg5
  let main_v107 : FVec F S256x128 .f32 := broadcastInDim S256x128 ![0, 1] bcast_S1x128_S256x128_0_1 main_v106
  let main_v108 : FVec F S256x128 .f32 := addf main_v105 main_v107
  let main_v109 : FVec F S256x1x128 .f32 := broadcastInDim S256x1x128 ![0, 2] bcast_S256x128_S256x1x128_0_2 main_v98
  let main_v110 : FVec F S1x256x128 .f32 := broadcastInDim S1x256x128 ![1, 2] bcast_S256x128_S1x256x128_1_2 main_v108
  let main_v111 : FVec F S256x256x128 .f32 := broadcastInDim S256x256x128 ![0, 1, 2] bcast_S256x1x128_S256x256x128_0_1_2 main_v109
  let main_v112 : FVec F S256x256x128 .f32 := broadcastInDim S256x256x128 ![0, 1, 2] bcast_S1x256x128_S256x256x128_0_1_2 main_v110
  let main_v113 : FVec F S256x256x128 .f32 := mulf main_v111 main_v112
  let main_cst_36 : FVec F S_ .f32 := constant S_ .f32 0x00000000#32
  let main_v114 : FVec F S256x128 .f32 := (fun x v => Host.reduceAdd x v reducesTo_S256x256x128_S256x128_d1 h_S_) main_v113 main_cst_36
  let main_cst_37 : FVec F S_ .f32 := constant S_ .f32 0x00000000#32
  let main_v115 : FVec F S256x128 .f32 := broadcastInDim S256x128 ![] bcast_S_S256x128 main_cst_37
  let main_v116 : IVec S256x128 1 := cmpf .une main_v114 main_v115
  let main_c_38 : IVec S_ 1 := constantI S_ 1 1#1
  let main_v117 : IVec S_ 1 := (fun x v => Host.reduce IntOp.andi x v reducesTo_S256x128_S_d0_1 h_S_) main_v116 main_c_38
  let main_v118 : IVec S_ 1 := andi main_v88 main_v117
  let main_v119 : FVec F S256x512 .f32 := (fun l r => Host.dotGeneral dot_S256x128_S128x512_S256x512_1_0_0_1_n_n none l r) main_arg1 main_arg2
  let main_v120 : FVec F S1x512 .f32 := broadcastInDim S1x512 ![1] bcast_S512_S1x512_1 main_arg3
  let main_v121 : FVec F S256x512 .f32 := broadcastInDim S256x512 ![0, 1] bcast_S1x512_S256x512_0_1 main_v120
  let main_v122 : FVec F S256x512 .f32 := addf main_v119 main_v121
  let main_cst_39 : FVec F S_ .f32 := constant S_ .f32 0x00000000#32
  let main_v123 : FVec F S256x512 .f32 := broadcastInDim S256x512 ![] bcast_S_S256x512 main_cst_39
  let main_v124 : FVec F S256x512 .f32 := maximumf main_v122 main_v123
  let main_v125 : FVec F S256x128 .f32 := (fun l r => Host.dotGeneral dot_S256x512_S512x128_S256x128_1_0_0_1_n_n none l r) main_v124 main_arg4
  fn_part7 (F := F) main_arg0 main_arg2 main_arg3 main_arg4 main_arg5 main_v118 main_v125

def fn_part5 {F : FTy → Type} [FloatOps F] (main_arg0 : FVec F S256x128 .f32) (main_arg1 : FVec F S256x128 .f32) (main_arg2 : FVec F S128x512 .f32) (main_arg3 : FVec F S512 .f32) (main_arg4 : FVec F S512x128 .f32) (main_arg5 : FVec F S128 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S256x512 .f32 := (fun l r => Host.dotGeneral dot_S256x128_S128x512_S256x512_1_0_0_1_n_n none l r) main_arg0 main_arg2
  let main_v90 : FVec F S1x512 .f32 := broadcastInDim S1x512 ![1] bcast_S512_S1x512_1 main_arg3
  let main_v91 : FVec F S256x512 .f32 := broadcastInDim S256x512 ![0, 1] bcast_S1x512_S256x512_0_1 main_v90
  let main_v92 : FVec F S256x512 .f32 := addf main_v89 main_v91
  let main_cst_34 : FVec F S_ .f32 := constant S_ .f32 0x00000000#32
  let main_v93 : FVec F S256x512 .f32 := broadcastInDim S256x512 ![] bcast_S_S256x512 main_cst_34
  let main_v94 : FVec F S256x512 .f32 := maximumf main_v92 main_v93
  let main_v95 : FVec F S256x128 .f32 := (fun l r => Host.dotGeneral dot_S256x512_S512x128_S256x128_1_0_0_1_n_n none l r) main_v94 main_arg4
  let main_v96 : FVec F S1x128 .f32 := broadcastInDim S1x128 ![1] bcast_S128_S1x128_1 main_arg5
  let main_v97 : FVec F S256x128 .f32 := broadcastInDim S256x128 ![0, 1] bcast_S1x128_S256x128_0_1 main_v96
  let main_v98 : FVec F S256x128 .f32 := addf main_v95 main_v97
  let main_v99 : FVec F S256x512 .f32 := (fun l r => Host.dotGeneral dot_S256x128_S128x512_S256x512_1_0_0_1_n_n none l r) main_arg1 main_arg2
  let main_v100 : FVec F S1x512 .f32 := broadcastInDim S1x512 ![1] bcast_S512_S1x512_1 main_arg3
  let main_v101 : FVec F S256x512 .f32 := broadcastInDim S256x512 ![0, 1] bcast_S1x512_S256x512_0_1 main_v100
  let main_v102 : FVec F S256x512 .f32 := addf main_v99 main_v101
  let main_cst_35 : FVec F S_ .f32 := constant S_ .f32 0x00000000#32
  let main_v103 : FVec F S256x512 .f32 := broadcastInDim S256x512 ![] bcast_S_S256x512 main_cst_35
  let main_v104 : FVec F S256x512 .f32 := maximumf main_v102 main_v103
  let main_v105 : FVec F S256x128 .f32 := (fun l r => Host.dotGeneral dot_S256x512_S512x128_S256x128_1_0_0_1_n_n none l r) main_v104 main_arg4
  fn_part6 (F := F) main_arg0 main_arg1 main_arg2 main_arg3 main_arg4 main_arg5 main_v88 main_v98 main_v105

def fn_part4 {F : FTy → Type} [FloatOps F] (main_arg0 : FVec F S256x128 .f32) (main_arg1 : FVec F S256x128 .f32) (main_arg2 : FVec F S128x512 .f32) (main_arg3 : FVec F S512 .f32) (main_arg4 : FVec F S512x128 .f32) (main_arg5 : FVec F S128 .f32) (main_arg14 : FVec F S384x128 .f32) (main_arg15 : FVec F S128 .f32) (main_arg16 : FVec F S256x1 .f32) (main_arg17 : FVec F S1 .f32) (main_v63 : IVec S_ 1) (main_v67 : IVec S_ 1) : IVec S_ 1 :=
  let main_v68 : IVec S_ 1 := andi main_v63 main_v67
  let main_v69 : FVec F S384x128 .f32 := Host.absf main_arg14
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x1 .f32 := Host.absf main_arg16
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg0 main_arg1 main_arg2 main_arg3 main_arg4 main_arg5 main_v83 main_v84 main_cst_32

def fn_part3 {F : FTy → Type} [FloatOps F] (main_arg0 : FVec F S256x128 .f32) (main_arg1 : FVec F S256x128 .f32) (main_arg2 : FVec F S128x512 .f32) (main_arg3 : FVec F S512 .f32) (main_arg4 : FVec F S512x128 .f32) (main_arg5 : FVec F S128 .f32) (main_arg11 : FVec F S512 .f32) (main_arg12 : FVec F S512x128 .f32) (main_arg13 : FVec F S128 .f32) (main_arg14 : FVec F S384x128 .f32) (main_arg15 : FVec F S128 .f32) (main_arg16 : FVec F S256x1 .f32) (main_arg17 : FVec F S1 .f32) (main_v48 : IVec S_ 1) (main_v49 : FVec F S384x512 .f32) (main_v50 : FVec F S384x512 .f32) : IVec S_ 1 :=
  let main_v51 : IVec S384x512 1 := cmpf .olt main_v49 main_v50
  let main_c_19 : IVec S_ 1 := constantI S_ 1 1#1
  let main_v52 : IVec S_ 1 := (fun x v => Host.reduce IntOp.andi x v reducesTo_S384x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x128 .f32 := Host.absf main_arg12
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg2 main_arg3 main_arg4 main_arg5 main_arg14 main_arg15 main_arg16 main_arg17 main_v63 main_v67

def fn_part2 {F : FTy → Type} [FloatOps F] (main_arg0 : FVec F S256x128 .f32) (main_arg1 : FVec F S256x128 .f32) (main_arg2 : FVec F S128x512 .f32) (main_arg3 : FVec F S512 .f32) (main_arg4 : FVec F S512x128 .f32) (main_arg5 : FVec F S128 .f32) (main_arg7 : FVec F S512 .f32) (main_arg8 : FVec F S512x128 .f32) (main_arg9 : FVec F S128 .f32) (main_arg10 : FVec F S384x512 .f32) (main_arg11 : FVec F S512 .f32) (main_arg12 : FVec F S512x128 .f32) (main_arg13 : FVec F S128 .f32) (main_arg14 : FVec F S384x128 .f32) (main_arg15 : FVec F S128 .f32) (main_arg16 : FVec F S256x1 .f32) (main_arg17 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x512 .f32 := Host.absf main_arg10
  let main_cst_18 : FVec F S_ .f32 := constant S_ .f32 0x7F800000#32
  let main_v50 : FVec F S384x512 .f32 := broadcastInDim S384x512 ![] bcast_S_S384x512 main_cst_18
  fn_part3 (F := F) main_arg0 main_arg1 main_arg2 main_arg3 main_arg4 main_arg5 main_arg11 main_arg12 main_arg13 main_arg14 main_arg15 main_arg16 main_arg17 main_v48 main_v49 main_v50

def fn_part1 {F : FTy → Type} [FloatOps F] (main_arg0 : FVec F S256x128 .f32) (main_arg1 : FVec F S256x128 .f32) (main_arg2 : FVec F S128x512 .f32) (main_arg3 : FVec F S512 .f32) (main_arg4 : FVec F S512x128 .f32) (main_arg5 : FVec F S128 .f32) (main_arg6 : FVec F S768x512 .f32) (main_arg7 : FVec F S512 .f32) (main_arg8 : FVec F S512x128 .f32) (main_arg9 : FVec F S128 .f32) (main_arg10 : FVec F S384x512 .f32) (main_arg11 : FVec F S512 .f32) (main_arg12 : FVec F S512x128 .f32) (main_arg13 : FVec F S128 .f32) (main_arg14 : FVec F S384x128 .f32) (main_arg15 : FVec F S128 .f32) (main_arg16 : FVec F S256x1 .f32) (main_arg17 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S768x512 .f32 := Host.absf main_arg6
  let main_cst_10 : FVec F S_ .f32 := constant S_ .f32 0x7F800000#32
  let main_v30 : FVec F S768x512 .f32 := broadcastInDim S768x512 ![] bcast_S_S768x512 main_cst_10
  let main_v31 : IVec S768x512 1 := cmpf .olt main_v29 main_v30
  let main_c_11 : IVec S_ 1 := constantI S_ 1 1#1
  let main_v32 : IVec S_ 1 := (fun x v => Host.reduce IntOp.andi x v reducesTo_S768x512_S_d0_1 h_S_) main_v31 main_c_11
  let main_v33 : IVec S_ 1 := andi main_v28 main_v32
  fn_part2 (F := F) main_arg0 main_arg1 main_arg2 main_arg3 main_arg4 main_arg5 main_arg7 main_arg8 main_arg9 main_arg10 main_arg11 main_arg12 main_arg13 main_arg14 main_arg15 main_arg16 main_arg17 main_v33

def fn {F : FTy → Type} [FloatOps F] (main_arg0 : FVec F S256x128 .f32) (main_arg1 : FVec F S256x128 .f32) (main_arg2 : FVec F S128x512 .f32) (main_arg3 : FVec F S512 .f32) (main_arg4 : FVec F S512x128 .f32) (main_arg5 : FVec F S128 .f32) (main_arg6 : FVec F S768x512 .f32) (main_arg7 : FVec F S512 .f32) (main_arg8 : FVec F S512x128 .f32) (main_arg9 : FVec F S128 .f32) (main_arg10 : FVec F S384x512 .f32) (main_arg11 : FVec F S512 .f32) (main_arg12 : FVec F S512x128 .f32) (main_arg13 : FVec F S128 .f32) (main_arg14 : FVec F S384x128 .f32) (main_arg15 : FVec F S128 .f32) (main_arg16 : FVec F S256x1 .f32) (main_arg17 : FVec F S1 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_v13 main_v16
-- ==== Kernel.lean ====
abbrev S256x128 : Shape := ⟨2, ![256, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S768x512 : Shape := ⟨2, ![768, 512]⟩
abbrev S384x512 : Shape := ⟨2, ![384, 512]⟩
abbrev S384x128 : Shape := ⟨2, ![384, 128]⟩
abbrev S256x1 : Shape := ⟨2, ![256, 1]⟩
abbrev S1 : Shape := ⟨1, ![1]⟩
abbrev S1x256x128 : Shape := ⟨3, ![1, 256, 128]⟩
abbrev S2x256x128 : Shape := ⟨3, ![2, 256, 128]⟩
abbrev S256x512 : Shape := ⟨2, ![256, 512]⟩
abbrev S1x512 : Shape := ⟨2, ![1, 512]⟩
abbrev S1x128 : Shape := ⟨2, ![1, 128]⟩
abbrev S512x512 : Shape := ⟨2, ![512, 512]⟩
abbrev S1x16x128 : Shape := ⟨3, ![1, 16, 128]⟩
abbrev S16x512 : Shape := ⟨2, ![16, 512]⟩
abbrev S16x128 : Shape := ⟨2, ![16, 128]⟩
abbrev S256x1x512 : Shape := ⟨3, ![256, 1, 512]⟩
abbrev S1x16x512 : Shape := ⟨3, ![1, 16, 512]⟩
abbrev S256x16x512 : Shape := ⟨3, ![256, 16, 512]⟩
abbrev S4096x512 : Shape := ⟨2, ![4096, 512]⟩
abbrev S4096x128 : Shape := ⟨2, ![4096, 128]⟩
abbrev S256x16x128 : Shape := ⟨3, ![256, 16, 128]⟩
abbrev S1x1x128 : Shape := ⟨3, ![1, 1, 128]⟩
abbrev S_ : Shape := ⟨0, ![]⟩
abbrev S2x128 : Shape := ⟨2, ![2, 128]⟩
abbrev S2x1x128 : Shape := ⟨3, ![2, 1, 128]⟩
abbrev S1x32x128 : Shape := ⟨3, ![1, 32, 128]⟩
abbrev S32x128 : Shape := ⟨2, ![32, 128]⟩
abbrev S32x1x128 : Shape := ⟨3, ![32, 1, 128]⟩
abbrev S32x256x128 : Shape := ⟨3, ![32, 256, 128]⟩
abbrev S256 : Shape := ⟨1, ![256]⟩
abbrev S256x384 : Shape := ⟨2, ![256, 384]⟩
abbrev S256x256 : Shape := ⟨2, ![256, 256]⟩
abbrev S1x1 : Shape := ⟨2, ![1, 1]⟩

abbrev nBuf : Space → Nat
  | .hbm => 245
  | .vmem => 25
  | .smem => 0
  | _ => 0

abbrev hbmTy0_0 (i : Nat) : BufTy := match i % 128 with
  | 0 => ⟨S256x128, .f32⟩
  | 1 => ⟨S256x128, .f32⟩
  | 2 => ⟨S128x512, .f32⟩
  | 3 => ⟨S512, .f32⟩
  | 4 => ⟨S512x128, .f32⟩
  | 5 => ⟨S128, .f32⟩
  | 6 => ⟨S768x512, .f32⟩
  | 7 => ⟨S512, .f32⟩
  | 8 => ⟨S512x128, .f32⟩
  | 9 => ⟨S128, .f32⟩
  | 10 => ⟨S384x512, .f32⟩
  | 11 => ⟨S512, .f32⟩
  | 12 => ⟨S512x128, .f32⟩
  | 13 => ⟨S128, .f32⟩
  | 14 => ⟨S384x128, .f32⟩
  | 15 => ⟨S128, .f32⟩
  | 16 => ⟨S256x1, .f32⟩
  | 17 => ⟨S1, .f32⟩
  | 18 => ⟨S1x256x128, .f32⟩
  | 19 => ⟨S1x256x128, .f32⟩
  | 20 => ⟨S2x256x128, .f32⟩
  | 21 => ⟨S128x512, .f32⟩
  | 22 => ⟨S256x512, .f32⟩
  | 23 => ⟨S128x512, .f32⟩
  | 24 => ⟨S256x512, .f32⟩
  | 25 => ⟨S128x512, .f32⟩
  | 26 => ⟨S128x512, .f32⟩
  | 27 => ⟨S128x512, .f32⟩
  | 28 => ⟨S1x512, .f32⟩
  | 29 => ⟨S1x128, .f32⟩
  | 30 => ⟨S1x512, .f32⟩
  | 31 => ⟨S1x128, .f32⟩
  | 32 => ⟨S256x512, .f32⟩
  | 33 => ⟨S256x512, .f32⟩
  | 34 => ⟨S512x512, .f32⟩
  | 35 => ⟨S1x512, .f32⟩
  | 36 => ⟨S1x512, .f32⟩
  | 37 => ⟨S128x512, .bf16⟩
  | 38 => ⟨S128x512, .bf16⟩
  | 39 => ⟨S128x512, .bf16⟩
  | 40 => ⟨S128x512, .bf16⟩
  | 41 => ⟨S512x128, .bf16⟩
  | 42 => ⟨S512x512, .bf16⟩
  | 43 => ⟨S2x256x128, .f32⟩
  | 44 => ⟨S1x256x128, .f32⟩
  | 45 => ⟨S256x128, .f32⟩
  | 46 => ⟨S1x256x128, .f32⟩
  | 47 => ⟨S256x128, .f32⟩
  | 48 => ⟨S256x512, .f32⟩
  | 49 => ⟨S1x512, .f32⟩
  | 50 => ⟨S256x512, .f32⟩
  | 51 => ⟨S256x512, .f32⟩
  | 52 => ⟨S_, .f32⟩
  | 53 => ⟨S256x512, .f32⟩
  | 54 => ⟨S256x512, .f32⟩
  | 55 => ⟨S256x128, .f32⟩
  | 56 => ⟨S1x128, .f32⟩
  | 57 => ⟨S256x128, .f32⟩
  | 58 => ⟨S256x128, .f32⟩
  | 59 => ⟨S256x512, .f32⟩
  | 60 => ⟨S1x512, .f32⟩
  | 61 => ⟨S256x512, .f32⟩
  | 62 => ⟨S256x512, .f32⟩
  | 63 => ⟨S_, .f32⟩
  | 64 => ⟨S256x512, .f32⟩
  | 65 => ⟨S256x512, .f32⟩
  | 66 => ⟨S256x128, .f32⟩
  | 67 => ⟨S1x128, .f32⟩
  | 68 => ⟨S256x128, .f32⟩
  | 69 => ⟨S256x128, .f32⟩
  | 70 => ⟨S_, .f32⟩
  | 71 => ⟨S128, .f32⟩
  | 72 => ⟨S_, .f32⟩
  | 73 => ⟨S128, .f32⟩
  | 74 => ⟨S1x256x128, .f32⟩
  | 75 => ⟨S1x256x128, .f32⟩
  | 76 => ⟨S2x256x128, .f32⟩
  | 77 => ⟨S1x256x128, .f32⟩
  | 78 => ⟨S1x256x128, .f32⟩
  | 79 => ⟨S2x256x128, .f32⟩
  | 80 => ⟨S1x128, .f32⟩
  | 81 => ⟨S1x128, .f32⟩
  | 82 => ⟨S2x128, .f32⟩
  | 83 => ⟨S2x1x128, .f32⟩
  | 84 => ⟨S2x256x128, .f32⟩
  | 85 => ⟨S2x256x128, .f32⟩
  | 86 => ⟨S2x256x128, .f32⟩
  | 87 => ⟨S1x256x128, .f32⟩
  | 88 => ⟨S256x128, .f32⟩
  | 89 => ⟨S1x256x128, .f32⟩
  | 90 => ⟨S256x128, .f32⟩
  | 91 => ⟨S256x128, .f32⟩
  | 92 => ⟨S_, .f32⟩
  | 93 => ⟨S256, .f32⟩
  | 94 => ⟨S256x1, .f32⟩
  | 95 => ⟨S256x1, .f32⟩
  | 96 => ⟨S_, .f32⟩
  | 97 => ⟨S256x1, .f32⟩
  | 98 => ⟨S256x1, .f32⟩
  | 99 => ⟨S256x128, .f32⟩
  | 100 => ⟨S256x128, .f32⟩
  | 101 => ⟨S256x128, .f32⟩
  | 102 => ⟨S_, .f32⟩
  | 103 => ⟨S256, .f32⟩
  | 104 => ⟨S256x1, .f32⟩
  | 105 => ⟨S256x1, .f32⟩
  | 106 => ⟨S_, .f32⟩
  | 107 => ⟨S256x1, .f32⟩
  | 108 => ⟨S256x1, .f32⟩
  | 109 => ⟨S256x128, .f32⟩
  | 110 => ⟨S256x128, .f32⟩
  | 111 => ⟨S256x128, .f32⟩
  | 112 => ⟨S_, .f32⟩
  | 113 => ⟨S256, .f32⟩
  | 114 => ⟨S256x1, .f32⟩
  | 115 => ⟨S256x1, .f32⟩
  | 116 => ⟨S_, .f32⟩
  | 117 => ⟨S256x1, .f32⟩
  | 118 => ⟨S256x1, .f32⟩
  | 119 => ⟨S256x128, .f32⟩
  | 120 => ⟨S256x128, .f32⟩
  | 121 => ⟨S256x384, .f32⟩
  | 122 => ⟨S256x128, .f32⟩
  | 123 => ⟨S1x128, .f32⟩
  | 124 => ⟨S256x128, .f32⟩
  | 125 => ⟨S256x128, .f32⟩
  | 126 => ⟨S256x128, .f32⟩
  | 127 => ⟨S_, .f32⟩
  | _ => ⟨S256x128, .f32⟩

abbrev hbmTy0_1 (i : Nat) : BufTy := match i % 128 with
  | 0 => ⟨S256, .f32⟩
  | 1 => ⟨S256x1, .f32⟩
  | 2 => ⟨S256x1, .f32⟩
  | 3 => ⟨S_, .f32⟩
  | 4 => ⟨S256x1, .f32⟩
  | 5 => ⟨S256x1, .f32⟩
  | 6 => ⟨S256x128, .f32⟩
  | 7 => ⟨S256x128, .f32⟩
  | 8 => ⟨S256x128, .f32⟩
  | 9 => ⟨S_, .f32⟩
  | 10 => ⟨S256, .f32⟩
  | 11 => ⟨S256x1, .f32⟩
  | 12 => ⟨S256x1, .f32⟩
  | 13 => ⟨S_, .f32⟩
  | 14 => ⟨S256x1, .f32⟩
  | 15 => ⟨S256x1, .f32⟩
  | 16 => ⟨S256x128, .f32⟩
  | 17 => ⟨S256x128, .f32⟩
  | 18 => ⟨S256x128, .f32⟩
  | 19 => ⟨S_, .f32⟩
  | 20 => ⟨S256, .f32⟩
  | 21 => ⟨S256x1, .f32⟩
  | 22 => ⟨S256x1, .f32⟩
  | 23 => ⟨S_, .f32⟩
  | 24 => ⟨S256x1, .f32⟩
  | 25 => ⟨S256x1, .f32⟩
  | 26 => ⟨S256x128, .f32⟩
  | 27 => ⟨S256x128, .f32⟩
  | 28 => ⟨S256x384, .f32⟩
  | 29 => ⟨S256x128, .f32⟩
  | 30 => ⟨S1x128, .f32⟩
  | 31 => ⟨S256x128, .f32⟩
  | 32 => ⟨S256x128, .f32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S256x128, .f32⟩
  | 40 => ⟨S256x256, .f32⟩
  | 41 => ⟨S256x1, .f32⟩
  | 42 => ⟨S1x1, .f32⟩
  | 43 => ⟨S256x1, .f32⟩
  | 44 => ⟨S256x1, .f32⟩
  | 45 => ⟨S_, .f32⟩
  | 46 => ⟨S1, .f32⟩
  | 47 => ⟨S_, .f32⟩
  | 48 => ⟨S1, .f32⟩
  | 49 => ⟨S1, .f32⟩
  | 50 => ⟨S1x1, .f32⟩
  | 51 => ⟨S256x1, .f32⟩
  | 52 => ⟨S256x1, .f32⟩
  | 53 => ⟨S256x1, .f32⟩
  | 54 => ⟨S_, .f32⟩
  | 55 => ⟨S1, .f32⟩
  | 56 => ⟨S1x1, .f32⟩
  | 57 => ⟨S256x1, .f32⟩
  | 58 => ⟨S256x1, .f32⟩
  | 59 => ⟨S256x128, .f32⟩
  | 60 => ⟨S256x128, .f32⟩
  | 61 => ⟨S_, .f32⟩
  | 62 => ⟨S128, .f32⟩
  | 63 => ⟨S1x128, .f32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S256x128, .f32⟩
  | 71 => ⟨S256x256, .f32⟩
  | 72 => ⟨S256x1, .f32⟩
  | 73 => ⟨S1x1, .f32⟩
  | 74 => ⟨S256x1, .f32⟩
  | 75 => ⟨S256x1, .f32⟩
  | 76 => ⟨S_, .f32⟩
  | 77 => ⟨S1, .f32⟩
  | 78 => ⟨S_, .f32⟩
  | 79 => ⟨S1, .f32⟩
  | 80 => ⟨S1, .f32⟩
  | 81 => ⟨S1x1, .f32⟩
  | 82 => ⟨S256x1, .f32⟩
  | 83 => ⟨S256x1, .f32⟩
  | 84 => ⟨S256x1, .f32⟩
  | 85 => ⟨S_, .f32⟩
  | 86 => ⟨S1, .f32⟩
  | 87 => ⟨S1x1, .f32⟩
  | 88 => ⟨S256x1, .f32⟩
  | 89 => ⟨S256x1, .f32⟩
  | 90 => ⟨S256x128, .f32⟩
  | 91 => ⟨S256x128, .f32⟩
  | 92 => ⟨S_, .f32⟩
  | 93 => ⟨S128, .f32⟩
  | 94 => ⟨S1x128, .f32⟩
  | 95 => ⟨S1x128, .f32⟩
  | 96 => ⟨S_, .f32⟩
  | 97 => ⟨S1, .f32⟩
  | 98 => ⟨S1x128, .f32⟩
  | 99 => ⟨S_, .f32⟩
  | 100 => ⟨S1, .f32⟩
  | 101 => ⟨S1, .f32⟩
  | 102 => ⟨S1x128, .f32⟩
  | 103 => ⟨S_, .f32⟩
  | 104 => ⟨S1, .f32⟩
  | 105 => ⟨S1, .f32⟩
  | 106 => ⟨S1, .f32⟩
  | 107 => ⟨S_, .f32⟩
  | 108 => ⟨S1, .f32⟩
  | 109 => ⟨S1, .f32⟩
  | 110 => ⟨S1, .f32⟩
  | 111 => ⟨S_, .f32⟩
  | 112 => ⟨S1, .f32⟩
  | 113 => ⟨S1, .f32⟩
  | 114 => ⟨S_, .f32⟩
  | 115 => ⟨S1, .f32⟩
  | 116 => ⟨S1, .f32⟩
  | _ => ⟨S256x128, .f32⟩

abbrev hbmTy (i : Nat) : BufTy := match i / 128 with
  | 0 => hbmTy0_0 i
  | 1 => hbmTy0_1 i
  | _ => ⟨S256x128, .f32⟩

abbrev bufTy : (tb : Table) → Fin (tcTables nBuf tb) → BufTy
  | .hbm, ⟨i, _⟩ => hbmTy i
  | .local _ .vmem, ⟨0, _⟩ => ⟨S1x256x128, .f32⟩
  | .local _ .vmem, ⟨1, _⟩ => ⟨S1x256x128, .f32⟩
  | .local _ .vmem, ⟨2, _⟩ => ⟨S1x16x128, .f32⟩
  | .local _ .vmem, ⟨3, _⟩ => ⟨S1x16x128, .f32⟩
  | .local _ .vmem, ⟨4, _⟩ => ⟨S128x512, .bf16⟩
  | .local _ .vmem, ⟨5, _⟩ => ⟨S256x512, .f32⟩
  | .local _ .vmem, ⟨6, _⟩ => ⟨S128x512, .bf16⟩
  | .local _ .vmem, ⟨7, _⟩ => ⟨S16x512, .f32⟩
  | .local _ .vmem, ⟨8, _⟩ => ⟨S16x512, .f32⟩
  | .local _ .vmem, ⟨9, _⟩ => ⟨S512x512, .bf16⟩
  | .local _ .vmem, ⟨10, _⟩ => ⟨S128x512, .bf16⟩
  | .local _ .vmem, ⟨11, _⟩ => ⟨S128x512, .bf16⟩
  | .local _ .vmem, ⟨12, _⟩ => ⟨S1x512, .f32⟩
  | .local _ .vmem, ⟨13, _⟩ => ⟨S512x128, .bf16⟩
  | .local _ .vmem, ⟨14, _⟩ => ⟨S1x128, .f32⟩
  | .local _ .vmem, ⟨15, _⟩ => ⟨S1x256x128, .f32⟩
  | .local _ .vmem, ⟨16, _⟩ => ⟨S1x256x128, .f32⟩
  | .local _ .vmem, ⟨17, _⟩ => ⟨S1x32x128, .f32⟩
  | .local _ .vmem, ⟨18, _⟩ => ⟨S1x32x128, .f32⟩
  | .local _ .vmem, ⟨19, _⟩ => ⟨S1x256x128, .f32⟩
  | .local _ .vmem, ⟨20, _⟩ => ⟨S1x256x128, .f32⟩
  | .local _ .vmem, ⟨21, _⟩ => ⟨S1x32x128, .f32⟩
  | .local _ .vmem, ⟨22, _⟩ => ⟨S1x32x128, .f32⟩
  | .local _ .vmem, ⟨23, _⟩ => ⟨S1x32x128, .f32⟩
  | .local _ .vmem, ⟨24, _⟩ => ⟨S1x32x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst : Ref sig .tc := ⟨.hbm, 70, rfl⟩
abbrev main_v48 : Ref sig .tc := ⟨.hbm, 71, rfl⟩
abbrev main_cst_0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_1 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_2 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_3 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_4 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_5 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_6 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_7 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_8 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_9 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_10 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_11 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_12 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_13 : Ref sig .tc := ⟨.hbm, 161, rfl⟩
abbrev main_v125 : Ref sig .tc := ⟨.hbm, 162, rfl⟩
abbrev main_v126 : Ref sig .tc := ⟨.hbm, 163, rfl⟩
abbrev main_cst_14 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_15 : Ref sig .tc := ⟨.hbm, 173, rfl⟩
abbrev main_v135 : Ref sig .tc := ⟨.hbm, 174, rfl⟩
abbrev main_cst_16 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_17 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_18 : Ref sig .tc := ⟨.hbm, 189, rfl⟩
abbrev main_v148 : Ref sig .tc := ⟨.hbm, 190, rfl⟩
abbrev main_v149 : Ref sig .tc := ⟨.hbm, 191, rfl⟩
abbrev main_cst_19 : Ref sig .tc := ⟨.hbm, 192, rfl⟩
abbrev main_v150 : Ref sig .tc := ⟨.hbm, 193, rfl⟩
abbrev main_v151 : Ref sig .tc := ⟨.hbm, 194, rfl⟩
abbrev main_cst_20 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_21 : Ref sig .tc := ⟨.hbm, 204, rfl⟩
abbrev main_v160 : Ref sig .tc := ⟨.hbm, 205, rfl⟩
abbrev main_cst_22 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_23 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_24 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_25 : Ref sig .tc := ⟨.hbm, 224, rfl⟩
abbrev main_v176 : Ref sig .tc := ⟨.hbm, 225, rfl⟩
abbrev main_call2_v0 : Ref sig .tc := ⟨.hbm, 226, rfl⟩
abbrev main_call2_cst : Ref sig .tc := ⟨.hbm, 227, rfl⟩
abbrev main_call2_v1 : Ref sig .tc := ⟨.hbm, 228, rfl⟩
abbrev main_v177 : Ref sig .tc := ⟨.hbm, 229, rfl⟩
abbrev main_call3_v0 : Ref sig .tc := ⟨.hbm, 230, rfl⟩
abbrev main_call3_cst : Ref sig .tc := ⟨.hbm, 231, rfl⟩
abbrev main_call3_v1 : Ref sig .tc := ⟨.hbm, 232, rfl⟩
abbrev main_v178 : Ref sig .tc := ⟨.hbm, 233, rfl⟩
abbrev main_v179 : Ref sig .tc := ⟨.hbm, 234, rfl⟩
abbrev main_cst_26 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_27 : Ref sig .tc := ⟨.hbm, 239, rfl⟩
abbrev main_v183 : Ref sig .tc := ⟨.hbm, 240, rfl⟩
abbrev main_v184 : Ref sig .tc := ⟨.hbm, 241, rfl⟩
abbrev main_cst_28 : Ref sig .tc := ⟨.hbm, 242, rfl⟩
abbrev main_v185 : Ref sig .tc := ⟨.hbm, 243, rfl⟩
abbrev main_v186 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S256x128_S1x256x128_1_2 : S256x128.BroadcastsInDim S1x256x128 (![1, 2] : Fin 2 → Fin S1x256x128.rank)
  concatenates_S1x256x128_S1x256x128_S2x256x128_d0 : Shape.Concatenates [S1x256x128, S1x256x128] S2x256x128 0
  slices_S768x512_S128x512_0_0 : S768x512.Slices ![0, 0] S128x512
  slices_S768x512_S256x512_128_0 : S768x512.Slices ![128, 0] S256x512
  slices_S768x512_S128x512_384_0 : S768x512.Slices ![384, 0] S128x512
  slices_S768x512_S256x512_512_0 : S768x512.Slices ![512, 0] S256x512
  slices_S384x512_S128x512_0_0 : S384x512.Slices ![0, 0] S128x512
  slices_S384x512_S128x512_128_0 : S384x512.Slices ![128, 0] S128x512
  slices_S384x512_S128x512_256_0 : S384x512.Slices ![256, 0] S128x512
  shapeCasts_S512_S1x512 : S512.ShapeCasts S1x512
  shapeCasts_S128_S1x128 : S128.ShapeCasts S1x128
  bcast_S1x512_S256x512_0_1 : S1x512.BroadcastsInDim S256x512 (![0, 1] : Fin 2 → Fin S256x512.rank)
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S256x512_S256x1x512 : S256x512.ShapeCasts S256x1x512
  shapeCasts_S16x512_S1x16x512 : S16x512.ShapeCasts S1x16x512
  broadcasts_S256x1x512_S256x16x512 : S256x1x512.Broadcasts S256x16x512
  broadcasts_S1x16x512_S256x16x512 : S1x16x512.Broadcasts S256x16x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256x16x512_S4096x512 : S256x16x512.ShapeCasts S4096x512
  shapeCasts_S4096x512_S256x16x512 : S4096x512.ShapeCasts S256x16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S4096x128_S256x16x128 : S4096x128.ShapeCasts S256x16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S256x16x128 : S1x1x128.Broadcasts S256x16x128
  reduces_S256x16x128_S256x128 : S256x16x128.Reduces [1] S256x128
  slices_S2x256x128_S1x256x128_0_0_0 : S2x256x128.Slices ![0, 0, 0] S1x256x128
  slices_S2x256x128_S1x256x128_1_0_0 : S2x256x128.Slices ![1, 0, 0] S1x256x128
  bcast_S512_S1x512_1 : S512.BroadcastsInDim S1x512 (![1] : Fin 1 → Fin S1x512.rank)
  bcast_S_S256x512 : S_.BroadcastsInDim S256x512 (![] : Fin 0 → Fin S256x512.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  reducesTo_S256x128_S128_d0 : S256x128.ReducesTo [0] S128
  h_S_ : 0 < S_.numel
  concatenates_S1x128_S1x128_S2x128_d0 : Shape.Concatenates [S1x128, S1x128] S2x128 0
  bcast_S2x128_S2x1x128_0_2 : S2x128.BroadcastsInDim S2x1x128 (![0, 2] : Fin 2 → Fin S2x1x128.rank)
  bcast_S2x1x128_S2x256x128_0_1_2 : S2x1x128.BroadcastsInDim S2x256x128 (![0, 1, 2] : Fin 3 → Fin S2x256x128.rank)
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S32x1x128 : S32x128.ShapeCasts S32x1x128
  broadcasts_S32x1x128_S32x256x128 : S32x1x128.Broadcasts S32x256x128
  broadcasts_S1x256x128_S32x256x128 : S1x256x128.Broadcasts S32x256x128
  reduces_S32x256x128_S32x128 : S32x256x128.Reduces [1] S32x128
  shapeCasts_S32x128_S1x32x128 : S32x128.ShapeCasts S1x32x128
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  concatenates_S256x128_S256x128_S256x128_S256x384_d1 : Shape.Concatenates [S256x128, S256x128, S256x128] S256x384 1
  bcast_S_S1x128 : S_.BroadcastsInDim S1x128 (![] : Fin 0 → Fin S1x128.rank)
  concatenates_S256x128_S256x128_S256x256_d1 : Shape.Concatenates [S256x128, S256x128] S256x256 1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S1_d0 : S256x1.ReducesTo [0] S1
  bcast_S_S1 : S_.BroadcastsInDim S1 (![] : Fin 0 → Fin S1.rank)
  reducesTo_S1x128_S1_d1 : S1x128.ReducesTo [1] S1
  dot_S512x128_S128x512_S512x512_1_0_0_1_n_n_wf : DotDims.WF S512x128 S128x512 S512x512 [1] [0] [0] [1] [] []
  dot_S1x128_S128x512_S1x512_1_0_0_1_n_n_wf : DotDims.WF S1x128 S128x512 S1x512 [1] [0] [0] [1] [] []
  dot_S256x128_S128x512_S256x512_1_0_0_1_n_n_wf : DotDims.WF S256x128 S128x512 S256x512 [1] [0] [0] [1] [] []
  dot_S16x128_S128x512_S16x512_1_0_0_1_n_n_wf : DotDims.WF S16x128 S128x512 S16x512 [1] [0] [0] [1] [] []
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  dot_S256x512_S512x128_S256x128_1_0_0_1_n_n_wf : DotDims.WF S256x512 S512x128 S256x128 [1] [0] [0] [1] [] []
  dot_S256x384_S384x128_S256x128_1_0_0_1_n_n_wf : DotDims.WF S256x384 S384x128 S256x128 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S2x256x128.size a
  hwx0_0 : ∀ i : grid0.Coords, EltTy.bits .f32 = 32 ∨ (Rect.block (s := S2x256x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S2x256x128.size a
  hwx0_1 : ∀ i : grid0.Coords, EltTy.bits .f32 = 32 ∨ (Rect.block (s := S2x256x128) S1x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S256x512.size a
  hwx0_5 : ∀ i : grid0.Coords, EltTy.bits .f32 = 32 ∨ (Rect.block (s := S256x512) S16x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .bf16 = 32 ∨ (Rect.block (s := S128x512) S128x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .bf16 = 32 ∨ (Rect.block (s := S128x512) S128x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S512x128.size a
  hwx0_10 : ∀ i : grid0.Coords, EltTy.bits .bf16 = 32 ∨ (Rect.block (s := S512x128) S512x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x128.size a ≤ S2x256x128.size a
  hwx0_12 : ∀ i : grid0.Coords, EltTy.bits .f32 = 32 ∨ (Rect.block (s := S2x256x128) S1x256x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x128.size a ≤ S2x256x128.size a
  hwx1_0 : ∀ i : grid1.Coords, EltTy.bits .f32 = 32 ∨ (Rect.block (s := S2x256x128) S1x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S2x256x128.size a
  hwx1_1 : ∀ i : grid1.Coords, EltTy.bits .f32 = 32 ∨ (Rect.block (s := S2x256x128) S1x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x128.size a ≤ S2x256x128.size a
  hwx1_2 : ∀ i : grid1.Coords, EltTy.bits .f32 = 32 ∨ (Rect.block (s := S2x256x128) S1x32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x128.size a ≤ S2x256x128.size a
  hwx1_3 : ∀ i : grid1.Coords, EltTy.bits .f32 = 32 ∨ (Rect.block (s := S2x256x128) S1x32x128.size (cc1_transform_3 i) (hinb1_3 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S16x128_S128x512_S16x512_1_0_0_1_n_n : DotDims S16x128 S128x512 S16x512 where
  lhsContracting := [1]
  rhsContracting := [0]
  lhsNonContracting := [0]
  rhsNonContracting := [1]
  lhsBatch := []
  rhsBatch := []
  wf := dot_S16x128_S128x512_S16x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_v2) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S128x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S512x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S1x256x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v52) S1x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x32x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x128 : Shape := ⟨2, ![256, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S768x512 : Shape := ⟨2, ![768, 512]⟩
abbrev S384x512 : Shape := ⟨2, ![384, 512]⟩
abbrev S384x128 : Shape := ⟨2, ![384, 128]⟩
abbrev S256x1 : Shape := ⟨2, ![256, 1]⟩
abbrev S1 : Shape := ⟨1, ![1]⟩
abbrev S256x512 : Shape := ⟨2, ![256, 512]⟩
abbrev S1x512 : Shape := ⟨2, ![1, 512]⟩
abbrev S_ : Shape := ⟨0, ![]⟩
abbrev S1x128 : Shape := ⟨2, ![1, 128]⟩
abbrev S256x256 : Shape := ⟨2, ![256, 256]⟩
abbrev S256x384 : Shape := ⟨2, ![256, 384]⟩
abbrev S256x1x384 : Shape := ⟨3, ![256, 1, 384]⟩
abbrev S256x256x384 : Shape := ⟨3, ![256, 256, 384]⟩
abbrev S1x256x384 : Shape := ⟨3, ![1, 256, 384]⟩
abbrev S256x256x768 : Shape := ⟨3, ![256, 256, 768]⟩
abbrev S65536x768 : Shape := ⟨2, ![65536, 768]⟩
abbrev S65536x512 : Shape := ⟨2, ![65536, 512]⟩
abbrev S65536x128 : Shape := ⟨2, ![65536, 128]⟩
abbrev S256x256x128 : Shape := ⟨3, ![256, 256, 128]⟩
abbrev S256x1x128 : Shape := ⟨3, ![256, 1, 128]⟩
abbrev S1x256x128 : Shape := ⟨3, ![1, 256, 128]⟩
abbrev S65536x384 : Shape := ⟨2, ![65536, 384]⟩
abbrev S256 : Shape := ⟨1, ![256]⟩
abbrev S1x1 : Shape := ⟨2, ![1, 1]⟩

abbrev nBuf : Space → Nat
  | .hbm => 330
  | .vmem => 0
  | .smem => 0
  | _ => 0

abbrev hbmTy0_0 (i : Nat) : BufTy := match i % 128 with
  | 0 => ⟨S256x128, .f32⟩
  | 1 => ⟨S256x128, .f32⟩
  | 2 => ⟨S128x512, .f32⟩
  | 3 => ⟨S512, .f32⟩
  | 4 => ⟨S512x128, .f32⟩
  | 5 => ⟨S128, .f32⟩
  | 6 => ⟨S768x512, .f32⟩
  | 7 => ⟨S512, .f32⟩
  | 8 => ⟨S512x128, .f32⟩
  | 9 => ⟨S128, .f32⟩
  | 10 => ⟨S384x512, .f32⟩
  | 11 => ⟨S512, .f32⟩
  | 12 => ⟨S512x128, .f32⟩
  | 13 => ⟨S128, .f32⟩
  | 14 => ⟨S384x128, .f32⟩
  | 15 => ⟨S128, .f32⟩
  | 16 => ⟨S256x1, .f32⟩
  | 17 => ⟨S1, .f32⟩
  | 18 => ⟨S256x512, .f32⟩
  | 19 => ⟨S1x512, .f32⟩
  | 20 => ⟨S256x512, .f32⟩
  | 21 => ⟨S256x512, .f32⟩
  | 22 => ⟨S_, .f32⟩
  | 23 => ⟨S256x512, .f32⟩
  | 24 => ⟨S256x512, .f32⟩
  | 25 => ⟨S256x128, .f32⟩
  | 26 => ⟨S1x128, .f32⟩
  | 27 => ⟨S256x128, .f32⟩
  | 28 => ⟨S256x128, .f32⟩
  | 29 => ⟨S256x512, .f32⟩
  | 30 => ⟨S1x512, .f32⟩
  | 31 => ⟨S256x512, .f32⟩
  | 32 => ⟨S256x512, .f32⟩
  | 33 => ⟨S_, .f32⟩
  | 34 => ⟨S256x512, .f32⟩
  | 35 => ⟨S256x512, .f32⟩
  | 36 => ⟨S256x128, .f32⟩
  | 37 => ⟨S1x128, .f32⟩
  | 38 => ⟨S256x128, .f32⟩
  | 39 => ⟨S256x128, .f32⟩
  | 40 => ⟨S256x256, .i32⟩
  | 41 => ⟨S256x256, .i32⟩
  | 42 => ⟨S_, .i32⟩
  | 43 => ⟨S256x256, .i32⟩
  | 44 => ⟨S256x256, .i32⟩
  | 45 => ⟨S256x256, .i1⟩
  | 46 => ⟨S256x256, .f32⟩
  | 47 => ⟨S256x384, .f32⟩
  | 48 => ⟨S256x1x384, .f32⟩
  | 49 => ⟨S256x256x384, .f32⟩
  | 50 => ⟨S1x256x384, .f32⟩
  | 51 => ⟨S256x256x384, .f32⟩
  | 52 => ⟨S256x256x768, .f32⟩
  | 53 => ⟨S65536x768, .f32⟩
  | 54 => ⟨S65536x512, .f32⟩
  | 55 => ⟨S1x512, .f32⟩
  | 56 => ⟨S65536x512, .f32⟩
  | 57 => ⟨S65536x512, .f32⟩
  | 58 => ⟨S_, .f32⟩
  | 59 => ⟨S65536x512, .f32⟩
  | 60 => ⟨S65536x512, .f32⟩
  | 61 => ⟨S65536x128, .f32⟩
  | 62 => ⟨S1x128, .f32⟩
  | 63 => ⟨S65536x128, .f32⟩
  | 64 => ⟨S65536x128, .f32⟩
  | 65 => ⟨S256x256x128, .f32⟩
  | 66 => ⟨S256x256, .i32⟩
  | 67 => ⟨S256x256, .i32⟩
  | 68 => ⟨S_, .i32⟩
  | 69 => ⟨S256x256, .i32⟩
  | 70 => ⟨S256x256, .i32⟩
  | 71 => ⟨S256x256, .i1⟩
  | 72 => ⟨S256x256, .f32⟩
  | 73 => ⟨S256x384, .f32⟩
  | 74 => ⟨S256x1x384, .f32⟩
  | 75 => ⟨S256x256x384, .f32⟩
  | 76 => ⟨S1x256x384, .f32⟩
  | 77 => ⟨S256x256x384, .f32⟩
  | 78 => ⟨S256x256x768, .f32⟩
  | 79 => ⟨S65536x768, .f32⟩
  | 80 => ⟨S65536x512, .f32⟩
  | 81 => ⟨S1x512, .f32⟩
  | 82 => ⟨S65536x512, .f32⟩
  | 83 => ⟨S65536x512, .f32⟩
  | 84 => ⟨S_, .f32⟩
  | 85 => ⟨S65536x512, .f32⟩
  | 86 => ⟨S65536x512, .f32⟩
  | 87 => ⟨S65536x128, .f32⟩
  | 88 => ⟨S1x128, .f32⟩
  | 89 => ⟨S65536x128, .f32⟩
  | 90 => ⟨S65536x128, .f32⟩
  | 91 => ⟨S256x256x128, .f32⟩
  | 92 => ⟨S256x1x128, .f32⟩
  | 93 => ⟨S256x256x128, .f32⟩
  | 94 => ⟨S1x256x128, .f32⟩
  | 95 => ⟨S256x256x128, .f32⟩
  | 96 => ⟨S256x256x384, .f32⟩
  | 97 => ⟨S65536x384, .f32⟩
  | 98 => ⟨S65536x512, .f32⟩
  | 99 => ⟨S1x512, .f32⟩
  | 100 => ⟨S65536x512, .f32⟩
  | 101 => ⟨S65536x512, .f32⟩
  | 102 => ⟨S_, .f32⟩
  | 103 => ⟨S65536x512, .f32⟩
  | 104 => ⟨S65536x512, .f32⟩
  | 105 => ⟨S65536x128, .f32⟩
  | 106 => ⟨S1x128, .f32⟩
  | 107 => ⟨S65536x128, .f32⟩
  | 108 => ⟨S65536x128, .f32⟩
  | 109 => ⟨S256x256x128, .f32⟩
  | 110 => ⟨S_, .f32⟩
  | 111 => ⟨S256x128, .f32⟩
  | 112 => ⟨S_, .f32⟩
  | 113 => ⟨S256x128, .f32⟩
  | 114 => ⟨S256x128, .f32⟩
  | 115 => ⟨S256x1x128, .f32⟩
  | 116 => ⟨S256x256x128, .f32⟩
  | 117 => ⟨S1x256x128, .f32⟩
  | 118 => ⟨S256x256x128, .f32⟩
  | 119 => ⟨S256x256x384, .f32⟩
  | 120 => ⟨S65536x384, .f32⟩
  | 121 => ⟨S65536x512, .f32⟩
  | 122 => ⟨S1x512, .f32⟩
  | 123 => ⟨S65536x512, .f32⟩
  | 124 => ⟨S65536x512, .f32⟩
  | 125 => ⟨S_, .f32⟩
  | 126 => ⟨S65536x512, .f32⟩
  | 127 => ⟨S65536x512, .f32⟩
  | _ => ⟨S256x128, .f32⟩

abbrev hbmTy0_1 (i : Nat) : BufTy := match i % 128 with
  | 0 => ⟨S65536x128, .f32⟩
  | 1 => ⟨S1x128, .f32⟩
  | 2 => ⟨S65536x128, .f32⟩
  | 3 => ⟨S65536x128, .f32⟩
  | 4 => ⟨S256x256x128, .f32⟩
  | 5 => ⟨S_, .f32⟩
  | 6 => ⟨S256x128, .f32⟩
  | 7 => ⟨S_, .f32⟩
  | 8 => ⟨S256x128, .f32⟩
  | 9 => ⟨S256x128, .f32⟩
  | 10 => ⟨S256x1x128, .f32⟩
  | 11 => ⟨S1x256x128, .f32⟩
  | 12 => ⟨S256x256x128, .f32⟩
  | 13 => ⟨S256x256x128, .f32⟩
  | 14 => ⟨S256x256x128, .f32⟩
  | 15 => ⟨S256x256x128, .f32⟩
  | 16 => ⟨S_, .f32⟩
  | 17 => ⟨S256x128, .f32⟩
  | 18 => ⟨S256x1x128, .f32⟩
  | 19 => ⟨S256x256x128, .f32⟩
  | 20 => ⟨S256x256x128, .f32⟩
  | 21 => ⟨S1x256x128, .f32⟩
  | 22 => ⟨S256x256x128, .f32⟩
  | 23 => ⟨S256x256x128, .f32⟩
  | 24 => ⟨S_, .f32⟩
  | 25 => ⟨S256x128, .f32⟩
  | 26 => ⟨S_, .f32⟩
  | 27 => ⟨S256x128, .f32⟩
  | 28 => ⟨S256x128, .f32⟩
  | 29 => ⟨S256x1x128, .f32⟩
  | 30 => ⟨S1x256x128, .f32⟩
  | 31 => ⟨S256x256x128, .f32⟩
  | 32 => ⟨S256x256x128, .f32⟩
  | 33 => ⟨S256x256x128, .f32⟩
  | 34 => ⟨S256x256x128, .f32⟩
  | 35 => ⟨S_, .f32⟩
  | 36 => ⟨S256x128, .f32⟩
  | 37 => ⟨S256x1x128, .f32⟩
  | 38 => ⟨S256x256x128, .f32⟩
  | 39 => ⟨S256x256x128, .f32⟩
  | 40 => ⟨S1x256x128, .f32⟩
  | 41 => ⟨S256x256x128, .f32⟩
  | 42 => ⟨S256x256x128, .f32⟩
  | 43 => ⟨S_, .f32⟩
  | 44 => ⟨S256x128, .f32⟩
  | 45 => ⟨S_, .f32⟩
  | 46 => ⟨S256x128, .f32⟩
  | 47 => ⟨S256x128, .f32⟩
  | 48 => ⟨S256x128, .f32⟩
  | 49 => ⟨S_, .f32⟩
  | 50 => ⟨S256, .f32⟩
  | 51 => ⟨S256x1, .f32⟩
  | 52 => ⟨S256x1, .f32⟩
  | 53 => ⟨S_, .f32⟩
  | 54 => ⟨S256x1, .f32⟩
  | 55 => ⟨S256x1, .f32⟩
  | 56 => ⟨S256x128, .f32⟩
  | 57 => ⟨S256x128, .f32⟩
  | 58 => ⟨S256x128, .f32⟩
  | 59 => ⟨S_, .f32⟩
  | 60 => ⟨S256, .f32⟩
  | 61 => ⟨S256x1, .f32⟩
  | 62 => ⟨S256x1, .f32⟩
  | 63 => ⟨S_, .f32⟩
  | 64 => ⟨S256x1, .f32⟩
  | 65 => ⟨S256x1, .f32⟩
  | 66 => ⟨S256x128, .f32⟩
  | 67 => ⟨S256x128, .f32⟩
  | 68 => ⟨S256x128, .f32⟩
  | 69 => ⟨S_, .f32⟩
  | 70 => ⟨S256, .f32⟩
  | 71 => ⟨S256x1, .f32⟩
  | 72 => ⟨S256x1, .f32⟩
  | 73 => ⟨S_, .f32⟩
  | 74 => ⟨S256x1, .f32⟩
  | 75 => ⟨S256x1, .f32⟩
  | 76 => ⟨S256x128, .f32⟩
  | 77 => ⟨S256x128, .f32⟩
  | 78 => ⟨S256x384, .f32⟩
  | 79 => ⟨S256x128, .f32⟩
  | 80 => ⟨S1x128, .f32⟩
  | 81 => ⟨S256x128, .f32⟩
  | 82 => ⟨S256x128, .f32⟩
  | 83 => ⟨S256x128, .f32⟩
  | 84 => ⟨S_, .f32⟩
  | 85 => ⟨S256, .f32⟩
  | 86 => ⟨S256x1, .f32⟩
  | 87 => ⟨S256x1, .f32⟩
  | 88 => ⟨S_, .f32⟩
  | 89 => ⟨S256x1, .f32⟩
  | 90 => ⟨S256x1, .f32⟩
  | 91 => ⟨S256x128, .f32⟩
  | 92 => ⟨S256x128, .f32⟩
  | 93 => ⟨S256x128, .f32⟩
  | 94 => ⟨S_, .f32⟩
  | 95 => ⟨S256, .f32⟩
  | 96 => ⟨S256x1, .f32⟩
  | 97 => ⟨S256x1, .f32⟩
  | 98 => ⟨S_, .f32⟩
  | 99 => ⟨S256x1, .f32⟩
  | 100 => ⟨S256x1, .f32⟩
  | 101 => ⟨S256x128, .f32⟩
  | 102 => ⟨S256x128, .f32⟩
  | 103 => ⟨S256x128, .f32⟩
  | 104 => ⟨S_, .f32⟩
  | 105 => ⟨S256, .f32⟩
  | 106 => ⟨S256x1, .f32⟩
  | 107 => ⟨S256x1, .f32⟩
  | 108 => ⟨S_, .f32⟩
  | 109 => ⟨S256x1, .f32⟩
  | 110 => ⟨S256x1, .f32⟩
  | 111 => ⟨S256x128, .f32⟩
  | 112 => ⟨S256x128, .f32⟩
  | 113 => ⟨S256x384, .f32⟩
  | 114 => ⟨S256x128, .f32⟩
  | 115 => ⟨S1x128, .f32⟩
  | 116 => ⟨S256x128, .f32⟩
  | 117 => ⟨S256x128, .f32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S256x128, .f32⟩
  | 125 => ⟨S256x256, .f32⟩
  | 126 => ⟨S256x1, .f32⟩
  | 127 => ⟨S1x1, .f32⟩
  | _ => ⟨S256x128, .f32⟩

abbrev hbmTy0_2 (i : Nat) : BufTy := match i % 128 with
  | 0 => ⟨S256x1, .f32⟩
  | 1 => ⟨S256x1, .f32⟩
  | 2 => ⟨S_, .f32⟩
  | 3 => ⟨S1, .f32⟩
  | 4 => ⟨S_, .f32⟩
  | 5 => ⟨S1, .f32⟩
  | 6 => ⟨S1, .f32⟩
  | 7 => ⟨S1x1, .f32⟩
  | 8 => ⟨S256x1, .f32⟩
  | 9 => ⟨S256x1, .f32⟩
  | 10 => ⟨S256x1, .f32⟩
  | 11 => ⟨S_, .f32⟩
  | 12 => ⟨S1, .f32⟩
  | 13 => ⟨S1x1, .f32⟩
  | 14 => ⟨S256x1, .f32⟩
  | 15 => ⟨S256x1, .f32⟩
  | 16 => ⟨S256x128, .f32⟩
  | 17 => ⟨S256x128, .f32⟩
  | 18 => ⟨S_, .f32⟩
  | 19 => ⟨S128, .f32⟩
  | 20 => ⟨S1x128, .f32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S256x128, .f32⟩
  | 28 => ⟨S256x256, .f32⟩
  | 29 => ⟨S256x1, .f32⟩
  | 30 => ⟨S1x1, .f32⟩
  | 31 => ⟨S256x1, .f32⟩
  | 32 => ⟨S256x1, .f32⟩
  | 33 => ⟨S_, .f32⟩
  | 34 => ⟨S1, .f32⟩
  | 35 => ⟨S_, .f32⟩
  | 36 => ⟨S1, .f32⟩
  | 37 => ⟨S1, .f32⟩
  | 38 => ⟨S1x1, .f32⟩
  | 39 => ⟨S256x1, .f32⟩
  | 40 => ⟨S256x1, .f32⟩
  | 41 => ⟨S256x1, .f32⟩
  | 42 => ⟨S_, .f32⟩
  | 43 => ⟨S1, .f32⟩
  | 44 => ⟨S1x1, .f32⟩
  | 45 => ⟨S256x1, .f32⟩
  | 46 => ⟨S256x1, .f32⟩
  | 47 => ⟨S256x128, .f32⟩
  | 48 => ⟨S256x128, .f32⟩
  | 49 => ⟨S_, .f32⟩
  | 50 => ⟨S128, .f32⟩
  | 51 => ⟨S1x128, .f32⟩
  | 52 => ⟨S1x128, .f32⟩
  | 53 => ⟨S_, .f32⟩
  | 54 => ⟨S1, .f32⟩
  | 55 => ⟨S1x128, .f32⟩
  | 56 => ⟨S_, .f32⟩
  | 57 => ⟨S1, .f32⟩
  | 58 => ⟨S1, .f32⟩
  | 59 => ⟨S1x128, .f32⟩
  | 60 => ⟨S_, .f32⟩
  | 61 => ⟨S1, .f32⟩
  | 62 => ⟨S1, .f32⟩
  | 63 => ⟨S1, .f32⟩
  | 64 => ⟨S_, .f32⟩
  | 65 => ⟨S1, .f32⟩
  | 66 => ⟨S1, .f32⟩
  | 67 => ⟨S1, .f32⟩
  | 68 => ⟨S_, .f32⟩
  | 69 => ⟨S1, .f32⟩
  | 70 => ⟨S1, .f32⟩
  | 71 => ⟨S_, .f32⟩
  | 72 => ⟨S1, .f32⟩
  | 73 => ⟨S1, .f32⟩
  | _ => ⟨S256x128, .f32⟩

abbrev hbmTy (i : Nat) : BufTy := match i / 128 with
  | 0 => hbmTy0_0 i
  | 1 => hbmTy0_1 i
  | 2 => hbmTy0_2 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call2_cst : Ref sig .tc := ⟨.hbm, 58, rfl⟩
abbrev main_call2_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call3_cst : Ref sig .tc := ⟨.hbm, 84, rfl⟩
abbrev main_call3_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call4_cst : Ref sig .tc := ⟨.hbm, 102, rfl⟩
abbrev main_call4_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst : Ref sig .tc := ⟨.hbm, 110, rfl⟩
abbrev main_v80 : Ref sig .tc := ⟨.hbm, 111, rfl⟩
abbrev main_cst_1 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call5_cst : Ref sig .tc := ⟨.hbm, 125, rfl⟩
abbrev main_call5_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_2 : Ref sig .tc := ⟨.hbm, 133, rfl⟩
abbrev main_v99 : Ref sig .tc := ⟨.hbm, 134, rfl⟩
abbrev main_cst_3 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_4 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_5 : Ref sig .tc := ⟨.hbm, 152, rfl⟩
abbrev main_v115 : Ref sig .tc := ⟨.hbm, 153, rfl⟩
abbrev main_cst_6 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_7 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_8 : Ref sig .tc := ⟨.hbm, 171, rfl⟩
abbrev main_v131 : Ref sig .tc := ⟨.hbm, 172, rfl⟩
abbrev main_cst_9 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_10 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_11 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_12 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_13 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_14 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_15 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_16 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_17 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_cst_18 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_19 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_20 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_21 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_22 : Ref sig .tc := ⟨.hbm, 246, rfl⟩
abbrev main_v192 : Ref sig .tc := ⟨.hbm, 247, rfl⟩
abbrev main_v193 : Ref sig .tc := ⟨.hbm, 248, rfl⟩
abbrev main_cst_23 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_cst_24 : Ref sig .tc := ⟨.hbm, 258, rfl⟩
abbrev main_v202 : Ref sig .tc := ⟨.hbm, 259, rfl⟩
abbrev main_cst_25 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_26 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_27 : Ref sig .tc := ⟨.hbm, 274, rfl⟩
abbrev main_v215 : Ref sig .tc := ⟨.hbm, 275, rfl⟩
abbrev main_v216 : Ref sig .tc := ⟨.hbm, 276, rfl⟩
abbrev main_cst_28 : Ref sig .tc := ⟨.hbm, 277, rfl⟩
abbrev main_v217 : Ref sig .tc := ⟨.hbm, 278, rfl⟩
abbrev main_v218 : Ref sig .tc := ⟨.hbm, 279, rfl⟩
abbrev main_cst_29 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_30 : Ref sig .tc := ⟨.hbm, 289, rfl⟩
abbrev main_v227 : Ref sig .tc := ⟨.hbm, 290, rfl⟩
abbrev main_cst_31 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_cst_32 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_cst_33 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_34 : Ref sig .tc := ⟨.hbm, 309, rfl⟩
abbrev main_v243 : Ref sig .tc := ⟨.hbm, 310, rfl⟩
abbrev main_call6_v0 : Ref sig .tc := ⟨.hbm, 311, rfl⟩
abbrev main_call6_cst : Ref sig .tc := ⟨.hbm, 312, rfl⟩
abbrev main_call6_v1 : Ref sig .tc := ⟨.hbm, 313, rfl⟩
abbrev main_v244 : Ref sig .tc := ⟨.hbm, 314, rfl⟩
abbrev main_call7_v0 : Ref sig .tc := ⟨.hbm, 315, rfl⟩
abbrev main_call7_cst : Ref sig .tc := ⟨.hbm, 316, rfl⟩
abbrev main_call7_v1 : Ref sig .tc := ⟨.hbm, 317, rfl⟩
abbrev main_v245 : Ref sig .tc := ⟨.hbm, 318, rfl⟩
abbrev main_v246 : Ref sig .tc := ⟨.hbm, 319, rfl⟩
abbrev main_cst_35 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_cst_36 : Ref sig .tc := ⟨.hbm, 324, rfl⟩
abbrev main_v250 : Ref sig .tc := ⟨.hbm, 325, rfl⟩
abbrev main_v251 : Ref sig .tc := ⟨.hbm, 326, rfl⟩
abbrev main_cst_37 : Ref sig .tc := ⟨.hbm, 327, rfl⟩
abbrev main_v252 : Ref sig .tc := ⟨.hbm, 328, rfl⟩
abbrev main_v253 : Ref sig .tc := ⟨.hbm, 329, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x256 : S_.BroadcastsInDim S256x256 (![] : Fin 0 → Fin S256x256.rank)
  concatenates_S256x128_S256x256_S256x384_d1 : Shape.Concatenates [S256x128, S256x256] S256x384 1
  bcast_S256x384_S256x1x384_0_2 : S256x384.BroadcastsInDim S256x1x384 (![0, 2] : Fin 2 → Fin S256x1x384.rank)
  bcast_S256x1x384_S256x256x384_0_1_2 : S256x1x384.BroadcastsInDim S256x256x384 (![0, 1, 2] : Fin 3 → Fin S256x256x384.rank)
  bcast_S256x384_S1x256x384_1_2 : S256x384.BroadcastsInDim S1x256x384 (![1, 2] : Fin 2 → Fin S1x256x384.rank)
  bcast_S1x256x384_S256x256x384_0_1_2 : S1x256x384.BroadcastsInDim S256x256x384 (![0, 1, 2] : Fin 3 → Fin S256x256x384.rank)
  concatenates_S256x256x384_S256x256x384_S256x256x768_d2 : Shape.Concatenates [S256x256x384, S256x256x384] S256x256x768 2
  shapeCasts_S256x256x768_S65536x768 : S256x256x768.ShapeCasts S65536x768
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S1x128_S65536x128_0_1 : S1x128.BroadcastsInDim S65536x128 (![0, 1] : Fin 2 → Fin S65536x128.rank)
  shapeCasts_S65536x128_S256x256x128 : S65536x128.ShapeCasts S256x256x128
  bcast_S256x128_S256x1x128_0_2 : S256x128.BroadcastsInDim S256x1x128 (![0, 2] : Fin 2 → Fin S256x1x128.rank)
  bcast_S256x1x128_S256x256x128_0_1_2 : S256x1x128.BroadcastsInDim S256x256x128 (![0, 1, 2] : Fin 3 → Fin S256x256x128.rank)
  bcast_S256x128_S1x256x128_1_2 : S256x128.BroadcastsInDim S1x256x128 (![1, 2] : Fin 2 → Fin S1x256x128.rank)
  bcast_S1x256x128_S256x256x128_0_1_2 : S1x256x128.BroadcastsInDim S256x256x128 (![0, 1, 2] : Fin 3 → Fin S256x256x128.rank)
  concatenates_S256x256x128_S256x256x128_S256x256x128_S256x256x384_d2 : Shape.Concatenates [S256x256x128, S256x256x128, S256x256x128] S256x256x384 2
  shapeCasts_S256x256x384_S65536x384 : S256x256x384.ShapeCasts S65536x384
  reducesTo_S256x256x128_S256x128_d1 : S256x256x128.ReducesTo [1] S256x128
  h_S_ : 0 < S_.numel
  bcast_S_S256x128 : S_.BroadcastsInDim S256x128 (![] : Fin 0 → Fin S256x128.rank)
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  concatenates_S256x128_S256x128_S256x128_S256x384_d1 : Shape.Concatenates [S256x128, S256x128, S256x128] S256x384 1
  reducesTo_S256x128_S128_d0 : S256x128.ReducesTo [0] S128
  bcast_S_S1x128 : S_.BroadcastsInDim S1x128 (![] : Fin 0 → Fin S1x128.rank)
  concatenates_S256x128_S256x128_S256x256_d1 : Shape.Concatenates [S256x128, S256x128] S256x256 1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S1_d0 : S256x1.ReducesTo [0] S1
  bcast_S_S1 : S_.BroadcastsInDim S1 (![] : Fin 0 → Fin S1.rank)
  reducesTo_S1x128_S1_d1 : S1x128.ReducesTo [1] S1
  dot_S256x128_S128x512_S256x512_1_0_0_1_n_n_wf : DotDims.WF S256x128 S128x512 S256x512 [1] [0] [0] [1] [] []
  dot_S256x512_S512x128_S256x128_1_0_0_1_n_n_wf : DotDims.WF S256x512 S512x128 S256x128 [1] [0] [0] [1] [] []
  dot_S65536x768_S768x512_S65536x512_1_0_0_1_n_n_wf : DotDims.WF S65536x768 S768x512 S65536x512 [1] [0] [0] [1] [] []
  dot_S65536x512_S512x128_S65536x128_1_0_0_1_n_n_wf : DotDims.WF S65536x512 S512x128 S65536x128 [1] [0] [0] [1] [] []
  dot_S65536x384_S384x512_S65536x512_1_0_0_1_n_n_wf : DotDims.WF S65536x384 S384x512 S65536x512 [1] [0] [0] [1] [] []
  dot_S256x384_S384x128_S256x128_1_0_0_1_n_n_wf : DotDims.WF S256x384 S384x128 S256x128 [1] [0] [0] [1] [] []
  dot_S256x256_S256x1_S256x1_1_0_0_1_n_n_wf : DotDims.WF S256x256 S256x1 S256x1 [1] [0] [0] [1] [] []

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S65536x768_S768x512_S65536x512_1_0_0_1_n_n : DotDims S65536x768 S768x512 S65536x512 where
  lhsContracting := [1]
  rhsContracting := [0]
  lhsNonContracting := [0]
  rhsNonContracting := [1]
  lhsBatch := []
  rhsBatch := []
  wf := dot_S65536x768_S768x512_S65536x512_1_0_0_1_n_n_wf
def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf
def dot_S65536x384_S384x512_S65536x512_1_0_0_1_n_n : DotDims S65536x384 S384x512 S65536x512 where
  lhsContracting := [1]
  rhsContracting := [0]
  lhsNonContracting := [0]
  rhsNonContracting := [1]
  lhsBatch := []
  rhsBatch := []
  wf := dot_S65536x384_S384x512_S65536x512_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.Reg0Defs.lean ====
/- The first pallas_call, at the buffer contents `V` found when its region is entered: the block each window
   stages at a grid point, the running sum its output block carries along the second grid axis, and the
   pipeline's proof data over them. The grid is 2 × 16, point `t` has coordinates (t / 16, t % 16); the output
   block depends on the first coordinate only, so it is zeroed where t % 16 = 0, gains one tile's partial sum at
   every point, is divided by 256 where t % 16 = 15 and is written back there. -/
import proofs.«418941_j65867618451820_3_alg».proof.Proof.Gen.KernelIdeal.Launch
import proofs.«418941_j65867618451820_3_alg».proof.Proof.Gen.KernelIdeal.Skeleton
import proofs.«418941_j65867618451820_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point's update of the carried block, over the twelve blocks the point reads: the tile of messages
    (two layers of matrix products over the pair terms of the 256 nodes with the tile's 16 nodes), summed over
    the tile's nodes, added to what the block held (`prev`). -/
def step0 (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32) (prev : Vec F S1x256x128 .f32) : Vec F S1x256x128 .f32 :=
  k0_pay6 (k0_pay3 x0) (k0_pay4 x1) (k0_pay5 x0 x1 x2 x4 x3 x5 x6) x7 x8 x9 x10 x11 prev

/-- The update at point `t`: `step0` of the windows' blocks there. -/
def stepAt0 (c : Dev nD) (t : Fin cfg0.N) (prev : Vec F S1x256x128 .f32) : Vec F S1x256x128 .f32 :=
  step0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) prev

/-- What the output's staging buffer holds after the body at point `n`: at a point with n % 16 = 0 the update of
    the zero block; otherwise the update of what the point before left; at a point with n % 16 = 15 that update
    divided by 256. -/
def acc0 (c : Dev nD) : (n : ℕ) → n < cfg0.N → Vec F S1x256x128 .f32
  | 0, hn => stepAt0 V c ⟨0, hn⟩ k0_pay2
  | n + 1, hn =>
    if (n + 1) % 16 = 0 then stepAt0 V c ⟨n + 1, hn⟩ k0_pay2
    else if (n + 1) % 16 = 15 then k0_pay1 (stepAt0 V c ⟨n + 1, hn⟩ (acc0 c n (Nat.lt_of_succ_lt hn)))
    else stepAt0 V c ⟨n + 1, hn⟩ (acc0 c n (Nat.lt_of_succ_lt hn))

/-- At a point that starts a row of the grid the carried block is the update of zeros. -/
theorem acc0_A (c : Dev nD) (t : Fin cfg0.N) (h : t.val % 16 = 0) :
    acc0 V c t.val t.isLt = stepAt0 V c t k0_pay2 := by
  obtain ⟨n, hn⟩ := t
  cases n with
  | zero => exact rfl
  | succ n => exact (if_pos h).trans rfl

/-- Inside a row it is the update of what the point before left. -/
theorem acc0_B (c : Dev nD) (t : Fin cfg0.N) (h0 : ¬t.val % 16 = 0) (h15 : ¬t.val % 16 = 15) :
    acc0 V c t.val t.isLt = stepAt0 V c t (acc0 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h15).trans rfl)

/-- At a row's last point it is that update divided by 256. -/
theorem acc0_C (c : Dev nD) (t : Fin cfg0.N) (h15 : t.val % 16 = 15) :
    acc0 V c t.val t.isLt = k0_pay1 (stepAt0 V c t (acc0 V c (t.val - 1) (Nat.lt_of_le_of_lt (Nat.sub_le _ _) t.isLt))) := by
  obtain ⟨n, hn⟩ := t
  cases n with
  | zero => exact absurd (show (0 : ℕ) % 16 = 15 from h15) (by decide)
  | succ n =>
    have h0 : ¬(n + 1) % 16 = 0 := fun h => by have h15' : (n + 1) % 16 = 15 := h15; omega
    exact (if_neg h0).trans ((if_pos h15).trans rfl)

/-- The proof data of the first pipeline on core `c`: the arrays as the region finds them; after the body at
    point `t` each input's buffer at its block and the output's at `acc0`; the two windows that stage blocks of
    the same array hold complementary halves of it, every other window its whole array; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => acc0 V c t.val t.isLt
  Φ _ := Pipeline.ΦA spec0 c
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = acc0 V c t.val t.isLt := by dsimp only [dat0]

end Region0

end Cert.KernelIdeal.Hand

end
-- ==== Proof.Reg1.lean ====
/- The second pipelined call (the cross-graph interaction), frame side, at any float model: what the body
   leaves in its output block as a function of the three input blocks, the body's triple, the pipeline's proof
   data at the contents the region is entered with, and the body obligation at every grid point. -/
import proofs.«418941_j65867618451820_3_alg».proof.Proof.Gen.KernelIdeal.Launch
import proofs.«418941_j65867618451820_3_alg».proof.Proof.Gen.KernelIdeal.Skeleton
import proofs.«418941_j65867618451820_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data over the entry arrays whose body leaves the block in place: at a fetched point the fetch put the block
    there; at an unfetched one the block index is the previous point's, whose block the body left untouched.
    None of the three input windows is cut or ever idle. Window 0 (the first graph's tile): -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have kept : ∀ s, (cfg1.win 0).cut (cfg1.grid.coords s) (dat.after 0 s) = dat.blockOf 0 s := by
    intro s
    rw [hafter s]
    unfold Dat.blockOf iblk1
    rw [hA]
  have uncut : ∀ s s' : Fin cfg1.N, (cfg1.win 0).index s = (cfg1.win 0).index s' →
      (cfg1.win 0).clip (cfg1.grid.coords s) = (cfg1.win 0).clip (cfg1.grid.coords s') := fun _ _ _ => rfl
  rw [dat.before_in_eq_fetched 0 rfl (fun _ => rfl) uncut kept t d]
  unfold Dat.fetched Dat.blockOf iblk1
  rw [hA]
  rfl

/-- window 1 (the second graph's whole slab, fetched only when the first grid coordinate moves): -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have kept : ∀ s, (cfg1.win 1).cut (cfg1.grid.coords s) (dat.after 1 s) = dat.blockOf 1 s := by
    intro s
    rw [hafter s]
    unfold Dat.blockOf iblk1
    rw [hA]
  have uncut : ∀ s s' : Fin cfg1.N, (cfg1.win 1).index s = (cfg1.win 1).index s' →
      (cfg1.win 1).clip (cfg1.grid.coords s) = (cfg1.win 1).clip (cfg1.grid.coords s') := fun _ _ _ => rfl
  rw [dat.before_in_eq_fetched 1 rfl (fun _ => rfl) uncut kept t d]
  unfold Dat.fetched Dat.blockOf iblk1
  rw [hA]
  rfl

/-- window 2 (the denominators' tile): -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have kept : ∀ s, (cfg1.win 2).cut (cfg1.grid.coords s) (dat.after 2 s) = dat.blockOf 2 s := by
    intro s
    rw [hafter s]
    unfold Dat.blockOf iblk1
    rw [hA]
  have uncut : ∀ s s' : Fin cfg1.N, (cfg1.win 2).index s = (cfg1.win 2).index s' →
      (cfg1.win 2).clip (cfg1.grid.coords s) = (cfg1.win 2).clip (cfg1.grid.coords s') := fun _ _ _ => rfl
  rw [dat.before_in_eq_fetched 2 rfl (fun _ => rfl) uncut kept t d]
  unfold Dat.fetched Dat.blockOf iblk1
  rw [hA]
  rfl

/-! ## The body's accesses: each buffer whole, through the unit rectangle at the origin -/

abbrev rTile : Rect S1x32x128 := Rect.unit (s := S1x32x128) ![0, 0, 0] S1x32x128.size inb_S1x32x128_S1x32x128_0_0_0
abbrev rSlab : Rect S1x256x128 := Rect.unit (s := S1x256x128) ![0, 0, 0] S1x256x128.size inb_S1x256x128_S1x256x128_0_0_0

theorem origin3 : (![0, 0, 0] : Fin 3 → Nat) = fun _ => 0 := funext fun a => by fin_cases a <;> rfl

/-! ## What the body leaves in the output window's buffer -/

/-- The output buffer after the body, from the three input blocks: its one store as a piece. -/
def out1_3 (x0 : Vec F S1x32x128 .f32) (x1 : Vec F S1x256x128 .f32) (x2 : Vec F S1x32x128 .f32) : Vec F S1x32x128 .f32 :=
  View.canon [⟨rTile, k1_pay1 (View.ld x0 rTile) (View.ld x1 rSlab) (View.ld x2 rTile)⟩]

/-- The one store is of the whole buffer, so it covers it. -/
theorem cover1_3 (p0 : Vec F S1x32x128 .f32) (y : S1x32x128.Idx) :
    ∃ pc ∈ ([⟨rTile, p0⟩] : List (View.Piece (Elt F) S1x32x128 .f32)), y ∈ pc.1.set :=
  ⟨_, List.mem_singleton_self _, View.mem_set_unit_zero (S := S1x32x128) origin3 inb_S1x32x128_S1x32x128_0_0_0 y⟩

/-- The whole-buffer loads read the blocks and the whole-buffer store leaves its payload: the output buffer ends at
    the payload of the three input blocks. -/
theorem out1_3_eq (x0 : Vec F S1x32x128 .f32) (x1 : Vec F S1x256x128 .f32) (x2 : Vec F S1x32x128 .f32) :
    out1_3 x0 x1 x2 = k1_pay1 x0 x1 x2 := by
  unfold out1_3
  rw [View.canon_unit_zero (S := S1x32x128) origin3]
  simp only [View.ld_unit_zero (S := S1x32x128) origin3, View.ld_unit_zero (S := S1x256x128) origin3]

/-! ## The body's triple -/

set_option maxHeartbeats 1000000 in
/-- The kernel body on whole staging memrefs, the inputs' at read contents x0 x1 x2 and the output's at anything
    (the body reads the output buffer once before overwriting all of it; what it read is not used), runs to the
    continuation holding the inputs' as they were and the output's at out1_3 of the inputs'. -/
theorem sound_kernel1 (c : Dev nD) (E : Set ℕ) (i : grid1.Coords)
    (arg2 : Memref sig .tc .vmem S1x32x128 .f32) (harg2 : arg2.IsWhole)
    (arg3 : Memref sig .tc .vmem S1x256x128 .f32) (harg3 : arg3.IsWhole)
    (arg4 : Memref sig .tc .vmem S1x32x128 .f32) (harg4 : arg4.IsWhole)
    (arg5 : Memref sig .tc .vmem S1x32x128 .f32) (harg5 : arg5.IsWhole)
    (x0 : Vec F S1x32x128 .f32) (x1 : Vec F S1x256x128 .f32) (x2 : Vec F S1x32x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1_3 x0 x1 x2)) -∗ K ⟨⟩))
      ⊢ wp frame (wpE (defs₀ (F := F)) Variants.none c none) E (cc1__interact_kernel i arg2 harg2 arg3 harg3 arg4 harg4 arg5 harg5) K := by
  simp only [cc1__interact_kernel_eq_skeleton]; unfold cc1__interact_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core c: the arrays as the region finds them; after the body at point t
    each input's buffer at its block and the output's at out1_3 of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) :
    (dat1 V c).after 3 t = out1_3 (iblk1 V c 0 t) (iblk1 V c 1 t) (iblk1 V c 2 t) := by dsimp only [dat1]

/-- The output block the body leaves at point t is the payload of the three input blocks there. -/
theorem after1_3 (c : Dev nD) (t : Fin cfg1.N) :
    (dat1 V c).after 3 t = k1_pay1 (iblk1 V c 0 t) (iblk1 V c 1 t) (iblk1 V c 2 t) :=
  (after1_3' V c t).trans (out1_3_eq _ _ _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3']
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.LibSharedArrays.lean ====
import Idealize.ShloMosaic.Lib.Pipeline.FrameSuffix

/-!
# The frame run of a kernel whose input windows share arrays, with host lines after the region

One pallas_call, no prefetched table, a body that uses no semaphore of its own; several INPUT windows may stage
blocks of one array (a kernel handed `x` twice, once blocked by rows `(b, i)` and once by `(b, j)`). The arrays behind the
windows are then not pairwise distinct, so each shared array's full share is dealt among the windows on it — the
proof data's `q` — and joined again at the region's exit: `hdeal` states the dealing as an equation, at any contents,
between the buffers behind the arrays held whole (`arrBufs`) and the proof data's `arrays`.

The host lines after the region run within all the unscoped buffers, held whole again: the arrays at what the
library computes from the proof data (`W₁` on the arrays), the bypassing buffers at their entry contents. The post
reads every array at `Dat.arrAt … N` and every bypassing buffer at the lines' `StableHlo.after`.
-/

noncomputable section

namespace Idealize.ShloMosaic

open Idealize.SL
open Idealize.SL.BI (sProp bigSep bigSep_map bigSep_union bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

omit [Fintype P] [DecidableEq P] [∀ e, Nonempty (Val e)] in
/-- A core's unscoped buffers at contents `V` are the buffers behind the windows' arrays and the rest, the arrays
    distinct or not. -/
theorem unscopedBufs_arrBufs_rest (c : Dev nD) (hunscoped : ∀ w, (arrRef (cfg).spec w).isScoped = false)
    (V : (b : Ref sig .tc) → Buf Val ((c.tc : Thread nD τ).loc b)) :
    (unscopedBufs (Ix := Unit) (Name := ℕ) (U := UR sig nD τ) (Lvl := ℕ) c V : sProp 𝕄)
      = iprop((arrBufs (cfg).spec c V : sProp 𝕄) ∗ unscopedRest (cfg).spec c V) := by
  classical
  have hA : Finset.univ.image (arrRef (cfg).spec) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [bigSep_sdiff_split hA]
  rfl

/-- THE FRAME RUN with a tracking invariant, for windows that may SHARE ARRAYS, of an @main that continues after
    the region with the host lines `opss`. -/
theorem θ_run_frame_around_track_shared
    (hcell : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hdeal : ∀ (c : Dev nD) (W : (b : Ref sig .tc) → Buf Val ((c.tc : Thread nD τ).loc b))
      (F : (w : Fin (cfg).W) → Buf Val (((cfg).win w).arr.view.loc (c.tc : Thread nD τ))),
      (∀ w, F w = W (arrRef (cfg).spec w)) → (arrBufs (cfg).spec c W : sProp 𝕄) = (dats p c).arrays F)
    (hA : ∀ c w, (dats p c).A w = V₀ c (Proc.devRef .tc (arrRef (cfg).spec w)))
    (W₁ : Dev nD → Valuation τ sig Val)
    (hW₁arr : ∀ c w, (dats p c).arrAt w (cfg).N = W₁ c (Proc.devRef .tc (arrRef (cfg).spec w)))
    (hW₁rest : ∀ c, ∀ b ∈ restRefs sig (cfg).spec, W₁ c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (W₁ c) (Proc.devRef .tc b)) := by
  classical
  -- the arrays keep their contents through the lines
  have hW₂arr : ∀ c w, (dats p c).arrAt w (cfg).N = StableHlo.after opss.flatten (W₁ c) (Proc.devRef .tc (arrRef (cfg).spec w)) := fun c w => by
    rw [StableHlo.after_of_forall_not_mem _ _ fun op hop => ?_, hW₁arr]
    obtain ⟨ops, hops, hop'⟩ := List.mem_flatten.mp hop
    exact hkeep ops hops op hop' w
  exact θ_run_region_pf_tail (fun q => (cfgs q).toPCfg (Val := Val)) (fun q => (cfgs q).toPCfg_adm) dats () hcell p hw (OwnSemFacts.none (cfg).spec) (PreFacts.none _) emb₁ defs₀ 𝒱₀ m g main
    (fun _ => chain (opss.map StableHlo.seq)) hbody
    hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => Entails.of_eq (hdeal c _ _ fun w => hA c w))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c (fun b => StableHlo.after opss.flatten (W₁ c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [unscopedRestP_none, unscopedRestP_none]
      -- at the exit: the arrays and the bypassing buffers are all the unscoped buffers, at `W₁`
      have e₁ : iprop((dats p c).arrays ((dats p c).arrAt · (cfg).N) ∗ unscopedRest (cfg).spec c (fun b => V₀ c (Proc.devRef .tc b)))
          = (StableHlo.held (c.tc : Thread nD τ) (ucRefs τ sig) (W₁ c) : sProp 𝕄) := by
        rw [← unscopedBufs_held (Ix := Unit) (Name := ℕ) (U := UR sig nD τ) (Lvl := ℕ) c (W₁ c),
          unscopedBufs_arrBufs_rest cfgs p c hw.arr_unscoped, hdeal c _ _ fun w => hW₁arr c w]
        congr 1
        unfold unscopedRest
        exact bigSep_congr fun b hb => by dsimp only; rw [hW₁rest c b hb]
      -- after the lines: the same, at the lines' contents
      have e₂ : iprop((dats p c).arrays ((dats p c).arrAt · (cfg).N) ∗ unscopedRest (cfg).spec c (fun b => StableHlo.after opss.flatten (W₁ c) (Proc.devRef .tc b)))
          = (StableHlo.held (c.tc : Thread nD τ) (ucRefs τ sig) (StableHlo.after opss.flatten (W₁ c)) : sProp 𝕄) := by
        rw [← unscopedBufs_held (Ix := Unit) (Name := ℕ) (U := UR sig nD τ) (Lvl := ℕ) c (StableHlo.after opss.flatten (W₁ c)),
          unscopedBufs_arrBufs_rest cfgs p c hw.arr_unscoped, hdeal c _ _ fun w => hW₂arr c w]
      rw [e₂, ← List.append_nil (opss.map StableHlo.seq)]
      iintro ⟨Hk, Hb, Ha, HZ⟩
      ihave Hh := (Entails.of_eq e₁) $$ [Ha HZ]
      · isplitl [Ha] <;> iassumption
      iapply (wp_seqs_then (fun q => (cfgs q).toPCfg (Val := Val)) defs₀ 𝒱₀ c (ucRefs τ sig) [] opss
        (fun ops ho op h => sub_ucRefs op (hsub ops ho op h)) hfresh (W₁ c)) $$ [Hb Hh]
      · isplitl [Hb] <;> iassumption
      iintro Hb
      rw [chain_nil, wp_pure]
      imodintro
      iapply Hk
      icases Hb with ⟨-, H⟩
      iexact H)
    (QY := fun c s => ∀ b ∈ restRefsP sig Prefetch.none (cfg).spec, s.mem ((c.tc : Thread nD τ).loc b) = StableHlo.after opss.flatten (W₁ c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b) (fun b => StableHlo.after opss.flatten (W₁ c) (Proc.devRef .tc b)) s')
      isplitl [HU] <;> iassumption)
    (hQ := fun s h c => ⟨(h c).1, rest_of_restP Prefetch.none (cfg).spec Prefetch.Contents.none c (fun b => StableHlo.after opss.flatten (W₁ c) (Proc.devRef .tc b)) s (fun k => k.elim0) (fun k => k.elim0) (h c).2.2⟩)

end SharedFrame

end Pipeline

end Idealize.ShloMosaic

end
-- ==== Proof.RunDefs.lean ====
import proofs.«418941_j65867618451820_3_alg».proof.Proof.Reg0Defs
import proofs.«418941_j65867618451820_3_alg».proof.Proof.Reg1
import proofs.«418941_j65867618451820_3_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary of @main: a fold from the launch memory -/

/-- Core `c`'s buffers at launch. -/
abbrev W0 : Dev nD → Valuation τ sig (Elt F) := fun c b => (s₀ m ρ).mem ((c : Dev nD), b)
/-- After the host operations before the first call: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its output array at what the pipeline leaves, every other buffer as entered
    (the inputs are read only). -/
def W2 (c : Dev nD) : Valuation τ sig (Elt F) :=
  Function.update (W1 m ρ c) (Proc.devRef .tc (Pipeline.arrRef spec0 12)) ((dat0 (V1 m ρ) c).arrAt 12 cfg0.N)
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
/-- The second call's entry. -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At the second call's exit. -/
def W8 (c : Dev nD) : Valuation τ sig (Elt F) :=
  Function.update (W7 m ρ c) (Proc.devRef .tc (Pipeline.arrRef spec1 3)) ((dat1 (V7 m ρ) c).arrAt 3 cfg1.N)
abbrev V8 : (c : Dev nD) → (b : Ref sig .tc) → Buf (Elt F) ((c : Thread nD τ).loc b) := fun c b => W8 m ρ c b
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
/-- At the return. -/
abbrev W12 : Dev nD → Valuation τ sig (Elt F) := fun c => StableHlo.after hostOps2_3 (W11 m ρ c)

theorem W2_out (c : Dev nD) : W2 m ρ c (Proc.devRef .tc (Pipeline.arrRef spec0 12)) = (dat0 (V1 m ρ) c).arrAt 12 cfg0.N := by
  unfold W2; exact Function.update_self ..
theorem W2_of_ne (c : Dev nD) (b : Ref sig .tc) (hb : b ≠ Pipeline.arrRef spec0 12) :
    W2 m ρ c (Proc.devRef .tc b) = W1 m ρ c (Proc.devRef .tc b) := by
  unfold W2; exact Function.update_of_ne (StableHlo.devRef_ne_of_ne hb) ..
theorem W8_out (c : Dev nD) : W8 m ρ c (Proc.devRef .tc (Pipeline.arrRef spec1 3)) = (dat1 (V7 m ρ) c).arrAt 3 cfg1.N := by
  unfold W8; exact Function.update_self ..
theorem W8_of_ne (c : Dev nD) (b : Ref sig .tc) (hb : b ≠ Pipeline.arrRef spec1 3) :
    W8 m ρ c (Proc.devRef .tc b) = W7 m ρ c (Proc.devRef .tc b) := by
  unfold W8; exact Function.update_of_ne (StableHlo.devRef_ne_of_ne hb) ..

end Cert.KernelIdeal.Hand

end
-- ==== Proof.Reg0.lean ====
/- The first pallas_call's body, proved against the proof data of the definitions module: the body's two
   conditions decided over the 2 × 16 grid, the body run on whole staging memrefs in each of its three cases (a
   row's first point, an inner point, a row's last point), what each window's staging buffer holds when the
   body is called, and from these the pipeline's body obligation at every grid point, at any entry contents. -/
import proofs.«418941_j65867618451820_3_alg».proof.Proof.Reg0Defs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The zero offsets of the body's whole-buffer accesses -/

theorem hz3 : (![0, 0, 0] : Fin 3 → ℕ) = fun _ => 0 := by funext a; fin_cases a <;> rfl
theorem hz2 : (![0, 0] : Fin 2 → ℕ) = fun _ => 0 := by funext a; fin_cases a <;> rfl

/-! ## The body's two conditions, from the grid coordinates -/

/-- The first conditional of the body (the block is zeroed): the second grid coordinate is zero. -/
abbrev cond0_0 (i : grid0.Coords) : Prop := (Scalar.cmpi .ne (Scalar.extui (Scalar.cmpi .eq (BitVec.ofNat 32 (i 1).val) 0#32)) 0#32) = 1#1
/-- The last conditional of the body (the block is divided by 256): the second grid coordinate is fifteen. -/
abbrev cond0_1 (i : grid0.Coords) : Prop := (Scalar.cmpi .ne (Scalar.extui (Scalar.cmpi .eq (BitVec.ofNat 32 (i 1).val) 15#32)) 0#32) = 1#1

/-- The first holds exactly at the points that start a row of the grid, -/
theorem hcond0_0 : ∀ t : Fin cfg0.N, cond0_0 (grid0.coords t) ↔ t.val % 16 = 0 :=
  (by decide +kernel : ∀ t : Fin grid0.N, cond0_0 (grid0.coords t) ↔ t.val % 16 = 0)
/-- the last exactly at the points that end one. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The body on any whole staging memrefs, case by case

Each input's buffer holds `xW` and is given back unchanged. The output's buffer ends with one whole-block store
last, so it holds that store's payload: in the first case the update of the zero block just stored (read back
through the whole block), in the second the update of what the buffer held, in the third that update read back
and divided by 256. -/

set_option maxHeartbeats 4000000 in
theorem kernelRun0_A (c : Dev nD) (i : grid0.Coords) (arg2 : Memref sig .tc .vmem S1x256x128 .f32) (harg2 : arg2.IsWhole) (arg3 : Memref sig .tc .vmem S1x16x128 .f32) (harg3 : arg3.IsWhole) (arg4 : Memref sig .tc .vmem S128x512 .bf16) (harg4 : arg4.IsWhole) (arg5 : Memref sig .tc .vmem S256x512 .f32) (harg5 : arg5.IsWhole) (arg6 : Memref sig .tc .vmem S128x512 .bf16) (harg6 : arg6.IsWhole) (arg7 : Memref sig .tc .vmem S16x512 .f32) (harg7 : arg7.IsWhole) (arg8 : Memref sig .tc .vmem S512x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S512x128 .bf16) (harg12 : arg12.IsWhole) (arg13 : Memref sig .tc .vmem S1x128 .f32) (harg13 : arg13.IsWhole) (arg14 : Memref sig .tc .vmem S1x256x128 .f32) (harg14 : arg14.IsWhole) (hc0 : cond0_0 i) (hc1 : ¬cond0_1 i)
    (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (step0 x0 x1 x2 x3 x4 x5 x6 x7 x8 x9 x10 x11 k0_pay2)) -∗ K ⟨⟩))
      ⊢ wp frame (wpE (defs₀ (F := F)) Variants.none c none) E (cc0__intra_kernel i arg2 harg2 arg3 harg3 arg4 harg4 arg5 harg5 arg6 harg6 arg7 harg7 arg8 harg8 arg9 harg9 arg10 harg10 arg11 harg11 arg12 harg12 arg13 harg13 arg14 harg14) K := by
  simp only [cc0__intra_kernel_eq_skeleton]; unfold cc0__intra_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_cons_self, View.mem_set_unit_zero hz3 inb_S1x256x128_S1x256x128_0_0_0 y⟩), View.canon_cons_unit_zero hz3]
  sl_unfold_words
  unfold step0
  simp only [View.readAt_eq_ld, View.readCov_unit_zero (S := S1x256x128) _ hz3, View.ld_unit_zero (S := S1x256x128) hz3, View.ld_unit_zero (S := S1x16x128) hz3, View.ld_unit_zero (S := S128x512) hz2, View.ld_unit_zero (S := S256x512) hz2, View.ld_unit_zero (S := S16x512) hz2, View.ld_unit_zero (S := S512x512) hz2, View.ld_unit_zero (S := S1x512) hz2, View.ld_unit_zero (S := S512x128) hz2, View.ld_unit_zero (S := S1x128) hz2]

set_option maxHeartbeats 4000000 in
theorem kernelRun0_B (c : Dev nD) (i : grid0.Coords) (arg2 : Memref sig .tc .vmem S1x256x128 .f32) (harg2 : arg2.IsWhole) (arg3 : Memref sig .tc .vmem S1x16x128 .f32) (harg3 : arg3.IsWhole) (arg4 : Memref sig .tc .vmem S128x512 .bf16) (harg4 : arg4.IsWhole) (arg5 : Memref sig .tc .vmem S256x512 .f32) (harg5 : arg5.IsWhole) (arg6 : Memref sig .tc .vmem S128x512 .bf16) (harg6 : arg6.IsWhole) (arg7 : Memref sig .tc .vmem S16x512 .f32) (harg7 : arg7.IsWhole) (arg8 : Memref sig .tc .vmem S512x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S512x128 .bf16) (harg12 : arg12.IsWhole) (arg13 : Memref sig .tc .vmem S1x128 .f32) (harg13 : arg13.IsWhole) (arg14 : Memref sig .tc .vmem S1x256x128 .f32) (harg14 : arg14.IsWhole) (hc0 : ¬cond0_0 i) (hc1 : ¬cond0_1 i)
    (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32) (prev : Vec F S1x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (step0 x0 x1 x2 x3 x4 x5 x6 x7 x8 x9 x10 x11 prev)) -∗ K ⟨⟩))
      ⊢ wp frame (wpE (defs₀ (F := F)) Variants.none c none) E (cc0__intra_kernel i arg2 harg2 arg3 harg3 arg4 harg4 arg5 harg5 arg6 harg6 arg7 harg7 arg8 harg8 arg9 harg9 arg10 harg10 arg11 harg11 arg12 harg12 arg13 harg13 arg14 harg14) K := by
  simp only [cc0__intra_kernel_eq_skeleton]; unfold cc0__intra_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf6 hf7 hf8 hf9 hf10 hf11 hf12
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_cons_self, View.mem_set_unit_zero hz3 inb_S1x256x128_S1x256x128_0_0_0 y⟩), View.canon_cons_unit_zero hz3]
  sl_unfold_words
  unfold step0
  simp only [View.readAt_eq_ld, View.readCov_unit_zero (S := S1x256x128) _ hz3, View.ld_unit_zero (S := S1x256x128) hz3, View.ld_unit_zero (S := S1x16x128) hz3, View.ld_unit_zero (S := S128x512) hz2, View.ld_unit_zero (S := S256x512) hz2, View.ld_unit_zero (S := S16x512) hz2, View.ld_unit_zero (S := S512x512) hz2, View.ld_unit_zero (S := S1x512) hz2, View.ld_unit_zero (S := S512x128) hz2, View.ld_unit_zero (S := S1x128) hz2]

set_option maxHeartbeats 4000000 in
theorem kernelRun0_C (c : Dev nD) (i : grid0.Coords) (arg2 : Memref sig .tc .vmem S1x256x128 .f32) (harg2 : arg2.IsWhole) (arg3 : Memref sig .tc .vmem S1x16x128 .f32) (harg3 : arg3.IsWhole) (arg4 : Memref sig .tc .vmem S128x512 .bf16) (harg4 : arg4.IsWhole) (arg5 : Memref sig .tc .vmem S256x512 .f32) (harg5 : arg5.IsWhole) (arg6 : Memref sig .tc .vmem S128x512 .bf16) (harg6 : arg6.IsWhole) (arg7 : Memref sig .tc .vmem S16x512 .f32) (harg7 : arg7.IsWhole) (arg8 : Memref sig .tc .vmem S512x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S512x128 .bf16) (harg12 : arg12.IsWhole) (arg13 : Memref sig .tc .vmem S1x128 .f32) (harg13 : arg13.IsWhole) (arg14 : Memref sig .tc .vmem S1x256x128 .f32) (harg14 : arg14.IsWhole) (hc0 : ¬cond0_0 i) (hc1 : cond0_1 i)
    (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32) (prev : Vec F S1x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k0_pay1 (step0 x0 x1 x2 x3 x4 x5 x6 x7 x8 x9 x10 x11 prev))) -∗ K ⟨⟩))
      ⊢ wp frame (wpE (defs₀ (F := F)) Variants.none c none) E (cc0__intra_kernel i arg2 harg2 arg3 harg3 arg4 harg4 arg5 harg5 arg6 harg6 arg7 harg7 arg8 harg8 arg9 harg9 arg10 harg10 arg11 harg11 arg12 harg12 arg13 harg13 arg14 harg14) K := by
  simp only [cc0__intra_kernel_eq_skeleton]; unfold cc0__intra_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf6 hf7 hf8 hf9 hf10 hf11 hf12
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_cons_self, View.mem_set_unit_zero hz3 inb_S1x256x128_S1x256x128_0_0_0 y⟩), View.canon_cons_unit_zero hz3]
  sl_unfold_words
  unfold step0
  simp only [View.readAt_eq_ld, View.readCov_unit_zero (S := S1x256x128) _ hz3, View.ld_unit_zero (S := S1x256x128) hz3, View.ld_unit_zero (S := S1x16x128) hz3, View.ld_unit_zero (S := S128x512) hz2, View.ld_unit_zero (S := S256x512) hz2, View.ld_unit_zero (S := S16x512) hz2, View.ld_unit_zero (S := S512x512) hz2, View.ld_unit_zero (S := S1x512) hz2, View.ld_unit_zero (S := S512x128) hz2, View.ld_unit_zero (S := S1x128) hz2]

section Region0
variable (V : (c : Dev nD) → (b : Ref sig .tc) → Buf (Elt F) ((c : Thread nD τ).loc b))

/-! ## What the staging buffers hold when the body runs -/

/-- Each input's current staging buffer holds its block at every point, fetched there or not: where it is not
    fetched its block index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)

/-- Away from a row's first point the output's staging buffer holds what the body left at the point before: the
    point is not the first, and the buffer is written back only at a row's last point, never between. -/
theorem before0_12_kept (c : Dev nD) (t : Fin cfg0.N) (h0 : ¬t.val % 16 = 0) (d) :
    (dat0 V c).before 12 t d = acc0 V c (t.val - 1) (Nat.lt_of_le_of_lt (Nat.sub_le _ _) t.isLt) := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1600000 in
/-- The body at any point: the inputs' buffers hold their blocks; the point's place in its row says which case it is
    in; away from the row's first point the output's buffer holds what the point before left; so that case's run
    applies, and the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  by_cases h0 : t.val % 16 = 0
  · rw [acc0_A V c t h0]
    unfold stepAt0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelRun0_A c (grid0.coords t) _ _ _ _ _ _ _ _ _ _ _ _ _ _ _ _ _ _ _ _ _ _ _ _ _ _ ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h15 : t.val % 16 = 15
    · rw [acc0_C V c t h15]
      simp only [before0_12_kept V c t h0]
      unfold stepAt0
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun0_C c (grid0.coords t) _ _ _ _ _ _ _ _ _ _ _ _ _ _ _ _ _ _ _ _ _ _ _ _ _ _ (fun h => h0 ((hcond0_0 t).mp h)) ((hcond0_1 t).mpr h15) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [acc0_B V c t h0 h15]
      simp only [before0_12_kept V c t h0]
      unfold stepAt0
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun0_B c (grid0.coords t) _ _ _ _ _ _ _ _ _ _ _ _ _ _ _ _ _ _ _ _ _ _ _ _ _ _ (fun h => h0 ((hcond0_0 t).mp h)) (fun h => h15 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.LibDeal0.lean ====
/-
  The arrays of the first fused stage as the pipeline holds them: the twelve distinct buffers behind its thirteen
  windows, each whole at the full share, are the thirteen windowed arrays, the buffer read by the first two windows
  held as the two halves of its full share.
-/
import proofs.«418941_j65867618451820_3_alg».proof.Proof.Gen.KernelIdeal.Launch
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

/-- The twelve distinct buffers behind the thirteen windows, each whole at the full share at contents `W`, are the
    thirteen windowed arrays at the same contents: the buffer of the first two windows, both inputs, is held at the
    left half of the full share by the first and at the right half by the second; the ten other inputs are held at the
    full share; the output is held at the full share. -/
theorem deal0 (c : Dev nD) (dat : Pipeline.Dat τ (Elt F) Unit ℕ (UR sig nD τ) ℕ cfg0 c)
    (hq0 : dat.q 0 = (fullShare : PosShare TreeShare).left) (hq1 : dat.q 1 = (fullShare : PosShare TreeShare).right)
    (hq : ∀ w : Fin cfg0.W, 2 ≤ w.val → dat.q w = fullShare)
    (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs (Ix := Unit) (Name := ℕ) (U := UR sig nD τ) (Lvl := ℕ) spec0 c W : sProp 𝕄) = dat.arrays Fn := by
  have key : ∀ (w : Fin cfg0.W) (q : PosShare TreeShare),
      ((cfg0.win w).arr.view.loc (c.tc : Thread nD τ) ↦[(cfg0.win w).arr.view.set]{q} Fn w : sProp 𝕄)
        = ((c.tc : Thread nD τ).loc (Pipeline.arrRef spec0 w) ↦{q} W (Pipeline.arrRef spec0 w)) := by
    intro w q
    rw [(arr_whole0 w).set_eq_univ, hF]
  have hs0 : dat.share 0 = (fullShare : PosShare TreeShare).left := by
    show (if (cfg0.win 0).isOut = true then fullShare else dat.q 0) = _
    rw [if_neg (by decide), hq0]
  have hs1 : dat.share 1 = (fullShare : PosShare TreeShare).right := by
    show (if (cfg0.win 1).isOut = true then fullShare else dat.q 1) = _
    rw [if_neg (by decide), hq1]
  have hs2 : dat.share 2 = fullShare := by
    show (if (cfg0.win 2).isOut = true then fullShare else dat.q 2) = _
    rw [if_neg (by decide), hq 2 (by decide)]
  have hs3 : dat.share 3 = fullShare := by
    show (if (cfg0.win 3).isOut = true then fullShare else dat.q 3) = _
    rw [if_neg (by decide), hq 3 (by decide)]
  have hs4 : dat.share 4 = fullShare := by
    show (if (cfg0.win 4).isOut = true then fullShare else dat.q 4) = _
    rw [if_neg (by decide), hq 4 (by decide)]
  have hs5 : dat.share 5 = fullShare := by
    show (if (cfg0.win 5).isOut = true then fullShare else dat.q 5) = _
    rw [if_neg (by decide), hq 5 (by decide)]
  have hs6 : dat.share 6 = fullShare := by
    show (if (cfg0.win 6).isOut = true then fullShare else dat.q 6) = _
    rw [if_neg (by decide), hq 6 (by decide)]
  have hs7 : dat.share 7 = fullShare := by
    show (if (cfg0.win 7).isOut = true then fullShare else dat.q 7) = _
    rw [if_neg (by decide), hq 7 (by decide)]
  have hs8 : dat.share 8 = fullShare := by
    show (if (cfg0.win 8).isOut = true then fullShare else dat.q 8) = _
    rw [if_neg (by decide), hq 8 (by decide)]
  have hs9 : dat.share 9 = fullShare := by
    show (if (cfg0.win 9).isOut = true then fullShare else dat.q 9) = _
    rw [if_neg (by decide), hq 9 (by decide)]
  have hs10 : dat.share 10 = fullShare := by
    show (if (cfg0.win 10).isOut = true then fullShare else dat.q 10) = _
    rw [if_neg (by decide), hq 10 (by decide)]
  have hs11 : dat.share 11 = fullShare := by
    show (if (cfg0.win 11).isOut = true then fullShare else dat.q 11) = _
    rw [if_neg (by decide), hq 11 (by decide)]
  have hs12 : dat.share 12 = fullShare := by
    show (if (cfg0.win 12).isOut = true then fullShare else dat.q 12) = _
    rw [if_pos (by decide)]
  have hsplit : ((c.tc : Thread nD τ).loc main_v2 ↦{fullShare} W main_v2 : sProp 𝕄)
      = iprop(((c.tc : Thread nD τ).loc main_v2 ↦{(fullShare : PosShare TreeShare).left} W main_v2)
          ∗ ((c.tc : Thread nD τ).loc main_v2 ↦{(fullShare : PosShare TreeShare).right} W main_v2)) :=
    Entails.antisymm (pointsTo_share (PosShare.mem_left_op_right fullShare)).1 (pointsTo_share (PosShare.mem_left_op_right fullShare)).2
  have hA : dat.arrays Fn = bigSep Finset.univ fun w : Fin cfg0.W =>
      ((c.tc : Thread nD τ).loc (Pipeline.arrRef spec0 w) ↦{dat.share w} W (Pipeline.arrRef spec0 w) : sProp 𝕄) := by
    unfold Pipeline.Dat.arrays
    exact bigSep_congr fun w _ => key w _
  rw [hA, bigSep_W0, hs0, hs1, hs2, hs3, hs4, hs5, hs6, hs7, hs8, hs9, hs10, hs11, hs12]
  unfold Pipeline.arrBufs
  rw [bigSep_eq_bigSepL_of_eq [main_v2, main_v19, main_v15, main_v20, main_v6, main_v24, main_v21, main_v22, main_v18, main_v23, main_v13, main_v25] (by decide) (by decide)]
  exact (congrArg (fun X : sProp 𝕄 => Idealize.SL.BI.sep X _) hsplit).trans
    (Idealize.SL.BI.sep_assoc.antisymm Idealize.SL.BI.sep_assoc')

/-- From the whole buffers to the windowed arrays. -/
theorem deal0_split (c : Dev nD) (dat : Pipeline.Dat τ (Elt F) Unit ℕ (UR sig nD τ) ℕ cfg0 c)
    (hq0 : dat.q 0 = (fullShare : PosShare TreeShare).left) (hq1 : dat.q 1 = (fullShare : PosShare TreeShare).right)
    (hq : ∀ w : Fin cfg0.W, 2 ≤ w.val → dat.q w = fullShare)
    (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs (Ix := Unit) (Name := ℕ) (U := UR sig nD τ) (Lvl := ℕ) spec0 c W : sProp 𝕄) ⊢ dat.arrays Fn :=
  Entails.of_eq (deal0 c dat hq0 hq1 hq W Fn hF)

/-- From the windowed arrays back to the whole buffers. -/
theorem deal0_join (c : Dev nD) (dat : Pipeline.Dat τ (Elt F) Unit ℕ (UR sig nD τ) ℕ cfg0 c)
    (hq0 : dat.q 0 = (fullShare : PosShare TreeShare).left) (hq1 : dat.q 1 = (fullShare : PosShare TreeShare).right)
    (hq : ∀ w : Fin cfg0.W, 2 ≤ w.val → dat.q w = fullShare)
    (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    dat.arrays Fn ⊢ (Pipeline.arrBufs (Ix := Unit) (Name := ℕ) (U := UR sig nD τ) (Lvl := ℕ) spec0 c W : sProp 𝕄) :=
  Entails.of_eq (deal0 c dat hq0 hq1 hq W Fn hF).symm

end Cert.KernelIdeal.Hand

end
-- ==== Proof.Run.lean ====
import proofs.«418941_j65867618451820_3_alg».proof.Proof.RunDefs
import proofs.«418941_j65867618451820_3_alg».proof.Proof.Reg0
import proofs.«418941_j65867618451820_3_alg».proof.Proof.LibDeal0
import proofs.«418941_j65867618451820_3_alg».proof.Proof.Reg1
import proofs.«418941_j65867618451820_3_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first call's arrays at its exit -/

/-- Every array of the first call holds at the exit contents what the pipeline leaves in it: the output what its
    write-backs fold to, an input what it held (it is only read). -/
theorem inputs0 : ∀ w : Fin cfg0.W, w ≠ 12 → (cfg0.win w).isOut = false ∧ Pipeline.arrRef spec0 w ≠ Pipeline.arrRef spec0 12 := by decide
theorem inputs1 : ∀ w : Fin cfg1.W, w ≠ 3 → (cfg1.win w).isOut = false ∧ Pipeline.arrRef spec1 w ≠ Pipeline.arrRef spec1 3 := by decide

theorem hF0_in (c : Dev nD) (w : Fin cfg0.W) (hin : (cfg0.win w).isOut = false) (hne : Pipeline.arrRef spec0 w ≠ Pipeline.arrRef spec0 12) :
    (dat0 (V1 m ρ) c).arrAt w cfg0.N = V2 m ρ c (Pipeline.arrRef spec0 w) := by
  rw [(dat0 (V1 m ρ) c).arrAt_in w hin cfg0.N, A_eq0]
  exact (W2_of_ne m ρ c _ hne).symm

theorem hF0 (c : Dev nD) (w : Fin cfg0.W) : (dat0 (V1 m ρ) c).arrAt w cfg0.N = V2 m ρ c (Pipeline.arrRef spec0 w) := by
  by_cases h : w = 12
  · subst h; exact (W2_out m ρ c).symm
  · exact hF0_in m ρ c w (inputs0 w h).1 (inputs0 w h).2

/-- Every buffer that is no array of the first call holds at its exit what it held at its entry. -/
theorem hrest0 (c : Dev nD) : ∀ b, b ∉ Finset.univ.image (Pipeline.arrRef spec0) → V2 m ρ c b = V1 m ρ c b :=
  fun b hb => W2_of_ne m ρ c b fun e => hb (Finset.mem_image.mpr ⟨12, Finset.mem_univ _, e.symm⟩)

theorem hF1_in (c : Dev nD) (w : Fin cfg1.W) (hin : (cfg1.win w).isOut = false) (hne : Pipeline.arrRef spec1 w ≠ Pipeline.arrRef spec1 3) :
    (dat1 (V7 m ρ) c).arrAt w cfg1.N = V8 m ρ c (Pipeline.arrRef spec1 w) := by
  rw [(dat1 (V7 m ρ) c).arrAt_in w hin cfg1.N, A_eq1]
  exact (W8_of_ne m ρ c _ hne).symm

theorem hF1 (c : Dev nD) (w : Fin cfg1.W) : (dat1 (V7 m ρ) c).arrAt w cfg1.N = V8 m ρ c (Pipeline.arrRef spec1 w) := by
  by_cases h : w = 3
  · subst h; exact (W8_out m ρ c).symm
  · exact hF1_in m ρ c w (inputs1 w h).1 (inputs1 w h).2

theorem hrest1 (c : Dev nD) : ∀ b, b ∉ Finset.univ.image (Pipeline.arrRef spec1) → V8 m ρ c b = V7 m ρ c b :=
  fun b hb => W8_of_ne m ρ c b fun e => hb (Finset.mem_image.mpr ⟨3, Finset.mem_univ _, e.symm⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

/-- Every window of the first call but the two that share an array holds its whole array. -/
theorem q0_full (V : (c : Dev nD) → (b : Ref sig .tc) → Buf (Elt F) ((c : Thread nD τ).loc b)) (c : Dev nD) :
    ∀ w : Fin cfg0.W, 2 ≤ w.val → (dat0 V c).q w = fullShare := by
  intro w hw
  match w, hw with
  | ⟨0, _⟩, hw => exact absurd hw (by simp)
  | ⟨1, _⟩, hw => exact absurd hw (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl

set_option backward.isDefEq.respectTransparency.types false in
/-- THE FIRST CALL over the thread state: entered from every unscoped buffer at `W1`, left at `W2`. Windows 0 and 1
    stage blocks of one array, whose points-to is dealt between them in halves at entry and joined at exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hub := Pipeline.unscopedBufs_arrBufs_rest (Val := Elt F) cfgs (0 : Fin 2) c winFacts₀0.arr_unscoped (V1 m ρ c)
    rw [Pipeline.unscopedBufs_held] at hub
    have hdeal := deal0_split (F := F) c (dat0 (V1 m ρ) c) rfl rfl (q0_full (V1 m ρ) c) (V1 m ρ c) ((dat0 (V1 m ρ) c).arrAt · 0) (fun w => A_eq0 (V1 m ρ) c w)
    have hsplit := (Entails.of_eq hub).trans (sep_mono hdeal .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hub := Pipeline.unscopedBufs_arrBufs_rest (Val := Elt F) cfgs (0 : Fin 2) c winFacts₀0.arr_unscoped (V2 m ρ c)
    rw [Pipeline.unscopedBufs_held] at hub
    have hdeal := deal0_join (F := F) c (dat0 (V1 m ρ) c) rfl rfl (q0_full (V1 m ρ) c) (V2 m ρ c) ((dat0 (V1 m ρ) c).arrAt · cfg0.N) (fun w => hF0 m ρ c w)
    have hrest : (Pipeline.unscopedRest (Ix := Unit) (Name := ℕ) (U := UR sig nD τ) (Lvl := ℕ) spec0 c (V1 m ρ c) : sProp 𝕄)
        = Pipeline.unscopedRest spec0 c (V2 m ρ c) := by
      unfold Pipeline.unscopedRest
      exact bigSep_congr fun b hb => by rw [hrest0 m ρ c b (Finset.mem_sdiff.mp hb).2]
    have hjoin := (BIClass.sep_mono hdeal (Entails.of_eq hrest)).trans (Entails.of_eq hub.symm)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)) ]

/-- @main IS the run of the segments. -/
theorem main_run (c : Dev nD) : main (F := F) c = Pipeline.Seg.run (segs m ρ) := (main_chain c).trans (by chain_rfl)

/-- The last thread state beside the core owing nothing: what the last host segment leaves. -/
theorem last_post (c : Dev nD) : iprop(StableHlo.held (c : Thread nD τ) (Pipeline.ucRefs τ sig) (W12 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN: from any memory with zero counters every weakly fair execution of @main on the TensorCores terminates,
    nothing faulting, and in every final state every unscoped buffer holds what the fold `W12` says. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.Reg0DefsK.lean ====
/- The first pallas_call, at the buffer contents `V` found when its region is entered: the block each window
   stages at a grid point, the running sum its output block carries along the second grid axis, and the
   pipeline's proof data over them. The grid is 2 × 16, point `t` has coordinates (t / 16, t % 16); the output
   block depends on the first coordinate only, so it is zeroed where t % 16 = 0, gains one tile's partial sum at
   every point, is divided by 256 where t % 16 = 15 and is written back there. -/
import proofs.«418941_j65867618451820_3_alg».proof.Proof.Gen.Kernel.Launch
import proofs.«418941_j65867618451820_3_alg».proof.Proof.Gen.Kernel.Skeleton
import proofs.«418941_j65867618451820_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point's update of the carried block, over the twelve blocks the point reads: the tile of messages
    (two layers of matrix products over the pair terms of the 256 nodes with the tile's 16 nodes), summed over
    the tile's nodes, added to what the block held (`prev`). -/
def step0 (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32) (prev : Vec F S1x256x128 .f32) : Vec F S1x256x128 .f32 :=
  k0_pay6 (k0_pay3 x0) (k0_pay4 x1) (k0_pay5 x0 x1 x2 x4 x3 x5 x6) x7 x8 x9 x10 x11 prev

/-- The update at point `t`: `step0` of the windows' blocks there. -/
def stepAt0 (c : Dev nD) (t : Fin cfg0.N) (prev : Vec F S1x256x128 .f32) : Vec F S1x256x128 .f32 :=
  step0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) prev

/-- What the output's staging buffer holds after the body at point `n`: at a point with n % 16 = 0 the update of
    the zero block; otherwise the update of what the point before left; at a point with n % 16 = 15 that update
    divided by 256. -/
def acc0 (c : Dev nD) : (n : ℕ) → n < cfg0.N → Vec F S1x256x128 .f32
  | 0, hn => stepAt0 V c ⟨0, hn⟩ k0_pay2
  | n + 1, hn =>
    if (n + 1) % 16 = 0 then stepAt0 V c ⟨n + 1, hn⟩ k0_pay2
    else if (n + 1) % 16 = 15 then k0_pay1 (stepAt0 V c ⟨n + 1, hn⟩ (acc0 c n (Nat.lt_of_succ_lt hn)))
    else stepAt0 V c ⟨n + 1, hn⟩ (acc0 c n (Nat.lt_of_succ_lt hn))

/-- At a point that starts a row of the grid the carried block is the update of zeros. -/
theorem acc0_A (c : Dev nD) (t : Fin cfg0.N) (h : t.val % 16 = 0) :
    acc0 V c t.val t.isLt = stepAt0 V c t k0_pay2 := by
  obtain ⟨n, hn⟩ := t
  cases n with
  | zero => exact rfl
  | succ n => exact (if_pos h).trans rfl

/-- Inside a row it is the update of what the point before left. -/
theorem acc0_B (c : Dev nD) (t : Fin cfg0.N) (h0 : ¬t.val % 16 = 0) (h15 : ¬t.val % 16 = 15) :
    acc0 V c t.val t.isLt = stepAt0 V c t (acc0 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h15).trans rfl)

/-- At a row's last point it is that update divided by 256. -/
theorem acc0_C (c : Dev nD) (t : Fin cfg0.N) (h15 : t.val % 16 = 15) :
    acc0 V c t.val t.isLt = k0_pay1 (stepAt0 V c t (acc0 V c (t.val - 1) (Nat.lt_of_le_of_lt (Nat.sub_le _ _) t.isLt))) := by
  obtain ⟨n, hn⟩ := t
  cases n with
  | zero => exact absurd (show (0 : ℕ) % 16 = 15 from h15) (by decide)
  | succ n =>
    have h0 : ¬(n + 1) % 16 = 0 := fun h => by have h15' : (n + 1) % 16 = 15 := h15; omega
    exact (if_neg h0).trans ((if_pos h15).trans rfl)

/-- The proof data of the first pipeline on core `c`: the arrays as the region finds them; after the body at
    point `t` each input's buffer at its block and the output's at `acc0`; the two windows that stage blocks of
    the same array hold complementary halves of it, every other window its whole array; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => acc0 V c t.val t.isLt
  Φ _ := Pipeline.ΦA spec0 c
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = acc0 V c t.val t.isLt := by dsimp only [dat0]

end Region0

end Cert.Kernel.Hand

end
-- ==== Proof.Reg1K.lean ====
/- The second pipelined call (the cross-graph interaction), frame side, at any float model: what the body
   leaves in its output block as a function of the three input blocks, the body's triple, the pipeline's proof
   data at the contents the region is entered with, and the body obligation at every grid point. -/
import proofs.«418941_j65867618451820_3_alg».proof.Proof.Gen.Kernel.Launch
import proofs.«418941_j65867618451820_3_alg».proof.Proof.Gen.Kernel.Skeleton
import proofs.«418941_j65867618451820_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data over the entry arrays whose body leaves the block in place: at a fetched point the fetch put the block
    there; at an unfetched one the block index is the previous point's, whose block the body left untouched.
    None of the three input windows is cut or ever idle. Window 0 (the first graph's tile): -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have kept : ∀ s, (cfg1.win 0).cut (cfg1.grid.coords s) (dat.after 0 s) = dat.blockOf 0 s := by
    intro s
    rw [hafter s]
    unfold Dat.blockOf iblk1
    rw [hA]
  have uncut : ∀ s s' : Fin cfg1.N, (cfg1.win 0).index s = (cfg1.win 0).index s' →
      (cfg1.win 0).clip (cfg1.grid.coords s) = (cfg1.win 0).clip (cfg1.grid.coords s') := fun _ _ _ => rfl
  rw [dat.before_in_eq_fetched 0 rfl (fun _ => rfl) uncut kept t d]
  unfold Dat.fetched Dat.blockOf iblk1
  rw [hA]
  rfl

/-- window 1 (the second graph's whole slab, fetched only when the first grid coordinate moves): -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have kept : ∀ s, (cfg1.win 1).cut (cfg1.grid.coords s) (dat.after 1 s) = dat.blockOf 1 s := by
    intro s
    rw [hafter s]
    unfold Dat.blockOf iblk1
    rw [hA]
  have uncut : ∀ s s' : Fin cfg1.N, (cfg1.win 1).index s = (cfg1.win 1).index s' →
      (cfg1.win 1).clip (cfg1.grid.coords s) = (cfg1.win 1).clip (cfg1.grid.coords s') := fun _ _ _ => rfl
  rw [dat.before_in_eq_fetched 1 rfl (fun _ => rfl) uncut kept t d]
  unfold Dat.fetched Dat.blockOf iblk1
  rw [hA]
  rfl

/-- window 2 (the denominators' tile): -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have kept : ∀ s, (cfg1.win 2).cut (cfg1.grid.coords s) (dat.after 2 s) = dat.blockOf 2 s := by
    intro s
    rw [hafter s]
    unfold Dat.blockOf iblk1
    rw [hA]
  have uncut : ∀ s s' : Fin cfg1.N, (cfg1.win 2).index s = (cfg1.win 2).index s' →
      (cfg1.win 2).clip (cfg1.grid.coords s) = (cfg1.win 2).clip (cfg1.grid.coords s') := fun _ _ _ => rfl
  rw [dat.before_in_eq_fetched 2 rfl (fun _ => rfl) uncut kept t d]
  unfold Dat.fetched Dat.blockOf iblk1
  rw [hA]
  rfl

/-! ## The body's accesses: each buffer whole, through the unit rectangle at the origin -/

abbrev rTile : Rect S1x32x128 := Rect.unit (s := S1x32x128) ![0, 0, 0] S1x32x128.size inb_S1x32x128_S1x32x128_0_0_0
abbrev rSlab : Rect S1x256x128 := Rect.unit (s := S1x256x128) ![0, 0, 0] S1x256x128.size inb_S1x256x128_S1x256x128_0_0_0

theorem origin3 : (![0, 0, 0] : Fin 3 → Nat) = fun _ => 0 := funext fun a => by fin_cases a <;> rfl

/-! ## What the body leaves in the output window's buffer -/

/-- The output buffer after the body, from the three input blocks: its one store as a piece. -/
def out1_3 (x0 : Vec F S1x32x128 .f32) (x1 : Vec F S1x256x128 .f32) (x2 : Vec F S1x32x128 .f32) : Vec F S1x32x128 .f32 :=
  View.canon [⟨rTile, k1_pay1 (View.ld x0 rTile) (View.ld x1 rSlab) (View.ld x2 rTile)⟩]

/-- The one store is of the whole buffer, so it covers it. -/
theorem cover1_3 (p0 : Vec F S1x32x128 .f32) (y : S1x32x128.Idx) :
    ∃ pc ∈ ([⟨rTile, p0⟩] : List (View.Piece (Elt F) S1x32x128 .f32)), y ∈ pc.1.set :=
  ⟨_, List.mem_singleton_self _, View.mem_set_unit_zero (S := S1x32x128) origin3 inb_S1x32x128_S1x32x128_0_0_0 y⟩

/-- The whole-buffer loads read the blocks and the whole-buffer store leaves its payload: the output buffer ends at
    the payload of the three input blocks. -/
theorem out1_3_eq (x0 : Vec F S1x32x128 .f32) (x1 : Vec F S1x256x128 .f32) (x2 : Vec F S1x32x128 .f32) :
    out1_3 x0 x1 x2 = k1_pay1 x0 x1 x2 := by
  unfold out1_3
  rw [View.canon_unit_zero (S := S1x32x128) origin3]
  simp only [View.ld_unit_zero (S := S1x32x128) origin3, View.ld_unit_zero (S := S1x256x128) origin3]

/-! ## The body's triple -/

set_option maxHeartbeats 1000000 in
/-- The kernel body on whole staging memrefs, the inputs' at read contents x0 x1 x2 and the output's at anything
    (the body reads the output buffer once before overwriting all of it; what it read is not used), runs to the
    continuation holding the inputs' as they were and the output's at out1_3 of the inputs'. -/
theorem sound_kernel1 (c : Dev nD) (E : Set ℕ) (i : grid1.Coords)
    (arg2 : Memref sig .tc .vmem S1x32x128 .f32) (harg2 : arg2.IsWhole)
    (arg3 : Memref sig .tc .vmem S1x256x128 .f32) (harg3 : arg3.IsWhole)
    (arg4 : Memref sig .tc .vmem S1x32x128 .f32) (harg4 : arg4.IsWhole)
    (arg5 : Memref sig .tc .vmem S1x32x128 .f32) (harg5 : arg5.IsWhole)
    (x0 : Vec F S1x32x128 .f32) (x1 : Vec F S1x256x128 .f32) (x2 : Vec F S1x32x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out1_3 x0 x1 x2)) -∗ K ⟨⟩))
      ⊢ wp frame (wpE (defs₀ (F := F)) Variants.none c none) E (cc1__interact_kernel i arg2 harg2 arg3 harg3 arg4 harg4 arg5 harg5) K := by
  simp only [cc1__interact_kernel_eq_skeleton]; unfold cc1__interact_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core c: the arrays as the region finds them; after the body at point t
    each input's buffer at its block and the output's at out1_3 of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) :
    (dat1 V c).after 3 t = out1_3 (iblk1 V c 0 t) (iblk1 V c 1 t) (iblk1 V c 2 t) := by dsimp only [dat1]

/-- The output block the body leaves at point t is the payload of the three input blocks there. -/
theorem after1_3 (c : Dev nD) (t : Fin cfg1.N) :
    (dat1 V c).after 3 t = k1_pay1 (iblk1 V c 0 t) (iblk1 V c 1 t) (iblk1 V c 2 t) :=
  (after1_3' V c t).trans (out1_3_eq _ _ _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3']
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.RunDefsK.lean ====
import proofs.«418941_j65867618451820_3_alg».proof.Proof.Reg0DefsK
import proofs.«418941_j65867618451820_3_alg».proof.Proof.Reg1K
import proofs.«418941_j65867618451820_3_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary of @main: a fold from the launch memory -/

/-- Core `c`'s buffers at launch. -/
abbrev W0 : Dev nD → Valuation τ sig (Elt F) := fun c b => (s₀ m ρ).mem ((c : Dev nD), b)
/-- After the host operations before the first call: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its output array at what the pipeline leaves, every other buffer as entered
    (the inputs are read only). -/
def W2 (c : Dev nD) : Valuation τ sig (Elt F) :=
  Function.update (W1 m ρ c) (Proc.devRef .tc (Pipeline.arrRef spec0 12)) ((dat0 (V1 m ρ) c).arrAt 12 cfg0.N)
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
/-- The second call's entry. -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At the second call's exit. -/
def W8 (c : Dev nD) : Valuation τ sig (Elt F) :=
  Function.update (W7 m ρ c) (Proc.devRef .tc (Pipeline.arrRef spec1 3)) ((dat1 (V7 m ρ) c).arrAt 3 cfg1.N)
abbrev V8 : (c : Dev nD) → (b : Ref sig .tc) → Buf (Elt F) ((c : Thread nD τ).loc b) := fun c b => W8 m ρ c b
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
/-- At the return. -/
abbrev W12 : Dev nD → Valuation τ sig (Elt F) := fun c => StableHlo.after hostOps2_3 (W11 m ρ c)

theorem W2_out (c : Dev nD) : W2 m ρ c (Proc.devRef .tc (Pipeline.arrRef spec0 12)) = (dat0 (V1 m ρ) c).arrAt 12 cfg0.N := by
  unfold W2; exact Function.update_self ..
theorem W2_of_ne (c : Dev nD) (b : Ref sig .tc) (hb : b ≠ Pipeline.arrRef spec0 12) :
    W2 m ρ c (Proc.devRef .tc b) = W1 m ρ c (Proc.devRef .tc b) := by
  unfold W2; exact Function.update_of_ne (StableHlo.devRef_ne_of_ne hb) ..
theorem W8_out (c : Dev nD) : W8 m ρ c (Proc.devRef .tc (Pipeline.arrRef spec1 3)) = (dat1 (V7 m ρ) c).arrAt 3 cfg1.N := by
  unfold W8; exact Function.update_self ..
theorem W8_of_ne (c : Dev nD) (b : Ref sig .tc) (hb : b ≠ Pipeline.arrRef spec1 3) :
    W8 m ρ c (Proc.devRef .tc b) = W7 m ρ c (Proc.devRef .tc b) := by
  unfold W8; exact Function.update_of_ne (StableHlo.devRef_ne_of_ne hb) ..

end Cert.Kernel.Hand

end
-- ==== Proof.Reg0K.lean ====
/- The first pallas_call's body, proved against the proof data of the definitions module: the body's two
   conditions decided over the 2 × 16 grid, the body run on whole staging memrefs in each of its three cases (a
   row's first point, an inner point, a row's last point), what each window's staging buffer holds when the
   body is called, and from these the pipeline's body obligation at every grid point, at any entry contents. -/
import proofs.«418941_j65867618451820_3_alg».proof.Proof.Reg0DefsK
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The zero offsets of the body's whole-buffer accesses -/

theorem hz3 : (![0, 0, 0] : Fin 3 → ℕ) = fun _ => 0 := by funext a; fin_cases a <;> rfl
theorem hz2 : (![0, 0] : Fin 2 → ℕ) = fun _ => 0 := by funext a; fin_cases a <;> rfl

/-! ## The body's two conditions, from the grid coordinates -/

/-- The first conditional of the body (the block is zeroed): the second grid coordinate is zero. -/
abbrev cond0_0 (i : grid0.Coords) : Prop := (Scalar.cmpi .ne (Scalar.extui (Scalar.cmpi .eq (BitVec.ofNat 32 (i 1).val) 0#32)) 0#32) = 1#1
/-- The last conditional of the body (the block is divided by 256): the second grid coordinate is fifteen. -/
abbrev cond0_1 (i : grid0.Coords) : Prop := (Scalar.cmpi .ne (Scalar.extui (Scalar.cmpi .eq (BitVec.ofNat 32 (i 1).val) 15#32)) 0#32) = 1#1

/-- The first holds exactly at the points that start a row of the grid, -/
theorem hcond0_0 : ∀ t : Fin cfg0.N, cond0_0 (grid0.coords t) ↔ t.val % 16 = 0 :=
  (by decide +kernel : ∀ t : Fin grid0.N, cond0_0 (grid0.coords t) ↔ t.val % 16 = 0)
/-- the last exactly at the points that end one. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The body on any whole staging memrefs, case by case

Each input's buffer holds `xW` and is given back unchanged. The output's buffer ends with one whole-block store
last, so it holds that store's payload: in the first case the update of the zero block just stored (read back
through the whole block), in the second the update of what the buffer held, in the third that update read back
and divided by 256. -/

set_option maxHeartbeats 4000000 in
theorem kernelRun0_A (c : Dev nD) (i : grid0.Coords) (arg2 : Memref sig .tc .vmem S1x256x128 .f32) (harg2 : arg2.IsWhole) (arg3 : Memref sig .tc .vmem S1x16x128 .f32) (harg3 : arg3.IsWhole) (arg4 : Memref sig .tc .vmem S128x512 .bf16) (harg4 : arg4.IsWhole) (arg5 : Memref sig .tc .vmem S256x512 .f32) (harg5 : arg5.IsWhole) (arg6 : Memref sig .tc .vmem S128x512 .bf16) (harg6 : arg6.IsWhole) (arg7 : Memref sig .tc .vmem S16x512 .f32) (harg7 : arg7.IsWhole) (arg8 : Memref sig .tc .vmem S512x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S512x128 .bf16) (harg12 : arg12.IsWhole) (arg13 : Memref sig .tc .vmem S1x128 .f32) (harg13 : arg13.IsWhole) (arg14 : Memref sig .tc .vmem S1x256x128 .f32) (harg14 : arg14.IsWhole) (hc0 : cond0_0 i) (hc1 : ¬cond0_1 i)
    (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (step0 x0 x1 x2 x3 x4 x5 x6 x7 x8 x9 x10 x11 k0_pay2)) -∗ K ⟨⟩))
      ⊢ wp frame (wpE (defs₀ (F := F)) Variants.none c none) E (cc0__intra_kernel i arg2 harg2 arg3 harg3 arg4 harg4 arg5 harg5 arg6 harg6 arg7 harg7 arg8 harg8 arg9 harg9 arg10 harg10 arg11 harg11 arg12 harg12 arg13 harg13 arg14 harg14) K := by
  simp only [cc0__intra_kernel_eq_skeleton]; unfold cc0__intra_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_cons_self, View.mem_set_unit_zero hz3 inb_S1x256x128_S1x256x128_0_0_0 y⟩), View.canon_cons_unit_zero hz3]
  sl_unfold_words
  unfold step0
  simp only [View.readAt_eq_ld, View.readCov_unit_zero (S := S1x256x128) _ hz3, View.ld_unit_zero (S := S1x256x128) hz3, View.ld_unit_zero (S := S1x16x128) hz3, View.ld_unit_zero (S := S128x512) hz2, View.ld_unit_zero (S := S256x512) hz2, View.ld_unit_zero (S := S16x512) hz2, View.ld_unit_zero (S := S512x512) hz2, View.ld_unit_zero (S := S1x512) hz2, View.ld_unit_zero (S := S512x128) hz2, View.ld_unit_zero (S := S1x128) hz2]

set_option maxHeartbeats 4000000 in
theorem kernelRun0_B (c : Dev nD) (i : grid0.Coords) (arg2 : Memref sig .tc .vmem S1x256x128 .f32) (harg2 : arg2.IsWhole) (arg3 : Memref sig .tc .vmem S1x16x128 .f32) (harg3 : arg3.IsWhole) (arg4 : Memref sig .tc .vmem S128x512 .bf16) (harg4 : arg4.IsWhole) (arg5 : Memref sig .tc .vmem S256x512 .f32) (harg5 : arg5.IsWhole) (arg6 : Memref sig .tc .vmem S128x512 .bf16) (harg6 : arg6.IsWhole) (arg7 : Memref sig .tc .vmem S16x512 .f32) (harg7 : arg7.IsWhole) (arg8 : Memref sig .tc .vmem S512x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S512x128 .bf16) (harg12 : arg12.IsWhole) (arg13 : Memref sig .tc .vmem S1x128 .f32) (harg13 : arg13.IsWhole) (arg14 : Memref sig .tc .vmem S1x256x128 .f32) (harg14 : arg14.IsWhole) (hc0 : ¬cond0_0 i) (hc1 : ¬cond0_1 i)
    (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32) (prev : Vec F S1x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (step0 x0 x1 x2 x3 x4 x5 x6 x7 x8 x9 x10 x11 prev)) -∗ K ⟨⟩))
      ⊢ wp frame (wpE (defs₀ (F := F)) Variants.none c none) E (cc0__intra_kernel i arg2 harg2 arg3 harg3 arg4 harg4 arg5 harg5 arg6 harg6 arg7 harg7 arg8 harg8 arg9 harg9 arg10 harg10 arg11 harg11 arg12 harg12 arg13 harg13 arg14 harg14) K := by
  simp only [cc0__intra_kernel_eq_skeleton]; unfold cc0__intra_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf6 hf7 hf8 hf9 hf10 hf11 hf12
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_cons_self, View.mem_set_unit_zero hz3 inb_S1x256x128_S1x256x128_0_0_0 y⟩), View.canon_cons_unit_zero hz3]
  sl_unfold_words
  unfold step0
  simp only [View.readAt_eq_ld, View.readCov_unit_zero (S := S1x256x128) _ hz3, View.ld_unit_zero (S := S1x256x128) hz3, View.ld_unit_zero (S := S1x16x128) hz3, View.ld_unit_zero (S := S128x512) hz2, View.ld_unit_zero (S := S256x512) hz2, View.ld_unit_zero (S := S16x512) hz2, View.ld_unit_zero (S := S512x512) hz2, View.ld_unit_zero (S := S1x512) hz2, View.ld_unit_zero (S := S512x128) hz2, View.ld_unit_zero (S := S1x128) hz2]

set_option maxHeartbeats 4000000 in
theorem kernelRun0_C (c : Dev nD) (i : grid0.Coords) (arg2 : Memref sig .tc .vmem S1x256x128 .f32) (harg2 : arg2.IsWhole) (arg3 : Memref sig .tc .vmem S1x16x128 .f32) (harg3 : arg3.IsWhole) (arg4 : Memref sig .tc .vmem S128x512 .bf16) (harg4 : arg4.IsWhole) (arg5 : Memref sig .tc .vmem S256x512 .f32) (harg5 : arg5.IsWhole) (arg6 : Memref sig .tc .vmem S128x512 .bf16) (harg6 : arg6.IsWhole) (arg7 : Memref sig .tc .vmem S16x512 .f32) (harg7 : arg7.IsWhole) (arg8 : Memref sig .tc .vmem S512x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S512x128 .bf16) (harg12 : arg12.IsWhole) (arg13 : Memref sig .tc .vmem S1x128 .f32) (harg13 : arg13.IsWhole) (arg14 : Memref sig .tc .vmem S1x256x128 .f32) (harg14 : arg14.IsWhole) (hc0 : ¬cond0_0 i) (hc1 : cond0_1 i)
    (x0 : Vec F S1x256x128 .f32) (x1 : Vec F S1x16x128 .f32) (x2 : Vec F S128x512 .bf16) (x3 : Vec F S256x512 .f32) (x4 : Vec F S128x512 .bf16) (x5 : Vec F S16x512 .f32) (x6 : Vec F S512x512 .bf16) (x7 : Vec F S128x512 .bf16) (x8 : Vec F S128x512 .bf16) (x9 : Vec F S1x512 .f32) (x10 : Vec F S512x128 .bf16) (x11 : Vec F S1x128 .f32) (prev : Vec F S1x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k0_pay1 (step0 x0 x1 x2 x3 x4 x5 x6 x7 x8 x9 x10 x11 prev))) -∗ K ⟨⟩))
      ⊢ wp frame (wpE (defs₀ (F := F)) Variants.none c none) E (cc0__intra_kernel i arg2 harg2 arg3 harg3 arg4 harg4 arg5 harg5 arg6 harg6 arg7 harg7 arg8 harg8 arg9 harg9 arg10 harg10 arg11 harg11 arg12 harg12 arg13 harg13 arg14 harg14) K := by
  simp only [cc0__intra_kernel_eq_skeleton]; unfold cc0__intra_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf6 hf7 hf8 hf9 hf10 hf11 hf12
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_cons_self, View.mem_set_unit_zero hz3 inb_S1x256x128_S1x256x128_0_0_0 y⟩), View.canon_cons_unit_zero hz3]
  sl_unfold_words
  unfold step0
  simp only [View.readAt_eq_ld, View.readCov_unit_zero (S := S1x256x128) _ hz3, View.ld_unit_zero (S := S1x256x128) hz3, View.ld_unit_zero (S := S1x16x128) hz3, View.ld_unit_zero (S := S128x512) hz2, View.ld_unit_zero (S := S256x512) hz2, View.ld_unit_zero (S := S16x512) hz2, View.ld_unit_zero (S := S512x512) hz2, View.ld_unit_zero (S := S1x512) hz2, View.ld_unit_zero (S := S512x128) hz2, View.ld_unit_zero (S := S1x128) hz2]

section Region0
variable (V : (c : Dev nD) → (b : Ref sig .tc) → Buf (Elt F) ((c : Thread nD τ).loc b))

/-! ## What the staging buffers hold when the body runs -/

/-- Each input's current staging buffer holds its block at every point, fetched there or not: where it is not
    fetched its block index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)

/-- Away from a row's first point the output's staging buffer holds what the body left at the point before: the
    point is not the first, and the buffer is written back only at a row's last point, never between. -/
theorem before0_12_kept (c : Dev nD) (t : Fin cfg0.N) (h0 : ¬t.val % 16 = 0) (d) :
    (dat0 V c).before 12 t d = acc0 V c (t.val - 1) (Nat.lt_of_le_of_lt (Nat.sub_le _ _) t.isLt) := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1600000 in
/-- The body at any point: the inputs' buffers hold their blocks; the point's place in its row says which case it is
    in; away from the row's first point the output's buffer holds what the point before left; so that case's run
    applies, and the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  by_cases h0 : t.val % 16 = 0
  · rw [acc0_A V c t h0]
    unfold stepAt0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelRun0_A c (grid0.coords t) _ _ _ _ _ _ _ _ _ _ _ _ _ _ _ _ _ _ _ _ _ _ _ _ _ _ ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h15 : t.val % 16 = 15
    · rw [acc0_C V c t h15]
      simp only [before0_12_kept V c t h0]
      unfold stepAt0
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun0_C c (grid0.coords t) _ _ _ _ _ _ _ _ _ _ _ _ _ _ _ _ _ _ _ _ _ _ _ _ _ _ (fun h => h0 ((hcond0_0 t).mp h)) ((hcond0_1 t).mpr h15) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [acc0_B V c t h0 h15]
      simp only [before0_12_kept V c t h0]
      unfold stepAt0
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun0_B c (grid0.coords t) _ _ _ _ _ _ _ _ _ _ _ _ _ _ _ _ _ _ _ _ _ _ _ _ _ _ (fun h => h0 ((hcond0_0 t).mp h)) (fun h => h15 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.LibDeal0K.lean ====
/-
  The arrays of the first fused stage as the pipeline holds them: the twelve distinct buffers behind its thirteen
  windows, each whole at the full share, are the thirteen windowed arrays, the buffer read by the first two windows
  held as the two halves of its full share.
-/
import proofs.«418941_j65867618451820_3_alg».proof.Proof.Gen.Kernel.Launch
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

/-- The twelve distinct buffers behind the thirteen windows, each whole at the full share at contents `W`, are the
    thirteen windowed arrays at the same contents: the buffer of the first two windows, both inputs, is held at the
    left half of the full share by the first and at the right half by the second; the ten other inputs are held at the
    full share; the output is held at the full share. -/
theorem deal0 (c : Dev nD) (dat : Pipeline.Dat τ (Elt F) Unit ℕ (UR sig nD τ) ℕ cfg0 c)
    (hq0 : dat.q 0 = (fullShare : PosShare TreeShare).left) (hq1 : dat.q 1 = (fullShare : PosShare TreeShare).right)
    (hq : ∀ w : Fin cfg0.W, 2 ≤ w.val → dat.q w = fullShare)
    (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs (Ix := Unit) (Name := ℕ) (U := UR sig nD τ) (Lvl := ℕ) spec0 c W : sProp 𝕄) = dat.arrays Fn := by
  have key : ∀ (w : Fin cfg0.W) (q : PosShare TreeShare),
      ((cfg0.win w).arr.view.loc (c.tc : Thread nD τ) ↦[(cfg0.win w).arr.view.set]{q} Fn w : sProp 𝕄)
        = ((c.tc : Thread nD τ).loc (Pipeline.arrRef spec0 w) ↦{q} W (Pipeline.arrRef spec0 w)) := by
    intro w q
    rw [(arr_whole0 w).set_eq_univ, hF]
  have hs0 : dat.share 0 = (fullShare : PosShare TreeShare).left := by
    show (if (cfg0.win 0).isOut = true then fullShare else dat.q 0) = _
    rw [if_neg (by decide), hq0]
  have hs1 : dat.share 1 = (fullShare : PosShare TreeShare).right := by
    show (if (cfg0.win 1).isOut = true then fullShare else dat.q 1) = _
    rw [if_neg (by decide), hq1]
  have hs2 : dat.share 2 = fullShare := by
    show (if (cfg0.win 2).isOut = true then fullShare else dat.q 2) = _
    rw [if_neg (by decide), hq 2 (by decide)]
  have hs3 : dat.share 3 = fullShare := by
    show (if (cfg0.win 3).isOut = true then fullShare else dat.q 3) = _
    rw [if_neg (by decide), hq 3 (by decide)]
  have hs4 : dat.share 4 = fullShare := by
    show (if (cfg0.win 4).isOut = true then fullShare else dat.q 4) = _
    rw [if_neg (by decide), hq 4 (by decide)]
  have hs5 : dat.share 5 = fullShare := by
    show (if (cfg0.win 5).isOut = true then fullShare else dat.q 5) = _
    rw [if_neg (by decide), hq 5 (by decide)]
  have hs6 : dat.share 6 = fullShare := by
    show (if (cfg0.win 6).isOut = true then fullShare else dat.q 6) = _
    rw [if_neg (by decide), hq 6 (by decide)]
  have hs7 : dat.share 7 = fullShare := by
    show (if (cfg0.win 7).isOut = true then fullShare else dat.q 7) = _
    rw [if_neg (by decide), hq 7 (by decide)]
  have hs8 : dat.share 8 = fullShare := by
    show (if (cfg0.win 8).isOut = true then fullShare else dat.q 8) = _
    rw [if_neg (by decide), hq 8 (by decide)]
  have hs9 : dat.share 9 = fullShare := by
    show (if (cfg0.win 9).isOut = true then fullShare else dat.q 9) = _
    rw [if_neg (by decide), hq 9 (by decide)]
  have hs10 : dat.share 10 = fullShare := by
    show (if (cfg0.win 10).isOut = true then fullShare else dat.q 10) = _
    rw [if_neg (by decide), hq 10 (by decide)]
  have hs11 : dat.share 11 = fullShare := by
    show (if (cfg0.win 11).isOut = true then fullShare else dat.q 11) = _
    rw [if_neg (by decide), hq 11 (by decide)]
  have hs12 : dat.share 12 = fullShare := by
    show (if (cfg0.win 12).isOut = true then fullShare else dat.q 12) = _
    rw [if_pos (by decide)]
  have hsplit : ((c.tc : Thread nD τ).loc main_v2 ↦{fullShare} W main_v2 : sProp 𝕄)
      = iprop(((c.tc : Thread nD τ).loc main_v2 ↦{(fullShare : PosShare TreeShare).left} W main_v2)
          ∗ ((c.tc : Thread nD τ).loc main_v2 ↦{(fullShare : PosShare TreeShare).right} W main_v2)) :=
    Entails.antisymm (pointsTo_share (PosShare.mem_left_op_right fullShare)).1 (pointsTo_share (PosShare.mem_left_op_right fullShare)).2
  have hA : dat.arrays Fn = bigSep Finset.univ fun w : Fin cfg0.W =>
      ((c.tc : Thread nD τ).loc (Pipeline.arrRef spec0 w) ↦{dat.share w} W (Pipeline.arrRef spec0 w) : sProp 𝕄) := by
    unfold Pipeline.Dat.arrays
    exact bigSep_congr fun w _ => key w _
  rw [hA, bigSep_W0, hs0, hs1, hs2, hs3, hs4, hs5, hs6, hs7, hs8, hs9, hs10, hs11, hs12]
  unfold Pipeline.arrBufs
  rw [bigSep_eq_bigSepL_of_eq [main_v2, main_v19, main_v15, main_v20, main_v6, main_v24, main_v21, main_v22, main_v18, main_v23, main_v13, main_v25] (by decide) (by decide)]
  exact (congrArg (fun X : sProp 𝕄 => Idealize.SL.BI.sep X _) hsplit).trans
    (Idealize.SL.BI.sep_assoc.antisymm Idealize.SL.BI.sep_assoc')

/-- From the whole buffers to the windowed arrays. -/
theorem deal0_split (c : Dev nD) (dat : Pipeline.Dat τ (Elt F) Unit ℕ (UR sig nD τ) ℕ cfg0 c)
    (hq0 : dat.q 0 = (fullShare : PosShare TreeShare).left) (hq1 : dat.q 1 = (fullShare : PosShare TreeShare).right)
    (hq : ∀ w : Fin cfg0.W, 2 ≤ w.val → dat.q w = fullShare)
    (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs (Ix := Unit) (Name := ℕ) (U := UR sig nD τ) (Lvl := ℕ) spec0 c W : sProp 𝕄) ⊢ dat.arrays Fn :=
  Entails.of_eq (deal0 c dat hq0 hq1 hq W Fn hF)

/-- From the windowed arrays back to the whole buffers. -/
theorem deal0_join (c : Dev nD) (dat : Pipeline.Dat τ (Elt F) Unit ℕ (UR sig nD τ) ℕ cfg0 c)
    (hq0 : dat.q 0 = (fullShare : PosShare TreeShare).left) (hq1 : dat.q 1 = (fullShare : PosShare TreeShare).right)
    (hq : ∀ w : Fin cfg0.W, 2 ≤ w.val → dat.q w = fullShare)
    (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    dat.arrays Fn ⊢ (Pipeline.arrBufs (Ix := Unit) (Name := ℕ) (U := UR sig nD τ) (Lvl := ℕ) spec0 c W : sProp 𝕄) :=
  Entails.of_eq (deal0 c dat hq0 hq1 hq W Fn hF).symm

end Cert.Kernel.Hand

end
-- ==== Proof.RunK.lean ====
import proofs.«418941_j65867618451820_3_alg».proof.Proof.RunDefsK
import proofs.«418941_j65867618451820_3_alg».proof.Proof.Reg0K
import proofs.«418941_j65867618451820_3_alg».proof.Proof.LibDeal0K
import proofs.«418941_j65867618451820_3_alg».proof.Proof.Reg1K
import proofs.«418941_j65867618451820_3_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first call's arrays at its exit -/

/-- Every array of the first call holds at the exit contents what the pipeline leaves in it: the output what its
    write-backs fold to, an input what it held (it is only read). -/
theorem inputs0 : ∀ w : Fin cfg0.W, w ≠ 12 → (cfg0.win w).isOut = false ∧ Pipeline.arrRef spec0 w ≠ Pipeline.arrRef spec0 12 := by decide
theorem inputs1 : ∀ w : Fin cfg1.W, w ≠ 3 → (cfg1.win w).isOut = false ∧ Pipeline.arrRef spec1 w ≠ Pipeline.arrRef spec1 3 := by decide

theorem hF0_in (c : Dev nD) (w : Fin cfg0.W) (hin : (cfg0.win w).isOut = false) (hne : Pipeline.arrRef spec0 w ≠ Pipeline.arrRef spec0 12) :
    (dat0 (V1 m ρ) c).arrAt w cfg0.N = V2 m ρ c (Pipeline.arrRef spec0 w) := by
  rw [(dat0 (V1 m ρ) c).arrAt_in w hin cfg0.N, A_eq0]
  exact (W2_of_ne m ρ c _ hne).symm

theorem hF0 (c : Dev nD) (w : Fin cfg0.W) : (dat0 (V1 m ρ) c).arrAt w cfg0.N = V2 m ρ c (Pipeline.arrRef spec0 w) := by
  by_cases h : w = 12
  · subst h; exact (W2_out m ρ c).symm
  · exact hF0_in m ρ c w (inputs0 w h).1 (inputs0 w h).2

/-- Every buffer that is no array of the first call holds at its exit what it held at its entry. -/
theorem hrest0 (c : Dev nD) : ∀ b, b ∉ Finset.univ.image (Pipeline.arrRef spec0) → V2 m ρ c b = V1 m ρ c b :=
  fun b hb => W2_of_ne m ρ c b fun e => hb (Finset.mem_image.mpr ⟨12, Finset.mem_univ _, e.symm⟩)

theorem hF1_in (c : Dev nD) (w : Fin cfg1.W) (hin : (cfg1.win w).isOut = false) (hne : Pipeline.arrRef spec1 w ≠ Pipeline.arrRef spec1 3) :
    (dat1 (V7 m ρ) c).arrAt w cfg1.N = V8 m ρ c (Pipeline.arrRef spec1 w) := by
  rw [(dat1 (V7 m ρ) c).arrAt_in w hin cfg1.N, A_eq1]
  exact (W8_of_ne m ρ c _ hne).symm

theorem hF1 (c : Dev nD) (w : Fin cfg1.W) : (dat1 (V7 m ρ) c).arrAt w cfg1.N = V8 m ρ c (Pipeline.arrRef spec1 w) := by
  by_cases h : w = 3
  · subst h; exact (W8_out m ρ c).symm
  · exact hF1_in m ρ c w (inputs1 w h).1 (inputs1 w h).2

theorem hrest1 (c : Dev nD) : ∀ b, b ∉ Finset.univ.image (Pipeline.arrRef spec1) → V8 m ρ c b = V7 m ρ c b :=
  fun b hb => W8_of_ne m ρ c b fun e => hb (Finset.mem_image.mpr ⟨3, Finset.mem_univ _, e.symm⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

/-- Every window of the first call but the two that share an array holds its whole array. -/
theorem q0_full (V : (c : Dev nD) → (b : Ref sig .tc) → Buf (Elt F) ((c : Thread nD τ).loc b)) (c : Dev nD) :
    ∀ w : Fin cfg0.W, 2 ≤ w.val → (dat0 V c).q w = fullShare := by
  intro w hw
  match w, hw with
  | ⟨0, _⟩, hw => exact absurd hw (by simp)
  | ⟨1, _⟩, hw => exact absurd hw (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl

set_option backward.isDefEq.respectTransparency.types false in
/-- THE FIRST CALL over the thread state: entered from every unscoped buffer at `W1`, left at `W2`. Windows 0 and 1
    stage blocks of one array, whose points-to is dealt between them in halves at entry and joined at exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hub := Pipeline.unscopedBufs_arrBufs_rest (Val := Elt F) cfgs (0 : Fin 2) c winFacts₀0.arr_unscoped (V1 m ρ c)
    rw [Pipeline.unscopedBufs_held] at hub
    have hdeal := deal0_split (F := F) c (dat0 (V1 m ρ) c) rfl rfl (q0_full (V1 m ρ) c) (V1 m ρ c) ((dat0 (V1 m ρ) c).arrAt · 0) (fun w => A_eq0 (V1 m ρ) c w)
    have hsplit := (Entails.of_eq hub).trans (sep_mono hdeal .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hub := Pipeline.unscopedBufs_arrBufs_rest (Val := Elt F) cfgs (0 : Fin 2) c winFacts₀0.arr_unscoped (V2 m ρ c)
    rw [Pipeline.unscopedBufs_held] at hub
    have hdeal := deal0_join (F := F) c (dat0 (V1 m ρ) c) rfl rfl (q0_full (V1 m ρ) c) (V2 m ρ c) ((dat0 (V1 m ρ) c).arrAt · cfg0.N) (fun w => hF0 m ρ c w)
    have hrest : (Pipeline.unscopedRest (Ix := Unit) (Name := ℕ) (U := UR sig nD τ) (Lvl := ℕ) spec0 c (V1 m ρ c) : sProp 𝕄)
        = Pipeline.unscopedRest spec0 c (V2 m ρ c) := by
      unfold Pipeline.unscopedRest
      exact bigSep_congr fun b hb => by rw [hrest0 m ρ c b (Finset.mem_sdiff.mp hb).2]
    have hjoin := (BIClass.sep_mono hdeal (Entails.of_eq hrest)).trans (Entails.of_eq hub.symm)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)) ]

/-- @main IS the run of the segments. -/
theorem main_run (c : Dev nD) : main (F := F) c = Pipeline.Seg.run (segs m ρ) := (main_chain c).trans (by chain_rfl)

/-- The last thread state beside the core owing nothing: what the last host segment leaves. -/
theorem last_post (c : Dev nD) : iprop(StableHlo.held (c : Thread nD τ) (Pipeline.ucRefs τ sig) (W12 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN: from any memory with zero counters every weakly fair execution of @main on the TensorCores terminates,
    nothing faulting, and in every final state every unscoped buffer holds what the fold `W12` says. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.ArgsKept.lean ====
/-
  The program's arguments end as launched.

  No host operation between the launch and the return writes an argument of the program, and neither fused
  call's output array is an argument: at the return every argument's buffer holds what the launch memory held.
  The arguments are the device buffers numbered below 18; every buffer an operation writes, and both output
  arrays, have a larger number.
-/
import proofs.«418941_j65867618451820_3_alg».proof.Proof.RunDefs

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-! ## One stretch of host operations leaves a buffer numbered below 18 as it was -/

section Stretches

variable (W : Valuation τ sig (Elt F)) (r : Ref sig .tc)

/-- Every operation of the stretch writes one buffer; a buffer numbered below 18 is none of them. -/
local macro "kept_stretch" hr:ident : tactic => `(tactic| (
  refine StableHlo.after_of_forall_not_mem _ _ (List.forall_iff_forall_mem.mp ?_)
  simp only [hostOps0, hostOps1, hostOps1_1, hostOps1_2, hostOps1_3, hostOps1_4, hostOps2, hostOps2_1, hostOps2_2, hostOps2_3,
    List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (fun e => by subst e; exact absurd $hr (by decide))))

theorem kept0 (hr : r.idx.val < 18) :
    StableHlo.after (hostOps0 (F := F)) W (Proc.devRef .tc r) = W (Proc.devRef .tc r) := by
  kept_stretch hr

theorem kept1 (hr : r.idx.val < 18) :
    StableHlo.after (hostOps1 (F := F)) W (Proc.devRef .tc r) = W (Proc.devRef .tc r) := by
  kept_stretch hr

theorem kept1_1 (hr : r.idx.val < 18) :
    StableHlo.after (hostOps1_1 (F := F)) W (Proc.devRef .tc r) = W (Proc.devRef .tc r) := by
  kept_stretch hr

theorem kept1_2 (hr : r.idx.val < 18) :
    StableHlo.after (hostOps1_2 (F := F)) W (Proc.devRef .tc r) = W (Proc.devRef .tc r) := by
  kept_stretch hr

theorem kept1_3 (hr : r.idx.val < 18) :
    StableHlo.after (hostOps1_3 (F := F)) W (Proc.devRef .tc r) = W (Proc.devRef .tc r) := by
  kept_stretch hr

theorem kept1_4 (hr : r.idx.val < 18) :
    StableHlo.after (hostOps1_4 (F := F)) W (Proc.devRef .tc r) = W (Proc.devRef .tc r) := by
  kept_stretch hr

theorem kept2 (hr : r.idx.val < 18) :
    StableHlo.after (hostOps2 (F := F)) W (Proc.devRef .tc r) = W (Proc.devRef .tc r) := by
  kept_stretch hr

theorem kept2_1 (hr : r.idx.val < 18) :
    StableHlo.after (hostOps2_1 (F := F)) W (Proc.devRef .tc r) = W (Proc.devRef .tc r) := by
  kept_stretch hr

theorem kept2_2 (hr : r.idx.val < 18) :
    StableHlo.after (hostOps2_2 (F := F)) W (Proc.devRef .tc r) = W (Proc.devRef .tc r) := by
  kept_stretch hr

theorem kept2_3 (hr : r.idx.val < 18) :
    StableHlo.after (hostOps2_3 (F := F)) W (Proc.devRef .tc r) = W (Proc.devRef .tc r) := by
  kept_stretch hr

end Stretches

/-! ## From the return back to the launch -/

variable (m : (ℓ : Loc nD τ sig) → Buf (Elt F) ℓ) (ρ : Dev nD → PrngReg)

/-- A buffer numbered below 18 holds at the return what it held at the launch. -/
theorem W12_of_lt (c : Dev nD) (r : Ref sig .tc) (hr : r.idx.val < 18) :
    W12 m ρ c (Proc.devRef .tc r) = W0 m ρ c (Proc.devRef .tc r) :=
  calc W12 m ρ c (Proc.devRef .tc r)
    _ = W11 m ρ c (Proc.devRef .tc r) := kept2_3 (W11 m ρ c) r hr
    _ = W10 m ρ c (Proc.devRef .tc r) := kept2_2 (W10 m ρ c) r hr
    _ = W9 m ρ c (Proc.devRef .tc r) := kept2_1 (W9 m ρ c) r hr
    _ = W8 m ρ c (Proc.devRef .tc r) := kept2 (W8 m ρ c) r hr
    _ = W7 m ρ c (Proc.devRef .tc r) := W8_of_ne m ρ c r (fun e => by subst e; exact absurd hr (by decide))
    _ = W6 m ρ c (Proc.devRef .tc r) := kept1_4 (W6 m ρ c) r hr
    _ = W5 m ρ c (Proc.devRef .tc r) := kept1_3 (W5 m ρ c) r hr
    _ = W4 m ρ c (Proc.devRef .tc r) := kept1_2 (W4 m ρ c) r hr
    _ = W3 m ρ c (Proc.devRef .tc r) := kept1_1 (W3 m ρ c) r hr
    _ = W2 m ρ c (Proc.devRef .tc r) := kept1 (W2 m ρ c) r hr
    _ = W1 m ρ c (Proc.devRef .tc r) := W2_of_ne m ρ c r (fun e => by subst e; exact absurd hr (by decide))
    _ = W0 m ρ c (Proc.devRef .tc r) := kept0 (W0 m ρ c) r hr

/-! ## The eighteen arguments -/

theorem W12_arg0 (c : Dev nD) : W12 m ρ c (Proc.devRef .tc main_arg0) = m ((c : Thread nD τ).loc main_arg0) :=
  (W12_of_lt m ρ c main_arg0 (by decide)).trans rfl
theorem W12_arg1 (c : Dev nD) : W12 m ρ c (Proc.devRef .tc main_arg1) = m ((c : Thread nD τ).loc main_arg1) :=
  (W12_of_lt m ρ c main_arg1 (by decide)).trans rfl
theorem W12_arg2 (c : Dev nD) : W12 m ρ c (Proc.devRef .tc main_arg2) = m ((c : Thread nD τ).loc main_arg2) :=
  (W12_of_lt m ρ c main_arg2 (by decide)).trans rfl
theorem W12_arg3 (c : Dev nD) : W12 m ρ c (Proc.devRef .tc main_arg3) = m ((c : Thread nD τ).loc main_arg3) :=
  (W12_of_lt m ρ c main_arg3 (by decide)).trans rfl
theorem W12_arg4 (c : Dev nD) : W12 m ρ c (Proc.devRef .tc main_arg4) = m ((c : Thread nD τ).loc main_arg4) :=
  (W12_of_lt m ρ c main_arg4 (by decide)).trans rfl
theorem W12_arg5 (c : Dev nD) : W12 m ρ c (Proc.devRef .tc main_arg5) = m ((c : Thread nD τ).loc main_arg5) :=
  (W12_of_lt m ρ c main_arg5 (by decide)).trans rfl
theorem W12_arg6 (c : Dev nD) : W12 m ρ c (Proc.devRef .tc main_arg6) = m ((c : Thread nD τ).loc main_arg6) :=
  (W12_of_lt m ρ c main_arg6 (by decide)).trans rfl
theorem W12_arg7 (c : Dev nD) : W12 m ρ c (Proc.devRef .tc main_arg7) = m ((c : Thread nD τ).loc main_arg7) :=
  (W12_of_lt m ρ c main_arg7 (by decide)).trans rfl
theorem W12_arg8 (c : Dev nD) : W12 m ρ c (Proc.devRef .tc main_arg8) = m ((c : Thread nD τ).loc main_arg8) :=
  (W12_of_lt m ρ c main_arg8 (by decide)).trans rfl
theorem W12_arg9 (c : Dev nD) : W12 m ρ c (Proc.devRef .tc main_arg9) = m ((c : Thread nD τ).loc main_arg9) :=
  (W12_of_lt m ρ c main_arg9 (by decide)).trans rfl
theorem W12_arg10 (c : Dev nD) : W12 m ρ c (Proc.devRef .tc main_arg10) = m ((c : Thread nD τ).loc main_arg10) :=
  (W12_of_lt m ρ c main_arg10 (by decide)).trans rfl
theorem W12_arg11 (c : Dev nD) : W12 m ρ c (Proc.devRef .tc main_arg11) = m ((c : Thread nD τ).loc main_arg11) :=
  (W12_of_lt m ρ c main_arg11 (by decide)).trans rfl
theorem W12_arg12 (c : Dev nD) : W12 m ρ c (Proc.devRef .tc main_arg12) = m ((c : Thread nD τ).loc main_arg12) :=
  (W12_of_lt m ρ c main_arg12 (by decide)).trans rfl
theorem W12_arg13 (c : Dev nD) : W12 m ρ c (Proc.devRef .tc main_arg13) = m ((c : Thread nD τ).loc main_arg13) :=
  (W12_of_lt m ρ c main_arg13 (by decide)).trans rfl
theorem W12_arg14 (c : Dev nD) : W12 m ρ c (Proc.devRef .tc main_arg14) = m ((c : Thread nD τ).loc main_arg14) :=
  (W12_of_lt m ρ c main_arg14 (by decide)).trans rfl
theorem W12_arg15 (c : Dev nD) : W12 m ρ c (Proc.devRef .tc main_arg15) = m ((c : Thread nD τ).loc main_arg15) :=
  (W12_of_lt m ρ c main_arg15 (by decide)).trans rfl
theorem W12_arg16 (c : Dev nD) : W12 m ρ c (Proc.devRef .tc main_arg16) = m ((c : Thread nD τ).loc main_arg16) :=
  (W12_of_lt m ρ c main_arg16 (by decide)).trans rfl
theorem W12_arg17 (c : Dev nD) : W12 m ρ c (Proc.devRef .tc main_arg17) = m ((c : Thread nD τ).loc main_arg17) :=
  (W12_of_lt m ρ c main_arg17 (by decide)).trans rfl

end Cert.KernelIdeal.Hand

end
-- ==== Proof.ArgsKeptK.lean ====
/-
  The program's arguments end as launched.

  No host operation between the launch and the return writes an argument of the program, and neither fused
  call's output array is an argument: at the return every argument's buffer holds what the launch memory held.
  The arguments are the device buffers numbered below 18; every buffer an operation writes, and both output
  arrays, have a larger number.
-/
import proofs.«418941_j65867618451820_3_alg».proof.Proof.RunDefsK

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-! ## One stretch of host operations leaves a buffer numbered below 18 as it was -/

section Stretches

variable (W : Valuation τ sig (Elt F)) (r : Ref sig .tc)

/-- Every operation of the stretch writes one buffer; a buffer numbered below 18 is none of them. -/
local macro "kept_stretch" hr:ident : tactic => `(tactic| (
  refine StableHlo.after_of_forall_not_mem _ _ (List.forall_iff_forall_mem.mp ?_)
  simp only [hostOps0, hostOps1, hostOps1_1, hostOps1_2, hostOps1_3, hostOps1_4, hostOps2, hostOps2_1, hostOps2_2, hostOps2_3,
    List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (fun e => by subst e; exact absurd $hr (by decide))))

theorem kept0 (hr : r.idx.val < 18) :
    StableHlo.after (hostOps0 (F := F)) W (Proc.devRef .tc r) = W (Proc.devRef .tc r) := by
  kept_stretch hr

theorem kept1 (hr : r.idx.val < 18) :
    StableHlo.after (hostOps1 (F := F)) W (Proc.devRef .tc r) = W (Proc.devRef .tc r) := by
  kept_stretch hr

theorem kept1_1 (hr : r.idx.val < 18) :
    StableHlo.after (hostOps1_1 (F := F)) W (Proc.devRef .tc r) = W (Proc.devRef .tc r) := by
  kept_stretch hr

theorem kept1_2 (hr : r.idx.val < 18) :
    StableHlo.after (hostOps1_2 (F := F)) W (Proc.devRef .tc r) = W (Proc.devRef .tc r) := by
  kept_stretch hr

theorem kept1_3 (hr : r.idx.val < 18) :
    StableHlo.after (hostOps1_3 (F := F)) W (Proc.devRef .tc r) = W (Proc.devRef .tc r) := by
  kept_stretch hr

theorem kept1_4 (hr : r.idx.val < 18) :
    StableHlo.after (hostOps1_4 (F := F)) W (Proc.devRef .tc r) = W (Proc.devRef .tc r) := by
  kept_stretch hr

theorem kept2 (hr : r.idx.val < 18) :
    StableHlo.after (hostOps2 (F := F)) W (Proc.devRef .tc r) = W (Proc.devRef .tc r) := by
  kept_stretch hr

theorem kept2_1 (hr : r.idx.val < 18) :
    StableHlo.after (hostOps2_1 (F := F)) W (Proc.devRef .tc r) = W (Proc.devRef .tc r) := by
  kept_stretch hr

theorem kept2_2 (hr : r.idx.val < 18) :
    StableHlo.after (hostOps2_2 (F := F)) W (Proc.devRef .tc r) = W (Proc.devRef .tc r) := by
  kept_stretch hr

theorem kept2_3 (hr : r.idx.val < 18) :
    StableHlo.after (hostOps2_3 (F := F)) W (Proc.devRef .tc r) = W (Proc.devRef .tc r) := by
  kept_stretch hr

end Stretches

/-! ## From the return back to the launch -/

variable (m : (ℓ : Loc nD τ sig) → Buf (Elt F) ℓ) (ρ : Dev nD → PrngReg)

/-- A buffer numbered below 18 holds at the return what it held at the launch. -/
theorem W12_of_lt (c : Dev nD) (r : Ref sig .tc) (hr : r.idx.val < 18) :
    W12 m ρ c (Proc.devRef .tc r) = W0 m ρ c (Proc.devRef .tc r) :=
  calc W12 m ρ c (Proc.devRef .tc r)
    _ = W11 m ρ c (Proc.devRef .tc r) := kept2_3 (W11 m ρ c) r hr
    _ = W10 m ρ c (Proc.devRef .tc r) := kept2_2 (W10 m ρ c) r hr
    _ = W9 m ρ c (Proc.devRef .tc r) := kept2_1 (W9 m ρ c) r hr
    _ = W8 m ρ c (Proc.devRef .tc r) := kept2 (W8 m ρ c) r hr
    _ = W7 m ρ c (Proc.devRef .tc r) := W8_of_ne m ρ c r (fun e => by subst e; exact absurd hr (by decide))
    _ = W6 m ρ c (Proc.devRef .tc r) := kept1_4 (W6 m ρ c) r hr
    _ = W5 m ρ c (Proc.devRef .tc r) := kept1_3 (W5 m ρ c) r hr
    _ = W4 m ρ c (Proc.devRef .tc r) := kept1_2 (W4 m ρ c) r hr
    _ = W3 m ρ c (Proc.devRef .tc r) := kept1_1 (W3 m ρ c) r hr
    _ = W2 m ρ c (Proc.devRef .tc r) := kept1 (W2 m ρ c) r hr
    _ = W1 m ρ c (Proc.devRef .tc r) := W2_of_ne m ρ c r (fun e => by subst e; exact absurd hr (by decide))
    _ = W0 m ρ c (Proc.devRef .tc r) := kept0 (W0 m ρ c) r hr

/-! ## The eighteen arguments -/

theorem W12_arg0 (c : Dev nD) : W12 m ρ c (Proc.devRef .tc main_arg0) = m ((c : Thread nD τ).loc main_arg0) :=
  (W12_of_lt m ρ c main_arg0 (by decide)).trans rfl
theorem W12_arg1 (c : Dev nD) : W12 m ρ c (Proc.devRef .tc main_arg1) = m ((c : Thread nD τ).loc main_arg1) :=
  (W12_of_lt m ρ c main_arg1 (by decide)).trans rfl
theorem W12_arg2 (c : Dev nD) : W12 m ρ c (Proc.devRef .tc main_arg2) = m ((c : Thread nD τ).loc main_arg2) :=
  (W12_of_lt m ρ c main_arg2 (by decide)).trans rfl
theorem W12_arg3 (c : Dev nD) : W12 m ρ c (Proc.devRef .tc main_arg3) = m ((c : Thread nD τ).loc main_arg3) :=
  (W12_of_lt m ρ c main_arg3 (by decide)).trans rfl
theorem W12_arg4 (c : Dev nD) : W12 m ρ c (Proc.devRef .tc main_arg4) = m ((c : Thread nD τ).loc main_arg4) :=
  (W12_of_lt m ρ c main_arg4 (by decide)).trans rfl
theorem W12_arg5 (c : Dev nD) : W12 m ρ c (Proc.devRef .tc main_arg5) = m ((c : Thread nD τ).loc main_arg5) :=
  (W12_of_lt m ρ c main_arg5 (by decide)).trans rfl
theorem W12_arg6 (c : Dev nD) : W12 m ρ c (Proc.devRef .tc main_arg6) = m ((c : Thread nD τ).loc main_arg6) :=
  (W12_of_lt m ρ c main_arg6 (by decide)).trans rfl
theorem W12_arg7 (c : Dev nD) : W12 m ρ c (Proc.devRef .tc main_arg7) = m ((c : Thread nD τ).loc main_arg7) :=
  (W12_of_lt m ρ c main_arg7 (by decide)).trans rfl
theorem W12_arg8 (c : Dev nD) : W12 m ρ c (Proc.devRef .tc main_arg8) = m ((c : Thread nD τ).loc main_arg8) :=
  (W12_of_lt m ρ c main_arg8 (by decide)).trans rfl
theorem W12_arg9 (c : Dev nD) : W12 m ρ c (Proc.devRef .tc main_arg9) = m ((c : Thread nD τ).loc main_arg9) :=
  (W12_of_lt m ρ c main_arg9 (by decide)).trans rfl
theorem W12_arg10 (c : Dev nD) : W12 m ρ c (Proc.devRef .tc main_arg10) = m ((c : Thread nD τ).loc main_arg10) :=
  (W12_of_lt m ρ c main_arg10 (by decide)).trans rfl
theorem W12_arg11 (c : Dev nD) : W12 m ρ c (Proc.devRef .tc main_arg11) = m ((c : Thread nD τ).loc main_arg11) :=
  (W12_of_lt m ρ c main_arg11 (by decide)).trans rfl
theorem W12_arg12 (c : Dev nD) : W12 m ρ c (Proc.devRef .tc main_arg12) = m ((c : Thread nD τ).loc main_arg12) :=
  (W12_of_lt m ρ c main_arg12 (by decide)).trans rfl
theorem W12_arg13 (c : Dev nD) : W12 m ρ c (Proc.devRef .tc main_arg13) = m ((c : Thread nD τ).loc main_arg13) :=
  (W12_of_lt m ρ c main_arg13 (by decide)).trans rfl
theorem W12_arg14 (c : Dev nD) : W12 m ρ c (Proc.devRef .tc main_arg14) = m ((c : Thread nD τ).loc main_arg14) :=
  (W12_of_lt m ρ c main_arg14 (by decide)).trans rfl
theorem W12_arg15 (c : Dev nD) : W12 m ρ c (Proc.devRef .tc main_arg15) = m ((c : Thread nD τ).loc main_arg15) :=
  (W12_of_lt m ρ c main_arg15 (by decide)).trans rfl
theorem W12_arg16 (c : Dev nD) : W12 m ρ c (Proc.devRef .tc main_arg16) = m ((c : Thread nD τ).loc main_arg16) :=
  (W12_of_lt m ρ c main_arg16 (by decide)).trans rfl
theorem W12_arg17 (c : Dev nD) : W12 m ρ c (Proc.devRef .tc main_arg17) = m ((c : Thread nD τ).loc main_arg17) :=
  (W12_of_lt m ρ c main_arg17 (by decide)).trans rfl

end Cert.Kernel.Hand

end
-- ==== Proof.LibHloSsa.lean ====
/-
  Straight lines of host operations that write every buffer at most once.

  A line of operations is run from a valuation W; `after ops W` is the valuation at the end.  When a table `wl`
  lists, in order, the one reference each operation writes, the end valuation can be read operation by operation:
  if no later operation writes the result `y` of the operation at position j, nor any operation from position j on
  writes its operand `x`, then the end value of `y` is the operation's function of the END value of `x`.  So the
  end valuation satisfies the program's equations, one per operation, and a reference no operation writes keeps its
  starting contents.  The side conditions are memberships in a literal list of references, decided by computation.
-/
import Idealize.ShloMosaic.Lib.StableHlo.Run

namespace GraphMatch.HloSsa

open Idealize.ShloMosaic Idealize.ShloMosaic.StableHlo Idealize.ShloMosaic.TcCoe

variable {τ : Topo} {sig : RefSig} {Val : EltTy → Type}

/-- Running two lines one after the other is running their concatenation. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- `wl` lists, in order, the single reference each operation of `ops` writes. -/
def Writes (ops : List (HloOp τ sig Val)) (wl : List (Ref sig .tc)) : Prop :=
  ops.map HloOp.writes = wl.map fun r => ({Proc.devRef .tc r} : Finset (DevRef τ sig))

/-- A reference absent from the table from position k on is written by no operation from position k on. -/
theorem not_written {ops : List (HloOp τ sig Val)} {wl : List (Ref sig .tc)} (hw : Writes ops wl) (k : Nat)
    {r : Ref sig .tc} (hr : r ∉ wl.drop k) : ∀ o ∈ ops.drop k, Proc.devRef (τ := τ) .tc r ∉ o.writes := by
  intro o ho hmem
  have h1 : o.writes ∈ (ops.drop k).map HloOp.writes := List.mem_map.mpr ⟨o, ho, rfl⟩
  have h2 : (ops.drop k).map HloOp.writes
      = (wl.drop k).map fun r => ({Proc.devRef .tc r} : Finset (DevRef τ sig)) := by
    rw [List.map_drop, List.map_drop, hw]
  rw [h2] at h1
  obtain ⟨r', hr', he⟩ := List.mem_map.mp h1
  rw [← he, Finset.mem_singleton] at hmem
  exact hr ((Proc.devRef_injective _ hmem) ▸ hr')

/-- The line split at position j: the operations before it, the operation there, the operations after it. -/
theorem after_split : ∀ (ops : List (HloOp τ sig Val)) (j : Nat) (op : HloOp τ sig Val), ops[j]? = some op →
    ∀ V : Valuation τ sig Val, after ops V = after (ops.drop (j + 1)) (op.result (after (ops.take j) V))
  | [], _, _, h, _ => by simp at h
  | o :: os, 0, op, h, V => by
    have e : o = op := by simpa using h
    subst e; rfl
  | o :: os, j + 1, op, h, V => by
    have h' : os[j]? = some op := by simpa using h
    exact after_split os j op h' (o.result V)

/-- The end value of a reference that nothing after position j writes is its value just after the operation at j. -/
theorem after_eq_result {ops : List (HloOp τ sig Val)} {wl : List (Ref sig .tc)} (hw : Writes ops wl) (j : Nat)
    (op : HloOp τ sig Val) (hop : ops[j]? = some op) {y : Ref sig .tc} (hy : y ∉ wl.drop (j + 1))
    (V : Valuation τ sig Val) :
    after ops V (Proc.devRef .tc y) = op.result (after (ops.take j) V) (Proc.devRef .tc y) := by
  rw [after_split ops j op hop V]
  exact after_of_forall_not_mem _ _ (not_written hw (j + 1) hy)

/-- The end value of a reference that nothing from position j on writes is its value just before position j. -/
theorem after_eq_take {ops : List (HloOp τ sig Val)} {wl : List (Ref sig .tc)} (hw : Writes ops wl) (j : Nat)
    {x : Ref sig .tc} (hx : x ∉ wl.drop j) (V : Valuation τ sig Val) :
    after ops V (Proc.devRef .tc x) = after (ops.take j) V (Proc.devRef .tc x) := by
  have hs : after ops V = after (ops.drop j) (after (ops.take j) V) := by
    rw [← after_app, List.take_append_drop]
  rw [hs]
  exact after_of_forall_not_mem _ _ (not_written hw j hx)

/-- A reference the line never writes keeps its starting contents. -/
theorem after_unwritten {ops : List (HloOp τ sig Val)} {wl : List (Ref sig .tc)} (hw : Writes ops wl)
    {r : Ref sig .tc} (hr : r ∉ wl) (V : Valuation τ sig Val) :
    after ops V (Proc.devRef .tc r) = V (Proc.devRef .tc r) :=
  after_of_forall_not_mem ops V (not_written hw 0 hr)

/-! ## The end valuation at each kind of operation -/

/-- A constant: the end value of its result is the constant. -/
theorem after_nullary {ops : List (HloOp τ sig Val)} {wl : List (Ref sig .tc)} (hw : Writes ops wl) (j : Nat)
    (y : Ref sig .tc) (v : y.ty.Contents Val) (hy)
    (hop : ops[j]? = some (nullary (τ := τ) y v hy)) (hy' : y ∉ wl.drop (j + 1)) (V : Valuation τ sig Val) :
    after ops V (Proc.devRef .tc y) = v := by
  rw [after_eq_result hw j _ hop hy' V, nullary_result]

/-- One operand: the end value of the result is the function of the end value of the operand. -/
theorem after_unary {ops : List (HloOp τ sig Val)} {wl : List (Ref sig .tc)} (hw : Writes ops wl) (j : Nat)
    (x y : Ref sig .tc) (f : x.ty.Contents Val → y.ty.Contents Val) (hx hy)
    (hop : ops[j]? = some (unary (τ := τ) x y f hx hy)) (hy' : y ∉ wl.drop (j + 1)) (hx' : x ∉ wl.drop j)
    (V : Valuation τ sig Val) :
    after ops V (Proc.devRef .tc y) = f (after ops V (Proc.devRef .tc x)) := by
  rw [after_eq_result hw j _ hop hy' V, unary_result, after_eq_take hw j hx' V]

/-- Two operands. -/
theorem after_binary {ops : List (HloOp τ sig Val)} {wl : List (Ref sig .tc)} (hw : Writes ops wl) (j : Nat)
    (a b y : Ref sig .tc) (f : a.ty.Contents Val → b.ty.Contents Val → y.ty.Contents Val) (ha hb hy)
    (hop : ops[j]? = some (binary (τ := τ) a b y f ha hb hy)) (hy' : y ∉ wl.drop (j + 1))
    (ha' : a ∉ wl.drop j) (hb' : b ∉ wl.drop j) (V : Valuation τ sig Val) :
    after ops V (Proc.devRef .tc y) = f (after ops V (Proc.devRef .tc a)) (after ops V (Proc.devRef .tc b)) := by
  rw [after_eq_result hw j _ hop hy' V, binary_result, after_eq_take hw j ha' V, after_eq_take hw j hb' V]

/-- A reshape: the end value of the result is the operand's end value recast to the result's shape. -/
theorem after_reshape {ops : List (HloOp τ sig Val)} {wl : List (Ref sig .tc)} (hw : Writes ops wl) (j : Nat)
    (x y : Ref sig .tc) (he : x.ty.elt = y.ty.elt) (hn : x.ty.shape.ShapeCasts y.ty.shape) (hx hy)
    (hop : ops[j]? = some (reshape (τ := τ) (Val := Val) x y he hn hx hy)) (hy' : y ∉ wl.drop (j + 1))
    (hx' : x ∉ wl.drop j) (V : Valuation τ sig Val) :
    after ops V (Proc.devRef .tc y) = fun i => he ▸ shapeCast y.ty.shape (after ops V (Proc.devRef .tc x)) hn i := by
  rw [after_eq_result hw j _ hop hy' V, reshape_result, after_eq_take hw j hx' V]

/-- Three operands given as a literal family: each operand's end value stands at its own position. -/
theorem after_nary3 {ops : List (HloOp τ sig Val)} {wl : List (Ref sig .tc)} (hw : Writes ops wl) (j : Nat)
    (a b c y : Ref sig .tc)
    (f : ((k : Fin 3) → ((![a, b, c] : Fin 3 → Ref sig .tc) k).ty.Contents Val) → y.ty.Contents Val) (hxs hy)
    (hop : ops[j]? = some (nary (τ := τ) ![a, b, c] y f hxs hy)) (hy' : y ∉ wl.drop (j + 1))
    (ha' : a ∉ wl.drop j) (hb' : b ∉ wl.drop j) (hc' : c ∉ wl.drop j) (V : Valuation τ sig Val) :
    after ops V (Proc.devRef .tc y)
      = f (Fin.cons (after ops V (Proc.devRef .tc a)) (Fin.cons (after ops V (Proc.devRef .tc b))
          (Fin.cons (after ops V (Proc.devRef .tc c)) (fun i => i.elim0)))) := by
  rw [after_eq_result hw j _ hop hy' V, nary_result, after_eq_take hw j ha' V, after_eq_take hw j hb' V,
    after_eq_take hw j hc' V]
  congr 1; funext k; fin_cases k <;> rfl

/-- When every operation's set of undetermined results is empty, read off the list, no operation has one. -/
theorem fresh_of_map {ops : List (HloOp τ sig Val)}
    (h : ops.map HloOp.fresh = List.replicate ops.length (∅ : Finset (DevRef τ sig))) : ∀ op ∈ ops, op.fresh = ∅ := by
  intro op hop
  have h1 : op.fresh ∈ ops.map HloOp.fresh := List.mem_map.mpr ⟨op, hop, rfl⟩
  rw [h] at h1
  exact List.eq_of_mem_replicate h1

end GraphMatch.HloSsa
-- ==== Proof.RefRunT.lean ====
import proofs.«418941_j65867618451820_3_alg».proof.Proof.RefOps
import proofs.«418941_j65867618451820_3_alg».proof.Proof.RefRead
import proofs.«418941_j65867618451820_3_alg».proof.Proof.LibHloSsa

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

/-- The reference each operation writes, in program order. -/
def wl : List (Ref sig .tc) :=
  [main_v0, main_v1, main_v2, main_v3, main_call0_cst, main_call0_v0, main_v4, main_v5, main_v6, main_v7, main_v8, main_v9, main_v10, main_v11, main_v12, main_call1_cst, main_call1_v0, main_v13, main_v14, main_v15, main_v16, main_v17, main_v18, main_v19, main_c, main_v20, main_v21, main_v22, main_v23, main_v24, main_v25, main_v26, main_v27, main_v28, main_v29, main_v30, main_v31, main_v32, main_v33, main_v34, main_call2_cst, main_call2_v0, main_v35, main_v36, main_v37, main_v38, main_v39, main_v40, main_v41, main_v42, main_c_0, main_v43, main_v44, main_v45, main_v46, main_v47, main_v48, main_v49, main_v50, main_v51, main_v52, main_v53, main_v54, main_v55, main_v56, main_v57, main_call3_cst, main_call3_v0, main_v58, main_v59, main_v60, main_v61, main_v62, main_v63, main_v64, main_v65, main_v66, main_v67, main_v68, main_v69, main_v70, main_v71, main_v72, main_v73, main_call4_cst, main_call4_v0, main_v74, main_v75, main_v76, main_v77, main_v78, main_v79, main_cst, main_v80, main_cst_1, main_v81, main_v82, main_v83, main_v84, main_v85, main_v86, main_v87, main_v88, main_v89, main_v90, main_v91, main_v92, main_call5_cst, main_call5_v0, main_v93, main_v94, main_v95, main_v96, main_v97, main_v98, main_cst_2, main_v99, main_cst_3, main_v100, main_v101, main_v102, main_v103, main_v104, main_v105, main_v106, main_v107, main_cst_4, main_v108, main_v109, main_v110, main_v111, main_v112, main_v113, main_v114, main_cst_5, main_v115, main_cst_6, main_v116, main_v117, main_v118, main_v119, main_v120, main_v121, main_v122, main_v123, main_cst_7, main_v124, main_v125, main_v126, main_v127, main_v128, main_v129, main_v130, main_cst_8, main_v131, main_cst_9, main_v132, main_v133, main_v134, main_cst_10, main_v135, main_v136, main_v137, main_cst_11, main_v138, main_v139, main_v140, main_v141, main_v142, main_cst_12, main_v143, main_v144, main_v145, main_cst_13, main_v146, main_v147, main_v148, main_v149, main_v150, main_cst_14, main_v151, main_v152, main_v153, main_cst_15, main_v154, main_v155, main_v156, main_v157, main_v158, main_v159, main_v160, main_v161, main_v162, main_v163, main_cst_16, main_v164, main_v165, main_v166, main_cst_17, main_v167, main_v168, main_v169, main_v170, main_v171, main_cst_18, main_v172, main_v173, main_v174, main_cst_19, main_v175, main_v176, main_v177, main_v178, main_v179, main_cst_20, main_v180, main_v181, main_v182, main_cst_21, main_v183, main_v184, main_v185, main_v186, main_v187, main_v188, main_v189, main_v190, main_v191, main_cst_22, main_v192, main_v193, main_cst_23, main_v194, main_v195, main_v196, main_v197, main_v198, main_v199, main_v200, main_v201, main_cst_24, main_v202, main_cst_25, main_v203, main_v204, main_v205, main_v206, main_v207, main_v208, main_cst_26, main_v209, main_v210, main_v211, main_v212, main_v213, main_v214, main_cst_27, main_v215, main_v216, main_cst_28, main_v217, main_v218, main_cst_29, main_v219, main_v220, main_v221, main_v222, main_v223, main_v224, main_v225, main_v226, main_cst_30, main_v227, main_cst_31, main_v228, main_v229, main_v230, main_v231, main_v232, main_v233, main_cst_32, main_v234, main_v235, main_v236, main_v237, main_v238, main_v239, main_cst_33, main_v240, main_v241, main_v242, main_cst_34, main_v243, main_call6_v0, main_call6_cst, main_call6_v1, main_v244, main_call7_v0, main_call7_cst, main_call7_v1, main_v245, main_v246, main_cst_35, main_v247, main_v248, main_v249, main_cst_36, main_v250, main_v251, main_cst_37, main_v252, main_v253]

/-- Operation by operation, the set written is that one reference. -/
theorem hw : Writes (ops (F := F)) wl := rfl

/-- No operation leaves a result undetermined. -/
theorem hfresh : ∀ op ∈ (ops (F := F)), op.fresh = ∅ := fresh_of_map rfl

end Cert.ReferenceIdeal.RunH

end
-- ==== Proof.RefRunA.lean ====
import proofs.«418941_j65867618451820_3_alg».proof.Proof.RefRunT
import proofs.«418941_j65867618451820_3_alg».proof.Proof.RefRead

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

theorem fin_main_v0 (W : Valuation τ sig (Elt F)) (x0 : (⟨S256x128, .f32⟩ : BufTy).Contents (Elt F)) (x2 : (⟨S128x512, .f32⟩ : BufTy).Contents (Elt F))
    (h_main_arg0 : after (ops (F := F)) W (Proc.devRef .tc main_arg0) = x0)
    (h_main_arg2 : after (ops (F := F)) W (Proc.devRef .tc main_arg2) = x2) :
    after (ops (F := F)) W (Proc.devRef .tc main_v0) = val_main_v0 (F := F) x0 x2 := by
  refine (after_binary hw 0 main_arg0 main_arg2 main_v0 _ _ _ _ rfl (by decide) (by decide) (by decide) W).trans ?_
  rw [h_main_arg0, h_main_arg2]
  rfl

theorem fin_main_v1 (W : Valuation τ sig (Elt F)) (x3 : (⟨S512, .f32⟩ : BufTy).Contents (Elt F))
    (h_main_arg3 : after (ops (F := F)) W (Proc.devRef .tc main_arg3) = x3) :
    after (ops (F := F)) W (Proc.devRef .tc main_v1) = val_main_v1 (F := F) x3 := by
  refine (after_unary hw 1 main_arg3 main_v1 _ _ _ rfl (by decide) (by decide) W).trans ?_
  rw [h_main_arg3]
  rfl

theorem fin_main_v2 (W : Valuation τ sig (Elt F)) (x3 : (⟨S512, .f32⟩ : BufTy).Contents (Elt F))
    (h_main_v1 : after (ops (F := F)) W (Proc.devRef .tc main_v1) = val_main_v1 (F := F) x3) :
    after (ops (F := F)) W (Proc.devRef .tc main_v2) = val_main_v2 (F := F) x3 := by
  refine (after_unary hw 2 main_v1 main_v2 _ _ _ rfl (by decide) (by decide) W).trans ?_
  rw [h_main_v1]
  rfl

theorem fin_main_v3 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F))
    (h_main_v0 : after (ops (F := F)) W (Proc.devRef .tc main_v0) = val_main_v0 (F := F) x0 x2)
    (h_main_v2 : after (ops (F := F)) W (Proc.devRef .tc main_v2) = val_main_v2 (F := F) x3) :
    after (ops (F := F)) W (Proc.devRef .tc main_v3) = val_main_v3 (F := F) x0 x2 x3 := by
  refine (after_binary hw 3 main_v0 main_v2 main_v3 _ _ _ _ rfl (by decide) (by decide) (by decide) W).trans ?_
  rw [h_main_v0, h_main_v2]
  rfl

theorem fin_main_call0_cst (W : Valuation τ sig (Elt F)) :
    after (ops (F := F)) W (Proc.devRef .tc main_call0_cst) = val_main_call0_cst (F := F) := by
  refine (after_nullary hw 4 main_call0_cst _ _ rfl (by decide) W).trans ?_
  rfl

theorem fin_main_call0_v0 (W : Valuation τ sig (Elt F))
    (h_main_call0_cst : after (ops (F := F)) W (Proc.devRef .tc main_call0_cst) = val_main_call0_cst (F := F)) :
    after (ops (F := F)) W (Proc.devRef .tc main_call0_v0) = val_main_call0_v0 (F := F) := by
  refine (after_unary hw 5 main_call0_cst main_call0_v0 _ _ _ rfl (by decide) (by decide) W).trans ?_
  rw [h_main_call0_cst]
  rfl

theorem fin_main_v4 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F))
    (h_main_v3 : after (ops (F := F)) W (Proc.devRef .tc main_v3) = val_main_v3 (F := F) x0 x2 x3)
    (h_main_call0_v0 : after (ops (F := F)) W (Proc.devRef .tc main_call0_v0) = val_main_call0_v0 (F := F)) :
    after (ops (F := F)) W (Proc.devRef .tc main_v4) = val_main_v4 (F := F) x0 x2 x3 := by
  refine (after_binary hw 6 main_v3 main_call0_v0 main_v4 _ _ _ _ rfl (by decide) (by decide) (by decide) W).trans ?_
  rw [h_main_v3, h_main_call0_v0]
  rfl

theorem fin_main_v5 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F))
    (h_main_v4 : after (ops (F := F)) W (Proc.devRef .tc main_v4) = val_main_v4 (F := F) x0 x2 x3)
    (h_main_arg4 : after (ops (F := F)) W (Proc.devRef .tc main_arg4) = x4) :
    after (ops (F := F)) W (Proc.devRef .tc main_v5) = val_main_v5 (F := F) x0 x2 x3 x4 := by
  refine (after_binary hw 7 main_v4 main_arg4 main_v5 _ _ _ _ rfl (by decide) (by decide) (by decide) W).trans ?_
  rw [h_main_v4, h_main_arg4]
  rfl

theorem fin_main_v6 (W : Valuation τ sig (Elt F)) (x5 : (⟨S128, .f32⟩ : BufTy).Contents (Elt F))
    (h_main_arg5 : after (ops (F := F)) W (Proc.devRef .tc main_arg5) = x5) :
    after (ops (F := F)) W (Proc.devRef .tc main_v6) = val_main_v6 (F := F) x5 := by
  refine (after_unary hw 8 main_arg5 main_v6 _ _ _ rfl (by decide) (by decide) W).trans ?_
  rw [h_main_arg5]
  rfl

theorem fin_main_v7 (W : Valuation τ sig (Elt F)) (x5 : (⟨S128, .f32⟩ : BufTy).Contents (Elt F))
    (h_main_v6 : after (ops (F := F)) W (Proc.devRef .tc main_v6) = val_main_v6 (F := F) x5) :
    after (ops (F := F)) W (Proc.devRef .tc main_v7) = val_main_v7 (F := F) x5 := by
  refine (after_unary hw 9 main_v6 main_v7 _ _ _ rfl (by decide) (by decide) W).trans ?_
  rw [h_main_v6]
  rfl

theorem fin_main_v8 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v5 : after (ops (F := F)) W (Proc.devRef .tc main_v5) = val_main_v5 (F := F) x0 x2 x3 x4)
    (h_main_v7 : after (ops (F := F)) W (Proc.devRef .tc main_v7) = val_main_v7 (F := F) x5) :
    after (ops (F := F)) W (Proc.devRef .tc main_v8) = val_main_v8 (F := F) x0 x2 x3 x4 x5 := by
  refine (after_binary hw 10 main_v5 main_v7 main_v8 _ _ _ _ rfl (by decide) (by decide) (by decide) W).trans ?_
  rw [h_main_v5, h_main_v7]
  rfl

theorem fin_main_v9 (W : Valuation τ sig (Elt F)) (x1 : (⟨S256x128, .f32⟩ : BufTy).Contents (Elt F)) (x2 : (⟨S128x512, .f32⟩ : BufTy).Contents (Elt F))
    (h_main_arg1 : after (ops (F := F)) W (Proc.devRef .tc main_arg1) = x1)
    (h_main_arg2 : after (ops (F := F)) W (Proc.devRef .tc main_arg2) = x2) :
    after (ops (F := F)) W (Proc.devRef .tc main_v9) = val_main_v9 (F := F) x1 x2 := by
  refine (after_binary hw 11 main_arg1 main_arg2 main_v9 _ _ _ _ rfl (by decide) (by decide) (by decide) W).trans ?_
  rw [h_main_arg1, h_main_arg2]
  rfl

theorem fin_main_v10 (W : Valuation τ sig (Elt F)) (x3 : (⟨S512, .f32⟩ : BufTy).Contents (Elt F))
    (h_main_arg3 : after (ops (F := F)) W (Proc.devRef .tc main_arg3) = x3) :
    after (ops (F := F)) W (Proc.devRef .tc main_v10) = val_main_v10 (F := F) x3 := by
  refine (after_unary hw 12 main_arg3 main_v10 _ _ _ rfl (by decide) (by decide) W).trans ?_
  rw [h_main_arg3]
  rfl

theorem fin_main_v11 (W : Valuation τ sig (Elt F)) (x3 : (⟨S512, .f32⟩ : BufTy).Contents (Elt F))
    (h_main_v10 : after (ops (F := F)) W (Proc.devRef .tc main_v10) = val_main_v10 (F := F) x3) :
    after (ops (F := F)) W (Proc.devRef .tc main_v11) = val_main_v11 (F := F) x3 := by
  refine (after_unary hw 13 main_v10 main_v11 _ _ _ rfl (by decide) (by decide) W).trans ?_
  rw [h_main_v10]
  rfl

theorem fin_main_v12 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F))
    (h_main_v9 : after (ops (F := F)) W (Proc.devRef .tc main_v9) = val_main_v9 (F := F) x1 x2)
    (h_main_v11 : after (ops (F := F)) W (Proc.devRef .tc main_v11) = val_main_v11 (F := F) x3) :
    after (ops (F := F)) W (Proc.devRef .tc main_v12) = val_main_v12 (F := F) x1 x2 x3 := by
  refine (after_binary hw 14 main_v9 main_v11 main_v12 _ _ _ _ rfl (by decide) (by decide) (by decide) W).trans ?_
  rw [h_main_v9, h_main_v11]
  rfl

theorem fin_main_call1_cst (W : Valuation τ sig (Elt F)) :
    after (ops (F := F)) W (Proc.devRef .tc main_call1_cst) = val_main_call1_cst (F := F) := by
  refine (after_nullary hw 15 main_call1_cst _ _ rfl (by decide) W).trans ?_
  rfl

theorem fin_main_call1_v0 (W : Valuation τ sig (Elt F))
    (h_main_call1_cst : after (ops (F := F)) W (Proc.devRef .tc main_call1_cst) = val_main_call1_cst (F := F)) :
    after (ops (F := F)) W (Proc.devRef .tc main_call1_v0) = val_main_call1_v0 (F := F) := by
  refine (after_unary hw 16 main_call1_cst main_call1_v0 _ _ _ rfl (by decide) (by decide) W).trans ?_
  rw [h_main_call1_cst]
  rfl

theorem fin_main_v13 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F))
    (h_main_v12 : after (ops (F := F)) W (Proc.devRef .tc main_v12) = val_main_v12 (F := F) x1 x2 x3)
    (h_main_call1_v0 : after (ops (F := F)) W (Proc.devRef .tc main_call1_v0) = val_main_call1_v0 (F := F)) :
    after (ops (F := F)) W (Proc.devRef .tc main_v13) = val_main_v13 (F := F) x1 x2 x3 := by
  refine (after_binary hw 17 main_v12 main_call1_v0 main_v13 _ _ _ _ rfl (by decide) (by decide) (by decide) W).trans ?_
  rw [h_main_v12, h_main_call1_v0]
  rfl

theorem fin_main_v14 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F))
    (h_main_v13 : after (ops (F := F)) W (Proc.devRef .tc main_v13) = val_main_v13 (F := F) x1 x2 x3)
    (h_main_arg4 : after (ops (F := F)) W (Proc.devRef .tc main_arg4) = x4) :
    after (ops (F := F)) W (Proc.devRef .tc main_v14) = val_main_v14 (F := F) x1 x2 x3 x4 := by
  refine (after_binary hw 18 main_v13 main_arg4 main_v14 _ _ _ _ rfl (by decide) (by decide) (by decide) W).trans ?_
  rw [h_main_v13, h_main_arg4]
  rfl

theorem fin_main_v15 (W : Valuation τ sig (Elt F)) (x5 : (⟨S128, .f32⟩ : BufTy).Contents (Elt F))
    (h_main_arg5 : after (ops (F := F)) W (Proc.devRef .tc main_arg5) = x5) :
    after (ops (F := F)) W (Proc.devRef .tc main_v15) = val_main_v15 (F := F) x5 := by
  refine (after_unary hw 19 main_arg5 main_v15 _ _ _ rfl (by decide) (by decide) W).trans ?_
  rw [h_main_arg5]
  rfl

theorem fin_main_v16 (W : Valuation τ sig (Elt F)) (x5 : (⟨S128, .f32⟩ : BufTy).Contents (Elt F))
    (h_main_v15 : after (ops (F := F)) W (Proc.devRef .tc main_v15) = val_main_v15 (F := F) x5) :
    after (ops (F := F)) W (Proc.devRef .tc main_v16) = val_main_v16 (F := F) x5 := by
  refine (after_unary hw 20 main_v15 main_v16 _ _ _ rfl (by decide) (by decide) W).trans ?_
  rw [h_main_v15]
  rfl

theorem fin_main_v17 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v14 : after (ops (F := F)) W (Proc.devRef .tc main_v14) = val_main_v14 (F := F) x1 x2 x3 x4)
    (h_main_v16 : after (ops (F := F)) W (Proc.devRef .tc main_v16) = val_main_v16 (F := F) x5) :
    after (ops (F := F)) W (Proc.devRef .tc main_v17) = val_main_v17 (F := F) x1 x2 x3 x4 x5 := by
  refine (after_binary hw 21 main_v14 main_v16 main_v17 _ _ _ _ rfl (by decide) (by decide) (by decide) W).trans ?_
  rw [h_main_v14, h_main_v16]
  rfl

theorem fin_main_v18 (W : Valuation τ sig (Elt F)) :
    after (ops (F := F)) W (Proc.devRef .tc main_v18) = val_main_v18 (F := F) := by
  refine (after_nullary hw 22 main_v18 _ _ rfl (by decide) W).trans ?_
  rfl

theorem fin_main_v19 (W : Valuation τ sig (Elt F)) :
    after (ops (F := F)) W (Proc.devRef .tc main_v19) = val_main_v19 (F := F) := by
  refine (after_nullary hw 23 main_v19 _ _ rfl (by decide) W).trans ?_
  rfl

theorem fin_main_c (W : Valuation τ sig (Elt F)) :
    after (ops (F := F)) W (Proc.devRef .tc main_c) = val_main_c (F := F) := by
  refine (after_nullary hw 24 main_c _ _ rfl (by decide) W).trans ?_
  rfl

theorem fin_main_v20 (W : Valuation τ sig (Elt F))
    (h_main_c : after (ops (F := F)) W (Proc.devRef .tc main_c) = val_main_c (F := F)) :
    after (ops (F := F)) W (Proc.devRef .tc main_v20) = val_main_v20 (F := F) := by
  refine (after_unary hw 25 main_c main_v20 _ _ _ rfl (by decide) (by decide) W).trans ?_
  rw [h_main_c]
  rfl

theorem fin_main_v21 (W : Valuation τ sig (Elt F))
    (h_main_v18 : after (ops (F := F)) W (Proc.devRef .tc main_v18) = val_main_v18 (F := F))
    (h_main_v20 : after (ops (F := F)) W (Proc.devRef .tc main_v20) = val_main_v20 (F := F)) :
    after (ops (F := F)) W (Proc.devRef .tc main_v21) = val_main_v21 (F := F) := by
  refine (after_binary hw 26 main_v18 main_v20 main_v21 _ _ _ _ rfl (by decide) (by decide) (by decide) W).trans ?_
  rw [h_main_v18, h_main_v20]
  rfl

theorem fin_main_v22 (W : Valuation τ sig (Elt F))
    (h_main_v21 : after (ops (F := F)) W (Proc.devRef .tc main_v21) = val_main_v21 (F := F))
    (h_main_v19 : after (ops (F := F)) W (Proc.devRef .tc main_v19) = val_main_v19 (F := F)) :
    after (ops (F := F)) W (Proc.devRef .tc main_v22) = val_main_v22 (F := F) := by
  refine (after_binary hw 27 main_v21 main_v19 main_v22 _ _ _ _ rfl (by decide) (by decide) (by decide) W).trans ?_
  rw [h_main_v21, h_main_v19]
  rfl

theorem fin_main_v23 (W : Valuation τ sig (Elt F))
    (h_main_v22 : after (ops (F := F)) W (Proc.devRef .tc main_v22) = val_main_v22 (F := F)) :
    after (ops (F := F)) W (Proc.devRef .tc main_v23) = val_main_v23 (F := F) := by
  refine (after_unary hw 28 main_v22 main_v23 _ _ _ rfl (by decide) (by decide) W).trans ?_
  rw [h_main_v22]
  rfl

theorem fin_main_v24 (W : Valuation τ sig (Elt F)) (x0 : (⟨S256x128, .f32⟩ : BufTy).Contents (Elt F))
    (h_main_arg0 : after (ops (F := F)) W (Proc.devRef .tc main_arg0) = x0)
    (h_main_v23 : after (ops (F := F)) W (Proc.devRef .tc main_v23) = val_main_v23 (F := F)) :
    after (ops (F := F)) W (Proc.devRef .tc main_v24) = val_main_v24 (F := F) x0 := by
  refine (after_binary hw 29 main_arg0 main_v23 main_v24 _ _ _ _ rfl (by decide) (by decide) (by decide) W).trans ?_
  rw [h_main_arg0, h_main_v23]
  rfl

theorem fin_main_v25 (W : Valuation τ sig (Elt F)) (x0 : (⟨S256x128, .f32⟩ : BufTy).Contents (Elt F))
    (h_main_v24 : after (ops (F := F)) W (Proc.devRef .tc main_v24) = val_main_v24 (F := F) x0) :
    after (ops (F := F)) W (Proc.devRef .tc main_v25) = val_main_v25 (F := F) x0 := by
  refine (after_unary hw 30 main_v24 main_v25 _ _ _ rfl (by decide) (by decide) W).trans ?_
  rw [h_main_v24]
  rfl

theorem fin_main_v26 (W : Valuation τ sig (Elt F)) (x0 : (⟨S256x128, .f32⟩ : BufTy).Contents (Elt F))
    (h_main_v25 : after (ops (F := F)) W (Proc.devRef .tc main_v25) = val_main_v25 (F := F) x0) :
    after (ops (F := F)) W (Proc.devRef .tc main_v26) = val_main_v26 (F := F) x0 := by
  refine (after_unary hw 31 main_v25 main_v26 _ _ _ rfl (by decide) (by decide) W).trans ?_
  rw [h_main_v25]
  rfl

theorem fin_main_v27 (W : Valuation τ sig (Elt F)) (x0 : (⟨S256x128, .f32⟩ : BufTy).Contents (Elt F))
    (h_main_v24 : after (ops (F := F)) W (Proc.devRef .tc main_v24) = val_main_v24 (F := F) x0) :
    after (ops (F := F)) W (Proc.devRef .tc main_v27) = val_main_v27 (F := F) x0 := by
  refine (after_unary hw 32 main_v24 main_v27 _ _ _ rfl (by decide) (by decide) W).trans ?_
  rw [h_main_v24]
  rfl

theorem fin_main_v28 (W : Valuation τ sig (Elt F)) (x0 : (⟨S256x128, .f32⟩ : BufTy).Contents (Elt F))
    (h_main_v27 : after (ops (F := F)) W (Proc.devRef .tc main_v27) = val_main_v27 (F := F) x0) :
    after (ops (F := F)) W (Proc.devRef .tc main_v28) = val_main_v28 (F := F) x0 := by
  refine (after_unary hw 33 main_v27 main_v28 _ _ _ rfl (by decide) (by decide) W).trans ?_
  rw [h_main_v27]
  rfl

theorem fin_main_v29 (W : Valuation τ sig (Elt F)) (x0 : (⟨S256x128, .f32⟩ : BufTy).Contents (Elt F))
    (h_main_v26 : after (ops (F := F)) W (Proc.devRef .tc main_v26) = val_main_v26 (F := F) x0)
    (h_main_v28 : after (ops (F := F)) W (Proc.devRef .tc main_v28) = val_main_v28 (F := F) x0) :
    after (ops (F := F)) W (Proc.devRef .tc main_v29) = val_main_v29 (F := F) x0 := by
  refine (after_binary hw 34 main_v26 main_v28 main_v29 _ _ _ _ rfl (by decide) (by decide) (by decide) W).trans ?_
  rw [h_main_v26, h_main_v28]
  rfl

theorem fin_main_v30 (W : Valuation τ sig (Elt F)) (x0 : (⟨S256x128, .f32⟩ : BufTy).Contents (Elt F))
    (h_main_v29 : after (ops (F := F)) W (Proc.devRef .tc main_v29) = val_main_v29 (F := F) x0) :
    after (ops (F := F)) W (Proc.devRef .tc main_v30) = val_main_v30 (F := F) x0 := by
  refine (after_reshape hw 35 main_v29 main_v30 _ _ _ _ rfl (by decide) (by decide) W).trans ?_
  rw [h_main_v29]
  rfl

theorem fin_main_v31 (W : Valuation τ sig (Elt F)) (x0 : (⟨S256x128, .f32⟩ : BufTy).Contents (Elt F)) (x6 : (⟨S768x512, .f32⟩ : BufTy).Contents (Elt F))
    (h_main_v30 : after (ops (F := F)) W (Proc.devRef .tc main_v30) = val_main_v30 (F := F) x0)
    (h_main_arg6 : after (ops (F := F)) W (Proc.devRef .tc main_arg6) = x6) :
    after (ops (F := F)) W (Proc.devRef .tc main_v31) = val_main_v31 (F := F) x0 x6 := by
  refine (after_binary hw 36 main_v30 main_arg6 main_v31 _ _ _ _ rfl (by decide) (by decide) (by decide) W).trans ?_
  rw [h_main_v30, h_main_arg6]
  rfl

theorem fin_main_v32 (W : Valuation τ sig (Elt F)) (x7 : (⟨S512, .f32⟩ : BufTy).Contents (Elt F))
    (h_main_arg7 : after (ops (F := F)) W (Proc.devRef .tc main_arg7) = x7) :
    after (ops (F := F)) W (Proc.devRef .tc main_v32) = val_main_v32 (F := F) x7 := by
  refine (after_unary hw 37 main_arg7 main_v32 _ _ _ rfl (by decide) (by decide) W).trans ?_
  rw [h_main_arg7]
  rfl

theorem fin_main_v33 (W : Valuation τ sig (Elt F)) (x7 : (⟨S512, .f32⟩ : BufTy).Contents (Elt F))
    (h_main_v32 : after (ops (F := F)) W (Proc.devRef .tc main_v32) = val_main_v32 (F := F) x7) :
    after (ops (F := F)) W (Proc.devRef .tc main_v33) = val_main_v33 (F := F) x7 := by
  refine (after_unary hw 38 main_v32 main_v33 _ _ _ rfl (by decide) (by decide) W).trans ?_
  rw [h_main_v32]
  rfl

theorem fin_main_v34 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F))
    (h_main_v31 : after (ops (F := F)) W (Proc.devRef .tc main_v31) = val_main_v31 (F := F) x0 x6)
    (h_main_v33 : after (ops (F := F)) W (Proc.devRef .tc main_v33) = val_main_v33 (F := F) x7) :
    after (ops (F := F)) W (Proc.devRef .tc main_v34) = val_main_v34 (F := F) x0 x6 x7 := by
  refine (after_binary hw 39 main_v31 main_v33 main_v34 _ _ _ _ rfl (by decide) (by decide) (by decide) W).trans ?_
  rw [h_main_v31, h_main_v33]
  rfl

theorem fin_main_call2_cst (W : Valuation τ sig (Elt F)) :
    after (ops (F := F)) W (Proc.devRef .tc main_call2_cst) = val_main_call2_cst (F := F) := by
  refine (after_nullary hw 40 main_call2_cst _ _ rfl (by decide) W).trans ?_
  rfl

theorem fin_main_call2_v0 (W : Valuation τ sig (Elt F))
    (h_main_call2_cst : after (ops (F := F)) W (Proc.devRef .tc main_call2_cst) = val_main_call2_cst (F := F)) :
    after (ops (F := F)) W (Proc.devRef .tc main_call2_v0) = val_main_call2_v0 (F := F) := by
  refine (after_unary hw 41 main_call2_cst main_call2_v0 _ _ _ rfl (by decide) (by decide) W).trans ?_
  rw [h_main_call2_cst]
  rfl

theorem fin_main_v35 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F))
    (h_main_v34 : after (ops (F := F)) W (Proc.devRef .tc main_v34) = val_main_v34 (F := F) x0 x6 x7)
    (h_main_call2_v0 : after (ops (F := F)) W (Proc.devRef .tc main_call2_v0) = val_main_call2_v0 (F := F)) :
    after (ops (F := F)) W (Proc.devRef .tc main_v35) = val_main_v35 (F := F) x0 x6 x7 := by
  refine (after_binary hw 42 main_v34 main_call2_v0 main_v35 _ _ _ _ rfl (by decide) (by decide) (by decide) W).trans ?_
  rw [h_main_v34, h_main_call2_v0]
  rfl

theorem fin_main_v36 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F))
    (h_main_v35 : after (ops (F := F)) W (Proc.devRef .tc main_v35) = val_main_v35 (F := F) x0 x6 x7)
    (h_main_arg8 : after (ops (F := F)) W (Proc.devRef .tc main_arg8) = x8) :
    after (ops (F := F)) W (Proc.devRef .tc main_v36) = val_main_v36 (F := F) x0 x6 x7 x8 := by
  refine (after_binary hw 43 main_v35 main_arg8 main_v36 _ _ _ _ rfl (by decide) (by decide) (by decide) W).trans ?_
  rw [h_main_v35, h_main_arg8]
  rfl

theorem fin_main_v37 (W : Valuation τ sig (Elt F)) (x9 : (⟨S128, .f32⟩ : BufTy).Contents (Elt F))
    (h_main_arg9 : after (ops (F := F)) W (Proc.devRef .tc main_arg9) = x9) :
    after (ops (F := F)) W (Proc.devRef .tc main_v37) = val_main_v37 (F := F) x9 := by
  refine (after_unary hw 44 main_arg9 main_v37 _ _ _ rfl (by decide) (by decide) W).trans ?_
  rw [h_main_arg9]
  rfl

theorem fin_main_v38 (W : Valuation τ sig (Elt F)) (x9 : (⟨S128, .f32⟩ : BufTy).Contents (Elt F))
    (h_main_v37 : after (ops (F := F)) W (Proc.devRef .tc main_v37) = val_main_v37 (F := F) x9) :
    after (ops (F := F)) W (Proc.devRef .tc main_v38) = val_main_v38 (F := F) x9 := by
  refine (after_unary hw 45 main_v37 main_v38 _ _ _ rfl (by decide) (by decide) W).trans ?_
  rw [h_main_v37]
  rfl

theorem fin_main_v39 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v36 : after (ops (F := F)) W (Proc.devRef .tc main_v36) = val_main_v36 (F := F) x0 x6 x7 x8)
    (h_main_v38 : after (ops (F := F)) W (Proc.devRef .tc main_v38) = val_main_v38 (F := F) x9) :
    after (ops (F := F)) W (Proc.devRef .tc main_v39) = val_main_v39 (F := F) x0 x6 x7 x8 x9 := by
  refine (after_binary hw 46 main_v36 main_v38 main_v39 _ _ _ _ rfl (by decide) (by decide) (by decide) W).trans ?_
  rw [h_main_v36, h_main_v38]
  rfl

theorem fin_main_v40 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v39 : after (ops (F := F)) W (Proc.devRef .tc main_v39) = val_main_v39 (F := F) x0 x6 x7 x8 x9) :
    after (ops (F := F)) W (Proc.devRef .tc main_v40) = val_main_v40 (F := F) x0 x6 x7 x8 x9 := by
  refine (after_reshape hw 47 main_v39 main_v40 _ _ _ _ rfl (by decide) (by decide) W).trans ?_
  rw [h_main_v39]
  rfl

theorem fin_main_v41 (W : Valuation τ sig (Elt F)) :
    after (ops (F := F)) W (Proc.devRef .tc main_v41) = val_main_v41 (F := F) := by
  refine (after_nullary hw 48 main_v41 _ _ rfl (by decide) W).trans ?_
  rfl

theorem fin_main_v42 (W : Valuation τ sig (Elt F)) :
    after (ops (F := F)) W (Proc.devRef .tc main_v42) = val_main_v42 (F := F) := by
  refine (after_nullary hw 49 main_v42 _ _ rfl (by decide) W).trans ?_
  rfl

theorem fin_main_c_0 (W : Valuation τ sig (Elt F)) :
    after (ops (F := F)) W (Proc.devRef .tc main_c_0) = val_main_c_0 (F := F) := by
  refine (after_nullary hw 50 main_c_0 _ _ rfl (by decide) W).trans ?_
  rfl

theorem fin_main_v43 (W : Valuation τ sig (Elt F))
    (h_main_c_0 : after (ops (F := F)) W (Proc.devRef .tc main_c_0) = val_main_c_0 (F := F)) :
    after (ops (F := F)) W (Proc.devRef .tc main_v43) = val_main_v43 (F := F) := by
  refine (after_unary hw 51 main_c_0 main_v43 _ _ _ rfl (by decide) (by decide) W).trans ?_
  rw [h_main_c_0]
  rfl

end Cert.ReferenceIdeal.RunH

end
-- ==== Proof.RefRunB.lean ====
import proofs.«418941_j65867618451820_3_alg».proof.Proof.RefRunT
import proofs.«418941_j65867618451820_3_alg».proof.Proof.RefRead

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

theorem fin_main_v44 (W : Valuation τ sig (Elt F))
    (h_main_v41 : after (ops (F := F)) W (Proc.devRef .tc main_v41) = val_main_v41 (F := F))
    (h_main_v43 : after (ops (F := F)) W (Proc.devRef .tc main_v43) = val_main_v43 (F := F)) :
    after (ops (F := F)) W (Proc.devRef .tc main_v44) = val_main_v44 (F := F) := by
  refine (after_binary hw 52 main_v41 main_v43 main_v44 _ _ _ _ rfl (by decide) (by decide) (by decide) W).trans ?_
  rw [h_main_v41, h_main_v43]
  rfl

theorem fin_main_v45 (W : Valuation τ sig (Elt F))
    (h_main_v44 : after (ops (F := F)) W (Proc.devRef .tc main_v44) = val_main_v44 (F := F))
    (h_main_v42 : after (ops (F := F)) W (Proc.devRef .tc main_v42) = val_main_v42 (F := F)) :
    after (ops (F := F)) W (Proc.devRef .tc main_v45) = val_main_v45 (F := F) := by
  refine (after_binary hw 53 main_v44 main_v42 main_v45 _ _ _ _ rfl (by decide) (by decide) (by decide) W).trans ?_
  rw [h_main_v44, h_main_v42]
  rfl

theorem fin_main_v46 (W : Valuation τ sig (Elt F))
    (h_main_v45 : after (ops (F := F)) W (Proc.devRef .tc main_v45) = val_main_v45 (F := F)) :
    after (ops (F := F)) W (Proc.devRef .tc main_v46) = val_main_v46 (F := F) := by
  refine (after_unary hw 54 main_v45 main_v46 _ _ _ rfl (by decide) (by decide) W).trans ?_
  rw [h_main_v45]
  rfl

theorem fin_main_v47 (W : Valuation τ sig (Elt F)) (x1 : (⟨S256x128, .f32⟩ : BufTy).Contents (Elt F))
    (h_main_arg1 : after (ops (F := F)) W (Proc.devRef .tc main_arg1) = x1)
    (h_main_v46 : after (ops (F := F)) W (Proc.devRef .tc main_v46) = val_main_v46 (F := F)) :
    after (ops (F := F)) W (Proc.devRef .tc main_v47) = val_main_v47 (F := F) x1 := by
  refine (after_binary hw 55 main_arg1 main_v46 main_v47 _ _ _ _ rfl (by decide) (by decide) (by decide) W).trans ?_
  rw [h_main_arg1, h_main_v46]
  rfl

theorem fin_main_v48 (W : Valuation τ sig (Elt F)) (x1 : (⟨S256x128, .f32⟩ : BufTy).Contents (Elt F))
    (h_main_v47 : after (ops (F := F)) W (Proc.devRef .tc main_v47) = val_main_v47 (F := F) x1) :
    after (ops (F := F)) W (Proc.devRef .tc main_v48) = val_main_v48 (F := F) x1 := by
  refine (after_unary hw 56 main_v47 main_v48 _ _ _ rfl (by decide) (by decide) W).trans ?_
  rw [h_main_v47]
  rfl

theorem fin_main_v49 (W : Valuation τ sig (Elt F)) (x1 : (⟨S256x128, .f32⟩ : BufTy).Contents (Elt F))
    (h_main_v48 : after (ops (F := F)) W (Proc.devRef .tc main_v48) = val_main_v48 (F := F) x1) :
    after (ops (F := F)) W (Proc.devRef .tc main_v49) = val_main_v49 (F := F) x1 := by
  refine (after_unary hw 57 main_v48 main_v49 _ _ _ rfl (by decide) (by decide) W).trans ?_
  rw [h_main_v48]
  rfl

theorem fin_main_v50 (W : Valuation τ sig (Elt F)) (x1 : (⟨S256x128, .f32⟩ : BufTy).Contents (Elt F))
    (h_main_v47 : after (ops (F := F)) W (Proc.devRef .tc main_v47) = val_main_v47 (F := F) x1) :
    after (ops (F := F)) W (Proc.devRef .tc main_v50) = val_main_v50 (F := F) x1 := by
  refine (after_unary hw 58 main_v47 main_v50 _ _ _ rfl (by decide) (by decide) W).trans ?_
  rw [h_main_v47]
  rfl

theorem fin_main_v51 (W : Valuation τ sig (Elt F)) (x1 : (⟨S256x128, .f32⟩ : BufTy).Contents (Elt F))
    (h_main_v50 : after (ops (F := F)) W (Proc.devRef .tc main_v50) = val_main_v50 (F := F) x1) :
    after (ops (F := F)) W (Proc.devRef .tc main_v51) = val_main_v51 (F := F) x1 := by
  refine (after_unary hw 59 main_v50 main_v51 _ _ _ rfl (by decide) (by decide) W).trans ?_
  rw [h_main_v50]
  rfl

theorem fin_main_v52 (W : Valuation τ sig (Elt F)) (x1 : (⟨S256x128, .f32⟩ : BufTy).Contents (Elt F))
    (h_main_v49 : after (ops (F := F)) W (Proc.devRef .tc main_v49) = val_main_v49 (F := F) x1)
    (h_main_v51 : after (ops (F := F)) W (Proc.devRef .tc main_v51) = val_main_v51 (F := F) x1) :
    after (ops (F := F)) W (Proc.devRef .tc main_v52) = val_main_v52 (F := F) x1 := by
  refine (after_binary hw 60 main_v49 main_v51 main_v52 _ _ _ _ rfl (by decide) (by decide) (by decide) W).trans ?_
  rw [h_main_v49, h_main_v51]
  rfl

theorem fin_main_v53 (W : Valuation τ sig (Elt F)) (x1 : (⟨S256x128, .f32⟩ : BufTy).Contents (Elt F))
    (h_main_v52 : after (ops (F := F)) W (Proc.devRef .tc main_v52) = val_main_v52 (F := F) x1) :
    after (ops (F := F)) W (Proc.devRef .tc main_v53) = val_main_v53 (F := F) x1 := by
  refine (after_reshape hw 61 main_v52 main_v53 _ _ _ _ rfl (by decide) (by decide) W).trans ?_
  rw [h_main_v52]
  rfl

theorem fin_main_v54 (W : Valuation τ sig (Elt F)) (x1 : (⟨S256x128, .f32⟩ : BufTy).Contents (Elt F)) (x6 : (⟨S768x512, .f32⟩ : BufTy).Contents (Elt F))
    (h_main_v53 : after (ops (F := F)) W (Proc.devRef .tc main_v53) = val_main_v53 (F := F) x1)
    (h_main_arg6 : after (ops (F := F)) W (Proc.devRef .tc main_arg6) = x6) :
    after (ops (F := F)) W (Proc.devRef .tc main_v54) = val_main_v54 (F := F) x1 x6 := by
  refine (after_binary hw 62 main_v53 main_arg6 main_v54 _ _ _ _ rfl (by decide) (by decide) (by decide) W).trans ?_
  rw [h_main_v53, h_main_arg6]
  rfl

theorem fin_main_v55 (W : Valuation τ sig (Elt F)) (x7 : (⟨S512, .f32⟩ : BufTy).Contents (Elt F))
    (h_main_arg7 : after (ops (F := F)) W (Proc.devRef .tc main_arg7) = x7) :
    after (ops (F := F)) W (Proc.devRef .tc main_v55) = val_main_v55 (F := F) x7 := by
  refine (after_unary hw 63 main_arg7 main_v55 _ _ _ rfl (by decide) (by decide) W).trans ?_
  rw [h_main_arg7]
  rfl

theorem fin_main_v56 (W : Valuation τ sig (Elt F)) (x7 : (⟨S512, .f32⟩ : BufTy).Contents (Elt F))
    (h_main_v55 : after (ops (F := F)) W (Proc.devRef .tc main_v55) = val_main_v55 (F := F) x7) :
    after (ops (F := F)) W (Proc.devRef .tc main_v56) = val_main_v56 (F := F) x7 := by
  refine (after_unary hw 64 main_v55 main_v56 _ _ _ rfl (by decide) (by decide) W).trans ?_
  rw [h_main_v55]
  rfl

theorem fin_main_v57 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F))
    (h_main_v54 : after (ops (F := F)) W (Proc.devRef .tc main_v54) = val_main_v54 (F := F) x1 x6)
    (h_main_v56 : after (ops (F := F)) W (Proc.devRef .tc main_v56) = val_main_v56 (F := F) x7) :
    after (ops (F := F)) W (Proc.devRef .tc main_v57) = val_main_v57 (F := F) x1 x6 x7 := by
  refine (after_binary hw 65 main_v54 main_v56 main_v57 _ _ _ _ rfl (by decide) (by decide) (by decide) W).trans ?_
  rw [h_main_v54, h_main_v56]
  rfl

theorem fin_main_call3_cst (W : Valuation τ sig (Elt F)) :
    after (ops (F := F)) W (Proc.devRef .tc main_call3_cst) = val_main_call3_cst (F := F) := by
  refine (after_nullary hw 66 main_call3_cst _ _ rfl (by decide) W).trans ?_
  rfl

theorem fin_main_call3_v0 (W : Valuation τ sig (Elt F))
    (h_main_call3_cst : after (ops (F := F)) W (Proc.devRef .tc main_call3_cst) = val_main_call3_cst (F := F)) :
    after (ops (F := F)) W (Proc.devRef .tc main_call3_v0) = val_main_call3_v0 (F := F) := by
  refine (after_unary hw 67 main_call3_cst main_call3_v0 _ _ _ rfl (by decide) (by decide) W).trans ?_
  rw [h_main_call3_cst]
  rfl

theorem fin_main_v58 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F))
    (h_main_v57 : after (ops (F := F)) W (Proc.devRef .tc main_v57) = val_main_v57 (F := F) x1 x6 x7)
    (h_main_call3_v0 : after (ops (F := F)) W (Proc.devRef .tc main_call3_v0) = val_main_call3_v0 (F := F)) :
    after (ops (F := F)) W (Proc.devRef .tc main_v58) = val_main_v58 (F := F) x1 x6 x7 := by
  refine (after_binary hw 68 main_v57 main_call3_v0 main_v58 _ _ _ _ rfl (by decide) (by decide) (by decide) W).trans ?_
  rw [h_main_v57, h_main_call3_v0]
  rfl

theorem fin_main_v59 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F))
    (h_main_v58 : after (ops (F := F)) W (Proc.devRef .tc main_v58) = val_main_v58 (F := F) x1 x6 x7)
    (h_main_arg8 : after (ops (F := F)) W (Proc.devRef .tc main_arg8) = x8) :
    after (ops (F := F)) W (Proc.devRef .tc main_v59) = val_main_v59 (F := F) x1 x6 x7 x8 := by
  refine (after_binary hw 69 main_v58 main_arg8 main_v59 _ _ _ _ rfl (by decide) (by decide) (by decide) W).trans ?_
  rw [h_main_v58, h_main_arg8]
  rfl

theorem fin_main_v60 (W : Valuation τ sig (Elt F)) (x9 : (⟨S128, .f32⟩ : BufTy).Contents (Elt F))
    (h_main_arg9 : after (ops (F := F)) W (Proc.devRef .tc main_arg9) = x9) :
    after (ops (F := F)) W (Proc.devRef .tc main_v60) = val_main_v60 (F := F) x9 := by
  refine (after_unary hw 70 main_arg9 main_v60 _ _ _ rfl (by decide) (by decide) W).trans ?_
  rw [h_main_arg9]
  rfl

theorem fin_main_v61 (W : Valuation τ sig (Elt F)) (x9 : (⟨S128, .f32⟩ : BufTy).Contents (Elt F))
    (h_main_v60 : after (ops (F := F)) W (Proc.devRef .tc main_v60) = val_main_v60 (F := F) x9) :
    after (ops (F := F)) W (Proc.devRef .tc main_v61) = val_main_v61 (F := F) x9 := by
  refine (after_unary hw 71 main_v60 main_v61 _ _ _ rfl (by decide) (by decide) W).trans ?_
  rw [h_main_v60]
  rfl

theorem fin_main_v62 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v59 : after (ops (F := F)) W (Proc.devRef .tc main_v59) = val_main_v59 (F := F) x1 x6 x7 x8)
    (h_main_v61 : after (ops (F := F)) W (Proc.devRef .tc main_v61) = val_main_v61 (F := F) x9) :
    after (ops (F := F)) W (Proc.devRef .tc main_v62) = val_main_v62 (F := F) x1 x6 x7 x8 x9 := by
  refine (after_binary hw 72 main_v59 main_v61 main_v62 _ _ _ _ rfl (by decide) (by decide) (by decide) W).trans ?_
  rw [h_main_v59, h_main_v61]
  rfl

theorem fin_main_v63 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v62 : after (ops (F := F)) W (Proc.devRef .tc main_v62) = val_main_v62 (F := F) x1 x6 x7 x8 x9) :
    after (ops (F := F)) W (Proc.devRef .tc main_v63) = val_main_v63 (F := F) x1 x6 x7 x8 x9 := by
  refine (after_reshape hw 73 main_v62 main_v63 _ _ _ _ rfl (by decide) (by decide) W).trans ?_
  rw [h_main_v62]
  rfl

theorem fin_main_v64 (W : Valuation τ sig (Elt F)) (x0 : (⟨S256x128, .f32⟩ : BufTy).Contents (Elt F))
    (h_main_arg0 : after (ops (F := F)) W (Proc.devRef .tc main_arg0) = x0) :
    after (ops (F := F)) W (Proc.devRef .tc main_v64) = val_main_v64 (F := F) x0 := by
  refine (after_unary hw 74 main_arg0 main_v64 _ _ _ rfl (by decide) (by decide) W).trans ?_
  rw [h_main_arg0]
  rfl

theorem fin_main_v65 (W : Valuation τ sig (Elt F)) (x0 : (⟨S256x128, .f32⟩ : BufTy).Contents (Elt F))
    (h_main_v64 : after (ops (F := F)) W (Proc.devRef .tc main_v64) = val_main_v64 (F := F) x0) :
    after (ops (F := F)) W (Proc.devRef .tc main_v65) = val_main_v65 (F := F) x0 := by
  refine (after_unary hw 75 main_v64 main_v65 _ _ _ rfl (by decide) (by decide) W).trans ?_
  rw [h_main_v64]
  rfl

theorem fin_main_v66 (W : Valuation τ sig (Elt F)) (x0 : (⟨S256x128, .f32⟩ : BufTy).Contents (Elt F))
    (h_main_arg0 : after (ops (F := F)) W (Proc.devRef .tc main_arg0) = x0) :
    after (ops (F := F)) W (Proc.devRef .tc main_v66) = val_main_v66 (F := F) x0 := by
  refine (after_unary hw 76 main_arg0 main_v66 _ _ _ rfl (by decide) (by decide) W).trans ?_
  rw [h_main_arg0]
  rfl

theorem fin_main_v67 (W : Valuation τ sig (Elt F)) (x0 : (⟨S256x128, .f32⟩ : BufTy).Contents (Elt F))
    (h_main_v66 : after (ops (F := F)) W (Proc.devRef .tc main_v66) = val_main_v66 (F := F) x0) :
    after (ops (F := F)) W (Proc.devRef .tc main_v67) = val_main_v67 (F := F) x0 := by
  refine (after_unary hw 77 main_v66 main_v67 _ _ _ rfl (by decide) (by decide) W).trans ?_
  rw [h_main_v66]
  rfl

theorem fin_main_v68 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v65 : after (ops (F := F)) W (Proc.devRef .tc main_v65) = val_main_v65 (F := F) x0)
    (h_main_v67 : after (ops (F := F)) W (Proc.devRef .tc main_v67) = val_main_v67 (F := F) x0)
    (h_main_v40 : after (ops (F := F)) W (Proc.devRef .tc main_v40) = val_main_v40 (F := F) x0 x6 x7 x8 x9) :
    after (ops (F := F)) W (Proc.devRef .tc main_v68) = val_main_v68 (F := F) x0 x6 x7 x8 x9 := by
  refine (after_nary3 hw 78 main_v65 main_v67 main_v40 main_v68 _ _ _ rfl (by decide) (by decide) (by decide) (by decide) W).trans ?_
  rw [h_main_v65, h_main_v67, h_main_v40]
  rfl

theorem fin_main_v69 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v68 : after (ops (F := F)) W (Proc.devRef .tc main_v68) = val_main_v68 (F := F) x0 x6 x7 x8 x9) :
    after (ops (F := F)) W (Proc.devRef .tc main_v69) = val_main_v69 (F := F) x0 x6 x7 x8 x9 := by
  refine (after_reshape hw 79 main_v68 main_v69 _ _ _ _ rfl (by decide) (by decide) W).trans ?_
  rw [h_main_v68]
  rfl

theorem fin_main_v70 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F))
    (h_main_v69 : after (ops (F := F)) W (Proc.devRef .tc main_v69) = val_main_v69 (F := F) x0 x6 x7 x8 x9)
    (h_main_arg10 : after (ops (F := F)) W (Proc.devRef .tc main_arg10) = x10) :
    after (ops (F := F)) W (Proc.devRef .tc main_v70) = val_main_v70 (F := F) x0 x6 x7 x8 x9 x10 := by
  refine (after_binary hw 80 main_v69 main_arg10 main_v70 _ _ _ _ rfl (by decide) (by decide) (by decide) W).trans ?_
  rw [h_main_v69, h_main_arg10]
  rfl

theorem fin_main_v71 (W : Valuation τ sig (Elt F)) (x11 : (⟨S512, .f32⟩ : BufTy).Contents (Elt F))
    (h_main_arg11 : after (ops (F := F)) W (Proc.devRef .tc main_arg11) = x11) :
    after (ops (F := F)) W (Proc.devRef .tc main_v71) = val_main_v71 (F := F) x11 := by
  refine (after_unary hw 81 main_arg11 main_v71 _ _ _ rfl (by decide) (by decide) W).trans ?_
  rw [h_main_arg11]
  rfl

theorem fin_main_v72 (W : Valuation τ sig (Elt F)) (x11 : (⟨S512, .f32⟩ : BufTy).Contents (Elt F))
    (h_main_v71 : after (ops (F := F)) W (Proc.devRef .tc main_v71) = val_main_v71 (F := F) x11) :
    after (ops (F := F)) W (Proc.devRef .tc main_v72) = val_main_v72 (F := F) x11 := by
  refine (after_unary hw 82 main_v71 main_v72 _ _ _ rfl (by decide) (by decide) W).trans ?_
  rw [h_main_v71]
  rfl

theorem fin_main_v73 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F))
    (h_main_v70 : after (ops (F := F)) W (Proc.devRef .tc main_v70) = val_main_v70 (F := F) x0 x6 x7 x8 x9 x10)
    (h_main_v72 : after (ops (F := F)) W (Proc.devRef .tc main_v72) = val_main_v72 (F := F) x11) :
    after (ops (F := F)) W (Proc.devRef .tc main_v73) = val_main_v73 (F := F) x0 x6 x7 x8 x9 x10 x11 := by
  refine (after_binary hw 83 main_v70 main_v72 main_v73 _ _ _ _ rfl (by decide) (by decide) (by decide) W).trans ?_
  rw [h_main_v70, h_main_v72]
  rfl

theorem fin_main_call4_cst (W : Valuation τ sig (Elt F)) :
    after (ops (F := F)) W (Proc.devRef .tc main_call4_cst) = val_main_call4_cst (F := F) := by
  refine (after_nullary hw 84 main_call4_cst _ _ rfl (by decide) W).trans ?_
  rfl

theorem fin_main_call4_v0 (W : Valuation τ sig (Elt F))
    (h_main_call4_cst : after (ops (F := F)) W (Proc.devRef .tc main_call4_cst) = val_main_call4_cst (F := F)) :
    after (ops (F := F)) W (Proc.devRef .tc main_call4_v0) = val_main_call4_v0 (F := F) := by
  refine (after_unary hw 85 main_call4_cst main_call4_v0 _ _ _ rfl (by decide) (by decide) W).trans ?_
  rw [h_main_call4_cst]
  rfl

theorem fin_main_v74 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F))
    (h_main_v73 : after (ops (F := F)) W (Proc.devRef .tc main_v73) = val_main_v73 (F := F) x0 x6 x7 x8 x9 x10 x11)
    (h_main_call4_v0 : after (ops (F := F)) W (Proc.devRef .tc main_call4_v0) = val_main_call4_v0 (F := F)) :
    after (ops (F := F)) W (Proc.devRef .tc main_v74) = val_main_v74 (F := F) x0 x6 x7 x8 x9 x10 x11 := by
  refine (after_binary hw 86 main_v73 main_call4_v0 main_v74 _ _ _ _ rfl (by decide) (by decide) (by decide) W).trans ?_
  rw [h_main_v73, h_main_call4_v0]
  rfl

theorem fin_main_v75 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F))
    (h_main_v74 : after (ops (F := F)) W (Proc.devRef .tc main_v74) = val_main_v74 (F := F) x0 x6 x7 x8 x9 x10 x11)
    (h_main_arg12 : after (ops (F := F)) W (Proc.devRef .tc main_arg12) = x12) :
    after (ops (F := F)) W (Proc.devRef .tc main_v75) = val_main_v75 (F := F) x0 x6 x7 x8 x9 x10 x11 x12 := by
  refine (after_binary hw 87 main_v74 main_arg12 main_v75 _ _ _ _ rfl (by decide) (by decide) (by decide) W).trans ?_
  rw [h_main_v74, h_main_arg12]
  rfl

theorem fin_main_v76 (W : Valuation τ sig (Elt F)) (x13 : (⟨S128, .f32⟩ : BufTy).Contents (Elt F))
    (h_main_arg13 : after (ops (F := F)) W (Proc.devRef .tc main_arg13) = x13) :
    after (ops (F := F)) W (Proc.devRef .tc main_v76) = val_main_v76 (F := F) x13 := by
  refine (after_unary hw 88 main_arg13 main_v76 _ _ _ rfl (by decide) (by decide) W).trans ?_
  rw [h_main_arg13]
  rfl

theorem fin_main_v77 (W : Valuation τ sig (Elt F)) (x13 : (⟨S128, .f32⟩ : BufTy).Contents (Elt F))
    (h_main_v76 : after (ops (F := F)) W (Proc.devRef .tc main_v76) = val_main_v76 (F := F) x13) :
    after (ops (F := F)) W (Proc.devRef .tc main_v77) = val_main_v77 (F := F) x13 := by
  refine (after_unary hw 89 main_v76 main_v77 _ _ _ rfl (by decide) (by decide) W).trans ?_
  rw [h_main_v76]
  rfl

theorem fin_main_v78 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v75 : after (ops (F := F)) W (Proc.devRef .tc main_v75) = val_main_v75 (F := F) x0 x6 x7 x8 x9 x10 x11 x12)
    (h_main_v77 : after (ops (F := F)) W (Proc.devRef .tc main_v77) = val_main_v77 (F := F) x13) :
    after (ops (F := F)) W (Proc.devRef .tc main_v78) = val_main_v78 (F := F) x0 x6 x7 x8 x9 x10 x11 x12 x13 := by
  refine (after_binary hw 90 main_v75 main_v77 main_v78 _ _ _ _ rfl (by decide) (by decide) (by decide) W).trans ?_
  rw [h_main_v75, h_main_v77]
  rfl

theorem fin_main_v79 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v78 : after (ops (F := F)) W (Proc.devRef .tc main_v78) = val_main_v78 (F := F) x0 x6 x7 x8 x9 x10 x11 x12 x13) :
    after (ops (F := F)) W (Proc.devRef .tc main_v79) = val_main_v79 (F := F) x0 x6 x7 x8 x9 x10 x11 x12 x13 := by
  refine (after_reshape hw 91 main_v78 main_v79 _ _ _ _ rfl (by decide) (by decide) W).trans ?_
  rw [h_main_v78]
  rfl

theorem fin_main_cst (W : Valuation τ sig (Elt F)) :
    after (ops (F := F)) W (Proc.devRef .tc main_cst) = val_main_cst (F := F) := by
  refine (after_nullary hw 92 main_cst _ _ rfl (by decide) W).trans ?_
  rfl

theorem fin_main_v80 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v79 : after (ops (F := F)) W (Proc.devRef .tc main_v79) = val_main_v79 (F := F) x0 x6 x7 x8 x9 x10 x11 x12 x13)
    (h_main_cst : after (ops (F := F)) W (Proc.devRef .tc main_cst) = val_main_cst (F := F)) :
    after (ops (F := F)) W (Proc.devRef .tc main_v80) = val_main_v80 (F := F) x0 x6 x7 x8 x9 x10 x11 x12 x13 := by
  refine (after_binary hw 93 main_v79 main_cst main_v80 _ _ _ _ rfl (by decide) (by decide) (by decide) W).trans ?_
  rw [h_main_v79, h_main_cst]
  rfl

theorem fin_main_cst_1 (W : Valuation τ sig (Elt F)) :
    after (ops (F := F)) W (Proc.devRef .tc main_cst_1) = val_main_cst_1 (F := F) := by
  refine (after_nullary hw 94 main_cst_1 _ _ rfl (by decide) W).trans ?_
  rfl

theorem fin_main_v81 (W : Valuation τ sig (Elt F))
    (h_main_cst_1 : after (ops (F := F)) W (Proc.devRef .tc main_cst_1) = val_main_cst_1 (F := F)) :
    after (ops (F := F)) W (Proc.devRef .tc main_v81) = val_main_v81 (F := F) := by
  refine (after_unary hw 95 main_cst_1 main_v81 _ _ _ rfl (by decide) (by decide) W).trans ?_
  rw [h_main_cst_1]
  rfl

theorem fin_main_v82 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v80 : after (ops (F := F)) W (Proc.devRef .tc main_v80) = val_main_v80 (F := F) x0 x6 x7 x8 x9 x10 x11 x12 x13)
    (h_main_v81 : after (ops (F := F)) W (Proc.devRef .tc main_v81) = val_main_v81 (F := F)) :
    after (ops (F := F)) W (Proc.devRef .tc main_v82) = val_main_v82 (F := F) x0 x6 x7 x8 x9 x10 x11 x12 x13 := by
  refine (after_binary hw 96 main_v80 main_v81 main_v82 _ _ _ _ rfl (by decide) (by decide) (by decide) W).trans ?_
  rw [h_main_v80, h_main_v81]
  rfl

theorem fin_main_v83 (W : Valuation τ sig (Elt F)) (x1 : (⟨S256x128, .f32⟩ : BufTy).Contents (Elt F))
    (h_main_arg1 : after (ops (F := F)) W (Proc.devRef .tc main_arg1) = x1) :
    after (ops (F := F)) W (Proc.devRef .tc main_v83) = val_main_v83 (F := F) x1 := by
  refine (after_unary hw 97 main_arg1 main_v83 _ _ _ rfl (by decide) (by decide) W).trans ?_
  rw [h_main_arg1]
  rfl

theorem fin_main_v84 (W : Valuation τ sig (Elt F)) (x1 : (⟨S256x128, .f32⟩ : BufTy).Contents (Elt F))
    (h_main_v83 : after (ops (F := F)) W (Proc.devRef .tc main_v83) = val_main_v83 (F := F) x1) :
    after (ops (F := F)) W (Proc.devRef .tc main_v84) = val_main_v84 (F := F) x1 := by
  refine (after_unary hw 98 main_v83 main_v84 _ _ _ rfl (by decide) (by decide) W).trans ?_
  rw [h_main_v83]
  rfl

theorem fin_main_v85 (W : Valuation τ sig (Elt F)) (x1 : (⟨S256x128, .f32⟩ : BufTy).Contents (Elt F))
    (h_main_arg1 : after (ops (F := F)) W (Proc.devRef .tc main_arg1) = x1) :
    after (ops (F := F)) W (Proc.devRef .tc main_v85) = val_main_v85 (F := F) x1 := by
  refine (after_unary hw 99 main_arg1 main_v85 _ _ _ rfl (by decide) (by decide) W).trans ?_
  rw [h_main_arg1]
  rfl

theorem fin_main_v86 (W : Valuation τ sig (Elt F)) (x1 : (⟨S256x128, .f32⟩ : BufTy).Contents (Elt F))
    (h_main_v85 : after (ops (F := F)) W (Proc.devRef .tc main_v85) = val_main_v85 (F := F) x1) :
    after (ops (F := F)) W (Proc.devRef .tc main_v86) = val_main_v86 (F := F) x1 := by
  refine (after_unary hw 100 main_v85 main_v86 _ _ _ rfl (by decide) (by decide) W).trans ?_
  rw [h_main_v85]
  rfl

theorem fin_main_v87 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v84 : after (ops (F := F)) W (Proc.devRef .tc main_v84) = val_main_v84 (F := F) x1)
    (h_main_v86 : after (ops (F := F)) W (Proc.devRef .tc main_v86) = val_main_v86 (F := F) x1)
    (h_main_v63 : after (ops (F := F)) W (Proc.devRef .tc main_v63) = val_main_v63 (F := F) x1 x6 x7 x8 x9) :
    after (ops (F := F)) W (Proc.devRef .tc main_v87) = val_main_v87 (F := F) x1 x6 x7 x8 x9 := by
  refine (after_nary3 hw 101 main_v84 main_v86 main_v63 main_v87 _ _ _ rfl (by decide) (by decide) (by decide) (by decide) W).trans ?_
  rw [h_main_v84, h_main_v86, h_main_v63]
  rfl

theorem fin_main_v88 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F))
    (h_main_v87 : after (ops (F := F)) W (Proc.devRef .tc main_v87) = val_main_v87 (F := F) x1 x6 x7 x8 x9) :
    after (ops (F := F)) W (Proc.devRef .tc main_v88) = val_main_v88 (F := F) x1 x6 x7 x8 x9 := by
  refine (after_reshape hw 102 main_v87 main_v88 _ _ _ _ rfl (by decide) (by decide) W).trans ?_
  rw [h_main_v87]
  rfl

theorem fin_main_v89 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F))
    (h_main_v88 : after (ops (F := F)) W (Proc.devRef .tc main_v88) = val_main_v88 (F := F) x1 x6 x7 x8 x9)
    (h_main_arg10 : after (ops (F := F)) W (Proc.devRef .tc main_arg10) = x10) :
    after (ops (F := F)) W (Proc.devRef .tc main_v89) = val_main_v89 (F := F) x1 x6 x7 x8 x9 x10 := by
  refine (after_binary hw 103 main_v88 main_arg10 main_v89 _ _ _ _ rfl (by decide) (by decide) (by decide) W).trans ?_
  rw [h_main_v88, h_main_arg10]
  rfl

end Cert.ReferenceIdeal.RunH

end
-- ==== Proof.RefRunC.lean ====
import proofs.«418941_j65867618451820_3_alg».proof.Proof.RefRunT
import proofs.«418941_j65867618451820_3_alg».proof.Proof.RefRead

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

theorem fin_main_v90 (W : Valuation τ sig (Elt F)) (x11 : (⟨S512, .f32⟩ : BufTy).Contents (Elt F))
    (h_main_arg11 : after (ops (F := F)) W (Proc.devRef .tc main_arg11) = x11) :
    after (ops (F := F)) W (Proc.devRef .tc main_v90) = val_main_v90 (F := F) x11 := by
  refine (after_unary hw 104 main_arg11 main_v90 _ _ _ rfl (by decide) (by decide) W).trans ?_
  rw [h_main_arg11]
  rfl

theorem fin_main_v91 (W : Valuation τ sig (Elt F)) (x11 : (⟨S512, .f32⟩ : BufTy).Contents (Elt F))
    (h_main_v90 : after (ops (F := F)) W (Proc.devRef .tc main_v90) = val_main_v90 (F := F) x11) :
    after (ops (F := F)) W (Proc.devRef .tc main_v91) = val_main_v91 (F := F) x11 := by
  refine (after_unary hw 105 main_v90 main_v91 _ _ _ rfl (by decide) (by decide) W).trans ?_
  rw [h_main_v90]
  rfl

theorem fin_main_v92 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F))
    (h_main_v89 : after (ops (F := F)) W (Proc.devRef .tc main_v89) = val_main_v89 (F := F) x1 x6 x7 x8 x9 x10)
    (h_main_v91 : after (ops (F := F)) W (Proc.devRef .tc main_v91) = val_main_v91 (F := F) x11) :
    after (ops (F := F)) W (Proc.devRef .tc main_v92) = val_main_v92 (F := F) x1 x6 x7 x8 x9 x10 x11 := by
  refine (after_binary hw 106 main_v89 main_v91 main_v92 _ _ _ _ rfl (by decide) (by decide) (by decide) W).trans ?_
  rw [h_main_v89, h_main_v91]
  rfl

theorem fin_main_call5_cst (W : Valuation τ sig (Elt F)) :
    after (ops (F := F)) W (Proc.devRef .tc main_call5_cst) = val_main_call5_cst (F := F) := by
  refine (after_nullary hw 107 main_call5_cst _ _ rfl (by decide) W).trans ?_
  rfl

theorem fin_main_call5_v0 (W : Valuation τ sig (Elt F))
    (h_main_call5_cst : after (ops (F := F)) W (Proc.devRef .tc main_call5_cst) = val_main_call5_cst (F := F)) :
    after (ops (F := F)) W (Proc.devRef .tc main_call5_v0) = val_main_call5_v0 (F := F) := by
  refine (after_unary hw 108 main_call5_cst main_call5_v0 _ _ _ rfl (by decide) (by decide) W).trans ?_
  rw [h_main_call5_cst]
  rfl

theorem fin_main_v93 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F))
    (h_main_v92 : after (ops (F := F)) W (Proc.devRef .tc main_v92) = val_main_v92 (F := F) x1 x6 x7 x8 x9 x10 x11)
    (h_main_call5_v0 : after (ops (F := F)) W (Proc.devRef .tc main_call5_v0) = val_main_call5_v0 (F := F)) :
    after (ops (F := F)) W (Proc.devRef .tc main_v93) = val_main_v93 (F := F) x1 x6 x7 x8 x9 x10 x11 := by
  refine (after_binary hw 109 main_v92 main_call5_v0 main_v93 _ _ _ _ rfl (by decide) (by decide) (by decide) W).trans ?_
  rw [h_main_v92, h_main_call5_v0]
  rfl

theorem fin_main_v94 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F))
    (h_main_v93 : after (ops (F := F)) W (Proc.devRef .tc main_v93) = val_main_v93 (F := F) x1 x6 x7 x8 x9 x10 x11)
    (h_main_arg12 : after (ops (F := F)) W (Proc.devRef .tc main_arg12) = x12) :
    after (ops (F := F)) W (Proc.devRef .tc main_v94) = val_main_v94 (F := F) x1 x6 x7 x8 x9 x10 x11 x12 := by
  refine (after_binary hw 110 main_v93 main_arg12 main_v94 _ _ _ _ rfl (by decide) (by decide) (by decide) W).trans ?_
  rw [h_main_v93, h_main_arg12]
  rfl

theorem fin_main_v95 (W : Valuation τ sig (Elt F)) (x13 : (⟨S128, .f32⟩ : BufTy).Contents (Elt F))
    (h_main_arg13 : after (ops (F := F)) W (Proc.devRef .tc main_arg13) = x13) :
    after (ops (F := F)) W (Proc.devRef .tc main_v95) = val_main_v95 (F := F) x13 := by
  refine (after_unary hw 111 main_arg13 main_v95 _ _ _ rfl (by decide) (by decide) W).trans ?_
  rw [h_main_arg13]
  rfl

theorem fin_main_v96 (W : Valuation τ sig (Elt F)) (x13 : (⟨S128, .f32⟩ : BufTy).Contents (Elt F))
    (h_main_v95 : after (ops (F := F)) W (Proc.devRef .tc main_v95) = val_main_v95 (F := F) x13) :
    after (ops (F := F)) W (Proc.devRef .tc main_v96) = val_main_v96 (F := F) x13 := by
  refine (after_unary hw 112 main_v95 main_v96 _ _ _ rfl (by decide) (by decide) W).trans ?_
  rw [h_main_v95]
  rfl

theorem fin_main_v97 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v94 : after (ops (F := F)) W (Proc.devRef .tc main_v94) = val_main_v94 (F := F) x1 x6 x7 x8 x9 x10 x11 x12)
    (h_main_v96 : after (ops (F := F)) W (Proc.devRef .tc main_v96) = val_main_v96 (F := F) x13) :
    after (ops (F := F)) W (Proc.devRef .tc main_v97) = val_main_v97 (F := F) x1 x6 x7 x8 x9 x10 x11 x12 x13 := by
  refine (after_binary hw 113 main_v94 main_v96 main_v97 _ _ _ _ rfl (by decide) (by decide) (by decide) W).trans ?_
  rw [h_main_v94, h_main_v96]
  rfl

theorem fin_main_v98 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v97 : after (ops (F := F)) W (Proc.devRef .tc main_v97) = val_main_v97 (F := F) x1 x6 x7 x8 x9 x10 x11 x12 x13) :
    after (ops (F := F)) W (Proc.devRef .tc main_v98) = val_main_v98 (F := F) x1 x6 x7 x8 x9 x10 x11 x12 x13 := by
  refine (after_reshape hw 114 main_v97 main_v98 _ _ _ _ rfl (by decide) (by decide) W).trans ?_
  rw [h_main_v97]
  rfl

theorem fin_main_cst_2 (W : Valuation τ sig (Elt F)) :
    after (ops (F := F)) W (Proc.devRef .tc main_cst_2) = val_main_cst_2 (F := F) := by
  refine (after_nullary hw 115 main_cst_2 _ _ rfl (by decide) W).trans ?_
  rfl

theorem fin_main_v99 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v98 : after (ops (F := F)) W (Proc.devRef .tc main_v98) = val_main_v98 (F := F) x1 x6 x7 x8 x9 x10 x11 x12 x13)
    (h_main_cst_2 : after (ops (F := F)) W (Proc.devRef .tc main_cst_2) = val_main_cst_2 (F := F)) :
    after (ops (F := F)) W (Proc.devRef .tc main_v99) = val_main_v99 (F := F) x1 x6 x7 x8 x9 x10 x11 x12 x13 := by
  refine (after_binary hw 116 main_v98 main_cst_2 main_v99 _ _ _ _ rfl (by decide) (by decide) (by decide) W).trans ?_
  rw [h_main_v98, h_main_cst_2]
  rfl

theorem fin_main_cst_3 (W : Valuation τ sig (Elt F)) :
    after (ops (F := F)) W (Proc.devRef .tc main_cst_3) = val_main_cst_3 (F := F) := by
  refine (after_nullary hw 117 main_cst_3 _ _ rfl (by decide) W).trans ?_
  rfl

theorem fin_main_v100 (W : Valuation τ sig (Elt F))
    (h_main_cst_3 : after (ops (F := F)) W (Proc.devRef .tc main_cst_3) = val_main_cst_3 (F := F)) :
    after (ops (F := F)) W (Proc.devRef .tc main_v100) = val_main_v100 (F := F) := by
  refine (after_unary hw 118 main_cst_3 main_v100 _ _ _ rfl (by decide) (by decide) W).trans ?_
  rw [h_main_cst_3]
  rfl

theorem fin_main_v101 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v99 : after (ops (F := F)) W (Proc.devRef .tc main_v99) = val_main_v99 (F := F) x1 x6 x7 x8 x9 x10 x11 x12 x13)
    (h_main_v100 : after (ops (F := F)) W (Proc.devRef .tc main_v100) = val_main_v100 (F := F)) :
    after (ops (F := F)) W (Proc.devRef .tc main_v101) = val_main_v101 (F := F) x1 x6 x7 x8 x9 x10 x11 x12 x13 := by
  refine (after_binary hw 119 main_v99 main_v100 main_v101 _ _ _ _ rfl (by decide) (by decide) (by decide) W).trans ?_
  rw [h_main_v99, h_main_v100]
  rfl

theorem fin_main_v102 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v8 : after (ops (F := F)) W (Proc.devRef .tc main_v8) = val_main_v8 (F := F) x0 x2 x3 x4 x5) :
    after (ops (F := F)) W (Proc.devRef .tc main_v102) = val_main_v102 (F := F) x0 x2 x3 x4 x5 := by
  refine (after_unary hw 120 main_v8 main_v102 _ _ _ rfl (by decide) (by decide) W).trans ?_
  rw [h_main_v8]
  rfl

theorem fin_main_v103 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v17 : after (ops (F := F)) W (Proc.devRef .tc main_v17) = val_main_v17 (F := F) x1 x2 x3 x4 x5) :
    after (ops (F := F)) W (Proc.devRef .tc main_v103) = val_main_v103 (F := F) x1 x2 x3 x4 x5 := by
  refine (after_unary hw 121 main_v17 main_v103 _ _ _ rfl (by decide) (by decide) W).trans ?_
  rw [h_main_v17]
  rfl

theorem fin_main_v104 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v102 : after (ops (F := F)) W (Proc.devRef .tc main_v102) = val_main_v102 (F := F) x0 x2 x3 x4 x5) :
    after (ops (F := F)) W (Proc.devRef .tc main_v104) = val_main_v104 (F := F) x0 x2 x3 x4 x5 := by
  refine (after_unary hw 122 main_v102 main_v104 _ _ _ rfl (by decide) (by decide) W).trans ?_
  rw [h_main_v102]
  rfl

theorem fin_main_v105 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v103 : after (ops (F := F)) W (Proc.devRef .tc main_v103) = val_main_v103 (F := F) x1 x2 x3 x4 x5) :
    after (ops (F := F)) W (Proc.devRef .tc main_v105) = val_main_v105 (F := F) x1 x2 x3 x4 x5 := by
  refine (after_unary hw 123 main_v103 main_v105 _ _ _ rfl (by decide) (by decide) W).trans ?_
  rw [h_main_v103]
  rfl

theorem fin_main_v106 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v104 : after (ops (F := F)) W (Proc.devRef .tc main_v104) = val_main_v104 (F := F) x0 x2 x3 x4 x5)
    (h_main_v105 : after (ops (F := F)) W (Proc.devRef .tc main_v105) = val_main_v105 (F := F) x1 x2 x3 x4 x5) :
    after (ops (F := F)) W (Proc.devRef .tc main_v106) = val_main_v106 (F := F) x0 x1 x2 x3 x4 x5 := by
  refine (after_binary hw 124 main_v104 main_v105 main_v106 _ _ _ _ rfl (by decide) (by decide) (by decide) W).trans ?_
  rw [h_main_v104, h_main_v105]
  rfl

theorem fin_main_v107 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v106 : after (ops (F := F)) W (Proc.devRef .tc main_v106) = val_main_v106 (F := F) x0 x1 x2 x3 x4 x5) :
    after (ops (F := F)) W (Proc.devRef .tc main_v107) = val_main_v107 (F := F) x0 x1 x2 x3 x4 x5 := by
  refine (after_unary hw 125 main_v106 main_v107 _ _ _ rfl (by decide) (by decide) W).trans ?_
  rw [h_main_v106]
  rfl

theorem fin_main_cst_4 (W : Valuation τ sig (Elt F)) :
    after (ops (F := F)) W (Proc.devRef .tc main_cst_4) = val_main_cst_4 (F := F) := by
  refine (after_nullary hw 126 main_cst_4 _ _ rfl (by decide) W).trans ?_
  rfl

theorem fin_main_v108 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v106 : after (ops (F := F)) W (Proc.devRef .tc main_v106) = val_main_v106 (F := F) x0 x1 x2 x3 x4 x5)
    (h_main_cst_4 : after (ops (F := F)) W (Proc.devRef .tc main_cst_4) = val_main_cst_4 (F := F)) :
    after (ops (F := F)) W (Proc.devRef .tc main_v108) = val_main_v108 (F := F) x0 x1 x2 x3 x4 x5 := by
  refine (after_binary hw 127 main_v106 main_cst_4 main_v108 _ _ _ _ rfl (by decide) (by decide) (by decide) W).trans ?_
  rw [h_main_v106, h_main_cst_4]
  rfl

theorem fin_main_v109 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v108 : after (ops (F := F)) W (Proc.devRef .tc main_v108) = val_main_v108 (F := F) x0 x1 x2 x3 x4 x5) :
    after (ops (F := F)) W (Proc.devRef .tc main_v109) = val_main_v109 (F := F) x0 x1 x2 x3 x4 x5 := by
  refine (after_unary hw 128 main_v108 main_v109 _ _ _ rfl (by decide) (by decide) W).trans ?_
  rw [h_main_v108]
  rfl

theorem fin_main_v110 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v109 : after (ops (F := F)) W (Proc.devRef .tc main_v109) = val_main_v109 (F := F) x0 x1 x2 x3 x4 x5) :
    after (ops (F := F)) W (Proc.devRef .tc main_v110) = val_main_v110 (F := F) x0 x1 x2 x3 x4 x5 := by
  refine (after_unary hw 129 main_v109 main_v110 _ _ _ rfl (by decide) (by decide) W).trans ?_
  rw [h_main_v109]
  rfl

theorem fin_main_v111 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v107 : after (ops (F := F)) W (Proc.devRef .tc main_v107) = val_main_v107 (F := F) x0 x1 x2 x3 x4 x5)
    (h_main_v110 : after (ops (F := F)) W (Proc.devRef .tc main_v110) = val_main_v110 (F := F) x0 x1 x2 x3 x4 x5) :
    after (ops (F := F)) W (Proc.devRef .tc main_v111) = val_main_v111 (F := F) x0 x1 x2 x3 x4 x5 := by
  refine (after_binary hw 130 main_v107 main_v110 main_v111 _ _ _ _ rfl (by decide) (by decide) (by decide) W).trans ?_
  rw [h_main_v107, h_main_v110]
  rfl

theorem fin_main_v112 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v17 : after (ops (F := F)) W (Proc.devRef .tc main_v17) = val_main_v17 (F := F) x1 x2 x3 x4 x5) :
    after (ops (F := F)) W (Proc.devRef .tc main_v112) = val_main_v112 (F := F) x1 x2 x3 x4 x5 := by
  refine (after_unary hw 131 main_v17 main_v112 _ _ _ rfl (by decide) (by decide) W).trans ?_
  rw [h_main_v17]
  rfl

theorem fin_main_v113 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v112 : after (ops (F := F)) W (Proc.devRef .tc main_v112) = val_main_v112 (F := F) x1 x2 x3 x4 x5) :
    after (ops (F := F)) W (Proc.devRef .tc main_v113) = val_main_v113 (F := F) x1 x2 x3 x4 x5 := by
  refine (after_unary hw 132 main_v112 main_v113 _ _ _ rfl (by decide) (by decide) W).trans ?_
  rw [h_main_v112]
  rfl

theorem fin_main_v114 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v113 : after (ops (F := F)) W (Proc.devRef .tc main_v113) = val_main_v113 (F := F) x1 x2 x3 x4 x5)
    (h_main_v111 : after (ops (F := F)) W (Proc.devRef .tc main_v111) = val_main_v111 (F := F) x0 x1 x2 x3 x4 x5) :
    after (ops (F := F)) W (Proc.devRef .tc main_v114) = val_main_v114 (F := F) x0 x1 x2 x3 x4 x5 := by
  refine (after_binary hw 133 main_v113 main_v111 main_v114 _ _ _ _ rfl (by decide) (by decide) (by decide) W).trans ?_
  rw [h_main_v113, h_main_v111]
  rfl

theorem fin_main_cst_5 (W : Valuation τ sig (Elt F)) :
    after (ops (F := F)) W (Proc.devRef .tc main_cst_5) = val_main_cst_5 (F := F) := by
  refine (after_nullary hw 134 main_cst_5 _ _ rfl (by decide) W).trans ?_
  rfl

theorem fin_main_v115 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v114 : after (ops (F := F)) W (Proc.devRef .tc main_v114) = val_main_v114 (F := F) x0 x1 x2 x3 x4 x5)
    (h_main_cst_5 : after (ops (F := F)) W (Proc.devRef .tc main_cst_5) = val_main_cst_5 (F := F)) :
    after (ops (F := F)) W (Proc.devRef .tc main_v115) = val_main_v115 (F := F) x0 x1 x2 x3 x4 x5 := by
  refine (after_binary hw 135 main_v114 main_cst_5 main_v115 _ _ _ _ rfl (by decide) (by decide) (by decide) W).trans ?_
  rw [h_main_v114, h_main_cst_5]
  rfl

theorem fin_main_cst_6 (W : Valuation τ sig (Elt F)) :
    after (ops (F := F)) W (Proc.devRef .tc main_cst_6) = val_main_cst_6 (F := F) := by
  refine (after_nullary hw 136 main_cst_6 _ _ rfl (by decide) W).trans ?_
  rfl

theorem fin_main_v116 (W : Valuation τ sig (Elt F))
    (h_main_cst_6 : after (ops (F := F)) W (Proc.devRef .tc main_cst_6) = val_main_cst_6 (F := F)) :
    after (ops (F := F)) W (Proc.devRef .tc main_v116) = val_main_v116 (F := F) := by
  refine (after_unary hw 137 main_cst_6 main_v116 _ _ _ rfl (by decide) (by decide) W).trans ?_
  rw [h_main_cst_6]
  rfl

theorem fin_main_v117 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v115 : after (ops (F := F)) W (Proc.devRef .tc main_v115) = val_main_v115 (F := F) x0 x1 x2 x3 x4 x5)
    (h_main_v116 : after (ops (F := F)) W (Proc.devRef .tc main_v116) = val_main_v116 (F := F)) :
    after (ops (F := F)) W (Proc.devRef .tc main_v117) = val_main_v117 (F := F) x0 x1 x2 x3 x4 x5 := by
  refine (after_binary hw 138 main_v115 main_v116 main_v117 _ _ _ _ rfl (by decide) (by decide) (by decide) W).trans ?_
  rw [h_main_v115, h_main_v116]
  rfl

theorem fin_main_v118 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v17 : after (ops (F := F)) W (Proc.devRef .tc main_v17) = val_main_v17 (F := F) x1 x2 x3 x4 x5) :
    after (ops (F := F)) W (Proc.devRef .tc main_v118) = val_main_v118 (F := F) x1 x2 x3 x4 x5 := by
  refine (after_unary hw 139 main_v17 main_v118 _ _ _ rfl (by decide) (by decide) W).trans ?_
  rw [h_main_v17]
  rfl

theorem fin_main_v119 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v8 : after (ops (F := F)) W (Proc.devRef .tc main_v8) = val_main_v8 (F := F) x0 x2 x3 x4 x5) :
    after (ops (F := F)) W (Proc.devRef .tc main_v119) = val_main_v119 (F := F) x0 x2 x3 x4 x5 := by
  refine (after_unary hw 140 main_v8 main_v119 _ _ _ rfl (by decide) (by decide) W).trans ?_
  rw [h_main_v8]
  rfl

theorem fin_main_v120 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v118 : after (ops (F := F)) W (Proc.devRef .tc main_v118) = val_main_v118 (F := F) x1 x2 x3 x4 x5) :
    after (ops (F := F)) W (Proc.devRef .tc main_v120) = val_main_v120 (F := F) x1 x2 x3 x4 x5 := by
  refine (after_unary hw 141 main_v118 main_v120 _ _ _ rfl (by decide) (by decide) W).trans ?_
  rw [h_main_v118]
  rfl

theorem fin_main_v121 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v119 : after (ops (F := F)) W (Proc.devRef .tc main_v119) = val_main_v119 (F := F) x0 x2 x3 x4 x5) :
    after (ops (F := F)) W (Proc.devRef .tc main_v121) = val_main_v121 (F := F) x0 x2 x3 x4 x5 := by
  refine (after_unary hw 142 main_v119 main_v121 _ _ _ rfl (by decide) (by decide) W).trans ?_
  rw [h_main_v119]
  rfl

theorem fin_main_v122 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v120 : after (ops (F := F)) W (Proc.devRef .tc main_v120) = val_main_v120 (F := F) x1 x2 x3 x4 x5)
    (h_main_v121 : after (ops (F := F)) W (Proc.devRef .tc main_v121) = val_main_v121 (F := F) x0 x2 x3 x4 x5) :
    after (ops (F := F)) W (Proc.devRef .tc main_v122) = val_main_v122 (F := F) x0 x1 x2 x3 x4 x5 := by
  refine (after_binary hw 143 main_v120 main_v121 main_v122 _ _ _ _ rfl (by decide) (by decide) (by decide) W).trans ?_
  rw [h_main_v120, h_main_v121]
  rfl

theorem fin_main_v123 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v122 : after (ops (F := F)) W (Proc.devRef .tc main_v122) = val_main_v122 (F := F) x0 x1 x2 x3 x4 x5) :
    after (ops (F := F)) W (Proc.devRef .tc main_v123) = val_main_v123 (F := F) x0 x1 x2 x3 x4 x5 := by
  refine (after_unary hw 144 main_v122 main_v123 _ _ _ rfl (by decide) (by decide) W).trans ?_
  rw [h_main_v122]
  rfl

theorem fin_main_cst_7 (W : Valuation τ sig (Elt F)) :
    after (ops (F := F)) W (Proc.devRef .tc main_cst_7) = val_main_cst_7 (F := F) := by
  refine (after_nullary hw 145 main_cst_7 _ _ rfl (by decide) W).trans ?_
  rfl

theorem fin_main_v124 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v122 : after (ops (F := F)) W (Proc.devRef .tc main_v122) = val_main_v122 (F := F) x0 x1 x2 x3 x4 x5)
    (h_main_cst_7 : after (ops (F := F)) W (Proc.devRef .tc main_cst_7) = val_main_cst_7 (F := F)) :
    after (ops (F := F)) W (Proc.devRef .tc main_v124) = val_main_v124 (F := F) x0 x1 x2 x3 x4 x5 := by
  refine (after_binary hw 146 main_v122 main_cst_7 main_v124 _ _ _ _ rfl (by decide) (by decide) (by decide) W).trans ?_
  rw [h_main_v122, h_main_cst_7]
  rfl

theorem fin_main_v125 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v124 : after (ops (F := F)) W (Proc.devRef .tc main_v124) = val_main_v124 (F := F) x0 x1 x2 x3 x4 x5) :
    after (ops (F := F)) W (Proc.devRef .tc main_v125) = val_main_v125 (F := F) x0 x1 x2 x3 x4 x5 := by
  refine (after_unary hw 147 main_v124 main_v125 _ _ _ rfl (by decide) (by decide) W).trans ?_
  rw [h_main_v124]
  rfl

theorem fin_main_v126 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v125 : after (ops (F := F)) W (Proc.devRef .tc main_v125) = val_main_v125 (F := F) x0 x1 x2 x3 x4 x5) :
    after (ops (F := F)) W (Proc.devRef .tc main_v126) = val_main_v126 (F := F) x0 x1 x2 x3 x4 x5 := by
  refine (after_unary hw 148 main_v125 main_v126 _ _ _ rfl (by decide) (by decide) W).trans ?_
  rw [h_main_v125]
  rfl

theorem fin_main_v127 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v123 : after (ops (F := F)) W (Proc.devRef .tc main_v123) = val_main_v123 (F := F) x0 x1 x2 x3 x4 x5)
    (h_main_v126 : after (ops (F := F)) W (Proc.devRef .tc main_v126) = val_main_v126 (F := F) x0 x1 x2 x3 x4 x5) :
    after (ops (F := F)) W (Proc.devRef .tc main_v127) = val_main_v127 (F := F) x0 x1 x2 x3 x4 x5 := by
  refine (after_binary hw 149 main_v123 main_v126 main_v127 _ _ _ _ rfl (by decide) (by decide) (by decide) W).trans ?_
  rw [h_main_v123, h_main_v126]
  rfl

theorem fin_main_v128 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v8 : after (ops (F := F)) W (Proc.devRef .tc main_v8) = val_main_v8 (F := F) x0 x2 x3 x4 x5) :
    after (ops (F := F)) W (Proc.devRef .tc main_v128) = val_main_v128 (F := F) x0 x2 x3 x4 x5 := by
  refine (after_unary hw 150 main_v8 main_v128 _ _ _ rfl (by decide) (by decide) W).trans ?_
  rw [h_main_v8]
  rfl

theorem fin_main_v129 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v128 : after (ops (F := F)) W (Proc.devRef .tc main_v128) = val_main_v128 (F := F) x0 x2 x3 x4 x5) :
    after (ops (F := F)) W (Proc.devRef .tc main_v129) = val_main_v129 (F := F) x0 x2 x3 x4 x5 := by
  refine (after_unary hw 151 main_v128 main_v129 _ _ _ rfl (by decide) (by decide) W).trans ?_
  rw [h_main_v128]
  rfl

theorem fin_main_v130 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v129 : after (ops (F := F)) W (Proc.devRef .tc main_v129) = val_main_v129 (F := F) x0 x2 x3 x4 x5)
    (h_main_v127 : after (ops (F := F)) W (Proc.devRef .tc main_v127) = val_main_v127 (F := F) x0 x1 x2 x3 x4 x5) :
    after (ops (F := F)) W (Proc.devRef .tc main_v130) = val_main_v130 (F := F) x0 x1 x2 x3 x4 x5 := by
  refine (after_binary hw 152 main_v129 main_v127 main_v130 _ _ _ _ rfl (by decide) (by decide) (by decide) W).trans ?_
  rw [h_main_v129, h_main_v127]
  rfl

theorem fin_main_cst_8 (W : Valuation τ sig (Elt F)) :
    after (ops (F := F)) W (Proc.devRef .tc main_cst_8) = val_main_cst_8 (F := F) := by
  refine (after_nullary hw 153 main_cst_8 _ _ rfl (by decide) W).trans ?_
  rfl

theorem fin_main_v131 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v130 : after (ops (F := F)) W (Proc.devRef .tc main_v130) = val_main_v130 (F := F) x0 x1 x2 x3 x4 x5)
    (h_main_cst_8 : after (ops (F := F)) W (Proc.devRef .tc main_cst_8) = val_main_cst_8 (F := F)) :
    after (ops (F := F)) W (Proc.devRef .tc main_v131) = val_main_v131 (F := F) x0 x1 x2 x3 x4 x5 := by
  refine (after_binary hw 154 main_v130 main_cst_8 main_v131 _ _ _ _ rfl (by decide) (by decide) (by decide) W).trans ?_
  rw [h_main_v130, h_main_cst_8]
  rfl

theorem fin_main_cst_9 (W : Valuation τ sig (Elt F)) :
    after (ops (F := F)) W (Proc.devRef .tc main_cst_9) = val_main_cst_9 (F := F) := by
  refine (after_nullary hw 155 main_cst_9 _ _ rfl (by decide) W).trans ?_
  rfl

end Cert.ReferenceIdeal.RunH

end
-- ==== Proof.RefRunD.lean ====
import proofs.«418941_j65867618451820_3_alg».proof.Proof.RefRunT
import proofs.«418941_j65867618451820_3_alg».proof.Proof.RefRead

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

theorem fin_main_v132 (W : Valuation τ sig (Elt F))
    (h_main_cst_9 : after (ops (F := F)) W (Proc.devRef .tc main_cst_9) = val_main_cst_9 (F := F)) :
    after (ops (F := F)) W (Proc.devRef .tc main_v132) = val_main_v132 (F := F) := by
  refine (after_unary hw 156 main_cst_9 main_v132 _ _ _ rfl (by decide) (by decide) W).trans ?_
  rw [h_main_cst_9]
  rfl

theorem fin_main_v133 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v131 : after (ops (F := F)) W (Proc.devRef .tc main_v131) = val_main_v131 (F := F) x0 x1 x2 x3 x4 x5)
    (h_main_v132 : after (ops (F := F)) W (Proc.devRef .tc main_v132) = val_main_v132 (F := F)) :
    after (ops (F := F)) W (Proc.devRef .tc main_v133) = val_main_v133 (F := F) x0 x1 x2 x3 x4 x5 := by
  refine (after_binary hw 157 main_v131 main_v132 main_v133 _ _ _ _ rfl (by decide) (by decide) (by decide) W).trans ?_
  rw [h_main_v131, h_main_v132]
  rfl

theorem fin_main_v134 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v8 : after (ops (F := F)) W (Proc.devRef .tc main_v8) = val_main_v8 (F := F) x0 x2 x3 x4 x5) :
    after (ops (F := F)) W (Proc.devRef .tc main_v134) = val_main_v134 (F := F) x0 x2 x3 x4 x5 := by
  refine (after_binary hw 158 main_v8 main_v8 main_v134 _ _ _ _ rfl (by decide) (by decide) (by decide) W).trans ?_
  rw [h_main_v8]
  rfl

theorem fin_main_cst_10 (W : Valuation τ sig (Elt F)) :
    after (ops (F := F)) W (Proc.devRef .tc main_cst_10) = val_main_cst_10 (F := F) := by
  refine (after_nullary hw 159 main_cst_10 _ _ rfl (by decide) W).trans ?_
  rfl

theorem fin_main_v135 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v134 : after (ops (F := F)) W (Proc.devRef .tc main_v134) = val_main_v134 (F := F) x0 x2 x3 x4 x5)
    (h_main_cst_10 : after (ops (F := F)) W (Proc.devRef .tc main_cst_10) = val_main_cst_10 (F := F)) :
    after (ops (F := F)) W (Proc.devRef .tc main_v135) = val_main_v135 (F := F) x0 x2 x3 x4 x5 := by
  refine (after_binary hw 160 main_v134 main_cst_10 main_v135 _ _ _ _ rfl (by decide) (by decide) (by decide) W).trans ?_
  rw [h_main_v134, h_main_cst_10]
  rfl

theorem fin_main_v136 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v135 : after (ops (F := F)) W (Proc.devRef .tc main_v135) = val_main_v135 (F := F) x0 x2 x3 x4 x5) :
    after (ops (F := F)) W (Proc.devRef .tc main_v136) = val_main_v136 (F := F) x0 x2 x3 x4 x5 := by
  refine (after_unary hw 161 main_v135 main_v136 _ _ _ rfl (by decide) (by decide) W).trans ?_
  rw [h_main_v135]
  rfl

theorem fin_main_v137 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v136 : after (ops (F := F)) W (Proc.devRef .tc main_v136) = val_main_v136 (F := F) x0 x2 x3 x4 x5) :
    after (ops (F := F)) W (Proc.devRef .tc main_v137) = val_main_v137 (F := F) x0 x2 x3 x4 x5 := by
  refine (after_unary hw 162 main_v136 main_v137 _ _ _ rfl (by decide) (by decide) W).trans ?_
  rw [h_main_v136]
  rfl

theorem fin_main_cst_11 (W : Valuation τ sig (Elt F)) :
    after (ops (F := F)) W (Proc.devRef .tc main_cst_11) = val_main_cst_11 (F := F) := by
  refine (after_nullary hw 163 main_cst_11 _ _ rfl (by decide) W).trans ?_
  rfl

theorem fin_main_v138 (W : Valuation τ sig (Elt F))
    (h_main_cst_11 : after (ops (F := F)) W (Proc.devRef .tc main_cst_11) = val_main_cst_11 (F := F)) :
    after (ops (F := F)) W (Proc.devRef .tc main_v138) = val_main_v138 (F := F) := by
  refine (after_unary hw 164 main_cst_11 main_v138 _ _ _ rfl (by decide) (by decide) W).trans ?_
  rw [h_main_cst_11]
  rfl

theorem fin_main_v139 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v137 : after (ops (F := F)) W (Proc.devRef .tc main_v137) = val_main_v137 (F := F) x0 x2 x3 x4 x5)
    (h_main_v138 : after (ops (F := F)) W (Proc.devRef .tc main_v138) = val_main_v138 (F := F)) :
    after (ops (F := F)) W (Proc.devRef .tc main_v139) = val_main_v139 (F := F) x0 x2 x3 x4 x5 := by
  refine (after_binary hw 165 main_v137 main_v138 main_v139 _ _ _ _ rfl (by decide) (by decide) (by decide) W).trans ?_
  rw [h_main_v137, h_main_v138]
  rfl

theorem fin_main_v140 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v139 : after (ops (F := F)) W (Proc.devRef .tc main_v139) = val_main_v139 (F := F) x0 x2 x3 x4 x5) :
    after (ops (F := F)) W (Proc.devRef .tc main_v140) = val_main_v140 (F := F) x0 x2 x3 x4 x5 := by
  refine (after_unary hw 166 main_v139 main_v140 _ _ _ rfl (by decide) (by decide) W).trans ?_
  rw [h_main_v139]
  rfl

theorem fin_main_v141 (W : Valuation τ sig (Elt F)) (x0 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v8 : after (ops (F := F)) W (Proc.devRef .tc main_v8) = val_main_v8 (F := F) x0 x2 x3 x4 x5)
    (h_main_v140 : after (ops (F := F)) W (Proc.devRef .tc main_v140) = val_main_v140 (F := F) x0 x2 x3 x4 x5) :
    after (ops (F := F)) W (Proc.devRef .tc main_v141) = val_main_v141 (F := F) x0 x2 x3 x4 x5 := by
  refine (after_binary hw 167 main_v8 main_v140 main_v141 _ _ _ _ rfl (by decide) (by decide) (by decide) W).trans ?_
  rw [h_main_v8, h_main_v140]
  rfl

theorem fin_main_v142 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v82 : after (ops (F := F)) W (Proc.devRef .tc main_v82) = val_main_v82 (F := F) x0 x6 x7 x8 x9 x10 x11 x12 x13) :
    after (ops (F := F)) W (Proc.devRef .tc main_v142) = val_main_v142 (F := F) x0 x6 x7 x8 x9 x10 x11 x12 x13 := by
  refine (after_binary hw 168 main_v82 main_v82 main_v142 _ _ _ _ rfl (by decide) (by decide) (by decide) W).trans ?_
  rw [h_main_v82]
  rfl

theorem fin_main_cst_12 (W : Valuation τ sig (Elt F)) :
    after (ops (F := F)) W (Proc.devRef .tc main_cst_12) = val_main_cst_12 (F := F) := by
  refine (after_nullary hw 169 main_cst_12 _ _ rfl (by decide) W).trans ?_
  rfl

theorem fin_main_v143 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v142 : after (ops (F := F)) W (Proc.devRef .tc main_v142) = val_main_v142 (F := F) x0 x6 x7 x8 x9 x10 x11 x12 x13)
    (h_main_cst_12 : after (ops (F := F)) W (Proc.devRef .tc main_cst_12) = val_main_cst_12 (F := F)) :
    after (ops (F := F)) W (Proc.devRef .tc main_v143) = val_main_v143 (F := F) x0 x6 x7 x8 x9 x10 x11 x12 x13 := by
  refine (after_binary hw 170 main_v142 main_cst_12 main_v143 _ _ _ _ rfl (by decide) (by decide) (by decide) W).trans ?_
  rw [h_main_v142, h_main_cst_12]
  rfl

theorem fin_main_v144 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v143 : after (ops (F := F)) W (Proc.devRef .tc main_v143) = val_main_v143 (F := F) x0 x6 x7 x8 x9 x10 x11 x12 x13) :
    after (ops (F := F)) W (Proc.devRef .tc main_v144) = val_main_v144 (F := F) x0 x6 x7 x8 x9 x10 x11 x12 x13 := by
  refine (after_unary hw 171 main_v143 main_v144 _ _ _ rfl (by decide) (by decide) W).trans ?_
  rw [h_main_v143]
  rfl

theorem fin_main_v145 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v144 : after (ops (F := F)) W (Proc.devRef .tc main_v144) = val_main_v144 (F := F) x0 x6 x7 x8 x9 x10 x11 x12 x13) :
    after (ops (F := F)) W (Proc.devRef .tc main_v145) = val_main_v145 (F := F) x0 x6 x7 x8 x9 x10 x11 x12 x13 := by
  refine (after_unary hw 172 main_v144 main_v145 _ _ _ rfl (by decide) (by decide) W).trans ?_
  rw [h_main_v144]
  rfl

theorem fin_main_cst_13 (W : Valuation τ sig (Elt F)) :
    after (ops (F := F)) W (Proc.devRef .tc main_cst_13) = val_main_cst_13 (F := F) := by
  refine (after_nullary hw 173 main_cst_13 _ _ rfl (by decide) W).trans ?_
  rfl

theorem fin_main_v146 (W : Valuation τ sig (Elt F))
    (h_main_cst_13 : after (ops (F := F)) W (Proc.devRef .tc main_cst_13) = val_main_cst_13 (F := F)) :
    after (ops (F := F)) W (Proc.devRef .tc main_v146) = val_main_v146 (F := F) := by
  refine (after_unary hw 174 main_cst_13 main_v146 _ _ _ rfl (by decide) (by decide) W).trans ?_
  rw [h_main_cst_13]
  rfl

theorem fin_main_v147 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v145 : after (ops (F := F)) W (Proc.devRef .tc main_v145) = val_main_v145 (F := F) x0 x6 x7 x8 x9 x10 x11 x12 x13)
    (h_main_v146 : after (ops (F := F)) W (Proc.devRef .tc main_v146) = val_main_v146 (F := F)) :
    after (ops (F := F)) W (Proc.devRef .tc main_v147) = val_main_v147 (F := F) x0 x6 x7 x8 x9 x10 x11 x12 x13 := by
  refine (after_binary hw 175 main_v145 main_v146 main_v147 _ _ _ _ rfl (by decide) (by decide) (by decide) W).trans ?_
  rw [h_main_v145, h_main_v146]
  rfl

theorem fin_main_v148 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v147 : after (ops (F := F)) W (Proc.devRef .tc main_v147) = val_main_v147 (F := F) x0 x6 x7 x8 x9 x10 x11 x12 x13) :
    after (ops (F := F)) W (Proc.devRef .tc main_v148) = val_main_v148 (F := F) x0 x6 x7 x8 x9 x10 x11 x12 x13 := by
  refine (after_unary hw 176 main_v147 main_v148 _ _ _ rfl (by decide) (by decide) W).trans ?_
  rw [h_main_v147]
  rfl

theorem fin_main_v149 (W : Valuation τ sig (Elt F)) (x0 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v82 : after (ops (F := F)) W (Proc.devRef .tc main_v82) = val_main_v82 (F := F) x0 x6 x7 x8 x9 x10 x11 x12 x13)
    (h_main_v148 : after (ops (F := F)) W (Proc.devRef .tc main_v148) = val_main_v148 (F := F) x0 x6 x7 x8 x9 x10 x11 x12 x13) :
    after (ops (F := F)) W (Proc.devRef .tc main_v149) = val_main_v149 (F := F) x0 x6 x7 x8 x9 x10 x11 x12 x13 := by
  refine (after_binary hw 177 main_v82 main_v148 main_v149 _ _ _ _ rfl (by decide) (by decide) (by decide) W).trans ?_
  rw [h_main_v82, h_main_v148]
  rfl

theorem fin_main_v150 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v117 : after (ops (F := F)) W (Proc.devRef .tc main_v117) = val_main_v117 (F := F) x0 x1 x2 x3 x4 x5) :
    after (ops (F := F)) W (Proc.devRef .tc main_v150) = val_main_v150 (F := F) x0 x1 x2 x3 x4 x5 := by
  refine (after_binary hw 178 main_v117 main_v117 main_v150 _ _ _ _ rfl (by decide) (by decide) (by decide) W).trans ?_
  rw [h_main_v117]
  rfl

theorem fin_main_cst_14 (W : Valuation τ sig (Elt F)) :
    after (ops (F := F)) W (Proc.devRef .tc main_cst_14) = val_main_cst_14 (F := F) := by
  refine (after_nullary hw 179 main_cst_14 _ _ rfl (by decide) W).trans ?_
  rfl

theorem fin_main_v151 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v150 : after (ops (F := F)) W (Proc.devRef .tc main_v150) = val_main_v150 (F := F) x0 x1 x2 x3 x4 x5)
    (h_main_cst_14 : after (ops (F := F)) W (Proc.devRef .tc main_cst_14) = val_main_cst_14 (F := F)) :
    after (ops (F := F)) W (Proc.devRef .tc main_v151) = val_main_v151 (F := F) x0 x1 x2 x3 x4 x5 := by
  refine (after_binary hw 180 main_v150 main_cst_14 main_v151 _ _ _ _ rfl (by decide) (by decide) (by decide) W).trans ?_
  rw [h_main_v150, h_main_cst_14]
  rfl

theorem fin_main_v152 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v151 : after (ops (F := F)) W (Proc.devRef .tc main_v151) = val_main_v151 (F := F) x0 x1 x2 x3 x4 x5) :
    after (ops (F := F)) W (Proc.devRef .tc main_v152) = val_main_v152 (F := F) x0 x1 x2 x3 x4 x5 := by
  refine (after_unary hw 181 main_v151 main_v152 _ _ _ rfl (by decide) (by decide) W).trans ?_
  rw [h_main_v151]
  rfl

theorem fin_main_v153 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v152 : after (ops (F := F)) W (Proc.devRef .tc main_v152) = val_main_v152 (F := F) x0 x1 x2 x3 x4 x5) :
    after (ops (F := F)) W (Proc.devRef .tc main_v153) = val_main_v153 (F := F) x0 x1 x2 x3 x4 x5 := by
  refine (after_unary hw 182 main_v152 main_v153 _ _ _ rfl (by decide) (by decide) W).trans ?_
  rw [h_main_v152]
  rfl

theorem fin_main_cst_15 (W : Valuation τ sig (Elt F)) :
    after (ops (F := F)) W (Proc.devRef .tc main_cst_15) = val_main_cst_15 (F := F) := by
  refine (after_nullary hw 183 main_cst_15 _ _ rfl (by decide) W).trans ?_
  rfl

theorem fin_main_v154 (W : Valuation τ sig (Elt F))
    (h_main_cst_15 : after (ops (F := F)) W (Proc.devRef .tc main_cst_15) = val_main_cst_15 (F := F)) :
    after (ops (F := F)) W (Proc.devRef .tc main_v154) = val_main_v154 (F := F) := by
  refine (after_unary hw 184 main_cst_15 main_v154 _ _ _ rfl (by decide) (by decide) W).trans ?_
  rw [h_main_cst_15]
  rfl

theorem fin_main_v155 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v153 : after (ops (F := F)) W (Proc.devRef .tc main_v153) = val_main_v153 (F := F) x0 x1 x2 x3 x4 x5)
    (h_main_v154 : after (ops (F := F)) W (Proc.devRef .tc main_v154) = val_main_v154 (F := F)) :
    after (ops (F := F)) W (Proc.devRef .tc main_v155) = val_main_v155 (F := F) x0 x1 x2 x3 x4 x5 := by
  refine (after_binary hw 185 main_v153 main_v154 main_v155 _ _ _ _ rfl (by decide) (by decide) (by decide) W).trans ?_
  rw [h_main_v153, h_main_v154]
  rfl

theorem fin_main_v156 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v155 : after (ops (F := F)) W (Proc.devRef .tc main_v155) = val_main_v155 (F := F) x0 x1 x2 x3 x4 x5) :
    after (ops (F := F)) W (Proc.devRef .tc main_v156) = val_main_v156 (F := F) x0 x1 x2 x3 x4 x5 := by
  refine (after_unary hw 186 main_v155 main_v156 _ _ _ rfl (by decide) (by decide) W).trans ?_
  rw [h_main_v155]
  rfl

theorem fin_main_v157 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v117 : after (ops (F := F)) W (Proc.devRef .tc main_v117) = val_main_v117 (F := F) x0 x1 x2 x3 x4 x5)
    (h_main_v156 : after (ops (F := F)) W (Proc.devRef .tc main_v156) = val_main_v156 (F := F) x0 x1 x2 x3 x4 x5) :
    after (ops (F := F)) W (Proc.devRef .tc main_v157) = val_main_v157 (F := F) x0 x1 x2 x3 x4 x5 := by
  refine (after_binary hw 187 main_v117 main_v156 main_v157 _ _ _ _ rfl (by decide) (by decide) (by decide) W).trans ?_
  rw [h_main_v117, h_main_v156]
  rfl

theorem fin_main_v158 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v141 : after (ops (F := F)) W (Proc.devRef .tc main_v141) = val_main_v141 (F := F) x0 x2 x3 x4 x5)
    (h_main_v149 : after (ops (F := F)) W (Proc.devRef .tc main_v149) = val_main_v149 (F := F) x0 x6 x7 x8 x9 x10 x11 x12 x13)
    (h_main_v157 : after (ops (F := F)) W (Proc.devRef .tc main_v157) = val_main_v157 (F := F) x0 x1 x2 x3 x4 x5) :
    after (ops (F := F)) W (Proc.devRef .tc main_v158) = val_main_v158 (F := F) x0 x1 x2 x3 x4 x5 x6 x7 x8 x9 x10 x11 x12 x13 := by
  refine (after_nary3 hw 188 main_v141 main_v149 main_v157 main_v158 _ _ _ rfl (by decide) (by decide) (by decide) (by decide) W).trans ?_
  rw [h_main_v141, h_main_v149, h_main_v157]
  rfl

theorem fin_main_v159 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F))
    (h_main_v158 : after (ops (F := F)) W (Proc.devRef .tc main_v158) = val_main_v158 (F := F) x0 x1 x2 x3 x4 x5 x6 x7 x8 x9 x10 x11 x12 x13)
    (h_main_arg14 : after (ops (F := F)) W (Proc.devRef .tc main_arg14) = x14) :
    after (ops (F := F)) W (Proc.devRef .tc main_v159) = val_main_v159 (F := F) x0 x1 x2 x3 x4 x5 x6 x7 x8 x9 x10 x11 x12 x13 x14 := by
  refine (after_binary hw 189 main_v158 main_arg14 main_v159 _ _ _ _ rfl (by decide) (by decide) (by decide) W).trans ?_
  rw [h_main_v158, h_main_arg14]
  rfl

theorem fin_main_v160 (W : Valuation τ sig (Elt F)) (x15 : (⟨S128, .f32⟩ : BufTy).Contents (Elt F))
    (h_main_arg15 : after (ops (F := F)) W (Proc.devRef .tc main_arg15) = x15) :
    after (ops (F := F)) W (Proc.devRef .tc main_v160) = val_main_v160 (F := F) x15 := by
  refine (after_unary hw 190 main_arg15 main_v160 _ _ _ rfl (by decide) (by decide) W).trans ?_
  rw [h_main_arg15]
  rfl

theorem fin_main_v161 (W : Valuation τ sig (Elt F)) (x15 : (⟨S128, .f32⟩ : BufTy).Contents (Elt F))
    (h_main_v160 : after (ops (F := F)) W (Proc.devRef .tc main_v160) = val_main_v160 (F := F) x15) :
    after (ops (F := F)) W (Proc.devRef .tc main_v161) = val_main_v161 (F := F) x15 := by
  refine (after_unary hw 191 main_v160 main_v161 _ _ _ rfl (by decide) (by decide) W).trans ?_
  rw [h_main_v160]
  rfl

theorem fin_main_v162 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v159 : after (ops (F := F)) W (Proc.devRef .tc main_v159) = val_main_v159 (F := F) x0 x1 x2 x3 x4 x5 x6 x7 x8 x9 x10 x11 x12 x13 x14)
    (h_main_v161 : after (ops (F := F)) W (Proc.devRef .tc main_v161) = val_main_v161 (F := F) x15) :
    after (ops (F := F)) W (Proc.devRef .tc main_v162) = val_main_v162 (F := F) x0 x1 x2 x3 x4 x5 x6 x7 x8 x9 x10 x11 x12 x13 x14 x15 := by
  refine (after_binary hw 192 main_v159 main_v161 main_v162 _ _ _ _ rfl (by decide) (by decide) (by decide) W).trans ?_
  rw [h_main_v159, h_main_v161]
  rfl

theorem fin_main_v163 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v17 : after (ops (F := F)) W (Proc.devRef .tc main_v17) = val_main_v17 (F := F) x1 x2 x3 x4 x5) :
    after (ops (F := F)) W (Proc.devRef .tc main_v163) = val_main_v163 (F := F) x1 x2 x3 x4 x5 := by
  refine (after_binary hw 193 main_v17 main_v17 main_v163 _ _ _ _ rfl (by decide) (by decide) (by decide) W).trans ?_
  rw [h_main_v17]
  rfl

theorem fin_main_cst_16 (W : Valuation τ sig (Elt F)) :
    after (ops (F := F)) W (Proc.devRef .tc main_cst_16) = val_main_cst_16 (F := F) := by
  refine (after_nullary hw 194 main_cst_16 _ _ rfl (by decide) W).trans ?_
  rfl

theorem fin_main_v164 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v163 : after (ops (F := F)) W (Proc.devRef .tc main_v163) = val_main_v163 (F := F) x1 x2 x3 x4 x5)
    (h_main_cst_16 : after (ops (F := F)) W (Proc.devRef .tc main_cst_16) = val_main_cst_16 (F := F)) :
    after (ops (F := F)) W (Proc.devRef .tc main_v164) = val_main_v164 (F := F) x1 x2 x3 x4 x5 := by
  refine (after_binary hw 195 main_v163 main_cst_16 main_v164 _ _ _ _ rfl (by decide) (by decide) (by decide) W).trans ?_
  rw [h_main_v163, h_main_cst_16]
  rfl

theorem fin_main_v165 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v164 : after (ops (F := F)) W (Proc.devRef .tc main_v164) = val_main_v164 (F := F) x1 x2 x3 x4 x5) :
    after (ops (F := F)) W (Proc.devRef .tc main_v165) = val_main_v165 (F := F) x1 x2 x3 x4 x5 := by
  refine (after_unary hw 196 main_v164 main_v165 _ _ _ rfl (by decide) (by decide) W).trans ?_
  rw [h_main_v164]
  rfl

theorem fin_main_v166 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v165 : after (ops (F := F)) W (Proc.devRef .tc main_v165) = val_main_v165 (F := F) x1 x2 x3 x4 x5) :
    after (ops (F := F)) W (Proc.devRef .tc main_v166) = val_main_v166 (F := F) x1 x2 x3 x4 x5 := by
  refine (after_unary hw 197 main_v165 main_v166 _ _ _ rfl (by decide) (by decide) W).trans ?_
  rw [h_main_v165]
  rfl

theorem fin_main_cst_17 (W : Valuation τ sig (Elt F)) :
    after (ops (F := F)) W (Proc.devRef .tc main_cst_17) = val_main_cst_17 (F := F) := by
  refine (after_nullary hw 198 main_cst_17 _ _ rfl (by decide) W).trans ?_
  rfl

theorem fin_main_v167 (W : Valuation τ sig (Elt F))
    (h_main_cst_17 : after (ops (F := F)) W (Proc.devRef .tc main_cst_17) = val_main_cst_17 (F := F)) :
    after (ops (F := F)) W (Proc.devRef .tc main_v167) = val_main_v167 (F := F) := by
  refine (after_unary hw 199 main_cst_17 main_v167 _ _ _ rfl (by decide) (by decide) W).trans ?_
  rw [h_main_cst_17]
  rfl

theorem fin_main_v168 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v166 : after (ops (F := F)) W (Proc.devRef .tc main_v166) = val_main_v166 (F := F) x1 x2 x3 x4 x5)
    (h_main_v167 : after (ops (F := F)) W (Proc.devRef .tc main_v167) = val_main_v167 (F := F)) :
    after (ops (F := F)) W (Proc.devRef .tc main_v168) = val_main_v168 (F := F) x1 x2 x3 x4 x5 := by
  refine (after_binary hw 200 main_v166 main_v167 main_v168 _ _ _ _ rfl (by decide) (by decide) (by decide) W).trans ?_
  rw [h_main_v166, h_main_v167]
  rfl

theorem fin_main_v169 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v168 : after (ops (F := F)) W (Proc.devRef .tc main_v168) = val_main_v168 (F := F) x1 x2 x3 x4 x5) :
    after (ops (F := F)) W (Proc.devRef .tc main_v169) = val_main_v169 (F := F) x1 x2 x3 x4 x5 := by
  refine (after_unary hw 201 main_v168 main_v169 _ _ _ rfl (by decide) (by decide) W).trans ?_
  rw [h_main_v168]
  rfl

theorem fin_main_v170 (W : Valuation τ sig (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v17 : after (ops (F := F)) W (Proc.devRef .tc main_v17) = val_main_v17 (F := F) x1 x2 x3 x4 x5)
    (h_main_v169 : after (ops (F := F)) W (Proc.devRef .tc main_v169) = val_main_v169 (F := F) x1 x2 x3 x4 x5) :
    after (ops (F := F)) W (Proc.devRef .tc main_v170) = val_main_v170 (F := F) x1 x2 x3 x4 x5 := by
  refine (after_binary hw 202 main_v17 main_v169 main_v170 _ _ _ _ rfl (by decide) (by decide) (by decide) W).trans ?_
  rw [h_main_v17, h_main_v169]
  rfl

theorem fin_main_v171 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v101 : after (ops (F := F)) W (Proc.devRef .tc main_v101) = val_main_v101 (F := F) x1 x6 x7 x8 x9 x10 x11 x12 x13) :
    after (ops (F := F)) W (Proc.devRef .tc main_v171) = val_main_v171 (F := F) x1 x6 x7 x8 x9 x10 x11 x12 x13 := by
  refine (after_binary hw 203 main_v101 main_v101 main_v171 _ _ _ _ rfl (by decide) (by decide) (by decide) W).trans ?_
  rw [h_main_v101]
  rfl

theorem fin_main_cst_18 (W : Valuation τ sig (Elt F)) :
    after (ops (F := F)) W (Proc.devRef .tc main_cst_18) = val_main_cst_18 (F := F) := by
  refine (after_nullary hw 204 main_cst_18 _ _ rfl (by decide) W).trans ?_
  rfl

theorem fin_main_v172 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v171 : after (ops (F := F)) W (Proc.devRef .tc main_v171) = val_main_v171 (F := F) x1 x6 x7 x8 x9 x10 x11 x12 x13)
    (h_main_cst_18 : after (ops (F := F)) W (Proc.devRef .tc main_cst_18) = val_main_cst_18 (F := F)) :
    after (ops (F := F)) W (Proc.devRef .tc main_v172) = val_main_v172 (F := F) x1 x6 x7 x8 x9 x10 x11 x12 x13 := by
  refine (after_binary hw 205 main_v171 main_cst_18 main_v172 _ _ _ _ rfl (by decide) (by decide) (by decide) W).trans ?_
  rw [h_main_v171, h_main_cst_18]
  rfl

theorem fin_main_v173 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v172 : after (ops (F := F)) W (Proc.devRef .tc main_v172) = val_main_v172 (F := F) x1 x6 x7 x8 x9 x10 x11 x12 x13) :
    after (ops (F := F)) W (Proc.devRef .tc main_v173) = val_main_v173 (F := F) x1 x6 x7 x8 x9 x10 x11 x12 x13 := by
  refine (after_unary hw 206 main_v172 main_v173 _ _ _ rfl (by decide) (by decide) W).trans ?_
  rw [h_main_v172]
  rfl

theorem fin_main_v174 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v173 : after (ops (F := F)) W (Proc.devRef .tc main_v173) = val_main_v173 (F := F) x1 x6 x7 x8 x9 x10 x11 x12 x13) :
    after (ops (F := F)) W (Proc.devRef .tc main_v174) = val_main_v174 (F := F) x1 x6 x7 x8 x9 x10 x11 x12 x13 := by
  refine (after_unary hw 207 main_v173 main_v174 _ _ _ rfl (by decide) (by decide) W).trans ?_
  rw [h_main_v173]
  rfl

end Cert.ReferenceIdeal.RunH

end
-- ==== Proof.RefRunE.lean ====
import proofs.«418941_j65867618451820_3_alg».proof.Proof.RefRunT
import proofs.«418941_j65867618451820_3_alg».proof.Proof.RefRead

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

theorem fin_main_cst_19 (W : Valuation τ sig (Elt F)) :
    after (ops (F := F)) W (Proc.devRef .tc main_cst_19) = val_main_cst_19 (F := F) := by
  refine (after_nullary hw 208 main_cst_19 _ _ rfl (by decide) W).trans ?_
  rfl

theorem fin_main_v175 (W : Valuation τ sig (Elt F))
    (h_main_cst_19 : after (ops (F := F)) W (Proc.devRef .tc main_cst_19) = val_main_cst_19 (F := F)) :
    after (ops (F := F)) W (Proc.devRef .tc main_v175) = val_main_v175 (F := F) := by
  refine (after_unary hw 209 main_cst_19 main_v175 _ _ _ rfl (by decide) (by decide) W).trans ?_
  rw [h_main_cst_19]
  rfl

theorem fin_main_v176 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v174 : after (ops (F := F)) W (Proc.devRef .tc main_v174) = val_main_v174 (F := F) x1 x6 x7 x8 x9 x10 x11 x12 x13)
    (h_main_v175 : after (ops (F := F)) W (Proc.devRef .tc main_v175) = val_main_v175 (F := F)) :
    after (ops (F := F)) W (Proc.devRef .tc main_v176) = val_main_v176 (F := F) x1 x6 x7 x8 x9 x10 x11 x12 x13 := by
  refine (after_binary hw 210 main_v174 main_v175 main_v176 _ _ _ _ rfl (by decide) (by decide) (by decide) W).trans ?_
  rw [h_main_v174, h_main_v175]
  rfl

theorem fin_main_v177 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v176 : after (ops (F := F)) W (Proc.devRef .tc main_v176) = val_main_v176 (F := F) x1 x6 x7 x8 x9 x10 x11 x12 x13) :
    after (ops (F := F)) W (Proc.devRef .tc main_v177) = val_main_v177 (F := F) x1 x6 x7 x8 x9 x10 x11 x12 x13 := by
  refine (after_unary hw 211 main_v176 main_v177 _ _ _ rfl (by decide) (by decide) W).trans ?_
  rw [h_main_v176]
  rfl

theorem fin_main_v178 (W : Valuation τ sig (Elt F)) (x1 : (⟨S256x128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v101 : after (ops (F := F)) W (Proc.devRef .tc main_v101) = val_main_v101 (F := F) x1 x6 x7 x8 x9 x10 x11 x12 x13)
    (h_main_v177 : after (ops (F := F)) W (Proc.devRef .tc main_v177) = val_main_v177 (F := F) x1 x6 x7 x8 x9 x10 x11 x12 x13) :
    after (ops (F := F)) W (Proc.devRef .tc main_v178) = val_main_v178 (F := F) x1 x6 x7 x8 x9 x10 x11 x12 x13 := by
  refine (after_binary hw 212 main_v101 main_v177 main_v178 _ _ _ _ rfl (by decide) (by decide) (by decide) W).trans ?_
  rw [h_main_v101, h_main_v177]
  rfl

theorem fin_main_v179 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v133 : after (ops (F := F)) W (Proc.devRef .tc main_v133) = val_main_v133 (F := F) x0 x1 x2 x3 x4 x5) :
    after (ops (F := F)) W (Proc.devRef .tc main_v179) = val_main_v179 (F := F) x0 x1 x2 x3 x4 x5 := by
  refine (after_binary hw 213 main_v133 main_v133 main_v179 _ _ _ _ rfl (by decide) (by decide) (by decide) W).trans ?_
  rw [h_main_v133]
  rfl

theorem fin_main_cst_20 (W : Valuation τ sig (Elt F)) :
    after (ops (F := F)) W (Proc.devRef .tc main_cst_20) = val_main_cst_20 (F := F) := by
  refine (after_nullary hw 214 main_cst_20 _ _ rfl (by decide) W).trans ?_
  rfl

theorem fin_main_v180 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v179 : after (ops (F := F)) W (Proc.devRef .tc main_v179) = val_main_v179 (F := F) x0 x1 x2 x3 x4 x5)
    (h_main_cst_20 : after (ops (F := F)) W (Proc.devRef .tc main_cst_20) = val_main_cst_20 (F := F)) :
    after (ops (F := F)) W (Proc.devRef .tc main_v180) = val_main_v180 (F := F) x0 x1 x2 x3 x4 x5 := by
  refine (after_binary hw 215 main_v179 main_cst_20 main_v180 _ _ _ _ rfl (by decide) (by decide) (by decide) W).trans ?_
  rw [h_main_v179, h_main_cst_20]
  rfl

theorem fin_main_v181 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v180 : after (ops (F := F)) W (Proc.devRef .tc main_v180) = val_main_v180 (F := F) x0 x1 x2 x3 x4 x5) :
    after (ops (F := F)) W (Proc.devRef .tc main_v181) = val_main_v181 (F := F) x0 x1 x2 x3 x4 x5 := by
  refine (after_unary hw 216 main_v180 main_v181 _ _ _ rfl (by decide) (by decide) W).trans ?_
  rw [h_main_v180]
  rfl

theorem fin_main_v182 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v181 : after (ops (F := F)) W (Proc.devRef .tc main_v181) = val_main_v181 (F := F) x0 x1 x2 x3 x4 x5) :
    after (ops (F := F)) W (Proc.devRef .tc main_v182) = val_main_v182 (F := F) x0 x1 x2 x3 x4 x5 := by
  refine (after_unary hw 217 main_v181 main_v182 _ _ _ rfl (by decide) (by decide) W).trans ?_
  rw [h_main_v181]
  rfl

theorem fin_main_cst_21 (W : Valuation τ sig (Elt F)) :
    after (ops (F := F)) W (Proc.devRef .tc main_cst_21) = val_main_cst_21 (F := F) := by
  refine (after_nullary hw 218 main_cst_21 _ _ rfl (by decide) W).trans ?_
  rfl

theorem fin_main_v183 (W : Valuation τ sig (Elt F))
    (h_main_cst_21 : after (ops (F := F)) W (Proc.devRef .tc main_cst_21) = val_main_cst_21 (F := F)) :
    after (ops (F := F)) W (Proc.devRef .tc main_v183) = val_main_v183 (F := F) := by
  refine (after_unary hw 219 main_cst_21 main_v183 _ _ _ rfl (by decide) (by decide) W).trans ?_
  rw [h_main_cst_21]
  rfl

theorem fin_main_v184 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v182 : after (ops (F := F)) W (Proc.devRef .tc main_v182) = val_main_v182 (F := F) x0 x1 x2 x3 x4 x5)
    (h_main_v183 : after (ops (F := F)) W (Proc.devRef .tc main_v183) = val_main_v183 (F := F)) :
    after (ops (F := F)) W (Proc.devRef .tc main_v184) = val_main_v184 (F := F) x0 x1 x2 x3 x4 x5 := by
  refine (after_binary hw 220 main_v182 main_v183 main_v184 _ _ _ _ rfl (by decide) (by decide) (by decide) W).trans ?_
  rw [h_main_v182, h_main_v183]
  rfl

theorem fin_main_v185 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v184 : after (ops (F := F)) W (Proc.devRef .tc main_v184) = val_main_v184 (F := F) x0 x1 x2 x3 x4 x5) :
    after (ops (F := F)) W (Proc.devRef .tc main_v185) = val_main_v185 (F := F) x0 x1 x2 x3 x4 x5 := by
  refine (after_unary hw 221 main_v184 main_v185 _ _ _ rfl (by decide) (by decide) W).trans ?_
  rw [h_main_v184]
  rfl

theorem fin_main_v186 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F))
    (h_main_v133 : after (ops (F := F)) W (Proc.devRef .tc main_v133) = val_main_v133 (F := F) x0 x1 x2 x3 x4 x5)
    (h_main_v185 : after (ops (F := F)) W (Proc.devRef .tc main_v185) = val_main_v185 (F := F) x0 x1 x2 x3 x4 x5) :
    after (ops (F := F)) W (Proc.devRef .tc main_v186) = val_main_v186 (F := F) x0 x1 x2 x3 x4 x5 := by
  refine (after_binary hw 222 main_v133 main_v185 main_v186 _ _ _ _ rfl (by decide) (by decide) (by decide) W).trans ?_
  rw [h_main_v133, h_main_v185]
  rfl

theorem fin_main_v187 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F))
    (h_main_v170 : after (ops (F := F)) W (Proc.devRef .tc main_v170) = val_main_v170 (F := F) x1 x2 x3 x4 x5)
    (h_main_v178 : after (ops (F := F)) W (Proc.devRef .tc main_v178) = val_main_v178 (F := F) x1 x6 x7 x8 x9 x10 x11 x12 x13)
    (h_main_v186 : after (ops (F := F)) W (Proc.devRef .tc main_v186) = val_main_v186 (F := F) x0 x1 x2 x3 x4 x5) :
    after (ops (F := F)) W (Proc.devRef .tc main_v187) = val_main_v187 (F := F) x0 x1 x2 x3 x4 x5 x6 x7 x8 x9 x10 x11 x12 x13 := by
  refine (after_nary3 hw 223 main_v170 main_v178 main_v186 main_v187 _ _ _ rfl (by decide) (by decide) (by decide) (by decide) W).trans ?_
  rw [h_main_v170, h_main_v178, h_main_v186]
  rfl

theorem fin_main_v188 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F))
    (h_main_v187 : after (ops (F := F)) W (Proc.devRef .tc main_v187) = val_main_v187 (F := F) x0 x1 x2 x3 x4 x5 x6 x7 x8 x9 x10 x11 x12 x13)
    (h_main_arg14 : after (ops (F := F)) W (Proc.devRef .tc main_arg14) = x14) :
    after (ops (F := F)) W (Proc.devRef .tc main_v188) = val_main_v188 (F := F) x0 x1 x2 x3 x4 x5 x6 x7 x8 x9 x10 x11 x12 x13 x14 := by
  refine (after_binary hw 224 main_v187 main_arg14 main_v188 _ _ _ _ rfl (by decide) (by decide) (by decide) W).trans ?_
  rw [h_main_v187, h_main_arg14]
  rfl

theorem fin_main_v189 (W : Valuation τ sig (Elt F)) (x15 : (⟨S128, .f32⟩ : BufTy).Contents (Elt F))
    (h_main_arg15 : after (ops (F := F)) W (Proc.devRef .tc main_arg15) = x15) :
    after (ops (F := F)) W (Proc.devRef .tc main_v189) = val_main_v189 (F := F) x15 := by
  refine (after_unary hw 225 main_arg15 main_v189 _ _ _ rfl (by decide) (by decide) W).trans ?_
  rw [h_main_arg15]
  rfl

theorem fin_main_v190 (W : Valuation τ sig (Elt F)) (x15 : (⟨S128, .f32⟩ : BufTy).Contents (Elt F))
    (h_main_v189 : after (ops (F := F)) W (Proc.devRef .tc main_v189) = val_main_v189 (F := F) x15) :
    after (ops (F := F)) W (Proc.devRef .tc main_v190) = val_main_v190 (F := F) x15 := by
  refine (after_unary hw 226 main_v189 main_v190 _ _ _ rfl (by decide) (by decide) W).trans ?_
  rw [h_main_v189]
  rfl

theorem fin_main_v191 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v188 : after (ops (F := F)) W (Proc.devRef .tc main_v188) = val_main_v188 (F := F) x0 x1 x2 x3 x4 x5 x6 x7 x8 x9 x10 x11 x12 x13 x14)
    (h_main_v190 : after (ops (F := F)) W (Proc.devRef .tc main_v190) = val_main_v190 (F := F) x15) :
    after (ops (F := F)) W (Proc.devRef .tc main_v191) = val_main_v191 (F := F) x0 x1 x2 x3 x4 x5 x6 x7 x8 x9 x10 x11 x12 x13 x14 x15 := by
  refine (after_binary hw 227 main_v188 main_v190 main_v191 _ _ _ _ rfl (by decide) (by decide) (by decide) W).trans ?_
  rw [h_main_v188, h_main_v190]
  rfl

theorem fin_main_cst_22 (W : Valuation τ sig (Elt F)) :
    after (ops (F := F)) W (Proc.devRef .tc main_cst_22) = val_main_cst_22 (F := F) := by
  refine (after_nullary hw 228 main_cst_22 _ _ rfl (by decide) W).trans ?_
  rfl

theorem fin_main_v192 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v162 : after (ops (F := F)) W (Proc.devRef .tc main_v162) = val_main_v162 (F := F) x0 x1 x2 x3 x4 x5 x6 x7 x8 x9 x10 x11 x12 x13 x14 x15)
    (h_main_cst_22 : after (ops (F := F)) W (Proc.devRef .tc main_cst_22) = val_main_cst_22 (F := F)) :
    after (ops (F := F)) W (Proc.devRef .tc main_v192) = val_main_v192 (F := F) x0 x1 x2 x3 x4 x5 x6 x7 x8 x9 x10 x11 x12 x13 x14 x15 := by
  refine (after_binary hw 229 main_v162 main_cst_22 main_v192 _ _ _ _ rfl (by decide) (by decide) (by decide) W).trans ?_
  rw [h_main_v162, h_main_cst_22]
  rfl

theorem fin_main_v193 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v192 : after (ops (F := F)) W (Proc.devRef .tc main_v192) = val_main_v192 (F := F) x0 x1 x2 x3 x4 x5 x6 x7 x8 x9 x10 x11 x12 x13 x14 x15) :
    after (ops (F := F)) W (Proc.devRef .tc main_v193) = val_main_v193 (F := F) x0 x1 x2 x3 x4 x5 x6 x7 x8 x9 x10 x11 x12 x13 x14 x15 := by
  refine (after_unary hw 230 main_v192 main_v193 _ _ _ rfl (by decide) (by decide) W).trans ?_
  rw [h_main_v192]
  rfl

theorem fin_main_cst_23 (W : Valuation τ sig (Elt F)) :
    after (ops (F := F)) W (Proc.devRef .tc main_cst_23) = val_main_cst_23 (F := F) := by
  refine (after_nullary hw 231 main_cst_23 _ _ rfl (by decide) W).trans ?_
  rfl

theorem fin_main_v194 (W : Valuation τ sig (Elt F))
    (h_main_cst_23 : after (ops (F := F)) W (Proc.devRef .tc main_cst_23) = val_main_cst_23 (F := F)) :
    after (ops (F := F)) W (Proc.devRef .tc main_v194) = val_main_v194 (F := F) := by
  refine (after_unary hw 232 main_cst_23 main_v194 _ _ _ rfl (by decide) (by decide) W).trans ?_
  rw [h_main_cst_23]
  rfl

theorem fin_main_v195 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v193 : after (ops (F := F)) W (Proc.devRef .tc main_v193) = val_main_v193 (F := F) x0 x1 x2 x3 x4 x5 x6 x7 x8 x9 x10 x11 x12 x13 x14 x15)
    (h_main_v194 : after (ops (F := F)) W (Proc.devRef .tc main_v194) = val_main_v194 (F := F)) :
    after (ops (F := F)) W (Proc.devRef .tc main_v195) = val_main_v195 (F := F) x0 x1 x2 x3 x4 x5 x6 x7 x8 x9 x10 x11 x12 x13 x14 x15 := by
  refine (after_binary hw 233 main_v193 main_v194 main_v195 _ _ _ _ rfl (by decide) (by decide) (by decide) W).trans ?_
  rw [h_main_v193, h_main_v194]
  rfl

theorem fin_main_v196 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v195 : after (ops (F := F)) W (Proc.devRef .tc main_v195) = val_main_v195 (F := F) x0 x1 x2 x3 x4 x5 x6 x7 x8 x9 x10 x11 x12 x13 x14 x15) :
    after (ops (F := F)) W (Proc.devRef .tc main_v196) = val_main_v196 (F := F) x0 x1 x2 x3 x4 x5 x6 x7 x8 x9 x10 x11 x12 x13 x14 x15 := by
  refine (after_unary hw 234 main_v195 main_v196 _ _ _ rfl (by decide) (by decide) W).trans ?_
  rw [h_main_v195]
  rfl

theorem fin_main_v197 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v162 : after (ops (F := F)) W (Proc.devRef .tc main_v162) = val_main_v162 (F := F) x0 x1 x2 x3 x4 x5 x6 x7 x8 x9 x10 x11 x12 x13 x14 x15)
    (h_main_v196 : after (ops (F := F)) W (Proc.devRef .tc main_v196) = val_main_v196 (F := F) x0 x1 x2 x3 x4 x5 x6 x7 x8 x9 x10 x11 x12 x13 x14 x15) :
    after (ops (F := F)) W (Proc.devRef .tc main_v197) = val_main_v197 (F := F) x0 x1 x2 x3 x4 x5 x6 x7 x8 x9 x10 x11 x12 x13 x14 x15 := by
  refine (after_binary hw 235 main_v162 main_v196 main_v197 _ _ _ _ rfl (by decide) (by decide) (by decide) W).trans ?_
  rw [h_main_v162, h_main_v196]
  rfl

theorem fin_main_v198 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F))
    (h_main_v197 : after (ops (F := F)) W (Proc.devRef .tc main_v197) = val_main_v197 (F := F) x0 x1 x2 x3 x4 x5 x6 x7 x8 x9 x10 x11 x12 x13 x14 x15)
    (h_main_arg16 : after (ops (F := F)) W (Proc.devRef .tc main_arg16) = x16) :
    after (ops (F := F)) W (Proc.devRef .tc main_v198) = val_main_v198 (F := F) x0 x1 x2 x3 x4 x5 x6 x7 x8 x9 x10 x11 x12 x13 x14 x15 x16 := by
  refine (after_binary hw 236 main_v197 main_arg16 main_v198 _ _ _ _ rfl (by decide) (by decide) (by decide) W).trans ?_
  rw [h_main_v197, h_main_arg16]
  rfl

theorem fin_main_v199 (W : Valuation τ sig (Elt F)) (x17 : (⟨S1, .f32⟩ : BufTy).Contents (Elt F))
    (h_main_arg17 : after (ops (F := F)) W (Proc.devRef .tc main_arg17) = x17) :
    after (ops (F := F)) W (Proc.devRef .tc main_v199) = val_main_v199 (F := F) x17 := by
  refine (after_unary hw 237 main_arg17 main_v199 _ _ _ rfl (by decide) (by decide) W).trans ?_
  rw [h_main_arg17]
  rfl

theorem fin_main_v200 (W : Valuation τ sig (Elt F)) (x17 : (⟨S1, .f32⟩ : BufTy).Contents (Elt F))
    (h_main_v199 : after (ops (F := F)) W (Proc.devRef .tc main_v199) = val_main_v199 (F := F) x17) :
    after (ops (F := F)) W (Proc.devRef .tc main_v200) = val_main_v200 (F := F) x17 := by
  refine (after_unary hw 238 main_v199 main_v200 _ _ _ rfl (by decide) (by decide) W).trans ?_
  rw [h_main_v199]
  rfl

theorem fin_main_v201 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v198 : after (ops (F := F)) W (Proc.devRef .tc main_v198) = val_main_v198 (F := F) x0 x1 x2 x3 x4 x5 x6 x7 x8 x9 x10 x11 x12 x13 x14 x15 x16)
    (h_main_v200 : after (ops (F := F)) W (Proc.devRef .tc main_v200) = val_main_v200 (F := F) x17) :
    after (ops (F := F)) W (Proc.devRef .tc main_v201) = val_main_v201 (F := F) x0 x1 x2 x3 x4 x5 x6 x7 x8 x9 x10 x11 x12 x13 x14 x15 x16 x17 := by
  refine (after_binary hw 239 main_v198 main_v200 main_v201 _ _ _ _ rfl (by decide) (by decide) (by decide) W).trans ?_
  rw [h_main_v198, h_main_v200]
  rfl

theorem fin_main_cst_24 (W : Valuation τ sig (Elt F)) :
    after (ops (F := F)) W (Proc.devRef .tc main_cst_24) = val_main_cst_24 (F := F) := by
  refine (after_nullary hw 240 main_cst_24 _ _ rfl (by decide) W).trans ?_
  rfl

theorem fin_main_v202 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v201 : after (ops (F := F)) W (Proc.devRef .tc main_v201) = val_main_v201 (F := F) x0 x1 x2 x3 x4 x5 x6 x7 x8 x9 x10 x11 x12 x13 x14 x15 x16 x17)
    (h_main_cst_24 : after (ops (F := F)) W (Proc.devRef .tc main_cst_24) = val_main_cst_24 (F := F)) :
    after (ops (F := F)) W (Proc.devRef .tc main_v202) = val_main_v202 (F := F) x0 x1 x2 x3 x4 x5 x6 x7 x8 x9 x10 x11 x12 x13 x14 x15 x16 x17 := by
  refine (after_binary hw 241 main_v201 main_cst_24 main_v202 _ _ _ _ rfl (by decide) (by decide) (by decide) W).trans ?_
  rw [h_main_v201, h_main_cst_24]
  rfl

theorem fin_main_cst_25 (W : Valuation τ sig (Elt F)) :
    after (ops (F := F)) W (Proc.devRef .tc main_cst_25) = val_main_cst_25 (F := F) := by
  refine (after_nullary hw 242 main_cst_25 _ _ rfl (by decide) W).trans ?_
  rfl

theorem fin_main_v203 (W : Valuation τ sig (Elt F))
    (h_main_cst_25 : after (ops (F := F)) W (Proc.devRef .tc main_cst_25) = val_main_cst_25 (F := F)) :
    after (ops (F := F)) W (Proc.devRef .tc main_v203) = val_main_v203 (F := F) := by
  refine (after_unary hw 243 main_cst_25 main_v203 _ _ _ rfl (by decide) (by decide) W).trans ?_
  rw [h_main_cst_25]
  rfl

theorem fin_main_v204 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v203 : after (ops (F := F)) W (Proc.devRef .tc main_v203) = val_main_v203 (F := F))
    (h_main_v202 : after (ops (F := F)) W (Proc.devRef .tc main_v202) = val_main_v202 (F := F) x0 x1 x2 x3 x4 x5 x6 x7 x8 x9 x10 x11 x12 x13 x14 x15 x16 x17) :
    after (ops (F := F)) W (Proc.devRef .tc main_v204) = val_main_v204 (F := F) x0 x1 x2 x3 x4 x5 x6 x7 x8 x9 x10 x11 x12 x13 x14 x15 x16 x17 := by
  refine (after_binary hw 244 main_v203 main_v202 main_v204 _ _ _ _ rfl (by decide) (by decide) (by decide) W).trans ?_
  rw [h_main_v203, h_main_v202]
  rfl

theorem fin_main_v205 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v204 : after (ops (F := F)) W (Proc.devRef .tc main_v204) = val_main_v204 (F := F) x0 x1 x2 x3 x4 x5 x6 x7 x8 x9 x10 x11 x12 x13 x14 x15 x16 x17) :
    after (ops (F := F)) W (Proc.devRef .tc main_v205) = val_main_v205 (F := F) x0 x1 x2 x3 x4 x5 x6 x7 x8 x9 x10 x11 x12 x13 x14 x15 x16 x17 := by
  refine (after_unary hw 245 main_v204 main_v205 _ _ _ rfl (by decide) (by decide) W).trans ?_
  rw [h_main_v204]
  rfl

theorem fin_main_v206 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v205 : after (ops (F := F)) W (Proc.devRef .tc main_v205) = val_main_v205 (F := F) x0 x1 x2 x3 x4 x5 x6 x7 x8 x9 x10 x11 x12 x13 x14 x15 x16 x17) :
    after (ops (F := F)) W (Proc.devRef .tc main_v206) = val_main_v206 (F := F) x0 x1 x2 x3 x4 x5 x6 x7 x8 x9 x10 x11 x12 x13 x14 x15 x16 x17 := by
  refine (after_unary hw 246 main_v205 main_v206 _ _ _ rfl (by decide) (by decide) W).trans ?_
  rw [h_main_v205]
  rfl

theorem fin_main_v207 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v201 : after (ops (F := F)) W (Proc.devRef .tc main_v201) = val_main_v201 (F := F) x0 x1 x2 x3 x4 x5 x6 x7 x8 x9 x10 x11 x12 x13 x14 x15 x16 x17)
    (h_main_v206 : after (ops (F := F)) W (Proc.devRef .tc main_v206) = val_main_v206 (F := F) x0 x1 x2 x3 x4 x5 x6 x7 x8 x9 x10 x11 x12 x13 x14 x15 x16 x17) :
    after (ops (F := F)) W (Proc.devRef .tc main_v207) = val_main_v207 (F := F) x0 x1 x2 x3 x4 x5 x6 x7 x8 x9 x10 x11 x12 x13 x14 x15 x16 x17 := by
  refine (after_binary hw 247 main_v201 main_v206 main_v207 _ _ _ _ rfl (by decide) (by decide) (by decide) W).trans ?_
  rw [h_main_v201, h_main_v206]
  rfl

theorem fin_main_v208 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v207 : after (ops (F := F)) W (Proc.devRef .tc main_v207) = val_main_v207 (F := F) x0 x1 x2 x3 x4 x5 x6 x7 x8 x9 x10 x11 x12 x13 x14 x15 x16 x17) :
    after (ops (F := F)) W (Proc.devRef .tc main_v208) = val_main_v208 (F := F) x0 x1 x2 x3 x4 x5 x6 x7 x8 x9 x10 x11 x12 x13 x14 x15 x16 x17 := by
  refine (after_unary hw 248 main_v207 main_v208 _ _ _ rfl (by decide) (by decide) W).trans ?_
  rw [h_main_v207]
  rfl

theorem fin_main_cst_26 (W : Valuation τ sig (Elt F)) :
    after (ops (F := F)) W (Proc.devRef .tc main_cst_26) = val_main_cst_26 (F := F) := by
  refine (after_nullary hw 249 main_cst_26 _ _ rfl (by decide) W).trans ?_
  rfl

theorem fin_main_v209 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v208 : after (ops (F := F)) W (Proc.devRef .tc main_v208) = val_main_v208 (F := F) x0 x1 x2 x3 x4 x5 x6 x7 x8 x9 x10 x11 x12 x13 x14 x15 x16 x17)
    (h_main_cst_26 : after (ops (F := F)) W (Proc.devRef .tc main_cst_26) = val_main_cst_26 (F := F)) :
    after (ops (F := F)) W (Proc.devRef .tc main_v209) = val_main_v209 (F := F) x0 x1 x2 x3 x4 x5 x6 x7 x8 x9 x10 x11 x12 x13 x14 x15 x16 x17 := by
  refine (after_binary hw 250 main_v208 main_cst_26 main_v209 _ _ _ _ rfl (by decide) (by decide) (by decide) W).trans ?_
  rw [h_main_v208, h_main_cst_26]
  rfl

theorem fin_main_v210 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v209 : after (ops (F := F)) W (Proc.devRef .tc main_v209) = val_main_v209 (F := F) x0 x1 x2 x3 x4 x5 x6 x7 x8 x9 x10 x11 x12 x13 x14 x15 x16 x17) :
    after (ops (F := F)) W (Proc.devRef .tc main_v210) = val_main_v210 (F := F) x0 x1 x2 x3 x4 x5 x6 x7 x8 x9 x10 x11 x12 x13 x14 x15 x16 x17 := by
  refine (after_unary hw 251 main_v209 main_v210 _ _ _ rfl (by decide) (by decide) W).trans ?_
  rw [h_main_v209]
  rfl

theorem fin_main_v211 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v210 : after (ops (F := F)) W (Proc.devRef .tc main_v210) = val_main_v210 (F := F) x0 x1 x2 x3 x4 x5 x6 x7 x8 x9 x10 x11 x12 x13 x14 x15 x16 x17) :
    after (ops (F := F)) W (Proc.devRef .tc main_v211) = val_main_v211 (F := F) x0 x1 x2 x3 x4 x5 x6 x7 x8 x9 x10 x11 x12 x13 x14 x15 x16 x17 := by
  refine (after_unary hw 252 main_v210 main_v211 _ _ _ rfl (by decide) (by decide) W).trans ?_
  rw [h_main_v210]
  rfl

theorem fin_main_v212 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v208 : after (ops (F := F)) W (Proc.devRef .tc main_v208) = val_main_v208 (F := F) x0 x1 x2 x3 x4 x5 x6 x7 x8 x9 x10 x11 x12 x13 x14 x15 x16 x17)
    (h_main_v211 : after (ops (F := F)) W (Proc.devRef .tc main_v211) = val_main_v211 (F := F) x0 x1 x2 x3 x4 x5 x6 x7 x8 x9 x10 x11 x12 x13 x14 x15 x16 x17) :
    after (ops (F := F)) W (Proc.devRef .tc main_v212) = val_main_v212 (F := F) x0 x1 x2 x3 x4 x5 x6 x7 x8 x9 x10 x11 x12 x13 x14 x15 x16 x17 := by
  refine (after_binary hw 253 main_v208 main_v211 main_v212 _ _ _ _ rfl (by decide) (by decide) (by decide) W).trans ?_
  rw [h_main_v208, h_main_v211]
  rfl

theorem fin_main_v213 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v212 : after (ops (F := F)) W (Proc.devRef .tc main_v212) = val_main_v212 (F := F) x0 x1 x2 x3 x4 x5 x6 x7 x8 x9 x10 x11 x12 x13 x14 x15 x16 x17) :
    after (ops (F := F)) W (Proc.devRef .tc main_v213) = val_main_v213 (F := F) x0 x1 x2 x3 x4 x5 x6 x7 x8 x9 x10 x11 x12 x13 x14 x15 x16 x17 := by
  refine (after_unary hw 254 main_v212 main_v213 _ _ _ rfl (by decide) (by decide) W).trans ?_
  rw [h_main_v212]
  rfl

theorem fin_main_v214 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v213 : after (ops (F := F)) W (Proc.devRef .tc main_v213) = val_main_v213 (F := F) x0 x1 x2 x3 x4 x5 x6 x7 x8 x9 x10 x11 x12 x13 x14 x15 x16 x17)
    (h_main_v162 : after (ops (F := F)) W (Proc.devRef .tc main_v162) = val_main_v162 (F := F) x0 x1 x2 x3 x4 x5 x6 x7 x8 x9 x10 x11 x12 x13 x14 x15) :
    after (ops (F := F)) W (Proc.devRef .tc main_v214) = val_main_v214 (F := F) x0 x1 x2 x3 x4 x5 x6 x7 x8 x9 x10 x11 x12 x13 x14 x15 x16 x17 := by
  refine (after_binary hw 255 main_v213 main_v162 main_v214 _ _ _ _ rfl (by decide) (by decide) (by decide) W).trans ?_
  rw [h_main_v213, h_main_v162]
  rfl

theorem fin_main_cst_27 (W : Valuation τ sig (Elt F)) :
    after (ops (F := F)) W (Proc.devRef .tc main_cst_27) = val_main_cst_27 (F := F) := by
  refine (after_nullary hw 256 main_cst_27 _ _ rfl (by decide) W).trans ?_
  rfl

theorem fin_main_v215 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v214 : after (ops (F := F)) W (Proc.devRef .tc main_v214) = val_main_v214 (F := F) x0 x1 x2 x3 x4 x5 x6 x7 x8 x9 x10 x11 x12 x13 x14 x15 x16 x17)
    (h_main_cst_27 : after (ops (F := F)) W (Proc.devRef .tc main_cst_27) = val_main_cst_27 (F := F)) :
    after (ops (F := F)) W (Proc.devRef .tc main_v215) = val_main_v215 (F := F) x0 x1 x2 x3 x4 x5 x6 x7 x8 x9 x10 x11 x12 x13 x14 x15 x16 x17 := by
  refine (after_binary hw 257 main_v214 main_cst_27 main_v215 _ _ _ _ rfl (by decide) (by decide) (by decide) W).trans ?_
  rw [h_main_v214, h_main_cst_27]
  rfl

theorem fin_main_v216 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v215 : after (ops (F := F)) W (Proc.devRef .tc main_v215) = val_main_v215 (F := F) x0 x1 x2 x3 x4 x5 x6 x7 x8 x9 x10 x11 x12 x13 x14 x15 x16 x17) :
    after (ops (F := F)) W (Proc.devRef .tc main_v216) = val_main_v216 (F := F) x0 x1 x2 x3 x4 x5 x6 x7 x8 x9 x10 x11 x12 x13 x14 x15 x16 x17 := by
  refine (after_unary hw 258 main_v215 main_v216 _ _ _ rfl (by decide) (by decide) W).trans ?_
  rw [h_main_v215]
  rfl

theorem fin_main_cst_28 (W : Valuation τ sig (Elt F)) :
    after (ops (F := F)) W (Proc.devRef .tc main_cst_28) = val_main_cst_28 (F := F) := by
  refine (after_nullary hw 259 main_cst_28 _ _ rfl (by decide) W).trans ?_
  rfl

end Cert.ReferenceIdeal.RunH

end
-- ==== Proof.RefRunF.lean ====
import proofs.«418941_j65867618451820_3_alg».proof.Proof.RefRunT
import proofs.«418941_j65867618451820_3_alg».proof.Proof.RefRead

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

theorem fin_main_v217 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v191 : after (ops (F := F)) W (Proc.devRef .tc main_v191) = val_main_v191 (F := F) x0 x1 x2 x3 x4 x5 x6 x7 x8 x9 x10 x11 x12 x13 x14 x15)
    (h_main_cst_28 : after (ops (F := F)) W (Proc.devRef .tc main_cst_28) = val_main_cst_28 (F := F)) :
    after (ops (F := F)) W (Proc.devRef .tc main_v217) = val_main_v217 (F := F) x0 x1 x2 x3 x4 x5 x6 x7 x8 x9 x10 x11 x12 x13 x14 x15 := by
  refine (after_binary hw 260 main_v191 main_cst_28 main_v217 _ _ _ _ rfl (by decide) (by decide) (by decide) W).trans ?_
  rw [h_main_v191, h_main_cst_28]
  rfl

theorem fin_main_v218 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v217 : after (ops (F := F)) W (Proc.devRef .tc main_v217) = val_main_v217 (F := F) x0 x1 x2 x3 x4 x5 x6 x7 x8 x9 x10 x11 x12 x13 x14 x15) :
    after (ops (F := F)) W (Proc.devRef .tc main_v218) = val_main_v218 (F := F) x0 x1 x2 x3 x4 x5 x6 x7 x8 x9 x10 x11 x12 x13 x14 x15 := by
  refine (after_unary hw 261 main_v217 main_v218 _ _ _ rfl (by decide) (by decide) W).trans ?_
  rw [h_main_v217]
  rfl

theorem fin_main_cst_29 (W : Valuation τ sig (Elt F)) :
    after (ops (F := F)) W (Proc.devRef .tc main_cst_29) = val_main_cst_29 (F := F) := by
  refine (after_nullary hw 262 main_cst_29 _ _ rfl (by decide) W).trans ?_
  rfl

theorem fin_main_v219 (W : Valuation τ sig (Elt F))
    (h_main_cst_29 : after (ops (F := F)) W (Proc.devRef .tc main_cst_29) = val_main_cst_29 (F := F)) :
    after (ops (F := F)) W (Proc.devRef .tc main_v219) = val_main_v219 (F := F) := by
  refine (after_unary hw 263 main_cst_29 main_v219 _ _ _ rfl (by decide) (by decide) W).trans ?_
  rw [h_main_cst_29]
  rfl

theorem fin_main_v220 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v218 : after (ops (F := F)) W (Proc.devRef .tc main_v218) = val_main_v218 (F := F) x0 x1 x2 x3 x4 x5 x6 x7 x8 x9 x10 x11 x12 x13 x14 x15)
    (h_main_v219 : after (ops (F := F)) W (Proc.devRef .tc main_v219) = val_main_v219 (F := F)) :
    after (ops (F := F)) W (Proc.devRef .tc main_v220) = val_main_v220 (F := F) x0 x1 x2 x3 x4 x5 x6 x7 x8 x9 x10 x11 x12 x13 x14 x15 := by
  refine (after_binary hw 264 main_v218 main_v219 main_v220 _ _ _ _ rfl (by decide) (by decide) (by decide) W).trans ?_
  rw [h_main_v218, h_main_v219]
  rfl

theorem fin_main_v221 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v220 : after (ops (F := F)) W (Proc.devRef .tc main_v220) = val_main_v220 (F := F) x0 x1 x2 x3 x4 x5 x6 x7 x8 x9 x10 x11 x12 x13 x14 x15) :
    after (ops (F := F)) W (Proc.devRef .tc main_v221) = val_main_v221 (F := F) x0 x1 x2 x3 x4 x5 x6 x7 x8 x9 x10 x11 x12 x13 x14 x15 := by
  refine (after_unary hw 265 main_v220 main_v221 _ _ _ rfl (by decide) (by decide) W).trans ?_
  rw [h_main_v220]
  rfl

theorem fin_main_v222 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F))
    (h_main_v191 : after (ops (F := F)) W (Proc.devRef .tc main_v191) = val_main_v191 (F := F) x0 x1 x2 x3 x4 x5 x6 x7 x8 x9 x10 x11 x12 x13 x14 x15)
    (h_main_v221 : after (ops (F := F)) W (Proc.devRef .tc main_v221) = val_main_v221 (F := F) x0 x1 x2 x3 x4 x5 x6 x7 x8 x9 x10 x11 x12 x13 x14 x15) :
    after (ops (F := F)) W (Proc.devRef .tc main_v222) = val_main_v222 (F := F) x0 x1 x2 x3 x4 x5 x6 x7 x8 x9 x10 x11 x12 x13 x14 x15 := by
  refine (after_binary hw 266 main_v191 main_v221 main_v222 _ _ _ _ rfl (by decide) (by decide) (by decide) W).trans ?_
  rw [h_main_v191, h_main_v221]
  rfl

theorem fin_main_v223 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F))
    (h_main_v222 : after (ops (F := F)) W (Proc.devRef .tc main_v222) = val_main_v222 (F := F) x0 x1 x2 x3 x4 x5 x6 x7 x8 x9 x10 x11 x12 x13 x14 x15)
    (h_main_arg16 : after (ops (F := F)) W (Proc.devRef .tc main_arg16) = x16) :
    after (ops (F := F)) W (Proc.devRef .tc main_v223) = val_main_v223 (F := F) x0 x1 x2 x3 x4 x5 x6 x7 x8 x9 x10 x11 x12 x13 x14 x15 x16 := by
  refine (after_binary hw 267 main_v222 main_arg16 main_v223 _ _ _ _ rfl (by decide) (by decide) (by decide) W).trans ?_
  rw [h_main_v222, h_main_arg16]
  rfl

theorem fin_main_v224 (W : Valuation τ sig (Elt F)) (x17 : (⟨S1, .f32⟩ : BufTy).Contents (Elt F))
    (h_main_arg17 : after (ops (F := F)) W (Proc.devRef .tc main_arg17) = x17) :
    after (ops (F := F)) W (Proc.devRef .tc main_v224) = val_main_v224 (F := F) x17 := by
  refine (after_unary hw 268 main_arg17 main_v224 _ _ _ rfl (by decide) (by decide) W).trans ?_
  rw [h_main_arg17]
  rfl

theorem fin_main_v225 (W : Valuation τ sig (Elt F)) (x17 : (⟨S1, .f32⟩ : BufTy).Contents (Elt F))
    (h_main_v224 : after (ops (F := F)) W (Proc.devRef .tc main_v224) = val_main_v224 (F := F) x17) :
    after (ops (F := F)) W (Proc.devRef .tc main_v225) = val_main_v225 (F := F) x17 := by
  refine (after_unary hw 269 main_v224 main_v225 _ _ _ rfl (by decide) (by decide) W).trans ?_
  rw [h_main_v224]
  rfl

theorem fin_main_v226 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v223 : after (ops (F := F)) W (Proc.devRef .tc main_v223) = val_main_v223 (F := F) x0 x1 x2 x3 x4 x5 x6 x7 x8 x9 x10 x11 x12 x13 x14 x15 x16)
    (h_main_v225 : after (ops (F := F)) W (Proc.devRef .tc main_v225) = val_main_v225 (F := F) x17) :
    after (ops (F := F)) W (Proc.devRef .tc main_v226) = val_main_v226 (F := F) x0 x1 x2 x3 x4 x5 x6 x7 x8 x9 x10 x11 x12 x13 x14 x15 x16 x17 := by
  refine (after_binary hw 270 main_v223 main_v225 main_v226 _ _ _ _ rfl (by decide) (by decide) (by decide) W).trans ?_
  rw [h_main_v223, h_main_v225]
  rfl

theorem fin_main_cst_30 (W : Valuation τ sig (Elt F)) :
    after (ops (F := F)) W (Proc.devRef .tc main_cst_30) = val_main_cst_30 (F := F) := by
  refine (after_nullary hw 271 main_cst_30 _ _ rfl (by decide) W).trans ?_
  rfl

theorem fin_main_v227 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v226 : after (ops (F := F)) W (Proc.devRef .tc main_v226) = val_main_v226 (F := F) x0 x1 x2 x3 x4 x5 x6 x7 x8 x9 x10 x11 x12 x13 x14 x15 x16 x17)
    (h_main_cst_30 : after (ops (F := F)) W (Proc.devRef .tc main_cst_30) = val_main_cst_30 (F := F)) :
    after (ops (F := F)) W (Proc.devRef .tc main_v227) = val_main_v227 (F := F) x0 x1 x2 x3 x4 x5 x6 x7 x8 x9 x10 x11 x12 x13 x14 x15 x16 x17 := by
  refine (after_binary hw 272 main_v226 main_cst_30 main_v227 _ _ _ _ rfl (by decide) (by decide) (by decide) W).trans ?_
  rw [h_main_v226, h_main_cst_30]
  rfl

theorem fin_main_cst_31 (W : Valuation τ sig (Elt F)) :
    after (ops (F := F)) W (Proc.devRef .tc main_cst_31) = val_main_cst_31 (F := F) := by
  refine (after_nullary hw 273 main_cst_31 _ _ rfl (by decide) W).trans ?_
  rfl

theorem fin_main_v228 (W : Valuation τ sig (Elt F))
    (h_main_cst_31 : after (ops (F := F)) W (Proc.devRef .tc main_cst_31) = val_main_cst_31 (F := F)) :
    after (ops (F := F)) W (Proc.devRef .tc main_v228) = val_main_v228 (F := F) := by
  refine (after_unary hw 274 main_cst_31 main_v228 _ _ _ rfl (by decide) (by decide) W).trans ?_
  rw [h_main_cst_31]
  rfl

theorem fin_main_v229 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v228 : after (ops (F := F)) W (Proc.devRef .tc main_v228) = val_main_v228 (F := F))
    (h_main_v227 : after (ops (F := F)) W (Proc.devRef .tc main_v227) = val_main_v227 (F := F) x0 x1 x2 x3 x4 x5 x6 x7 x8 x9 x10 x11 x12 x13 x14 x15 x16 x17) :
    after (ops (F := F)) W (Proc.devRef .tc main_v229) = val_main_v229 (F := F) x0 x1 x2 x3 x4 x5 x6 x7 x8 x9 x10 x11 x12 x13 x14 x15 x16 x17 := by
  refine (after_binary hw 275 main_v228 main_v227 main_v229 _ _ _ _ rfl (by decide) (by decide) (by decide) W).trans ?_
  rw [h_main_v228, h_main_v227]
  rfl

theorem fin_main_v230 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v229 : after (ops (F := F)) W (Proc.devRef .tc main_v229) = val_main_v229 (F := F) x0 x1 x2 x3 x4 x5 x6 x7 x8 x9 x10 x11 x12 x13 x14 x15 x16 x17) :
    after (ops (F := F)) W (Proc.devRef .tc main_v230) = val_main_v230 (F := F) x0 x1 x2 x3 x4 x5 x6 x7 x8 x9 x10 x11 x12 x13 x14 x15 x16 x17 := by
  refine (after_unary hw 276 main_v229 main_v230 _ _ _ rfl (by decide) (by decide) W).trans ?_
  rw [h_main_v229]
  rfl

theorem fin_main_v231 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v230 : after (ops (F := F)) W (Proc.devRef .tc main_v230) = val_main_v230 (F := F) x0 x1 x2 x3 x4 x5 x6 x7 x8 x9 x10 x11 x12 x13 x14 x15 x16 x17) :
    after (ops (F := F)) W (Proc.devRef .tc main_v231) = val_main_v231 (F := F) x0 x1 x2 x3 x4 x5 x6 x7 x8 x9 x10 x11 x12 x13 x14 x15 x16 x17 := by
  refine (after_unary hw 277 main_v230 main_v231 _ _ _ rfl (by decide) (by decide) W).trans ?_
  rw [h_main_v230]
  rfl

theorem fin_main_v232 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v226 : after (ops (F := F)) W (Proc.devRef .tc main_v226) = val_main_v226 (F := F) x0 x1 x2 x3 x4 x5 x6 x7 x8 x9 x10 x11 x12 x13 x14 x15 x16 x17)
    (h_main_v231 : after (ops (F := F)) W (Proc.devRef .tc main_v231) = val_main_v231 (F := F) x0 x1 x2 x3 x4 x5 x6 x7 x8 x9 x10 x11 x12 x13 x14 x15 x16 x17) :
    after (ops (F := F)) W (Proc.devRef .tc main_v232) = val_main_v232 (F := F) x0 x1 x2 x3 x4 x5 x6 x7 x8 x9 x10 x11 x12 x13 x14 x15 x16 x17 := by
  refine (after_binary hw 278 main_v226 main_v231 main_v232 _ _ _ _ rfl (by decide) (by decide) (by decide) W).trans ?_
  rw [h_main_v226, h_main_v231]
  rfl

theorem fin_main_v233 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v232 : after (ops (F := F)) W (Proc.devRef .tc main_v232) = val_main_v232 (F := F) x0 x1 x2 x3 x4 x5 x6 x7 x8 x9 x10 x11 x12 x13 x14 x15 x16 x17) :
    after (ops (F := F)) W (Proc.devRef .tc main_v233) = val_main_v233 (F := F) x0 x1 x2 x3 x4 x5 x6 x7 x8 x9 x10 x11 x12 x13 x14 x15 x16 x17 := by
  refine (after_unary hw 279 main_v232 main_v233 _ _ _ rfl (by decide) (by decide) W).trans ?_
  rw [h_main_v232]
  rfl

theorem fin_main_cst_32 (W : Valuation τ sig (Elt F)) :
    after (ops (F := F)) W (Proc.devRef .tc main_cst_32) = val_main_cst_32 (F := F) := by
  refine (after_nullary hw 280 main_cst_32 _ _ rfl (by decide) W).trans ?_
  rfl

theorem fin_main_v234 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v233 : after (ops (F := F)) W (Proc.devRef .tc main_v233) = val_main_v233 (F := F) x0 x1 x2 x3 x4 x5 x6 x7 x8 x9 x10 x11 x12 x13 x14 x15 x16 x17)
    (h_main_cst_32 : after (ops (F := F)) W (Proc.devRef .tc main_cst_32) = val_main_cst_32 (F := F)) :
    after (ops (F := F)) W (Proc.devRef .tc main_v234) = val_main_v234 (F := F) x0 x1 x2 x3 x4 x5 x6 x7 x8 x9 x10 x11 x12 x13 x14 x15 x16 x17 := by
  refine (after_binary hw 281 main_v233 main_cst_32 main_v234 _ _ _ _ rfl (by decide) (by decide) (by decide) W).trans ?_
  rw [h_main_v233, h_main_cst_32]
  rfl

theorem fin_main_v235 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v234 : after (ops (F := F)) W (Proc.devRef .tc main_v234) = val_main_v234 (F := F) x0 x1 x2 x3 x4 x5 x6 x7 x8 x9 x10 x11 x12 x13 x14 x15 x16 x17) :
    after (ops (F := F)) W (Proc.devRef .tc main_v235) = val_main_v235 (F := F) x0 x1 x2 x3 x4 x5 x6 x7 x8 x9 x10 x11 x12 x13 x14 x15 x16 x17 := by
  refine (after_unary hw 282 main_v234 main_v235 _ _ _ rfl (by decide) (by decide) W).trans ?_
  rw [h_main_v234]
  rfl

theorem fin_main_v236 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v235 : after (ops (F := F)) W (Proc.devRef .tc main_v235) = val_main_v235 (F := F) x0 x1 x2 x3 x4 x5 x6 x7 x8 x9 x10 x11 x12 x13 x14 x15 x16 x17) :
    after (ops (F := F)) W (Proc.devRef .tc main_v236) = val_main_v236 (F := F) x0 x1 x2 x3 x4 x5 x6 x7 x8 x9 x10 x11 x12 x13 x14 x15 x16 x17 := by
  refine (after_unary hw 283 main_v235 main_v236 _ _ _ rfl (by decide) (by decide) W).trans ?_
  rw [h_main_v235]
  rfl

theorem fin_main_v237 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v233 : after (ops (F := F)) W (Proc.devRef .tc main_v233) = val_main_v233 (F := F) x0 x1 x2 x3 x4 x5 x6 x7 x8 x9 x10 x11 x12 x13 x14 x15 x16 x17)
    (h_main_v236 : after (ops (F := F)) W (Proc.devRef .tc main_v236) = val_main_v236 (F := F) x0 x1 x2 x3 x4 x5 x6 x7 x8 x9 x10 x11 x12 x13 x14 x15 x16 x17) :
    after (ops (F := F)) W (Proc.devRef .tc main_v237) = val_main_v237 (F := F) x0 x1 x2 x3 x4 x5 x6 x7 x8 x9 x10 x11 x12 x13 x14 x15 x16 x17 := by
  refine (after_binary hw 284 main_v233 main_v236 main_v237 _ _ _ _ rfl (by decide) (by decide) (by decide) W).trans ?_
  rw [h_main_v233, h_main_v236]
  rfl

theorem fin_main_v238 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v237 : after (ops (F := F)) W (Proc.devRef .tc main_v237) = val_main_v237 (F := F) x0 x1 x2 x3 x4 x5 x6 x7 x8 x9 x10 x11 x12 x13 x14 x15 x16 x17) :
    after (ops (F := F)) W (Proc.devRef .tc main_v238) = val_main_v238 (F := F) x0 x1 x2 x3 x4 x5 x6 x7 x8 x9 x10 x11 x12 x13 x14 x15 x16 x17 := by
  refine (after_unary hw 285 main_v237 main_v238 _ _ _ rfl (by decide) (by decide) W).trans ?_
  rw [h_main_v237]
  rfl

theorem fin_main_v239 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v238 : after (ops (F := F)) W (Proc.devRef .tc main_v238) = val_main_v238 (F := F) x0 x1 x2 x3 x4 x5 x6 x7 x8 x9 x10 x11 x12 x13 x14 x15 x16 x17)
    (h_main_v191 : after (ops (F := F)) W (Proc.devRef .tc main_v191) = val_main_v191 (F := F) x0 x1 x2 x3 x4 x5 x6 x7 x8 x9 x10 x11 x12 x13 x14 x15) :
    after (ops (F := F)) W (Proc.devRef .tc main_v239) = val_main_v239 (F := F) x0 x1 x2 x3 x4 x5 x6 x7 x8 x9 x10 x11 x12 x13 x14 x15 x16 x17 := by
  refine (after_binary hw 286 main_v238 main_v191 main_v239 _ _ _ _ rfl (by decide) (by decide) (by decide) W).trans ?_
  rw [h_main_v238, h_main_v191]
  rfl

theorem fin_main_cst_33 (W : Valuation τ sig (Elt F)) :
    after (ops (F := F)) W (Proc.devRef .tc main_cst_33) = val_main_cst_33 (F := F) := by
  refine (after_nullary hw 287 main_cst_33 _ _ rfl (by decide) W).trans ?_
  rfl

theorem fin_main_v240 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v239 : after (ops (F := F)) W (Proc.devRef .tc main_v239) = val_main_v239 (F := F) x0 x1 x2 x3 x4 x5 x6 x7 x8 x9 x10 x11 x12 x13 x14 x15 x16 x17)
    (h_main_cst_33 : after (ops (F := F)) W (Proc.devRef .tc main_cst_33) = val_main_cst_33 (F := F)) :
    after (ops (F := F)) W (Proc.devRef .tc main_v240) = val_main_v240 (F := F) x0 x1 x2 x3 x4 x5 x6 x7 x8 x9 x10 x11 x12 x13 x14 x15 x16 x17 := by
  refine (after_binary hw 288 main_v239 main_cst_33 main_v240 _ _ _ _ rfl (by decide) (by decide) (by decide) W).trans ?_
  rw [h_main_v239, h_main_cst_33]
  rfl

theorem fin_main_v241 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v240 : after (ops (F := F)) W (Proc.devRef .tc main_v240) = val_main_v240 (F := F) x0 x1 x2 x3 x4 x5 x6 x7 x8 x9 x10 x11 x12 x13 x14 x15 x16 x17) :
    after (ops (F := F)) W (Proc.devRef .tc main_v241) = val_main_v241 (F := F) x0 x1 x2 x3 x4 x5 x6 x7 x8 x9 x10 x11 x12 x13 x14 x15 x16 x17 := by
  refine (after_unary hw 289 main_v240 main_v241 _ _ _ rfl (by decide) (by decide) W).trans ?_
  rw [h_main_v240]
  rfl

theorem fin_main_v242 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v216 : after (ops (F := F)) W (Proc.devRef .tc main_v216) = val_main_v216 (F := F) x0 x1 x2 x3 x4 x5 x6 x7 x8 x9 x10 x11 x12 x13 x14 x15 x16 x17)
    (h_main_v241 : after (ops (F := F)) W (Proc.devRef .tc main_v241) = val_main_v241 (F := F) x0 x1 x2 x3 x4 x5 x6 x7 x8 x9 x10 x11 x12 x13 x14 x15 x16 x17) :
    after (ops (F := F)) W (Proc.devRef .tc main_v242) = val_main_v242 (F := F) x0 x1 x2 x3 x4 x5 x6 x7 x8 x9 x10 x11 x12 x13 x14 x15 x16 x17 := by
  refine (after_binary hw 290 main_v216 main_v241 main_v242 _ _ _ _ rfl (by decide) (by decide) (by decide) W).trans ?_
  rw [h_main_v216, h_main_v241]
  rfl

theorem fin_main_cst_34 (W : Valuation τ sig (Elt F)) :
    after (ops (F := F)) W (Proc.devRef .tc main_cst_34) = val_main_cst_34 (F := F) := by
  refine (after_nullary hw 291 main_cst_34 _ _ rfl (by decide) W).trans ?_
  rfl

theorem fin_main_v243 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v242 : after (ops (F := F)) W (Proc.devRef .tc main_v242) = val_main_v242 (F := F) x0 x1 x2 x3 x4 x5 x6 x7 x8 x9 x10 x11 x12 x13 x14 x15 x16 x17)
    (h_main_cst_34 : after (ops (F := F)) W (Proc.devRef .tc main_cst_34) = val_main_cst_34 (F := F)) :
    after (ops (F := F)) W (Proc.devRef .tc main_v243) = val_main_v243 (F := F) x0 x1 x2 x3 x4 x5 x6 x7 x8 x9 x10 x11 x12 x13 x14 x15 x16 x17 := by
  refine (after_binary hw 292 main_v242 main_cst_34 main_v243 _ _ _ _ rfl (by decide) (by decide) (by decide) W).trans ?_
  rw [h_main_v242, h_main_cst_34]
  rfl

theorem fin_main_call6_v0 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v216 : after (ops (F := F)) W (Proc.devRef .tc main_v216) = val_main_v216 (F := F) x0 x1 x2 x3 x4 x5 x6 x7 x8 x9 x10 x11 x12 x13 x14 x15 x16 x17) :
    after (ops (F := F)) W (Proc.devRef .tc main_call6_v0) = val_main_call6_v0 (F := F) x0 x1 x2 x3 x4 x5 x6 x7 x8 x9 x10 x11 x12 x13 x14 x15 x16 x17 := by
  refine (after_binary hw 293 main_v216 main_v216 main_call6_v0 _ _ _ _ rfl (by decide) (by decide) (by decide) W).trans ?_
  rw [h_main_v216]
  rfl

theorem fin_main_call6_cst (W : Valuation τ sig (Elt F)) :
    after (ops (F := F)) W (Proc.devRef .tc main_call6_cst) = val_main_call6_cst (F := F) := by
  refine (after_nullary hw 294 main_call6_cst _ _ rfl (by decide) W).trans ?_
  rfl

theorem fin_main_call6_v1 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_call6_v0 : after (ops (F := F)) W (Proc.devRef .tc main_call6_v0) = val_main_call6_v0 (F := F) x0 x1 x2 x3 x4 x5 x6 x7 x8 x9 x10 x11 x12 x13 x14 x15 x16 x17)
    (h_main_call6_cst : after (ops (F := F)) W (Proc.devRef .tc main_call6_cst) = val_main_call6_cst (F := F)) :
    after (ops (F := F)) W (Proc.devRef .tc main_call6_v1) = val_main_call6_v1 (F := F) x0 x1 x2 x3 x4 x5 x6 x7 x8 x9 x10 x11 x12 x13 x14 x15 x16 x17 := by
  refine (after_binary hw 295 main_call6_v0 main_call6_cst main_call6_v1 _ _ _ _ rfl (by decide) (by decide) (by decide) W).trans ?_
  rw [h_main_call6_v0, h_main_call6_cst]
  rfl

theorem fin_main_v244 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_call6_v1 : after (ops (F := F)) W (Proc.devRef .tc main_call6_v1) = val_main_call6_v1 (F := F) x0 x1 x2 x3 x4 x5 x6 x7 x8 x9 x10 x11 x12 x13 x14 x15 x16 x17) :
    after (ops (F := F)) W (Proc.devRef .tc main_v244) = val_main_v244 (F := F) x0 x1 x2 x3 x4 x5 x6 x7 x8 x9 x10 x11 x12 x13 x14 x15 x16 x17 := by
  refine (after_unary hw 296 main_call6_v1 main_v244 _ _ _ rfl (by decide) (by decide) W).trans ?_
  rw [h_main_call6_v1]
  rfl

theorem fin_main_call7_v0 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v241 : after (ops (F := F)) W (Proc.devRef .tc main_v241) = val_main_v241 (F := F) x0 x1 x2 x3 x4 x5 x6 x7 x8 x9 x10 x11 x12 x13 x14 x15 x16 x17) :
    after (ops (F := F)) W (Proc.devRef .tc main_call7_v0) = val_main_call7_v0 (F := F) x0 x1 x2 x3 x4 x5 x6 x7 x8 x9 x10 x11 x12 x13 x14 x15 x16 x17 := by
  refine (after_binary hw 297 main_v241 main_v241 main_call7_v0 _ _ _ _ rfl (by decide) (by decide) (by decide) W).trans ?_
  rw [h_main_v241]
  rfl

theorem fin_main_call7_cst (W : Valuation τ sig (Elt F)) :
    after (ops (F := F)) W (Proc.devRef .tc main_call7_cst) = val_main_call7_cst (F := F) := by
  refine (after_nullary hw 298 main_call7_cst _ _ rfl (by decide) W).trans ?_
  rfl

theorem fin_main_call7_v1 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_call7_v0 : after (ops (F := F)) W (Proc.devRef .tc main_call7_v0) = val_main_call7_v0 (F := F) x0 x1 x2 x3 x4 x5 x6 x7 x8 x9 x10 x11 x12 x13 x14 x15 x16 x17)
    (h_main_call7_cst : after (ops (F := F)) W (Proc.devRef .tc main_call7_cst) = val_main_call7_cst (F := F)) :
    after (ops (F := F)) W (Proc.devRef .tc main_call7_v1) = val_main_call7_v1 (F := F) x0 x1 x2 x3 x4 x5 x6 x7 x8 x9 x10 x11 x12 x13 x14 x15 x16 x17 := by
  refine (after_binary hw 299 main_call7_v0 main_call7_cst main_call7_v1 _ _ _ _ rfl (by decide) (by decide) (by decide) W).trans ?_
  rw [h_main_call7_v0, h_main_call7_cst]
  rfl

theorem fin_main_v245 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_call7_v1 : after (ops (F := F)) W (Proc.devRef .tc main_call7_v1) = val_main_call7_v1 (F := F) x0 x1 x2 x3 x4 x5 x6 x7 x8 x9 x10 x11 x12 x13 x14 x15 x16 x17) :
    after (ops (F := F)) W (Proc.devRef .tc main_v245) = val_main_v245 (F := F) x0 x1 x2 x3 x4 x5 x6 x7 x8 x9 x10 x11 x12 x13 x14 x15 x16 x17 := by
  refine (after_unary hw 300 main_call7_v1 main_v245 _ _ _ rfl (by decide) (by decide) W).trans ?_
  rw [h_main_call7_v1]
  rfl

theorem fin_main_v246 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v244 : after (ops (F := F)) W (Proc.devRef .tc main_v244) = val_main_v244 (F := F) x0 x1 x2 x3 x4 x5 x6 x7 x8 x9 x10 x11 x12 x13 x14 x15 x16 x17)
    (h_main_v245 : after (ops (F := F)) W (Proc.devRef .tc main_v245) = val_main_v245 (F := F) x0 x1 x2 x3 x4 x5 x6 x7 x8 x9 x10 x11 x12 x13 x14 x15 x16 x17) :
    after (ops (F := F)) W (Proc.devRef .tc main_v246) = val_main_v246 (F := F) x0 x1 x2 x3 x4 x5 x6 x7 x8 x9 x10 x11 x12 x13 x14 x15 x16 x17 := by
  refine (after_binary hw 301 main_v244 main_v245 main_v246 _ _ _ _ rfl (by decide) (by decide) (by decide) W).trans ?_
  rw [h_main_v244, h_main_v245]
  rfl

theorem fin_main_cst_35 (W : Valuation τ sig (Elt F)) :
    after (ops (F := F)) W (Proc.devRef .tc main_cst_35) = val_main_cst_35 (F := F) := by
  refine (after_nullary hw 302 main_cst_35 _ _ rfl (by decide) W).trans ?_
  rfl

theorem fin_main_v247 (W : Valuation τ sig (Elt F))
    (h_main_cst_35 : after (ops (F := F)) W (Proc.devRef .tc main_cst_35) = val_main_cst_35 (F := F)) :
    after (ops (F := F)) W (Proc.devRef .tc main_v247) = val_main_v247 (F := F) := by
  refine (after_unary hw 303 main_cst_35 main_v247 _ _ _ rfl (by decide) (by decide) W).trans ?_
  rw [h_main_cst_35]
  rfl

theorem fin_main_v248 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v246 : after (ops (F := F)) W (Proc.devRef .tc main_v246) = val_main_v246 (F := F) x0 x1 x2 x3 x4 x5 x6 x7 x8 x9 x10 x11 x12 x13 x14 x15 x16 x17)
    (h_main_v247 : after (ops (F := F)) W (Proc.devRef .tc main_v247) = val_main_v247 (F := F)) :
    after (ops (F := F)) W (Proc.devRef .tc main_v248) = val_main_v248 (F := F) x0 x1 x2 x3 x4 x5 x6 x7 x8 x9 x10 x11 x12 x13 x14 x15 x16 x17 := by
  refine (after_binary hw 304 main_v246 main_v247 main_v248 _ _ _ _ rfl (by decide) (by decide) (by decide) W).trans ?_
  rw [h_main_v246, h_main_v247]
  rfl

theorem fin_main_v249 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v243 : after (ops (F := F)) W (Proc.devRef .tc main_v243) = val_main_v243 (F := F) x0 x1 x2 x3 x4 x5 x6 x7 x8 x9 x10 x11 x12 x13 x14 x15 x16 x17)
    (h_main_v248 : after (ops (F := F)) W (Proc.devRef .tc main_v248) = val_main_v248 (F := F) x0 x1 x2 x3 x4 x5 x6 x7 x8 x9 x10 x11 x12 x13 x14 x15 x16 x17) :
    after (ops (F := F)) W (Proc.devRef .tc main_v249) = val_main_v249 (F := F) x0 x1 x2 x3 x4 x5 x6 x7 x8 x9 x10 x11 x12 x13 x14 x15 x16 x17 := by
  refine (after_binary hw 305 main_v243 main_v248 main_v249 _ _ _ _ rfl (by decide) (by decide) (by decide) W).trans ?_
  rw [h_main_v243, h_main_v248]
  rfl

theorem fin_main_cst_36 (W : Valuation τ sig (Elt F)) :
    after (ops (F := F)) W (Proc.devRef .tc main_cst_36) = val_main_cst_36 (F := F) := by
  refine (after_nullary hw 306 main_cst_36 _ _ rfl (by decide) W).trans ?_
  rfl

theorem fin_main_v250 (W : Valuation τ sig (Elt F))
    (h_main_cst_36 : after (ops (F := F)) W (Proc.devRef .tc main_cst_36) = val_main_cst_36 (F := F)) :
    after (ops (F := F)) W (Proc.devRef .tc main_v250) = val_main_v250 (F := F) := by
  refine (after_unary hw 307 main_cst_36 main_v250 _ _ _ rfl (by decide) (by decide) W).trans ?_
  rw [h_main_cst_36]
  rfl

theorem fin_main_v251 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v249 : after (ops (F := F)) W (Proc.devRef .tc main_v249) = val_main_v249 (F := F) x0 x1 x2 x3 x4 x5 x6 x7 x8 x9 x10 x11 x12 x13 x14 x15 x16 x17)
    (h_main_v250 : after (ops (F := F)) W (Proc.devRef .tc main_v250) = val_main_v250 (F := F)) :
    after (ops (F := F)) W (Proc.devRef .tc main_v251) = val_main_v251 (F := F) x0 x1 x2 x3 x4 x5 x6 x7 x8 x9 x10 x11 x12 x13 x14 x15 x16 x17 := by
  refine (after_binary hw 308 main_v249 main_v250 main_v251 _ _ _ _ rfl (by decide) (by decide) (by decide) W).trans ?_
  rw [h_main_v249, h_main_v250]
  rfl

theorem fin_main_cst_37 (W : Valuation τ sig (Elt F)) :
    after (ops (F := F)) W (Proc.devRef .tc main_cst_37) = val_main_cst_37 (F := F) := by
  refine (after_nullary hw 309 main_cst_37 _ _ rfl (by decide) W).trans ?_
  rfl

theorem fin_main_v252 (W : Valuation τ sig (Elt F))
    (h_main_cst_37 : after (ops (F := F)) W (Proc.devRef .tc main_cst_37) = val_main_cst_37 (F := F)) :
    after (ops (F := F)) W (Proc.devRef .tc main_v252) = val_main_v252 (F := F) := by
  refine (after_unary hw 310 main_cst_37 main_v252 _ _ _ rfl (by decide) (by decide) W).trans ?_
  rw [h_main_cst_37]
  rfl

theorem fin_main_v253 (W : Valuation τ sig (Elt F)) (x0 x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_main_v251 : after (ops (F := F)) W (Proc.devRef .tc main_v251) = val_main_v251 (F := F) x0 x1 x2 x3 x4 x5 x6 x7 x8 x9 x10 x11 x12 x13 x14 x15 x16 x17)
    (h_main_v252 : after (ops (F := F)) W (Proc.devRef .tc main_v252) = val_main_v252 (F := F)) :
    after (ops (F := F)) W (Proc.devRef .tc main_v253) = val_main_v253 (F := F) x0 x1 x2 x3 x4 x5 x6 x7 x8 x9 x10 x11 x12 x13 x14 x15 x16 x17 := by
  refine (after_binary hw 311 main_v251 main_v252 main_v253 _ _ _ _ rfl (by decide) (by decide) (by decide) W).trans ?_
  rw [h_main_v251, h_main_v252]
  rfl

end Cert.ReferenceIdeal.RunH

end
-- ==== Proof.RefRunChain.lean ====
import proofs.«418941_j65867618451820_3_alg».proof.Proof.RefRunA
import proofs.«418941_j65867618451820_3_alg».proof.Proof.RefRunB
import proofs.«418941_j65867618451820_3_alg».proof.Proof.RefRunC
import proofs.«418941_j65867618451820_3_alg».proof.Proof.RefRunD
import proofs.«418941_j65867618451820_3_alg».proof.Proof.RefRunE
import proofs.«418941_j65867618451820_3_alg».proof.Proof.RefRunF

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

theorem run_main_arg0 (W : Valuation τ sig (Elt F)) : after (ops (F := F)) W (Proc.devRef .tc main_arg0) = W (Proc.devRef .tc main_arg0) :=
  after_unwritten hw (by decide) W
theorem run_main_arg1 (W : Valuation τ sig (Elt F)) : after (ops (F := F)) W (Proc.devRef .tc main_arg1) = W (Proc.devRef .tc main_arg1) :=
  after_unwritten hw (by decide) W
theorem run_main_arg2 (W : Valuation τ sig (Elt F)) : after (ops (F := F)) W (Proc.devRef .tc main_arg2) = W (Proc.devRef .tc main_arg2) :=
  after_unwritten hw (by decide) W
theorem run_main_arg3 (W : Valuation τ sig (Elt F)) : after (ops (F := F)) W (Proc.devRef .tc main_arg3) = W (Proc.devRef .tc main_arg3) :=
  after_unwritten hw (by decide) W
theorem run_main_arg4 (W : Valuation τ sig (Elt F)) : after (ops (F := F)) W (Proc.devRef .tc main_arg4) = W (Proc.devRef .tc main_arg4) :=
  after_unwritten hw (by decide) W
theorem run_main_arg5 (W : Valuation τ sig (Elt F)) : after (ops (F := F)) W (Proc.devRef .tc main_arg5) = W (Proc.devRef .tc main_arg5) :=
  after_unwritten hw (by decide) W
theorem run_main_arg6 (W : Valuation τ sig (Elt F)) : after (ops (F := F)) W (Proc.devRef .tc main_arg6) = W (Proc.devRef .tc main_arg6) :=
  after_unwritten hw (by decide) W
theorem run_main_arg7 (W : Valuation τ sig (Elt F)) : after (ops (F := F)) W (Proc.devRef .tc main_arg7) = W (Proc.devRef .tc main_arg7) :=
  after_unwritten hw (by decide) W
theorem run_main_arg8 (W : Valuation τ sig (Elt F)) : after (ops (F := F)) W (Proc.devRef .tc main_arg8) = W (Proc.devRef .tc main_arg8) :=
  after_unwritten hw (by decide) W
theorem run_main_arg9 (W : Valuation τ sig (Elt F)) : after (ops (F := F)) W (Proc.devRef .tc main_arg9) = W (Proc.devRef .tc main_arg9) :=
  after_unwritten hw (by decide) W
theorem run_main_arg10 (W : Valuation τ sig (Elt F)) : after (ops (F := F)) W (Proc.devRef .tc main_arg10) = W (Proc.devRef .tc main_arg10) :=
  after_unwritten hw (by decide) W
theorem run_main_arg11 (W : Valuation τ sig (Elt F)) : after (ops (F := F)) W (Proc.devRef .tc main_arg11) = W (Proc.devRef .tc main_arg11) :=
  after_unwritten hw (by decide) W
theorem run_main_arg12 (W : Valuation τ sig (Elt F)) : after (ops (F := F)) W (Proc.devRef .tc main_arg12) = W (Proc.devRef .tc main_arg12) :=
  after_unwritten hw (by decide) W
theorem run_main_arg13 (W : Valuation τ sig (Elt F)) : after (ops (F := F)) W (Proc.devRef .tc main_arg13) = W (Proc.devRef .tc main_arg13) :=
  after_unwritten hw (by decide) W
theorem run_main_arg14 (W : Valuation τ sig (Elt F)) : after (ops (F := F)) W (Proc.devRef .tc main_arg14) = W (Proc.devRef .tc main_arg14) :=
  after_unwritten hw (by decide) W
theorem run_main_arg15 (W : Valuation τ sig (Elt F)) : after (ops (F := F)) W (Proc.devRef .tc main_arg15) = W (Proc.devRef .tc main_arg15) :=
  after_unwritten hw (by decide) W
theorem run_main_arg16 (W : Valuation τ sig (Elt F)) : after (ops (F := F)) W (Proc.devRef .tc main_arg16) = W (Proc.devRef .tc main_arg16) :=
  after_unwritten hw (by decide) W
theorem run_main_arg17 (W : Valuation τ sig (Elt F)) : after (ops (F := F)) W (Proc.devRef .tc main_arg17) = W (Proc.devRef .tc main_arg17) :=
  after_unwritten hw (by decide) W

theorem run_main_v0 (W : Valuation τ sig (Elt F)) :
    after (ops (F := F)) W (Proc.devRef .tc main_v0) = val_main_v0 (F := F) (W (Proc.devRef .tc main_arg0)) (W (Proc.devRef .tc main_arg2)) :=
  fin_main_v0 W (W (Proc.devRef .tc main_arg0)) (W (Proc.devRef .tc main_arg2)) (run_main_arg0 W) (run_main_arg2 W)
theorem run_main_v1 (W : Valuation τ sig (Elt F)) :
    after (ops (F := F)) W (Proc.devRef .tc main_v1) = val_main_v1 (F := F) (W (Proc.devRef .tc main_arg3)) :=
  fin_main_v1 W (W (Proc.devRef .tc main_arg3)) (run_main_arg3 W)
theorem run_main_v2 (W : Valuation τ sig (Elt F)) :
    after (ops (F := F)) W (Proc.devRef .tc main_v2) = val_main_v2 (F := F) (W (Proc.devRef .tc main_arg3)) :=
  fin_main_v2 W (W (Proc.devRef .tc main_arg3)) (run_main_v1 W)
theorem run_main_v3 (W : Valuation τ sig (Elt F)) :
    after (ops (F := F)) W (Proc.devRef .tc main_v3) = val_main_v3 (F := F) (W (Proc.devRef .tc main_arg0)) (W (Proc.devRef .tc main_arg2)) (W (Proc.devRef .tc main_arg3)) :=
  fin_main_v3 W (W (Proc.devRef .tc main_arg0)) (W (Proc.devRef .tc main_arg2)) (W (Proc.devRef .tc main_arg3)) (run_main_v0 W) (run_main_v2 W)
theorem run_main_call0_cst (W : Valuation τ sig (Elt F)) :
    after (ops (F := F)) W (Proc.devRef .tc main_call0_cst) = val_main_call0_cst (F := F) :=
  fin_main_call0_cst W
theorem run_main_call0_v0 (W : Valuation τ sig (Elt F)) :
    after (ops (F := F)) W (Proc.devRef .tc main_call0_v0) = val_main_call0_v0 (F := F) :=
  fin_main_call0_v0 W (run_main_call0_cst W)
theorem run_main_v4 (W : Valuation τ sig (Elt F)) :
    after (ops (F := F)) W (Proc.devRef .tc main_v4) = val_main_v4 (F := F) (W (Proc.devRef .tc main_arg0)) (W (Proc.devRef .tc main_arg2)) (W (Proc.devRef .tc main_arg3)) :=
  fin_main_v4 W (W (Proc.devRef .tc main_arg0)) (W (Proc.devRef .tc main_arg2)) (W (Proc.devRef .tc main_arg3)) (run_main_v3 W) (run_main_call0_v0 W)
theorem run_main_v5 (W : Valuation τ sig (Elt F)) :
    after (ops (F := F)) W (Proc.devRef .tc main_v5) = val_main_v5 (F := F) (W (Proc.devRef .tc main_arg0)) (W (Proc.devRef .tc main_arg2)) (W (Proc.devRef .tc main_arg3)) (W (Proc.devRef .tc main_arg4)) :=
  fin_main_v5 W (W (Proc.devRef .tc main_arg0)) (W (Proc.devRef .tc main_arg2)) (W (Proc.devRef .tc main_arg3)) (W (Proc.devRef .tc main_arg4)) (run_main_v4 W) (run_main_arg4 W)
theorem run_main_v6 (W : Valuation τ sig (Elt F)) :
    after (ops (F := F)) W (Proc.devRef .tc main_v6) = val_main_v6 (F := F) (W (Proc.devRef .tc main_arg5)) :=
  fin_main_v6 W (W (Proc.devRef .tc main_arg5)) (run_main_arg5 W)
theorem run_main_v7 (W : Valuation τ sig (Elt F)) :
    after (ops (F := F)) W (Proc.devRef .tc main_v7) = val_main_v7 (F := F) (W (Proc.devRef .tc main_arg5)) :=
  fin_main_v7 W (W (Proc.devRef .tc main_arg5)) (run_main_v6 W)
theorem run_main_v8 (W : Valuation τ sig (Elt F)) :
    after (ops (F := F)) W (Proc.devRef .tc main_v8) = val_main_v8 (F := F) (W (Proc.devRef .tc main_arg0)) (W (Proc.devRef .tc main_arg2)) (W (Proc.devRef .tc main_arg3)) (W (Proc.devRef .tc main_arg4)) (W (Proc.devRef .tc main_arg5)) :=
  fin_main_v8 W (W (Proc.devRef .tc main_arg0)) (W (Proc.devRef .tc main_arg2)) (W (Proc.devRef .tc main_arg3)) (W (Proc.devRef .tc main_arg4)) (W (Proc.devRef .tc main_arg5)) (run_main_v5 W) (run_main_v7 W)
theorem run_main_v9 (W : Valuation τ sig (Elt F)) :
    after (ops (F := F)) W (Proc.devRef .tc main_v9) = val_main_v9 (F := F) (W (Proc.devRef .tc main_arg1)) (W (Proc.devRef .tc main_arg2)) :=
  fin_main_v9 W (W (Proc.devRef .tc main_arg1)) (W (Proc.devRef .tc main_arg2)) (run_main_arg1 W) (run_main_arg2 W)
theorem run_main_v10 (W : Valuation τ sig (Elt F)) :
    after (ops (F := F)) W (Proc.devRef .tc main_v10) = val_main_v10 (F := F) (W (Proc.devRef .tc main_arg3)) :=
  fin_main_v10 W (W (Proc.devRef .tc main_arg3)) (run_main_arg3 W)
theorem run_main_v11 (W : Valuation τ sig (Elt F)) :
    after (ops (F := F)) W (Proc.devRef .tc main_v11) = val_main_v11 (F := F) (W (Proc.devRef .tc main_arg3)) :=
  fin_main_v11 W (W (Proc.devRef .tc main_arg3)) (run_main_v10 W)
theorem run_main_v12 (W : Valuation τ sig (Elt F)) :
    after (ops (F := F)) W (Proc.devRef .tc main_v12) = val_main_v12 (F := F) (W (Proc.devRef .tc main_arg1)) (W (Proc.devRef .tc main_arg2)) (W (Proc.devRef .tc main_arg3)) :=
  fin_main_v12 W (W (Proc.devRef .tc main_arg1)) (W (Proc.devRef .tc main_arg2)) (W (Proc.devRef .tc main_arg3)) (run_main_v9 W) (run_main_v11 W)
theorem run_main_call1_cst (W : Valuation τ sig (Elt F)) :
    after (ops (F := F)) W (Proc.devRef .tc main_call1_cst) = val_main_call1_cst (F := F) :=
  fin_main_call1_cst W
theorem run_main_call1_v0 (W : Valuation τ sig (Elt F)) :
    after (ops (F := F)) W (Proc.devRef .tc main_call1_v0) = val_main_call1_v0 (F := F) :=
  fin_main_call1_v0 W (run_main_call1_cst W)
theorem run_main_v13 (W : Valuation τ sig (Elt F)) :
    after (ops (F := F)) W (Proc.devRef .tc main_v13) = val_main_v13 (F := F) (W (Proc.devRef .tc main_arg1)) (W (Proc.devRef .tc main_arg2)) (W (Proc.devRef .tc main_arg3)) :=
  fin_main_v13 W (W (Proc.devRef .tc main_arg1)) (W (Proc.devRef .tc main_arg2)) (W (Proc.devRef .tc main_arg3)) (run_main_v12 W) (run_main_call1_v0 W)
theorem run_main_v14 (W : Valuation τ sig (Elt F)) :
    after (ops (F := F)) W (Proc.devRef .tc main_v14) = val_main_v14 (F := F) (W (Proc.devRef .tc main_arg1)) (W (Proc.devRef .tc main_arg2)) (W (Proc.devRef .tc main_arg3)) (W (Proc.devRef .tc main_arg4)) :=
  fin_main_v14 W (W (Proc.devRef .tc main_arg1)) (W (Proc.devRef .tc main_arg2)) (W (Proc.devRef .tc main_arg3)) (W (Proc.devRef .tc main_arg4)) (run_main_v13 W) (run_main_arg4 W)
theorem run_main_v15 (W : Valuation τ sig (Elt F)) :
    after (ops (F := F)) W (Proc.devRef .tc main_v15) = val_main_v15 (F := F) (W (Proc.devRef .tc main_arg5)) :=
  fin_main_v15 W (W (Proc.devRef .tc main_arg5)) (run_main_arg5 W)
theorem run_main_v16 (W : Valuation τ sig (Elt F)) :
    after (ops (F := F)) W (Proc.devRef .tc main_v16) = val_main_v16 (F := F) (W (Proc.devRef .tc main_arg5)) :=
  fin_main_v16 W (W (Proc.devRef .tc main_arg5)) (run_main_v15 W)
theorem run_main_v17 (W : Valuation τ sig (Elt F)) :
    after (ops (F := F)) W (Proc.devRef .tc main_v17) = val_main_v17 (F := F) (W (Proc.devRef .tc main_arg1)) (W (Proc.devRef .tc main_arg2)) (W (Proc.devRef .tc main_arg3)) (W (Proc.devRef .tc main_arg4)) (W (Proc.devRef .tc main_arg5)) :=
  fin_main_v17 W (W (Proc.devRef .tc main_arg1)) (W (Proc.devRef .tc main_arg2)) (W (Proc.devRef .tc main_arg3)) (W (Proc.devRef .tc main_arg4)) (W (Proc.devRef .tc main_arg5)) (run_main_v14 W) (run_main_v16 W)
theorem run_main_v18 (W : Valuation τ sig (Elt F)) :
    after (ops (F := F)) W (Proc.devRef .tc main_v18) = val_main_v18 (F := F) :=
  fin_main_v18 W
theorem run_main_v19 (W : Valuation τ sig (Elt F)) :
    after (ops (F := F)) W (Proc.devRef .tc main_v19) = val_main_v19 (F := F) :=
  fin_main_v19 W
theorem run_main_c (W : Valuation τ sig (Elt F)) :
    after (ops (F := F)) W (Proc.devRef .tc main_c) = val_main_c (F := F) :=
  fin_main_c W
theorem run_main_v20 (W : Valuation τ sig (Elt F)) :
    after (ops (F := F)) W (Proc.devRef .tc main_v20) = val_main_v20 (F := F) :=
  fin_main_v20 W (run_main_c W)
theorem run_main_v21 (W : Valuation τ sig (Elt F)) :
    after (ops (F := F)) W (Proc.devRef .tc main_v21) = val_main_v21 (F := F) :=
  fin_main_v21 W (run_main_v18 W) (run_main_v20 W)
theorem run_main_v22 (W : Valuation τ sig (Elt F)) :
    after (ops (F := F)) W (Proc.devRef .tc main_v22) = val_main_v22 (F := F) :=
  fin_main_v22 W (run_main_v21 W) (run_main_v19 W)
theorem run_main_v23 (W : Valuation τ sig (Elt F)) :
    after (ops (F := F)) W (Proc.devRef .tc main_v23) = val_main_v23 (F := F) :=
  fin_main_v23 W (run_main_v22 W)
theorem run_main_v24 (W : Valuation τ sig (Elt F)) :
    after (ops (F := F)) W (Proc.devRef .tc main_v24) = val_main_v24 (F := F) (W (Proc.devRef .tc main_arg0)) :=
  fin_main_v24 W (W (Proc.devRef .tc main_arg0)) (run_main_arg0 W) (run_main_v23 W)
theorem run_main_v25 (W : Valuation τ sig (Elt F)) :
    after (ops (F := F)) W (Proc.devRef .tc main_v25) = val_main_v25 (F := F) (W (Proc.devRef .tc main_arg0)) :=
  fin_main_v25 W (W (Proc.devRef .tc main_arg0)) (run_main_v24 W)
theorem run_main_v26 (W : Valuation τ sig (Elt F)) :
    after (ops (F := F)) W (Proc.devRef .tc main_v26) = val_main_v26 (F := F) (W (Proc.devRef .tc main_arg0)) :=
  fin_main_v26 W (W (Proc.devRef .tc main_arg0)) (run_main_v25 W)
theorem run_main_v27 (W : Valuation τ sig (Elt F)) :
    after (ops (F := F)) W (Proc.devRef .tc main_v27) = val_main_v27 (F := F) (W (Proc.devRef .tc main_arg0)) :=
  fin_main_v27 W (W (Proc.devRef .tc main_arg0)) (run_main_v24 W)
theorem run_main_v28 (W : Valuation τ sig (Elt F)) :
    after (ops (F := F)) W (Proc.devRef .tc main_v28) = val_main_v28 (F := F) (W (Proc.devRef .tc main_arg0)) :=
  fin_main_v28 W (W (Proc.devRef .tc main_arg0)) (run_main_v27 W)
theorem run_main_v29 (W : Valuation τ sig (Elt F)) :
    after (ops (F := F)) W (Proc.devRef .tc main_v29) = val_main_v29 (F := F) (W (Proc.devRef .tc main_arg0)) :=
  fin_main_v29 W (W (Proc.devRef .tc main_arg0)) (run_main_v26 W) (run_main_v28 W)
theorem run_main_v30 (W : Valuation τ sig (Elt F)) :
    after (ops (F := F)) W (Proc.devRef .tc main_v30) = val_main_v30 (F := F) (W (Proc.devRef .tc main_arg0)) :=
  fin_main_v30 W (W (Proc.devRef .tc main_arg0)) (run_main_v29 W)
theorem run_main_v31 (W : Valuation τ sig (Elt F)) :
    after (ops (F := F)) W (Proc.devRef .tc main_v31) = val_main_v31 (F := F) (W (Proc.devRef .tc main_arg0)) (W (Proc.devRef .tc main_arg6)) :=
  fin_main_v31 W (W (Proc.devRef .tc main_arg0)) (W (Proc.devRef .tc main_arg6)) (run_main_v30 W) (run_main_arg6 W)
theorem run_main_v32 (W : Valuation τ sig (Elt F)) :
    after (ops (F := F)) W (Proc.devRef .tc main_v32) = val_main_v32 (F := F) (W (Proc.devRef .tc main_arg7)) :=
  fin_main_v32 W (W (Proc.devRef .tc main_arg7)) (run_main_arg7 W)
theorem run_main_v33 (W : Valuation τ sig (Elt F)) :
    after (ops (F := F)) W (Proc.devRef .tc main_v33) = val_main_v33 (F := F) (W (Proc.devRef .tc main_arg7)) :=
  fin_main_v33 W (W (Proc.devRef .tc main_arg7)) (run_main_v32 W)
theorem run_main_v34 (W : Valuation τ sig (Elt F)) :
    after (ops (F := F)) W (Proc.devRef .tc main_v34) = val_main_v34 (F := F) (W (Proc.devRef .tc main_arg0)) (W (Proc.devRef .tc main_arg6)) (W (Proc.devRef .tc main_arg7)) :=
  fin_main_v34 W (W (Proc.devRef .tc main_arg0)) (W (Proc.devRef .tc main_arg6)) (W (Proc.devRef .tc main_arg7)) (run_main_v31 W) (run_main_v33 W)
theorem run_main_call2_cst (W : Valuation τ sig (Elt F)) :
    after (ops (F := F)) W (Proc.devRef .tc main_call2_cst) = val_main_call2_cst (F := F) :=
  fin_main_call2_cst W
theorem run_main_call2_v0 (W : Valuation τ sig (Elt F)) :
    after (ops (F := F)) W (Proc.devRef .tc main_call2_v0) = val_main_call2_v0 (F := F) :=
  fin_main_call2_v0 W (run_main_call2_cst W)
theorem run_main_v35 (W : Valuation τ sig (Elt F)) :
    after (ops (F := F)) W (Proc.devRef .tc main_v35) = val_main_v35 (F := F) (W (Proc.devRef .tc main_arg0)) (W (Proc.devRef .tc main_arg6)) (W (Proc.devRef .tc main_arg7)) :=
  fin_main_v35 W (W (Proc.devRef .tc main_arg0)) (W (Proc.devRef .tc main_arg6)) (W (Proc.devRef .tc main_arg7)) (run_main_v34 W) (run_main_call2_v0 W)
theorem run_main_v36 (W : Valuation τ sig (Elt F)) :
    after (ops (F := F)) W (Proc.devRef .tc main_v36) = val_main_v36 (F := F) (W (Proc.devRef .tc main_arg0)) (W (Proc.devRef .tc main_arg6)) (W (Proc.devRef .tc main_arg7)) (W (Proc.devRef .tc main_arg8)) :=
  fin_main_v36 W (W (Proc.devRef .tc main_arg0)) (W (Proc.devRef .tc main_arg6)) (W (Proc.devRef .tc main_arg7)) (W (Proc.devRef .tc main_arg8)) (run_main_v35 W) (run_main_arg8 W)
theorem run_main_v37 (W : Valuation τ sig (Elt F)) :
    after (ops (F := F)) W (Proc.devRef .tc main_v37) = val_main_v37 (F := F) (W (Proc.devRef .tc main_arg9)) :=
  fin_main_v37 W (W (Proc.devRef .tc main_arg9)) (run_main_arg9 W)
theorem run_main_v38 (W : Valuation τ sig (Elt F)) :
    after (ops (F := F)) W (Proc.devRef .tc main_v38) = val_main_v38 (F := F) (W (Proc.devRef .tc main_arg9)) :=
  fin_main_v38 W (W (Proc.devRef .tc main_arg9)) (run_main_v37 W)
theorem run_main_v39 (W : Valuation τ sig (Elt F)) :
    after (ops (F := F)) W (Proc.devRef .tc main_v39) = val_main_v39 (F := F) (W (Proc.devRef .tc main_arg0)) (W (Proc.devRef .tc main_arg6)) (W (Proc.devRef .tc main_arg7)) (W (Proc.devRef .tc main_arg8)) (W (Proc.devRef .tc main_arg9)) :=
  fin_main_v39 W (W (Proc.devRef .tc main_arg0)) (W (Proc.devRef .tc main_arg6)) (W (Proc.devRef .tc main_arg7)) (W (Proc.devRef .tc main_arg8)) (W (Proc.devRef .tc main_arg9)) (run_main_v36 W) (run_main_v38 W)
theorem run_main_v40 (W : Valuation τ sig (Elt F)) :
    after (ops (F := F)) W (Proc.devRef .tc main_v40) = val_main_v40 (F := F) (W (Proc.devRef .tc main_arg0)) (W (Proc.devRef .tc main_arg6)) (W (Proc.devRef .tc main_arg7)) (W (Proc.devRef .tc main_arg8)) (W (Proc.devRef .tc main_arg9)) :=
  fin_main_v40 W (W (Proc.devRef .tc main_arg0)) (W (Proc.devRef .tc main_arg6)) (W (Proc.devRef .tc main_arg7)) (W (Proc.devRef .tc main_arg8)) (W (Proc.devRef .tc main_arg9)) (run_main_v39 W)
theorem run_main_v41 (W : Valuation τ sig (Elt F)) :
    after (ops (F := F)) W (Proc.devRef .tc main_v41) = val_main_v41 (F := F) :=
  fin_main_v41 W
theorem run_main_v42 (W : Valuation τ sig (Elt F)) :
    after (ops (F := F)) W (Proc.devRef .tc main_v42) = val_main_v42 (F := F) :=
  fin_main_v42 W
theorem run_main_c_0 (W : Valuation τ sig (Elt F)) :
    after (ops (F := F)) W (Proc.devRef .tc main_c_0) = val_main_c_0 (F := F) :=
  fin_main_c_0 W
theorem run_main_v43 (W : Valuation τ sig (Elt F)) :
    after (ops (F := F)) W (Proc.devRef .tc main_v43) = val_main_v43 (F := F) :=
  fin_main_v43 W (run_main_c_0 W)
theorem run_main_v44 (W : Valuation τ sig (Elt F)) :
    after (ops (F := F)) W (Proc.devRef .tc main_v44) = val_main_v44 (F := F) :=
  fin_main_v44 W (run_main_v41 W) (run_main_v43 W)
theorem run_main_v45 (W : Valuation τ sig (Elt F)) :
    after (ops (F := F)) W (Proc.devRef .tc main_v45) = val_main_v45 (F := F) :=
  fin_main_v45 W (run_main_v44 W) (run_main_v42 W)
theorem run_main_v46 (W : Valuation τ sig (Elt F)) :
    after (ops (F := F)) W (Proc.devRef .tc main_v46) = val_main_v46 (F := F) :=
  fin_main_v46 W (run_main_v45 W)
theorem run_main_v47 (W : Valuation τ sig (Elt F)) :
    after (ops (F := F)) W (Proc.devRef .tc main_v47) = val_main_v47 (F := F) (W (Proc.devRef .tc main_arg1)) :=
  fin_main_v47 W (W (Proc.devRef .tc main_arg1)) (run_main_arg1 W) (run_main_v46 W)
theorem run_main_v48 (W : Valuation τ sig (Elt F)) :
    after (ops (F := F)) W (Proc.devRef .tc main_v48) = val_main_v48 (F := F) (W (Proc.devRef .tc main_arg1)) :=
  fin_main_v48 W (W (Proc.devRef .tc main_arg1)) (run_main_v47 W)
theorem run_main_v49 (W : Valuation τ sig (Elt F)) :
    after (ops (F := F)) W (Proc.devRef .tc main_v49) = val_main_v49 (F := F) (W (Proc.devRef .tc main_arg1)) :=
  fin_main_v49 W (W (Proc.devRef .tc main_arg1)) (run_main_v48 W)
theorem run_main_v50 (W : Valuation τ sig (Elt F)) :
    after (ops (F := F)) W (Proc.devRef .tc main_v50) = val_main_v50 (F := F) (W (Proc.devRef .tc main_arg1)) :=
  fin_main_v50 W (W (Proc.devRef .tc main_arg1)) (run_main_v47 W)
theorem run_main_v51 (W : Valuation τ sig (Elt F)) :
    after (ops (F := F)) W (Proc.devRef .tc main_v51) = val_main_v51 (F := F) (W (Proc.devRef .tc main_arg1)) :=
  fin_main_v51 W (W (Proc.devRef .tc main_arg1)) (run_main_v50 W)
theorem run_main_v52 (W : Valuation τ sig (Elt F)) :
    after (ops (F := F)) W (Proc.devRef .tc main_v52) = val_main_v52 (F := F) (W (Proc.devRef .tc main_arg1)) :=
  fin_main_v52 W (W (Proc.devRef .tc main_arg1)) (run_main_v49 W) (run_main_v51 W)
theorem run_main_v53 (W : Valuation τ sig (Elt F)) :
    after (ops (F := F)) W (Proc.devRef .tc main_v53) = val_main_v53 (F := F) (W (Proc.devRef .tc main_arg1)) :=
  fin_main_v53 W (W (Proc.devRef .tc main_arg1)) (run_main_v52 W)
theorem run_main_v54 (W : Valuation τ sig (Elt F)) :
    after (ops (F := F)) W (Proc.devRef .tc main_v54) = val_main_v54 (F := F) (W (Proc.devRef .tc main_arg1)) (W (Proc.devRef .tc main_arg6)) :=
  fin_main_v54 W (W (Proc.devRef .tc main_arg1)) (W (Proc.devRef .tc main_arg6)) (run_main_v53 W) (run_main_arg6 W)
theorem run_main_v55 (W : Valuation τ sig (Elt F)) :
    after (ops (F := F)) W (Proc.devRef .tc main_v55) = val_main_v55 (F := F) (W (Proc.devRef .tc main_arg7)) :=
  fin_main_v55 W (W (Proc.devRef .tc main_arg7)) (run_main_arg7 W)
theorem run_main_v56 (W : Valuation τ sig (Elt F)) :
    after (ops (F := F)) W (Proc.devRef .tc main_v56) = val_main_v56 (F := F) (W (Proc.devRef .tc main_arg7)) :=
  fin_main_v56 W (W (Proc.devRef .tc main_arg7)) (run_main_v55 W)
theorem run_main_v57 (W : Valuation τ sig (Elt F)) :
    after (ops (F := F)) W (Proc.devRef .tc main_v57) = val_main_v57 (F := F) (W (Proc.devRef .tc main_arg1)) (W (Proc.devRef .tc main_arg6)) (W (Proc.devRef .tc main_arg7)) :=
  fin_main_v57 W (W (Proc.devRef .tc main_arg1)) (W (Proc.devRef .tc main_arg6)) (W (Proc.devRef .tc main_arg7)) (run_main_v54 W) (run_main_v56 W)
theorem run_main_call3_cst (W : Valuation τ sig (Elt F)) :
    after (ops (F := F)) W (Proc.devRef .tc main_call3_cst) = val_main_call3_cst (F := F) :=
  fin_main_call3_cst W
theorem run_main_call3_v0 (W : Valuation τ sig (Elt F)) :
    after (ops (F := F)) W (Proc.devRef .tc main_call3_v0) = val_main_call3_v0 (F := F) :=
  fin_main_call3_v0 W (run_main_call3_cst W)
theorem run_main_v58 (W : Valuation τ sig (Elt F)) :
    after (ops (F := F)) W (Proc.devRef .tc main_v58) = val_main_v58 (F := F) (W (Proc.devRef .tc main_arg1)) (W (Proc.devRef .tc main_arg6)) (W (Proc.devRef .tc main_arg7)) :=
  fin_main_v58 W (W (Proc.devRef .tc main_arg1)) (W (Proc.devRef .tc main_arg6)) (W (Proc.devRef .tc main_arg7)) (run_main_v57 W) (run_main_call3_v0 W)
theorem run_main_v59 (W : Valuation τ sig (Elt F)) :
    after (ops (F := F)) W (Proc.devRef .tc main_v59) = val_main_v59 (F := F) (W (Proc.devRef .tc main_arg1)) (W (Proc.devRef .tc main_arg6)) (W (Proc.devRef .tc main_arg7)) (W (Proc.devRef .tc main_arg8)) :=
  fin_main_v59 W (W (Proc.devRef .tc main_arg1)) (W (Proc.devRef .tc main_arg6)) (W (Proc.devRef .tc main_arg7)) (W (Proc.devRef .tc main_arg8)) (run_main_v58 W) (run_main_arg8 W)
theorem run_main_v60 (W : Valuation τ sig (Elt F)) :
    after (ops (F := F)) W (Proc.devRef .tc main_v60) = val_main_v60 (F := F) (W (Proc.devRef .tc main_arg9)) :=
  fin_main_v60 W (W (Proc.devRef .tc main_arg9)) (run_main_arg9 W)
theorem run_main_v61 (W : Valuation τ sig (Elt F)) :
    after (ops (F := F)) W (Proc.devRef .tc main_v61) = val_main_v61 (F := F) (W (Proc.devRef .tc main_arg9)) :=
  fin_main_v61 W (W (Proc.devRef .tc main_arg9)) (run_main_v60 W)
theorem run_main_v62 (W : Valuation τ sig (Elt F)) :
    after (ops (F := F)) W (Proc.devRef .tc main_v62) = val_main_v62 (F := F) (W (Proc.devRef .tc main_arg1)) (W (Proc.devRef .tc main_arg6)) (W (Proc.devRef .tc main_arg7)) (W (Proc.devRef .tc main_arg8)) (W (Proc.devRef .tc main_arg9)) :=
  fin_main_v62 W (W (Proc.devRef .tc main_arg1)) (W (Proc.devRef .tc main_arg6)) (W (Proc.devRef .tc main_arg7)) (W (Proc.devRef .tc main_arg8)) (W (Proc.devRef .tc main_arg9)) (run_main_v59 W) (run_main_v61 W)
theorem run_main_v63 (W : Valuation τ sig (Elt F)) :
    after (ops (F := F)) W (Proc.devRef .tc main_v63) = val_main_v63 (F := F) (W (Proc.devRef .tc main_arg1)) (W (Proc.devRef .tc main_arg6)) (W (Proc.devRef .tc main_arg7)) (W (Proc.devRef .tc main_arg8)) (W (Proc.devRef .tc main_arg9)) :=
  fin_main_v63 W (W (Proc.devRef .tc main_arg1)) (W (Proc.devRef .tc main_arg6)) (W (Proc.devRef .tc main_arg7)) (W (Proc.devRef .tc main_arg8)) (W (Proc.devRef .tc main_arg9)) (run_main_v62 W)
theorem run_main_v64 (W : Valuation τ sig (Elt F)) :
    after (ops (F := F)) W (Proc.devRef .tc main_v64) = val_main_v64 (F := F) (W (Proc.devRef .tc main_arg0)) :=
  fin_main_v64 W (W (Proc.devRef .tc main_arg0)) (run_main_arg0 W)
theorem run_main_v65 (W : Valuation τ sig (Elt F)) :
    after (ops (F := F)) W (Proc.devRef .tc main_v65) = val_main_v65 (F := F) (W (Proc.devRef .tc main_arg0)) :=
  fin_main_v65 W (W (Proc.devRef .tc main_arg0)) (run_main_v64 W)
theorem run_main_v66 (W : Valuation τ sig (Elt F)) :
    after (ops (F := F)) W (Proc.devRef .tc main_v66) = val_main_v66 (F := F) (W (Proc.devRef .tc main_arg0)) :=
  fin_main_v66 W (W (Proc.devRef .tc main_arg0)) (run_main_arg0 W)
theorem run_main_v67 (W : Valuation τ sig (Elt F)) :
    after (ops (F := F)) W (Proc.devRef .tc main_v67) = val_main_v67 (F := F) (W (Proc.devRef .tc main_arg0)) :=
  fin_main_v67 W (W (Proc.devRef .tc main_arg0)) (run_main_v66 W)
theorem run_main_v68 (W : Valuation τ sig (Elt F)) :
    after (ops (F := F)) W (Proc.devRef .tc main_v68) = val_main_v68 (F := F) (W (Proc.devRef .tc main_arg0)) (W (Proc.devRef .tc main_arg6)) (W (Proc.devRef .tc main_arg7)) (W (Proc.devRef .tc main_arg8)) (W (Proc.devRef .tc main_arg9)) :=
  fin_main_v68 W (W (Proc.devRef .tc main_arg0)) (W (Proc.devRef .tc main_arg6)) (W (Proc.devRef .tc main_arg7)) (W (Proc.devRef .tc main_arg8)) (W (Proc.devRef .tc main_arg9)) (run_main_v65 W) (run_main_v67 W) (run_main_v40 W)
theorem run_main_v69 (W : Valuation τ sig (Elt F)) :
    after (ops (F := F)) W (Proc.devRef .tc main_v69) = val_main_v69 (F := F) (W (Proc.devRef .tc main_arg0)) (W (Proc.devRef .tc main_arg6)) (W (Proc.devRef .tc main_arg7)) (W (Proc.devRef .tc main_arg8)) (W (Proc.devRef .tc main_arg9)) :=
  fin_main_v69 W (W (Proc.devRef .tc main_arg0)) (W (Proc.devRef .tc main_arg6)) (W (Proc.devRef .tc main_arg7)) (W (Proc.devRef .tc main_arg8)) (W (Proc.devRef .tc main_arg9)) (run_main_v68 W)
theorem run_main_v70 (W : Valuation τ sig (Elt F)) :
    after (ops (F := F)) W (Proc.devRef .tc main_v70) = val_main_v70 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) :=
  fin_main_v70 W (W (Proc.devRef .tc main_arg0)) (W (Proc.devRef .tc main_arg6)) (W (Proc.devRef .tc main_arg7)) (W (Proc.devRef .tc main_arg8)) (W (Proc.devRef .tc main_arg9)) (W (Proc.devRef .tc main_arg10)) (run_main_v69 W) (run_main_arg10 W)
theorem run_main_v71 (W : Valuation τ sig (Elt F)) :
    after (ops (F := F)) W (Proc.devRef .tc main_v71) = val_main_v71 (F := F) (W (Proc.devRef .tc main_arg11)) :=
  fin_main_v71 W (W (Proc.devRef .tc main_arg11)) (run_main_arg11 W)
theorem run_main_v72 (W : Valuation τ sig (Elt F)) :
    after (ops (F := F)) W (Proc.devRef .tc main_v72) = val_main_v72 (F := F) (W (Proc.devRef .tc main_arg11)) :=
  fin_main_v72 W (W (Proc.devRef .tc main_arg11)) (run_main_v71 W)
theorem run_main_v73 (W : Valuation τ sig (Elt F)) :
    after (ops (F := F)) W (Proc.devRef .tc main_v73) = val_main_v73 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  fin_main_v73 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (run_main_v70 W) (run_main_v72 W)
theorem run_main_call4_cst (W : Valuation τ sig (Elt F)) :
    after (ops (F := F)) W (Proc.devRef .tc main_call4_cst) = val_main_call4_cst (F := F) :=
  fin_main_call4_cst W
theorem run_main_call4_v0 (W : Valuation τ sig (Elt F)) :
    after (ops (F := F)) W (Proc.devRef .tc main_call4_v0) = val_main_call4_v0 (F := F) :=
  fin_main_call4_v0 W (run_main_call4_cst W)
theorem run_main_v74 (W : Valuation τ sig (Elt F)) :
    after (ops (F := F)) W (Proc.devRef .tc main_v74) = val_main_v74 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  fin_main_v74 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (run_main_v73 W) (run_main_call4_v0 W)
theorem run_main_v75 (W : Valuation τ sig (Elt F)) :
    after (ops (F := F)) W (Proc.devRef .tc main_v75) = val_main_v75 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) :=
  fin_main_v75 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (run_main_v74 W) (run_main_arg12 W)
theorem run_main_v76 (W : Valuation τ sig (Elt F)) :
    after (ops (F := F)) W (Proc.devRef .tc main_v76) = val_main_v76 (F := F) (W (Proc.devRef .tc main_arg13)) :=
  fin_main_v76 W (W (Proc.devRef .tc main_arg13)) (run_main_arg13 W)
theorem run_main_v77 (W : Valuation τ sig (Elt F)) :
    after (ops (F := F)) W (Proc.devRef .tc main_v77) = val_main_v77 (F := F) (W (Proc.devRef .tc main_arg13)) :=
  fin_main_v77 W (W (Proc.devRef .tc main_arg13)) (run_main_v76 W)
theorem run_main_v78 (W : Valuation τ sig (Elt F)) :
    after (ops (F := F)) W (Proc.devRef .tc main_v78) = val_main_v78 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v78 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v75 W) (run_main_v77 W)
theorem run_main_v79 (W : Valuation τ sig (Elt F)) :
    after (ops (F := F)) W (Proc.devRef .tc main_v79) = val_main_v79 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v79 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v78 W)
theorem run_main_cst (W : Valuation τ sig (Elt F)) :
    after (ops (F := F)) W (Proc.devRef .tc main_cst) = val_main_cst (F := F) :=
  fin_main_cst W
theorem run_main_v80 (W : Valuation τ sig (Elt F)) :
    after (ops (F := F)) W (Proc.devRef .tc main_v80) = val_main_v80 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v80 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v79 W) (run_main_cst W)
theorem run_main_cst_1 (W : Valuation τ sig (Elt F)) :
    after (ops (F := F)) W (Proc.devRef .tc main_cst_1) = val_main_cst_1 (F := F) :=
  fin_main_cst_1 W
theorem run_main_v81 (W : Valuation τ sig (Elt F)) :
    after (ops (F := F)) W (Proc.devRef .tc main_v81) = val_main_v81 (F := F) :=
  fin_main_v81 W (run_main_cst_1 W)
theorem run_main_v82 (W : Valuation τ sig (Elt F)) :
    after (ops (F := F)) W (Proc.devRef .tc main_v82) = val_main_v82 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v82 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v80 W) (run_main_v81 W)
theorem run_main_v83 (W : Valuation τ sig (Elt F)) :
    after (ops (F := F)) W (Proc.devRef .tc main_v83) = val_main_v83 (F := F) (W (Proc.devRef .tc main_arg1)) :=
  fin_main_v83 W (W (Proc.devRef .tc main_arg1)) (run_main_arg1 W)
theorem run_main_v84 (W : Valuation τ sig (Elt F)) :
    after (ops (F := F)) W (Proc.devRef .tc main_v84) = val_main_v84 (F := F) (W (Proc.devRef .tc main_arg1)) :=
  fin_main_v84 W (W (Proc.devRef .tc main_arg1)) (run_main_v83 W)
theorem run_main_v85 (W : Valuation τ sig (Elt F)) :
    after (ops (F := F)) W (Proc.devRef .tc main_v85) = val_main_v85 (F := F) (W (Proc.devRef .tc main_arg1)) :=
  fin_main_v85 W (W (Proc.devRef .tc main_arg1)) (run_main_arg1 W)
theorem run_main_v86 (W : Valuation τ sig (Elt F)) :
    after (ops (F := F)) W (Proc.devRef .tc main_v86) = val_main_v86 (F := F) (W (Proc.devRef .tc main_arg1)) :=
  fin_main_v86 W (W (Proc.devRef .tc main_arg1)) (run_main_v85 W)
theorem run_main_v87 (W : Valuation τ sig (Elt F)) :
    after (ops (F := F)) W (Proc.devRef .tc main_v87) = val_main_v87 (F := F) (W (Proc.devRef .tc main_arg1)) (W (Proc.devRef .tc main_arg6)) (W (Proc.devRef .tc main_arg7)) (W (Proc.devRef .tc main_arg8)) (W (Proc.devRef .tc main_arg9)) :=
  fin_main_v87 W (W (Proc.devRef .tc main_arg1)) (W (Proc.devRef .tc main_arg6)) (W (Proc.devRef .tc main_arg7)) (W (Proc.devRef .tc main_arg8)) (W (Proc.devRef .tc main_arg9)) (run_main_v84 W) (run_main_v86 W) (run_main_v63 W)
theorem run_main_v88 (W : Valuation τ sig (Elt F)) :
    after (ops (F := F)) W (Proc.devRef .tc main_v88) = val_main_v88 (F := F) (W (Proc.devRef .tc main_arg1)) (W (Proc.devRef .tc main_arg6)) (W (Proc.devRef .tc main_arg7)) (W (Proc.devRef .tc main_arg8)) (W (Proc.devRef .tc main_arg9)) :=
  fin_main_v88 W (W (Proc.devRef .tc main_arg1)) (W (Proc.devRef .tc main_arg6)) (W (Proc.devRef .tc main_arg7)) (W (Proc.devRef .tc main_arg8)) (W (Proc.devRef .tc main_arg9)) (run_main_v87 W)
theorem run_main_v89 (W : Valuation τ sig (Elt F)) :
    after (ops (F := F)) W (Proc.devRef .tc main_v89) = val_main_v89 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) :=
  fin_main_v89 W (W (Proc.devRef .tc main_arg1)) (W (Proc.devRef .tc main_arg6)) (W (Proc.devRef .tc main_arg7)) (W (Proc.devRef .tc main_arg8)) (W (Proc.devRef .tc main_arg9)) (W (Proc.devRef .tc main_arg10)) (run_main_v88 W) (run_main_arg10 W)
theorem run_main_v90 (W : Valuation τ sig (Elt F)) :
    after (ops (F := F)) W (Proc.devRef .tc main_v90) = val_main_v90 (F := F) (W (Proc.devRef .tc main_arg11)) :=
  fin_main_v90 W (W (Proc.devRef .tc main_arg11)) (run_main_arg11 W)
theorem run_main_v91 (W : Valuation τ sig (Elt F)) :
    after (ops (F := F)) W (Proc.devRef .tc main_v91) = val_main_v91 (F := F) (W (Proc.devRef .tc main_arg11)) :=
  fin_main_v91 W (W (Proc.devRef .tc main_arg11)) (run_main_v90 W)
theorem run_main_v92 (W : Valuation τ sig (Elt F)) :
    after (ops (F := F)) W (Proc.devRef .tc main_v92) = val_main_v92 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  fin_main_v92 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (run_main_v89 W) (run_main_v91 W)
theorem run_main_call5_cst (W : Valuation τ sig (Elt F)) :
    after (ops (F := F)) W (Proc.devRef .tc main_call5_cst) = val_main_call5_cst (F := F) :=
  fin_main_call5_cst W
theorem run_main_call5_v0 (W : Valuation τ sig (Elt F)) :
    after (ops (F := F)) W (Proc.devRef .tc main_call5_v0) = val_main_call5_v0 (F := F) :=
  fin_main_call5_v0 W (run_main_call5_cst W)
theorem run_main_v93 (W : Valuation τ sig (Elt F)) :
    after (ops (F := F)) W (Proc.devRef .tc main_v93) = val_main_v93 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) :=
  fin_main_v93 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (run_main_v92 W) (run_main_call5_v0 W)
theorem run_main_v94 (W : Valuation τ sig (Elt F)) :
    after (ops (F := F)) W (Proc.devRef .tc main_v94) = val_main_v94 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) :=
  fin_main_v94 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (run_main_v93 W) (run_main_arg12 W)
theorem run_main_v95 (W : Valuation τ sig (Elt F)) :
    after (ops (F := F)) W (Proc.devRef .tc main_v95) = val_main_v95 (F := F) (W (Proc.devRef .tc main_arg13)) :=
  fin_main_v95 W (W (Proc.devRef .tc main_arg13)) (run_main_arg13 W)
theorem run_main_v96 (W : Valuation τ sig (Elt F)) :
    after (ops (F := F)) W (Proc.devRef .tc main_v96) = val_main_v96 (F := F) (W (Proc.devRef .tc main_arg13)) :=
  fin_main_v96 W (W (Proc.devRef .tc main_arg13)) (run_main_v95 W)
theorem run_main_v97 (W : Valuation τ sig (Elt F)) :
    after (ops (F := F)) W (Proc.devRef .tc main_v97) = val_main_v97 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v97 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v94 W) (run_main_v96 W)
theorem run_main_v98 (W : Valuation τ sig (Elt F)) :
    after (ops (F := F)) W (Proc.devRef .tc main_v98) = val_main_v98 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v98 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v97 W)
theorem run_main_cst_2 (W : Valuation τ sig (Elt F)) :
    after (ops (F := F)) W (Proc.devRef .tc main_cst_2) = val_main_cst_2 (F := F) :=
  fin_main_cst_2 W
theorem run_main_v99 (W : Valuation τ sig (Elt F)) :
    after (ops (F := F)) W (Proc.devRef .tc main_v99) = val_main_v99 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v99 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v98 W) (run_main_cst_2 W)
theorem run_main_cst_3 (W : Valuation τ sig (Elt F)) :
    after (ops (F := F)) W (Proc.devRef .tc main_cst_3) = val_main_cst_3 (F := F) :=
  fin_main_cst_3 W
theorem run_main_v100 (W : Valuation τ sig (Elt F)) :
    after (ops (F := F)) W (Proc.devRef .tc main_v100) = val_main_v100 (F := F) :=
  fin_main_v100 W (run_main_cst_3 W)
theorem run_main_v101 (W : Valuation τ sig (Elt F)) :
    after (ops (F := F)) W (Proc.devRef .tc main_v101) = val_main_v101 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v101 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v99 W) (run_main_v100 W)
theorem run_main_v102 (W : Valuation τ sig (Elt F)) :
    after (ops (F := F)) W (Proc.devRef .tc main_v102) = val_main_v102 (F := F) (W (Proc.devRef .tc main_arg0)) (W (Proc.devRef .tc main_arg2)) (W (Proc.devRef .tc main_arg3)) (W (Proc.devRef .tc main_arg4)) (W (Proc.devRef .tc main_arg5)) :=
  fin_main_v102 W (W (Proc.devRef .tc main_arg0)) (W (Proc.devRef .tc main_arg2)) (W (Proc.devRef .tc main_arg3)) (W (Proc.devRef .tc main_arg4)) (W (Proc.devRef .tc main_arg5)) (run_main_v8 W)
theorem run_main_v103 (W : Valuation τ sig (Elt F)) :
    after (ops (F := F)) W (Proc.devRef .tc main_v103) = val_main_v103 (F := F) (W (Proc.devRef .tc main_arg1)) (W (Proc.devRef .tc main_arg2)) (W (Proc.devRef .tc main_arg3)) (W (Proc.devRef .tc main_arg4)) (W (Proc.devRef .tc main_arg5)) :=
  fin_main_v103 W (W (Proc.devRef .tc main_arg1)) (W (Proc.devRef .tc main_arg2)) (W (Proc.devRef .tc main_arg3)) (W (Proc.devRef .tc main_arg4)) (W (Proc.devRef .tc main_arg5)) (run_main_v17 W)
theorem run_main_v104 (W : Valuation τ sig (Elt F)) :
    after (ops (F := F)) W (Proc.devRef .tc main_v104) = val_main_v104 (F := F) (W (Proc.devRef .tc main_arg0)) (W (Proc.devRef .tc main_arg2)) (W (Proc.devRef .tc main_arg3)) (W (Proc.devRef .tc main_arg4)) (W (Proc.devRef .tc main_arg5)) :=
  fin_main_v104 W (W (Proc.devRef .tc main_arg0)) (W (Proc.devRef .tc main_arg2)) (W (Proc.devRef .tc main_arg3)) (W (Proc.devRef .tc main_arg4)) (W (Proc.devRef .tc main_arg5)) (run_main_v102 W)
theorem run_main_v105 (W : Valuation τ sig (Elt F)) :
    after (ops (F := F)) W (Proc.devRef .tc main_v105) = val_main_v105 (F := F) (W (Proc.devRef .tc main_arg1)) (W (Proc.devRef .tc main_arg2)) (W (Proc.devRef .tc main_arg3)) (W (Proc.devRef .tc main_arg4)) (W (Proc.devRef .tc main_arg5)) :=
  fin_main_v105 W (W (Proc.devRef .tc main_arg1)) (W (Proc.devRef .tc main_arg2)) (W (Proc.devRef .tc main_arg3)) (W (Proc.devRef .tc main_arg4)) (W (Proc.devRef .tc main_arg5)) (run_main_v103 W)
theorem run_main_v106 (W : Valuation τ sig (Elt F)) :
    after (ops (F := F)) W (Proc.devRef .tc main_v106) = val_main_v106 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v106 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v104 W) (run_main_v105 W)
theorem run_main_v107 (W : Valuation τ sig (Elt F)) :
    after (ops (F := F)) W (Proc.devRef .tc main_v107) = val_main_v107 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v107 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v106 W)
theorem run_main_cst_4 (W : Valuation τ sig (Elt F)) :
    after (ops (F := F)) W (Proc.devRef .tc main_cst_4) = val_main_cst_4 (F := F) :=
  fin_main_cst_4 W
theorem run_main_v108 (W : Valuation τ sig (Elt F)) :
    after (ops (F := F)) W (Proc.devRef .tc main_v108) = val_main_v108 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v108 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v106 W) (run_main_cst_4 W)
theorem run_main_v109 (W : Valuation τ sig (Elt F)) :
    after (ops (F := F)) W (Proc.devRef .tc main_v109) = val_main_v109 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v109 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v108 W)
theorem run_main_v110 (W : Valuation τ sig (Elt F)) :
    after (ops (F := F)) W (Proc.devRef .tc main_v110) = val_main_v110 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v110 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v109 W)
theorem run_main_v111 (W : Valuation τ sig (Elt F)) :
    after (ops (F := F)) W (Proc.devRef .tc main_v111) = val_main_v111 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v111 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v107 W) (run_main_v110 W)
theorem run_main_v112 (W : Valuation τ sig (Elt F)) :
    after (ops (F := F)) W (Proc.devRef .tc main_v112) = val_main_v112 (F := F) (W (Proc.devRef .tc main_arg1)) (W (Proc.devRef .tc main_arg2)) (W (Proc.devRef .tc main_arg3)) (W (Proc.devRef .tc main_arg4)) (W (Proc.devRef .tc main_arg5)) :=
  fin_main_v112 W (W (Proc.devRef .tc main_arg1)) (W (Proc.devRef .tc main_arg2)) (W (Proc.devRef .tc main_arg3)) (W (Proc.devRef .tc main_arg4)) (W (Proc.devRef .tc main_arg5)) (run_main_v17 W)
theorem run_main_v113 (W : Valuation τ sig (Elt F)) :
    after (ops (F := F)) W (Proc.devRef .tc main_v113) = val_main_v113 (F := F) (W (Proc.devRef .tc main_arg1)) (W (Proc.devRef .tc main_arg2)) (W (Proc.devRef .tc main_arg3)) (W (Proc.devRef .tc main_arg4)) (W (Proc.devRef .tc main_arg5)) :=
  fin_main_v113 W (W (Proc.devRef .tc main_arg1)) (W (Proc.devRef .tc main_arg2)) (W (Proc.devRef .tc main_arg3)) (W (Proc.devRef .tc main_arg4)) (W (Proc.devRef .tc main_arg5)) (run_main_v112 W)
theorem run_main_v114 (W : Valuation τ sig (Elt F)) :
    after (ops (F := F)) W (Proc.devRef .tc main_v114) = val_main_v114 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v114 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v113 W) (run_main_v111 W)
theorem run_main_cst_5 (W : Valuation τ sig (Elt F)) :
    after (ops (F := F)) W (Proc.devRef .tc main_cst_5) = val_main_cst_5 (F := F) :=
  fin_main_cst_5 W
theorem run_main_v115 (W : Valuation τ sig (Elt F)) :
    after (ops (F := F)) W (Proc.devRef .tc main_v115) = val_main_v115 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v115 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v114 W) (run_main_cst_5 W)
theorem run_main_cst_6 (W : Valuation τ sig (Elt F)) :
    after (ops (F := F)) W (Proc.devRef .tc main_cst_6) = val_main_cst_6 (F := F) :=
  fin_main_cst_6 W
theorem run_main_v116 (W : Valuation τ sig (Elt F)) :
    after (ops (F := F)) W (Proc.devRef .tc main_v116) = val_main_v116 (F := F) :=
  fin_main_v116 W (run_main_cst_6 W)
theorem run_main_v117 (W : Valuation τ sig (Elt F)) :
    after (ops (F := F)) W (Proc.devRef .tc main_v117) = val_main_v117 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v117 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v115 W) (run_main_v116 W)
theorem run_main_v118 (W : Valuation τ sig (Elt F)) :
    after (ops (F := F)) W (Proc.devRef .tc main_v118) = val_main_v118 (F := F) (W (Proc.devRef .tc main_arg1)) (W (Proc.devRef .tc main_arg2)) (W (Proc.devRef .tc main_arg3)) (W (Proc.devRef .tc main_arg4)) (W (Proc.devRef .tc main_arg5)) :=
  fin_main_v118 W (W (Proc.devRef .tc main_arg1)) (W (Proc.devRef .tc main_arg2)) (W (Proc.devRef .tc main_arg3)) (W (Proc.devRef .tc main_arg4)) (W (Proc.devRef .tc main_arg5)) (run_main_v17 W)
theorem run_main_v119 (W : Valuation τ sig (Elt F)) :
    after (ops (F := F)) W (Proc.devRef .tc main_v119) = val_main_v119 (F := F) (W (Proc.devRef .tc main_arg0)) (W (Proc.devRef .tc main_arg2)) (W (Proc.devRef .tc main_arg3)) (W (Proc.devRef .tc main_arg4)) (W (Proc.devRef .tc main_arg5)) :=
  fin_main_v119 W (W (Proc.devRef .tc main_arg0)) (W (Proc.devRef .tc main_arg2)) (W (Proc.devRef .tc main_arg3)) (W (Proc.devRef .tc main_arg4)) (W (Proc.devRef .tc main_arg5)) (run_main_v8 W)
theorem run_main_v120 (W : Valuation τ sig (Elt F)) :
    after (ops (F := F)) W (Proc.devRef .tc main_v120) = val_main_v120 (F := F) (W (Proc.devRef .tc main_arg1)) (W (Proc.devRef .tc main_arg2)) (W (Proc.devRef .tc main_arg3)) (W (Proc.devRef .tc main_arg4)) (W (Proc.devRef .tc main_arg5)) :=
  fin_main_v120 W (W (Proc.devRef .tc main_arg1)) (W (Proc.devRef .tc main_arg2)) (W (Proc.devRef .tc main_arg3)) (W (Proc.devRef .tc main_arg4)) (W (Proc.devRef .tc main_arg5)) (run_main_v118 W)
theorem run_main_v121 (W : Valuation τ sig (Elt F)) :
    after (ops (F := F)) W (Proc.devRef .tc main_v121) = val_main_v121 (F := F) (W (Proc.devRef .tc main_arg0)) (W (Proc.devRef .tc main_arg2)) (W (Proc.devRef .tc main_arg3)) (W (Proc.devRef .tc main_arg4)) (W (Proc.devRef .tc main_arg5)) :=
  fin_main_v121 W (W (Proc.devRef .tc main_arg0)) (W (Proc.devRef .tc main_arg2)) (W (Proc.devRef .tc main_arg3)) (W (Proc.devRef .tc main_arg4)) (W (Proc.devRef .tc main_arg5)) (run_main_v119 W)
theorem run_main_v122 (W : Valuation τ sig (Elt F)) :
    after (ops (F := F)) W (Proc.devRef .tc main_v122) = val_main_v122 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v122 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v120 W) (run_main_v121 W)
theorem run_main_v123 (W : Valuation τ sig (Elt F)) :
    after (ops (F := F)) W (Proc.devRef .tc main_v123) = val_main_v123 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v123 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v122 W)
theorem run_main_cst_7 (W : Valuation τ sig (Elt F)) :
    after (ops (F := F)) W (Proc.devRef .tc main_cst_7) = val_main_cst_7 (F := F) :=
  fin_main_cst_7 W
theorem run_main_v124 (W : Valuation τ sig (Elt F)) :
    after (ops (F := F)) W (Proc.devRef .tc main_v124) = val_main_v124 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v124 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v122 W) (run_main_cst_7 W)
theorem run_main_v125 (W : Valuation τ sig (Elt F)) :
    after (ops (F := F)) W (Proc.devRef .tc main_v125) = val_main_v125 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v125 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v124 W)
theorem run_main_v126 (W : Valuation τ sig (Elt F)) :
    after (ops (F := F)) W (Proc.devRef .tc main_v126) = val_main_v126 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v126 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v125 W)
theorem run_main_v127 (W : Valuation τ sig (Elt F)) :
    after (ops (F := F)) W (Proc.devRef .tc main_v127) = val_main_v127 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v127 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v123 W) (run_main_v126 W)
theorem run_main_v128 (W : Valuation τ sig (Elt F)) :
    after (ops (F := F)) W (Proc.devRef .tc main_v128) = val_main_v128 (F := F) (W (Proc.devRef .tc main_arg0)) (W (Proc.devRef .tc main_arg2)) (W (Proc.devRef .tc main_arg3)) (W (Proc.devRef .tc main_arg4)) (W (Proc.devRef .tc main_arg5)) :=
  fin_main_v128 W (W (Proc.devRef .tc main_arg0)) (W (Proc.devRef .tc main_arg2)) (W (Proc.devRef .tc main_arg3)) (W (Proc.devRef .tc main_arg4)) (W (Proc.devRef .tc main_arg5)) (run_main_v8 W)
theorem run_main_v129 (W : Valuation τ sig (Elt F)) :
    after (ops (F := F)) W (Proc.devRef .tc main_v129) = val_main_v129 (F := F) (W (Proc.devRef .tc main_arg0)) (W (Proc.devRef .tc main_arg2)) (W (Proc.devRef .tc main_arg3)) (W (Proc.devRef .tc main_arg4)) (W (Proc.devRef .tc main_arg5)) :=
  fin_main_v129 W (W (Proc.devRef .tc main_arg0)) (W (Proc.devRef .tc main_arg2)) (W (Proc.devRef .tc main_arg3)) (W (Proc.devRef .tc main_arg4)) (W (Proc.devRef .tc main_arg5)) (run_main_v128 W)
theorem run_main_v130 (W : Valuation τ sig (Elt F)) :
    after (ops (F := F)) W (Proc.devRef .tc main_v130) = val_main_v130 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v130 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v129 W) (run_main_v127 W)
theorem run_main_cst_8 (W : Valuation τ sig (Elt F)) :
    after (ops (F := F)) W (Proc.devRef .tc main_cst_8) = val_main_cst_8 (F := F) :=
  fin_main_cst_8 W
theorem run_main_v131 (W : Valuation τ sig (Elt F)) :
    after (ops (F := F)) W (Proc.devRef .tc main_v131) = val_main_v131 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v131 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v130 W) (run_main_cst_8 W)
theorem run_main_cst_9 (W : Valuation τ sig (Elt F)) :
    after (ops (F := F)) W (Proc.devRef .tc main_cst_9) = val_main_cst_9 (F := F) :=
  fin_main_cst_9 W
theorem run_main_v132 (W : Valuation τ sig (Elt F)) :
    after (ops (F := F)) W (Proc.devRef .tc main_v132) = val_main_v132 (F := F) :=
  fin_main_v132 W (run_main_cst_9 W)
theorem run_main_v133 (W : Valuation τ sig (Elt F)) :
    after (ops (F := F)) W (Proc.devRef .tc main_v133) = val_main_v133 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v133 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v131 W) (run_main_v132 W)
theorem run_main_v134 (W : Valuation τ sig (Elt F)) :
    after (ops (F := F)) W (Proc.devRef .tc main_v134) = val_main_v134 (F := F) (W (Proc.devRef .tc main_arg0)) (W (Proc.devRef .tc main_arg2)) (W (Proc.devRef .tc main_arg3)) (W (Proc.devRef .tc main_arg4)) (W (Proc.devRef .tc main_arg5)) :=
  fin_main_v134 W (W (Proc.devRef .tc main_arg0)) (W (Proc.devRef .tc main_arg2)) (W (Proc.devRef .tc main_arg3)) (W (Proc.devRef .tc main_arg4)) (W (Proc.devRef .tc main_arg5)) (run_main_v8 W)
theorem run_main_cst_10 (W : Valuation τ sig (Elt F)) :
    after (ops (F := F)) W (Proc.devRef .tc main_cst_10) = val_main_cst_10 (F := F) :=
  fin_main_cst_10 W
theorem run_main_v135 (W : Valuation τ sig (Elt F)) :
    after (ops (F := F)) W (Proc.devRef .tc main_v135) = val_main_v135 (F := F) (W (Proc.devRef .tc main_arg0)) (W (Proc.devRef .tc main_arg2)) (W (Proc.devRef .tc main_arg3)) (W (Proc.devRef .tc main_arg4)) (W (Proc.devRef .tc main_arg5)) :=
  fin_main_v135 W (W (Proc.devRef .tc main_arg0)) (W (Proc.devRef .tc main_arg2)) (W (Proc.devRef .tc main_arg3)) (W (Proc.devRef .tc main_arg4)) (W (Proc.devRef .tc main_arg5)) (run_main_v134 W) (run_main_cst_10 W)
theorem run_main_v136 (W : Valuation τ sig (Elt F)) :
    after (ops (F := F)) W (Proc.devRef .tc main_v136) = val_main_v136 (F := F) (W (Proc.devRef .tc main_arg0)) (W (Proc.devRef .tc main_arg2)) (W (Proc.devRef .tc main_arg3)) (W (Proc.devRef .tc main_arg4)) (W (Proc.devRef .tc main_arg5)) :=
  fin_main_v136 W (W (Proc.devRef .tc main_arg0)) (W (Proc.devRef .tc main_arg2)) (W (Proc.devRef .tc main_arg3)) (W (Proc.devRef .tc main_arg4)) (W (Proc.devRef .tc main_arg5)) (run_main_v135 W)
theorem run_main_v137 (W : Valuation τ sig (Elt F)) :
    after (ops (F := F)) W (Proc.devRef .tc main_v137) = val_main_v137 (F := F) (W (Proc.devRef .tc main_arg0)) (W (Proc.devRef .tc main_arg2)) (W (Proc.devRef .tc main_arg3)) (W (Proc.devRef .tc main_arg4)) (W (Proc.devRef .tc main_arg5)) :=
  fin_main_v137 W (W (Proc.devRef .tc main_arg0)) (W (Proc.devRef .tc main_arg2)) (W (Proc.devRef .tc main_arg3)) (W (Proc.devRef .tc main_arg4)) (W (Proc.devRef .tc main_arg5)) (run_main_v136 W)
theorem run_main_cst_11 (W : Valuation τ sig (Elt F)) :
    after (ops (F := F)) W (Proc.devRef .tc main_cst_11) = val_main_cst_11 (F := F) :=
  fin_main_cst_11 W
theorem run_main_v138 (W : Valuation τ sig (Elt F)) :
    after (ops (F := F)) W (Proc.devRef .tc main_v138) = val_main_v138 (F := F) :=
  fin_main_v138 W (run_main_cst_11 W)
theorem run_main_v139 (W : Valuation τ sig (Elt F)) :
    after (ops (F := F)) W (Proc.devRef .tc main_v139) = val_main_v139 (F := F) (W (Proc.devRef .tc main_arg0)) (W (Proc.devRef .tc main_arg2)) (W (Proc.devRef .tc main_arg3)) (W (Proc.devRef .tc main_arg4)) (W (Proc.devRef .tc main_arg5)) :=
  fin_main_v139 W (W (Proc.devRef .tc main_arg0)) (W (Proc.devRef .tc main_arg2)) (W (Proc.devRef .tc main_arg3)) (W (Proc.devRef .tc main_arg4)) (W (Proc.devRef .tc main_arg5)) (run_main_v137 W) (run_main_v138 W)
theorem run_main_v140 (W : Valuation τ sig (Elt F)) :
    after (ops (F := F)) W (Proc.devRef .tc main_v140) = val_main_v140 (F := F) (W (Proc.devRef .tc main_arg0)) (W (Proc.devRef .tc main_arg2)) (W (Proc.devRef .tc main_arg3)) (W (Proc.devRef .tc main_arg4)) (W (Proc.devRef .tc main_arg5)) :=
  fin_main_v140 W (W (Proc.devRef .tc main_arg0)) (W (Proc.devRef .tc main_arg2)) (W (Proc.devRef .tc main_arg3)) (W (Proc.devRef .tc main_arg4)) (W (Proc.devRef .tc main_arg5)) (run_main_v139 W)
theorem run_main_v141 (W : Valuation τ sig (Elt F)) :
    after (ops (F := F)) W (Proc.devRef .tc main_v141) = val_main_v141 (F := F) (W (Proc.devRef .tc main_arg0)) (W (Proc.devRef .tc main_arg2)) (W (Proc.devRef .tc main_arg3)) (W (Proc.devRef .tc main_arg4)) (W (Proc.devRef .tc main_arg5)) :=
  fin_main_v141 W (W (Proc.devRef .tc main_arg0)) (W (Proc.devRef .tc main_arg2)) (W (Proc.devRef .tc main_arg3)) (W (Proc.devRef .tc main_arg4)) (W (Proc.devRef .tc main_arg5)) (run_main_v8 W) (run_main_v140 W)
theorem run_main_v142 (W : Valuation τ sig (Elt F)) :
    after (ops (F := F)) W (Proc.devRef .tc main_v142) = val_main_v142 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v142 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v82 W)
theorem run_main_cst_12 (W : Valuation τ sig (Elt F)) :
    after (ops (F := F)) W (Proc.devRef .tc main_cst_12) = val_main_cst_12 (F := F) :=
  fin_main_cst_12 W
theorem run_main_v143 (W : Valuation τ sig (Elt F)) :
    after (ops (F := F)) W (Proc.devRef .tc main_v143) = val_main_v143 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v143 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v142 W) (run_main_cst_12 W)
theorem run_main_v144 (W : Valuation τ sig (Elt F)) :
    after (ops (F := F)) W (Proc.devRef .tc main_v144) = val_main_v144 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v144 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v143 W)
theorem run_main_v145 (W : Valuation τ sig (Elt F)) :
    after (ops (F := F)) W (Proc.devRef .tc main_v145) = val_main_v145 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v145 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v144 W)
theorem run_main_cst_13 (W : Valuation τ sig (Elt F)) :
    after (ops (F := F)) W (Proc.devRef .tc main_cst_13) = val_main_cst_13 (F := F) :=
  fin_main_cst_13 W
theorem run_main_v146 (W : Valuation τ sig (Elt F)) :
    after (ops (F := F)) W (Proc.devRef .tc main_v146) = val_main_v146 (F := F) :=
  fin_main_v146 W (run_main_cst_13 W)
theorem run_main_v147 (W : Valuation τ sig (Elt F)) :
    after (ops (F := F)) W (Proc.devRef .tc main_v147) = val_main_v147 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v147 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v145 W) (run_main_v146 W)
theorem run_main_v148 (W : Valuation τ sig (Elt F)) :
    after (ops (F := F)) W (Proc.devRef .tc main_v148) = val_main_v148 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v148 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v147 W)
theorem run_main_v149 (W : Valuation τ sig (Elt F)) :
    after (ops (F := F)) W (Proc.devRef .tc main_v149) = val_main_v149 (F := F) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v149 W (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v82 W) (run_main_v148 W)
theorem run_main_v150 (W : Valuation τ sig (Elt F)) :
    after (ops (F := F)) W (Proc.devRef .tc main_v150) = val_main_v150 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v150 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v117 W)
theorem run_main_cst_14 (W : Valuation τ sig (Elt F)) :
    after (ops (F := F)) W (Proc.devRef .tc main_cst_14) = val_main_cst_14 (F := F) :=
  fin_main_cst_14 W
theorem run_main_v151 (W : Valuation τ sig (Elt F)) :
    after (ops (F := F)) W (Proc.devRef .tc main_v151) = val_main_v151 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v151 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v150 W) (run_main_cst_14 W)
theorem run_main_v152 (W : Valuation τ sig (Elt F)) :
    after (ops (F := F)) W (Proc.devRef .tc main_v152) = val_main_v152 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v152 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v151 W)
theorem run_main_v153 (W : Valuation τ sig (Elt F)) :
    after (ops (F := F)) W (Proc.devRef .tc main_v153) = val_main_v153 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v153 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v152 W)
theorem run_main_cst_15 (W : Valuation τ sig (Elt F)) :
    after (ops (F := F)) W (Proc.devRef .tc main_cst_15) = val_main_cst_15 (F := F) :=
  fin_main_cst_15 W
theorem run_main_v154 (W : Valuation τ sig (Elt F)) :
    after (ops (F := F)) W (Proc.devRef .tc main_v154) = val_main_v154 (F := F) :=
  fin_main_v154 W (run_main_cst_15 W)
theorem run_main_v155 (W : Valuation τ sig (Elt F)) :
    after (ops (F := F)) W (Proc.devRef .tc main_v155) = val_main_v155 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v155 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v153 W) (run_main_v154 W)
theorem run_main_v156 (W : Valuation τ sig (Elt F)) :
    after (ops (F := F)) W (Proc.devRef .tc main_v156) = val_main_v156 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v156 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v155 W)
theorem run_main_v157 (W : Valuation τ sig (Elt F)) :
    after (ops (F := F)) W (Proc.devRef .tc main_v157) = val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v157 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v117 W) (run_main_v156 W)
theorem run_main_v158 (W : Valuation τ sig (Elt F)) :
    after (ops (F := F)) W (Proc.devRef .tc main_v158) = val_main_v158 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v158 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v141 W) (run_main_v149 W) (run_main_v157 W)
theorem run_main_v159 (W : Valuation τ sig (Elt F)) :
    after (ops (F := F)) W (Proc.devRef .tc main_v159) = val_main_v159 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) :=
  fin_main_v159 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (run_main_v158 W) (run_main_arg14 W)
theorem run_main_v160 (W : Valuation τ sig (Elt F)) :
    after (ops (F := F)) W (Proc.devRef .tc main_v160) = val_main_v160 (F := F) (W (Proc.devRef .tc main_arg15)) :=
  fin_main_v160 W (W (Proc.devRef .tc main_arg15)) (run_main_arg15 W)
theorem run_main_v161 (W : Valuation τ sig (Elt F)) :
    after (ops (F := F)) W (Proc.devRef .tc main_v161) = val_main_v161 (F := F) (W (Proc.devRef .tc main_arg15)) :=
  fin_main_v161 W (W (Proc.devRef .tc main_arg15)) (run_main_v160 W)
theorem run_main_v162 (W : Valuation τ sig (Elt F)) :
    after (ops (F := F)) W (Proc.devRef .tc main_v162) = val_main_v162 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v162 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v159 W) (run_main_v161 W)
theorem run_main_v163 (W : Valuation τ sig (Elt F)) :
    after (ops (F := F)) W (Proc.devRef .tc main_v163) = val_main_v163 (F := F) (W (Proc.devRef .tc main_arg1)) (W (Proc.devRef .tc main_arg2)) (W (Proc.devRef .tc main_arg3)) (W (Proc.devRef .tc main_arg4)) (W (Proc.devRef .tc main_arg5)) :=
  fin_main_v163 W (W (Proc.devRef .tc main_arg1)) (W (Proc.devRef .tc main_arg2)) (W (Proc.devRef .tc main_arg3)) (W (Proc.devRef .tc main_arg4)) (W (Proc.devRef .tc main_arg5)) (run_main_v17 W)
theorem run_main_cst_16 (W : Valuation τ sig (Elt F)) :
    after (ops (F := F)) W (Proc.devRef .tc main_cst_16) = val_main_cst_16 (F := F) :=
  fin_main_cst_16 W
theorem run_main_v164 (W : Valuation τ sig (Elt F)) :
    after (ops (F := F)) W (Proc.devRef .tc main_v164) = val_main_v164 (F := F) (W (Proc.devRef .tc main_arg1)) (W (Proc.devRef .tc main_arg2)) (W (Proc.devRef .tc main_arg3)) (W (Proc.devRef .tc main_arg4)) (W (Proc.devRef .tc main_arg5)) :=
  fin_main_v164 W (W (Proc.devRef .tc main_arg1)) (W (Proc.devRef .tc main_arg2)) (W (Proc.devRef .tc main_arg3)) (W (Proc.devRef .tc main_arg4)) (W (Proc.devRef .tc main_arg5)) (run_main_v163 W) (run_main_cst_16 W)
theorem run_main_v165 (W : Valuation τ sig (Elt F)) :
    after (ops (F := F)) W (Proc.devRef .tc main_v165) = val_main_v165 (F := F) (W (Proc.devRef .tc main_arg1)) (W (Proc.devRef .tc main_arg2)) (W (Proc.devRef .tc main_arg3)) (W (Proc.devRef .tc main_arg4)) (W (Proc.devRef .tc main_arg5)) :=
  fin_main_v165 W (W (Proc.devRef .tc main_arg1)) (W (Proc.devRef .tc main_arg2)) (W (Proc.devRef .tc main_arg3)) (W (Proc.devRef .tc main_arg4)) (W (Proc.devRef .tc main_arg5)) (run_main_v164 W)
theorem run_main_v166 (W : Valuation τ sig (Elt F)) :
    after (ops (F := F)) W (Proc.devRef .tc main_v166) = val_main_v166 (F := F) (W (Proc.devRef .tc main_arg1)) (W (Proc.devRef .tc main_arg2)) (W (Proc.devRef .tc main_arg3)) (W (Proc.devRef .tc main_arg4)) (W (Proc.devRef .tc main_arg5)) :=
  fin_main_v166 W (W (Proc.devRef .tc main_arg1)) (W (Proc.devRef .tc main_arg2)) (W (Proc.devRef .tc main_arg3)) (W (Proc.devRef .tc main_arg4)) (W (Proc.devRef .tc main_arg5)) (run_main_v165 W)
theorem run_main_cst_17 (W : Valuation τ sig (Elt F)) :
    after (ops (F := F)) W (Proc.devRef .tc main_cst_17) = val_main_cst_17 (F := F) :=
  fin_main_cst_17 W
theorem run_main_v167 (W : Valuation τ sig (Elt F)) :
    after (ops (F := F)) W (Proc.devRef .tc main_v167) = val_main_v167 (F := F) :=
  fin_main_v167 W (run_main_cst_17 W)
theorem run_main_v168 (W : Valuation τ sig (Elt F)) :
    after (ops (F := F)) W (Proc.devRef .tc main_v168) = val_main_v168 (F := F) (W (Proc.devRef .tc main_arg1)) (W (Proc.devRef .tc main_arg2)) (W (Proc.devRef .tc main_arg3)) (W (Proc.devRef .tc main_arg4)) (W (Proc.devRef .tc main_arg5)) :=
  fin_main_v168 W (W (Proc.devRef .tc main_arg1)) (W (Proc.devRef .tc main_arg2)) (W (Proc.devRef .tc main_arg3)) (W (Proc.devRef .tc main_arg4)) (W (Proc.devRef .tc main_arg5)) (run_main_v166 W) (run_main_v167 W)
theorem run_main_v169 (W : Valuation τ sig (Elt F)) :
    after (ops (F := F)) W (Proc.devRef .tc main_v169) = val_main_v169 (F := F) (W (Proc.devRef .tc main_arg1)) (W (Proc.devRef .tc main_arg2)) (W (Proc.devRef .tc main_arg3)) (W (Proc.devRef .tc main_arg4)) (W (Proc.devRef .tc main_arg5)) :=
  fin_main_v169 W (W (Proc.devRef .tc main_arg1)) (W (Proc.devRef .tc main_arg2)) (W (Proc.devRef .tc main_arg3)) (W (Proc.devRef .tc main_arg4)) (W (Proc.devRef .tc main_arg5)) (run_main_v168 W)
theorem run_main_v170 (W : Valuation τ sig (Elt F)) :
    after (ops (F := F)) W (Proc.devRef .tc main_v170) = val_main_v170 (F := F) (W (Proc.devRef .tc main_arg1)) (W (Proc.devRef .tc main_arg2)) (W (Proc.devRef .tc main_arg3)) (W (Proc.devRef .tc main_arg4)) (W (Proc.devRef .tc main_arg5)) :=
  fin_main_v170 W (W (Proc.devRef .tc main_arg1)) (W (Proc.devRef .tc main_arg2)) (W (Proc.devRef .tc main_arg3)) (W (Proc.devRef .tc main_arg4)) (W (Proc.devRef .tc main_arg5)) (run_main_v17 W) (run_main_v169 W)
theorem run_main_v171 (W : Valuation τ sig (Elt F)) :
    after (ops (F := F)) W (Proc.devRef .tc main_v171) = val_main_v171 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v171 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v101 W)
theorem run_main_cst_18 (W : Valuation τ sig (Elt F)) :
    after (ops (F := F)) W (Proc.devRef .tc main_cst_18) = val_main_cst_18 (F := F) :=
  fin_main_cst_18 W
theorem run_main_v172 (W : Valuation τ sig (Elt F)) :
    after (ops (F := F)) W (Proc.devRef .tc main_v172) = val_main_v172 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v172 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v171 W) (run_main_cst_18 W)
theorem run_main_v173 (W : Valuation τ sig (Elt F)) :
    after (ops (F := F)) W (Proc.devRef .tc main_v173) = val_main_v173 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v173 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v172 W)
theorem run_main_v174 (W : Valuation τ sig (Elt F)) :
    after (ops (F := F)) W (Proc.devRef .tc main_v174) = val_main_v174 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v174 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v173 W)
theorem run_main_cst_19 (W : Valuation τ sig (Elt F)) :
    after (ops (F := F)) W (Proc.devRef .tc main_cst_19) = val_main_cst_19 (F := F) :=
  fin_main_cst_19 W
theorem run_main_v175 (W : Valuation τ sig (Elt F)) :
    after (ops (F := F)) W (Proc.devRef .tc main_v175) = val_main_v175 (F := F) :=
  fin_main_v175 W (run_main_cst_19 W)
theorem run_main_v176 (W : Valuation τ sig (Elt F)) :
    after (ops (F := F)) W (Proc.devRef .tc main_v176) = val_main_v176 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v176 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v174 W) (run_main_v175 W)
theorem run_main_v177 (W : Valuation τ sig (Elt F)) :
    after (ops (F := F)) W (Proc.devRef .tc main_v177) = val_main_v177 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v177 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v176 W)
theorem run_main_v178 (W : Valuation τ sig (Elt F)) :
    after (ops (F := F)) W (Proc.devRef .tc main_v178) = val_main_v178 (F := F) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v178 W (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v101 W) (run_main_v177 W)
theorem run_main_v179 (W : Valuation τ sig (Elt F)) :
    after (ops (F := F)) W (Proc.devRef .tc main_v179) = val_main_v179 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v179 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v133 W)
theorem run_main_cst_20 (W : Valuation τ sig (Elt F)) :
    after (ops (F := F)) W (Proc.devRef .tc main_cst_20) = val_main_cst_20 (F := F) :=
  fin_main_cst_20 W
theorem run_main_v180 (W : Valuation τ sig (Elt F)) :
    after (ops (F := F)) W (Proc.devRef .tc main_v180) = val_main_v180 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v180 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v179 W) (run_main_cst_20 W)
theorem run_main_v181 (W : Valuation τ sig (Elt F)) :
    after (ops (F := F)) W (Proc.devRef .tc main_v181) = val_main_v181 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v181 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v180 W)
theorem run_main_v182 (W : Valuation τ sig (Elt F)) :
    after (ops (F := F)) W (Proc.devRef .tc main_v182) = val_main_v182 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v182 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v181 W)
theorem run_main_cst_21 (W : Valuation τ sig (Elt F)) :
    after (ops (F := F)) W (Proc.devRef .tc main_cst_21) = val_main_cst_21 (F := F) :=
  fin_main_cst_21 W
theorem run_main_v183 (W : Valuation τ sig (Elt F)) :
    after (ops (F := F)) W (Proc.devRef .tc main_v183) = val_main_v183 (F := F) :=
  fin_main_v183 W (run_main_cst_21 W)
theorem run_main_v184 (W : Valuation τ sig (Elt F)) :
    after (ops (F := F)) W (Proc.devRef .tc main_v184) = val_main_v184 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v184 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v182 W) (run_main_v183 W)
theorem run_main_v185 (W : Valuation τ sig (Elt F)) :
    after (ops (F := F)) W (Proc.devRef .tc main_v185) = val_main_v185 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v185 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v184 W)
theorem run_main_v186 (W : Valuation τ sig (Elt F)) :
    after (ops (F := F)) W (Proc.devRef .tc main_v186) = val_main_v186 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  fin_main_v186 W (W (Proc.devRef .tc main_arg0)) (W (Proc.devRef .tc main_arg1)) (W (Proc.devRef .tc main_arg2)) (W (Proc.devRef .tc main_arg3)) (W (Proc.devRef .tc main_arg4)) (W (Proc.devRef .tc main_arg5)) (run_main_v133 W) (run_main_v185 W)
theorem run_main_v187 (W : Valuation τ sig (Elt F)) :
    after (ops (F := F)) W (Proc.devRef .tc main_v187) = val_main_v187 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  fin_main_v187 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (run_main_v170 W) (run_main_v178 W) (run_main_v186 W)
theorem run_main_v188 (W : Valuation τ sig (Elt F)) :
    after (ops (F := F)) W (Proc.devRef .tc main_v188) = val_main_v188 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) :=
  fin_main_v188 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (run_main_v187 W) (run_main_arg14 W)
theorem run_main_v189 (W : Valuation τ sig (Elt F)) :
    after (ops (F := F)) W (Proc.devRef .tc main_v189) = val_main_v189 (F := F) (W (Proc.devRef .tc main_arg15)) :=
  fin_main_v189 W (W (Proc.devRef .tc main_arg15)) (run_main_arg15 W)
theorem run_main_v190 (W : Valuation τ sig (Elt F)) :
    after (ops (F := F)) W (Proc.devRef .tc main_v190) = val_main_v190 (F := F) (W (Proc.devRef .tc main_arg15)) :=
  fin_main_v190 W (W (Proc.devRef .tc main_arg15)) (run_main_v189 W)
theorem run_main_v191 (W : Valuation τ sig (Elt F)) :
    after (ops (F := F)) W (Proc.devRef .tc main_v191) = val_main_v191 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v191 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v188 W) (run_main_v190 W)
theorem run_main_cst_22 (W : Valuation τ sig (Elt F)) :
    after (ops (F := F)) W (Proc.devRef .tc main_cst_22) = val_main_cst_22 (F := F) :=
  fin_main_cst_22 W
theorem run_main_v192 (W : Valuation τ sig (Elt F)) :
    after (ops (F := F)) W (Proc.devRef .tc main_v192) = val_main_v192 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v192 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v162 W) (run_main_cst_22 W)
theorem run_main_v193 (W : Valuation τ sig (Elt F)) :
    after (ops (F := F)) W (Proc.devRef .tc main_v193) = val_main_v193 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v193 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v192 W)
theorem run_main_cst_23 (W : Valuation τ sig (Elt F)) :
    after (ops (F := F)) W (Proc.devRef .tc main_cst_23) = val_main_cst_23 (F := F) :=
  fin_main_cst_23 W
theorem run_main_v194 (W : Valuation τ sig (Elt F)) :
    after (ops (F := F)) W (Proc.devRef .tc main_v194) = val_main_v194 (F := F) :=
  fin_main_v194 W (run_main_cst_23 W)
theorem run_main_v195 (W : Valuation τ sig (Elt F)) :
    after (ops (F := F)) W (Proc.devRef .tc main_v195) = val_main_v195 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v195 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v193 W) (run_main_v194 W)
theorem run_main_v196 (W : Valuation τ sig (Elt F)) :
    after (ops (F := F)) W (Proc.devRef .tc main_v196) = val_main_v196 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v196 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v195 W)
theorem run_main_v197 (W : Valuation τ sig (Elt F)) :
    after (ops (F := F)) W (Proc.devRef .tc main_v197) = val_main_v197 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v197 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v162 W) (run_main_v196 W)
theorem run_main_v198 (W : Valuation τ sig (Elt F)) :
    after (ops (F := F)) W (Proc.devRef .tc main_v198) = val_main_v198 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) :=
  fin_main_v198 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (run_main_v197 W) (run_main_arg16 W)
theorem run_main_v199 (W : Valuation τ sig (Elt F)) :
    after (ops (F := F)) W (Proc.devRef .tc main_v199) = val_main_v199 (F := F) (W (Proc.devRef .tc main_arg17)) :=
  fin_main_v199 W (W (Proc.devRef .tc main_arg17)) (run_main_arg17 W)
theorem run_main_v200 (W : Valuation τ sig (Elt F)) :
    after (ops (F := F)) W (Proc.devRef .tc main_v200) = val_main_v200 (F := F) (W (Proc.devRef .tc main_arg17)) :=
  fin_main_v200 W (W (Proc.devRef .tc main_arg17)) (run_main_v199 W)
theorem run_main_v201 (W : Valuation τ sig (Elt F)) :
    after (ops (F := F)) W (Proc.devRef .tc main_v201) = val_main_v201 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v201 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v198 W) (run_main_v200 W)
theorem run_main_cst_24 (W : Valuation τ sig (Elt F)) :
    after (ops (F := F)) W (Proc.devRef .tc main_cst_24) = val_main_cst_24 (F := F) :=
  fin_main_cst_24 W
theorem run_main_v202 (W : Valuation τ sig (Elt F)) :
    after (ops (F := F)) W (Proc.devRef .tc main_v202) = val_main_v202 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v202 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v201 W) (run_main_cst_24 W)
theorem run_main_cst_25 (W : Valuation τ sig (Elt F)) :
    after (ops (F := F)) W (Proc.devRef .tc main_cst_25) = val_main_cst_25 (F := F) :=
  fin_main_cst_25 W
theorem run_main_v203 (W : Valuation τ sig (Elt F)) :
    after (ops (F := F)) W (Proc.devRef .tc main_v203) = val_main_v203 (F := F) :=
  fin_main_v203 W (run_main_cst_25 W)
theorem run_main_v204 (W : Valuation τ sig (Elt F)) :
    after (ops (F := F)) W (Proc.devRef .tc main_v204) = val_main_v204 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v204 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v203 W) (run_main_v202 W)
theorem run_main_v205 (W : Valuation τ sig (Elt F)) :
    after (ops (F := F)) W (Proc.devRef .tc main_v205) = val_main_v205 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v205 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v204 W)
theorem run_main_v206 (W : Valuation τ sig (Elt F)) :
    after (ops (F := F)) W (Proc.devRef .tc main_v206) = val_main_v206 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v206 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v205 W)
theorem run_main_v207 (W : Valuation τ sig (Elt F)) :
    after (ops (F := F)) W (Proc.devRef .tc main_v207) = val_main_v207 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v207 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v201 W) (run_main_v206 W)
theorem run_main_v208 (W : Valuation τ sig (Elt F)) :
    after (ops (F := F)) W (Proc.devRef .tc main_v208) = val_main_v208 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v208 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v207 W)
theorem run_main_cst_26 (W : Valuation τ sig (Elt F)) :
    after (ops (F := F)) W (Proc.devRef .tc main_cst_26) = val_main_cst_26 (F := F) :=
  fin_main_cst_26 W
theorem run_main_v209 (W : Valuation τ sig (Elt F)) :
    after (ops (F := F)) W (Proc.devRef .tc main_v209) = val_main_v209 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v209 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v208 W) (run_main_cst_26 W)
theorem run_main_v210 (W : Valuation τ sig (Elt F)) :
    after (ops (F := F)) W (Proc.devRef .tc main_v210) = val_main_v210 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v210 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v209 W)
theorem run_main_v211 (W : Valuation τ sig (Elt F)) :
    after (ops (F := F)) W (Proc.devRef .tc main_v211) = val_main_v211 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v211 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v210 W)
theorem run_main_v212 (W : Valuation τ sig (Elt F)) :
    after (ops (F := F)) W (Proc.devRef .tc main_v212) = val_main_v212 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v212 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v208 W) (run_main_v211 W)
theorem run_main_v213 (W : Valuation τ sig (Elt F)) :
    after (ops (F := F)) W (Proc.devRef .tc main_v213) = val_main_v213 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v213 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v212 W)
theorem run_main_v214 (W : Valuation τ sig (Elt F)) :
    after (ops (F := F)) W (Proc.devRef .tc main_v214) = val_main_v214 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v214 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v213 W) (run_main_v162 W)
theorem run_main_cst_27 (W : Valuation τ sig (Elt F)) :
    after (ops (F := F)) W (Proc.devRef .tc main_cst_27) = val_main_cst_27 (F := F) :=
  fin_main_cst_27 W
theorem run_main_v215 (W : Valuation τ sig (Elt F)) :
    after (ops (F := F)) W (Proc.devRef .tc main_v215) = val_main_v215 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v215 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v214 W) (run_main_cst_27 W)
theorem run_main_v216 (W : Valuation τ sig (Elt F)) :
    after (ops (F := F)) W (Proc.devRef .tc main_v216) = val_main_v216 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v216 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v215 W)
theorem run_main_cst_28 (W : Valuation τ sig (Elt F)) :
    after (ops (F := F)) W (Proc.devRef .tc main_cst_28) = val_main_cst_28 (F := F) :=
  fin_main_cst_28 W
theorem run_main_v217 (W : Valuation τ sig (Elt F)) :
    after (ops (F := F)) W (Proc.devRef .tc main_v217) = val_main_v217 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v217 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v191 W) (run_main_cst_28 W)
theorem run_main_v218 (W : Valuation τ sig (Elt F)) :
    after (ops (F := F)) W (Proc.devRef .tc main_v218) = val_main_v218 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v218 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v217 W)
theorem run_main_cst_29 (W : Valuation τ sig (Elt F)) :
    after (ops (F := F)) W (Proc.devRef .tc main_cst_29) = val_main_cst_29 (F := F) :=
  fin_main_cst_29 W
theorem run_main_v219 (W : Valuation τ sig (Elt F)) :
    after (ops (F := F)) W (Proc.devRef .tc main_v219) = val_main_v219 (F := F) :=
  fin_main_v219 W (run_main_cst_29 W)
theorem run_main_v220 (W : Valuation τ sig (Elt F)) :
    after (ops (F := F)) W (Proc.devRef .tc main_v220) = val_main_v220 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v220 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v218 W) (run_main_v219 W)
theorem run_main_v221 (W : Valuation τ sig (Elt F)) :
    after (ops (F := F)) W (Proc.devRef .tc main_v221) = val_main_v221 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v221 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v220 W)
theorem run_main_v222 (W : Valuation τ sig (Elt F)) :
    after (ops (F := F)) W (Proc.devRef .tc main_v222) = val_main_v222 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  fin_main_v222 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (run_main_v191 W) (run_main_v221 W)
theorem run_main_v223 (W : Valuation τ sig (Elt F)) :
    after (ops (F := F)) W (Proc.devRef .tc main_v223) = val_main_v223 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) :=
  fin_main_v223 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (run_main_v222 W) (run_main_arg16 W)
theorem run_main_v224 (W : Valuation τ sig (Elt F)) :
    after (ops (F := F)) W (Proc.devRef .tc main_v224) = val_main_v224 (F := F) (W (Proc.devRef .tc main_arg17)) :=
  fin_main_v224 W (W (Proc.devRef .tc main_arg17)) (run_main_arg17 W)
theorem run_main_v225 (W : Valuation τ sig (Elt F)) :
    after (ops (F := F)) W (Proc.devRef .tc main_v225) = val_main_v225 (F := F) (W (Proc.devRef .tc main_arg17)) :=
  fin_main_v225 W (W (Proc.devRef .tc main_arg17)) (run_main_v224 W)
theorem run_main_v226 (W : Valuation τ sig (Elt F)) :
    after (ops (F := F)) W (Proc.devRef .tc main_v226) = val_main_v226 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v226 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v223 W) (run_main_v225 W)
theorem run_main_cst_30 (W : Valuation τ sig (Elt F)) :
    after (ops (F := F)) W (Proc.devRef .tc main_cst_30) = val_main_cst_30 (F := F) :=
  fin_main_cst_30 W
theorem run_main_v227 (W : Valuation τ sig (Elt F)) :
    after (ops (F := F)) W (Proc.devRef .tc main_v227) = val_main_v227 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v227 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v226 W) (run_main_cst_30 W)
theorem run_main_cst_31 (W : Valuation τ sig (Elt F)) :
    after (ops (F := F)) W (Proc.devRef .tc main_cst_31) = val_main_cst_31 (F := F) :=
  fin_main_cst_31 W
theorem run_main_v228 (W : Valuation τ sig (Elt F)) :
    after (ops (F := F)) W (Proc.devRef .tc main_v228) = val_main_v228 (F := F) :=
  fin_main_v228 W (run_main_cst_31 W)
theorem run_main_v229 (W : Valuation τ sig (Elt F)) :
    after (ops (F := F)) W (Proc.devRef .tc main_v229) = val_main_v229 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v229 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v228 W) (run_main_v227 W)
theorem run_main_v230 (W : Valuation τ sig (Elt F)) :
    after (ops (F := F)) W (Proc.devRef .tc main_v230) = val_main_v230 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v230 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v229 W)
theorem run_main_v231 (W : Valuation τ sig (Elt F)) :
    after (ops (F := F)) W (Proc.devRef .tc main_v231) = val_main_v231 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v231 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v230 W)
theorem run_main_v232 (W : Valuation τ sig (Elt F)) :
    after (ops (F := F)) W (Proc.devRef .tc main_v232) = val_main_v232 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v232 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v226 W) (run_main_v231 W)
theorem run_main_v233 (W : Valuation τ sig (Elt F)) :
    after (ops (F := F)) W (Proc.devRef .tc main_v233) = val_main_v233 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v233 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v232 W)
theorem run_main_cst_32 (W : Valuation τ sig (Elt F)) :
    after (ops (F := F)) W (Proc.devRef .tc main_cst_32) = val_main_cst_32 (F := F) :=
  fin_main_cst_32 W
theorem run_main_v234 (W : Valuation τ sig (Elt F)) :
    after (ops (F := F)) W (Proc.devRef .tc main_v234) = val_main_v234 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v234 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v233 W) (run_main_cst_32 W)
theorem run_main_v235 (W : Valuation τ sig (Elt F)) :
    after (ops (F := F)) W (Proc.devRef .tc main_v235) = val_main_v235 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v235 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v234 W)
theorem run_main_v236 (W : Valuation τ sig (Elt F)) :
    after (ops (F := F)) W (Proc.devRef .tc main_v236) = val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v236 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v235 W)
theorem run_main_v237 (W : Valuation τ sig (Elt F)) :
    after (ops (F := F)) W (Proc.devRef .tc main_v237) = val_main_v237 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v237 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v233 W) (run_main_v236 W)
theorem run_main_v238 (W : Valuation τ sig (Elt F)) :
    after (ops (F := F)) W (Proc.devRef .tc main_v238) = val_main_v238 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v238 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v237 W)
theorem run_main_v239 (W : Valuation τ sig (Elt F)) :
    after (ops (F := F)) W (Proc.devRef .tc main_v239) = val_main_v239 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v239 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v238 W) (run_main_v191 W)
theorem run_main_cst_33 (W : Valuation τ sig (Elt F)) :
    after (ops (F := F)) W (Proc.devRef .tc main_cst_33) = val_main_cst_33 (F := F) :=
  fin_main_cst_33 W
theorem run_main_v240 (W : Valuation τ sig (Elt F)) :
    after (ops (F := F)) W (Proc.devRef .tc main_v240) = val_main_v240 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v240 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v239 W) (run_main_cst_33 W)
theorem run_main_v241 (W : Valuation τ sig (Elt F)) :
    after (ops (F := F)) W (Proc.devRef .tc main_v241) = val_main_v241 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v241 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v240 W)
theorem run_main_v242 (W : Valuation τ sig (Elt F)) :
    after (ops (F := F)) W (Proc.devRef .tc main_v242) = val_main_v242 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v242 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v216 W) (run_main_v241 W)
theorem run_main_cst_34 (W : Valuation τ sig (Elt F)) :
    after (ops (F := F)) W (Proc.devRef .tc main_cst_34) = val_main_cst_34 (F := F) :=
  fin_main_cst_34 W
theorem run_main_v243 (W : Valuation τ sig (Elt F)) :
    after (ops (F := F)) W (Proc.devRef .tc main_v243) = val_main_v243 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v243 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v242 W) (run_main_cst_34 W)
theorem run_main_call6_v0 (W : Valuation τ sig (Elt F)) :
    after (ops (F := F)) W (Proc.devRef .tc main_call6_v0) = val_main_call6_v0 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_call6_v0 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v216 W)
theorem run_main_call6_cst (W : Valuation τ sig (Elt F)) :
    after (ops (F := F)) W (Proc.devRef .tc main_call6_cst) = val_main_call6_cst (F := F) :=
  fin_main_call6_cst W
theorem run_main_call6_v1 (W : Valuation τ sig (Elt F)) :
    after (ops (F := F)) W (Proc.devRef .tc main_call6_v1) = val_main_call6_v1 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_call6_v1 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_call6_v0 W) (run_main_call6_cst W)
theorem run_main_v244 (W : Valuation τ sig (Elt F)) :
    after (ops (F := F)) W (Proc.devRef .tc main_v244) = val_main_v244 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v244 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_call6_v1 W)
theorem run_main_call7_v0 (W : Valuation τ sig (Elt F)) :
    after (ops (F := F)) W (Proc.devRef .tc main_call7_v0) = val_main_call7_v0 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_call7_v0 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v241 W)
theorem run_main_call7_cst (W : Valuation τ sig (Elt F)) :
    after (ops (F := F)) W (Proc.devRef .tc main_call7_cst) = val_main_call7_cst (F := F) :=
  fin_main_call7_cst W
theorem run_main_call7_v1 (W : Valuation τ sig (Elt F)) :
    after (ops (F := F)) W (Proc.devRef .tc main_call7_v1) = val_main_call7_v1 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_call7_v1 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_call7_v0 W) (run_main_call7_cst W)
theorem run_main_v245 (W : Valuation τ sig (Elt F)) :
    after (ops (F := F)) W (Proc.devRef .tc main_v245) = val_main_v245 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v245 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_call7_v1 W)
theorem run_main_v246 (W : Valuation τ sig (Elt F)) :
    after (ops (F := F)) W (Proc.devRef .tc main_v246) = val_main_v246 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v246 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v244 W) (run_main_v245 W)
theorem run_main_cst_35 (W : Valuation τ sig (Elt F)) :
    after (ops (F := F)) W (Proc.devRef .tc main_cst_35) = val_main_cst_35 (F := F) :=
  fin_main_cst_35 W
theorem run_main_v247 (W : Valuation τ sig (Elt F)) :
    after (ops (F := F)) W (Proc.devRef .tc main_v247) = val_main_v247 (F := F) :=
  fin_main_v247 W (run_main_cst_35 W)
theorem run_main_v248 (W : Valuation τ sig (Elt F)) :
    after (ops (F := F)) W (Proc.devRef .tc main_v248) = val_main_v248 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v248 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v246 W) (run_main_v247 W)
theorem run_main_v249 (W : Valuation τ sig (Elt F)) :
    after (ops (F := F)) W (Proc.devRef .tc main_v249) = val_main_v249 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v249 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v243 W) (run_main_v248 W)
theorem run_main_cst_36 (W : Valuation τ sig (Elt F)) :
    after (ops (F := F)) W (Proc.devRef .tc main_cst_36) = val_main_cst_36 (F := F) :=
  fin_main_cst_36 W
theorem run_main_v250 (W : Valuation τ sig (Elt F)) :
    after (ops (F := F)) W (Proc.devRef .tc main_v250) = val_main_v250 (F := F) :=
  fin_main_v250 W (run_main_cst_36 W)
theorem run_main_v251 (W : Valuation τ sig (Elt F)) :
    after (ops (F := F)) W (Proc.devRef .tc main_v251) = val_main_v251 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v251 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v249 W) (run_main_v250 W)
theorem run_main_cst_37 (W : Valuation τ sig (Elt F)) :
    after (ops (F := F)) W (Proc.devRef .tc main_cst_37) = val_main_cst_37 (F := F) :=
  fin_main_cst_37 W
theorem run_main_v252 (W : Valuation τ sig (Elt F)) :
    after (ops (F := F)) W (Proc.devRef .tc main_v252) = val_main_v252 (F := F) :=
  fin_main_v252 W (run_main_cst_37 W)
theorem run_main_v253 (W : Valuation τ sig (Elt F)) :
    after (ops (F := F)) W (Proc.devRef .tc main_v253) = val_main_v253 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  fin_main_v253 W (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (run_main_v251 W) (run_main_v252 W)

end Cert.ReferenceIdeal.RunH

end
-- ==== Proof.RefRun.lean ====
/-
  The reference program's run, read back stage by stage.

  Every weakly fair execution of the reference's straight line of 312 host operations terminates; at the end the
  result buffer holds the last stage of the chain of stages `val_…` (each stage the operation's function of the
  earlier stages), evaluated at the launch contents of the eighteen arguments, and every argument buffer holds
  what it held at launch.  The end valuation is read through the per-operation equations: each buffer is written
  once, so the end value of an operation's result is its function of the end values of its operands.
-/
import proofs.«418941_j65867618451820_3_alg».proof.Proof.RefRunChain

noncomputable section

namespace Cert.ReferenceIdeal.RunH

open Cert.ReferenceIdeal Cert.ReferenceIdeal.Gen Cert.ReferenceIdeal.OpsP Cert.ReferenceIdeal.ReadP GraphMatch.HloSsa Idealize.ShloMosaic Idealize.ShloMosaic.TcCoe Idealize.SL.Sem Idealize.ShloMosaic.StableHlo

variable {F : FTy → Type} [FloatOps F]

/-- On every device, for any float values, from any memory with zero counters: every weakly fair execution of
    @main terminates with the result at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v253) = val_main_v253 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v253).trans (run_main_v253 (launchContents m c)),
      (h c main_arg0).trans (run_main_arg0 (launchContents m c)),
      (h c main_arg1).trans (run_main_arg1 (launchContents m c)),
      (h c main_arg2).trans (run_main_arg2 (launchContents m c)),
      (h c main_arg3).trans (run_main_arg3 (launchContents m c)),
      (h c main_arg4).trans (run_main_arg4 (launchContents m c)),
      (h c main_arg5).trans (run_main_arg5 (launchContents m c)),
      (h c main_arg6).trans (run_main_arg6 (launchContents m c)),
      (h c main_arg7).trans (run_main_arg7 (launchContents m c)),
      (h c main_arg8).trans (run_main_arg8 (launchContents m c)),
      (h c main_arg9).trans (run_main_arg9 (launchContents m c)),
      (h c main_arg10).trans (run_main_arg10 (launchContents m c)),
      (h c main_arg11).trans (run_main_arg11 (launchContents m c)),
      (h c main_arg12).trans (run_main_arg12 (launchContents m c)),
      (h c main_arg13).trans (run_main_arg13 (launchContents m c)),
      (h c main_arg14).trans (run_main_arg14 (launchContents m c)),
      (h c main_arg15).trans (run_main_arg15 (launchContents m c)),
      (h c main_arg16).trans (run_main_arg16 (launchContents m c)),
      (h c main_arg17).trans (run_main_arg17 (launchContents m c))⟩)
    (run_seq scopedRefs_eq scopedSems_eq defs main (fun _ => ops) main_eq (fun _ => ops_sub) m ρ (fun _ => hfresh))

end Cert.ReferenceIdeal.RunH

end
-- ==== Proof.PreFacts.lean ====
/-
  The precondition read over the extended reals: every entry of every input is a real number, and the two
  families of divisors, the sums over j of e(i,d) * e'(j,d) built from the two node embeddings, are nonzero.
-/
import proofs.«418941_j65867618451820_3_alg».proof.Pre_finite_inputs
import proofs.«418941_j65867618451820_3_alg».proof.Proof.Gen.Pre_finite_inputs
import proofs.«418941_j65867618451820_3_alg».proof.Proof.RefRead
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

namespace Cert.PreFacts

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- The binary32 pattern with all exponent bits set and zero fraction denotes +∞. -/
theorem ofBits_inf : Ideal.ofBits .f32 0x7F800000#32 = ⊤ := by simp [Ideal.ofBits, Ideal.ieee]

/-- The all-zero binary32 pattern denotes 0. -/
theorem ofBits_zero : Ideal.ofBits .f32 0x00000000#32 = 0 := by simp [Ideal.ofBits, Ideal.ieee]

/-- An extended real whose absolute value max x (-x) lies strictly below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- If the conjunction over all entries of "|x| < +∞" holds, every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (j : s.Idx) :
    ∃ r : ℝ, x j = (r : EReal) := by
  have e := Host.reduce_andi_all _ _ hr hu ix0 h j
  rw [cmpf_apply, broadcastInDim_scalar_apply, constant_apply, ofBits_inf] at e
  exact real_of_abs_lt_top (x j) e

/-- The row-replicated embedding read at (i, k, d) is its entry (i, d). -/
theorem rowRep_apply (A : FVec Ideal S256x128 .f32) (i k : Fin 256) (d : Fin 128) :
    broadcastInDim S256x256x128 ![0, 1, 2] bcast_S256x1x128_S256x256x128_0_1_2
      (broadcastInDim S256x1x128 ![0, 2] bcast_S256x128_S256x1x128_0_2 A) (ix3 i k d) = A (ix2 i d) := by
  rw [broadcastInDim_apply _ bcast_S256x1x128_S256x256x128_0_1_2 _ (ix3 i k d) (ix3 i (0 : Fin 1) d) (fun a => match a with
      | ⟨0, _⟩ => by show i.val = if (256 : Nat) = 1 then 0 else i.val; rw [if_neg (by decide)]
      | ⟨1, _⟩ => by show 0 = if (1 : Nat) = 1 then 0 else k.val; rw [if_pos rfl]
      | ⟨2, _⟩ => by show d.val = if (128 : Nat) = 1 then 0 else d.val; rw [if_neg (by decide)]),
    broadcastInDim_apply _ bcast_S256x128_S256x1x128_0_2 A (ix3 i (0 : Fin 1) d) (ix2 i d) (fun a => match a with
      | ⟨0, _⟩ => by show i.val = if (256 : Nat) = 1 then 0 else i.val; rw [if_neg (by decide)]
      | ⟨1, _⟩ => by show d.val = if (128 : Nat) = 1 then 0 else d.val; rw [if_neg (by decide)])]

/-- The column-replicated embedding read at (i, k, d) is its entry (k, d). -/
theorem colRep_apply (B : FVec Ideal S256x128 .f32) (i k : Fin 256) (d : Fin 128) :
    broadcastInDim S256x256x128 ![0, 1, 2] bcast_S1x256x128_S256x256x128_0_1_2
      (broadcastInDim S1x256x128 ![1, 2] bcast_S256x128_S1x256x128_1_2 B) (ix3 i k d) = B (ix2 k d) := by
  rw [broadcastInDim_apply _ bcast_S1x256x128_S256x256x128_0_1_2 _ (ix3 i k d) (ix3 (0 : Fin 1) k d) (fun a => match a with
      | ⟨0, _⟩ => by show 0 = if (1 : Nat) = 1 then 0 else i.val; rw [if_pos rfl]
      | ⟨1, _⟩ => by show k.val = if (256 : Nat) = 1 then 0 else k.val; rw [if_neg (by decide)]
      | ⟨2, _⟩ => by show d.val = if (128 : Nat) = 1 then 0 else d.val; rw [if_neg (by decide)]),
    broadcastInDim_apply _ bcast_S256x128_S1x256x128_1_2 B (ix3 (0 : Fin 1) k d) (ix2 k d) (fun a => match a with
      | ⟨0, _⟩ => by show k.val = if (256 : Nat) = 1 then 0 else k.val; rw [if_neg (by decide)]
      | ⟨1, _⟩ => by show d.val = if (128 : Nat) = 1 then 0 else d.val; rw [if_neg (by decide)])]

/-- Summing a rank-3 array over its middle axis. -/
theorem reduces_d1 : S256x256x128.Reduces [1] S256x128 := by decide

/-- Two extended reals that compare "not equal" are different. -/
theorem ne_of_cmp_une (s t : EReal) (h : Ideal.cmp .une s t = 1#1) : s ≠ t := by
  intro hst
  subst hst
  simp [Ideal.cmp] at h

/-- If the conjunction over all (i, d) of "the sum over j of A(i,d) * B(j,d) differs from 0" holds, each such sum is nonzero. -/
theorem sum_ne_zero (A B : FVec Ideal S256x128 .f32)
    (h : Host.reduce IntOp.andi
          (cmpf .une
            (Host.reduceAdd
              (mulf (broadcastInDim S256x256x128 ![0, 1, 2] bcast_S256x1x128_S256x256x128_0_1_2 (broadcastInDim S256x1x128 ![0, 2] bcast_S256x128_S256x1x128_0_2 A))
                    (broadcastInDim S256x256x128 ![0, 1, 2] bcast_S1x256x128_S256x256x128_0_1_2 (broadcastInDim S1x256x128 ![1, 2] bcast_S256x128_S1x256x128_1_2 B)))
              (constant S_ .f32 0x00000000#32) reducesTo_S256x256x128_S256x128_d1 h_S_)
            (broadcastInDim S256x128 ![] bcast_S_S256x128 (constant S_ .f32 0x00000000#32)))
          (constantI S_ 1 1#1) reducesTo_S256x128_S_d0_1 h_S_ ix0 = 1#1)
    (i : Fin 256) (d : Fin 128) : (∑ j : Fin 256, A (ix2 i d) * B (ix2 j d)) ≠ 0 := by
  have e := Host.reduce_andi_all _ _ reducesTo_S256x128_S_d0_1 h_S_ ix0 h (ix2 i d)
  rw [cmpf_apply, broadcastInDim_scalar_apply, constant_apply, ofBits_zero, hostReduceAdd_apply,
    Ideal.hostReduceAdd_single reducesTo_S256x256x128_S256x128_d1 reduces_d1, constant_apply, ofBits_zero, zero_add] at e
  refine fun hz => ne_of_cmp_une _ _ e (Eq.trans (Finset.sum_congr rfl fun (k : Fin 256) _ => ?_) hz)
  have hs : reduces_d1.lift (ix2 i d) k = ix3 i k d :=
    funext fun a => Fin.ext (by match a with | ⟨0, _⟩ => rfl | ⟨1, _⟩ => rfl | ⟨2, _⟩ => rfl)
  rw [hs, mulf_apply, rowRep_apply, colRep_apply]

/-- The node embedding relu(x * w1 + b1) * w2 + b2, as the precondition spells it. -/
def emb (x : FVec Ideal S256x128 .f32) (x2 : FVec Ideal S128x512 .f32) (x3 : FVec Ideal S512 .f32)
    (x4 : FVec Ideal S512x128 .f32) (x5 : FVec Ideal S128 .f32) : FVec Ideal S256x128 .f32 :=
  addf
    (Host.dotGeneral dot_S256x512_S512x128_S256x128_1_0_0_1_n_n none
      (maximumf
        (addf (Host.dotGeneral dot_S256x128_S128x512_S256x512_1_0_0_1_n_n none x x2)
          (broadcastInDim S256x512 ![0, 1] bcast_S1x512_S256x512_0_1 (broadcastInDim S1x512 ![1] bcast_S512_S1x512_1 x3)))
        (broadcastInDim S256x512 ![] bcast_S_S256x512 (constant S_ .f32 0x00000000#32)))
      x4)
    (broadcastInDim S256x128 ![0, 1] bcast_S1x128_S256x128_0_1 (broadcastInDim S1x128 ![1] bcast_S128_S1x128_1 x5))

/-- It is the reference's first embedding stage ... -/
theorem emb_eq_v8 (x : FVec Ideal S256x128 .f32) (x2 : FVec Ideal S128x512 .f32) (x3 : FVec Ideal S512 .f32)
    (x4 : FVec Ideal S512x128 .f32) (x5 : FVec Ideal S128 .f32) :
    emb x x2 x3 x4 x5 = Cert.ReferenceIdeal.ReadP.val_main_v8 (F := Ideal) x x2 x3 x4 x5 := rfl

/-- ... and, on the other graph's nodes, its second. -/
theorem emb_eq_v17 (x : FVec Ideal S256x128 .f32) (x2 : FVec Ideal S128x512 .f32) (x3 : FVec Ideal S512 .f32)
    (x4 : FVec Ideal S512x128 .f32) (x5 : FVec Ideal S128 .f32) :
    emb x x2 x3 x4 x5 = Cert.ReferenceIdeal.ReadP.val_main_v17 (F := Ideal) x x2 x3 x4 x5 := rfl

/-- A conjunction of two one-bit scalars is 1 exactly when both are. -/
theorem andi_ix0 (a b : IVec S_ 1) : andi a b ix0 = 1#1 ↔ a ix0 = 1#1 ∧ b ix0 = 1#1 := IntOp.andi_eq_one

/-- The precondition, decoded: all eighteen inputs have real entries only, and both families of divisors are nonzero. -/
theorem pre_facts
    (x0 x1 : FVec Ideal S256x128 .f32) (x2 : FVec Ideal S128x512 .f32) (x3 : FVec Ideal S512 .f32)
    (x4 : FVec Ideal S512x128 .f32) (x5 : FVec Ideal S128 .f32) (x6 : FVec Ideal S768x512 .f32)
    (x7 : FVec Ideal S512 .f32) (x8 : FVec Ideal S512x128 .f32) (x9 : FVec Ideal S128 .f32)
    (x10 : FVec Ideal S384x512 .f32) (x11 : FVec Ideal S512 .f32) (x12 : FVec Ideal S512x128 .f32)
    (x13 : FVec Ideal S128 .f32) (x14 : FVec Ideal S384x128 .f32) (x15 : FVec Ideal S128 .f32)
    (x16 : FVec Ideal S256x1 .f32) (x17 : FVec Ideal S1 .f32)
    (h : Cert.Pre_finite_inputs.fn (F := Ideal) x0 x1 x2 x3 x4 x5 x6 x7 x8 x9 x10 x11 x12 x13 x14 x15 x16 x17 = fun _ => 1#1) :
    (∀ j, ∃ r : ℝ, x0 j = (r : EReal)) ∧ (∀ j, ∃ r : ℝ, x1 j = (r : EReal)) ∧ (∀ j, ∃ r : ℝ, x2 j = (r : EReal)) ∧
    (∀ j, ∃ r : ℝ, x3 j = (r : EReal)) ∧ (∀ j, ∃ r : ℝ, x4 j = (r : EReal)) ∧ (∀ j, ∃ r : ℝ, x5 j = (r : EReal)) ∧
    (∀ j, ∃ r : ℝ, x6 j = (r : EReal)) ∧ (∀ j, ∃ r : ℝ, x7 j = (r : EReal)) ∧ (∀ j, ∃ r : ℝ, x8 j = (r : EReal)) ∧
    (∀ j, ∃ r : ℝ, x9 j = (r : EReal)) ∧ (∀ j, ∃ r : ℝ, x10 j = (r : EReal)) ∧ (∀ j, ∃ r : ℝ, x11 j = (r : EReal)) ∧
    (∀ j, ∃ r : ℝ, x12 j = (r : EReal)) ∧ (∀ j, ∃ r : ℝ, x13 j = (r : EReal)) ∧ (∀ j, ∃ r : ℝ, x14 j = (r : EReal)) ∧
    (∀ j, ∃ r : ℝ, x15 j = (r : EReal)) ∧ (∀ j, ∃ r : ℝ, x16 j = (r : EReal)) ∧ (∀ j, ∃ r : ℝ, x17 j = (r : EReal)) ∧
    (∀ (i : Fin 256) (d : Fin 128), (∑ j : Fin 256,
        Cert.ReferenceIdeal.ReadP.val_main_v8 (F := Ideal) x0 x2 x3 x4 x5 (ix2 i d) *
          Cert.ReferenceIdeal.ReadP.val_main_v17 (F := Ideal) x1 x2 x3 x4 x5 (ix2 j d)) ≠ 0) ∧
    (∀ (i : Fin 256) (d : Fin 128), (∑ j : Fin 256,
        Cert.ReferenceIdeal.ReadP.val_main_v17 (F := Ideal) x1 x2 x3 x4 x5 (ix2 i d) *
          Cert.ReferenceIdeal.ReadP.val_main_v8 (F := Ideal) x0 x2 x3 x4 x5 (ix2 j d)) ≠ 0) := by
  have h0 := congrFun h ix0
  dsimp only [fn, fn_part1, fn_part2, fn_part3, fn_part4, fn_part5, fn_part6, fn_part7, fn_part8] at h0
  simp only [andi_ix0] at h0
  obtain ⟨⟨⟨⟨⟨⟨⟨⟨⟨⟨⟨⟨⟨⟨⟨⟨⟨⟨⟨k0, k1⟩, k2⟩, k3⟩, k4⟩, k5⟩, k6⟩, k7⟩, k8⟩, k9⟩, k10⟩, k11⟩, k12⟩, k13⟩, k14⟩, k15⟩, k16⟩, k17⟩, k18⟩, k19⟩ := h0
  refine ⟨all_real x0 _ _ _ k0, all_real x1 _ _ _ k1, all_real x2 _ _ _ k2, all_real x3 _ _ _ k3, all_real x4 _ _ _ k4,
    all_real x5 _ _ _ k5, all_real x6 _ _ _ k6, all_real x7 _ _ _ k7, all_real x8 _ _ _ k8, all_real x9 _ _ _ k9,
    all_real x10 _ _ _ k10, all_real x11 _ _ _ k11, all_real x12 _ _ _ k12, all_real x13 _ _ _ k13, all_real x14 _ _ _ k14,
    all_real x15 _ _ _ k15, all_real x16 _ _ _ k16, all_real x17 _ _ _ k17, ?_, ?_⟩
  · exact sum_ne_zero (Cert.ReferenceIdeal.ReadP.val_main_v8 (F := Ideal) x0 x2 x3 x4 x5)
      (Cert.ReferenceIdeal.ReadP.val_main_v17 (F := Ideal) x1 x2 x3 x4 x5) k18
  · exact sum_ne_zero (Cert.ReferenceIdeal.ReadP.val_main_v17 (F := Ideal) x1 x2 x3 x4 x5)
      (Cert.ReferenceIdeal.ReadP.val_main_v8 (F := Ideal) x0 x2 x3 x4 x5) k19

end Cert.PreFacts

end
-- ==== Proof.Arr.lean ====
/-
  Real-valued arrays seen as arrays of extended reals, on literal shapes of rank 1, 2 and 3, with their
  entries read at coordinates, and the converse: an array all of whose entries are real is one of these.
-/
import Idealize.ShloMosaic.PureOps.Ideal
import Idealize.ShloMosaic.Lib.ValueIdx

noncomputable section

namespace GraphMatch

open Idealize.ShloMosaic ValueIdx

/-- A real vector as an array of extended reals. -/
def arr1 {n : Nat} (f : Fin n → ℝ) : (⟨1, ![n]⟩ : Shape).Idx → EReal :=
  fun j => ((f ⟨(j 0).val, (j 0).isLt⟩ : ℝ) : EReal)

/-- A real matrix as an array of extended reals. -/
def arr2 {r c : Nat} (f : Fin r → Fin c → ℝ) : (⟨2, ![r, c]⟩ : Shape).Idx → EReal :=
  fun j => ((f ⟨(j 0).val, (j 0).isLt⟩ ⟨(j 1).val, (j 1).isLt⟩ : ℝ) : EReal)

/-- A real array of rank 3 as an array of extended reals. -/
def arr3 {p r c : Nat} (f : Fin p → Fin r → Fin c → ℝ) : (⟨3, ![p, r, c]⟩ : Shape).Idx → EReal :=
  fun j => ((f ⟨(j 0).val, (j 0).isLt⟩ ⟨(j 1).val, (j 1).isLt⟩ ⟨(j 2).val, (j 2).isLt⟩ : ℝ) : EReal)

theorem arr1_ix1 {n : Nat} (f : Fin n → ℝ) (a : Fin n) : arr1 f (ix1 a) = ((f a : ℝ) : EReal) := rfl
theorem arr2_ix2 {r c : Nat} (f : Fin r → Fin c → ℝ) (a : Fin r) (b : Fin c) : arr2 f (ix2 a b) = ((f a b : ℝ) : EReal) := rfl
theorem arr3_ix3 {p r c : Nat} (f : Fin p → Fin r → Fin c → ℝ) (a : Fin p) (b : Fin r) (d : Fin c) :
    arr3 f (ix3 a b d) = ((f a b d : ℝ) : EReal) := rfl

/-- Two arrays of rank 2 are equal when they agree at every pair of coordinates. -/
theorem ext2 {r c : Nat} {α : Type} {u v : (⟨2, ![r, c]⟩ : Shape).Idx → α} (h : ∀ a b, u (ix2 a b) = v (ix2 a b)) : u = v :=
  funext fun j => by rw [eq_ix2 j]; exact h _ _
theorem ext1 {n : Nat} {α : Type} {u v : (⟨1, ![n]⟩ : Shape).Idx → α} (h : ∀ a, u (ix1 a) = v (ix1 a)) : u = v :=
  funext fun j => by rw [eq_ix1 j]; exact h _
theorem ext3 {p r c : Nat} {α : Type} {u v : (⟨3, ![p, r, c]⟩ : Shape).Idx → α} (h : ∀ a b d, u (ix3 a b d) = v (ix3 a b d)) : u = v :=
  funext fun j => by rw [eq_ix3 j]; exact h _ _ _

/-- An array of rank 2 whose entries are all real is a real matrix. -/
theorem exists_arr2 {r c : Nat} (u : (⟨2, ![r, c]⟩ : Shape).Idx → EReal) (h : ∀ j, ∃ t : ℝ, u j = (t : EReal)) :
    ∃ f : Fin r → Fin c → ℝ, u = arr2 f := by
  choose g hg using h
  exact ⟨fun a b => g (ix2 a b), ext2 fun a b => by rw [hg, arr2_ix2]⟩

theorem exists_arr1 {n : Nat} (u : (⟨1, ![n]⟩ : Shape).Idx → EReal) (h : ∀ j, ∃ t : ℝ, u j = (t : EReal)) :
    ∃ f : Fin n → ℝ, u = arr1 f := by
  choose g hg using h
  exact ⟨fun a => g (ix1 a), ext1 fun a => by rw [hg, arr1_ix1]⟩

end GraphMatch

end
-- ==== Proof.LibERealCoe.lean ====
/-
  Real numbers inside the extended reals: finite sums, quotients by a nonzero real, the exponential and the
  maximum with zero of real numbers stay real, and three binary32 patterns denote the reals 0, 256 and 1/256.
-/
import Idealize.ShloMosaic.PureOps.Ideal
import Mathlib.Data.EReal.Basic
import Mathlib.Data.EReal.Operations
import Mathlib.Data.EReal.Inv
import Mathlib.Algebra.BigOperators.Group.Finset.Basic

noncomputable section

namespace GraphMatch.ERealCoe

open Idealize.ShloMosaic

/-- A finite sum of real numbers, each read as an extended real, is the real sum read as an extended real. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real, taken in the extended reals, is the real quotient. -/
theorem div_coe (x y : ℝ) (hy : y ≠ 0) : Ideal.div (x : EReal) (y : EReal) = ((x / y : ℝ) : EReal) := by
  rw [Ideal.div_coe hy, ← EReal.coe_mul, mul_one_div]

/-- The exponential of a real number, taken in the extended reals, is the real exponential. -/
theorem exp_coe (x : ℝ) : Ideal.exp (x : EReal) = ((Real.exp x : ℝ) : EReal) := rfl

/-- The maximum of a real number and zero, taken in the extended reals, is the real maximum. -/
theorem max_coe_zero (x : ℝ) : max (x : EReal) 0 = ((max x 0 : ℝ) : EReal) := by
  rw [← EReal.coe_zero]
  exact (EReal.coe_strictMono.monotone.map_max).symm

/-- The all-zero binary32 pattern denotes the real number 0. -/
theorem ofBits_zero : Ideal.ofBits .f32 0x00000000#32 = ((0 : ℝ) : EReal) := by
  simp [Ideal.ofBits, Ideal.ieee]

/-- The binary32 pattern with exponent field 135 and zero fraction denotes 2 ^ 8 = 256. -/
theorem ofBits_256 : Ideal.ofBits .f32 0x43800000#32 = ((256 : ℝ) : EReal) := by
  simp [Ideal.ofBits, Ideal.ieee, -EReal.coe_mul]; norm_num

/-- The binary32 pattern with exponent field 119 and zero fraction denotes 2 ^ (-8) = 1 / 256. -/
theorem ofBits_inv256 : Ideal.ofBits .f32 0x3B800000#32 = ((1 / 256 : ℝ) : EReal) := by
  simp [Ideal.ofBits, Ideal.ieee, -EReal.coe_mul]; norm_num

end GraphMatch.ERealCoe

end
-- ==== Proof.EmbReal.lean ====
/-
  The node embedding relu(x * w1 + b1) * w2 + b2 of real inputs is a real matrix: over the extended reals, both
  embedding stages of the reference, fed real arrays, give the real two-layer perceptron entry by entry.
-/
import proofs.«418941_j65867618451820_3_alg».proof.Proof.RefRead
import proofs.«418941_j65867618451820_3_alg».proof.Proof.Arr
import proofs.«418941_j65867618451820_3_alg».proof.Proof.LibERealCoe
import Idealize.ShloMosaic.Lib.ValueIdx
import Idealize.ShloMosaic.PureOps.Ideal.Laws
import Mathlib.Data.EReal.Basic
import Mathlib.Data.EReal.Operations

noncomputable section

namespace GraphMatch

/-- The two-layer perceptron on node features: a rectified affine layer of width 512, then an affine layer of width 128. -/
def mlp (x : Fin 256 → Fin 128 → ℝ) (w1 : Fin 128 → Fin 512 → ℝ) (b1 : Fin 512 → ℝ) (w2 : Fin 512 → Fin 128 → ℝ)
    (b2 : Fin 128 → ℝ) (i : Fin 256) (d : Fin 128) : ℝ :=
  (∑ h : Fin 512, max ((∑ k : Fin 128, x i k * w1 k h) + b1 h) 0 * w2 h d) + b2 d

end GraphMatch

namespace Cert.EmbReal

open Idealize.ShloMosaic Idealize.ShloMosaic.ValueIdx GraphMatch GraphMatch.ERealCoe Cert.ReferenceIdeal Cert.ReferenceIdeal.ReadP

variable (x : Fin 256 → Fin 128 → ℝ) (w1 : Fin 128 → Fin 512 → ℝ) (b1 : Fin 512 → ℝ) (w2 : Fin 512 → Fin 128 → ℝ)
  (b2 : Fin 128 → ℝ)

/-- The hidden layer of real inputs is real: max (x * w1 + b1) 0, entry by entry. -/
theorem hidden_real :
    val_main_v4 (F := Ideal) (arr2 x) (arr2 w1) (arr1 b1)
      = arr2 (fun (i : Fin 256) (h : Fin 512) => max ((∑ k : Fin 128, x i k * w1 k h) + b1 h) 0) := by
  refine ext2 fun i h => ?_
  rw [val_main_v4_apply, val_main_v3_apply, val_main_v0_apply, val_main_v2_apply, val_main_v1_apply,
    val_main_call0_v0_apply, val_main_call0_cst_apply, arr2_ix2]
  show max ((∑ k : Fin 128, ((x i k : ℝ) : EReal) * ((w1 k h : ℝ) : EReal)) + ((b1 h : ℝ) : EReal))
      (Ideal.ofBits .f32 0x00000000#32) = _
  simp only [← EReal.coe_mul]
  rw [coe_sum, ← EReal.coe_add, ofBits_zero, EReal.coe_zero, max_coe_zero]

/-- The first embedding stage of real inputs is the real perceptron. -/
theorem emb1_real :
    val_main_v8 (F := Ideal) (arr2 x) (arr2 w1) (arr1 b1) (arr2 w2) (arr1 b2) = arr2 (mlp x w1 b1 w2 b2) := by
  refine ext2 fun i d => ?_
  rw [val_main_v8_apply, val_main_v5_apply, hidden_real, val_main_v7_apply, val_main_v6_apply, arr2_ix2]
  show (∑ h : Fin 512, ((max ((∑ k : Fin 128, x i k * w1 k h) + b1 h) 0 : ℝ) : EReal) * ((w2 h d : ℝ) : EReal))
      + ((b2 d : ℝ) : EReal) = _
  simp only [← EReal.coe_mul]
  rw [coe_sum, ← EReal.coe_add]
  rfl

/-- The second embedding stage, the same operations on the other graph's nodes, likewise. -/
theorem emb2_real :
    val_main_v17 (F := Ideal) (arr2 x) (arr2 w1) (arr1 b1) (arr2 w2) (arr1 b2) = arr2 (mlp x w1 b1 w2 b2) :=
  emb1_real x w1 b1 w2 b2

end Cert.EmbReal

end
-- ==== Proof.Spec.lean ====
/-
  The mathematics of the two fused stages, over the reals.

  Graph matching layer on one graph of 256 nodes with 128 features (x), hidden width 512.
  * Edge message stage.  For an ordered pair of nodes (m, n) the edge feature is the concatenation
    [x m, e_m, x n, e_n] (e_i the i-th unit vector of length 256, 768 entries in all); the edge embedding is a
    two-layer perceptron of it (W1, b1, W2, b2); the message is a two-layer perceptron (P1, pb1, P2, pb2) of the
    concatenation [x m, x n, E m n] (384 entries); node m's result is the mean of its 256 messages.
    `intraRef` is this reading.  `intraKer` is the rearrangement a fused kernel computes: the one-hot parts of the
    first product are row lookups, the edge embedding's second layer is folded into the message's first layer
    (We = W2 · P1[256:384], its bias into pb1), and the mean is taken as a sum over 16 tiles of 16 nodes, then
    divided by 256.
  * Cross-graph stage.  For a, b : 256 × 128, `crossRef a b i d` is the mean over j of b j d · exp (a i d · b j d) / s,
    s = Σ_j a i d · b j d; `crossKer` is ((Σ_j b j d · exp (a i d · b j d)) · (1/256)) / (a i d · Σ_j b j d).
-/
import Mathlib.Analysis.SpecialFunctions.Exp
import Mathlib.Algebra.BigOperators.Fin

noncomputable section

namespace GraphMatch

open Finset

/-! ## The edge message stage -/

section Intra

variable (x : Fin 256 → Fin 128 → ℝ)
  (W1 : Fin 768 → Fin 512 → ℝ) (b1 : Fin 512 → ℝ) (W2 : Fin 512 → Fin 128 → ℝ) (b2 : Fin 128 → ℝ)
  (P1 : Fin 384 → Fin 512 → ℝ) (pb1 : Fin 512 → ℝ) (P2 : Fin 512 → Fin 128 → ℝ) (pb2 : Fin 128 → ℝ)

/-- A node's features followed by its one-hot position: 128 + 256 entries. -/
def nodeFeat (m : Fin 256) (k : Fin 384) : ℝ :=
  if h : k.val < 128 then x m ⟨k.val, h⟩ else if k.val - 128 = m.val then 1 else 0

/-- The edge feature of the ordered pair (m, n): node m's 384 entries, then node n's. -/
def edgeFeat (m n : Fin 256) (k : Fin 768) : ℝ :=
  if h : k.val < 384 then nodeFeat x m ⟨k.val, h⟩ else nodeFeat x n ⟨k.val - 384, by have := k.isLt; omega⟩

/-- First layer of the edge embedding, before the rectifier. -/
def edgePre (m n : Fin 256) (h : Fin 512) : ℝ := (∑ k : Fin 768, edgeFeat x m n k * W1 k h) + b1 h

/-- The edge embedding of (m, n). -/
def edgeEmb (m n : Fin 256) (e : Fin 128) : ℝ := (∑ h : Fin 512, max (edgePre x W1 b1 m n h) 0 * W2 h e) + b2 e

/-- The message's input: x m, x n, the edge embedding: 384 entries. -/
def msgFeat (m n : Fin 256) (k : Fin 384) : ℝ :=
  if h : k.val < 128 then x m ⟨k.val, h⟩
  else if h' : k.val < 256 then x n ⟨k.val - 128, by omega⟩
  else edgeEmb x W1 b1 W2 b2 m n ⟨k.val - 256, by have := k.isLt; omega⟩

/-- First layer of the message perceptron, before the rectifier. -/
def msgPre (m n : Fin 256) (h : Fin 512) : ℝ := (∑ k : Fin 384, msgFeat x W1 b1 W2 b2 m n k * P1 k h) + pb1 h

/-- The message from n to m. -/
def msg (m n : Fin 256) (d : Fin 128) : ℝ :=
  (∑ h : Fin 512, max (msgPre x W1 b1 W2 b2 P1 pb1 m n h) 0 * P2 h d) + pb2 d

/-- The reference reading: the mean of node m's messages. -/
def intraRef (m : Fin 256) (d : Fin 128) : ℝ := (∑ n : Fin 256, msg x W1 b1 W2 b2 P1 pb1 P2 pb2 m n d) / 256

/-! ### The fused rearrangement -/

/-- Rows 0..127 of W1 (the weights of x m). -/
def wXi (k : Fin 128) (h : Fin 512) : ℝ := W1 ⟨k.val, by have := k.isLt; omega⟩ h
/-- Rows 128..383 of W1 (looked up by m) with the first bias added. -/
def wOib (m : Fin 256) (h : Fin 512) : ℝ := W1 ⟨128 + m.val, by have := m.isLt; omega⟩ h + b1 h
/-- Rows 384..511 of W1 (the weights of x n). -/
def wXj (k : Fin 128) (h : Fin 512) : ℝ := W1 ⟨384 + k.val, by have := k.isLt; omega⟩ h
/-- Rows 512..767 of W1 (looked up by n). -/
def wOj (n : Fin 256) (h : Fin 512) : ℝ := W1 ⟨512 + n.val, by have := n.isLt; omega⟩ h
/-- Rows 0..127, 128..255, 256..383 of P1. -/
def pM (k : Fin 128) (h : Fin 512) : ℝ := P1 ⟨k.val, by have := k.isLt; omega⟩ h
def pN (k : Fin 128) (h : Fin 512) : ℝ := P1 ⟨128 + k.val, by have := k.isLt; omega⟩ h
def pE (e : Fin 128) (h : Fin 512) : ℝ := P1 ⟨256 + e.val, by have := e.isLt; omega⟩ h
/-- The edge embedding's second layer folded into the message's first. -/
def wE (h' h : Fin 512) : ℝ := ∑ e : Fin 128, W2 h' e * pE P1 e h
/-- The message's first bias with the edge embedding's second bias folded in. -/
def pb1e (h : Fin 512) : ℝ := pb1 h + ∑ e : Fin 128, b2 e * pE P1 e h

end Intra

/-! ### The fused rearrangement over its own operands

The fused computation as a function of the arrays it is handed: the node features `x`, the four row blocks of the
first edge layer (`wxi`, `woib` with the bias added, `wxj`, `woj`), the folded matrix `we`, the two row blocks `pm`,
`pn` of the message layer, its folded bias `pbe`, and the message's second layer `p2`, `pb2`. -/

section Fused

variable (x : Fin 256 → Fin 128 → ℝ)
  (wxi : Fin 128 → Fin 512 → ℝ) (woib : Fin 256 → Fin 512 → ℝ) (wxj : Fin 128 → Fin 512 → ℝ) (woj : Fin 256 → Fin 512 → ℝ)
  (we : Fin 512 → Fin 512 → ℝ) (pm pn : Fin 128 → Fin 512 → ℝ) (pbe : Fin 512 → ℝ)
  (p2 : Fin 512 → Fin 128 → ℝ) (pb2 : Fin 128 → ℝ)

def gA (m : Fin 256) (h : Fin 512) : ℝ := (∑ k : Fin 128, x m k * wxi k h) + woib m h
def gB (n : Fin 256) (h : Fin 512) : ℝ := (∑ k : Fin 128, x n k * wxj k h) + woj n h
def gC (m : Fin 256) (h : Fin 512) : ℝ := (∑ k : Fin 128, x m k * pm k h) + pbe h
def gD (n : Fin 256) (h : Fin 512) : ℝ := ∑ k : Fin 128, x n k * pn k h
def gE (m n : Fin 256) (h : Fin 512) : ℝ := ∑ h' : Fin 512, max (gA x wxi woib m h' + gB x wxj woj n h') 0 * we h' h
def gMsg (m n : Fin 256) (d : Fin 128) : ℝ :=
  (∑ h : Fin 512, max (gC x pm pbe m h + gD x pn n h + gE x wxi woib wxj woj we m n h) 0 * p2 h d) + pb2 d

/-- Node n as the j-th node of tile t. -/
def tileNode (t j : Fin 16) : Fin 256 := ⟨16 * t.val + j.val, by have := t.isLt; have := j.isLt; omega⟩

/-- One tile's contribution to node m: the 16 messages of the tile summed. -/
def gTile (m : Fin 256) (d : Fin 128) (t : Fin 16) : ℝ :=
  ∑ j : Fin 16, gMsg x wxi woib wxj woj we pm pn pbe p2 pb2 m (tileNode t j) d

/-- The running sum after tile t: tiles 0..t added in order onto zero. -/
def gAcc (m : Fin 256) (d : Fin 128) : ℕ → ℝ
  | 0 => 0 + gTile x wxi woib wxj woj we pm pn pbe p2 pb2 m d 0
  | t + 1 => gAcc m d t + (if h : t + 1 < 16 then gTile x wxi woib wxj woj we pm pn pbe p2 pb2 m d ⟨t + 1, h⟩ else 0)

/-- The fused reading: the sum over the 16 tiles, divided by 256. -/
def gIntra (m : Fin 256) (d : Fin 128) : ℝ := gAcc x wxi woib wxj woj we pm pn pbe p2 pb2 m d 15 / 256

end Fused

section IntraKer

variable (x : Fin 256 → Fin 128 → ℝ)
  (W1 : Fin 768 → Fin 512 → ℝ) (b1 : Fin 512 → ℝ) (W2 : Fin 512 → Fin 128 → ℝ) (b2 : Fin 128 → ℝ)
  (P1 : Fin 384 → Fin 512 → ℝ) (pb1 : Fin 512 → ℝ) (P2 : Fin 512 → Fin 128 → ℝ) (pb2 : Fin 128 → ℝ)

/-- The fused reading at the operands the wrapper builds from the weights. -/
def intraKer (m : Fin 256) (d : Fin 128) : ℝ :=
  gIntra x (wXi W1) (wOib W1 b1) (wXj W1) (wOj W1) (wE W2 P1) (pM P1) (pN P1) (pb1e b2 P1 pb1) P2 pb2 m d

end IntraKer

/-! ## The cross-graph stage -/

section Cross

variable (a b : Fin 256 → Fin 128 → ℝ)

/-- The divisor of row i, feature d: the sum over j of the products a i d · b j d. -/
def crossDen (i : Fin 256) (d : Fin 128) : ℝ := ∑ j : Fin 256, a i d * b j d

def crossRef (i : Fin 256) (d : Fin 128) : ℝ :=
  (∑ j : Fin 256, b j d * (Real.exp (a i d * b j d) / crossDen a b i d)) / 256

def crossKer (i : Fin 256) (d : Fin 128) : ℝ :=
  ((∑ j : Fin 256, b j d * Real.exp (a i d * b j d)) * (1 / 256)) / (a i d * ∑ j : Fin 256, b j d)

end Cross

end GraphMatch

end
-- ==== Proof.PreReal.lean ====
/-
  From the precondition to real data: the fourteen inputs the computation reads are real arrays, and the two
  families of divisors of the cross-graph stage, formed from the two real node embeddings, are nonzero.
-/
import proofs.«418941_j65867618451820_3_alg».proof.Proof.PreFacts
import proofs.«418941_j65867618451820_3_alg».proof.Proof.EmbReal
import proofs.«418941_j65867618451820_3_alg».proof.Proof.Spec
import proofs.«418941_j65867618451820_3_alg».proof.Proof.Arr
import proofs.«418941_j65867618451820_3_alg».proof.Proof.LibERealCoe
import Mathlib.Data.EReal.Basic
import Mathlib.Data.EReal.Operations

noncomputable section

namespace Cert.PreReal

open Idealize.ShloMosaic Idealize.ShloMosaic.ValueIdx GraphMatch GraphMatch.ERealCoe Cert.Pre_finite_inputs

/-- If the sum over j of the products a(i,d) * b(j,d), taken in the extended reals, is nonzero, so is the real divisor. -/
theorem crossDen_ne_zero (a b : Fin 256 → Fin 128 → ℝ) (i : Fin 256) (d : Fin 128)
    (h : (∑ j : Fin 256, arr2 a (ix2 i d) * arr2 b (ix2 j d)) ≠ 0) : crossDen a b i d ≠ 0 := by
  intro hz
  apply h
  simp only [arr2_ix2, ← EReal.coe_mul]
  rw [coe_sum, EReal.coe_eq_zero]
  exact hz

/-- The precondition gives real inputs and nonzero divisors. -/
theorem pre_real
    (x0 x1 : FVec Ideal S256x128 .f32) (x2 : FVec Ideal S128x512 .f32) (x3 : FVec Ideal S512 .f32)
    (x4 : FVec Ideal S512x128 .f32) (x5 : FVec Ideal S128 .f32) (x6 : FVec Ideal S768x512 .f32)
    (x7 : FVec Ideal S512 .f32) (x8 : FVec Ideal S512x128 .f32) (x9 : FVec Ideal S128 .f32)
    (x10 : FVec Ideal S384x512 .f32) (x11 : FVec Ideal S512 .f32) (x12 : FVec Ideal S512x128 .f32)
    (x13 : FVec Ideal S128 .f32) (x14 : FVec Ideal S384x128 .f32) (x15 : FVec Ideal S128 .f32)
    (x16 : FVec Ideal S256x1 .f32) (x17 : FVec Ideal S1 .f32)
    (h : Cert.Pre_finite_inputs.fn (F := Ideal) x0 x1 x2 x3 x4 x5 x6 x7 x8 x9 x10 x11 x12 x13 x14 x15 x16 x17 = fun _ => 1#1) :
    ∃ (X1 X2 : Fin 256 → Fin 128 → ℝ) (nw1 : Fin 128 → Fin 512 → ℝ) (nb1 : Fin 512 → ℝ) (nw2 : Fin 512 → Fin 128 → ℝ)
      (nb2 : Fin 128 → ℝ) (W1 : Fin 768 → Fin 512 → ℝ) (b1 : Fin 512 → ℝ) (W2 : Fin 512 → Fin 128 → ℝ) (b2 : Fin 128 → ℝ)
      (P1 : Fin 384 → Fin 512 → ℝ) (pb1 : Fin 512 → ℝ) (P2 : Fin 512 → Fin 128 → ℝ) (pb2 : Fin 128 → ℝ),
      x0 = arr2 X1 ∧ x1 = arr2 X2 ∧ x2 = arr2 nw1 ∧ x3 = arr1 nb1 ∧ x4 = arr2 nw2 ∧ x5 = arr1 nb2 ∧ x6 = arr2 W1 ∧
      x7 = arr1 b1 ∧ x8 = arr2 W2 ∧ x9 = arr1 b2 ∧ x10 = arr2 P1 ∧ x11 = arr1 pb1 ∧ x12 = arr2 P2 ∧ x13 = arr1 pb2 ∧
      (∀ i d, crossDen (mlp X1 nw1 nb1 nw2 nb2) (mlp X2 nw1 nb1 nw2 nb2) i d ≠ 0) ∧
      (∀ i d, crossDen (mlp X2 nw1 nb1 nw2 nb2) (mlp X1 nw1 nb1 nw2 nb2) i d ≠ 0) := by
  obtain ⟨f0, f1, f2, f3, f4, f5, f6, f7, f8, f9, f10, f11, f12, f13, -, -, -, -, n1, n2⟩ :=
    Cert.PreFacts.pre_facts x0 x1 x2 x3 x4 x5 x6 x7 x8 x9 x10 x11 x12 x13 x14 x15 x16 x17 h
  obtain ⟨X1, e0⟩ := exists_arr2 x0 f0
  obtain ⟨X2, e1⟩ := exists_arr2 x1 f1
  obtain ⟨nw1, e2⟩ := exists_arr2 x2 f2
  obtain ⟨nb1, e3⟩ := exists_arr1 x3 f3
  obtain ⟨nw2, e4⟩ := exists_arr2 x4 f4
  obtain ⟨nb2, e5⟩ := exists_arr1 x5 f5
  obtain ⟨W1, e6⟩ := exists_arr2 x6 f6
  obtain ⟨b1, e7⟩ := exists_arr1 x7 f7
  obtain ⟨W2, e8⟩ := exists_arr2 x8 f8
  obtain ⟨b2, e9⟩ := exists_arr1 x9 f9
  obtain ⟨P1, e10⟩ := exists_arr2 x10 f10
  obtain ⟨pb1, e11⟩ := exists_arr1 x11 f11
  obtain ⟨P2, e12⟩ := exists_arr2 x12 f12
  obtain ⟨pb2, e13⟩ := exists_arr1 x13 f13
  refine ⟨X1, X2, nw1, nb1, nw2, nb2, W1, b1, W2, b2, P1, pb1, P2, pb2, e0, e1, e2, e3, e4, e5, e6, e7, e8, e9, e10, e11,
    e12, e13, fun i d => crossDen_ne_zero _ _ i d ?_, fun i d => crossDen_ne_zero _ _ i d ?_⟩
  · have := n1 i d
    rw [e0, e1, e2, e3, e4, e5, Cert.EmbReal.emb1_real, Cert.EmbReal.emb2_real] at this
    exact this
  · have := n2 i d
    rw [e0, e1, e2, e3, e4, e5, Cert.EmbReal.emb1_real, Cert.EmbReal.emb2_real] at this
    exact this

end Cert.PreReal

end
-- ==== Proof.Tail.lean ====
import proofs.«418941_j65867618451820_3_alg».proof.Proof.Gen.KernelIdeal.Launch
import proofs.«418941_j65867618451820_3_alg».proof.Proof.RefRead
import Idealize.ShloMosaic.Lib.StableHlo.Run

/-!
The two programs end with the same host operations: row norms of six blocks, two three-piece
concatenations, the update layer on each, the softmax aggregation of each, and the cosine of the
two aggregated rows. This module shows that the contents the first program's last stretch leaves
in its result buffer are the second program's last stage, given that the buffers the stretch
starts from hold the second program's corresponding stages.

The stretch is cut into pieces, with a cut before and after every concatenation. For each piece: the contents of its result buffer as a stage of
the second program (from hypotheses on the buffers it reads), and the buffers later pieces read that
it leaves alone. The pieces are then chained.
-/

set_option maxRecDepth 4096

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Idealize.ShloMosaic.StableHlo
open Cert.KernelIdeal Cert.KernelIdeal.Gen
open Cert.ReferenceIdeal.ReadP (val_main_v134 val_main_cst_10 val_main_v135 val_main_v136 val_main_v137 val_main_cst_11 val_main_v138 val_main_v139 val_main_v140 val_main_v141 val_main_v142 val_main_cst_12 val_main_v143 val_main_v144 val_main_v145 val_main_cst_13 val_main_v146 val_main_v147 val_main_v148 val_main_v149 val_main_v150 val_main_cst_14 val_main_v151 val_main_v152 val_main_v153 val_main_cst_15 val_main_v154 val_main_v155 val_main_v156 val_main_v157 val_main_v158 val_main_v159 val_main_v160 val_main_v161 val_main_v162 val_main_v163 val_main_cst_16 val_main_v164 val_main_v165 val_main_v166 val_main_cst_17 val_main_v167 val_main_v168 val_main_v169 val_main_v170 val_main_v171 val_main_cst_18 val_main_v172 val_main_v173 val_main_v174 val_main_cst_19 val_main_v175 val_main_v176 val_main_v177 val_main_v178 val_main_v179 val_main_cst_20 val_main_v180 val_main_v181 val_main_v182 val_main_cst_21 val_main_v183 val_main_v184 val_main_v185 val_main_v186 val_main_v187 val_main_v188 val_main_v189 val_main_v190 val_main_v191 val_main_cst_22 val_main_v192 val_main_v193 val_main_cst_23 val_main_v194 val_main_v195 val_main_v196 val_main_v197 val_main_v198 val_main_v199 val_main_v200 val_main_v201 val_main_cst_24 val_main_v202 val_main_cst_25 val_main_v203 val_main_v204 val_main_v205 val_main_v206 val_main_v207 val_main_v208 val_main_cst_26 val_main_v209 val_main_v210 val_main_v211 val_main_v212 val_main_v213 val_main_v214 val_main_cst_27 val_main_v215 val_main_v216 val_main_cst_28 val_main_v217 val_main_v218 val_main_cst_29 val_main_v219 val_main_v220 val_main_v221 val_main_v222 val_main_v223 val_main_v224 val_main_v225 val_main_v226 val_main_cst_30 val_main_v227 val_main_cst_31 val_main_v228 val_main_v229 val_main_v230 val_main_v231 val_main_v232 val_main_v233 val_main_cst_32 val_main_v234 val_main_v235 val_main_v236 val_main_v237 val_main_v238 val_main_v239 val_main_cst_33 val_main_v240 val_main_v241 val_main_v242 val_main_cst_34 val_main_v243 val_main_call6_v0 val_main_call6_cst val_main_call6_v1 val_main_v244 val_main_call7_v0 val_main_call7_cst val_main_call7_v1 val_main_v245 val_main_v246 val_main_cst_35 val_main_v247 val_main_v248 val_main_v249 val_main_cst_36 val_main_v250 val_main_v251 val_main_cst_37 val_main_v252 val_main_v253 val_main_v8 val_main_v17 val_main_v82 val_main_v101 val_main_v117 val_main_v133)

variable {F : FTy → Type} [FloatOps F]

/-- The fold of a literal line of operations at one reference, in one pass: each operation's result at its own
    result buffer is its function's value, at any other reference what was there. -/
macro "fold_results" : tactic =>
  `(tactic| (simp (disch := decide) only [after_cons, after_nil,
      nullary_result', unary_result', binary_result', reshape_result',
      nullary_result_ne', unary_result_ne', binary_result_ne', reshape_result_ne', nary_result_ne']))

set_option maxHeartbeats 40000000 in
/-- Piece S of the stretch: 4 operations, in order. -/
abbrev opsS : List (HloOp τ sig (Elt F)) :=
  ( StableHlo.unary main_v62 main_v63 ((extractStridedSlice S1x256x128 ![0, 0, 0] · slices_S2x256x128_S1x256x128_0_0_0) : (⟨S2x256x128, .f32⟩ : BufTy).Contents (Elt F) → (⟨S1x256x128, .f32⟩ : BufTy).Contents (Elt F))
  :: StableHlo.reshape main_v63 main_v64 rfl shapeCasts_S1x256x128_S256x128
  :: StableHlo.unary main_v62 main_v65 ((extractStridedSlice S1x256x128 ![1, 0, 0] · slices_S2x256x128_S1x256x128_1_0_0) : (⟨S2x256x128, .f32⟩ : BufTy).Contents (Elt F) → (⟨S1x256x128, .f32⟩ : BufTy).Contents (Elt F))
  :: StableHlo.reshape main_v65 main_v66 rfl shapeCasts_S1x256x128_S256x128
  :: [] )

set_option maxHeartbeats 40000000 in
/-- Piece A1 of the stretch: 30 operations, in order. -/
abbrev opsA1 : List (HloOp τ sig (Elt F)) :=
  ( StableHlo.binary main_v38 main_v38 main_v67 (mulf : (⟨S256x128, .f32⟩ : BufTy).Contents (Elt F) → (⟨S256x128, .f32⟩ : BufTy).Contents (Elt F) → (⟨S256x128, .f32⟩ : BufTy).Contents (Elt F))
  :: StableHlo.nullary main_cst_1 (constant S_ .f32 0x00000000#32)
  :: StableHlo.binary main_v67 main_cst_1 main_v68 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F))
  :: StableHlo.unary main_v68 main_v69 (broadcastInDim S256x1 ![0] bcast_S256_S256x1_0 : (⟨S256, .f32⟩ : BufTy).Contents (Elt F) → (⟨S256x1, .f32⟩ : BufTy).Contents (Elt F))
  :: StableHlo.unary main_v69 main_v70 (Host.sqrt : (⟨S256x1, .f32⟩ : BufTy).Contents (Elt F) → (⟨S256x1, .f32⟩ : BufTy).Contents (Elt F))
  :: StableHlo.nullary main_cst_2 (constant S_ .f32 0x2B8CBCCC#32)
  :: StableHlo.unary main_cst_2 main_v71 (broadcastInDim S256x1 ![] bcast_S_S256x1 : (⟨S_, .f32⟩ : BufTy).Contents (Elt F) → (⟨S256x1, .f32⟩ : BufTy).Contents (Elt F))
  :: StableHlo.binary main_v70 main_v71 main_v72 (maximumf : (⟨S256x1, .f32⟩ : BufTy).Contents (Elt F) → (⟨S256x1, .f32⟩ : BufTy).Contents (Elt F) → (⟨S256x1, .f32⟩ : BufTy).Contents (Elt F))
  :: StableHlo.unary main_v72 main_v73 (broadcastInDim S256x128 ![0, 1] bcast_S256x1_S256x128_0_1 : (⟨S256x1, .f32⟩ : BufTy).Contents (Elt F) → (⟨S256x128, .f32⟩ : BufTy).Contents (Elt F))
  :: StableHlo.binary main_v38 main_v73 main_v74 (Host.divf : (⟨S256x128, .f32⟩ : BufTy).Contents (Elt F) → (⟨S256x128, .f32⟩ : BufTy).Contents (Elt F) → (⟨S256x128, .f32⟩ : BufTy).Contents (Elt F))
  :: StableHlo.binary main_v27 main_v27 main_v75 (mulf : (⟨S256x128, .f32⟩ : BufTy).Contents (Elt F) → (⟨S256x128, .f32⟩ : BufTy).Contents (Elt F) → (⟨S256x128, .f32⟩ : BufTy).Contents (Elt F))
  :: StableHlo.nullary main_cst_3 (constant S_ .f32 0x00000000#32)
  :: StableHlo.binary main_v75 main_cst_3 main_v76 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F))
  :: StableHlo.unary main_v76 main_v77 (broadcastInDim S256x1 ![0] bcast_S256_S256x1_0 : (⟨S256, .f32⟩ : BufTy).Contents (Elt F) → (⟨S256x1, .f32⟩ : BufTy).Contents (Elt F))
  :: StableHlo.unary main_v77 main_v78 (Host.sqrt : (⟨S256x1, .f32⟩ : BufTy).Contents (Elt F) → (⟨S256x1, .f32⟩ : BufTy).Contents (Elt F))
  :: StableHlo.nullary main_cst_4 (constant S_ .f32 0x2B8CBCCC#32)
  :: StableHlo.unary main_cst_4 main_v79 (broadcastInDim S256x1 ![] bcast_S_S256x1 : (⟨S_, .f32⟩ : BufTy).Contents (Elt F) → (⟨S256x1, .f32⟩ : BufTy).Contents (Elt F))
  :: StableHlo.binary main_v78 main_v79 main_v80 (maximumf : (⟨S256x1, .f32⟩ : BufTy).Contents (Elt F) → (⟨S256x1, .f32⟩ : BufTy).Contents (Elt F) → (⟨S256x1, .f32⟩ : BufTy).Contents (Elt F))
  :: StableHlo.unary main_v80 main_v81 (broadcastInDim S256x128 ![0, 1] bcast_S256x1_S256x128_0_1 : (⟨S256x1, .f32⟩ : BufTy).Contents (Elt F) → (⟨S256x128, .f32⟩ : BufTy).Contents (Elt F))
  :: StableHlo.binary main_v27 main_v81 main_v82 (Host.divf : (⟨S256x128, .f32⟩ : BufTy).Contents (Elt F) → (⟨S256x128, .f32⟩ : BufTy).Contents (Elt F) → (⟨S256x128, .f32⟩ : BufTy).Contents (Elt F))
  :: StableHlo.binary main_v64 main_v64 main_v83 (mulf : (⟨S256x128, .f32⟩ : BufTy).Contents (Elt F) → (⟨S256x128, .f32⟩ : BufTy).Contents (Elt F) → (⟨S256x128, .f32⟩ : BufTy).Contents (Elt F))
  :: StableHlo.nullary main_cst_5 (constant S_ .f32 0x00000000#32)
  :: StableHlo.binary main_v83 main_cst_5 main_v84 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F))
  :: StableHlo.unary main_v84 main_v85 (broadcastInDim S256x1 ![0] bcast_S256_S256x1_0 : (⟨S256, .f32⟩ : BufTy).Contents (Elt F) → (⟨S256x1, .f32⟩ : BufTy).Contents (Elt F))
  :: StableHlo.unary main_v85 main_v86 (Host.sqrt : (⟨S256x1, .f32⟩ : BufTy).Contents (Elt F) → (⟨S256x1, .f32⟩ : BufTy).Contents (Elt F))
  :: StableHlo.nullary main_cst_6 (constant S_ .f32 0x2B8CBCCC#32)
  :: StableHlo.unary main_cst_6 main_v87 (broadcastInDim S256x1 ![] bcast_S_S256x1 : (⟨S_, .f32⟩ : BufTy).Contents (Elt F) → (⟨S256x1, .f32⟩ : BufTy).Contents (Elt F))
  :: StableHlo.binary main_v86 main_v87 main_v88 (maximumf : (⟨S256x1, .f32⟩ : BufTy).Contents (Elt F) → (⟨S256x1, .f32⟩ : BufTy).Contents (Elt F) → (⟨S256x1, .f32⟩ : BufTy).Contents (Elt F))
  :: StableHlo.unary main_v88 main_v89 (broadcastInDim S256x128 ![0, 1] bcast_S256x1_S256x128_0_1 : (⟨S256x1, .f32⟩ : BufTy).Contents (Elt F) → (⟨S256x128, .f32⟩ : BufTy).Contents (Elt F))
  :: StableHlo.binary main_v64 main_v89 main_v90 (Host.divf : (⟨S256x128, .f32⟩ : BufTy).Contents (Elt F) → (⟨S256x128, .f32⟩ : BufTy).Contents (Elt F) → (⟨S256x128, .f32⟩ : BufTy).Contents (Elt F))
  :: [] )

set_option maxHeartbeats 40000000 in
/-- Piece N1 of the stretch: 1 operations, in order. -/
abbrev opsN1 : List (HloOp τ sig (Elt F)) :=
  ( StableHlo.nary ![main_v74, main_v82, main_v90] main_v91 (fun u => concatenate S256x384 1 [⟨S256x128, u 0⟩, ⟨S256x128, u 1⟩, ⟨S256x128, u 2⟩] concatenates_S256x128_S256x128_S256x128_S256x384_d1)
  :: [] )

set_option maxHeartbeats 40000000 in
/-- Piece A2 of the stretch: 4 operations, in order. -/
abbrev opsA2 : List (HloOp τ sig (Elt F)) :=
  ( StableHlo.binary main_v91 main_arg14 main_v92 ((fun l r => Host.dotGeneral dot_S256x384_S384x128_S256x128_1_0_0_1_n_n none l r) : (⟨S256x384, .f32⟩ : BufTy).Contents (Elt F) → (⟨S384x128, .f32⟩ : BufTy).Contents (Elt F) → (⟨S256x128, .f32⟩ : BufTy).Contents (Elt F))
  :: StableHlo.unary main_arg15 main_v93 (broadcastInDim S1x128 ![1] bcast_S128_S1x128_1 : (⟨S128, .f32⟩ : BufTy).Contents (Elt F) → (⟨S1x128, .f32⟩ : BufTy).Contents (Elt F))
  :: StableHlo.unary main_v93 main_v94 (broadcastInDim S256x128 ![0, 1] bcast_S1x128_S256x128_0_1 : (⟨S1x128, .f32⟩ : BufTy).Contents (Elt F) → (⟨S256x128, .f32⟩ : BufTy).Contents (Elt F))
  :: StableHlo.binary main_v92 main_v94 main_v95 (addf : (⟨S256x128, .f32⟩ : BufTy).Contents (Elt F) → (⟨S256x128, .f32⟩ : BufTy).Contents (Elt F) → (⟨S256x128, .f32⟩ : BufTy).Contents (Elt F))
  :: [] )

set_option maxHeartbeats 40000000 in
/-- Piece B1 of the stretch: 30 operations, in order. -/
abbrev opsB1 : List (HloOp τ sig (Elt F)) :=
  ( StableHlo.binary main_v47 main_v47 main_v96 (mulf : (⟨S256x128, .f32⟩ : BufTy).Contents (Elt F) → (⟨S256x128, .f32⟩ : BufTy).Contents (Elt F) → (⟨S256x128, .f32⟩ : BufTy).Contents (Elt F))
  :: StableHlo.nullary main_cst_7 (constant S_ .f32 0x00000000#32)
  :: StableHlo.binary main_v96 main_cst_7 main_v97 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F))
  :: StableHlo.unary main_v97 main_v98 (broadcastInDim S256x1 ![0] bcast_S256_S256x1_0 : (⟨S256, .f32⟩ : BufTy).Contents (Elt F) → (⟨S256x1, .f32⟩ : BufTy).Contents (Elt F))
  :: StableHlo.unary main_v98 main_v99 (Host.sqrt : (⟨S256x1, .f32⟩ : BufTy).Contents (Elt F) → (⟨S256x1, .f32⟩ : BufTy).Contents (Elt F))
  :: StableHlo.nullary main_cst_8 (constant S_ .f32 0x2B8CBCCC#32)
  :: StableHlo.unary main_cst_8 main_v100 (broadcastInDim S256x1 ![] bcast_S_S256x1 : (⟨S_, .f32⟩ : BufTy).Contents (Elt F) → (⟨S256x1, .f32⟩ : BufTy).Contents (Elt F))
  :: StableHlo.binary main_v99 main_v100 main_v101 (maximumf : (⟨S256x1, .f32⟩ : BufTy).Contents (Elt F) → (⟨S256x1, .f32⟩ : BufTy).Contents (Elt F) → (⟨S256x1, .f32⟩ : BufTy).Contents (Elt F))
  :: StableHlo.unary main_v101 main_v102 (broadcastInDim S256x128 ![0, 1] bcast_S256x1_S256x128_0_1 : (⟨S256x1, .f32⟩ : BufTy).Contents (Elt F) → (⟨S256x128, .f32⟩ : BufTy).Contents (Elt F))
  :: StableHlo.binary main_v47 main_v102 main_v103 (Host.divf : (⟨S256x128, .f32⟩ : BufTy).Contents (Elt F) → (⟨S256x128, .f32⟩ : BufTy).Contents (Elt F) → (⟨S256x128, .f32⟩ : BufTy).Contents (Elt F))
  :: StableHlo.binary main_v29 main_v29 main_v104 (mulf : (⟨S256x128, .f32⟩ : BufTy).Contents (Elt F) → (⟨S256x128, .f32⟩ : BufTy).Contents (Elt F) → (⟨S256x128, .f32⟩ : BufTy).Contents (Elt F))
  :: StableHlo.nullary main_cst_9 (constant S_ .f32 0x00000000#32)
  :: StableHlo.binary main_v104 main_cst_9 main_v105 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F))
  :: StableHlo.unary main_v105 main_v106 (broadcastInDim S256x1 ![0] bcast_S256_S256x1_0 : (⟨S256, .f32⟩ : BufTy).Contents (Elt F) → (⟨S256x1, .f32⟩ : BufTy).Contents (Elt F))
  :: StableHlo.unary main_v106 main_v107 (Host.sqrt : (⟨S256x1, .f32⟩ : BufTy).Contents (Elt F) → (⟨S256x1, .f32⟩ : BufTy).Contents (Elt F))
  :: StableHlo.nullary main_cst_10 (constant S_ .f32 0x2B8CBCCC#32)
  :: StableHlo.unary main_cst_10 main_v108 (broadcastInDim S256x1 ![] bcast_S_S256x1 : (⟨S_, .f32⟩ : BufTy).Contents (Elt F) → (⟨S256x1, .f32⟩ : BufTy).Contents (Elt F))
  :: StableHlo.binary main_v107 main_v108 main_v109 (maximumf : (⟨S256x1, .f32⟩ : BufTy).Contents (Elt F) → (⟨S256x1, .f32⟩ : BufTy).Contents (Elt F) → (⟨S256x1, .f32⟩ : BufTy).Contents (Elt F))
  :: StableHlo.unary main_v109 main_v110 (broadcastInDim S256x128 ![0, 1] bcast_S256x1_S256x128_0_1 : (⟨S256x1, .f32⟩ : BufTy).Contents (Elt F) → (⟨S256x128, .f32⟩ : BufTy).Contents (Elt F))
  :: StableHlo.binary main_v29 main_v110 main_v111 (Host.divf : (⟨S256x128, .f32⟩ : BufTy).Contents (Elt F) → (⟨S256x128, .f32⟩ : BufTy).Contents (Elt F) → (⟨S256x128, .f32⟩ : BufTy).Contents (Elt F))
  :: StableHlo.binary main_v66 main_v66 main_v112 (mulf : (⟨S256x128, .f32⟩ : BufTy).Contents (Elt F) → (⟨S256x128, .f32⟩ : BufTy).Contents (Elt F) → (⟨S256x128, .f32⟩ : BufTy).Contents (Elt F))
  :: StableHlo.nullary main_cst_11 (constant S_ .f32 0x00000000#32)
  :: StableHlo.binary main_v112 main_cst_11 main_v113 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F))
  :: StableHlo.unary main_v113 main_v114 (broadcastInDim S256x1 ![0] bcast_S256_S256x1_0 : (⟨S256, .f32⟩ : BufTy).Contents (Elt F) → (⟨S256x1, .f32⟩ : BufTy).Contents (Elt F))
  :: StableHlo.unary main_v114 main_v115 (Host.sqrt : (⟨S256x1, .f32⟩ : BufTy).Contents (Elt F) → (⟨S256x1, .f32⟩ : BufTy).Contents (Elt F))
  :: StableHlo.nullary main_cst_12 (constant S_ .f32 0x2B8CBCCC#32)
  :: StableHlo.unary main_cst_12 main_v116 (broadcastInDim S256x1 ![] bcast_S_S256x1 : (⟨S_, .f32⟩ : BufTy).Contents (Elt F) → (⟨S256x1, .f32⟩ : BufTy).Contents (Elt F))
  :: StableHlo.binary main_v115 main_v116 main_v117 (maximumf : (⟨S256x1, .f32⟩ : BufTy).Contents (Elt F) → (⟨S256x1, .f32⟩ : BufTy).Contents (Elt F) → (⟨S256x1, .f32⟩ : BufTy).Contents (Elt F))
  :: StableHlo.unary main_v117 main_v118 (broadcastInDim S256x128 ![0, 1] bcast_S256x1_S256x128_0_1 : (⟨S256x1, .f32⟩ : BufTy).Contents (Elt F) → (⟨S256x128, .f32⟩ : BufTy).Contents (Elt F))
  :: StableHlo.binary main_v66 main_v118 main_v119 (Host.divf : (⟨S256x128, .f32⟩ : BufTy).Contents (Elt F) → (⟨S256x128, .f32⟩ : BufTy).Contents (Elt F) → (⟨S256x128, .f32⟩ : BufTy).Contents (Elt F))
  :: [] )

set_option maxHeartbeats 40000000 in
/-- Piece N2 of the stretch: 1 operations, in order. -/
abbrev opsN2 : List (HloOp τ sig (Elt F)) :=
  ( StableHlo.nary ![main_v103, main_v111, main_v119] main_v120 (fun u => concatenate S256x384 1 [⟨S256x128, u 0⟩, ⟨S256x128, u 1⟩, ⟨S256x128, u 2⟩] concatenates_S256x128_S256x128_S256x128_S256x384_d1)
  :: [] )

set_option maxHeartbeats 40000000 in
/-- Piece B2 of the stretch: 4 operations, in order. -/
abbrev opsB2 : List (HloOp τ sig (Elt F)) :=
  ( StableHlo.binary main_v120 main_arg14 main_v121 ((fun l r => Host.dotGeneral dot_S256x384_S384x128_S256x128_1_0_0_1_n_n none l r) : (⟨S256x384, .f32⟩ : BufTy).Contents (Elt F) → (⟨S384x128, .f32⟩ : BufTy).Contents (Elt F) → (⟨S256x128, .f32⟩ : BufTy).Contents (Elt F))
  :: StableHlo.unary main_arg15 main_v122 (broadcastInDim S1x128 ![1] bcast_S128_S1x128_1 : (⟨S128, .f32⟩ : BufTy).Contents (Elt F) → (⟨S1x128, .f32⟩ : BufTy).Contents (Elt F))
  :: StableHlo.unary main_v122 main_v123 (broadcastInDim S256x128 ![0, 1] bcast_S1x128_S256x128_0_1 : (⟨S1x128, .f32⟩ : BufTy).Contents (Elt F) → (⟨S256x128, .f32⟩ : BufTy).Contents (Elt F))
  :: StableHlo.binary main_v121 main_v123 main_v124 (addf : (⟨S256x128, .f32⟩ : BufTy).Contents (Elt F) → (⟨S256x128, .f32⟩ : BufTy).Contents (Elt F) → (⟨S256x128, .f32⟩ : BufTy).Contents (Elt F))
  :: [] )

set_option maxHeartbeats 40000000 in
/-- Piece C1 of the stretch: 7 operations, in order. -/
abbrev opsC1 : List (HloOp τ sig (Elt F)) :=
  ( StableHlo.nullary main_cst_13 (constant S_ .f32 0x00000000#32)
  :: StableHlo.binary main_v95 main_cst_13 main_v125 ((fun x v => Host.reduceAdd x v reducesTo_S256x128_S128_d0 h_S_) : (⟨S256x128, .f32⟩ : BufTy).Contents (Elt F) → (⟨S_, .f32⟩ : BufTy).Contents (Elt F) → (⟨S128, .f32⟩ : BufTy).Contents (Elt F))
  :: StableHlo.unary main_v125 main_v126 (broadcastInDim S1x128 ![1] bcast_S128_S1x128_1 : (⟨S128, .f32⟩ : BufTy).Contents (Elt F) → (⟨S1x128, .f32⟩ : BufTy).Contents (Elt F))
  :: StableHlo.nullary main_cst_14 (constant S_ .f32 0x43800000#32)
  :: StableHlo.unary main_cst_14 main_v127 (broadcastInDim S1x128 ![] bcast_S_S1x128 : (⟨S_, .f32⟩ : BufTy).Contents (Elt F) → (⟨S1x128, .f32⟩ : BufTy).Contents (Elt F))
  :: StableHlo.binary main_v126 main_v127 main_v128 (Host.divf : (⟨S1x128, .f32⟩ : BufTy).Contents (Elt F) → (⟨S1x128, .f32⟩ : BufTy).Contents (Elt F) → (⟨S1x128, .f32⟩ : BufTy).Contents (Elt F))
  :: StableHlo.unary main_v128 main_v129 (broadcastInDim S256x128 ![0, 1] bcast_S1x128_S256x128_0_1 : (⟨S1x128, .f32⟩ : BufTy).Contents (Elt F) → (⟨S256x128, .f32⟩ : BufTy).Contents (Elt F))
  :: [] )

set_option maxHeartbeats 40000000 in
/-- Piece NC of the stretch: 1 operations, in order. -/
abbrev opsNC : List (HloOp τ sig (Elt F)) :=
  ( StableHlo.binary main_v95 main_v129 main_v130 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F))
  :: [] )

set_option maxHeartbeats 40000000 in
/-- Piece C2 of the stretch: 23 operations, in order. -/
abbrev opsC2 : List (HloOp τ sig (Elt F)) :=
  ( StableHlo.binary main_v130 main_arg16 main_v131 ((fun l r => Host.dotGeneral dot_S256x256_S256x1_S256x1_1_0_0_1_n_n none l r) : (⟨S256x256, .f32⟩ : BufTy).Contents (Elt F) → (⟨S256x1, .f32⟩ : BufTy).Contents (Elt F) → (⟨S256x1, .f32⟩ : BufTy).Contents (Elt F))
  :: StableHlo.unary main_arg17 main_v132 (broadcastInDim S1x1 ![1] bcast_S1_S1x1_1 : (⟨S1, .f32⟩ : BufTy).Contents (Elt F) → (⟨S1x1, .f32⟩ : BufTy).Contents (Elt F))
  :: StableHlo.unary main_v132 main_v133 (broadcastInDim S256x1 ![0, 1] bcast_S1x1_S256x1_0_1 : (⟨S1x1, .f32⟩ : BufTy).Contents (Elt F) → (⟨S256x1, .f32⟩ : BufTy).Contents (Elt F))
  :: StableHlo.binary main_v131 main_v133 main_v134 (addf : (⟨S256x1, .f32⟩ : BufTy).Contents (Elt F) → (⟨S256x1, .f32⟩ : BufTy).Contents (Elt F) → (⟨S256x1, .f32⟩ : BufTy).Contents (Elt F))
  :: StableHlo.nullary main_cst_15 (constant S_ .f32 0xFF800000#32)
  :: StableHlo.binary main_v134 main_cst_15 main_v135 ((fun x v => Host.reduce FloatOps.maximumf x v reducesTo_S256x1_S1_d0 h_S_) : (⟨S256x1, .f32⟩ : BufTy).Contents (Elt F) → (⟨S_, .f32⟩ : BufTy).Contents (Elt F) → (⟨S1, .f32⟩ : BufTy).Contents (Elt F))
  :: StableHlo.nullary main_cst_16 (constant S_ .f32 0xFF800000#32)
  :: StableHlo.unary main_cst_16 main_v136 (broadcastInDim S1 ![] bcast_S_S1 : (⟨S_, .f32⟩ : BufTy).Contents (Elt F) → (⟨S1, .f32⟩ : BufTy).Contents (Elt F))
  :: StableHlo.binary main_v136 main_v135 main_v137 (maximumf : (⟨S1, .f32⟩ : BufTy).Contents (Elt F) → (⟨S1, .f32⟩ : BufTy).Contents (Elt F) → (⟨S1, .f32⟩ : BufTy).Contents (Elt F))
  :: StableHlo.unary main_v137 main_v138 (broadcastInDim S1x1 ![1] bcast_S1_S1x1_1 : (⟨S1, .f32⟩ : BufTy).Contents (Elt F) → (⟨S1x1, .f32⟩ : BufTy).Contents (Elt F))
  :: StableHlo.unary main_v138 main_v139 (broadcastInDim S256x1 ![0, 1] bcast_S1x1_S256x1_0_1 : (⟨S1x1, .f32⟩ : BufTy).Contents (Elt F) → (⟨S256x1, .f32⟩ : BufTy).Contents (Elt F))
  :: StableHlo.binary main_v134 main_v139 main_v140 (subf : (⟨S256x1, .f32⟩ : BufTy).Contents (Elt F) → (⟨S256x1, .f32⟩ : BufTy).Contents (Elt F) → (⟨S256x1, .f32⟩ : BufTy).Contents (Elt F))
  :: StableHlo.unary main_v140 main_v141 (Host.exp : (⟨S256x1, .f32⟩ : BufTy).Contents (Elt F) → (⟨S256x1, .f32⟩ : BufTy).Contents (Elt F))
  :: StableHlo.nullary main_cst_17 (constant S_ .f32 0x00000000#32)
  :: StableHlo.binary main_v141 main_cst_17 main_v142 ((fun x v => Host.reduceAdd x v reducesTo_S256x1_S1_d0 h_S_) : (⟨S256x1, .f32⟩ : BufTy).Contents (Elt F) → (⟨S_, .f32⟩ : BufTy).Contents (Elt F) → (⟨S1, .f32⟩ : BufTy).Contents (Elt F))
  :: StableHlo.unary main_v142 main_v143 (broadcastInDim S1x1 ![1] bcast_S1_S1x1_1 : (⟨S1, .f32⟩ : BufTy).Contents (Elt F) → (⟨S1x1, .f32⟩ : BufTy).Contents (Elt F))
  :: StableHlo.unary main_v143 main_v144 (broadcastInDim S256x1 ![0, 1] bcast_S1x1_S256x1_0_1 : (⟨S1x1, .f32⟩ : BufTy).Contents (Elt F) → (⟨S256x1, .f32⟩ : BufTy).Contents (Elt F))
  :: StableHlo.binary main_v141 main_v144 main_v145 (Host.divf : (⟨S256x1, .f32⟩ : BufTy).Contents (Elt F) → (⟨S256x1, .f32⟩ : BufTy).Contents (Elt F) → (⟨S256x1, .f32⟩ : BufTy).Contents (Elt F))
  :: StableHlo.unary main_v145 main_v146 (broadcastInDim S256x128 ![0, 1] bcast_S256x1_S256x128_0_1 : (⟨S256x1, .f32⟩ : BufTy).Contents (Elt F) → (⟨S256x128, .f32⟩ : BufTy).Contents (Elt F))
  :: StableHlo.binary main_v146 main_v95 main_v147 (mulf : (⟨S256x128, .f32⟩ : BufTy).Contents (Elt F) → (⟨S256x128, .f32⟩ : BufTy).Contents (Elt F) → (⟨S256x128, .f32⟩ : BufTy).Contents (Elt F))
  :: StableHlo.nullary main_cst_18 (constant S_ .f32 0x00000000#32)
  :: StableHlo.binary main_v147 main_cst_18 main_v148 ((fun x v => Host.reduceAdd x v reducesTo_S256x128_S128_d0 h_S_) : (⟨S256x128, .f32⟩ : BufTy).Contents (Elt F) → (⟨S_, .f32⟩ : BufTy).Contents (Elt F) → (⟨S128, .f32⟩ : BufTy).Contents (Elt F))
  :: StableHlo.unary main_v148 main_v149 (broadcastInDim S1x128 ![1] bcast_S128_S1x128_1 : (⟨S128, .f32⟩ : BufTy).Contents (Elt F) → (⟨S1x128, .f32⟩ : BufTy).Contents (Elt F))
  :: [] )

set_option maxHeartbeats 40000000 in
/-- Piece D1 of the stretch: 7 operations, in order. -/
abbrev opsD1 : List (HloOp τ sig (Elt F)) :=
  ( StableHlo.nullary main_cst_19 (constant S_ .f32 0x00000000#32)
  :: StableHlo.binary main_v124 main_cst_19 main_v150 ((fun x v => Host.reduceAdd x v reducesTo_S256x128_S128_d0 h_S_) : (⟨S256x128, .f32⟩ : BufTy).Contents (Elt F) → (⟨S_, .f32⟩ : BufTy).Contents (Elt F) → (⟨S128, .f32⟩ : BufTy).Contents (Elt F))
  :: StableHlo.unary main_v150 main_v151 (broadcastInDim S1x128 ![1] bcast_S128_S1x128_1 : (⟨S128, .f32⟩ : BufTy).Contents (Elt F) → (⟨S1x128, .f32⟩ : BufTy).Contents (Elt F))
  :: StableHlo.nullary main_cst_20 (constant S_ .f32 0x43800000#32)
  :: StableHlo.unary main_cst_20 main_v152 (broadcastInDim S1x128 ![] bcast_S_S1x128 : (⟨S_, .f32⟩ : BufTy).Contents (Elt F) → (⟨S1x128, .f32⟩ : BufTy).Contents (Elt F))
  :: StableHlo.binary main_v151 main_v152 main_v153 (Host.divf : (⟨S1x128, .f32⟩ : BufTy).Contents (Elt F) → (⟨S1x128, .f32⟩ : BufTy).Contents (Elt F) → (⟨S1x128, .f32⟩ : BufTy).Contents (Elt F))
  :: StableHlo.unary main_v153 main_v154 (broadcastInDim S256x128 ![0, 1] bcast_S1x128_S256x128_0_1 : (⟨S1x128, .f32⟩ : BufTy).Contents (Elt F) → (⟨S256x128, .f32⟩ : BufTy).Contents (Elt F))
  :: [] )

set_option maxHeartbeats 40000000 in
/-- Piece ND of the stretch: 1 operations, in order. -/
abbrev opsND : List (HloOp τ sig (Elt F)) :=
  ( StableHlo.binary main_v124 main_v154 main_v155 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F))
  :: [] )

set_option maxHeartbeats 40000000 in
/-- Piece D2 of the stretch: 23 operations, in order. -/
abbrev opsD2 : List (HloOp τ sig (Elt F)) :=
  ( StableHlo.binary main_v155 main_arg16 main_v156 ((fun l r => Host.dotGeneral dot_S256x256_S256x1_S256x1_1_0_0_1_n_n none l r) : (⟨S256x256, .f32⟩ : BufTy).Contents (Elt F) → (⟨S256x1, .f32⟩ : BufTy).Contents (Elt F) → (⟨S256x1, .f32⟩ : BufTy).Contents (Elt F))
  :: StableHlo.unary main_arg17 main_v157 (broadcastInDim S1x1 ![1] bcast_S1_S1x1_1 : (⟨S1, .f32⟩ : BufTy).Contents (Elt F) → (⟨S1x1, .f32⟩ : BufTy).Contents (Elt F))
  :: StableHlo.unary main_v157 main_v158 (broadcastInDim S256x1 ![0, 1] bcast_S1x1_S256x1_0_1 : (⟨S1x1, .f32⟩ : BufTy).Contents (Elt F) → (⟨S256x1, .f32⟩ : BufTy).Contents (Elt F))
  :: StableHlo.binary main_v156 main_v158 main_v159 (addf : (⟨S256x1, .f32⟩ : BufTy).Contents (Elt F) → (⟨S256x1, .f32⟩ : BufTy).Contents (Elt F) → (⟨S256x1, .f32⟩ : BufTy).Contents (Elt F))
  :: StableHlo.nullary main_cst_21 (constant S_ .f32 0xFF800000#32)
  :: StableHlo.binary main_v159 main_cst_21 main_v160 ((fun x v => Host.reduce FloatOps.maximumf x v reducesTo_S256x1_S1_d0 h_S_) : (⟨S256x1, .f32⟩ : BufTy).Contents (Elt F) → (⟨S_, .f32⟩ : BufTy).Contents (Elt F) → (⟨S1, .f32⟩ : BufTy).Contents (Elt F))
  :: StableHlo.nullary main_cst_22 (constant S_ .f32 0xFF800000#32)
  :: StableHlo.unary main_cst_22 main_v161 (broadcastInDim S1 ![] bcast_S_S1 : (⟨S_, .f32⟩ : BufTy).Contents (Elt F) → (⟨S1, .f32⟩ : BufTy).Contents (Elt F))
  :: StableHlo.binary main_v161 main_v160 main_v162 (maximumf : (⟨S1, .f32⟩ : BufTy).Contents (Elt F) → (⟨S1, .f32⟩ : BufTy).Contents (Elt F) → (⟨S1, .f32⟩ : BufTy).Contents (Elt F))
  :: StableHlo.unary main_v162 main_v163 (broadcastInDim S1x1 ![1] bcast_S1_S1x1_1 : (⟨S1, .f32⟩ : BufTy).Contents (Elt F) → (⟨S1x1, .f32⟩ : BufTy).Contents (Elt F))
  :: StableHlo.unary main_v163 main_v164 (broadcastInDim S256x1 ![0, 1] bcast_S1x1_S256x1_0_1 : (⟨S1x1, .f32⟩ : BufTy).Contents (Elt F) → (⟨S256x1, .f32⟩ : BufTy).Contents (Elt F))
  :: StableHlo.binary main_v159 main_v164 main_v165 (subf : (⟨S256x1, .f32⟩ : BufTy).Contents (Elt F) → (⟨S256x1, .f32⟩ : BufTy).Contents (Elt F) → (⟨S256x1, .f32⟩ : BufTy).Contents (Elt F))
  :: StableHlo.unary main_v165 main_v166 (Host.exp : (⟨S256x1, .f32⟩ : BufTy).Contents (Elt F) → (⟨S256x1, .f32⟩ : BufTy).Contents (Elt F))
  :: StableHlo.nullary main_cst_23 (constant S_ .f32 0x00000000#32)
  :: StableHlo.binary main_v166 main_cst_23 main_v167 ((fun x v => Host.reduceAdd x v reducesTo_S256x1_S1_d0 h_S_) : (⟨S256x1, .f32⟩ : BufTy).Contents (Elt F) → (⟨S_, .f32⟩ : BufTy).Contents (Elt F) → (⟨S1, .f32⟩ : BufTy).Contents (Elt F))
  :: StableHlo.unary main_v167 main_v168 (broadcastInDim S1x1 ![1] bcast_S1_S1x1_1 : (⟨S1, .f32⟩ : BufTy).Contents (Elt F) → (⟨S1x1, .f32⟩ : BufTy).Contents (Elt F))
  :: StableHlo.unary main_v168 main_v169 (broadcastInDim S256x1 ![0, 1] bcast_S1x1_S256x1_0_1 : (⟨S1x1, .f32⟩ : BufTy).Contents (Elt F) → (⟨S256x1, .f32⟩ : BufTy).Contents (Elt F))
  :: StableHlo.binary main_v166 main_v169 main_v170 (Host.divf : (⟨S256x1, .f32⟩ : BufTy).Contents (Elt F) → (⟨S256x1, .f32⟩ : BufTy).Contents (Elt F) → (⟨S256x1, .f32⟩ : BufTy).Contents (Elt F))
  :: StableHlo.unary main_v170 main_v171 (broadcastInDim S256x128 ![0, 1] bcast_S256x1_S256x128_0_1 : (⟨S256x1, .f32⟩ : BufTy).Contents (Elt F) → (⟨S256x128, .f32⟩ : BufTy).Contents (Elt F))
  :: StableHlo.binary main_v171 main_v124 main_v172 (mulf : (⟨S256x128, .f32⟩ : BufTy).Contents (Elt F) → (⟨S256x128, .f32⟩ : BufTy).Contents (Elt F) → (⟨S256x128, .f32⟩ : BufTy).Contents (Elt F))
  :: StableHlo.nullary main_cst_24 (constant S_ .f32 0x00000000#32)
  :: StableHlo.binary main_v172 main_cst_24 main_v173 ((fun x v => Host.reduceAdd x v reducesTo_S256x128_S128_d0 h_S_) : (⟨S256x128, .f32⟩ : BufTy).Contents (Elt F) → (⟨S_, .f32⟩ : BufTy).Contents (Elt F) → (⟨S128, .f32⟩ : BufTy).Contents (Elt F))
  :: StableHlo.unary main_v173 main_v174 (broadcastInDim S1x128 ![1] bcast_S128_S1x128_1 : (⟨S128, .f32⟩ : BufTy).Contents (Elt F) → (⟨S1x128, .f32⟩ : BufTy).Contents (Elt F))
  :: [] )

set_option maxHeartbeats 40000000 in
/-- Piece E of the stretch: 22 operations, in order. -/
abbrev opsE : List (HloOp τ sig (Elt F)) :=
  ( StableHlo.binary main_v149 main_v174 main_v175 (mulf : (⟨S1x128, .f32⟩ : BufTy).Contents (Elt F) → (⟨S1x128, .f32⟩ : BufTy).Contents (Elt F) → (⟨S1x128, .f32⟩ : BufTy).Contents (Elt F))
  :: StableHlo.nullary main_cst_25 (constant S_ .f32 0x00000000#32)
  :: StableHlo.binary main_v175 main_cst_25 main_v176 ((fun x v => Host.reduceAdd x v reducesTo_S1x128_S1_d1 h_S_) : (⟨S1x128, .f32⟩ : BufTy).Contents (Elt F) → (⟨S_, .f32⟩ : BufTy).Contents (Elt F) → (⟨S1, .f32⟩ : BufTy).Contents (Elt F))
  :: StableHlo.TRef.binary (.of main_v149 : StableHlo.TRef sig ⟨S1x128, .f32⟩) (.of main_v149 : StableHlo.TRef sig ⟨S1x128, .f32⟩) (.of main_call2_v0 : StableHlo.TRef sig ⟨S1x128, .f32⟩) mulf
  :: StableHlo.TRef.nullary (.of main_call2_cst : StableHlo.TRef sig ⟨S_, .f32⟩) (constant S_ .f32 0x00000000#32)
  :: StableHlo.TRef.binary (.of main_call2_v0 : StableHlo.TRef sig ⟨S1x128, .f32⟩) (.of main_call2_cst : StableHlo.TRef sig ⟨S_, .f32⟩) (.of main_call2_v1 : StableHlo.TRef sig ⟨S1, .f32⟩) (fun x v => Host.reduceAdd x v reducesTo_S1x128_S1_d1 h_S_)
  :: StableHlo.TRef.unary (.of main_call2_v1 : StableHlo.TRef sig ⟨S1, .f32⟩) (.of main_v177 : StableHlo.TRef sig ⟨S1, .f32⟩) Host.sqrt
  :: StableHlo.TRef.binary (.of main_v174 : StableHlo.TRef sig ⟨S1x128, .f32⟩) (.of main_v174 : StableHlo.TRef sig ⟨S1x128, .f32⟩) (.of main_call3_v0 : StableHlo.TRef sig ⟨S1x128, .f32⟩) mulf
  :: StableHlo.TRef.nullary (.of main_call3_cst : StableHlo.TRef sig ⟨S_, .f32⟩) (constant S_ .f32 0x00000000#32)
  :: StableHlo.TRef.binary (.of main_call3_v0 : StableHlo.TRef sig ⟨S1x128, .f32⟩) (.of main_call3_cst : StableHlo.TRef sig ⟨S_, .f32⟩) (.of main_call3_v1 : StableHlo.TRef sig ⟨S1, .f32⟩) (fun x v => Host.reduceAdd x v reducesTo_S1x128_S1_d1 h_S_)
  :: StableHlo.TRef.unary (.of main_call3_v1 : StableHlo.TRef sig ⟨S1, .f32⟩) (.of main_v178 : StableHlo.TRef sig ⟨S1, .f32⟩) Host.sqrt
  :: StableHlo.binary main_v177 main_v178 main_v179 (mulf : (⟨S1, .f32⟩ : BufTy).Contents (Elt F) → (⟨S1, .f32⟩ : BufTy).Contents (Elt F) → (⟨S1, .f32⟩ : BufTy).Contents (Elt F))
  :: StableHlo.nullary main_cst_26 (constant S_ .f32 0x322BCC77#32)
  :: StableHlo.unary main_cst_26 main_v180 (broadcastInDim S1 ![] bcast_S_S1 : (⟨S_, .f32⟩ : BufTy).Contents (Elt F) → (⟨S1, .f32⟩ : BufTy).Contents (Elt F))
  :: StableHlo.binary main_v179 main_v180 main_v181 (maximumf : (⟨S1, .f32⟩ : BufTy).Contents (Elt F) → (⟨S1, .f32⟩ : BufTy).Contents (Elt F) → (⟨S1, .f32⟩ : BufTy).Contents (Elt F))
  :: StableHlo.binary main_v176 main_v181 main_v182 (Host.divf : (⟨S1, .f32⟩ : BufTy).Contents (Elt F) → (⟨S1, .f32⟩ : BufTy).Contents (Elt F) → (⟨S1, .f32⟩ : BufTy).Contents (Elt F))
  :: StableHlo.nullary main_cst_27 (constant S_ .f32 0x3F800000#32)
  :: StableHlo.unary main_cst_27 main_v183 (broadcastInDim S1 ![] bcast_S_S1 : (⟨S_, .f32⟩ : BufTy).Contents (Elt F) → (⟨S1, .f32⟩ : BufTy).Contents (Elt F))
  :: StableHlo.binary main_v182 main_v183 main_v184 (addf : (⟨S1, .f32⟩ : BufTy).Contents (Elt F) → (⟨S1, .f32⟩ : BufTy).Contents (Elt F) → (⟨S1, .f32⟩ : BufTy).Contents (Elt F))
  :: StableHlo.nullary main_cst_28 (constant S_ .f32 0x40000000#32)
  :: StableHlo.unary main_cst_28 main_v185 (broadcastInDim S1 ![] bcast_S_S1 : (⟨S_, .f32⟩ : BufTy).Contents (Elt F) → (⟨S1, .f32⟩ : BufTy).Contents (Elt F))
  :: StableHlo.binary main_v184 main_v185 main_v186 (Host.divf : (⟨S1, .f32⟩ : BufTy).Contents (Elt F) → (⟨S1, .f32⟩ : BufTy).Contents (Elt F) → (⟨S1, .f32⟩ : BufTy).Contents (Elt F))
  :: [] )

/-! ### Piece S -/

theorem S_keep_main_v38 (V : Valuation τ sig (Elt F)) :
    after (opsS (F := F)) V (Proc.devRef .tc main_v38) = V (Proc.devRef .tc main_v38) := by
  fold_results

theorem S_keep_main_v27 (V : Valuation τ sig (Elt F)) :
    after (opsS (F := F)) V (Proc.devRef .tc main_v27) = V (Proc.devRef .tc main_v27) := by
  fold_results

theorem S_keep_main_arg14 (V : Valuation τ sig (Elt F)) :
    after (opsS (F := F)) V (Proc.devRef .tc main_arg14) = V (Proc.devRef .tc main_arg14) := by
  fold_results

theorem S_keep_main_arg15 (V : Valuation τ sig (Elt F)) :
    after (opsS (F := F)) V (Proc.devRef .tc main_arg15) = V (Proc.devRef .tc main_arg15) := by
  fold_results

theorem S_keep_main_v47 (V : Valuation τ sig (Elt F)) :
    after (opsS (F := F)) V (Proc.devRef .tc main_v47) = V (Proc.devRef .tc main_v47) := by
  fold_results

theorem S_keep_main_v29 (V : Valuation τ sig (Elt F)) :
    after (opsS (F := F)) V (Proc.devRef .tc main_v29) = V (Proc.devRef .tc main_v29) := by
  fold_results

theorem S_keep_main_arg16 (V : Valuation τ sig (Elt F)) :
    after (opsS (F := F)) V (Proc.devRef .tc main_arg16) = V (Proc.devRef .tc main_arg16) := by
  fold_results

theorem S_keep_main_arg17 (V : Valuation τ sig (Elt F)) :
    after (opsS (F := F)) V (Proc.devRef .tc main_arg17) = V (Proc.devRef .tc main_arg17) := by
  fold_results

theorem S_out_main_v64 (V : Valuation τ sig (Elt F)) :
    after (opsS (F := F)) V (Proc.devRef .tc main_v64) = shapeCast S256x128 (extractStridedSlice S1x256x128 ![0, 0, 0] (V (Proc.devRef .tc main_v62)) slices_S2x256x128_S1x256x128_0_0_0) shapeCasts_S1x256x128_S256x128 := by
  fold_results
  rfl

theorem S_out_main_v66 (V : Valuation τ sig (Elt F)) :
    after (opsS (F := F)) V (Proc.devRef .tc main_v66) = shapeCast S256x128 (extractStridedSlice S1x256x128 ![1, 0, 0] (V (Proc.devRef .tc main_v62)) slices_S2x256x128_S1x256x128_1_0_0) shapeCasts_S1x256x128_S256x128 := by
  fold_results
  rfl

/-! ### Piece A1 -/

theorem A1_keep_main_arg14 (V : Valuation τ sig (Elt F)) :
    after (opsA1 (F := F)) V (Proc.devRef .tc main_arg14) = V (Proc.devRef .tc main_arg14) := by
  fold_results

theorem A1_keep_main_arg15 (V : Valuation τ sig (Elt F)) :
    after (opsA1 (F := F)) V (Proc.devRef .tc main_arg15) = V (Proc.devRef .tc main_arg15) := by
  fold_results

theorem A1_keep_main_v47 (V : Valuation τ sig (Elt F)) :
    after (opsA1 (F := F)) V (Proc.devRef .tc main_v47) = V (Proc.devRef .tc main_v47) := by
  fold_results

theorem A1_keep_main_v29 (V : Valuation τ sig (Elt F)) :
    after (opsA1 (F := F)) V (Proc.devRef .tc main_v29) = V (Proc.devRef .tc main_v29) := by
  fold_results

theorem A1_keep_main_v66 (V : Valuation τ sig (Elt F)) :
    after (opsA1 (F := F)) V (Proc.devRef .tc main_v66) = V (Proc.devRef .tc main_v66) := by
  fold_results

theorem A1_keep_main_arg16 (V : Valuation τ sig (Elt F)) :
    after (opsA1 (F := F)) V (Proc.devRef .tc main_arg16) = V (Proc.devRef .tc main_arg16) := by
  fold_results

theorem A1_keep_main_arg17 (V : Valuation τ sig (Elt F)) :
    after (opsA1 (F := F)) V (Proc.devRef .tc main_arg17) = V (Proc.devRef .tc main_arg17) := by
  fold_results

set_option maxHeartbeats 4000000 in
theorem A1_out_main_v74 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v38 : V (Proc.devRef .tc main_v38) = val_main_v8 (F := F) x0 x2 x3 x4 x5)
    (h_v27 : V (Proc.devRef .tc main_v27) = val_main_v82 (F := F) x0 x6 x7 x8 x9 x10 x11 x12 x13)
    (h_v64 : V (Proc.devRef .tc main_v64) = val_main_v117 (F := F) x0 x1 x2 x3 x4 x5) :
    after (opsA1 (F := F)) V (Proc.devRef .tc main_v74) = val_main_v141 (F := F) x0 x2 x3 x4 x5 := by
  fold_results
  simp only [h_v38, h_v27, h_v64]
  simp only [val_main_v157, val_main_v156, val_main_v155, val_main_v154, val_main_cst_15, val_main_v153, val_main_v152, val_main_v151, val_main_cst_14, val_main_v150, val_main_v149, val_main_v148, val_main_v147, val_main_v146, val_main_cst_13, val_main_v145, val_main_v144, val_main_v143, val_main_cst_12, val_main_v142, val_main_v141, val_main_v140, val_main_v139, val_main_v138, val_main_cst_11, val_main_v137, val_main_v136, val_main_v135, val_main_cst_10, val_main_v134] <;> rfl

set_option maxHeartbeats 4000000 in
theorem A1_out_main_v82 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v38 : V (Proc.devRef .tc main_v38) = val_main_v8 (F := F) x0 x2 x3 x4 x5)
    (h_v27 : V (Proc.devRef .tc main_v27) = val_main_v82 (F := F) x0 x6 x7 x8 x9 x10 x11 x12 x13)
    (h_v64 : V (Proc.devRef .tc main_v64) = val_main_v117 (F := F) x0 x1 x2 x3 x4 x5) :
    after (opsA1 (F := F)) V (Proc.devRef .tc main_v82) = val_main_v149 (F := F) x0 x6 x7 x8 x9 x10 x11 x12 x13 := by
  fold_results
  simp only [h_v38, h_v27, h_v64]
  simp only [val_main_v157, val_main_v156, val_main_v155, val_main_v154, val_main_cst_15, val_main_v153, val_main_v152, val_main_v151, val_main_cst_14, val_main_v150, val_main_v149, val_main_v148, val_main_v147, val_main_v146, val_main_cst_13, val_main_v145, val_main_v144, val_main_v143, val_main_cst_12, val_main_v142, val_main_v141, val_main_v140, val_main_v139, val_main_v138, val_main_cst_11, val_main_v137, val_main_v136, val_main_v135, val_main_cst_10, val_main_v134] <;> rfl

set_option maxHeartbeats 4000000 in
theorem A1_out_main_v90 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v38 : V (Proc.devRef .tc main_v38) = val_main_v8 (F := F) x0 x2 x3 x4 x5)
    (h_v27 : V (Proc.devRef .tc main_v27) = val_main_v82 (F := F) x0 x6 x7 x8 x9 x10 x11 x12 x13)
    (h_v64 : V (Proc.devRef .tc main_v64) = val_main_v117 (F := F) x0 x1 x2 x3 x4 x5) :
    after (opsA1 (F := F)) V (Proc.devRef .tc main_v90) = val_main_v157 (F := F) x0 x1 x2 x3 x4 x5 := by
  fold_results
  simp only [h_v38, h_v27, h_v64]
  simp only [val_main_v157, val_main_v156, val_main_v155, val_main_v154, val_main_cst_15, val_main_v153, val_main_v152, val_main_v151, val_main_cst_14, val_main_v150, val_main_v149, val_main_v148, val_main_v147, val_main_v146, val_main_cst_13, val_main_v145, val_main_v144, val_main_v143, val_main_cst_12, val_main_v142, val_main_v141, val_main_v140, val_main_v139, val_main_v138, val_main_cst_11, val_main_v137, val_main_v136, val_main_v135, val_main_cst_10, val_main_v134] <;> rfl

/-! ### Piece N1 -/

theorem N1_keep_main_arg14 (V : Valuation τ sig (Elt F)) :
    after (opsN1 (F := F)) V (Proc.devRef .tc main_arg14) = V (Proc.devRef .tc main_arg14) := by
  fold_results

theorem N1_keep_main_arg15 (V : Valuation τ sig (Elt F)) :
    after (opsN1 (F := F)) V (Proc.devRef .tc main_arg15) = V (Proc.devRef .tc main_arg15) := by
  fold_results

theorem N1_keep_main_v47 (V : Valuation τ sig (Elt F)) :
    after (opsN1 (F := F)) V (Proc.devRef .tc main_v47) = V (Proc.devRef .tc main_v47) := by
  fold_results

theorem N1_keep_main_v29 (V : Valuation τ sig (Elt F)) :
    after (opsN1 (F := F)) V (Proc.devRef .tc main_v29) = V (Proc.devRef .tc main_v29) := by
  fold_results

theorem N1_keep_main_v66 (V : Valuation τ sig (Elt F)) :
    after (opsN1 (F := F)) V (Proc.devRef .tc main_v66) = V (Proc.devRef .tc main_v66) := by
  fold_results

theorem N1_keep_main_arg16 (V : Valuation τ sig (Elt F)) :
    after (opsN1 (F := F)) V (Proc.devRef .tc main_arg16) = V (Proc.devRef .tc main_arg16) := by
  fold_results

theorem N1_keep_main_arg17 (V : Valuation τ sig (Elt F)) :
    after (opsN1 (F := F)) V (Proc.devRef .tc main_arg17) = V (Proc.devRef .tc main_arg17) := by
  fold_results

theorem N1_out_main_v91 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v74 : V (Proc.devRef .tc main_v74) = val_main_v141 (F := F) x0 x2 x3 x4 x5)
    (h_v82 : V (Proc.devRef .tc main_v82) = val_main_v149 (F := F) x0 x6 x7 x8 x9 x10 x11 x12 x13)
    (h_v90 : V (Proc.devRef .tc main_v90) = val_main_v157 (F := F) x0 x1 x2 x3 x4 x5) :
    after (opsN1 (F := F)) V (Proc.devRef .tc main_v91) = val_main_v158 (F := F) x0 x1 x2 x3 x4 x5 x6 x7 x8 x9 x10 x11 x12 x13 := by
  simp only [after_cons, after_nil, nary_result', binary_result']
  unfold val_main_v158
  rw [← h_v74, ← h_v82, ← h_v90]
  try rfl

/-! ### Piece A2 -/

theorem A2_keep_main_v47 (V : Valuation τ sig (Elt F)) :
    after (opsA2 (F := F)) V (Proc.devRef .tc main_v47) = V (Proc.devRef .tc main_v47) := by
  fold_results

theorem A2_keep_main_v29 (V : Valuation τ sig (Elt F)) :
    after (opsA2 (F := F)) V (Proc.devRef .tc main_v29) = V (Proc.devRef .tc main_v29) := by
  fold_results

theorem A2_keep_main_v66 (V : Valuation τ sig (Elt F)) :
    after (opsA2 (F := F)) V (Proc.devRef .tc main_v66) = V (Proc.devRef .tc main_v66) := by
  fold_results

theorem A2_keep_main_arg14 (V : Valuation τ sig (Elt F)) :
    after (opsA2 (F := F)) V (Proc.devRef .tc main_arg14) = V (Proc.devRef .tc main_arg14) := by
  fold_results

theorem A2_keep_main_arg15 (V : Valuation τ sig (Elt F)) :
    after (opsA2 (F := F)) V (Proc.devRef .tc main_arg15) = V (Proc.devRef .tc main_arg15) := by
  fold_results

theorem A2_keep_main_arg16 (V : Valuation τ sig (Elt F)) :
    after (opsA2 (F := F)) V (Proc.devRef .tc main_arg16) = V (Proc.devRef .tc main_arg16) := by
  fold_results

theorem A2_keep_main_arg17 (V : Valuation τ sig (Elt F)) :
    after (opsA2 (F := F)) V (Proc.devRef .tc main_arg17) = V (Proc.devRef .tc main_arg17) := by
  fold_results

set_option maxHeartbeats 4000000 in
theorem A2_out_main_v95 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v91 : V (Proc.devRef .tc main_v91) = val_main_v158 (F := F) x0 x1 x2 x3 x4 x5 x6 x7 x8 x9 x10 x11 x12 x13)
    (h_arg14 : V (Proc.devRef .tc main_arg14) = x14)
    (h_arg15 : V (Proc.devRef .tc main_arg15) = x15) :
    after (opsA2 (F := F)) V (Proc.devRef .tc main_v95) = val_main_v162 (F := F) x0 x1 x2 x3 x4 x5 x6 x7 x8 x9 x10 x11 x12 x13 x14 x15 := by
  fold_results
  simp only [h_v91, h_arg14, h_arg15]
  simp only [val_main_v162, val_main_v161, val_main_v160, val_main_v159] <;> rfl

/-! ### Piece B1 -/

theorem B1_keep_main_arg14 (V : Valuation τ sig (Elt F)) :
    after (opsB1 (F := F)) V (Proc.devRef .tc main_arg14) = V (Proc.devRef .tc main_arg14) := by
  fold_results

theorem B1_keep_main_arg15 (V : Valuation τ sig (Elt F)) :
    after (opsB1 (F := F)) V (Proc.devRef .tc main_arg15) = V (Proc.devRef .tc main_arg15) := by
  fold_results

theorem B1_keep_main_v95 (V : Valuation τ sig (Elt F)) :
    after (opsB1 (F := F)) V (Proc.devRef .tc main_v95) = V (Proc.devRef .tc main_v95) := by
  fold_results

theorem B1_keep_main_arg16 (V : Valuation τ sig (Elt F)) :
    after (opsB1 (F := F)) V (Proc.devRef .tc main_arg16) = V (Proc.devRef .tc main_arg16) := by
  fold_results

theorem B1_keep_main_arg17 (V : Valuation τ sig (Elt F)) :
    after (opsB1 (F := F)) V (Proc.devRef .tc main_arg17) = V (Proc.devRef .tc main_arg17) := by
  fold_results

set_option maxHeartbeats 4000000 in
theorem B1_out_main_v103 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v47 : V (Proc.devRef .tc main_v47) = val_main_v17 (F := F) x1 x2 x3 x4 x5)
    (h_v29 : V (Proc.devRef .tc main_v29) = val_main_v101 (F := F) x1 x6 x7 x8 x9 x10 x11 x12 x13)
    (h_v66 : V (Proc.devRef .tc main_v66) = val_main_v133 (F := F) x0 x1 x2 x3 x4 x5) :
    after (opsB1 (F := F)) V (Proc.devRef .tc main_v103) = val_main_v170 (F := F) x1 x2 x3 x4 x5 := by
  fold_results
  simp only [h_v47, h_v29, h_v66]
  simp only [val_main_v186, val_main_v185, val_main_v184, val_main_v183, val_main_cst_21, val_main_v182, val_main_v181, val_main_v180, val_main_cst_20, val_main_v179, val_main_v178, val_main_v177, val_main_v176, val_main_v175, val_main_cst_19, val_main_v174, val_main_v173, val_main_v172, val_main_cst_18, val_main_v171, val_main_v170, val_main_v169, val_main_v168, val_main_v167, val_main_cst_17, val_main_v166, val_main_v165, val_main_v164, val_main_cst_16, val_main_v163] <;> rfl

set_option maxHeartbeats 4000000 in
theorem B1_out_main_v111 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v47 : V (Proc.devRef .tc main_v47) = val_main_v17 (F := F) x1 x2 x3 x4 x5)
    (h_v29 : V (Proc.devRef .tc main_v29) = val_main_v101 (F := F) x1 x6 x7 x8 x9 x10 x11 x12 x13)
    (h_v66 : V (Proc.devRef .tc main_v66) = val_main_v133 (F := F) x0 x1 x2 x3 x4 x5) :
    after (opsB1 (F := F)) V (Proc.devRef .tc main_v111) = val_main_v178 (F := F) x1 x6 x7 x8 x9 x10 x11 x12 x13 := by
  fold_results
  simp only [h_v47, h_v29, h_v66]
  simp only [val_main_v186, val_main_v185, val_main_v184, val_main_v183, val_main_cst_21, val_main_v182, val_main_v181, val_main_v180, val_main_cst_20, val_main_v179, val_main_v178, val_main_v177, val_main_v176, val_main_v175, val_main_cst_19, val_main_v174, val_main_v173, val_main_v172, val_main_cst_18, val_main_v171, val_main_v170, val_main_v169, val_main_v168, val_main_v167, val_main_cst_17, val_main_v166, val_main_v165, val_main_v164, val_main_cst_16, val_main_v163] <;> rfl

set_option maxHeartbeats 4000000 in
theorem B1_out_main_v119 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v47 : V (Proc.devRef .tc main_v47) = val_main_v17 (F := F) x1 x2 x3 x4 x5)
    (h_v29 : V (Proc.devRef .tc main_v29) = val_main_v101 (F := F) x1 x6 x7 x8 x9 x10 x11 x12 x13)
    (h_v66 : V (Proc.devRef .tc main_v66) = val_main_v133 (F := F) x0 x1 x2 x3 x4 x5) :
    after (opsB1 (F := F)) V (Proc.devRef .tc main_v119) = val_main_v186 (F := F) x0 x1 x2 x3 x4 x5 := by
  fold_results
  simp only [h_v47, h_v29, h_v66]
  simp only [val_main_v186, val_main_v185, val_main_v184, val_main_v183, val_main_cst_21, val_main_v182, val_main_v181, val_main_v180, val_main_cst_20, val_main_v179, val_main_v178, val_main_v177, val_main_v176, val_main_v175, val_main_cst_19, val_main_v174, val_main_v173, val_main_v172, val_main_cst_18, val_main_v171, val_main_v170, val_main_v169, val_main_v168, val_main_v167, val_main_cst_17, val_main_v166, val_main_v165, val_main_v164, val_main_cst_16, val_main_v163] <;> rfl

/-! ### Piece N2 -/

theorem N2_keep_main_arg14 (V : Valuation τ sig (Elt F)) :
    after (opsN2 (F := F)) V (Proc.devRef .tc main_arg14) = V (Proc.devRef .tc main_arg14) := by
  fold_results

theorem N2_keep_main_arg15 (V : Valuation τ sig (Elt F)) :
    after (opsN2 (F := F)) V (Proc.devRef .tc main_arg15) = V (Proc.devRef .tc main_arg15) := by
  fold_results

theorem N2_keep_main_v95 (V : Valuation τ sig (Elt F)) :
    after (opsN2 (F := F)) V (Proc.devRef .tc main_v95) = V (Proc.devRef .tc main_v95) := by
  fold_results

theorem N2_keep_main_arg16 (V : Valuation τ sig (Elt F)) :
    after (opsN2 (F := F)) V (Proc.devRef .tc main_arg16) = V (Proc.devRef .tc main_arg16) := by
  fold_results

theorem N2_keep_main_arg17 (V : Valuation τ sig (Elt F)) :
    after (opsN2 (F := F)) V (Proc.devRef .tc main_arg17) = V (Proc.devRef .tc main_arg17) := by
  fold_results

theorem N2_out_main_v120 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v103 : V (Proc.devRef .tc main_v103) = val_main_v170 (F := F) x1 x2 x3 x4 x5)
    (h_v111 : V (Proc.devRef .tc main_v111) = val_main_v178 (F := F) x1 x6 x7 x8 x9 x10 x11 x12 x13)
    (h_v119 : V (Proc.devRef .tc main_v119) = val_main_v186 (F := F) x0 x1 x2 x3 x4 x5) :
    after (opsN2 (F := F)) V (Proc.devRef .tc main_v120) = val_main_v187 (F := F) x0 x1 x2 x3 x4 x5 x6 x7 x8 x9 x10 x11 x12 x13 := by
  simp only [after_cons, after_nil, nary_result', binary_result']
  unfold val_main_v187
  rw [← h_v103, ← h_v111, ← h_v119]
  try rfl

/-! ### Piece B2 -/

theorem B2_keep_main_v95 (V : Valuation τ sig (Elt F)) :
    after (opsB2 (F := F)) V (Proc.devRef .tc main_v95) = V (Proc.devRef .tc main_v95) := by
  fold_results

theorem B2_keep_main_arg16 (V : Valuation τ sig (Elt F)) :
    after (opsB2 (F := F)) V (Proc.devRef .tc main_arg16) = V (Proc.devRef .tc main_arg16) := by
  fold_results

theorem B2_keep_main_arg17 (V : Valuation τ sig (Elt F)) :
    after (opsB2 (F := F)) V (Proc.devRef .tc main_arg17) = V (Proc.devRef .tc main_arg17) := by
  fold_results

set_option maxHeartbeats 4000000 in
theorem B2_out_main_v124 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v120 : V (Proc.devRef .tc main_v120) = val_main_v187 (F := F) x0 x1 x2 x3 x4 x5 x6 x7 x8 x9 x10 x11 x12 x13)
    (h_arg14 : V (Proc.devRef .tc main_arg14) = x14)
    (h_arg15 : V (Proc.devRef .tc main_arg15) = x15) :
    after (opsB2 (F := F)) V (Proc.devRef .tc main_v124) = val_main_v191 (F := F) x0 x1 x2 x3 x4 x5 x6 x7 x8 x9 x10 x11 x12 x13 x14 x15 := by
  fold_results
  simp only [h_v120, h_arg14, h_arg15]
  simp only [val_main_v191, val_main_v190, val_main_v189, val_main_v188] <;> rfl

/-! ### Piece C1 -/

theorem C1_keep_main_v95 (V : Valuation τ sig (Elt F)) :
    after (opsC1 (F := F)) V (Proc.devRef .tc main_v95) = V (Proc.devRef .tc main_v95) := by
  fold_results

theorem C1_keep_main_arg16 (V : Valuation τ sig (Elt F)) :
    after (opsC1 (F := F)) V (Proc.devRef .tc main_arg16) = V (Proc.devRef .tc main_arg16) := by
  fold_results

theorem C1_keep_main_arg17 (V : Valuation τ sig (Elt F)) :
    after (opsC1 (F := F)) V (Proc.devRef .tc main_arg17) = V (Proc.devRef .tc main_arg17) := by
  fold_results

theorem C1_keep_main_v124 (V : Valuation τ sig (Elt F)) :
    after (opsC1 (F := F)) V (Proc.devRef .tc main_v124) = V (Proc.devRef .tc main_v124) := by
  fold_results

set_option maxHeartbeats 4000000 in
theorem C1_out_main_v129 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v95 : V (Proc.devRef .tc main_v95) = val_main_v162 (F := F) x0 x1 x2 x3 x4 x5 x6 x7 x8 x9 x10 x11 x12 x13 x14 x15) :
    after (opsC1 (F := F)) V (Proc.devRef .tc main_v129) = val_main_v196 (F := F) x0 x1 x2 x3 x4 x5 x6 x7 x8 x9 x10 x11 x12 x13 x14 x15 := by
  fold_results
  simp only [h_v95]
  simp only [val_main_v196, val_main_v195, val_main_v194, val_main_cst_23, val_main_v193, val_main_v192, val_main_cst_22] <;> rfl

/-! ### Piece NC -/

theorem NC_keep_main_arg16 (V : Valuation τ sig (Elt F)) :
    after (opsNC (F := F)) V (Proc.devRef .tc main_arg16) = V (Proc.devRef .tc main_arg16) := by
  fold_results

theorem NC_keep_main_arg17 (V : Valuation τ sig (Elt F)) :
    after (opsNC (F := F)) V (Proc.devRef .tc main_arg17) = V (Proc.devRef .tc main_arg17) := by
  fold_results

theorem NC_keep_main_v95 (V : Valuation τ sig (Elt F)) :
    after (opsNC (F := F)) V (Proc.devRef .tc main_v95) = V (Proc.devRef .tc main_v95) := by
  fold_results

theorem NC_keep_main_v124 (V : Valuation τ sig (Elt F)) :
    after (opsNC (F := F)) V (Proc.devRef .tc main_v124) = V (Proc.devRef .tc main_v124) := by
  fold_results

theorem NC_out_main_v130 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v95 : V (Proc.devRef .tc main_v95) = val_main_v162 (F := F) x0 x1 x2 x3 x4 x5 x6 x7 x8 x9 x10 x11 x12 x13 x14 x15)
    (h_v129 : V (Proc.devRef .tc main_v129) = val_main_v196 (F := F) x0 x1 x2 x3 x4 x5 x6 x7 x8 x9 x10 x11 x12 x13 x14 x15) :
    after (opsNC (F := F)) V (Proc.devRef .tc main_v130) = val_main_v197 (F := F) x0 x1 x2 x3 x4 x5 x6 x7 x8 x9 x10 x11 x12 x13 x14 x15 := by
  simp only [after_cons, after_nil, nary_result', binary_result']
  unfold val_main_v197
  rw [← h_v95, ← h_v129]
  try rfl

/-! ### Piece C2 -/

theorem C2_keep_main_v124 (V : Valuation τ sig (Elt F)) :
    after (opsC2 (F := F)) V (Proc.devRef .tc main_v124) = V (Proc.devRef .tc main_v124) := by
  fold_results

theorem C2_keep_main_arg16 (V : Valuation τ sig (Elt F)) :
    after (opsC2 (F := F)) V (Proc.devRef .tc main_arg16) = V (Proc.devRef .tc main_arg16) := by
  fold_results

theorem C2_keep_main_arg17 (V : Valuation τ sig (Elt F)) :
    after (opsC2 (F := F)) V (Proc.devRef .tc main_arg17) = V (Proc.devRef .tc main_arg17) := by
  fold_results

set_option maxHeartbeats 4000000 in
theorem C2_out_main_v149 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v130 : V (Proc.devRef .tc main_v130) = val_main_v197 (F := F) x0 x1 x2 x3 x4 x5 x6 x7 x8 x9 x10 x11 x12 x13 x14 x15)
    (h_arg16 : V (Proc.devRef .tc main_arg16) = x16)
    (h_arg17 : V (Proc.devRef .tc main_arg17) = x17)
    (h_v95 : V (Proc.devRef .tc main_v95) = val_main_v162 (F := F) x0 x1 x2 x3 x4 x5 x6 x7 x8 x9 x10 x11 x12 x13 x14 x15) :
    after (opsC2 (F := F)) V (Proc.devRef .tc main_v149) = val_main_v216 (F := F) x0 x1 x2 x3 x4 x5 x6 x7 x8 x9 x10 x11 x12 x13 x14 x15 x16 x17 := by
  fold_results
  simp only [h_v130, h_arg16, h_arg17, h_v95]
  simp only [val_main_v216, val_main_v215, val_main_cst_27, val_main_v214, val_main_v213, val_main_v212, val_main_v211, val_main_v210, val_main_v209, val_main_cst_26, val_main_v208, val_main_v207, val_main_v206, val_main_v205, val_main_v204, val_main_v203, val_main_cst_25, val_main_v202, val_main_cst_24, val_main_v201, val_main_v200, val_main_v199, val_main_v198] <;> rfl

/-! ### Piece D1 -/

theorem D1_keep_main_v124 (V : Valuation τ sig (Elt F)) :
    after (opsD1 (F := F)) V (Proc.devRef .tc main_v124) = V (Proc.devRef .tc main_v124) := by
  fold_results

theorem D1_keep_main_arg16 (V : Valuation τ sig (Elt F)) :
    after (opsD1 (F := F)) V (Proc.devRef .tc main_arg16) = V (Proc.devRef .tc main_arg16) := by
  fold_results

theorem D1_keep_main_arg17 (V : Valuation τ sig (Elt F)) :
    after (opsD1 (F := F)) V (Proc.devRef .tc main_arg17) = V (Proc.devRef .tc main_arg17) := by
  fold_results

theorem D1_keep_main_v149 (V : Valuation τ sig (Elt F)) :
    after (opsD1 (F := F)) V (Proc.devRef .tc main_v149) = V (Proc.devRef .tc main_v149) := by
  fold_results

set_option maxHeartbeats 4000000 in
theorem D1_out_main_v154 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v124 : V (Proc.devRef .tc main_v124) = val_main_v191 (F := F) x0 x1 x2 x3 x4 x5 x6 x7 x8 x9 x10 x11 x12 x13 x14 x15) :
    after (opsD1 (F := F)) V (Proc.devRef .tc main_v154) = val_main_v221 (F := F) x0 x1 x2 x3 x4 x5 x6 x7 x8 x9 x10 x11 x12 x13 x14 x15 := by
  fold_results
  simp only [h_v124]
  simp only [val_main_v221, val_main_v220, val_main_v219, val_main_cst_29, val_main_v218, val_main_v217, val_main_cst_28] <;> rfl

/-! ### Piece ND -/

theorem ND_keep_main_arg16 (V : Valuation τ sig (Elt F)) :
    after (opsND (F := F)) V (Proc.devRef .tc main_arg16) = V (Proc.devRef .tc main_arg16) := by
  fold_results

theorem ND_keep_main_arg17 (V : Valuation τ sig (Elt F)) :
    after (opsND (F := F)) V (Proc.devRef .tc main_arg17) = V (Proc.devRef .tc main_arg17) := by
  fold_results

theorem ND_keep_main_v124 (V : Valuation τ sig (Elt F)) :
    after (opsND (F := F)) V (Proc.devRef .tc main_v124) = V (Proc.devRef .tc main_v124) := by
  fold_results

theorem ND_keep_main_v149 (V : Valuation τ sig (Elt F)) :
    after (opsND (F := F)) V (Proc.devRef .tc main_v149) = V (Proc.devRef .tc main_v149) := by
  fold_results

theorem ND_out_main_v155 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v124 : V (Proc.devRef .tc main_v124) = val_main_v191 (F := F) x0 x1 x2 x3 x4 x5 x6 x7 x8 x9 x10 x11 x12 x13 x14 x15)
    (h_v154 : V (Proc.devRef .tc main_v154) = val_main_v221 (F := F) x0 x1 x2 x3 x4 x5 x6 x7 x8 x9 x10 x11 x12 x13 x14 x15) :
    after (opsND (F := F)) V (Proc.devRef .tc main_v155) = val_main_v222 (F := F) x0 x1 x2 x3 x4 x5 x6 x7 x8 x9 x10 x11 x12 x13 x14 x15 := by
  simp only [after_cons, after_nil, nary_result', binary_result']
  unfold val_main_v222
  rw [← h_v124, ← h_v154]
  try rfl

/-! ### Piece D2 -/

theorem D2_keep_main_v149 (V : Valuation τ sig (Elt F)) :
    after (opsD2 (F := F)) V (Proc.devRef .tc main_v149) = V (Proc.devRef .tc main_v149) := by
  fold_results

set_option maxHeartbeats 4000000 in
theorem D2_out_main_v174 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v155 : V (Proc.devRef .tc main_v155) = val_main_v222 (F := F) x0 x1 x2 x3 x4 x5 x6 x7 x8 x9 x10 x11 x12 x13 x14 x15)
    (h_arg16 : V (Proc.devRef .tc main_arg16) = x16)
    (h_arg17 : V (Proc.devRef .tc main_arg17) = x17)
    (h_v124 : V (Proc.devRef .tc main_v124) = val_main_v191 (F := F) x0 x1 x2 x3 x4 x5 x6 x7 x8 x9 x10 x11 x12 x13 x14 x15) :
    after (opsD2 (F := F)) V (Proc.devRef .tc main_v174) = val_main_v241 (F := F) x0 x1 x2 x3 x4 x5 x6 x7 x8 x9 x10 x11 x12 x13 x14 x15 x16 x17 := by
  fold_results
  simp only [h_v155, h_arg16, h_arg17, h_v124]
  simp only [val_main_v241, val_main_v240, val_main_cst_33, val_main_v239, val_main_v238, val_main_v237, val_main_v236, val_main_v235, val_main_v234, val_main_cst_32, val_main_v233, val_main_v232, val_main_v231, val_main_v230, val_main_v229, val_main_v228, val_main_cst_31, val_main_v227, val_main_cst_30, val_main_v226, val_main_v225, val_main_v224, val_main_v223] <;> rfl

/-! ### Piece E -/

set_option maxHeartbeats 4000000 in
theorem E_out_main_v186 (V : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h_v149 : V (Proc.devRef .tc main_v149) = val_main_v216 (F := F) x0 x1 x2 x3 x4 x5 x6 x7 x8 x9 x10 x11 x12 x13 x14 x15 x16 x17)
    (h_v174 : V (Proc.devRef .tc main_v174) = val_main_v241 (F := F) x0 x1 x2 x3 x4 x5 x6 x7 x8 x9 x10 x11 x12 x13 x14 x15 x16 x17) :
    after (opsE (F := F)) V (Proc.devRef .tc main_v186) = val_main_v253 (F := F) x0 x1 x2 x3 x4 x5 x6 x7 x8 x9 x10 x11 x12 x13 x14 x15 x16 x17 := by
  fold_results
  try simp only [StableHlo.TRef.ofBuf, StableHlo.TRef.toBuf, cast_eq]
  simp only [h_v149, h_v174]
  simp only [val_main_v253, val_main_v252, val_main_cst_37, val_main_v251, val_main_v250, val_main_cst_36, val_main_v249, val_main_v248, val_main_v247, val_main_cst_35, val_main_v246, val_main_v245, val_main_call7_v1, val_main_call7_cst, val_main_call7_v0, val_main_v244, val_main_call6_v1, val_main_call6_cst, val_main_call6_v0, val_main_v243, val_main_cst_34, val_main_v242] <;> rfl

/-! ### The pieces chained -/

set_option maxHeartbeats 4000000 in
/-- The stretch is its pieces, one after the other. -/
theorem ops_split : (hostOps2 ++ hostOps2_1 ++ hostOps2_2 ++ hostOps2_3 : List (HloOp τ sig (Elt F)))
    = opsS ++ (opsA1 ++ (opsN1 ++ (opsA2 ++ (opsB1 ++ (opsN2 ++ (opsB2 ++ (opsC1 ++ (opsNC ++ (opsC2 ++ (opsD1 ++ (opsND ++ (opsD2 ++ (opsE))))))))))))) := rfl

set_option maxHeartbeats 4000000 in
/-- The contents the stretch leaves in its result buffer are the second program's last stage, given the second
    program's stages in the buffers the stretch reads. -/
theorem tail_eq (W : Valuation τ sig (Elt F)) (x0 : (⟨S256x128, .f32⟩ : BufTy).Contents (Elt F)) (x1 : (⟨S256x128, .f32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F)) (x5 : (⟨S128, .f32⟩ : BufTy).Contents (Elt F)) (x6 : (⟨S768x512, .f32⟩ : BufTy).Contents (Elt F)) (x7 : (⟨S512, .f32⟩ : BufTy).Contents (Elt F)) (x8 : (⟨S512x128, .f32⟩ : BufTy).Contents (Elt F)) (x9 : (⟨S128, .f32⟩ : BufTy).Contents (Elt F)) (x10 : (⟨S384x512, .f32⟩ : BufTy).Contents (Elt F)) (x11 : (⟨S512, .f32⟩ : BufTy).Contents (Elt F)) (x12 : (⟨S512x128, .f32⟩ : BufTy).Contents (Elt F)) (x13 : (⟨S128, .f32⟩ : BufTy).Contents (Elt F)) (x14 : (⟨S384x128, .f32⟩ : BufTy).Contents (Elt F)) (x15 : (⟨S128, .f32⟩ : BufTy).Contents (Elt F)) (x16 : (⟨S256x1, .f32⟩ : BufTy).Contents (Elt F)) (x17 : (⟨S1, .f32⟩ : BufTy).Contents (Elt F))
    (h38 : W (Proc.devRef .tc main_v38) = val_main_v8 (F := F) x0 x2 x3 x4 x5)
    (h47 : W (Proc.devRef .tc main_v47) = val_main_v17 (F := F) x1 x2 x3 x4 x5)
    (h27 : W (Proc.devRef .tc main_v27) = val_main_v82 (F := F) x0 x6 x7 x8 x9 x10 x11 x12 x13)
    (h29 : W (Proc.devRef .tc main_v29) = val_main_v101 (F := F) x1 x6 x7 x8 x9 x10 x11 x12 x13)
    (h62a : shapeCast S256x128 (extractStridedSlice S1x256x128 ![0, 0, 0] (W (Proc.devRef .tc main_v62)) slices_S2x256x128_S1x256x128_0_0_0) shapeCasts_S1x256x128_S256x128 = val_main_v117 (F := F) x0 x1 x2 x3 x4 x5)
    (h62b : shapeCast S256x128 (extractStridedSlice S1x256x128 ![1, 0, 0] (W (Proc.devRef .tc main_v62)) slices_S2x256x128_S1x256x128_1_0_0) shapeCasts_S1x256x128_S256x128 = val_main_v133 (F := F) x0 x1 x2 x3 x4 x5)
    (h14 : W (Proc.devRef .tc main_arg14) = x14) (h15 : W (Proc.devRef .tc main_arg15) = x15)
    (h16 : W (Proc.devRef .tc main_arg16) = x16) (h17 : W (Proc.devRef .tc main_arg17) = x17) :
    after (hostOps2 ++ hostOps2_1 ++ hostOps2_2 ++ hostOps2_3) W (Proc.devRef .tc main_v186) = val_main_v253 (F := F) x0 x1 x2 x3 x4 x5 x6 x7 x8 x9 x10 x11 x12 x13 x14 x15 x16 x17 := by
  rw [ops_split, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]
  have f_v38_1 : (after (opsS (F := F)) W) (Proc.devRef .tc main_v38) = val_main_v8 (F := F) x0 x2 x3 x4 x5 :=
    (S_keep_main_v38 W).trans h38
  have f_v27_1 : (after (opsS (F := F)) W) (Proc.devRef .tc main_v27) = val_main_v82 (F := F) x0 x6 x7 x8 x9 x10 x11 x12 x13 :=
    (S_keep_main_v27 W).trans h27
  have f_v64_1 : (after (opsS (F := F)) W) (Proc.devRef .tc main_v64) = val_main_v117 (F := F) x0 x1 x2 x3 x4 x5 :=
    (S_out_main_v64 W).trans h62a
  have f_v74_2 : (after (opsA1 (F := F)) (after (opsS (F := F)) W)) (Proc.devRef .tc main_v74) = val_main_v141 (F := F) x0 x2 x3 x4 x5 :=
    A1_out_main_v74 (after (opsS (F := F)) W) x0 x1 x2 x3 x4 x5 x6 x7 x8 x9 x10 x11 x12 x13 x14 x15 x16 x17 f_v38_1 f_v27_1 f_v64_1
  have f_v82_2 : (after (opsA1 (F := F)) (after (opsS (F := F)) W)) (Proc.devRef .tc main_v82) = val_main_v149 (F := F) x0 x6 x7 x8 x9 x10 x11 x12 x13 :=
    A1_out_main_v82 (after (opsS (F := F)) W) x0 x1 x2 x3 x4 x5 x6 x7 x8 x9 x10 x11 x12 x13 x14 x15 x16 x17 f_v38_1 f_v27_1 f_v64_1
  have f_v90_2 : (after (opsA1 (F := F)) (after (opsS (F := F)) W)) (Proc.devRef .tc main_v90) = val_main_v157 (F := F) x0 x1 x2 x3 x4 x5 :=
    A1_out_main_v90 (after (opsS (F := F)) W) x0 x1 x2 x3 x4 x5 x6 x7 x8 x9 x10 x11 x12 x13 x14 x15 x16 x17 f_v38_1 f_v27_1 f_v64_1
  have f_v91_3 : (after (opsN1 (F := F)) (after (opsA1 (F := F)) (after (opsS (F := F)) W))) (Proc.devRef .tc main_v91) = val_main_v158 (F := F) x0 x1 x2 x3 x4 x5 x6 x7 x8 x9 x10 x11 x12 x13 :=
    N1_out_main_v91 (after (opsA1 (F := F)) (after (opsS (F := F)) W)) x0 x1 x2 x3 x4 x5 x6 x7 x8 x9 x10 x11 x12 x13 x14 x15 x16 x17 f_v74_2 f_v82_2 f_v90_2
  have f_arg14_1 : (after (opsS (F := F)) W) (Proc.devRef .tc main_arg14) = x14 :=
    (S_keep_main_arg14 W).trans h14
  have f_arg14_2 : (after (opsA1 (F := F)) (after (opsS (F := F)) W)) (Proc.devRef .tc main_arg14) = x14 :=
    (A1_keep_main_arg14 (after (opsS (F := F)) W)).trans f_arg14_1
  have f_arg14_3 : (after (opsN1 (F := F)) (after (opsA1 (F := F)) (after (opsS (F := F)) W))) (Proc.devRef .tc main_arg14) = x14 :=
    (N1_keep_main_arg14 (after (opsA1 (F := F)) (after (opsS (F := F)) W))).trans f_arg14_2
  have f_arg15_1 : (after (opsS (F := F)) W) (Proc.devRef .tc main_arg15) = x15 :=
    (S_keep_main_arg15 W).trans h15
  have f_arg15_2 : (after (opsA1 (F := F)) (after (opsS (F := F)) W)) (Proc.devRef .tc main_arg15) = x15 :=
    (A1_keep_main_arg15 (after (opsS (F := F)) W)).trans f_arg15_1
  have f_arg15_3 : (after (opsN1 (F := F)) (after (opsA1 (F := F)) (after (opsS (F := F)) W))) (Proc.devRef .tc main_arg15) = x15 :=
    (N1_keep_main_arg15 (after (opsA1 (F := F)) (after (opsS (F := F)) W))).trans f_arg15_2
  have f_v95_4 : (after (opsA2 (F := F)) (after (opsN1 (F := F)) (after (opsA1 (F := F)) (after (opsS (F := F)) W)))) (Proc.devRef .tc main_v95) = val_main_v162 (F := F) x0 x1 x2 x3 x4 x5 x6 x7 x8 x9 x10 x11 x12 x13 x14 x15 :=
    A2_out_main_v95 (after (opsN1 (F := F)) (after (opsA1 (F := F)) (after (opsS (F := F)) W))) x0 x1 x2 x3 x4 x5 x6 x7 x8 x9 x10 x11 x12 x13 x14 x15 x16 x17 f_v91_3 f_arg14_3 f_arg15_3
  have f_v95_5 : (after (opsB1 (F := F)) (after (opsA2 (F := F)) (after (opsN1 (F := F)) (after (opsA1 (F := F)) (after (opsS (F := F)) W))))) (Proc.devRef .tc main_v95) = val_main_v162 (F := F) x0 x1 x2 x3 x4 x5 x6 x7 x8 x9 x10 x11 x12 x13 x14 x15 :=
    (B1_keep_main_v95 (after (opsA2 (F := F)) (after (opsN1 (F := F)) (after (opsA1 (F := F)) (after (opsS (F := F)) W))))).trans f_v95_4
  have f_v95_6 : (after (opsN2 (F := F)) (after (opsB1 (F := F)) (after (opsA2 (F := F)) (after (opsN1 (F := F)) (after (opsA1 (F := F)) (after (opsS (F := F)) W)))))) (Proc.devRef .tc main_v95) = val_main_v162 (F := F) x0 x1 x2 x3 x4 x5 x6 x7 x8 x9 x10 x11 x12 x13 x14 x15 :=
    (N2_keep_main_v95 (after (opsB1 (F := F)) (after (opsA2 (F := F)) (after (opsN1 (F := F)) (after (opsA1 (F := F)) (after (opsS (F := F)) W)))))).trans f_v95_5
  have f_v95_7 : (after (opsB2 (F := F)) (after (opsN2 (F := F)) (after (opsB1 (F := F)) (after (opsA2 (F := F)) (after (opsN1 (F := F)) (after (opsA1 (F := F)) (after (opsS (F := F)) W))))))) (Proc.devRef .tc main_v95) = val_main_v162 (F := F) x0 x1 x2 x3 x4 x5 x6 x7 x8 x9 x10 x11 x12 x13 x14 x15 :=
    (B2_keep_main_v95 (after (opsN2 (F := F)) (after (opsB1 (F := F)) (after (opsA2 (F := F)) (after (opsN1 (F := F)) (after (opsA1 (F := F)) (after (opsS (F := F)) W))))))).trans f_v95_6
  have f_v95_8 : (after (opsC1 (F := F)) (after (opsB2 (F := F)) (after (opsN2 (F := F)) (after (opsB1 (F := F)) (after (opsA2 (F := F)) (after (opsN1 (F := F)) (after (opsA1 (F := F)) (after (opsS (F := F)) W)))))))) (Proc.devRef .tc main_v95) = val_main_v162 (F := F) x0 x1 x2 x3 x4 x5 x6 x7 x8 x9 x10 x11 x12 x13 x14 x15 :=
    (C1_keep_main_v95 (after (opsB2 (F := F)) (after (opsN2 (F := F)) (after (opsB1 (F := F)) (after (opsA2 (F := F)) (after (opsN1 (F := F)) (after (opsA1 (F := F)) (after (opsS (F := F)) W)))))))).trans f_v95_7
  have f_v129_8 : (after (opsC1 (F := F)) (after (opsB2 (F := F)) (after (opsN2 (F := F)) (after (opsB1 (F := F)) (after (opsA2 (F := F)) (after (opsN1 (F := F)) (after (opsA1 (F := F)) (after (opsS (F := F)) W)))))))) (Proc.devRef .tc main_v129) = val_main_v196 (F := F) x0 x1 x2 x3 x4 x5 x6 x7 x8 x9 x10 x11 x12 x13 x14 x15 :=
    C1_out_main_v129 (after (opsB2 (F := F)) (after (opsN2 (F := F)) (after (opsB1 (F := F)) (after (opsA2 (F := F)) (after (opsN1 (F := F)) (after (opsA1 (F := F)) (after (opsS (F := F)) W))))))) x0 x1 x2 x3 x4 x5 x6 x7 x8 x9 x10 x11 x12 x13 x14 x15 x16 x17 f_v95_7
  have f_v130_9 : (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))) (Proc.devRef .tc main_v130) = val_main_v197 (F := F) x0 x1 x2 x3 x4 x5 x6 x7 x8 x9 x10 x11 x12 x13 x14 x15 :=
    NC_out_main_v130 (after (opsC1 (F := F)) (after (opsB2 (F := F)) (after (opsN2 (F := F)) (after (opsB1 (F := F)) (after (opsA2 (F := F)) (after (opsN1 (F := F)) (after (opsA1 (F := F)) (after (opsS (F := F)) W)))))))) x0 x1 x2 x3 x4 x5 x6 x7 x8 x9 x10 x11 x12 x13 x14 x15 x16 x17 f_v95_8 f_v129_8
  have f_arg16_1 : (after (opsS (F := F)) W) (Proc.devRef .tc main_arg16) = x16 :=
    (S_keep_main_arg16 W).trans h16
  have f_arg16_2 : (after (opsA1 (F := F)) (after (opsS (F := F)) W)) (Proc.devRef .tc main_arg16) = x16 :=
    (A1_keep_main_arg16 (after (opsS (F := F)) W)).trans f_arg16_1
  have f_arg16_3 : (after (opsN1 (F := F)) (after (opsA1 (F := F)) (after (opsS (F := F)) W))) (Proc.devRef .tc main_arg16) = x16 :=
    (N1_keep_main_arg16 (after (opsA1 (F := F)) (after (opsS (F := F)) W))).trans f_arg16_2
  have f_arg16_4 : (after (opsA2 (F := F)) (after (opsN1 (F := F)) (after (opsA1 (F := F)) (after (opsS (F := F)) W)))) (Proc.devRef .tc main_arg16) = x16 :=
    (A2_keep_main_arg16 (after (opsN1 (F := F)) (after (opsA1 (F := F)) (after (opsS (F := F)) W)))).trans f_arg16_3
  have f_arg16_5 : (after (opsB1 (F := F)) (after (opsA2 (F := F)) (after (opsN1 (F := F)) (after (opsA1 (F := F)) (after (opsS (F := F)) W))))) (Proc.devRef .tc main_arg16) = x16 :=
    (B1_keep_main_arg16 (after (opsA2 (F := F)) (after (opsN1 (F := F)) (after (opsA1 (F := F)) (after (opsS (F := F)) W))))).trans f_arg16_4
  have f_arg16_6 : (after (opsN2 (F := F)) (after (opsB1 (F := F)) (after (opsA2 (F := F)) (after (opsN1 (F := F)) (after (opsA1 (F := F)) (after (opsS (F := F)) W)))))) (Proc.devRef .tc main_arg16) = x16 :=
    (N2_keep_main_arg16 (after (opsB1 (F := F)) (after (opsA2 (F := F)) (after (opsN1 (F := F)) (after (opsA1 (F := F)) (after (opsS (F := F)) W)))))).trans f_arg16_5
  have f_arg16_7 : (after (opsB2 (F := F)) (after (opsN2 (F := F)) (after (opsB1 (F := F)) (after (opsA2 (F := F)) (after (opsN1 (F := F)) (after (opsA1 (F := F)) (after (opsS (F := F)) W))))))) (Proc.devRef .tc main_arg16) = x16 :=
    (B2_keep_main_arg16 (after (opsN2 (F := F)) (after (opsB1 (F := F)) (after (opsA2 (F := F)) (after (opsN1 (F := F)) (after (opsA1 (F := F)) (after (opsS (F := F)) W))))))).trans f_arg16_6
  have f_arg16_8 : (after (opsC1 (F := F)) (after (opsB2 (F := F)) (after (opsN2 (F := F)) (after (opsB1 (F := F)) (after (opsA2 (F := F)) (after (opsN1 (F := F)) (after (opsA1 (F := F)) (after (opsS (F := F)) W)))))))) (Proc.devRef .tc main_arg16) = x16 :=
    (C1_keep_main_arg16 (after (opsB2 (F := F)) (after (opsN2 (F := F)) (after (opsB1 (F := F)) (after (opsA2 (F := F)) (after (opsN1 (F := F)) (after (opsA1 (F := F)) (after (opsS (F := F)) W)))))))).trans f_arg16_7
  have f_arg16_9 : (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))) (Proc.devRef .tc main_arg16) = x16 :=
    (NC_keep_main_arg16 (after (opsC1 (F := F)) (after (opsB2 (F := F)) (after (opsN2 (F := F)) (after (opsB1 (F := F)) (after (opsA2 (F := F)) (after (opsN1 (F := F)) (after (opsA1 (F := F)) (after (opsS (F := F)) W))))))))).trans f_arg16_8
  have f_arg17_1 : (after (opsS (F := F)) W) (Proc.devRef .tc main_arg17) = x17 :=
    (S_keep_main_arg17 W).trans h17
  have f_arg17_2 : (after (opsA1 (F := F)) (after (opsS (F := F)) W)) (Proc.devRef .tc main_arg17) = x17 :=
    (A1_keep_main_arg17 (after (opsS (F := F)) W)).trans f_arg17_1
  have f_arg17_3 : (after (opsN1 (F := F)) (after (opsA1 (F := F)) (after (opsS (F := F)) W))) (Proc.devRef .tc main_arg17) = x17 :=
    (N1_keep_main_arg17 (after (opsA1 (F := F)) (after (opsS (F := F)) W))).trans f_arg17_2
  have f_arg17_4 : (after (opsA2 (F := F)) (after (opsN1 (F := F)) (after (opsA1 (F := F)) (after (opsS (F := F)) W)))) (Proc.devRef .tc main_arg17) = x17 :=
    (A2_keep_main_arg17 (after (opsN1 (F := F)) (after (opsA1 (F := F)) (after (opsS (F := F)) W)))).trans f_arg17_3
  have f_arg17_5 : (after (opsB1 (F := F)) (after (opsA2 (F := F)) (after (opsN1 (F := F)) (after (opsA1 (F := F)) (after (opsS (F := F)) W))))) (Proc.devRef .tc main_arg17) = x17 :=
    (B1_keep_main_arg17 (after (opsA2 (F := F)) (after (opsN1 (F := F)) (after (opsA1 (F := F)) (after (opsS (F := F)) W))))).trans f_arg17_4
  have f_arg17_6 : (after (opsN2 (F := F)) (after (opsB1 (F := F)) (after (opsA2 (F := F)) (after (opsN1 (F := F)) (after (opsA1 (F := F)) (after (opsS (F := F)) W)))))) (Proc.devRef .tc main_arg17) = x17 :=
    (N2_keep_main_arg17 (after (opsB1 (F := F)) (after (opsA2 (F := F)) (after (opsN1 (F := F)) (after (opsA1 (F := F)) (after (opsS (F := F)) W)))))).trans f_arg17_5
  have f_arg17_7 : (after (opsB2 (F := F)) (after (opsN2 (F := F)) (after (opsB1 (F := F)) (after (opsA2 (F := F)) (after (opsN1 (F := F)) (after (opsA1 (F := F)) (after (opsS (F := F)) W))))))) (Proc.devRef .tc main_arg17) = x17 :=
    (B2_keep_main_arg17 (after (opsN2 (F := F)) (after (opsB1 (F := F)) (after (opsA2 (F := F)) (after (opsN1 (F := F)) (after (opsA1 (F := F)) (after (opsS (F := F)) W))))))).trans f_arg17_6
  have f_arg17_8 : (after (opsC1 (F := F)) (after (opsB2 (F := F)) (after (opsN2 (F := F)) (after (opsB1 (F := F)) (after (opsA2 (F := F)) (after (opsN1 (F := F)) (after (opsA1 (F := F)) (after (opsS (F := F)) W)))))))) (Proc.devRef .tc main_arg17) = x17 :=
    (C1_keep_main_arg17 (after (opsB2 (F := F)) (after (opsN2 (F := F)) (after (opsB1 (F := F)) (after (opsA2 (F := F)) (after (opsN1 (F := F)) (after (opsA1 (F := F)) (after (opsS (F := F)) W)))))))).trans f_arg17_7
  have f_arg17_9 : (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))) (Proc.devRef .tc main_arg17) = x17 :=
    (NC_keep_main_arg17 (after (opsC1 (F := F)) (after (opsB2 (F := F)) (after (opsN2 (F := F)) (after (opsB1 (F := F)) (after (opsA2 (F := F)) (after (opsN1 (F := F)) (after (opsA1 (F := F)) (after (opsS (F := F)) W))))))))).trans f_arg17_8
  have f_v95_9 : (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))) (Proc.devRef .tc main_v95) = val_main_v162 (F := F) x0 x1 x2 x3 x4 x5 x6 x7 x8 x9 x10 x11 x12 x13 x14 x15 :=
    (NC_keep_main_v95 (after (opsC1 (F := F)) (after (opsB2 (F := F)) (after (opsN2 (F := F)) (after (opsB1 (F := F)) (after (opsA2 (F := F)) (after (opsN1 (F := F)) (after (opsA1 (F := F)) (after (opsS (F := F)) W))))))))).trans f_v95_8
  have f_v149_10 : (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))) (Proc.devRef .tc main_v149) = val_main_v216 (F := F) x0 x1 x2 x3 x4 x5 x6 x7 x8 x9 x10 x11 x12 x13 x14 x15 x16 x17 :=
    C2_out_main_v149 (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))) x0 x1 x2 x3 x4 x5 x6 x7 x8 x9 x10 x11 x12 x13 x14 x15 x16 x17 f_v130_9 f_arg16_9 f_arg17_9 f_v95_9
  have f_v149_11 : (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))) (Proc.devRef .tc main_v149) = val_main_v216 (F := F) x0 x1 x2 x3 x4 x5 x6 x7 x8 x9 x10 x11 x12 x13 x14 x15 x16 x17 :=
    (D1_keep_main_v149 (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))).trans f_v149_10
  have f_v149_12 : (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))) (Proc.devRef .tc main_v149) = val_main_v216 (F := F) x0 x1 x2 x3 x4 x5 x6 x7 x8 x9 x10 x11 x12 x13 x14 x15 x16 x17 :=
    (ND_keep_main_v149 (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))).trans f_v149_11
  have f_v149_13 : (after (opsD2 (F := F)) (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))))) (Proc.devRef .tc main_v149) = val_main_v216 (F := F) x0 x1 x2 x3 x4 x5 x6 x7 x8 x9 x10 x11 x12 x13 x14 x15 x16 x17 :=
    (D2_keep_main_v149 (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))))).trans f_v149_12
  have f_v47_1 : (after (opsS (F := F)) W) (Proc.devRef .tc main_v47) = val_main_v17 (F := F) x1 x2 x3 x4 x5 :=
    (S_keep_main_v47 W).trans h47
  have f_v47_2 : (after (opsA1 (F := F)) (after (opsS (F := F)) W)) (Proc.devRef .tc main_v47) = val_main_v17 (F := F) x1 x2 x3 x4 x5 :=
    (A1_keep_main_v47 (after (opsS (F := F)) W)).trans f_v47_1
  have f_v47_3 : (after (opsN1 (F := F)) (after (opsA1 (F := F)) (after (opsS (F := F)) W))) (Proc.devRef .tc main_v47) = val_main_v17 (F := F) x1 x2 x3 x4 x5 :=
    (N1_keep_main_v47 (after (opsA1 (F := F)) (after (opsS (F := F)) W))).trans f_v47_2
  have f_v47_4 : (after (opsA2 (F := F)) (after (opsN1 (F := F)) (after (opsA1 (F := F)) (after (opsS (F := F)) W)))) (Proc.devRef .tc main_v47) = val_main_v17 (F := F) x1 x2 x3 x4 x5 :=
    (A2_keep_main_v47 (after (opsN1 (F := F)) (after (opsA1 (F := F)) (after (opsS (F := F)) W)))).trans f_v47_3
  have f_v29_1 : (after (opsS (F := F)) W) (Proc.devRef .tc main_v29) = val_main_v101 (F := F) x1 x6 x7 x8 x9 x10 x11 x12 x13 :=
    (S_keep_main_v29 W).trans h29
  have f_v29_2 : (after (opsA1 (F := F)) (after (opsS (F := F)) W)) (Proc.devRef .tc main_v29) = val_main_v101 (F := F) x1 x6 x7 x8 x9 x10 x11 x12 x13 :=
    (A1_keep_main_v29 (after (opsS (F := F)) W)).trans f_v29_1
  have f_v29_3 : (after (opsN1 (F := F)) (after (opsA1 (F := F)) (after (opsS (F := F)) W))) (Proc.devRef .tc main_v29) = val_main_v101 (F := F) x1 x6 x7 x8 x9 x10 x11 x12 x13 :=
    (N1_keep_main_v29 (after (opsA1 (F := F)) (after (opsS (F := F)) W))).trans f_v29_2
  have f_v29_4 : (after (opsA2 (F := F)) (after (opsN1 (F := F)) (after (opsA1 (F := F)) (after (opsS (F := F)) W)))) (Proc.devRef .tc main_v29) = val_main_v101 (F := F) x1 x6 x7 x8 x9 x10 x11 x12 x13 :=
    (A2_keep_main_v29 (after (opsN1 (F := F)) (after (opsA1 (F := F)) (after (opsS (F := F)) W)))).trans f_v29_3
  have f_v66_1 : (after (opsS (F := F)) W) (Proc.devRef .tc main_v66) = val_main_v133 (F := F) x0 x1 x2 x3 x4 x5 :=
    (S_out_main_v66 W).trans h62b
  have f_v66_2 : (after (opsA1 (F := F)) (after (opsS (F := F)) W)) (Proc.devRef .tc main_v66) = val_main_v133 (F := F) x0 x1 x2 x3 x4 x5 :=
    (A1_keep_main_v66 (after (opsS (F := F)) W)).trans f_v66_1
  have f_v66_3 : (after (opsN1 (F := F)) (after (opsA1 (F := F)) (after (opsS (F := F)) W))) (Proc.devRef .tc main_v66) = val_main_v133 (F := F) x0 x1 x2 x3 x4 x5 :=
    (N1_keep_main_v66 (after (opsA1 (F := F)) (after (opsS (F := F)) W))).trans f_v66_2
  have f_v66_4 : (after (opsA2 (F := F)) (after (opsN1 (F := F)) (after (opsA1 (F := F)) (after (opsS (F := F)) W)))) (Proc.devRef .tc main_v66) = val_main_v133 (F := F) x0 x1 x2 x3 x4 x5 :=
    (A2_keep_main_v66 (after (opsN1 (F := F)) (after (opsA1 (F := F)) (after (opsS (F := F)) W)))).trans f_v66_3
  have f_v103_5 : (after (opsB1 (F := F)) (after (opsA2 (F := F)) (after (opsN1 (F := F)) (after (opsA1 (F := F)) (after (opsS (F := F)) W))))) (Proc.devRef .tc main_v103) = val_main_v170 (F := F) x1 x2 x3 x4 x5 :=
    B1_out_main_v103 (after (opsA2 (F := F)) (after (opsN1 (F := F)) (after (opsA1 (F := F)) (after (opsS (F := F)) W)))) x0 x1 x2 x3 x4 x5 x6 x7 x8 x9 x10 x11 x12 x13 x14 x15 x16 x17 f_v47_4 f_v29_4 f_v66_4
  have f_v111_5 : (after (opsB1 (F := F)) (after (opsA2 (F := F)) (after (opsN1 (F := F)) (after (opsA1 (F := F)) (after (opsS (F := F)) W))))) (Proc.devRef .tc main_v111) = val_main_v178 (F := F) x1 x6 x7 x8 x9 x10 x11 x12 x13 :=
    B1_out_main_v111 (after (opsA2 (F := F)) (after (opsN1 (F := F)) (after (opsA1 (F := F)) (after (opsS (F := F)) W)))) x0 x1 x2 x3 x4 x5 x6 x7 x8 x9 x10 x11 x12 x13 x14 x15 x16 x17 f_v47_4 f_v29_4 f_v66_4
  have f_v119_5 : (after (opsB1 (F := F)) (after (opsA2 (F := F)) (after (opsN1 (F := F)) (after (opsA1 (F := F)) (after (opsS (F := F)) W))))) (Proc.devRef .tc main_v119) = val_main_v186 (F := F) x0 x1 x2 x3 x4 x5 :=
    B1_out_main_v119 (after (opsA2 (F := F)) (after (opsN1 (F := F)) (after (opsA1 (F := F)) (after (opsS (F := F)) W)))) x0 x1 x2 x3 x4 x5 x6 x7 x8 x9 x10 x11 x12 x13 x14 x15 x16 x17 f_v47_4 f_v29_4 f_v66_4
  have f_v120_6 : (after (opsN2 (F := F)) (after (opsB1 (F := F)) (after (opsA2 (F := F)) (after (opsN1 (F := F)) (after (opsA1 (F := F)) (after (opsS (F := F)) W)))))) (Proc.devRef .tc main_v120) = val_main_v187 (F := F) x0 x1 x2 x3 x4 x5 x6 x7 x8 x9 x10 x11 x12 x13 :=
    N2_out_main_v120 (after (opsB1 (F := F)) (after (opsA2 (F := F)) (after (opsN1 (F := F)) (after (opsA1 (F := F)) (after (opsS (F := F)) W))))) x0 x1 x2 x3 x4 x5 x6 x7 x8 x9 x10 x11 x12 x13 x14 x15 x16 x17 f_v103_5 f_v111_5 f_v119_5
  have f_arg14_4 : (after (opsA2 (F := F)) (after (opsN1 (F := F)) (after (opsA1 (F := F)) (after (opsS (F := F)) W)))) (Proc.devRef .tc main_arg14) = x14 :=
    (A2_keep_main_arg14 (after (opsN1 (F := F)) (after (opsA1 (F := F)) (after (opsS (F := F)) W)))).trans f_arg14_3
  have f_arg14_5 : (after (opsB1 (F := F)) (after (opsA2 (F := F)) (after (opsN1 (F := F)) (after (opsA1 (F := F)) (after (opsS (F := F)) W))))) (Proc.devRef .tc main_arg14) = x14 :=
    (B1_keep_main_arg14 (after (opsA2 (F := F)) (after (opsN1 (F := F)) (after (opsA1 (F := F)) (after (opsS (F := F)) W))))).trans f_arg14_4
  have f_arg14_6 : (after (opsN2 (F := F)) (after (opsB1 (F := F)) (after (opsA2 (F := F)) (after (opsN1 (F := F)) (after (opsA1 (F := F)) (after (opsS (F := F)) W)))))) (Proc.devRef .tc main_arg14) = x14 :=
    (N2_keep_main_arg14 (after (opsB1 (F := F)) (after (opsA2 (F := F)) (after (opsN1 (F := F)) (after (opsA1 (F := F)) (after (opsS (F := F)) W)))))).trans f_arg14_5
  have f_arg15_4 : (after (opsA2 (F := F)) (after (opsN1 (F := F)) (after (opsA1 (F := F)) (after (opsS (F := F)) W)))) (Proc.devRef .tc main_arg15) = x15 :=
    (A2_keep_main_arg15 (after (opsN1 (F := F)) (after (opsA1 (F := F)) (after (opsS (F := F)) W)))).trans f_arg15_3
  have f_arg15_5 : (after (opsB1 (F := F)) (after (opsA2 (F := F)) (after (opsN1 (F := F)) (after (opsA1 (F := F)) (after (opsS (F := F)) W))))) (Proc.devRef .tc main_arg15) = x15 :=
    (B1_keep_main_arg15 (after (opsA2 (F := F)) (after (opsN1 (F := F)) (after (opsA1 (F := F)) (after (opsS (F := F)) W))))).trans f_arg15_4
  have f_arg15_6 : (after (opsN2 (F := F)) (after (opsB1 (F := F)) (after (opsA2 (F := F)) (after (opsN1 (F := F)) (after (opsA1 (F := F)) (after (opsS (F := F)) W)))))) (Proc.devRef .tc main_arg15) = x15 :=
    (N2_keep_main_arg15 (after (opsB1 (F := F)) (after (opsA2 (F := F)) (after (opsN1 (F := F)) (after (opsA1 (F := F)) (after (opsS (F := F)) W)))))).trans f_arg15_5
  have f_v124_7 : (after (opsB2 (F := F)) (after (opsN2 (F := F)) (after (opsB1 (F := F)) (after (opsA2 (F := F)) (after (opsN1 (F := F)) (after (opsA1 (F := F)) (after (opsS (F := F)) W))))))) (Proc.devRef .tc main_v124) = val_main_v191 (F := F) x0 x1 x2 x3 x4 x5 x6 x7 x8 x9 x10 x11 x12 x13 x14 x15 :=
    B2_out_main_v124 (after (opsN2 (F := F)) (after (opsB1 (F := F)) (after (opsA2 (F := F)) (after (opsN1 (F := F)) (after (opsA1 (F := F)) (after (opsS (F := F)) W)))))) x0 x1 x2 x3 x4 x5 x6 x7 x8 x9 x10 x11 x12 x13 x14 x15 x16 x17 f_v120_6 f_arg14_6 f_arg15_6
  have f_v124_8 : (after (opsC1 (F := F)) (after (opsB2 (F := F)) (after (opsN2 (F := F)) (after (opsB1 (F := F)) (after (opsA2 (F := F)) (after (opsN1 (F := F)) (after (opsA1 (F := F)) (after (opsS (F := F)) W)))))))) (Proc.devRef .tc main_v124) = val_main_v191 (F := F) x0 x1 x2 x3 x4 x5 x6 x7 x8 x9 x10 x11 x12 x13 x14 x15 :=
    (C1_keep_main_v124 (after (opsB2 (F := F)) (after (opsN2 (F := F)) (after (opsB1 (F := F)) (after (opsA2 (F := F)) (after (opsN1 (F := F)) (after (opsA1 (F := F)) (after (opsS (F := F)) W)))))))).trans f_v124_7
  have f_v124_9 : (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))) (Proc.devRef .tc main_v124) = val_main_v191 (F := F) x0 x1 x2 x3 x4 x5 x6 x7 x8 x9 x10 x11 x12 x13 x14 x15 :=
    (NC_keep_main_v124 (after (opsC1 (F := F)) (after (opsB2 (F := F)) (after (opsN2 (F := F)) (after (opsB1 (F := F)) (after (opsA2 (F := F)) (after (opsN1 (F := F)) (after (opsA1 (F := F)) (after (opsS (F := F)) W))))))))).trans f_v124_8
  have f_v124_10 : (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))) (Proc.devRef .tc main_v124) = val_main_v191 (F := F) x0 x1 x2 x3 x4 x5 x6 x7 x8 x9 x10 x11 x12 x13 x14 x15 :=
    (C2_keep_main_v124 (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))).trans f_v124_9
  have f_v124_11 : (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))) (Proc.devRef .tc main_v124) = val_main_v191 (F := F) x0 x1 x2 x3 x4 x5 x6 x7 x8 x9 x10 x11 x12 x13 x14 x15 :=
    (D1_keep_main_v124 (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))).trans f_v124_10
  have f_v154_11 : (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))) (Proc.devRef .tc main_v154) = val_main_v221 (F := F) x0 x1 x2 x3 x4 x5 x6 x7 x8 x9 x10 x11 x12 x13 x14 x15 :=
    D1_out_main_v154 (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))) x0 x1 x2 x3 x4 x5 x6 x7 x8 x9 x10 x11 x12 x13 x14 x15 x16 x17 f_v124_10
  have f_v155_12 : (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))) (Proc.devRef .tc main_v155) = val_main_v222 (F := F) x0 x1 x2 x3 x4 x5 x6 x7 x8 x9 x10 x11 x12 x13 x14 x15 :=
    ND_out_main_v155 (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))) x0 x1 x2 x3 x4 x5 x6 x7 x8 x9 x10 x11 x12 x13 x14 x15 x16 x17 f_v124_11 f_v154_11
  have f_arg16_10 : (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))) (Proc.devRef .tc main_arg16) = x16 :=
    (C2_keep_main_arg16 (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))).trans f_arg16_9
  have f_arg16_11 : (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))) (Proc.devRef .tc main_arg16) = x16 :=
    (D1_keep_main_arg16 (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))).trans f_arg16_10
  have f_arg16_12 : (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))) (Proc.devRef .tc main_arg16) = x16 :=
    (ND_keep_main_arg16 (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))).trans f_arg16_11
  have f_arg17_10 : (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))) (Proc.devRef .tc main_arg17) = x17 :=
    (C2_keep_main_arg17 (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))).trans f_arg17_9
  have f_arg17_11 : (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))) (Proc.devRef .tc main_arg17) = x17 :=
    (D1_keep_main_arg17 (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))).trans f_arg17_10
  have f_arg17_12 : (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))) (Proc.devRef .tc main_arg17) = x17 :=
    (ND_keep_main_arg17 (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))).trans f_arg17_11
  have f_v124_12 : (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))) (Proc.devRef .tc main_v124) = val_main_v191 (F := F) x0 x1 x2 x3 x4 x5 x6 x7 x8 x9 x10 x11 x12 x13 x14 x15 :=
    (ND_keep_main_v124 (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))).trans f_v124_11
  have f_v174_13 : (after (opsD2 (F := F)) (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))))) (Proc.devRef .tc main_v174) = val_main_v241 (F := F) x0 x1 x2 x3 x4 x5 x6 x7 x8 x9 x10 x11 x12 x13 x14 x15 x16 x17 :=
    D2_out_main_v174 (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))) x0 x1 x2 x3 x4 x5 x6 x7 x8 x9 x10 x11 x12 x13 x14 x15 x16 x17 f_v155_12 f_arg16_12 f_arg17_12 f_v124_12
  have f_v186_14 : (after (opsE (F := F)) (after (opsD2 (F := F)) (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W)))))))))))))) (Proc.devRef .tc main_v186) = val_main_v253 (F := F) x0 x1 x2 x3 x4 x5 x6 x7 x8 x9 x10 x11 x12 x13 x14 x15 x16 x17 :=
    E_out_main_v186 (after (opsD2 (F := F)) (after (opsND (F := F)) (after (opsD1 (F := F)) (after (opsC2 (F := F)) (after (opsNC (F := F)) (after (opsC1 (F := F)) (after (opsB2 (F := F)) (after (opsN2 (F := F)) (after (opsB1 (F := F)) (after (opsA2 (F := F)) (after (opsN1 (F := F)) (after (opsA1 (F := F)) (after (opsS (F := F)) W))))))))))))) x0 x1 x2 x3 x4 x5 x6 x7 x8 x9 x10 x11 x12 x13 x14 x15 x16 x17 f_v149_13 f_v174_13
  exact f_v186_14

end Cert.KernelIdeal.Tail

end
-- ==== Proof.AlgIntra.lean ====
/-
  The edge message stage over the reals: the fused rearrangement equals the reference reading.

  The first edge layer splits, over the four ranges of the 768 edge entries, into a dot product and a row lookup
  for each of the two nodes; the message's first layer splits over its three ranges of 128, the edge embedding's
  second layer folding into the last 128 rows; the 16 tiles of 16 nodes enumerate the 256 nodes, so the running
  sum after the last tile is the sum of all messages.
-/
import proofs.«418941_j65867618451820_3_alg».proof.Proof.Spec
import Mathlib.Algebra.BigOperators.Fin
import Mathlib.Data.Fintype.BigOperators
import Mathlib.Logic.Equiv.Fin.Basic
import Mathlib.Tactic.Ring
import Mathlib.Tactic.Linarith

namespace GraphMatch

open Finset

/-- A sum over the first n naturals, n = a + b, split at a. -/
theorem sum_fin_split {n : ℕ} (a b : ℕ) (hn : a + b = n) (f : Fin n → ℝ) :
    ∑ k : Fin n, f k
      = (∑ i : Fin a, f ⟨i.val, by have := i.isLt; omega⟩)
        + ∑ j : Fin b, f ⟨a + j.val, by have := j.isLt; omega⟩ := by
  subst hn
  rw [Fin.sum_univ_add]
  rfl

section Intra

variable (x : Fin 256 → Fin 128 → ℝ)
  (W1 : Fin 768 → Fin 512 → ℝ) (b1 : Fin 512 → ℝ) (W2 : Fin 512 → Fin 128 → ℝ) (b2 : Fin 128 → ℝ)
  (P1 : Fin 384 → Fin 512 → ℝ) (pb1 : Fin 512 → ℝ) (P2 : Fin 512 → Fin 128 → ℝ) (pb2 : Fin 128 → ℝ)

/-- A node's 384 entries against a vector: the feature part is a dot product, the one-hot part picks one entry. -/
theorem sum_nodeFeat_mul (m : Fin 256) (V : Fin 384 → ℝ) :
    ∑ k : Fin 384, nodeFeat x m k * V k
      = (∑ k : Fin 128, x m k * V ⟨k.val, by have := k.isLt; omega⟩)
        + V ⟨128 + m.val, by have := m.isLt; omega⟩ := by
  rw [sum_fin_split (n := 384) 128 256 rfl]
  refine congrArg₂ (· + ·) ?_ ?_
  · refine Finset.sum_congr rfl fun k _ => ?_
    have hk := k.isLt
    simp only [nodeFeat, dif_pos hk]
  · have hone : ∀ j : Fin 256,
        nodeFeat x m ⟨128 + j.val, by have := j.isLt; omega⟩ = if j = m then 1 else 0 := by
      intro j
      have h1 : ¬ (128 + j.val < 128) := by omega
      have h2 : (128 + j.val - 128 = m.val) ↔ j = m := by rw [Fin.ext_iff]; omega
      simp only [nodeFeat, dif_neg h1, h2]
    simp only [hone, ite_mul, one_mul, zero_mul, Finset.sum_ite_eq', Finset.mem_univ, if_true]

/-- An edge's 768 entries against a vector: node m's half, then node n's half. -/
theorem sum_edgeFeat_mul (m n : Fin 256) (V : Fin 768 → ℝ) :
    ∑ k : Fin 768, edgeFeat x m n k * V k
      = (∑ k : Fin 384, nodeFeat x m k * V ⟨k.val, by have := k.isLt; omega⟩)
        + ∑ k : Fin 384, nodeFeat x n k * V ⟨384 + k.val, by have := k.isLt; omega⟩ := by
  rw [sum_fin_split (n := 768) 384 384 rfl]
  refine congrArg₂ (· + ·) ?_ ?_
  · refine Finset.sum_congr rfl fun k _ => ?_
    have hk := k.isLt
    simp only [edgeFeat, dif_pos hk]
  · refine Finset.sum_congr rfl fun k _ => ?_
    have hk : ¬ (384 + k.val < 384) := by omega
    have hk' : (⟨384 + k.val - 384, by have := k.isLt; omega⟩ : Fin 384) = k := by
      apply Fin.ext; simp
    simp only [edgeFeat, dif_neg hk, hk']

/-- The first edge layer is the sum of a term of node m and a term of node n. -/
theorem edgePre_eq (m n : Fin 256) (h : Fin 512) :
    edgePre x W1 b1 m n h = gA x (wXi W1) (wOib W1 b1) m h + gB x (wXj W1) (wOj W1) n h := by
  unfold edgePre gA gB
  rw [sum_edgeFeat_mul, sum_nodeFeat_mul, sum_nodeFeat_mul]
  have e1 : (⟨384 + (128 + n.val), by have := n.isLt; omega⟩ : Fin 768)
      = ⟨512 + n.val, by have := n.isLt; omega⟩ := by apply Fin.ext; simp; omega
  simp only [wXi, wOib, wXj, wOj, e1]
  ring

/-- The edge embedding against the last 128 rows of the message layer: the second edge layer folds in. -/
theorem sum_edgeEmb_mul_pE (m n : Fin 256) (h : Fin 512) :
    ∑ e : Fin 128, edgeEmb x W1 b1 W2 b2 m n e * pE P1 e h
      = (∑ h' : Fin 512, max (edgePre x W1 b1 m n h') 0 * wE W2 P1 h' h)
        + ∑ e : Fin 128, b2 e * pE P1 e h := by
  unfold edgeEmb wE
  simp only [add_mul, Finset.sum_add_distrib, Finset.sum_mul, Finset.mul_sum]
  congr 1
  rw [Finset.sum_comm]
  refine Finset.sum_congr rfl fun h' _ => Finset.sum_congr rfl fun e _ => ?_
  ring

/-- The message's 384 entries against a vector: x m, x n, the edge embedding. -/
theorem sum_msgFeat_mul (m n : Fin 256) (V : Fin 384 → ℝ) :
    ∑ k : Fin 384, msgFeat x W1 b1 W2 b2 m n k * V k
      = (∑ k : Fin 128, x m k * V ⟨k.val, by have := k.isLt; omega⟩)
        + (∑ k : Fin 128, x n k * V ⟨128 + k.val, by have := k.isLt; omega⟩)
        + ∑ e : Fin 128, edgeEmb x W1 b1 W2 b2 m n e * V ⟨256 + e.val, by have := e.isLt; omega⟩ := by
  rw [sum_fin_split (n := 384) 256 128 rfl, sum_fin_split (n := 256) 128 128 rfl]
  refine congrArg₂ (· + ·) (congrArg₂ (· + ·) ?_ ?_) ?_
  · refine Finset.sum_congr rfl fun k _ => ?_
    have hk := k.isLt
    simp only [msgFeat, dif_pos hk]
  · refine Finset.sum_congr rfl fun k _ => ?_
    have hk1 : ¬ (128 + k.val < 128) := by omega
    have hk2 : 128 + k.val < 256 := by have := k.isLt; omega
    have hk' : (⟨128 + k.val - 128, by have := k.isLt; omega⟩ : Fin 128) = k := by
      apply Fin.ext; simp
    simp only [msgFeat, dif_neg hk1, dif_pos hk2, hk']
  · refine Finset.sum_congr rfl fun e _ => ?_
    have he1 : ¬ (256 + e.val < 128) := by omega
    have he2 : ¬ (256 + e.val < 256) := by omega
    have he' : (⟨256 + e.val - 256, by have := e.isLt; omega⟩ : Fin 128) = e := by
      apply Fin.ext; simp
    simp only [msgFeat, dif_neg he1, dif_neg he2, he']

/-- The first message layer in its fused form. -/
theorem msgPre_eq (m n : Fin 256) (h : Fin 512) :
    msgPre x W1 b1 W2 b2 P1 pb1 m n h
      = gC x (pM P1) (pb1e b2 P1 pb1) m h + gD x (pN P1) n h
        + gE x (wXi W1) (wOib W1 b1) (wXj W1) (wOj W1) (wE W2 P1) m n h := by
  unfold msgPre gC gD gE pb1e
  rw [sum_msgFeat_mul]
  have hE := sum_edgeEmb_mul_pE x W1 b1 W2 b2 P1 m n h
  simp only [← edgePre_eq]
  simp only [pE, pM, pN] at hE ⊢
  linarith [hE]

/-- The fused message is the message. -/
theorem gMsg_eq (m n : Fin 256) (d : Fin 128) :
    gMsg x (wXi W1) (wOib W1 b1) (wXj W1) (wOj W1) (wE W2 P1) (pM P1) (pN P1) (pb1e b2 P1 pb1) P2 pb2 m n d
      = msg x W1 b1 W2 b2 P1 pb1 P2 pb2 m n d := by
  unfold gMsg msg
  simp only [msgPre_eq]

end Intra

section Fused

variable (x : Fin 256 → Fin 128 → ℝ)
  (wxi : Fin 128 → Fin 512 → ℝ) (woib : Fin 256 → Fin 512 → ℝ) (wxj : Fin 128 → Fin 512 → ℝ) (woj : Fin 256 → Fin 512 → ℝ)
  (we : Fin 512 → Fin 512 → ℝ) (pm pn : Fin 128 → Fin 512 → ℝ) (pbe : Fin 512 → ℝ)
  (p2 : Fin 512 → Fin 128 → ℝ) (pb2 : Fin 128 → ℝ)

/-- The 16 tiles of 16 nodes enumerate the 256 nodes. -/
theorem sum_tiles (F : Fin 256 → ℝ) :
    ∑ t : Fin 16, ∑ j : Fin 16, F (tileNode t j) = ∑ n : Fin 256, F n := by
  rw [← Fintype.sum_prod_type']
  refine Fintype.sum_equiv (finProdFinEquiv (m := 16) (n := 16)) _ _ fun p => ?_
  obtain ⟨t, j⟩ := p
  congr 1
  apply Fin.ext
  simp [tileNode, finProdFinEquiv]
  omega

/-- The running sum after tile t is the sum of the tiles up to t. -/
theorem gAcc_eq_sum_range (m : Fin 256) (d : Fin 128) : ∀ t : ℕ,
    gAcc x wxi woib wxj woj we pm pn pbe p2 pb2 m d t
      = ∑ s ∈ Finset.range (t + 1),
          (if h : s < 16 then gTile x wxi woib wxj woj we pm pn pbe p2 pb2 m d ⟨s, h⟩ else 0)
  | 0 => by
      rw [gAcc, Finset.sum_range_one, zero_add, dif_pos (by norm_num : (0 : ℕ) < 16)]
      rfl
  | t + 1 => by
      rw [gAcc, gAcc_eq_sum_range m d t, Finset.sum_range_succ _ (t + 1)]

/-- The last running sum is the sum over all nodes. -/
theorem gAcc_last (m : Fin 256) (d : Fin 128) :
    gAcc x wxi woib wxj woj we pm pn pbe p2 pb2 m d 15
      = ∑ n : Fin 256, gMsg x wxi woib wxj woj we pm pn pbe p2 pb2 m n d := by
  rw [gAcc_eq_sum_range, Finset.sum_range]
  rw [← sum_tiles]
  exact Finset.sum_congr rfl fun i _ => dif_pos i.isLt

end Fused

/-- The fused reading equals the reference reading. -/
theorem intraKer_eq_intraRef (x : Fin 256 → Fin 128 → ℝ)
    (W1 : Fin 768 → Fin 512 → ℝ) (b1 : Fin 512 → ℝ) (W2 : Fin 512 → Fin 128 → ℝ) (b2 : Fin 128 → ℝ)
    (P1 : Fin 384 → Fin 512 → ℝ) (pb1 : Fin 512 → ℝ) (P2 : Fin 512 → Fin 128 → ℝ) (pb2 : Fin 128 → ℝ)
    (m : Fin 256) (d : Fin 128) :
    intraKer x W1 b1 W2 b2 P1 pb1 P2 pb2 m d = intraRef x W1 b1 W2 b2 P1 pb1 P2 pb2 m d := by
  unfold intraKer gIntra intraRef
  rw [gAcc_last]
  simp only [gMsg_eq]

end GraphMatch
-- ==== Proof.RefIntra.lean ====
/-
  The reference's edge message stage read entry by entry: the joined node features [x | identity], the edge
  features of ordered pairs, the two-layer edge embedding, the message perceptron on [x m, x n, E m n], and the mean
  over the second node, all met with the real-valued definitions.
-/
import proofs.«418941_j65867618451820_3_alg».proof.Proof.RefRead
import proofs.«418941_j65867618451820_3_alg».proof.Proof.Spec
import proofs.«418941_j65867618451820_3_alg».proof.Proof.Arr
import proofs.«418941_j65867618451820_3_alg».proof.Proof.LibERealCoe

noncomputable section

namespace Cert.RefIntra

open GraphMatch GraphMatch.ERealCoe Idealize.ShloMosaic Idealize.ShloMosaic.ValueIdx Cert.ReferenceIdeal Cert.ReferenceIdeal.ReadP

/-- The row of the ordered pair (m, n) in the flattened list of pairs. -/
def row (m n : Fin 256) : Fin 65536 := ⟨m.val * 256 + n.val, by have := m.isLt; have := n.isLt; omega⟩

/-! ## The one-hot block -/

/-- The identity matrix: entry (m, c) is 1 when c = m and 0 otherwise. -/
theorem eye_apply (m c : Fin 256) :
    val_main_v23 (F := Ideal) (ix2 m c) = (((if c.val = m.val then 1 else 0 : ℝ)) : EReal) := by
  rw [val_main_v23_apply, val_main_v22_apply, val_main_v21_apply, val_main_v18_apply, val_main_v19_apply,
    val_main_v20_apply, val_main_c_apply]
  show (((IntOp.cmpi .eq (IntOp.addi (BitVec.ofNat 32 m.val) 0#32) (BitVec.ofNat 32 c.val)).toNat : ℝ) : EReal) = _
  have hm := m.isLt
  have hc := c.isLt
  by_cases h : c.val = m.val
  · rw [if_pos h, h]
    simp [IntOp.cmpi, IntOp.addi]
  · rw [if_neg h]
    have hne : ¬ (BitVec.ofNat 32 m.val = BitVec.ofNat 32 c.val) := by
      intro e
      have := congrArg BitVec.toNat e
      simp only [BitVec.toNat_ofNat] at this
      omega
    simp [IntOp.cmpi, IntOp.addi, hne]

/-! ## The node features and the edge features -/

/-- A node's row of the joined matrix [x | identity]. -/
theorem nodeFeat_apply (x : Fin 256 → Fin 128 → ℝ) (m : Fin 256) (k : Fin 384) :
    val_main_v24 (F := Ideal) (arr2 x) (ix2 m k) = ((nodeFeat x m k : ℝ) : EReal) := by
  unfold val_main_v24 nodeFeat
  by_cases h : k.val < 128
  · rw [dif_pos h]
    exact concatenate_pair_apply_left (s₁ := S256x128) (s₂ := S256x256) _ _ _ _ (ix2 m k) rfl (ix2 m (⟨k.val, h⟩ : Fin 128))
      (fun b => match b with | ⟨0, _⟩ => rfl | ⟨1, _⟩ => rfl)
  · rw [dif_neg h]
    have hk := k.isLt
    refine (concatenate_pair_apply_right (s₁ := S256x128) (s₂ := S256x256) _ _ _ _ (ix2 m k) rfl rfl (ix2 m (⟨k.val - 128, by omega⟩ : Fin 256))
      (fun b hb => match b, hb with | ⟨0, _⟩, _ => rfl | ⟨1, _⟩, hb => absurd rfl hb) ?_).trans (eye_apply m _)
    show (k.val - 128) + 128 = k.val
    omega

theorem idx_v25_v26 (m n : Fin 256) (k : Fin 384) : idx_main_v25 (idx_main_v26 (ix3 m n k)) = ix2 m k :=
  funext fun a => Fin.ext (by match a with | ⟨0, _⟩ => rfl | ⟨1, _⟩ => rfl)

theorem idx_v27_v28 (m n : Fin 256) (k : Fin 384) : idx_main_v27 (idx_main_v28 (ix3 m n k)) = ix2 n k :=
  funext fun a => Fin.ext (by match a with | ⟨0, _⟩ => rfl | ⟨1, _⟩ => rfl)

/-- The edge feature of (m, n): node m's row followed by node n's. -/
theorem edgeFeat3_apply (x : Fin 256 → Fin 128 → ℝ) (m n : Fin 256) (k : Fin 768) :
    val_main_v29 (F := Ideal) (arr2 x) (ix3 m n k) = ((edgeFeat x m n k : ℝ) : EReal) := by
  unfold val_main_v29 edgeFeat
  by_cases h : k.val < 384
  · rw [dif_pos h]
    refine (concatenate_pair_apply_left (s₁ := S256x256x384) (s₂ := S256x256x384) _ _ _ _ (ix3 m n k) rfl (ix3 m n (⟨k.val, h⟩ : Fin 384))
      (fun b => match b with | ⟨0, _⟩ => rfl | ⟨1, _⟩ => rfl | ⟨2, _⟩ => rfl)).trans ?_
    rw [val_main_v26_apply, val_main_v25_apply, idx_v25_v26, nodeFeat_apply]
  · rw [dif_neg h]
    have hk := k.isLt
    refine (concatenate_pair_apply_right (s₁ := S256x256x384) (s₂ := S256x256x384) _ _ _ _ (ix3 m n k) rfl rfl (ix3 m n (⟨k.val - 384, by omega⟩ : Fin 384))
      (fun b hb => match b, hb with | ⟨0, _⟩, _ => rfl | ⟨1, _⟩, _ => rfl | ⟨2, _⟩, hb => absurd rfl hb) ?_).trans ?_
    · show (k.val - 384) + 384 = k.val
      omega
    · rw [val_main_v28_apply, val_main_v27_apply, idx_v27_v28, nodeFeat_apply]

theorem idx_v30 (m n : Fin 256) (k : Fin 768) : idx_main_v30 (ix2 (row m n) k) = ix3 m n k :=
  funext fun a => Fin.ext (by
    have hm := m.isLt; have hn := n.isLt; have hk := k.isLt
    match a with
    | ⟨0, _⟩ => show ((m.val * 256 + n.val) * 768 + k.val) / 196608 = m.val; omega
    | ⟨1, _⟩ => show ((m.val * 256 + n.val) * 768 + k.val) / 768 % 256 = n.val; omega
    | ⟨2, _⟩ => show ((m.val * 256 + n.val) * 768 + k.val) % 768 = k.val; omega)

/-- The flattened edge features: row m·256 + n holds the edge feature of (m, n). -/
theorem edgeFeat_apply (x : Fin 256 → Fin 128 → ℝ) (m n : Fin 256) (k : Fin 768) :
    val_main_v30 (F := Ideal) (arr2 x) (ix2 (row m n) k) = ((edgeFeat x m n k : ℝ) : EReal) := by
  rw [val_main_v30_apply, idx_v30, edgeFeat3_apply]

/-! ## The edge embedding -/

theorem lidx_v31 (r : Fin 65536) (h : Fin 512) (k : Fin 768) : lidx_main_v31 (ix2 r h) k = ix2 r k :=
  funext fun a => Fin.ext (by match a with | ⟨0, _⟩ => rfl | ⟨1, _⟩ => rfl)

theorem ridx_v31 (r : Fin 65536) (h : Fin 512) (k : Fin 768) : ridx_main_v31 (ix2 r h) k = ix2 k h :=
  funext fun a => Fin.ext (by match a with | ⟨0, _⟩ => rfl | ⟨1, _⟩ => rfl)

theorem bias_v33 (b : Fin 512 → ℝ) (r : Fin 65536) (h : Fin 512) :
    val_main_v33 (F := Ideal) (arr1 b) (ix2 r h) = ((b h : ℝ) : EReal) := by
  rw [val_main_v33_apply, val_main_v32_apply]
  rfl

/-- The first layer of the edge embedding, before the rectifier. -/
theorem edgePre_apply (x : Fin 256 → Fin 128 → ℝ) (W1 : Fin 768 → Fin 512 → ℝ) (b1 : Fin 512 → ℝ)
    (m n : Fin 256) (h : Fin 512) :
    val_main_v34 (F := Ideal) (arr2 x) (arr2 W1) (arr1 b1) (ix2 (row m n) h) = ((edgePre x W1 b1 m n h : ℝ) : EReal) := by
  rw [val_main_v34_apply, val_main_v31_apply, bias_v33, Ideal.addf_def]
  have hs : ∀ k : Fin 768, val_main_v30 (F := Ideal) (arr2 x) (lidx_main_v31 (ix2 (row m n) h) k)
      * arr2 W1 (ridx_main_v31 (ix2 (row m n) h) k) = ((edgeFeat x m n k * W1 k h : ℝ) : EReal) := fun k => by
    rw [lidx_v31, ridx_v31, edgeFeat_apply, arr2_ix2, EReal.coe_mul]
  rw [Finset.sum_congr rfl (fun k _ => hs k), coe_sum, ← EReal.coe_add]
  rfl

/-- The first layer of the edge embedding, rectified. -/
theorem edgeAct_apply (x : Fin 256 → Fin 128 → ℝ) (W1 : Fin 768 → Fin 512 → ℝ) (b1 : Fin 512 → ℝ)
    (m n : Fin 256) (h : Fin 512) :
    val_main_v35 (F := Ideal) (arr2 x) (arr2 W1) (arr1 b1) (ix2 (row m n) h)
      = ((max (edgePre x W1 b1 m n h) 0 : ℝ) : EReal) := by
  rw [val_main_v35_apply, val_main_call2_v0_apply, val_main_call2_cst_apply, edgePre_apply, Ideal.maximumf_def,
    Ideal.ofBits_def, ofBits_zero, EReal.coe_zero, max_coe_zero]

theorem lidx_v36 (r : Fin 65536) (e : Fin 128) (k : Fin 512) : lidx_main_v36 (ix2 r e) k = ix2 r k :=
  funext fun a => Fin.ext (by match a with | ⟨0, _⟩ => rfl | ⟨1, _⟩ => rfl)

theorem ridx_v36 (r : Fin 65536) (e : Fin 128) (k : Fin 512) : ridx_main_v36 (ix2 r e) k = ix2 k e :=
  funext fun a => Fin.ext (by match a with | ⟨0, _⟩ => rfl | ⟨1, _⟩ => rfl)

theorem bias_v38 (b : Fin 128 → ℝ) (r : Fin 65536) (e : Fin 128) :
    val_main_v38 (F := Ideal) (arr1 b) (ix2 r e) = ((b e : ℝ) : EReal) := by
  rw [val_main_v38_apply, val_main_v37_apply]
  rfl

/-- The edge embedding, in the flattened list of pairs. -/
theorem edgeEmbRow_apply (x : Fin 256 → Fin 128 → ℝ) (W1 : Fin 768 → Fin 512 → ℝ) (b1 : Fin 512 → ℝ)
    (W2 : Fin 512 → Fin 128 → ℝ) (b2 : Fin 128 → ℝ) (m n : Fin 256) (e : Fin 128) :
    val_main_v39 (F := Ideal) (arr2 x) (arr2 W1) (arr1 b1) (arr2 W2) (arr1 b2) (ix2 (row m n) e)
      = ((edgeEmb x W1 b1 W2 b2 m n e : ℝ) : EReal) := by
  rw [val_main_v39_apply, val_main_v36_apply, bias_v38, Ideal.addf_def]
  have hs : ∀ k : Fin 512, val_main_v35 (F := Ideal) (arr2 x) (arr2 W1) (arr1 b1) (lidx_main_v36 (ix2 (row m n) e) k)
      * arr2 W2 (ridx_main_v36 (ix2 (row m n) e) k) = ((max (edgePre x W1 b1 m n k) 0 * W2 k e : ℝ) : EReal) := fun k => by
    rw [lidx_v36, ridx_v36, edgeAct_apply, arr2_ix2, EReal.coe_mul]
  rw [Finset.sum_congr rfl (fun k _ => hs k), coe_sum, ← EReal.coe_add]
  rfl

theorem idx_v40 (m n : Fin 256) (e : Fin 128) : idx_main_v40 (ix3 m n e) = ix2 (row m n) e :=
  funext fun a => Fin.ext (by
    have hm := m.isLt; have hn := n.isLt; have he := e.isLt
    match a with
    | ⟨0, _⟩ => show ((m.val * 256 + n.val) * 128 + e.val) / 128 = m.val * 256 + n.val; omega
    | ⟨1, _⟩ => show ((m.val * 256 + n.val) * 128 + e.val) % 128 = e.val; omega)

/-- The edge embedding of (m, n). -/
theorem edgeEmb_apply (x : Fin 256 → Fin 128 → ℝ) (W1 : Fin 768 → Fin 512 → ℝ) (b1 : Fin 512 → ℝ)
    (W2 : Fin 512 → Fin 128 → ℝ) (b2 : Fin 128 → ℝ) (m n : Fin 256) (e : Fin 128) :
    val_main_v40 (F := Ideal) (arr2 x) (arr2 W1) (arr1 b1) (arr2 W2) (arr1 b2) (ix3 m n e)
      = ((edgeEmb x W1 b1 W2 b2 m n e : ℝ) : EReal) := by
  rw [val_main_v40_apply, idx_v40, edgeEmbRow_apply]

/-! ## The messages -/

/-- The message's input for (m, n): x m, x n, the edge embedding. -/
theorem msgFeat3_apply (x : Fin 256 → Fin 128 → ℝ) (W1 : Fin 768 → Fin 512 → ℝ) (b1 : Fin 512 → ℝ)
    (W2 : Fin 512 → Fin 128 → ℝ) (b2 : Fin 128 → ℝ) (m n : Fin 256) (k : Fin 384) :
    val_main_v68 (F := Ideal) (arr2 x) (arr2 W1) (arr1 b1) (arr2 W2) (arr1 b2) (ix3 m n k) = ((msgFeat x W1 b1 W2 b2 m n k : ℝ) : EReal) := by
  unfold val_main_v68 msgFeat
  have hk := k.isLt
  by_cases h : k.val < 128
  · rw [dif_pos h]
    refine (concatenate_apply_piece _ _ _ (ix3 m n k) 0 (by simp) S256x256x128 _ rfl rfl 0 rfl
      (ix3 m n (⟨k.val, h⟩ : Fin 128))
      (fun b hb => match b, hb with | ⟨0, _⟩, _ => rfl | ⟨1, _⟩, _ => rfl | ⟨2, _⟩, hb => absurd rfl hb) ?_).trans ?_
    · show 0 + k.val = k.val
      omega
    · rw [val_main_v65_apply, val_main_v64_apply]
      rfl
  · rw [dif_neg h]
    by_cases h' : k.val < 256
    · rw [dif_pos h']
      refine (concatenate_apply_piece _ _ _ (ix3 m n k) 1 (by simp) S256x256x128 _ rfl rfl 128 rfl
        (ix3 m n (⟨k.val - 128, by omega⟩ : Fin 128))
        (fun b hb => match b, hb with | ⟨0, _⟩, _ => rfl | ⟨1, _⟩, _ => rfl | ⟨2, _⟩, hb => absurd rfl hb) ?_).trans ?_
      · show 128 + (k.val - 128) = k.val
        omega
      · rw [val_main_v67_apply, val_main_v66_apply]
        rfl
    · rw [dif_neg h']
      refine (concatenate_apply_piece _ _ _ (ix3 m n k) 2 (by simp) S256x256x128 _ rfl rfl 256 rfl
        (ix3 m n (⟨k.val - 256, by omega⟩ : Fin 128))
        (fun b hb => match b, hb with | ⟨0, _⟩, _ => rfl | ⟨1, _⟩, _ => rfl | ⟨2, _⟩, hb => absurd rfl hb) ?_).trans
        (edgeEmb_apply x W1 b1 W2 b2 m n _)
      show 256 + (k.val - 256) = k.val
      omega

theorem idx_v69 (m n : Fin 256) (k : Fin 384) : idx_main_v69 (ix2 (row m n) k) = ix3 m n k :=
  funext fun a => Fin.ext (by
    have hm := m.isLt; have hn := n.isLt; have hk := k.isLt
    match a with
    | ⟨0, _⟩ => show ((m.val * 256 + n.val) * 384 + k.val) / 98304 = m.val; omega
    | ⟨1, _⟩ => show ((m.val * 256 + n.val) * 384 + k.val) / 384 % 256 = n.val; omega
    | ⟨2, _⟩ => show ((m.val * 256 + n.val) * 384 + k.val) % 384 = k.val; omega)

/-- The flattened message inputs. -/
theorem msgFeat_apply (x : Fin 256 → Fin 128 → ℝ) (W1 : Fin 768 → Fin 512 → ℝ) (b1 : Fin 512 → ℝ)
    (W2 : Fin 512 → Fin 128 → ℝ) (b2 : Fin 128 → ℝ) (m n : Fin 256) (k : Fin 384) :
    val_main_v69 (F := Ideal) (arr2 x) (arr2 W1) (arr1 b1) (arr2 W2) (arr1 b2) (ix2 (row m n) k) = ((msgFeat x W1 b1 W2 b2 m n k : ℝ) : EReal) := by
  rw [val_main_v69_apply, idx_v69, msgFeat3_apply]

theorem lidx_v70 (r : Fin 65536) (h : Fin 512) (k : Fin 384) : lidx_main_v70 (ix2 r h) k = ix2 r k :=
  funext fun a => Fin.ext (by match a with | ⟨0, _⟩ => rfl | ⟨1, _⟩ => rfl)

theorem ridx_v70 (r : Fin 65536) (h : Fin 512) (k : Fin 384) : ridx_main_v70 (ix2 r h) k = ix2 k h :=
  funext fun a => Fin.ext (by match a with | ⟨0, _⟩ => rfl | ⟨1, _⟩ => rfl)

theorem bias_v72 (b : Fin 512 → ℝ) (r : Fin 65536) (h : Fin 512) :
    val_main_v72 (F := Ideal) (arr1 b) (ix2 r h) = ((b h : ℝ) : EReal) := by
  rw [val_main_v72_apply, val_main_v71_apply]
  rfl

/-- The first layer of the message perceptron, before the rectifier. -/
theorem msgPre_apply (x : Fin 256 → Fin 128 → ℝ) (W1 : Fin 768 → Fin 512 → ℝ) (b1 : Fin 512 → ℝ)
    (W2 : Fin 512 → Fin 128 → ℝ) (b2 : Fin 128 → ℝ)
    (P1 : Fin 384 → Fin 512 → ℝ) (pb1 : Fin 512 → ℝ) (m n : Fin 256) (h : Fin 512) :
    val_main_v73 (F := Ideal) (arr2 x) (arr2 W1) (arr1 b1) (arr2 W2) (arr1 b2) (arr2 P1) (arr1 pb1) (ix2 (row m n) h)
      = ((msgPre x W1 b1 W2 b2 P1 pb1 m n h : ℝ) : EReal) := by
  rw [val_main_v73_apply, val_main_v70_apply, bias_v72, Ideal.addf_def]
  have hs : ∀ k : Fin 384, val_main_v69 (F := Ideal) (arr2 x) (arr2 W1) (arr1 b1) (arr2 W2) (arr1 b2) (lidx_main_v70 (ix2 (row m n) h) k)
      * arr2 P1 (ridx_main_v70 (ix2 (row m n) h) k) = ((msgFeat x W1 b1 W2 b2 m n k * P1 k h : ℝ) : EReal) := fun k => by
    rw [lidx_v70, ridx_v70, msgFeat_apply, arr2_ix2, EReal.coe_mul]
  rw [Finset.sum_congr rfl (fun k _ => hs k), coe_sum, ← EReal.coe_add]
  rfl

/-- The first layer of the message perceptron, rectified. -/
theorem msgAct_apply (x : Fin 256 → Fin 128 → ℝ) (W1 : Fin 768 → Fin 512 → ℝ) (b1 : Fin 512 → ℝ)
    (W2 : Fin 512 → Fin 128 → ℝ) (b2 : Fin 128 → ℝ)
    (P1 : Fin 384 → Fin 512 → ℝ) (pb1 : Fin 512 → ℝ) (m n : Fin 256) (h : Fin 512) :
    val_main_v74 (F := Ideal) (arr2 x) (arr2 W1) (arr1 b1) (arr2 W2) (arr1 b2) (arr2 P1) (arr1 pb1) (ix2 (row m n) h)
      = ((max (msgPre x W1 b1 W2 b2 P1 pb1 m n h) 0 : ℝ) : EReal) := by
  rw [val_main_v74_apply, val_main_call4_v0_apply, val_main_call4_cst_apply, msgPre_apply, Ideal.maximumf_def,
    Ideal.ofBits_def, ofBits_zero, EReal.coe_zero, max_coe_zero]

theorem lidx_v75 (r : Fin 65536) (e : Fin 128) (k : Fin 512) : lidx_main_v75 (ix2 r e) k = ix2 r k :=
  funext fun a => Fin.ext (by match a with | ⟨0, _⟩ => rfl | ⟨1, _⟩ => rfl)

theorem ridx_v75 (r : Fin 65536) (e : Fin 128) (k : Fin 512) : ridx_main_v75 (ix2 r e) k = ix2 k e :=
  funext fun a => Fin.ext (by match a with | ⟨0, _⟩ => rfl | ⟨1, _⟩ => rfl)

theorem bias_v77 (b : Fin 128 → ℝ) (r : Fin 65536) (e : Fin 128) :
    val_main_v77 (F := Ideal) (arr1 b) (ix2 r e) = ((b e : ℝ) : EReal) := by
  rw [val_main_v77_apply, val_main_v76_apply]
  rfl

/-- The message from n to m, in the flattened list of pairs. -/
theorem msgRow_apply (x : Fin 256 → Fin 128 → ℝ) (W1 : Fin 768 → Fin 512 → ℝ) (b1 : Fin 512 → ℝ)
    (W2 : Fin 512 → Fin 128 → ℝ) (b2 : Fin 128 → ℝ)
    (P1 : Fin 384 → Fin 512 → ℝ) (pb1 : Fin 512 → ℝ) (P2 : Fin 512 → Fin 128 → ℝ) (pb2 : Fin 128 → ℝ)
    (m n : Fin 256) (d : Fin 128) :
    val_main_v78 (F := Ideal) (arr2 x) (arr2 W1) (arr1 b1) (arr2 W2) (arr1 b2) (arr2 P1) (arr1 pb1) (arr2 P2) (arr1 pb2) (ix2 (row m n) d)
      = ((msg x W1 b1 W2 b2 P1 pb1 P2 pb2 m n d : ℝ) : EReal) := by
  rw [val_main_v78_apply, val_main_v75_apply, bias_v77, Ideal.addf_def]
  have hs : ∀ k : Fin 512, val_main_v74 (F := Ideal) (arr2 x) (arr2 W1) (arr1 b1) (arr2 W2) (arr1 b2) (arr2 P1) (arr1 pb1) (lidx_main_v75 (ix2 (row m n) d) k)
      * arr2 P2 (ridx_main_v75 (ix2 (row m n) d) k)
        = ((max (msgPre x W1 b1 W2 b2 P1 pb1 m n k) 0 * P2 k d : ℝ) : EReal) := fun k => by
    rw [lidx_v75, ridx_v75, msgAct_apply, arr2_ix2, EReal.coe_mul]
  rw [Finset.sum_congr rfl (fun k _ => hs k), coe_sum, ← EReal.coe_add]
  rfl

theorem idx_v79 (m n : Fin 256) (d : Fin 128) : idx_main_v79 (ix3 m n d) = ix2 (row m n) d :=
  funext fun a => Fin.ext (by
    have hm := m.isLt; have hn := n.isLt; have hd := d.isLt
    match a with
    | ⟨0, _⟩ => show ((m.val * 256 + n.val) * 128 + d.val) / 128 = m.val * 256 + n.val; omega
    | ⟨1, _⟩ => show ((m.val * 256 + n.val) * 128 + d.val) % 128 = d.val; omega)

theorem idx_v80 (m : Fin 256) (d : Fin 128) (n : Fin 256) : idx_main_v80 (ix2 m d) n = ix3 m n d :=
  funext fun a => Fin.ext (by match a with | ⟨0, _⟩ => rfl | ⟨1, _⟩ => rfl | ⟨2, _⟩ => rfl)

/-- The sum of node m's messages. -/
theorem msgSum_apply (x : Fin 256 → Fin 128 → ℝ) (W1 : Fin 768 → Fin 512 → ℝ) (b1 : Fin 512 → ℝ)
    (W2 : Fin 512 → Fin 128 → ℝ) (b2 : Fin 128 → ℝ)
    (P1 : Fin 384 → Fin 512 → ℝ) (pb1 : Fin 512 → ℝ) (P2 : Fin 512 → Fin 128 → ℝ) (pb2 : Fin 128 → ℝ)
    (m : Fin 256) (d : Fin 128) :
    val_main_v80 (F := Ideal) (arr2 x) (arr2 W1) (arr1 b1) (arr2 W2) (arr1 b2) (arr2 P1) (arr1 pb1) (arr2 P2) (arr1 pb2) (ix2 m d)
      = ((∑ n : Fin 256, msg x W1 b1 W2 b2 P1 pb1 P2 pb2 m n d : ℝ) : EReal) := by
  rw [val_main_v80_apply, val_main_cst_apply, Ideal.ofBits_def, ofBits_zero]
  have hs : ∀ n : Fin 256, val_main_v79 (F := Ideal) (arr2 x) (arr2 W1) (arr1 b1) (arr2 W2) (arr1 b2) (arr2 P1) (arr1 pb1) (arr2 P2) (arr1 pb2)
      (idx_main_v80 (ix2 m d) n) = ((msg x W1 b1 W2 b2 P1 pb1 P2 pb2 m n d : ℝ) : EReal) := fun n => by
    rw [idx_v80, val_main_v79_apply, idx_v79, msgRow_apply]
  rw [Finset.sum_congr rfl (fun n _ => hs n), coe_sum, ← EReal.coe_add, zero_add]

/-- **The reference's edge message stage on the first graph is the mean of the messages.** -/
theorem ref_intra1 (x : Fin 256 → Fin 128 → ℝ) (W1 : Fin 768 → Fin 512 → ℝ) (b1 : Fin 512 → ℝ)
    (W2 : Fin 512 → Fin 128 → ℝ) (b2 : Fin 128 → ℝ)
    (P1 : Fin 384 → Fin 512 → ℝ) (pb1 : Fin 512 → ℝ) (P2 : Fin 512 → Fin 128 → ℝ) (pb2 : Fin 128 → ℝ) :
    val_main_v82 (F := Ideal) (arr2 x) (arr2 W1) (arr1 b1) (arr2 W2) (arr1 b2) (arr2 P1) (arr1 pb1) (arr2 P2) (arr1 pb2)
      = arr2 (intraRef x W1 b1 W2 b2 P1 pb1 P2 pb2) := by
  refine ext2 fun m d => ?_
  rw [val_main_v82_apply, val_main_v81_apply, val_main_cst_1_apply, msgSum_apply, Ideal.hostDivf_def, Ideal.ofBits_def,
    ofBits_256, div_coe _ _ (by norm_num), arr2_ix2]
  rfl

/-- On the second graph the reference runs the same operations. -/
theorem v101_eq_v82 {F : FTy → Type} [FloatOps F] (x1 : (⟨S256x128, .f32⟩ : BufTy).Contents (Elt F))
    (x6 : (⟨S768x512, .f32⟩ : BufTy).Contents (Elt F)) (x7 : (⟨S512, .f32⟩ : BufTy).Contents (Elt F))
    (x8 : (⟨S512x128, .f32⟩ : BufTy).Contents (Elt F)) (x9 : (⟨S128, .f32⟩ : BufTy).Contents (Elt F))
    (x10 : (⟨S384x512, .f32⟩ : BufTy).Contents (Elt F)) (x11 : (⟨S512, .f32⟩ : BufTy).Contents (Elt F))
    (x12 : (⟨S512x128, .f32⟩ : BufTy).Contents (Elt F)) (x13 : (⟨S128, .f32⟩ : BufTy).Contents (Elt F)) :
    val_main_v101 (F := F) x1 x6 x7 x8 x9 x10 x11 x12 x13 = val_main_v82 (F := F) x1 x6 x7 x8 x9 x10 x11 x12 x13 := rfl

/-- **The reference's edge message stage on the second graph.** -/
theorem ref_intra2 (x : Fin 256 → Fin 128 → ℝ) (W1 : Fin 768 → Fin 512 → ℝ) (b1 : Fin 512 → ℝ)
    (W2 : Fin 512 → Fin 128 → ℝ) (b2 : Fin 128 → ℝ)
    (P1 : Fin 384 → Fin 512 → ℝ) (pb1 : Fin 512 → ℝ) (P2 : Fin 512 → Fin 128 → ℝ) (pb2 : Fin 128 → ℝ) :
    val_main_v101 (F := Ideal) (arr2 x) (arr2 W1) (arr1 b1) (arr2 W2) (arr1 b2) (arr2 P1) (arr1 pb1) (arr2 P2) (arr1 pb2)
      = arr2 (intraRef x W1 b1 W2 b2 P1 pb1 P2 pb2) :=
  (v101_eq_v82 _ _ _ _ _ _ _ _ _).trans (ref_intra1 x W1 b1 W2 b2 P1 pb1 P2 pb2)

end Cert.RefIntra

end
-- ==== Proof.KHostPre.lean ====
/-
  The wrapper's operations before the first fused call, read over the reals.

  From the two graphs' node features and the perceptrons' weights the wrapper builds the eleven arrays the first
  fused call is handed (the first of them twice, whole and by tiles of nodes): the two graphs stacked along a new
  leading axis; the four row blocks of the first edge layer
  (rows 0..127, rows 128..383 with the first bias added to every row, rows 384..511, rows 512..767); the product
  of the edge embedding's second layer with rows 256..383 of the message's first layer; rows 0..127 and 128..255
  of that layer; its bias plus the edge embedding's second bias times rows 256..383; the message's second layer
  and its bias as a one-row matrix.  Each operand is a real array, the one the shared definitions name.
  No operation of the stretch writes an argument of the program.
-/
import proofs.«418941_j65867618451820_3_alg».proof.Proof.Gen.KernelIdeal.Launch
import proofs.«418941_j65867618451820_3_alg».proof.Proof.Spec
import proofs.«418941_j65867618451820_3_alg».proof.Proof.Arr
import proofs.«418941_j65867618451820_3_alg».proof.Proof.LibERealCoe
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 2704

noncomputable section

namespace Cert.KernelIdeal.KHostPre

open Cert.KernelIdeal Cert.KernelIdeal.Gen GraphMatch
open Idealize.ShloMosaic Idealize.ShloMosaic.TcCoe Idealize.SL.Sem Idealize.ShloMosaic.StableHlo ValueIdx

/-! ## Operations read at coordinates -/

/-- A matrix product with one contracted axis (the left operand's columns against the right operand's rows), read
    at a row and a column, is the sum over the contracted coordinate of the products of the entries. The four
    hypotheses say which coordinate of the result or of the contraction each operand axis reads. -/
theorem dot2_apply {a b c : Nat} (D : DotDims ⟨2, ![a, b]⟩ ⟨2, ![b, c]⟩ ⟨2, ![a, c]⟩)
    (hr : D.contr.rank = 1) (hs : D.contr.size ⟨0, by omega⟩ = b)
    (hl0 : ∀ (j : (⟨2, ![a, c]⟩ : Shape).Idx) (q : D.contr.Idx), (D.lhsIdx j q 0).val = (j 0).val)
    (hl1 : ∀ (j : (⟨2, ![a, c]⟩ : Shape).Idx) (q : D.contr.Idx), (D.lhsIdx j q 1).val = (q ⟨0, by omega⟩).val)
    (hr0 : ∀ (j : (⟨2, ![a, c]⟩ : Shape).Idx) (q : D.contr.Idx), (D.rhsIdx j q 0).val = (q ⟨0, by omega⟩).val)
    (hr1 : ∀ (j : (⟨2, ![a, c]⟩ : Shape).Idx) (q : D.contr.Idx), (D.rhsIdx j q 1).val = (j 1).val)
    (X : FVec Ideal ⟨2, ![a, b]⟩ .f32) (Y : FVec Ideal ⟨2, ![b, c]⟩ .f32) (i : Fin a) (j : Fin c) :
    Host.dotGeneral (F := Ideal) D none X Y (ix2 i j) = ∑ e : Fin b, X (ix2 i e) * Y (ix2 e j) := by
  simp only [Host.dotGeneral]
  rw [Ideal.dotGeneral_apply, ← Equiv.sum_comp (contrEquiv1 D b hr hs).symm]
  refine Finset.sum_congr rfl fun e _ => ?_
  have he := contrEquiv1_symm_val D b hr hs e
  have el : D.lhsIdx (ix2 i j) ((contrEquiv1 D b hr hs).symm e) = ix2 i e := funext fun ax => Fin.ext (by
    match ax with
    | ⟨0, _⟩ => exact hl0 _ _
    | ⟨1, _⟩ => exact (hl1 _ _).trans he)
  have er : D.rhsIdx (ix2 i j) ((contrEquiv1 D b hr hs).symm e) = ix2 e j := funext fun ax => Fin.ext (by
    match ax with
    | ⟨0, _⟩ => exact (hr0 _ _).trans he
    | ⟨1, _⟩ => exact hr1 _ _)
  rw [el, er]

/-- The product of a 512 × 128 matrix with a 128 × 512 matrix at a row and a column. -/
theorem dotHH_apply (X : FVec Ideal S512x128 .f32) (Y : FVec Ideal S128x512 .f32) (i : Fin 512) (j : Fin 512) :
    Host.dotGeneral (F := Ideal) dot_S512x128_S128x512_S512x512_1_0_0_1_n_n none X Y (ix2 i j)
      = ∑ e : Fin 128, X (ix2 i e) * Y (ix2 e j) :=
  dot2_apply dot_S512x128_S128x512_S512x512_1_0_0_1_n_n rfl rfl
    (fun j q => by
      unfold DotDims.lhsIdx
      rw [dif_neg (show ¬(0 : Fin S512x128.rank) ∈ dot_S512x128_S128x512_S512x512_1_0_0_1_n_n.lhsBatch by decide),
        dif_pos (show (0 : Fin S512x128.rank) ∈ dot_S512x128_S128x512_S512x512_1_0_0_1_n_n.lhsNonContracting by decide)]
      rfl)
    (fun j q => dot_S512x128_S128x512_S512x512_1_0_0_1_n_n.lhsIdx_val_of_single rfl j q)
    (fun j q => dot_S512x128_S128x512_S512x512_1_0_0_1_n_n.rhsIdx_val_of_single rfl j q)
    (fun j q => by
      unfold DotDims.rhsIdx
      rw [dif_neg (show ¬(1 : Fin S128x512.rank) ∈ dot_S512x128_S128x512_S512x512_1_0_0_1_n_n.rhsBatch by decide),
        dif_pos (show (1 : Fin S128x512.rank) ∈ dot_S512x128_S128x512_S512x512_1_0_0_1_n_n.rhsNonContracting by decide)]
      rfl)
    X Y i j

/-- The product of a one-row matrix of 128 entries with a 128 × 512 matrix at its row and a column. -/
theorem dot1H_apply (X : FVec Ideal S1x128 .f32) (Y : FVec Ideal S128x512 .f32) (i : Fin 1) (j : Fin 512) :
    Host.dotGeneral (F := Ideal) dot_S1x128_S128x512_S1x512_1_0_0_1_n_n none X Y (ix2 i j)
      = ∑ e : Fin 128, X (ix2 i e) * Y (ix2 e j) :=
  dot2_apply dot_S1x128_S128x512_S1x512_1_0_0_1_n_n rfl rfl
    (fun j q => by
      unfold DotDims.lhsIdx
      rw [dif_neg (show ¬(0 : Fin S1x128.rank) ∈ dot_S1x128_S128x512_S1x512_1_0_0_1_n_n.lhsBatch by decide),
        dif_pos (show (0 : Fin S1x128.rank) ∈ dot_S1x128_S128x512_S1x512_1_0_0_1_n_n.lhsNonContracting by decide)]
      rfl)
    (fun j q => dot_S1x128_S128x512_S1x512_1_0_0_1_n_n.lhsIdx_val_of_single rfl j q)
    (fun j q => dot_S1x128_S128x512_S1x512_1_0_0_1_n_n.rhsIdx_val_of_single rfl j q)
    (fun j q => by
      unfold DotDims.rhsIdx
      rw [dif_neg (show ¬(1 : Fin S128x512.rank) ∈ dot_S1x128_S128x512_S1x512_1_0_0_1_n_n.rhsBatch by decide),
        dif_pos (show (1 : Fin S128x512.rank) ∈ dot_S1x128_S128x512_S1x512_1_0_0_1_n_n.rhsNonContracting by decide)]
      rfl)
    X Y i j

/-- A one-row matrix repeated down 256 rows reads, at any row, the one row. -/
theorem bcastRow_apply {α : Type} (x : S1x512.Idx → α) (m : Fin 256) (h : Fin 512) :
    broadcastInDim S256x512 ![0, 1] bcast_S1x512_S256x512_0_1 x (ix2 m h) = x (ix2 (0 : Fin 1) h) :=
  broadcastInDim_apply _ bcast_S1x512_S256x512_0_1 x _ _ (fun ax => match ax with
    | ⟨0, _⟩ => by show 0 = if (1 : Nat) = 1 then 0 else m.val; rw [if_pos rfl]
    | ⟨1, _⟩ => by show h.val = if (512 : Nat) = 1 then 0 else h.val; rw [if_neg (by decide)])

/-- A matrix given a leading axis of extent one reads, at (0, m, k), its entry (m, k). -/
theorem bcastLead_apply {α : Type} (x : S256x128.Idx → α) (u : Fin 1) (m : Fin 256) (k : Fin 128) :
    broadcastInDim S1x256x128 ![1, 2] bcast_S256x128_S1x256x128_1_2 x (ix3 u m k) = x (ix2 m k) :=
  broadcastInDim_apply _ bcast_S256x128_S1x256x128_1_2 x _ _ (fun ax => match ax with
    | ⟨0, _⟩ => by show m.val = if (256 : Nat) = 1 then 0 else m.val; rw [if_neg (by decide)]
    | ⟨1, _⟩ => by show k.val = if (128 : Nat) = 1 then 0 else k.val; rw [if_neg (by decide)])

/-- Two arrays with a leading axis of extent one, joined along it: the first at leading coordinate 0. -/
theorem stack_apply_zero {α : Type} (x y : S1x256x128.Idx → α) (g : Fin 2) (hg : g.val = 0) (m : Fin 256) (k : Fin 128) :
    concatenate S2x256x128 0 [⟨S1x256x128, x⟩, ⟨S1x256x128, y⟩] concatenates_S1x256x128_S1x256x128_S2x256x128_d0 (ix3 g m k)
      = x (ix3 (0 : Fin 1) m k) :=
  concatenate_pair_apply_left (0 : Fin S2x256x128.rank) x y concatenates_S1x256x128_S1x256x128_S2x256x128_d0 (ix3 g m k) rfl
    (ix3 (0 : Fin 1) m k) (fun b => match b with
      | ⟨0, _⟩ => by show 0 = g.val; exact hg.symm
      | ⟨1, _⟩ => rfl
      | ⟨2, _⟩ => rfl)

/-- Two arrays with a leading axis of extent one, joined along it: the second at leading coordinate 1. -/
theorem stack_apply_one {α : Type} (x y : S1x256x128.Idx → α) (g : Fin 2) (hg : g.val = 1) (m : Fin 256) (k : Fin 128) :
    concatenate S2x256x128 0 [⟨S1x256x128, x⟩, ⟨S1x256x128, y⟩] concatenates_S1x256x128_S1x256x128_S2x256x128_d0 (ix3 g m k)
      = y (ix3 (0 : Fin 1) m k) :=
  concatenate_pair_apply_right (0 : Fin S2x256x128.rank) x y concatenates_S1x256x128_S1x256x128_S2x256x128_d0 (ix3 g m k) rfl rfl
    (ix3 (0 : Fin 1) m k) (fun b hb => match b, hb with
      | ⟨0, _⟩, hb => absurd rfl hb
      | ⟨1, _⟩, _ => rfl
      | ⟨2, _⟩, _ => rfl)
    (by show 0 + 1 = g.val; omega)

/-! ## The arrays handed to the first fused call -/

section Operands

variable (W : Valuation τ sig (Elt Ideal))

/-- The two graphs' node features stacked along a new leading axis. -/
theorem v2_eq (x1 x2 : Fin 256 → Fin 128 → ℝ)
    (h0 : (W (Proc.devRef .tc main_arg0) : S256x128.Idx → EReal) = arr2 x1)
    (h1 : (W (Proc.devRef .tc main_arg1) : S256x128.Idx → EReal) = arr2 x2) :
    (StableHlo.after (hostOps0 (F := Ideal)) W (Proc.devRef .tc main_v2) : S2x256x128.Idx → EReal)
      = arr3 fun (g : Fin 2) m k => if g.val = 0 then x1 m k else x2 m k := by
  show StableHlo.after hostOps0 W (Proc.devRef .tc main_v2) = _
  after_results
  rw [h0, h1]
  refine ext3 fun g m k => ?_
  rw [arr3_ix3]
  by_cases hg : g.val = 0
  · rw [if_pos hg, stack_apply_zero _ _ g hg, bcastLead_apply, arr2_ix2]
  · rw [if_neg hg, stack_apply_one _ _ g (by omega), bcastLead_apply, arr2_ix2]

/-- Rows 0..127 of the first edge layer. -/
theorem v19_eq (W1 : Fin 768 → Fin 512 → ℝ)
    (h6 : (W (Proc.devRef .tc main_arg6) : S768x512.Idx → EReal) = arr2 W1) :
    (StableHlo.after (hostOps0 (F := Ideal)) W (Proc.devRef .tc main_v19) : S128x512.Idx → EReal) = arr2 (wXi W1) := by
  show StableHlo.after hostOps0 W (Proc.devRef .tc main_v19) = _
  after_results
  rw [h6]
  refine ext2 fun k h => ?_
  show extractStridedSlice S128x512 ![0, 0] (arr2 W1) slices_S768x512_S128x512_0_0 (ix2 k h) = _
  rw [slice2_axis0_apply 0 (arr2 W1) _ k h ⟨k.val, by have := k.isLt; omega⟩ (Nat.zero_add _).symm]
  rfl

/-- Rows 128..383 of the first edge layer with the first bias added to every row. -/
theorem v15_eq (W1 : Fin 768 → Fin 512 → ℝ) (b1 : Fin 512 → ℝ)
    (h6 : (W (Proc.devRef .tc main_arg6) : S768x512.Idx → EReal) = arr2 W1)
    (h7 : (W (Proc.devRef .tc main_arg7) : S512.Idx → EReal) = arr1 b1) :
    (StableHlo.after (hostOps0 (F := Ideal)) W (Proc.devRef .tc main_v15) : S256x512.Idx → EReal) = arr2 (wOib W1 b1) := by
  show StableHlo.after hostOps0 W (Proc.devRef .tc main_v15) = _
  after_results
  rw [h6, h7]
  refine ext2 fun m h => ?_
  refine (addf_apply _ _ _).trans ?_
  rw [slice2_axis0_apply 128 (arr2 W1) _ m h ⟨128 + m.val, by have := m.isLt; omega⟩ rfl, bcastRow_apply]
  show arr2 W1 (ix2 _ h) + shapeCast S1x512 (arr1 b1) shapeCasts_S512_S1x512 (ix2 (0 : Fin 1) h) = _
  rw [shapeCast_a_1a_apply, arr2_ix2, arr1_ix1, arr2_ix2, ← EReal.coe_add]
  rfl

/-- Rows 384..511 of the first edge layer. -/
theorem v20_eq (W1 : Fin 768 → Fin 512 → ℝ)
    (h6 : (W (Proc.devRef .tc main_arg6) : S768x512.Idx → EReal) = arr2 W1) :
    (StableHlo.after (hostOps0 (F := Ideal)) W (Proc.devRef .tc main_v20) : S128x512.Idx → EReal) = arr2 (wXj W1) := by
  show StableHlo.after hostOps0 W (Proc.devRef .tc main_v20) = _
  after_results
  rw [h6]
  refine ext2 fun k h => ?_
  show extractStridedSlice S128x512 ![384, 0] (arr2 W1) slices_S768x512_S128x512_384_0 (ix2 k h) = _
  rw [slice2_axis0_apply 384 (arr2 W1) _ k h ⟨384 + k.val, by have := k.isLt; omega⟩ rfl]
  rfl

/-- Rows 512..767 of the first edge layer. -/
theorem v6_eq (W1 : Fin 768 → Fin 512 → ℝ)
    (h6 : (W (Proc.devRef .tc main_arg6) : S768x512.Idx → EReal) = arr2 W1) :
    (StableHlo.after (hostOps0 (F := Ideal)) W (Proc.devRef .tc main_v6) : S256x512.Idx → EReal) = arr2 (wOj W1) := by
  show StableHlo.after hostOps0 W (Proc.devRef .tc main_v6) = _
  after_results
  rw [h6]
  refine ext2 fun n h => ?_
  rw [slice2_axis0_apply 512 (arr2 W1) _ n h ⟨512 + n.val, by have := n.isLt; omega⟩ rfl]
  rfl

/-- Rows 0..127 of the message's first layer. -/
theorem v21_eq (P1 : Fin 384 → Fin 512 → ℝ)
    (h10 : (W (Proc.devRef .tc main_arg10) : S384x512.Idx → EReal) = arr2 P1) :
    (StableHlo.after (hostOps0 (F := Ideal)) W (Proc.devRef .tc main_v21) : S128x512.Idx → EReal) = arr2 (pM P1) := by
  show StableHlo.after hostOps0 W (Proc.devRef .tc main_v21) = _
  after_results
  rw [h10]
  refine ext2 fun k h => ?_
  show extractStridedSlice S128x512 ![0, 0] (arr2 P1) slices_S384x512_S128x512_0_0 (ix2 k h) = _
  rw [slice2_axis0_apply 0 (arr2 P1) _ k h ⟨k.val, by have := k.isLt; omega⟩ (Nat.zero_add _).symm]
  rfl

/-- Rows 128..255 of the message's first layer. -/
theorem v22_eq (P1 : Fin 384 → Fin 512 → ℝ)
    (h10 : (W (Proc.devRef .tc main_arg10) : S384x512.Idx → EReal) = arr2 P1) :
    (StableHlo.after (hostOps0 (F := Ideal)) W (Proc.devRef .tc main_v22) : S128x512.Idx → EReal) = arr2 (pN P1) := by
  show StableHlo.after hostOps0 W (Proc.devRef .tc main_v22) = _
  after_results
  rw [h10]
  refine ext2 fun k h => ?_
  show extractStridedSlice S128x512 ![128, 0] (arr2 P1) slices_S384x512_S128x512_128_0 (ix2 k h) = _
  rw [slice2_axis0_apply 128 (arr2 P1) _ k h ⟨128 + k.val, by have := k.isLt; omega⟩ rfl]
  rfl

/-- The message's second layer. -/
theorem v23_eq (P2 : Fin 512 → Fin 128 → ℝ)
    (h12 : (W (Proc.devRef .tc main_arg12) : S512x128.Idx → EReal) = arr2 P2) :
    (StableHlo.after (hostOps0 (F := Ideal)) W (Proc.devRef .tc main_v23) : S512x128.Idx → EReal) = arr2 P2 := by
  show StableHlo.after hostOps0 W (Proc.devRef .tc main_v23) = _
  after_results
  rw [h12]
  rfl

/-- The message's second bias as a one-row matrix. -/
theorem v13_eq (pb2 : Fin 128 → ℝ)
    (h13 : (W (Proc.devRef .tc main_arg13) : S128.Idx → EReal) = arr1 pb2) :
    (StableHlo.after (hostOps0 (F := Ideal)) W (Proc.devRef .tc main_v13) : S1x128.Idx → EReal)
      = arr2 fun (_ : Fin 1) d => pb2 d := by
  show StableHlo.after hostOps0 W (Proc.devRef .tc main_v13) = _
  after_results
  rw [h13]
  refine ext2 fun u d => ?_
  show shapeCast S1x128 (arr1 pb2) shapeCasts_S128_S1x128 (ix2 u d) = _
  rw [shapeCast_a_1a_apply, arr1_ix1, arr2_ix2]

/-- One term of the folded products: an entry of a left factor times an entry of rows 256..383 of the message's
    first layer. -/
theorem pE_term (P1 : Fin 384 → Fin 512 → ℝ) (t : ℝ) (e : Fin 128) (h : Fin 512) :
    (t : EReal) * extractStridedSlice S128x512 ![256, 0] (arr2 P1) slices_S384x512_S128x512_256_0 (ix2 e h)
      = ((t * pE P1 e h : ℝ) : EReal) := by
  rw [slice2_axis0_apply 256 (arr2 P1) _ e h ⟨256 + e.val, by have := e.isLt; omega⟩ rfl, arr2_ix2, ← EReal.coe_mul]
  rfl

/-- The edge embedding's second layer times rows 256..383 of the message's first layer. -/
theorem v24_eq (W2 : Fin 512 → Fin 128 → ℝ) (P1 : Fin 384 → Fin 512 → ℝ)
    (h8 : (W (Proc.devRef .tc main_arg8) : S512x128.Idx → EReal) = arr2 W2)
    (h10 : (W (Proc.devRef .tc main_arg10) : S384x512.Idx → EReal) = arr2 P1) :
    (StableHlo.after (hostOps0 (F := Ideal)) W (Proc.devRef .tc main_v24) : S512x512.Idx → EReal) = arr2 (wE W2 P1) := by
  show StableHlo.after hostOps0 W (Proc.devRef .tc main_v24) = _
  after_results
  rw [h8, h10]
  refine ext2 fun a h => ?_
  show Host.dotGeneral (F := Ideal) (φ₁ := .f32) (φ₂ := .f32) dot_S512x128_S128x512_S512x512_1_0_0_1_n_n none (arr2 W2)
      (extractStridedSlice S128x512 ![256, 0] (arr2 P1) slices_S384x512_S128x512_256_0) (ix2 a h) = _
  have hterm : ∀ e : Fin 128, arr2 W2 (ix2 a e)
      * extractStridedSlice S128x512 ![256, 0] (arr2 P1) slices_S384x512_S128x512_256_0 (ix2 e h)
        = ((W2 a e * pE P1 e h : ℝ) : EReal) :=
    fun e => by rw [arr2_ix2]; exact pE_term P1 (W2 a e) e h
  rw [dotHH_apply, Finset.sum_congr rfl fun e _ => hterm e, ERealCoe.coe_sum]
  rfl

/-- The message's first bias plus the edge embedding's second bias times rows 256..383 of the message's first layer. -/
theorem v18_eq (b2 : Fin 128 → ℝ) (P1 : Fin 384 → Fin 512 → ℝ) (pb1 : Fin 512 → ℝ)
    (h9 : (W (Proc.devRef .tc main_arg9) : S128.Idx → EReal) = arr1 b2)
    (h10 : (W (Proc.devRef .tc main_arg10) : S384x512.Idx → EReal) = arr2 P1)
    (h11 : (W (Proc.devRef .tc main_arg11) : S512.Idx → EReal) = arr1 pb1) :
    (StableHlo.after (hostOps0 (F := Ideal)) W (Proc.devRef .tc main_v18) : S1x512.Idx → EReal)
      = arr2 fun (_ : Fin 1) h => pb1e b2 P1 pb1 h := by
  show StableHlo.after hostOps0 W (Proc.devRef .tc main_v18) = _
  after_results
  rw [h9, h10, h11]
  refine ext2 fun u h => ?_
  show shapeCast S1x512 (arr1 pb1) shapeCasts_S512_S1x512 (ix2 u h)
      + Host.dotGeneral (F := Ideal) (φ₁ := .f32) (φ₂ := .f32) dot_S1x128_S128x512_S1x512_1_0_0_1_n_n none
          (shapeCast S1x128 (arr1 b2) shapeCasts_S128_S1x128)
          (extractStridedSlice S128x512 ![256, 0] (arr2 P1) slices_S384x512_S128x512_256_0) (ix2 u h) = _
  have hterm : ∀ e : Fin 128, shapeCast S1x128 (arr1 b2) shapeCasts_S128_S1x128 (ix2 u e)
      * extractStridedSlice S128x512 ![256, 0] (arr2 P1) slices_S384x512_S128x512_256_0 (ix2 e h)
        = ((b2 e * pE P1 e h : ℝ) : EReal) :=
    fun e => by rw [shapeCast_a_1a_apply, arr1_ix1]; exact pE_term P1 (b2 e) e h
  rw [dot1H_apply, shapeCast_a_1a_apply, arr1_ix1, Finset.sum_congr rfl fun e _ => hterm e, ERealCoe.coe_sum,
    ← EReal.coe_add, arr2_ix2]
  rfl

end Operands

/-! ## The program's arguments are not written -/

section Arguments

variable (W : Valuation τ sig (Elt Ideal))

/-- A buffer that is none of the twenty-five results of the stretch keeps its contents. -/
theorem kept_of_not_result (r : Ref sig .tc)
    (hr : r ∉ [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24]) :
    StableHlo.after (hostOps0 (F := Ideal)) W (Proc.devRef .tc r) = W (Proc.devRef .tc r) :=
  StableHlo.after_of_forall_not_mem (b := Proc.devRef .tc r) _ _ (List.forall_iff_forall_mem.mp (by
    simp only [hostOps0, List.Forall, StableHlo.unary_writes, StableHlo.binary_writes, StableHlo.reshape_writes,
      Finset.mem_singleton]
    repeat' apply And.intro
    all_goals exact StableHlo.devRef_ne_of_ne (fun e => hr (by rw [e]; decide))))

theorem arg0_kept : StableHlo.after (hostOps0 (F := Ideal)) W (Proc.devRef .tc main_arg0) = W (Proc.devRef .tc main_arg0) :=
  kept_of_not_result W main_arg0 (by decide)
theorem arg1_kept : StableHlo.after (hostOps0 (F := Ideal)) W (Proc.devRef .tc main_arg1) = W (Proc.devRef .tc main_arg1) :=
  kept_of_not_result W main_arg1 (by decide)
theorem arg2_kept : StableHlo.after (hostOps0 (F := Ideal)) W (Proc.devRef .tc main_arg2) = W (Proc.devRef .tc main_arg2) :=
  kept_of_not_result W main_arg2 (by decide)
theorem arg3_kept : StableHlo.after (hostOps0 (F := Ideal)) W (Proc.devRef .tc main_arg3) = W (Proc.devRef .tc main_arg3) :=
  kept_of_not_result W main_arg3 (by decide)
theorem arg4_kept : StableHlo.after (hostOps0 (F := Ideal)) W (Proc.devRef .tc main_arg4) = W (Proc.devRef .tc main_arg4) :=
  kept_of_not_result W main_arg4 (by decide)
theorem arg5_kept : StableHlo.after (hostOps0 (F := Ideal)) W (Proc.devRef .tc main_arg5) = W (Proc.devRef .tc main_arg5) :=
  kept_of_not_result W main_arg5 (by decide)
theorem arg6_kept : StableHlo.after (hostOps0 (F := Ideal)) W (Proc.devRef .tc main_arg6) = W (Proc.devRef .tc main_arg6) :=
  kept_of_not_result W main_arg6 (by decide)
theorem arg7_kept : StableHlo.after (hostOps0 (F := Ideal)) W (Proc.devRef .tc main_arg7) = W (Proc.devRef .tc main_arg7) :=
  kept_of_not_result W main_arg7 (by decide)
theorem arg8_kept : StableHlo.after (hostOps0 (F := Ideal)) W (Proc.devRef .tc main_arg8) = W (Proc.devRef .tc main_arg8) :=
  kept_of_not_result W main_arg8 (by decide)
theorem arg9_kept : StableHlo.after (hostOps0 (F := Ideal)) W (Proc.devRef .tc main_arg9) = W (Proc.devRef .tc main_arg9) :=
  kept_of_not_result W main_arg9 (by decide)
theorem arg10_kept : StableHlo.after (hostOps0 (F := Ideal)) W (Proc.devRef .tc main_arg10) = W (Proc.devRef .tc main_arg10) :=
  kept_of_not_result W main_arg10 (by decide)
theorem arg11_kept : StableHlo.after (hostOps0 (F := Ideal)) W (Proc.devRef .tc main_arg11) = W (Proc.devRef .tc main_arg11) :=
  kept_of_not_result W main_arg11 (by decide)
theorem arg12_kept : StableHlo.after (hostOps0 (F := Ideal)) W (Proc.devRef .tc main_arg12) = W (Proc.devRef .tc main_arg12) :=
  kept_of_not_result W main_arg12 (by decide)
theorem arg13_kept : StableHlo.after (hostOps0 (F := Ideal)) W (Proc.devRef .tc main_arg13) = W (Proc.devRef .tc main_arg13) :=
  kept_of_not_result W main_arg13 (by decide)
theorem arg14_kept : StableHlo.after (hostOps0 (F := Ideal)) W (Proc.devRef .tc main_arg14) = W (Proc.devRef .tc main_arg14) :=
  kept_of_not_result W main_arg14 (by decide)
theorem arg15_kept : StableHlo.after (hostOps0 (F := Ideal)) W (Proc.devRef .tc main_arg15) = W (Proc.devRef .tc main_arg15) :=
  kept_of_not_result W main_arg15 (by decide)
theorem arg16_kept : StableHlo.after (hostOps0 (F := Ideal)) W (Proc.devRef .tc main_arg16) = W (Proc.devRef .tc main_arg16) :=
  kept_of_not_result W main_arg16 (by decide)
theorem arg17_kept : StableHlo.after (hostOps0 (F := Ideal)) W (Proc.devRef .tc main_arg17) = W (Proc.devRef .tc main_arg17) :=
  kept_of_not_result W main_arg17 (by decide)

end Arguments

end Cert.KernelIdeal.KHostPre

end
-- ==== Proof.KHostMid.lean ====
/-
  The operations of the wrapper between its two fused stages, read as functions of the buffers they start from.

  The stretch takes the first stage's stacked result (two matrices of 256 × 128) apart into its two rows, computes the
  two node embeddings (a two-layer perceptron of each graph's node features: the same operations as the reference's),
  sums each embedding over its 256 rows, stacks the embeddings in both orders and the column sums in the swapped order,
  and multiplies the first stack by the column sums repeated along the rows. With a, b the two embeddings as real
  matrices, the three operands of the second stage are therefore
    (g, i, d) ↦ if g = 0 then a i d else b i d,
    (g, i, d) ↦ if g = 0 then b i d else a i d,
    (g, i, d) ↦ if g = 0 then a i d · Σ_j b j d else b i d · Σ_j a j d.
  Everything is stated for arbitrary contents W of the buffers before the stretch; the buffers the stretch does not
  write keep their contents.
-/
import proofs.«418941_j65867618451820_3_alg».proof.Proof.Gen.KernelIdeal.Launch
import proofs.«418941_j65867618451820_3_alg».proof.Proof.Spec
import proofs.«418941_j65867618451820_3_alg».proof.Proof.Arr
import proofs.«418941_j65867618451820_3_alg».proof.Proof.LibERealCoe
import proofs.«418941_j65867618451820_3_alg».proof.Proof.RefRead
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueLayout
import Idealize.ShloMosaic.PureOps.Ideal.Laws

set_option maxRecDepth 2704

noncomputable section

namespace Cert.KernelIdeal.KHostMid

open Cert.KernelIdeal Cert.KernelIdeal.Gen GraphMatch
open Idealize.ShloMosaic Idealize.ShloMosaic.TcCoe Idealize.SL.Sem Idealize.ShloMosaic.StableHlo ValueIdx

variable {F : FTy → Type} [FloatOps F]

/-- The host operations between the two kernel launches, in program order. -/
abbrev midOps : List (HloOp τ sig (Elt F)) :=
  hostOps1 ++ hostOps1_1 ++ hostOps1_2 ++ hostOps1_3 ++ hostOps1_4

/-- The operations up to and including the second node embedding. -/
abbrev headOps : List (HloOp τ sig (Elt F)) :=
  hostOps1 ++ hostOps1_1 ++ hostOps1_2 ++ hostOps1_3 ++ hostOps1_4.take 4

/-- The operations after the second node embedding: column sums, stacks and the product. -/
abbrev tailOps : List (HloOp τ sig (Elt F)) := hostOps1_4.drop 4

theorem midOps_eq : (midOps : List (HloOp τ sig (Elt F))) = headOps ++ tailOps := by
  unfold midOps headOps tailOps
  rw [List.append_assoc _ (List.take 4 hostOps1_4), List.take_append_drop]

theorem after_mid (W : Valuation τ sig (Elt F)) :
    StableHlo.after midOps W = StableHlo.after tailOps (StableHlo.after headOps W) := by
  rw [midOps_eq, StableHlo.after_append]

/-! ## The first part: the two slices and the two node embeddings -/

section Head

variable (W : Valuation τ sig (Elt F))

theorem head_v38 :
    StableHlo.after headOps W (Proc.devRef .tc main_v38)
      = Cert.ReferenceIdeal.ReadP.val_main_v8 (F := F) (W (Proc.devRef .tc main_arg0)) (W (Proc.devRef .tc main_arg2))
          (W (Proc.devRef .tc main_arg3)) (W (Proc.devRef .tc main_arg4)) (W (Proc.devRef .tc main_arg5)) := by
  simp only [headOps, hostOps1, hostOps1_1, hostOps1_2, hostOps1_3, hostOps1_4, List.take_succ_cons, List.take_zero,
    List.cons_append, List.nil_append]
  after_results_simp
  simp only [TRef.ofBuf, TRef.toBuf, cast_eq]
  unfold Cert.ReferenceIdeal.ReadP.val_main_v8 Cert.ReferenceIdeal.ReadP.val_main_v7 Cert.ReferenceIdeal.ReadP.val_main_v6
    Cert.ReferenceIdeal.ReadP.val_main_v5 Cert.ReferenceIdeal.ReadP.val_main_v4 Cert.ReferenceIdeal.ReadP.val_main_v3
    Cert.ReferenceIdeal.ReadP.val_main_v2 Cert.ReferenceIdeal.ReadP.val_main_v1 Cert.ReferenceIdeal.ReadP.val_main_v0
    Cert.ReferenceIdeal.ReadP.val_main_call0_v0 Cert.ReferenceIdeal.ReadP.val_main_call0_cst
  rfl

theorem head_v47 :
    StableHlo.after headOps W (Proc.devRef .tc main_v47)
      = Cert.ReferenceIdeal.ReadP.val_main_v17 (F := F) (W (Proc.devRef .tc main_arg1)) (W (Proc.devRef .tc main_arg2))
          (W (Proc.devRef .tc main_arg3)) (W (Proc.devRef .tc main_arg4)) (W (Proc.devRef .tc main_arg5)) := by
  simp only [headOps, hostOps1, hostOps1_1, hostOps1_2, hostOps1_3, hostOps1_4, List.take_succ_cons, List.take_zero,
    List.cons_append, List.nil_append]
  after_results_simp
  simp only [TRef.ofBuf, TRef.toBuf, cast_eq]
  unfold Cert.ReferenceIdeal.ReadP.val_main_v17 Cert.ReferenceIdeal.ReadP.val_main_v16 Cert.ReferenceIdeal.ReadP.val_main_v15
    Cert.ReferenceIdeal.ReadP.val_main_v14 Cert.ReferenceIdeal.ReadP.val_main_v13 Cert.ReferenceIdeal.ReadP.val_main_v12
    Cert.ReferenceIdeal.ReadP.val_main_v11 Cert.ReferenceIdeal.ReadP.val_main_v10 Cert.ReferenceIdeal.ReadP.val_main_v9
    Cert.ReferenceIdeal.ReadP.val_main_call1_v0 Cert.ReferenceIdeal.ReadP.val_main_call1_cst
  rfl

theorem head_v27 :
    StableHlo.after headOps W (Proc.devRef .tc main_v27)
      = (shapeCast S256x128 (extractStridedSlice S1x256x128 ![0, 0, 0] (W (Proc.devRef .tc main_v25)) slices_S2x256x128_S1x256x128_0_0_0)
          shapeCasts_S1x256x128_S256x128 : (⟨S256x128, .f32⟩ : BufTy).Contents (Elt F)) := by
  simp only [headOps, hostOps1, hostOps1_1, hostOps1_2, hostOps1_3, hostOps1_4, List.take_succ_cons, List.take_zero,
    List.cons_append, List.nil_append]
  after_results_simp
  rfl

theorem head_v29 :
    StableHlo.after headOps W (Proc.devRef .tc main_v29)
      = (shapeCast S256x128 (extractStridedSlice S1x256x128 ![1, 0, 0] (W (Proc.devRef .tc main_v25)) slices_S2x256x128_S1x256x128_1_0_0)
          shapeCasts_S1x256x128_S256x128 : (⟨S256x128, .f32⟩ : BufTy).Contents (Elt F)) := by
  simp only [headOps, hostOps1, hostOps1_1, hostOps1_2, hostOps1_3, hostOps1_4, List.take_succ_cons, List.take_zero,
    List.cons_append, List.nil_append]
  after_results_simp
  rfl

end Head

/-! ## The second part: column sums, stacks and the product, from any contents -/

section Tail

variable (V : Valuation τ sig (Elt F))

theorem tail_v27 : StableHlo.after tailOps V (Proc.devRef .tc main_v27) = V (Proc.devRef .tc main_v27) := by
  simp only [tailOps, hostOps1_4, List.drop_succ_cons, List.drop_zero]
  after_results

theorem tail_v29 : StableHlo.after tailOps V (Proc.devRef .tc main_v29) = V (Proc.devRef .tc main_v29) := by
  simp only [tailOps, hostOps1_4, List.drop_succ_cons, List.drop_zero]
  after_results

theorem tail_v38 : StableHlo.after tailOps V (Proc.devRef .tc main_v38) = V (Proc.devRef .tc main_v38) := by
  simp only [tailOps, hostOps1_4, List.drop_succ_cons, List.drop_zero]
  after_results

theorem tail_v47 : StableHlo.after tailOps V (Proc.devRef .tc main_v47) = V (Proc.devRef .tc main_v47) := by
  simp only [tailOps, hostOps1_4, List.drop_succ_cons, List.drop_zero]
  after_results

/-- Two matrices stacked along a new leading axis. -/
abbrev stack2 (u v : (⟨S256x128, .f32⟩ : BufTy).Contents (Elt F)) : (⟨S2x256x128, .f32⟩ : BufTy).Contents (Elt F) :=
  concatenate S2x256x128 0
    [⟨S1x256x128, broadcastInDim S1x256x128 ![1, 2] bcast_S256x128_S1x256x128_1_2 u⟩,
     ⟨S1x256x128, broadcastInDim S1x256x128 ![1, 2] bcast_S256x128_S1x256x128_1_2 v⟩]
    concatenates_S1x256x128_S1x256x128_S2x256x128_d0

/-- The column sums of a matrix, started from the constant zero. -/
abbrev colSum (u : (⟨S256x128, .f32⟩ : BufTy).Contents (Elt F)) : (⟨S128, .f32⟩ : BufTy).Contents (Elt F) :=
  Host.reduceAdd u (constant S_ .f32 0x00000000#32) reducesTo_S256x128_S128_d0 h_S_

/-- Two vectors stacked as the rows of a matrix. -/
abbrev stackRows (p q : (⟨S128, .f32⟩ : BufTy).Contents (Elt F)) : (⟨S2x128, .f32⟩ : BufTy).Contents (Elt F) :=
  concatenate S2x128 0
    [⟨S1x128, broadcastInDim S1x128 ![1] bcast_S128_S1x128_1 p⟩,
     ⟨S1x128, broadcastInDim S1x128 ![1] bcast_S128_S1x128_1 q⟩]
    concatenates_S1x128_S1x128_S2x128_d0

/-- A two-row matrix repeated along a new middle axis of 256. -/
abbrev spread (r : (⟨S2x128, .f32⟩ : BufTy).Contents (Elt F)) : (⟨S2x256x128, .f32⟩ : BufTy).Contents (Elt F) :=
  broadcastInDim S2x256x128 ![0, 1, 2] bcast_S2x1x128_S2x256x128_0_1_2
    (broadcastInDim S2x1x128 ![0, 2] bcast_S2x128_S2x1x128_0_2 r)

theorem tail_v52 :
    StableHlo.after tailOps V (Proc.devRef .tc main_v52)
      = stack2 (V (Proc.devRef .tc main_v38)) (V (Proc.devRef .tc main_v47)) := by
  simp only [tailOps, hostOps1_4, List.drop_succ_cons, List.drop_zero]
  after_results

theorem tail_v55 :
    StableHlo.after tailOps V (Proc.devRef .tc main_v55)
      = stack2 (V (Proc.devRef .tc main_v47)) (V (Proc.devRef .tc main_v38)) := by
  simp only [tailOps, hostOps1_4, List.drop_succ_cons, List.drop_zero]
  after_results

theorem tail_v61 :
    StableHlo.after tailOps V (Proc.devRef .tc main_v61)
      = mulf (stack2 (V (Proc.devRef .tc main_v38)) (V (Proc.devRef .tc main_v47)))
          (spread (stackRows (colSum (V (Proc.devRef .tc main_v47))) (colSum (V (Proc.devRef .tc main_v38))))) := by
  simp only [tailOps, hostOps1_4, List.drop_succ_cons, List.drop_zero]
  after_results

end Tail

/-! ## The printed layout operations read at coordinates -/

section Read

variable {α : Type}

/-- Row 0 of a stack of two matrices, with the unit axis dropped. -/
theorem slice0_apply (O : S2x256x128.Idx → α) (m : Fin 256) (d : Fin 128) :
    shapeCast S256x128 (extractStridedSlice S1x256x128 ![0, 0, 0] O slices_S2x256x128_S1x256x128_0_0_0)
        shapeCasts_S1x256x128_S256x128 (ix2 m d) = O (ix3 (0 : Fin 2) m d) := by
  refine (shapeCast_1ab_ab_apply _ shapeCasts_S1x256x128_S256x128 m d).trans ?_
  exact extractStridedSlice_apply _ O slices_S2x256x128_S1x256x128_0_0_0 _ (ix3 (0 : Fin 2) m d) (fun ax => by
    match ax with
    | ⟨0, _⟩ => rfl
    | ⟨1, _⟩ => exact (Nat.zero_add _).symm
    | ⟨2, _⟩ => exact (Nat.zero_add _).symm)

/-- Row 1 of a stack of two matrices, with the unit axis dropped. -/
theorem slice1_apply (O : S2x256x128.Idx → α) (m : Fin 256) (d : Fin 128) :
    shapeCast S256x128 (extractStridedSlice S1x256x128 ![1, 0, 0] O slices_S2x256x128_S1x256x128_1_0_0)
        shapeCasts_S1x256x128_S256x128 (ix2 m d) = O (ix3 (1 : Fin 2) m d) := by
  refine (shapeCast_1ab_ab_apply _ shapeCasts_S1x256x128_S256x128 m d).trans ?_
  exact extractStridedSlice_apply _ O slices_S2x256x128_S1x256x128_1_0_0 _ (ix3 (1 : Fin 2) m d) (fun ax => by
    match ax with
    | ⟨0, _⟩ => rfl
    | ⟨1, _⟩ => exact (Nat.zero_add _).symm
    | ⟨2, _⟩ => exact (Nat.zero_add _).symm)

/-- A matrix given a leading unit axis, read at (0, i, d). -/
theorem lead_apply (u : S256x128.Idx → α) (i : Fin 256) (d : Fin 128) :
    broadcastInDim S1x256x128 ![1, 2] bcast_S256x128_S1x256x128_1_2 u (ix3 (0 : Fin 1) i d) = u (ix2 i d) :=
  broadcastInDim_apply _ bcast_S256x128_S1x256x128_1_2 u _ (ix2 i d) (fun a => match a with
    | ⟨0, _⟩ => by show i.val = if (256 : Nat) = 1 then 0 else i.val; rw [if_neg (by decide)]
    | ⟨1, _⟩ => by show d.val = if (128 : Nat) = 1 then 0 else d.val; rw [if_neg (by decide)])

/-- A vector given a leading unit axis, read at (0, d). -/
theorem leadRow_apply (p : S128.Idx → α) (d : Fin 128) :
    broadcastInDim S1x128 ![1] bcast_S128_S1x128_1 p (ix2 (0 : Fin 1) d) = p (ix1 d) :=
  broadcastInDim_apply _ bcast_S128_S1x128_1 p _ (ix1 d) (fun a => match a with
    | ⟨0, _⟩ => by show d.val = if (128 : Nat) = 1 then 0 else d.val; rw [if_neg (by decide)])

end Read

/-! ## The stacks, the column sums and the repeated rows read at coordinates -/

section ReadStacks

theorem stack2_apply (u v : (⟨S256x128, .f32⟩ : BufTy).Contents (Elt F)) (g : Fin 2) (i : Fin 256) (d : Fin 128) :
    stack2 u v (ix3 g i d) = if g.val = 0 then u (ix2 i d) else v (ix2 i d) := by
  by_cases hg : g.val = 0
  · rw [if_pos hg]
    refine (concatenate_pair_apply_left (0 : Fin S2x256x128.rank) _ _ concatenates_S1x256x128_S1x256x128_S2x256x128_d0
      (ix3 g i d) rfl (ix3 (0 : Fin 1) i d) (fun b => ?_)).trans (lead_apply u i d)
    match b with
    | ⟨0, _⟩ => exact hg.symm
    | ⟨1, _⟩ => rfl
    | ⟨2, _⟩ => rfl
  · rw [if_neg hg]
    have hg1 : g.val = 1 := by omega
    refine (concatenate_pair_apply_right (0 : Fin S2x256x128.rank) _ _ concatenates_S1x256x128_S1x256x128_S2x256x128_d0
      (ix3 g i d) rfl rfl (ix3 (0 : Fin 1) i d) (fun b hb => ?_) ?_).trans (lead_apply v i d)
    · match b with
      | ⟨0, _⟩ => exact absurd rfl hb
      | ⟨1, _⟩ => rfl
      | ⟨2, _⟩ => rfl
    · show 0 + 1 = g.val
      omega

theorem stackRows_apply (p q : (⟨S128, .f32⟩ : BufTy).Contents (Elt F)) (g : Fin 2) (d : Fin 128) :
    stackRows p q (ix2 g d) = if g.val = 0 then p (ix1 d) else q (ix1 d) := by
  by_cases hg : g.val = 0
  · rw [if_pos hg]
    refine (concatenate_pair_apply_left (0 : Fin S2x128.rank) _ _ concatenates_S1x128_S1x128_S2x128_d0
      (ix2 g d) rfl (ix2 (0 : Fin 1) d) (fun b => ?_)).trans (leadRow_apply p d)
    match b with
    | ⟨0, _⟩ => exact hg.symm
    | ⟨1, _⟩ => rfl
  · rw [if_neg hg]
    have hg1 : g.val = 1 := by omega
    refine (concatenate_pair_apply_right (0 : Fin S2x128.rank) _ _ concatenates_S1x128_S1x128_S2x128_d0
      (ix2 g d) rfl rfl (ix2 (0 : Fin 1) d) (fun b hb => ?_) ?_).trans (leadRow_apply q d)
    · match b with
      | ⟨0, _⟩ => exact absurd rfl hb
      | ⟨1, _⟩ => rfl
    · show 0 + 1 = g.val
      omega

theorem spread_apply (r : (⟨S2x128, .f32⟩ : BufTy).Contents (Elt F)) (g : Fin 2) (i : Fin 256) (d : Fin 128) :
    spread r (ix3 g i d) = r (ix2 g d) :=
  (broadcastInDim_apply _ bcast_S2x1x128_S2x256x128_0_1_2 _ _ (ix3 g (0 : Fin 1) d) (fun a => match a with
    | ⟨0, _⟩ => by show g.val = if (2 : Nat) = 1 then 0 else g.val; rw [if_neg (by decide)]
    | ⟨1, _⟩ => by show 0 = if (1 : Nat) = 1 then 0 else i.val; rw [if_pos rfl]
    | ⟨2, _⟩ => by show d.val = if (128 : Nat) = 1 then 0 else d.val; rw [if_neg (by decide)])).trans
  (broadcastInDim_apply _ bcast_S2x128_S2x1x128_0_2 r _ (ix2 g d) (fun a => match a with
    | ⟨0, _⟩ => by show g.val = if (2 : Nat) = 1 then 0 else g.val; rw [if_neg (by decide)]
    | ⟨1, _⟩ => by show d.val = if (128 : Nat) = 1 then 0 else d.val; rw [if_neg (by decide)]))

/-- Over the extended reals a column sum is zero plus the sum of the column's 256 entries. -/
theorem colSum_apply (u : (⟨S256x128, .f32⟩ : BufTy).Contents (Elt Ideal)) (d : Fin 128) :
    colSum (F := Ideal) u (ix1 d) = ((0 : ℝ) : EReal) + ∑ k : Fin 256, u (ix2 k d) := by
  show Host.reduceAdd u (constant (F := Ideal) S_ .f32 0x00000000#32) reducesTo_S256x128_S128_d0 h_S_ (ix1 d) = _
  simp only [Host.reduceAdd, Ideal.hostReduceAdd_def]
  rw [Ideal.hostReduceAdd_single reducesTo_S256x128_S128_d0 (by decide)]
  refine congrArg₂ (· + ·) ERealCoe.ofBits_zero (Finset.sum_congr rfl fun k _ => ?_)
  exact congrArg u (funext fun a => Fin.ext (by match a with | ⟨0, _⟩ => rfl | ⟨1, _⟩ => rfl))

/-- The column sum of a real matrix is the real column sum. -/
theorem colSum_arr2 (a : Fin 256 → Fin 128 → ℝ) (d : Fin 128) :
    colSum (F := Ideal) (arr2 a) (ix1 d) = ((∑ k : Fin 256, a k d : ℝ) : EReal) := by
  rw [colSum_apply]
  simp only [arr2_ix2]
  rw [ERealCoe.coe_sum, ← EReal.coe_add, zero_add]

end ReadStacks

/-! ## The buffers the stretch leaves, from the buffers it starts from -/

section Main

variable (W : Valuation τ sig (Elt F))
  (x0 x1 : (⟨S256x128, .f32⟩ : BufTy).Contents (Elt F)) (x2 : (⟨S128x512, .f32⟩ : BufTy).Contents (Elt F))
  (x3 : (⟨S512, .f32⟩ : BufTy).Contents (Elt F)) (x4 : (⟨S512x128, .f32⟩ : BufTy).Contents (Elt F))
  (x5 : (⟨S128, .f32⟩ : BufTy).Contents (Elt F))

/-- The first graph's node embedding is the reference's stage of the same operations. -/
theorem mid_v38 (h0 : W (Proc.devRef .tc main_arg0) = x0) (h2 : W (Proc.devRef .tc main_arg2) = x2)
    (h3 : W (Proc.devRef .tc main_arg3) = x3) (h4 : W (Proc.devRef .tc main_arg4) = x4) (h5 : W (Proc.devRef .tc main_arg5) = x5) :
    StableHlo.after midOps W (Proc.devRef .tc main_v38) = Cert.ReferenceIdeal.ReadP.val_main_v8 (F := F) x0 x2 x3 x4 x5 := by
  subst h0 h2 h3 h4 h5
  rw [after_mid, tail_v38, head_v38]

/-- The second graph's node embedding likewise. -/
theorem mid_v47 (h1 : W (Proc.devRef .tc main_arg1) = x1) (h2 : W (Proc.devRef .tc main_arg2) = x2)
    (h3 : W (Proc.devRef .tc main_arg3) = x3) (h4 : W (Proc.devRef .tc main_arg4) = x4) (h5 : W (Proc.devRef .tc main_arg5) = x5) :
    StableHlo.after midOps W (Proc.devRef .tc main_v47) = Cert.ReferenceIdeal.ReadP.val_main_v17 (F := F) x1 x2 x3 x4 x5 := by
  subst h1 h2 h3 h4 h5
  rw [after_mid, tail_v47, head_v47]

/-- The first slice of the first launch's stacked result, as printed. -/
theorem mid_v27 :
    StableHlo.after midOps W (Proc.devRef .tc main_v27)
      = (shapeCast S256x128 (extractStridedSlice S1x256x128 ![0, 0, 0] (W (Proc.devRef .tc main_v25)) slices_S2x256x128_S1x256x128_0_0_0)
          shapeCasts_S1x256x128_S256x128 : (⟨S256x128, .f32⟩ : BufTy).Contents (Elt F)) := by
  rw [after_mid, tail_v27, head_v27]

/-- The second slice, as printed. -/
theorem mid_v29 :
    StableHlo.after midOps W (Proc.devRef .tc main_v29)
      = (shapeCast S256x128 (extractStridedSlice S1x256x128 ![1, 0, 0] (W (Proc.devRef .tc main_v25)) slices_S2x256x128_S1x256x128_1_0_0)
          shapeCasts_S1x256x128_S256x128 : (⟨S256x128, .f32⟩ : BufTy).Contents (Elt F)) := by
  rw [after_mid, tail_v29, head_v29]

/-- The first slice at (m, d) is the stacked result at (0, m, d). -/
theorem mid_v27_apply (m : Fin 256) (d : Fin 128) :
    (StableHlo.after midOps W (Proc.devRef .tc main_v27) : (⟨S256x128, .f32⟩ : BufTy).Contents (Elt F)) (ix2 m d)
      = (W (Proc.devRef .tc main_v25) : (⟨S2x256x128, .f32⟩ : BufTy).Contents (Elt F)) (ix3 (0 : Fin 2) m d) := by
  rw [mid_v27]
  exact slice0_apply _ m d

/-- The second slice at (m, d) is the stacked result at (1, m, d). -/
theorem mid_v29_apply (m : Fin 256) (d : Fin 128) :
    (StableHlo.after midOps W (Proc.devRef .tc main_v29) : (⟨S256x128, .f32⟩ : BufTy).Contents (Elt F)) (ix2 m d)
      = (W (Proc.devRef .tc main_v25) : (⟨S2x256x128, .f32⟩ : BufTy).Contents (Elt F)) (ix3 (1 : Fin 2) m d) := by
  rw [mid_v29]
  exact slice1_apply _ m d

end Main

/-! ## The second launch's operands over the reals -/

section MainReal

variable (W : Valuation τ sig (Elt Ideal))
  (x0 x1 : (⟨S256x128, .f32⟩ : BufTy).Contents (Elt Ideal)) (x2 : (⟨S128x512, .f32⟩ : BufTy).Contents (Elt Ideal))
  (x3 : (⟨S512, .f32⟩ : BufTy).Contents (Elt Ideal)) (x4 : (⟨S512x128, .f32⟩ : BufTy).Contents (Elt Ideal))
  (x5 : (⟨S128, .f32⟩ : BufTy).Contents (Elt Ideal))
  (h0 : W (Proc.devRef .tc main_arg0) = x0) (h1 : W (Proc.devRef .tc main_arg1) = x1) (h2 : W (Proc.devRef .tc main_arg2) = x2)
  (h3 : W (Proc.devRef .tc main_arg3) = x3) (h4 : W (Proc.devRef .tc main_arg4) = x4) (h5 : W (Proc.devRef .tc main_arg5) = x5)
  (a b : Fin 256 → Fin 128 → ℝ)
  (ha : Cert.ReferenceIdeal.ReadP.val_main_v8 (F := Ideal) x0 x2 x3 x4 x5 = arr2 a)
  (hb : Cert.ReferenceIdeal.ReadP.val_main_v17 (F := Ideal) x1 x2 x3 x4 x5 = arr2 b)

include h0 h1 h2 h3 h4 h5 ha hb

/-- The first operand: the two embeddings stacked, the first graph's first. -/
theorem mid_v52 :
    StableHlo.after midOps W (Proc.devRef .tc main_v52)
      = arr3 fun (g : Fin 2) (i : Fin 256) (d : Fin 128) => if g.val = 0 then a i d else b i d := by
  subst h0 h1 h2 h3 h4 h5
  rw [after_mid, tail_v52, head_v38, head_v47, ha, hb]
  exact ext3 fun g i d => by
    rw [stack2_apply, arr2_ix2, arr2_ix2, arr3_ix3]
    by_cases hg : g.val = 0
    · rw [if_pos hg, if_pos hg]
    · rw [if_neg hg, if_neg hg]

/-- The second operand: the two embeddings stacked, the second graph's first. -/
theorem mid_v55 :
    StableHlo.after midOps W (Proc.devRef .tc main_v55)
      = arr3 fun (g : Fin 2) (i : Fin 256) (d : Fin 128) => if g.val = 0 then b i d else a i d := by
  subst h0 h1 h2 h3 h4 h5
  rw [after_mid, tail_v55, head_v38, head_v47, ha, hb]
  exact ext3 fun g i d => by
    rw [stack2_apply, arr2_ix2, arr2_ix2, arr3_ix3]
    by_cases hg : g.val = 0
    · rw [if_pos hg, if_pos hg]
    · rw [if_neg hg, if_neg hg]

/-- The third operand: each embedding times the other graph's column sums. -/
theorem mid_v61 :
    StableHlo.after midOps W (Proc.devRef .tc main_v61)
      = arr3 fun (g : Fin 2) (i : Fin 256) (d : Fin 128) =>
          if g.val = 0 then a i d * ∑ j : Fin 256, b j d else b i d * ∑ j : Fin 256, a j d := by
  subst h0 h1 h2 h3 h4 h5
  rw [after_mid, tail_v61, head_v38, head_v47, ha, hb]
  exact ext3 fun g i d => by
    rw [mulf_apply, stack2_apply, spread_apply, stackRows_apply, colSum_arr2, colSum_arr2, arr2_ix2, arr2_ix2, arr3_ix3]
    by_cases hg : g.val = 0
    · rw [if_pos hg, if_pos hg, if_pos hg, EReal.coe_mul]
    · rw [if_neg hg, if_neg hg, if_neg hg, EReal.coe_mul]

end MainReal

/-! ## The buffers the stretch does not write -/

section Keep

/-- The buffers the stretch writes, in program order. -/
def midWrites : List (Ref sig .tc) :=
  [main_v26, main_v27, main_v28, main_v29, main_v30, main_v31, main_v32, main_v33,
   main_call0_cst, main_call0_v0, main_v34,
   main_v35, main_v36, main_v37, main_v38, main_v39, main_v40, main_v41, main_v42,
   main_call1_cst, main_call1_v0, main_v43,
   main_v44, main_v45, main_v46, main_v47, main_cst, main_v48, main_cst_0, main_v49, main_v50, main_v51, main_v52,
   main_v53, main_v54, main_v55, main_v56, main_v57, main_v58, main_v59, main_v60, main_v61]

theorem mid_writes_sub :
    (midOps : List (HloOp τ sig (Elt F))).Forall fun op => op.writes ⊆ (midWrites.map (Proc.devRef (τ := τ) .tc)).toFinset := by
  simp only [midOps, hostOps1, hostOps1_1, hostOps1_2, hostOps1_3, hostOps1_4, List.cons_append, List.nil_append, List.Forall,
    StableHlo.nullary_writes, StableHlo.unary_writes, StableHlo.binary_writes, StableHlo.reshape_writes,
    Finset.singleton_subset_iff, List.mem_toFinset, List.mem_map]
  repeat' apply And.intro
  all_goals exact ⟨_, by decide, rfl⟩

/-- A buffer that is none of those keeps its contents. -/
theorem mid_keep (W : Valuation τ sig (Elt F)) (r : Ref sig .tc) (hr : r ∉ midWrites) :
    StableHlo.after midOps W (Proc.devRef .tc r) = W (Proc.devRef .tc r) :=
  StableHlo.after_of_writes_sub midOps W mid_writes_sub hr

variable (W : Valuation τ sig (Elt F))

theorem mid_arg0 : StableHlo.after midOps W (Proc.devRef .tc main_arg0) = W (Proc.devRef .tc main_arg0) := mid_keep W _ (by decide)
theorem mid_arg1 : StableHlo.after midOps W (Proc.devRef .tc main_arg1) = W (Proc.devRef .tc main_arg1) := mid_keep W _ (by decide)
theorem mid_arg2 : StableHlo.after midOps W (Proc.devRef .tc main_arg2) = W (Proc.devRef .tc main_arg2) := mid_keep W _ (by decide)
theorem mid_arg3 : StableHlo.after midOps W (Proc.devRef .tc main_arg3) = W (Proc.devRef .tc main_arg3) := mid_keep W _ (by decide)
theorem mid_arg4 : StableHlo.after midOps W (Proc.devRef .tc main_arg4) = W (Proc.devRef .tc main_arg4) := mid_keep W _ (by decide)
theorem mid_arg5 : StableHlo.after midOps W (Proc.devRef .tc main_arg5) = W (Proc.devRef .tc main_arg5) := mid_keep W _ (by decide)
theorem mid_arg6 : StableHlo.after midOps W (Proc.devRef .tc main_arg6) = W (Proc.devRef .tc main_arg6) := mid_keep W _ (by decide)
theorem mid_arg7 : StableHlo.after midOps W (Proc.devRef .tc main_arg7) = W (Proc.devRef .tc main_arg7) := mid_keep W _ (by decide)
theorem mid_arg8 : StableHlo.after midOps W (Proc.devRef .tc main_arg8) = W (Proc.devRef .tc main_arg8) := mid_keep W _ (by decide)
theorem mid_arg9 : StableHlo.after midOps W (Proc.devRef .tc main_arg9) = W (Proc.devRef .tc main_arg9) := mid_keep W _ (by decide)
theorem mid_arg10 : StableHlo.after midOps W (Proc.devRef .tc main_arg10) = W (Proc.devRef .tc main_arg10) := mid_keep W _ (by decide)
theorem mid_arg11 : StableHlo.after midOps W (Proc.devRef .tc main_arg11) = W (Proc.devRef .tc main_arg11) := mid_keep W _ (by decide)
theorem mid_arg12 : StableHlo.after midOps W (Proc.devRef .tc main_arg12) = W (Proc.devRef .tc main_arg12) := mid_keep W _ (by decide)
theorem mid_arg13 : StableHlo.after midOps W (Proc.devRef .tc main_arg13) = W (Proc.devRef .tc main_arg13) := mid_keep W _ (by decide)
theorem mid_arg14 : StableHlo.after midOps W (Proc.devRef .tc main_arg14) = W (Proc.devRef .tc main_arg14) := mid_keep W _ (by decide)
theorem mid_arg15 : StableHlo.after midOps W (Proc.devRef .tc main_arg15) = W (Proc.devRef .tc main_arg15) := mid_keep W _ (by decide)
theorem mid_arg16 : StableHlo.after midOps W (Proc.devRef .tc main_arg16) = W (Proc.devRef .tc main_arg16) := mid_keep W _ (by decide)
theorem mid_arg17 : StableHlo.after midOps W (Proc.devRef .tc main_arg17) = W (Proc.devRef .tc main_arg17) := mid_keep W _ (by decide)
theorem mid_v25 : StableHlo.after midOps W (Proc.devRef .tc main_v25) = W (Proc.devRef .tc main_v25) := mid_keep W _ (by decide)

end Keep

end Cert.KernelIdeal.KHostMid

end
-- ==== Proof.PayIntra.lean ====
/-
  The edge-message stage's stored values, entry by entry, over the extended reals.

  Three values are written to the accumulator of a block of 256 nodes × 128 features: zero before the first tile of
  neighbours; after each tile of 16 neighbours the previous contents plus the tile's contribution; after the last
  tile the contents divided by 256. For node m and the tile's j-th neighbour the contribution is a two-layer
  perceptron: its first layer is node m's part plus the neighbour's part plus the folded edge term (a 512-term sum
  over the rectified first edge layer times the folded matrix), rectified; its second layer is a 512-term sum plus
  a bias. Each layout step (a reshape between 256 × 16 × c and 4096 × c, an inserted unit axis, a repeated row) is read
  at coordinates, each matrix product as a sum over the contracted coordinate, and the sum over the tile's 16
  neighbours as a sum over the middle axis. With real operands every entry is real, and equals `gE` (the folded edge
  term) respectively the previous contents plus `gTile`.
-/
import proofs.«418941_j65867618451820_3_alg».proof.Proof.Gen.KernelIdeal.Skeleton
import proofs.«418941_j65867618451820_3_alg».proof.Proof.Spec
import proofs.«418941_j65867618451820_3_alg».proof.Proof.Arr
import proofs.«418941_j65867618451820_3_alg».proof.Proof.LibERealCoe
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIntra

open Cert.KernelIdeal Cert.KernelIdeal.Gen GraphMatch Idealize.ShloMosaic Idealize.ShloMosaic.ValueIdx

/-! ## Layout operations read at coordinates -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[p, q, c]` array cast to `[n, c]` reads, at row `r = i · q + j`, the operand at `(i, j, ·)`. -/
theorem shapeCast_pqc_nc_apply {p q c n : ℕ} (x : (⟨3, ![p, q, c]⟩ : Shape).Idx → α)
    (h : (⟨3, ![p, q, c]⟩ : Shape).ShapeCasts ⟨2, ![n, c]⟩) (i : Fin p) (j : Fin q) (k : Fin c) (r : Fin n)
    (hr : r.val = i.val * q + j.val) :
    shapeCast ⟨2, ![n, c]⟩ x h (ix2 r k) = x (ix3 i j k) :=
  shapeCast_apply x h _ _ (by
    rw [Shape.rowMajor_val_three, Shape.rowMajor_val_two]
    show (i.val * q + j.val) * c + k.val = r.val * c + k.val
    rw [hr])

/-- An `[n, c]` array cast to `[p, q, c]` reads, at `(i, j, ·)`, the operand's row `r = i · q + j`. -/
theorem shapeCast_nc_pqc_apply {p q c n : ℕ} (x : (⟨2, ![n, c]⟩ : Shape).Idx → α)
    (h : (⟨2, ![n, c]⟩ : Shape).ShapeCasts ⟨3, ![p, q, c]⟩) (i : Fin p) (j : Fin q) (k : Fin c) (r : Fin n)
    (hr : r.val = i.val * q + j.val) :
    shapeCast ⟨3, ![p, q, c]⟩ x h (ix3 i j k) = x (ix2 r k) :=
  shapeCast_apply x h _ _ (by
    rw [Shape.rowMajor_val_three, Shape.rowMajor_val_two]
    show r.val * c + k.val = (i.val * q + j.val) * c + k.val
    rw [hr])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## A sum over the middle axis -/

/-- The sum over the middle axis of an `[a, b, c]` array, read at `(i, k)`: the sum over `j` of the entries `(i, j, k)`. -/
theorem sum_axis1_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-! ## A plain matrix product read at coordinates

For `M × K` by `K × N` the left operand's index at output index `i` and contraction index `q` is `(i 0, q)` and the
right operand's is `(q, i 1)`; so the product into a zero accumulator, read at `(r, c)`, is the sum over `k` of the left
operand at `(r, k)` times the right operand at `(k, c)`. -/

section Plain
variable (M K N : ℕ)

theorem plain_lhs_0 (i : (⟨2, ![M, N]⟩ : Shape).Idx) (q : (DotDims.plain M K N).contr.Idx) :
    ((DotDims.plain M K N).lhsIdx i q 0).val = (i 0).val := rfl
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := rfl

theorem matmul_plain_apply {φ₁ φ₂ : FTy} (lhs : FVec Ideal ⟨2, ![M, K]⟩ φ₁) (rhs : FVec Ideal ⟨2, ![K, N]⟩ φ₂)
    (r : Fin M) (c : Fin N) :
    matmul (DotDims.plain M K N) none lhs rhs (constant (F := Ideal) ⟨2, ![M, N]⟩ .f32 0x00000000#32) (ix2 r c)
      = ∑ k : Fin K, lhs (ix2 r k) * rhs (ix2 k c) := by
  refine (Ideal.matmul_constant_zero_apply (DotDims.plain M K N) none lhs rhs (ix2 r c)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

end Plain

/-- The four products of the edge-message stage have the plain dimension numbers. -/
theorem dot_256x128x512_eq : dot_S256x128_S128x512_S256x512_1_0_0_1_n_n = DotDims.plain 256 128 512 := rfl
theorem dot_16x128x512_eq : dot_S16x128_S128x512_S16x512_1_0_0_1_n_n = DotDims.plain 16 128 512 := rfl
theorem dot_4096x512x512_eq : dot_S4096x512_S512x512_S4096x512_1_0_0_1_n_n = DotDims.plain 4096 512 512 := rfl
theorem dot_4096x512x128_eq : dot_S4096x512_S512x128_S4096x128_1_0_0_1_n_n = DotDims.plain 4096 512 128 := rfl

/-! ## Congruences for the extended reals' operations -/

theorem add_congr {a a' b b' : EReal} (h1 : a = a') (h2 : b = b') : a + b = a' + b' := by rw [h1, h2]
theorem mul_congr {a a' b b' : EReal} (h1 : a = a') (h2 : b = b') : a * b = a' * b' := by rw [h1, h2]
theorem max_congr {a a' b b' : EReal} (h1 : a = a') (h2 : b = b') : max a b = max a' b' := by rw [h1, h2]

/-! ## The two small stored values -/

/-- The value stored at the first tile: zero everywhere. -/
theorem pay2_eq : k0_pay2 (F := Ideal) = arr3 fun (_ : Fin 1) (_ : Fin 256) (_ : Fin 128) => (0 : ℝ) := by
  refine ext3 fun u m d => ?_
  unfold k0_pay2
  refine (shapeCast_ab_1ab_apply _ _ u m d).trans ?_
  rw [arr3_ix3]
  exact ERealCoe.ofBits_zero

/-- The value stored after the last tile: the accumulated sum divided by 256. -/
theorem pay1_eq (f : Fin 1 → Fin 256 → Fin 128 → ℝ) :
    k0_pay1 (F := Ideal) (arr3 f) = arr3 fun a m d => f a m d / 256 := by
  refine ext3 fun u m d => ?_
  obtain rfl : u = 0 := Subsingleton.elim _ _
  unfold k0_pay1
  refine (shapeCast_ab_1ab_apply _ _ 0 m d).trans ?_
  refine (divf_apply _ _ _).trans ?_
  have h1 : shapeCast S256x128 (arr3 f) shapeCasts_S1x256x128_S256x128 (ix2 m d) = ((f 0 m d : ℝ) : EReal) :=
    (shapeCast_1ab_ab_apply _ _ m d).trans (arr3_ix3 f 0 m d)
  have h2 : broadcast S256x128 (Scalar.ofBits (F := Ideal) .f32 0x43800000#32) (ix2 m d) = ((256 : ℝ) : EReal) :=
    ERealCoe.ofBits_256
  rw [arr3_ix3]
  exact (congrArg₂ Ideal.div h1 h2).trans (ERealCoe.div_coe _ _ (by norm_num))

/-! ## The two narrowed blocks and the folded edge term at coordinates -/

/-- The node block narrowed: its entry at `(m, k)`. -/
theorem pay3_apply (v3 : Vec Ideal S1x256x128 .f32) (m : Fin 256) (k : Fin 128) :
    k0_pay3 v3 (ix2 m k) = v3 (ix3 (0 : Fin 1) m k) := by
  unfold k0_pay3
  exact shapeCast_1ab_ab_apply v3 _ m k

/-- The tile block narrowed: its entry at `(j, k)`. -/
theorem pay4_apply (v5 : Vec Ideal S1x16x128 .f32) (j : Fin 16) (k : Fin 128) :
    k0_pay4 v5 (ix2 j k) = v5 (ix3 (0 : Fin 1) j k) := by
  unfold k0_pay4
  exact shapeCast_1ab_ab_apply v5 _ j k

/-- The folded edge term at `(m, j, h)`: the sum over `h'` of the rectified first edge layer at `(m, j, h')` times the
    folded matrix at `(h', h)`; the first edge layer is node `m`'s part plus the tile's node `j`'s part. -/
theorem pay5_apply (v3 : Vec Ideal S1x256x128 .f32) (v5 : Vec Ideal S1x16x128 .f32) (v9 v11 : Vec Ideal S128x512 .bf16)
    (v14 : Vec Ideal S256x512 .f32) (v18 : Vec Ideal S16x512 .f32) (v29 : Vec Ideal S512x512 .bf16)
    (m : Fin 256) (j : Fin 16) (h : Fin 512) :
    k0_pay5 v3 v5 v9 v11 v14 v18 v29 (ix3 m j h)
      = ∑ h' : Fin 512,
          max (((∑ k : Fin 128, v3 (ix3 (0 : Fin 1) m k) * v9 (ix2 k h')) + v14 (ix2 m h'))
              + ((∑ k : Fin 128, v5 (ix3 (0 : Fin 1) j k) * v11 (ix2 k h')) + v18 (ix2 j h'))) (0 : EReal)
            * v29 (ix2 h' h) := by
  unfold k0_pay5
  refine (shapeCast_nc_pqc_apply _ _ m j h ⟨m.val * 16 + j.val, by omega⟩ rfl).trans ?_
  refine (matmul_plain_apply 4096 512 512 _ _ _ h).trans ?_
  refine Finset.sum_congr rfl fun h' _ => ?_
  refine mul_congr ?_ (congrFun (shapeCast_self _ _) _)
  refine (shapeCast_pqc_nc_apply _ _ m j h' _ rfl).trans ?_
  refine (truncf_apply (φ := .f32) (ψ := .bf16) _ _ _).trans ?_
  refine (maximumf_apply _ _ _).trans ?_
  refine max_congr ?_ Ideal.ofBits_zero_f32
  refine (addf_apply _ _ _).trans ?_
  refine add_congr ?_ ?_
  · refine (broadcastTo_a1c_abc_apply _ _ m j h').trans ?_
    refine (shapeCast_ab_a1b_apply _ _ m 0 h').trans ?_
    refine (addf_apply _ _ _).trans ?_
    refine add_congr ?_ (congrFun (shapeCast_self _ _) _)
    refine (matmul_plain_apply 256 128 512 _ _ m h').trans ?_
    exact Finset.sum_congr rfl fun k _ => mul_congr (pay3_apply v3 m k) (congrFun (shapeCast_self _ _) _)
  · refine (broadcastTo_1bc_abc_apply _ _ m j h').trans ?_
    refine (shapeCast_ab_1ab_apply _ _ 0 j h').trans ?_
    refine (addf_apply _ _ _).trans ?_
    refine add_congr ?_ (congrFun (shapeCast_self _ _) _)
    refine (matmul_plain_apply 16 128 512 _ _ j h').trans ?_
    exact Finset.sum_congr rfl fun k _ => mul_congr (pay4_apply v5 j k) (congrFun (shapeCast_self _ _) _)

/-! ## The tile's stored value at coordinates -/

/-- The value stored after a tile, at `(u, m, d)`: the running sum there plus, summed over the tile's sixteen nodes `j`,
    the message's second layer applied to the rectified first layer (node `m`'s part with the bias, node `j`'s part,
    the folded edge term) plus the second bias. -/
theorem pay6_apply (v7 : FVec Ideal S256x128 .bf16) (v8 : FVec Ideal S16x128 .bf16) (v33 : FVec Ideal S256x16x512 .f32)
    (v34 v36 : Vec Ideal S128x512 .bf16) (v39 : Vec Ideal S1x512 .f32) (v53 : Vec Ideal S512x128 .bf16)
    (v58 : Vec Ideal S1x128 .f32) (v64 : Vec Ideal S1x256x128 .f32) (u : Fin 1) (m : Fin 256) (d : Fin 128) :
    k0_pay6 v7 v8 v33 v34 v36 v39 v53 v58 v64 (ix3 u m d)
      = v64 (ix3 (0 : Fin 1) m d)
        + ∑ j : Fin 16,
            ((∑ h : Fin 512,
                max ((((∑ k : Fin 128, v7 (ix2 m k) * v34 (ix2 k h)) + v39 (ix2 (0 : Fin 1) h))
                      + (∑ k : Fin 128, v8 (ix2 j k) * v36 (ix2 k h)))
                    + v33 (ix3 m j h)) (0 : EReal)
                  * v53 (ix2 h d))
              + v58 (ix2 (0 : Fin 1) d)) := by
  unfold k0_pay6
  refine (shapeCast_ab_1ab_apply _ _ u m d).trans ?_
  refine (addf_apply _ _ _).trans ?_
  refine add_congr (shapeCast_1ab_ab_apply _ _ m d) ?_
  refine (sum_axis1_apply _ _ _ _ m d).trans ?_
  refine Finset.sum_congr rfl fun j _ => ?_
  refine (addf_apply _ _ _).trans ?_
  refine add_congr ?_ ?_
  · refine (shapeCast_nc_pqc_apply _ _ m j d ⟨m.val * 16 + j.val, by omega⟩ rfl).trans ?_
    refine (matmul_plain_apply 4096 512 128 _ _ _ d).trans ?_
    refine Finset.sum_congr rfl fun h _ => ?_
    refine mul_congr ?_ (congrFun (shapeCast_self _ _) _)
    refine (shapeCast_pqc_nc_apply _ _ m j h _ rfl).trans ?_
    refine (truncf_apply (φ := .f32) (ψ := .bf16) _ _ _).trans ?_
    refine (maximumf_apply _ _ _).trans ?_
    refine max_congr ?_ Ideal.ofBits_zero_f32
    refine (addf_apply _ _ _).trans ?_
    refine add_congr ?_ rfl
    refine (addf_apply _ _ _).trans ?_
    refine add_congr ?_ ?_
    · refine (broadcastTo_a1c_abc_apply _ _ m j h).trans ?_
      refine (shapeCast_ab_a1b_apply _ _ m 0 h).trans ?_
      refine (addf_apply _ _ _).trans ?_
      refine add_congr ?_ ?_
      · refine (matmul_plain_apply 256 128 512 _ _ m h).trans ?_
        exact Finset.sum_congr rfl fun k _ => mul_congr rfl (congrFun (shapeCast_self _ _) _)
      · refine (broadcastTo_1b_ab_apply _ _ m h).trans ?_
        exact congrFun (shapeCast_self _ _) _
    · refine (broadcastTo_1bc_abc_apply _ _ m j h).trans ?_
      refine (shapeCast_ab_1ab_apply _ _ 0 j h).trans ?_
      refine (matmul_plain_apply 16 128 512 _ _ j h).trans ?_
      exact Finset.sum_congr rfl fun k _ => mul_congr rfl (congrFun (shapeCast_self _ _) _)
  · refine (broadcastTo_11c_abc_apply _ _ m j d).trans ?_
    refine (shapeCast_ab_1ab_apply _ _ 0 0 d).trans ?_
    exact congrFun (shapeCast_self _ _) _

/-! ## At real operands: the folded edge term and the tile's contribution -/

section Real

variable (x : Fin 256 → Fin 128 → ℝ)
  (wxi : Fin 128 → Fin 512 → ℝ) (woib : Fin 256 → Fin 512 → ℝ) (wxj : Fin 128 → Fin 512 → ℝ) (woj : Fin 256 → Fin 512 → ℝ)
  (we : Fin 512 → Fin 512 → ℝ) (pm pn : Fin 128 → Fin 512 → ℝ) (pbe : Fin 512 → ℝ)
  (p2 : Fin 512 → Fin 128 → ℝ) (pb2 : Fin 128 → ℝ)

/-- At real operands the folded edge term at `(m, j, h)` is the real number `gE` of node `m` and the tile's node `j`. -/
theorem pay5_arr (t : Fin 16) (m : Fin 256) (j : Fin 16) (h : Fin 512) :
    k0_pay5 (F := Ideal) (arr3 fun (_ : Fin 1) m k => x m k) (arr3 fun (_ : Fin 1) (j : Fin 16) k => x (tileNode t j) k)
        (arr2 wxi) (arr2 wxj) (arr2 woib) (arr2 fun (j : Fin 16) h => woj (tileNode t j) h) (arr2 we) (ix3 m j h)
      = ((gE x wxi woib wxj woj we m (tileNode t j) h : ℝ) : EReal) := by
  refine (pay5_apply _ _ _ _ _ _ _ m j h).trans ?_
  simp only [arr3_ix3, arr2_ix2, ← EReal.coe_mul, ERealCoe.coe_sum, ← EReal.coe_add, ERealCoe.max_coe_zero]
  rfl

/-- The tile's stored value when the two narrowed blocks and the folded edge term are real arrays: the real running sum
    plus the real sum over the tile's nodes. -/
theorem pay6_real (a7 : Fin 256 → Fin 128 → ℝ) (a8 : Fin 16 → Fin 128 → ℝ) (e : Fin 256 → Fin 16 → Fin 512 → ℝ)
    (prev : Fin 256 → Fin 128 → ℝ)
    (v7 : FVec Ideal S256x128 .bf16) (v8 : FVec Ideal S16x128 .bf16) (v33 : FVec Ideal S256x16x512 .f32)
    (h7 : ∀ m k, v7 (ix2 m k) = ((a7 m k : ℝ) : EReal)) (h8 : ∀ j k, v8 (ix2 j k) = ((a8 j k : ℝ) : EReal))
    (h33 : ∀ m j h, v33 (ix3 m j h) = ((e m j h : ℝ) : EReal)) (u : Fin 1) (m : Fin 256) (d : Fin 128) :
    k0_pay6 v7 v8 v33 (arr2 pm) (arr2 pn) (arr2 fun (_ : Fin 1) h => pbe h) (arr2 p2) (arr2 fun (_ : Fin 1) d => pb2 d)
        (arr3 fun (_ : Fin 1) m d => prev m d) (ix3 u m d)
      = ((prev m d + ∑ j : Fin 16,
            ((∑ h : Fin 512,
                max ((((∑ k : Fin 128, a7 m k * pm k h) + pbe h) + (∑ k : Fin 128, a8 j k * pn k h)) + e m j h) 0 * p2 h d)
              + pb2 d) : ℝ) : EReal) := by
  refine (pay6_apply _ _ _ _ _ _ _ _ _ u m d).trans ?_
  simp only [h7, h8, h33, arr3_ix3, arr2_ix2, ← EReal.coe_mul, ERealCoe.coe_sum, ← EReal.coe_add, ERealCoe.max_coe_zero]

end Real

/-- The value stored after tile `t`: the running sum plus the tile's contribution `gTile`. -/
theorem pay6_eq (t : Fin 16) (x : Fin 256 → Fin 128 → ℝ) (wxi : Fin 128 → Fin 512 → ℝ) (woib : Fin 256 → Fin 512 → ℝ)
    (wxj : Fin 128 → Fin 512 → ℝ) (woj : Fin 256 → Fin 512 → ℝ) (we : Fin 512 → Fin 512 → ℝ) (pm pn : Fin 128 → Fin 512 → ℝ)
    (pbe : Fin 512 → ℝ) (p2 : Fin 512 → Fin 128 → ℝ) (pb2 : Fin 128 → ℝ) (prev : Fin 256 → Fin 128 → ℝ) :
    k0_pay6 (F := Ideal) (k0_pay3 (arr3 fun (_ : Fin 1) m k => x m k))
        (k0_pay4 (arr3 fun (_ : Fin 1) (j : Fin 16) k => x (tileNode t j) k))
        (k0_pay5 (arr3 fun (_ : Fin 1) m k => x m k) (arr3 fun (_ : Fin 1) (j : Fin 16) k => x (tileNode t j) k)
          (arr2 wxi) (arr2 wxj) (arr2 woib) (arr2 fun (j : Fin 16) h => woj (tileNode t j) h) (arr2 we))
        (arr2 pm) (arr2 pn) (arr2 fun (_ : Fin 1) h => pbe h) (arr2 p2) (arr2 fun (_ : Fin 1) d => pb2 d)
        (arr3 fun (_ : Fin 1) m d => prev m d)
      = arr3 fun (_ : Fin 1) m d => prev m d + gTile x wxi woib wxj woj we pm pn pbe p2 pb2 m d t := by
  refine ext3 fun u m d => ?_
  refine (pay6_real pm pn pbe p2 pb2 (fun m k => x m k) (fun j k => x (tileNode t j) k)
    (fun m j h => gE x wxi woib wxj woj we m (tileNode t j) h) prev _ _ _
    (fun m k => (pay3_apply _ m k).trans (arr3_ix3 _ 0 m k))
    (fun j k => (pay4_apply _ j k).trans (arr3_ix3 _ 0 j k))
    (fun m j h => pay5_arr x wxi woib wxj woj we t m j h) u m d).trans ?_
  rw [arr3_ix3]
  rfl

end Cert.KernelIdeal.PayIntra

end
-- ==== Proof.IntraArr.lean ====
/-
  The first pallas_call's output array as one function of its operands, over the extended reals.

  The grid is 2 × 16: point t works on graph t / 16 and on tile t % 16 of that graph's nodes. Each window's block at
  a point is read off its array (the node features of the graph, the tile's 16 rows of them, the tile's 16 rows of
  the looked-up weights, and nine whole arrays); the block the output carries along a row of the grid is, by
  induction on the point, the running sum of the tiles' message sums, and at the row's last point their mean;
  the two rows' last points write back the two halves of the output array, which they cover.
-/
import proofs.«418941_j65867618451820_3_alg».proof.Proof.Reg0Defs
import proofs.«418941_j65867618451820_3_alg».proof.Proof.Arr
import proofs.«418941_j65867618451820_3_alg».proof.Proof.PayIntra
import proofs.«418941_j65867618451820_3_alg».proof.Proof.Spec
import Idealize.ShloMosaic.Lib.Pipeline.Value
import Idealize.ShloMosaic.Lib.ValueIdx

set_option maxRecDepth 16384

noncomputable section

namespace Cert.KernelIdeal.IntraArr

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open GraphMatch Cert.KernelIdeal.PayIntra

/-! ## The block reads -/

/-- The block indices of the windows that move with the grid, in closed form: the point t has coordinates
    (t / 16, t % 16). -/
theorem idx_facts : ∀ t : Fin cfg0.N,
      win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = t.val % 16 ∧ win0_1.index t (2 : Fin 3) = 0
    ∧ win0_5.index t (0 : Fin 2) = t.val % 16 ∧ win0_5.index t (1 : Fin 2) = 0
    ∧ win0_12.index t (0 : Fin 3) = t.val / 16 ∧ win0_12.index t (1 : Fin 3) = 0 ∧ win0_12.index t (2 : Fin 3) = 0 :=
  (by decide +kernel : ∀ t : Fin grid0.N, _)

section Reads

variable {F : FTy → Type} [FloatOps F]
variable (V : (c : Dev nD) → (b : Ref sig .tc) → Buf (Elt F) ((c : Thread nD τ).loc b))

/-- Window 0's block at point t is graph t / 16 of the node features. -/
theorem iblk0_0_apply (c : Dev nD) (t : Fin cfg0.N) (y : S1x256x128.Idx) (k : S2x256x128.Idx)
    (h0 : (k 0).val = t.val / 16) (h1 : (k 1).val = (y 1).val) (h2 : (k 2).val = (y 2).val) :
    (iblk0 V c 0 t : Vec F S1x256x128 .f32) y = (V c main_v2 : S2x256x128.Idx → Elt F .f32) k := by
  obtain ⟨e0, e1, e2, -⟩ := idx_facts t
  unfold iblk0
  rw [View.read_apply]
  show V c main_v2 _ = V c main_v2 _
  congr 1
  funext a
  apply Fin.ext
  have hy0 : (y 0).val < 1 := (y 0).isLt
  match a with
  | ⟨0, _⟩ => show win0_0.index t (0 : Fin 3) * 1 + 1 * (y 0).val = (k 0).val; omega
  | ⟨1, _⟩ => show win0_0.index t (1 : Fin 3) * 256 + 1 * (y 1).val = (k 1).val; omega
  | ⟨2, _⟩ => show win0_0.index t (2 : Fin 3) * 128 + 1 * (y 2).val = (k 2).val; omega

/-- Window 1's block at point t is rows 16 (t % 16) … of graph t / 16. -/
theorem iblk0_1_apply (c : Dev nD) (t : Fin cfg0.N) (y : S1x16x128.Idx) (k : S2x256x128.Idx)
    (h0 : (k 0).val = t.val / 16) (h1 : (k 1).val = 16 * (t.val % 16) + (y 1).val) (h2 : (k 2).val = (y 2).val) :
    (iblk0 V c 1 t : Vec F S1x16x128 .f32) y = (V c main_v2 : S2x256x128.Idx → Elt F .f32) k := by
  obtain ⟨-, -, -, e0, e1, e2, -⟩ := idx_facts t
  unfold iblk0
  rw [View.read_apply]
  show V c main_v2 _ = V c main_v2 _
  congr 1
  funext a
  apply Fin.ext
  have hy0 : (y 0).val < 1 := (y 0).isLt
  match a with
  | ⟨0, _⟩ => show win0_1.index t (0 : Fin 3) * 1 + 1 * (y 0).val = (k 0).val; omega
  | ⟨1, _⟩ => show win0_1.index t (1 : Fin 3) * 16 + 1 * (y 1).val = (k 1).val; omega
  | ⟨2, _⟩ => show win0_1.index t (2 : Fin 3) * 128 + 1 * (y 2).val = (k 2).val; omega

/-- Window 5's block at point t is rows 16 (t % 16) … of its array. -/
theorem iblk0_5_apply (c : Dev nD) (t : Fin cfg0.N) (y : S16x512.Idx) (k : S256x512.Idx)
    (h0 : (k 0).val = 16 * (t.val % 16) + (y 0).val) (h1 : (k 1).val = (y 1).val) :
    (iblk0 V c 5 t : Vec F S16x512 .f32) y = (V c main_v6 : S256x512.Idx → Elt F .f32) k := by
  obtain ⟨-, -, -, -, -, -, e0, e1, -⟩ := idx_facts t
  unfold iblk0
  rw [View.read_apply]
  show V c main_v6 _ = V c main_v6 _
  congr 1
  funext a
  apply Fin.ext
  match a with
  | ⟨0, _⟩ => show win0_5.index t (0 : Fin 2) * 16 + 1 * (y 0).val = (k 0).val; omega
  | ⟨1, _⟩ => show win0_5.index t (1 : Fin 2) * 512 + 1 * (y 1).val = (k 1).val; omega

/-- Window 2's block index is zero at every point. -/
theorem idx_whole_2 : ∀ t : Fin cfg0.N, win0_2.index t (0 : Fin 2) = 0 ∧ win0_2.index t (1 : Fin 2) = 0 :=
  (by decide +kernel : ∀ t : Fin grid0.N, _)

/-- so it stages its whole array at every point. -/
theorem iblk0_2_eq (c : Dev nD) (t : Fin cfg0.N) :
    (iblk0 V c 2 t : Vec F S128x512 .bf16) = (V c main_v19 : S128x512.Idx → Elt F .bf16) := by
  obtain ⟨e0, e1⟩ := idx_whole_2 t
  funext y
  unfold iblk0
  rw [View.read_apply]
  show V c main_v19 _ = V c main_v19 y
  congr 1
  funext a
  apply Fin.ext
  match a with
  | ⟨0, _⟩ => show win0_2.index t (0 : Fin 2) * 128 + 1 * (y 0).val = (y 0).val; omega
  | ⟨1, _⟩ => show win0_2.index t (1 : Fin 2) * 512 + 1 * (y 1).val = (y 1).val; omega

/-- Window 3's block index is zero at every point. -/
theorem idx_whole_3 : ∀ t : Fin cfg0.N, win0_3.index t (0 : Fin 2) = 0 ∧ win0_3.index t (1 : Fin 2) = 0 :=
  (by decide +kernel : ∀ t : Fin grid0.N, _)

/-- so it stages its whole array at every point. -/
theorem iblk0_3_eq (c : Dev nD) (t : Fin cfg0.N) :
    (iblk0 V c 3 t : Vec F S256x512 .f32) = (V c main_v15 : S256x512.Idx → Elt F .f32) := by
  obtain ⟨e0, e1⟩ := idx_whole_3 t
  funext y
  unfold iblk0
  rw [View.read_apply]
  show V c main_v15 _ = V c main_v15 y
  congr 1
  funext a
  apply Fin.ext
  match a with
  | ⟨0, _⟩ => show win0_3.index t (0 : Fin 2) * 256 + 1 * (y 0).val = (y 0).val; omega
  | ⟨1, _⟩ => show win0_3.index t (1 : Fin 2) * 512 + 1 * (y 1).val = (y 1).val; omega

/-- Window 4's block index is zero at every point. -/
theorem idx_whole_4 : ∀ t : Fin cfg0.N, win0_4.index t (0 : Fin 2) = 0 ∧ win0_4.index t (1 : Fin 2) = 0 :=
  (by decide +kernel : ∀ t : Fin grid0.N, _)

/-- so it stages its whole array at every point. -/
theorem iblk0_4_eq (c : Dev nD) (t : Fin cfg0.N) :
    (iblk0 V c 4 t : Vec F S128x512 .bf16) = (V c main_v20 : S128x512.Idx → Elt F .bf16) := by
  obtain ⟨e0, e1⟩ := idx_whole_4 t
  funext y
  unfold iblk0
  rw [View.read_apply]
  show V c main_v20 _ = V c main_v20 y
  congr 1
  funext a
  apply Fin.ext
  match a with
  | ⟨0, _⟩ => show win0_4.index t (0 : Fin 2) * 128 + 1 * (y 0).val = (y 0).val; omega
  | ⟨1, _⟩ => show win0_4.index t (1 : Fin 2) * 512 + 1 * (y 1).val = (y 1).val; omega

/-- Window 6's block index is zero at every point. -/
theorem idx_whole_6 : ∀ t : Fin cfg0.N, win0_6.index t (0 : Fin 2) = 0 ∧ win0_6.index t (1 : Fin 2) = 0 :=
  (by decide +kernel : ∀ t : Fin grid0.N, _)

/-- so it stages its whole array at every point. -/
theorem iblk0_6_eq (c : Dev nD) (t : Fin cfg0.N) :
    (iblk0 V c 6 t : Vec F S512x512 .bf16) = (V c main_v24 : S512x512.Idx → Elt F .bf16) := by
  obtain ⟨e0, e1⟩ := idx_whole_6 t
  funext y
  unfold iblk0
  rw [View.read_apply]
  show V c main_v24 _ = V c main_v24 y
  congr 1
  funext a
  apply Fin.ext
  match a with
  | ⟨0, _⟩ => show win0_6.index t (0 : Fin 2) * 512 + 1 * (y 0).val = (y 0).val; omega
  | ⟨1, _⟩ => show win0_6.index t (1 : Fin 2) * 512 + 1 * (y 1).val = (y 1).val; omega

/-- Window 7's block index is zero at every point. -/
theorem idx_whole_7 : ∀ t : Fin cfg0.N, win0_7.index t (0 : Fin 2) = 0 ∧ win0_7.index t (1 : Fin 2) = 0 :=
  (by decide +kernel : ∀ t : Fin grid0.N, _)

/-- so it stages its whole array at every point. -/
theorem iblk0_7_eq (c : Dev nD) (t : Fin cfg0.N) :
    (iblk0 V c 7 t : Vec F S128x512 .bf16) = (V c main_v21 : S128x512.Idx → Elt F .bf16) := by
  obtain ⟨e0, e1⟩ := idx_whole_7 t
  funext y
  unfold iblk0
  rw [View.read_apply]
  show V c main_v21 _ = V c main_v21 y
  congr 1
  funext a
  apply Fin.ext
  match a with
  | ⟨0, _⟩ => show win0_7.index t (0 : Fin 2) * 128 + 1 * (y 0).val = (y 0).val; omega
  | ⟨1, _⟩ => show win0_7.index t (1 : Fin 2) * 512 + 1 * (y 1).val = (y 1).val; omega

/-- Window 8's block index is zero at every point. -/
theorem idx_whole_8 : ∀ t : Fin cfg0.N, win0_8.index t (0 : Fin 2) = 0 ∧ win0_8.index t (1 : Fin 2) = 0 :=
  (by decide +kernel : ∀ t : Fin grid0.N, _)

/-- so it stages its whole array at every point. -/
theorem iblk0_8_eq (c : Dev nD) (t : Fin cfg0.N) :
    (iblk0 V c 8 t : Vec F S128x512 .bf16) = (V c main_v22 : S128x512.Idx → Elt F .bf16) := by
  obtain ⟨e0, e1⟩ := idx_whole_8 t
  funext y
  unfold iblk0
  rw [View.read_apply]
  show V c main_v22 _ = V c main_v22 y
  congr 1
  funext a
  apply Fin.ext
  match a with
  | ⟨0, _⟩ => show win0_8.index t (0 : Fin 2) * 128 + 1 * (y 0).val = (y 0).val; omega
  | ⟨1, _⟩ => show win0_8.index t (1 : Fin 2) * 512 + 1 * (y 1).val = (y 1).val; omega

/-- Window 9's block index is zero at every point. -/
theorem idx_whole_9 : ∀ t : Fin cfg0.N, win0_9.index t (0 : Fin 2) = 0 ∧ win0_9.index t (1 : Fin 2) = 0 :=
  (by decide +kernel : ∀ t : Fin grid0.N, _)

/-- so it stages its whole array at every point. -/
theorem iblk0_9_eq (c : Dev nD) (t : Fin cfg0.N) :
    (iblk0 V c 9 t : Vec F S1x512 .f32) = (V c main_v18 : S1x512.Idx → Elt F .f32) := by
  obtain ⟨e0, e1⟩ := idx_whole_9 t
  funext y
  unfold iblk0
  rw [View.read_apply]
  show V c main_v18 _ = V c main_v18 y
  congr 1
  funext a
  apply Fin.ext
  match a with
  | ⟨0, _⟩ => show win0_9.index t (0 : Fin 2) * 1 + 1 * (y 0).val = (y 0).val; omega
  | ⟨1, _⟩ => show win0_9.index t (1 : Fin 2) * 512 + 1 * (y 1).val = (y 1).val; omega

/-- Window 10's block index is zero at every point. -/
theorem idx_whole_10 : ∀ t : Fin cfg0.N, win0_10.index t (0 : Fin 2) = 0 ∧ win0_10.index t (1 : Fin 2) = 0 :=
  (by decide +kernel : ∀ t : Fin grid0.N, _)

/-- so it stages its whole array at every point. -/
theorem iblk0_10_eq (c : Dev nD) (t : Fin cfg0.N) :
    (iblk0 V c 10 t : Vec F S512x128 .bf16) = (V c main_v23 : S512x128.Idx → Elt F .bf16) := by
  obtain ⟨e0, e1⟩ := idx_whole_10 t
  funext y
  unfold iblk0
  rw [View.read_apply]
  show V c main_v23 _ = V c main_v23 y
  congr 1
  funext a
  apply Fin.ext
  match a with
  | ⟨0, _⟩ => show win0_10.index t (0 : Fin 2) * 512 + 1 * (y 0).val = (y 0).val; omega
  | ⟨1, _⟩ => show win0_10.index t (1 : Fin 2) * 128 + 1 * (y 1).val = (y 1).val; omega

/-- Window 11's block index is zero at every point. -/
theorem idx_whole_11 : ∀ t : Fin cfg0.N, win0_11.index t (0 : Fin 2) = 0 ∧ win0_11.index t (1 : Fin 2) = 0 :=
  (by decide +kernel : ∀ t : Fin grid0.N, _)

/-- so it stages its whole array at every point. -/
theorem iblk0_11_eq (c : Dev nD) (t : Fin cfg0.N) :
    (iblk0 V c 11 t : Vec F S1x128 .f32) = (V c main_v13 : S1x128.Idx → Elt F .f32) := by
  obtain ⟨e0, e1⟩ := idx_whole_11 t
  funext y
  unfold iblk0
  rw [View.read_apply]
  show V c main_v13 _ = V c main_v13 y
  congr 1
  funext a
  apply Fin.ext
  match a with
  | ⟨0, _⟩ => show win0_11.index t (0 : Fin 2) * 1 + 1 * (y 0).val = (y 0).val; omega
  | ⟨1, _⟩ => show win0_11.index t (1 : Fin 2) * 128 + 1 * (y 1).val = (y 1).val; omega

end Reads

/-! ## The blocks as real arrays -/

section Arrays

variable (V : (c : Dev nD) → (b : Ref sig .tc) → Buf (Elt Ideal) ((c : Thread nD τ).loc b)) (c : Dev nD)
variable (X : Fin 2 → Fin 256 → Fin 128 → ℝ)
  (wxi : Fin 128 → Fin 512 → ℝ) (woib : Fin 256 → Fin 512 → ℝ) (wxj : Fin 128 → Fin 512 → ℝ) (woj : Fin 256 → Fin 512 → ℝ)
  (we : Fin 512 → Fin 512 → ℝ) (pm pn : Fin 128 → Fin 512 → ℝ) (pbe : Fin 512 → ℝ)
  (p2 : Fin 512 → Fin 128 → ℝ) (pb2 : Fin 128 → ℝ)

/-- The arrays the region finds are real arrays: the two graphs' node features and the fused operands. -/
structure Holds : Prop where
  v2 : V c main_v2 = arr3 X
  v19 : V c main_v19 = arr2 wxi
  v15 : V c main_v15 = arr2 woib
  v20 : V c main_v20 = arr2 wxj
  v6 : V c main_v6 = arr2 woj
  v24 : V c main_v24 = arr2 we
  v21 : V c main_v21 = arr2 pm
  v22 : V c main_v22 = arr2 pn
  v18 : V c main_v18 = arr2 (fun (_ : Fin 1) h => pbe h)
  v23 : V c main_v23 = arr2 p2
  v13 : V c main_v13 = arr2 (fun (_ : Fin 1) d => pb2 d)

/-- The graph of point n: its first grid coordinate n / 16 (taken mod 2, which changes nothing on the grid). -/
def Xg (n : ℕ) : Fin 256 → Fin 128 → ℝ := X ⟨n / 16 % 2, Nat.mod_lt _ (by norm_num)⟩

/-- The tile of point n: its second grid coordinate n % 16. -/
def Tn (n : ℕ) : Fin 16 := ⟨n % 16, Nat.mod_lt _ (by norm_num)⟩

theorem N32 : cfg0.N = 32 := N_0

variable {V c X wxi woib wxj woj we pm pn pbe p2 pb2}
variable (H : Holds V c X wxi woib wxj woj we pm pn pbe p2 pb2)
include H

theorem blk0_eq (t : Fin cfg0.N) :
    (iblk0 V c 0 t : Vec Ideal S1x256x128 .f32) = arr3 fun (_ : Fin 1) m k => Xg X t.val m k := by
  have ht : t.val < 32 := N32 ▸ t.isLt
  funext y
  rw [iblk0_0_apply V c t y (ix3 ⟨t.val / 16 % 2, Nat.mod_lt _ (by norm_num)⟩ (y 1) (y 2))
    (by show t.val / 16 % 2 = t.val / 16; omega) rfl rfl, H.v2]
  rfl

theorem blk1_eq (t : Fin cfg0.N) :
    (iblk0 V c 1 t : Vec Ideal S1x16x128 .f32)
      = arr3 fun (_ : Fin 1) (j : Fin 16) k => Xg X t.val (tileNode (Tn t.val) j) k := by
  have ht : t.val < 32 := N32 ▸ t.isLt
  funext y
  rw [iblk0_1_apply V c t y (ix3 ⟨t.val / 16 % 2, Nat.mod_lt _ (by norm_num)⟩
      (tileNode (Tn t.val) ⟨(y 1).val, (y 1).isLt⟩) (y 2))
    (by show t.val / 16 % 2 = t.val / 16; omega) rfl rfl, H.v2]
  rfl

theorem blk5_eq (t : Fin cfg0.N) :
    (iblk0 V c 5 t : Vec Ideal S16x512 .f32) = arr2 fun (j : Fin 16) h => woj (tileNode (Tn t.val) j) h := by
  funext y
  rw [iblk0_5_apply V c t y (ix2 (tileNode (Tn t.val) ⟨(y 0).val, (y 0).isLt⟩) (y 1)) rfl rfl, H.v6]
  rfl

/-- One point's update of a real block: the tile's partial sum is added. -/
theorem stepAt0_eq (t : Fin cfg0.N) (prev : Fin 256 → Fin 128 → ℝ) :
    stepAt0 V c t (arr3 fun (_ : Fin 1) m d => prev m d)
      = arr3 fun (_ : Fin 1) m d => prev m d + gTile (Xg X t.val) wxi woib wxj woj we pm pn pbe p2 pb2 m d (Tn t.val) := by
  unfold stepAt0 step0
  rw [blk0_eq H t, blk1_eq H t, blk5_eq H t, iblk0_2_eq V c t, iblk0_3_eq V c t, iblk0_4_eq V c t, iblk0_6_eq V c t,
    iblk0_7_eq V c t, iblk0_8_eq V c t, iblk0_9_eq V c t, iblk0_10_eq V c t, iblk0_11_eq V c t,
    H.v19, H.v15, H.v20, H.v24, H.v21, H.v22, H.v18, H.v23, H.v13]
  exact pay6_eq (Tn t.val) (Xg X t.val) wxi woib wxj woj we pm pn pbe p2 pb2 prev

end Arrays

/-! ## The carried block, by induction on the point -/

/-- The running sum gains the next tile's sum. -/
theorem gAcc_succ' {wxi : Fin 128 → Fin 512 → ℝ} {woib : Fin 256 → Fin 512 → ℝ} {wxj : Fin 128 → Fin 512 → ℝ}
    {woj : Fin 256 → Fin 512 → ℝ} {we : Fin 512 → Fin 512 → ℝ} {pm pn : Fin 128 → Fin 512 → ℝ} {pbe : Fin 512 → ℝ}
    {p2 : Fin 512 → Fin 128 → ℝ} {pb2 : Fin 128 → ℝ}
    (x : Fin 256 → Fin 128 → ℝ) (m : Fin 256) (d : Fin 128) (s : ℕ) (T : Fin 16) (hT : T.val = s + 1) :
    gAcc x wxi woib wxj woj we pm pn pbe p2 pb2 m d s + gTile x wxi woib wxj woj we pm pn pbe p2 pb2 m d T = gAcc x wxi woib wxj woj we pm pn pbe p2 pb2 m d (s + 1) := by
  have h : s + 1 < 16 := hT ▸ T.isLt
  obtain rfl : T = ⟨s + 1, h⟩ := Fin.ext hT
  conv_rhs => rw [gAcc, dif_pos h]

section Induction

variable {V : (c : Dev nD) → (b : Ref sig .tc) → Buf (Elt Ideal) ((c : Thread nD τ).loc b)} {c : Dev nD}
variable {X : Fin 2 → Fin 256 → Fin 128 → ℝ}
  {wxi : Fin 128 → Fin 512 → ℝ} {woib : Fin 256 → Fin 512 → ℝ} {wxj : Fin 128 → Fin 512 → ℝ} {woj : Fin 256 → Fin 512 → ℝ}
  {we : Fin 512 → Fin 512 → ℝ} {pm pn : Fin 128 → Fin 512 → ℝ} {pbe : Fin 512 → ℝ}
  {p2 : Fin 512 → Fin 128 → ℝ} {pb2 : Fin 128 → ℝ}
variable (H : Holds V c X wxi woib wxj woj we pm pn pbe p2 pb2)
include H

/-- A point that starts a row of the grid leaves the first tile's sum. -/
theorem acc0_first (n : ℕ) (hn : n < cfg0.N) (h0 : n % 16 = 0) :
    acc0 V c n hn = arr3 fun (_ : Fin 1) m d => gAcc (Xg X n) wxi woib wxj woj we pm pn pbe p2 pb2 m d (n % 16) := by
  have hA : acc0 V c n hn = stepAt0 V c ⟨n, hn⟩ (k0_pay2 (F := Ideal)) := acc0_A V c ⟨n, hn⟩ h0
  have hT : Tn n = (0 : Fin 16) := Fin.ext h0
  rw [hA, pay2_eq, stepAt0_eq H ⟨n, hn⟩ (fun _ _ => 0), h0]
  show (arr3 fun (_ : Fin 1) m d => (0 : ℝ) + gTile (Xg X n) wxi woib wxj woj we pm pn pbe p2 pb2 m d (Tn n)) = _
  rw [hT]
  rfl

/-- A later point of a row adds its tile's sum onto what the point before left. -/
theorem step_acc (n : ℕ) (hn : n + 1 < cfg0.N) (h0 : (n + 1) % 16 ≠ 0)
    (ih : acc0 V c n (Nat.lt_of_succ_lt hn) = arr3 fun (_ : Fin 1) m d => gAcc (Xg X n) wxi woib wxj woj we pm pn pbe p2 pb2 m d (n % 16)) :
    stepAt0 V c ⟨n + 1, hn⟩ (acc0 V c n (Nat.lt_of_succ_lt hn))
      = arr3 fun (_ : Fin 1) m d => gAcc (Xg X (n + 1)) wxi woib wxj woj we pm pn pbe p2 pb2 m d ((n + 1) % 16) := by
  have hx : Xg X n = Xg X (n + 1) := by
    unfold Xg
    congr 1
    apply Fin.ext
    show n / 16 % 2 = (n + 1) / 16 % 2
    omega
  have hs : (n + 1) % 16 = n % 16 + 1 := by omega
  rw [ih, stepAt0_eq H ⟨n + 1, hn⟩ (fun m d => gAcc (Xg X n) wxi woib wxj woj we pm pn pbe p2 pb2 m d (n % 16)), hx, hs]
  congr 1
  funext _ m d
  exact gAcc_succ' _ m d (n % 16) (Tn (n + 1)) hs

/-- What the output's block holds after the body at point n: inside a row the running sum of the tiles so far,
    at the row's last point the mean. -/
theorem acc0_eq : ∀ (n : ℕ) (hn : n < cfg0.N),
      (n % 16 ≠ 15 → acc0 V c n hn = arr3 fun (_ : Fin 1) m d => gAcc (Xg X n) wxi woib wxj woj we pm pn pbe p2 pb2 m d (n % 16))
    ∧ (n % 16 = 15 → acc0 V c n hn = arr3 fun (_ : Fin 1) m d => gIntra (Xg X n) wxi woib wxj woj we pm pn pbe p2 pb2 m d)
  | 0, hn => ⟨fun _ => acc0_first H 0 hn rfl, fun h => absurd h (by decide)⟩
  | n + 1, hn => by
    have ih := (acc0_eq n (Nat.lt_of_succ_lt hn)).1
    by_cases h0 : (n + 1) % 16 = 0
    · exact ⟨fun _ => acc0_first H (n + 1) hn h0, fun h => absurd h (by omega)⟩
    · have ihn := ih (by omega)
      by_cases h15 : (n + 1) % 16 = 15
      · refine ⟨fun h => absurd h15 h, fun _ => ?_⟩
        have hC : acc0 V c (n + 1) hn
            = k0_pay1 (F := Ideal) (stepAt0 V c ⟨n + 1, hn⟩ (acc0 V c n (Nat.lt_of_succ_lt hn))) :=
          acc0_C V c ⟨n + 1, hn⟩ h15
        rw [hC, step_acc H n hn h0 ihn, pay1_eq, h15]
        rfl
      · refine ⟨fun _ => ?_, fun h => absurd h h15⟩
        have hB : acc0 V c (n + 1) hn = stepAt0 V c ⟨n + 1, hn⟩ (acc0 V c n (Nat.lt_of_succ_lt hn)) :=
          acc0_B V c ⟨n + 1, hn⟩ h0 h15
        rw [hB]
        exact step_acc H n hn h0 ihn

end Induction

/-! ## From the blocks to the array -/

section Final

variable {V : (c : Dev nD) → (b : Ref sig .tc) → Buf (Elt Ideal) ((c : Thread nD τ).loc b)} {c : Dev nD}
variable {X : Fin 2 → Fin 256 → Fin 128 → ℝ}
  {wxi : Fin 128 → Fin 512 → ℝ} {woib : Fin 256 → Fin 512 → ℝ} {wxj : Fin 128 → Fin 512 → ℝ} {woj : Fin 256 → Fin 512 → ℝ}
  {we : Fin 512 → Fin 512 → ℝ} {pm pn : Fin 128 → Fin 512 → ℝ} {pbe : Fin 512 → ℝ}
  {p2 : Fin 512 → Fin 128 → ℝ} {pb2 : Fin 128 → ℝ}

/-- The output's block at point t sits at graph t / 16. -/
theorem emb12 (t : Fin cfg0.N) (y : S1x256x128.Idx) :
    ((cfg0.win 12).blk t).view.emb y = (ix3 ⟨t.val / 16 % 2, Nat.mod_lt _ (by norm_num)⟩ (y 1) (y 2) : S2x256x128.Idx) := by
  have ht : t.val < 32 := N32 ▸ t.isLt
  obtain ⟨-, -, -, -, -, -, -, -, e0, e1, e2⟩ := idx_facts t
  funext a
  apply Fin.ext
  have hy0 : (y 0).val < 1 := (y 0).isLt
  match a with
  | ⟨0, _⟩ => show win0_12.index t (0 : Fin 3) * 1 + 1 * (y 0).val = t.val / 16 % 2; omega
  | ⟨1, _⟩ => show win0_12.index t (1 : Fin 3) * 256 + 1 * (y 1).val = (y 1).val; omega
  | ⟨2, _⟩ => show win0_12.index t (2 : Fin 3) * 128 + 1 * (y 2).val = (y 2).val; omega

/-- What a row's last point writes back is its block of the array of the two graphs' means. -/
theorem flushed_eq (H : Holds V c X wxi woib wxj woj we pm pn pbe p2 pb2) (t : Fin cfg0.N) (hf : (cfg0.win 12).flush t = true) :
    (dat0 V c).flushed 12 t
      = ((cfg0.win 12).blk t).view.read (Elt Ideal) (arr3 fun (g : Fin 2) m d => gIntra (X g) wxi woib wxj woj we pm pn pbe p2 pb2 m d) := by
  have h15 : t.val % 16 = 15 := (flush0_12 t).mp hf
  show (cfg0.win 12).cut (grid0.coords t) ((dat0 V c).after 12 t) = _
  rw [after0_12, (acc0_eq H t.val t.isLt).2 h15]
  funext y
  show (arr3 fun (_ : Fin 1) m d => gIntra (Xg X t.val) wxi woib wxj woj we pm pn pbe p2 pb2 m d) y
    = (arr3 fun (g : Fin 2) m d => gIntra (X g) wxi woib wxj woj we pm pn pbe p2 pb2 m d) (((cfg0.win 12).blk t).view.emb y)
  rw [emb12]
  rfl

/-- An index of the array is in point t's block iff each coordinate is in the block's range on its axis. -/
theorem mem_blk12 (t : Fin cfg0.N) (i : S2x256x128.Idx) :
    i ∈ ((cfg0.win 12).blk t).view.set ↔ ∀ a : Fin 3, win0_12.index t a * S1x256x128.size a ≤ (i a).val
      ∧ (i a).val < win0_12.index t a * S1x256x128.size a + S1x256x128.size a := by
  show i ∈ ((View.whole main_v25).slice (win0_12.rect t)).set ↔ _
  rw [View.set_slice_whole, Rect.mem_set_unit]
  exact Iff.rfl

/-- Every index of the output array is in the block some row's last point writes back. -/
theorem cover12 (i : S2x256x128.Idx) :
    ∃ t : Fin cfg0.N, (cfg0.win 12).flush t = true ∧ i ∈ ((cfg0.win 12).blk t).view.set := by
  have hi0 : (i 0).val < 2 := (i 0).isLt
  have hi1 : (i 1).val < 256 := (i 1).isLt
  have hi2 : (i 2).val < 128 := (i 2).isLt
  have hlt : 16 * (i 0).val + 15 < cfg0.N := by rw [N32]; omega
  refine ⟨⟨16 * (i 0).val + 15, hlt⟩, (flush0_12 _).mpr (by show (16 * (i 0).val + 15) % 16 = 15; omega), ?_⟩
  obtain ⟨-, -, -, -, -, -, -, -, e0, e1, e2⟩ := idx_facts ⟨16 * (i 0).val + 15, hlt⟩
  have e0' : win0_12.index ⟨16 * (i 0).val + 15, hlt⟩ (0 : Fin 3) = (i 0).val := by
    rw [e0]; show (16 * (i 0).val + 15) / 16 = (i 0).val; omega
  rw [mem_blk12]
  intro a
  match a with
  | ⟨0, _⟩ =>
    show win0_12.index ⟨16 * (i 0).val + 15, hlt⟩ (0 : Fin 3) * 1 ≤ (i 0).val
      ∧ (i 0).val < win0_12.index ⟨16 * (i 0).val + 15, hlt⟩ (0 : Fin 3) * 1 + 1
    omega
  | ⟨1, _⟩ =>
    show win0_12.index ⟨16 * (i 0).val + 15, hlt⟩ (1 : Fin 3) * 256 ≤ (i 1).val
      ∧ (i 1).val < win0_12.index ⟨16 * (i 0).val + 15, hlt⟩ (1 : Fin 3) * 256 + 256
    omega
  | ⟨2, _⟩ =>
    show win0_12.index ⟨16 * (i 0).val + 15, hlt⟩ (2 : Fin 3) * 128 ≤ (i 2).val
      ∧ (i 2).val < win0_12.index ⟨16 * (i 0).val + 15, hlt⟩ (2 : Fin 3) * 128 + 128
    omega

/-- The output array after the pipeline: for each graph, the mean of each node's messages in the fused form. -/
theorem intra_arr_of (H : Holds V c X wxi woib wxj woj we pm pn pbe p2 pb2) :
    (dat0 V c).arrAt 12 cfg0.N = arr3 fun (g : Fin 2) m d => gIntra (X g) wxi woib wxj woj we pm pn pbe p2 pb2 m d :=
  (dat0 V c).arrAt_eq_of_cover 12 (arr3 fun (g : Fin 2) m d => gIntra (X g) wxi woib wxj woj we pm pn pbe p2 pb2 m d)
    (fun t hf => flushed_eq H t hf) cover12

end Final

/-- The output array after the first pipeline, from the region-entry contents of its operands. -/
theorem intra_arr (V : (c : Dev nD) → (b : Ref sig .tc) → Buf (Elt Ideal) ((c : Thread nD τ).loc b)) (c : Dev nD)
    (X : Fin 2 → Fin 256 → Fin 128 → ℝ)
    (wxi : Fin 128 → Fin 512 → ℝ) (woib : Fin 256 → Fin 512 → ℝ) (wxj : Fin 128 → Fin 512 → ℝ) (woj : Fin 256 → Fin 512 → ℝ)
    (we : Fin 512 → Fin 512 → ℝ) (pm pn : Fin 128 → Fin 512 → ℝ) (pbe : Fin 512 → ℝ)
    (p2 : Fin 512 → Fin 128 → ℝ) (pb2 : Fin 128 → ℝ)
    (hV2 : V c main_v2 = arr3 X) (hV19 : V c main_v19 = arr2 wxi) (hV15 : V c main_v15 = arr2 woib)
    (hV20 : V c main_v20 = arr2 wxj) (hV6 : V c main_v6 = arr2 woj) (hV24 : V c main_v24 = arr2 we)
    (hV21 : V c main_v21 = arr2 pm) (hV22 : V c main_v22 = arr2 pn)
    (hV18 : V c main_v18 = arr2 (fun (_ : Fin 1) h => pbe h)) (hV23 : V c main_v23 = arr2 p2)
    (hV13 : V c main_v13 = arr2 (fun (_ : Fin 1) d => pb2 d)) :
    (dat0 V c).arrAt 12 cfg0.N = arr3 fun (g : Fin 2) m d => gIntra (X g) wxi woib wxj woj we pm pn pbe p2 pb2 m d :=
  intra_arr_of ⟨hV2, hV19, hV15, hV20, hV6, hV24, hV21, hV22, hV18, hV23, hV13⟩

end Cert.KernelIdeal.IntraArr

end
-- ==== Proof.BridgeIntra.lean ====
/-
  The edge message stage, from the fused computation's output to the reference: at the entry of the second fused
  call the two buffers that hold the first call's result, graph by graph, hold the reference's means of messages.
  The operands the first call is handed are the real arrays built from the weights; its output array is the fused
  reading of the stage for each graph; the operations between the calls cut that array into its two graphs; and
  the fused reading is the mean of messages.
-/
import proofs.«418941_j65867618451820_3_alg».proof.Proof.RunDefs
import proofs.«418941_j65867618451820_3_alg».proof.Proof.Spec
import proofs.«418941_j65867618451820_3_alg».proof.Proof.Arr
import proofs.«418941_j65867618451820_3_alg».proof.Proof.AlgIntra
import proofs.«418941_j65867618451820_3_alg».proof.Proof.RefIntra
import proofs.«418941_j65867618451820_3_alg».proof.Proof.KHostPre
import proofs.«418941_j65867618451820_3_alg».proof.Proof.KHostMid
import proofs.«418941_j65867618451820_3_alg».proof.Proof.IntraArr
import Idealize.ShloMosaic.Lib.Pipeline.Frame
import Idealize.ShloMosaic.Lib.ValueIdx

noncomputable section

namespace Cert.KernelIdeal.Bridge

open Cert.KernelIdeal Cert.KernelIdeal.Gen Cert.KernelIdeal.Hand GraphMatch
open Idealize.ShloMosaic Idealize.ShloMosaic.TcCoe Idealize.SL.Sem Idealize.ShloMosaic.ValueIdx

/-- Five stretches of operations run one after the other are their concatenation run as one. -/
theorem after5 {τ : Topo} {sig : RefSig} {Val : EltTy → Type} (l₁ l₂ l₃ l₄ l₅ : List (HloOp τ sig Val)) (V : Valuation τ sig Val) :
    StableHlo.after (l₁ ++ l₂ ++ l₃ ++ l₄ ++ l₅) V
      = StableHlo.after l₅ (StableHlo.after l₄ (StableHlo.after l₃ (StableHlo.after l₂ (StableHlo.after l₁ V)))) := by
  rw [StableHlo.after_append, StableHlo.after_append, StableHlo.after_append, StableHlo.after_append]

variable (m : (ℓ : Loc nD τ sig) → Buf (Elt Ideal) ℓ) (ρ : Dev nD → PrngReg) (c : Dev nD)
variable (X1 X2 : Fin 256 → Fin 128 → ℝ)
  (A1 : Fin 768 → Fin 512 → ℝ) (a1 : Fin 512 → ℝ) (A2 : Fin 512 → Fin 128 → ℝ) (a2 : Fin 128 → ℝ)
  (P1 : Fin 384 → Fin 512 → ℝ) (pb1 : Fin 512 → ℝ) (P2 : Fin 512 → Fin 128 → ℝ) (pb2 : Fin 128 → ℝ)

/-- At the first call's exit its output array holds, for each of the two graphs, the fused reading of the edge
    message stage at the operands built from the weights. -/
theorem v25_exit
    (h0 : (m ((c : Thread nD τ).loc main_arg0) : S256x128.Idx → EReal) = arr2 X1)
    (h1 : (m ((c : Thread nD τ).loc main_arg1) : S256x128.Idx → EReal) = arr2 X2)
    (h6 : (m ((c : Thread nD τ).loc main_arg6) : S768x512.Idx → EReal) = arr2 A1)
    (h7 : (m ((c : Thread nD τ).loc main_arg7) : S512.Idx → EReal) = arr1 a1)
    (h8 : (m ((c : Thread nD τ).loc main_arg8) : S512x128.Idx → EReal) = arr2 A2)
    (h9 : (m ((c : Thread nD τ).loc main_arg9) : S128.Idx → EReal) = arr1 a2)
    (h10 : (m ((c : Thread nD τ).loc main_arg10) : S384x512.Idx → EReal) = arr2 P1)
    (h11 : (m ((c : Thread nD τ).loc main_arg11) : S512.Idx → EReal) = arr1 pb1)
    (h12 : (m ((c : Thread nD τ).loc main_arg12) : S512x128.Idx → EReal) = arr2 P2)
    (h13 : (m ((c : Thread nD τ).loc main_arg13) : S128.Idx → EReal) = arr1 pb2) :
    (Hand.W2 (F := Ideal) m ρ c (Proc.devRef .tc main_v25) : S2x256x128.Idx → EReal)
      = arr3 fun (g : Fin 2) a d =>
          gIntra (fun a k => if g.val = 0 then X1 a k else X2 a k) (wXi A1) (wOib A1 a1) (wXj A1) (wOj A1) (wE A2 P1)
            (pM P1) (pN P1) (pb1e a2 P1 pb1) P2 pb2 a d :=
  (W2_out m ρ c).trans
    (IntraArr.intra_arr (V1 m ρ) c (fun g a k => if g.val = 0 then X1 a k else X2 a k) (wXi A1) (wOib A1 a1) (wXj A1)
      (wOj A1) (wE A2 P1) (pM P1) (pN P1) (pb1e a2 P1 pb1) P2 pb2
      (KHostPre.v2_eq (W0 m ρ c) X1 X2 h0 h1)
      (KHostPre.v19_eq (W0 m ρ c) A1 h6)
      (KHostPre.v15_eq (W0 m ρ c) A1 a1 h6 h7)
      (KHostPre.v20_eq (W0 m ρ c) A1 h6)
      (KHostPre.v6_eq (W0 m ρ c) A1 h6)
      (KHostPre.v24_eq (W0 m ρ c) A2 P1 h8 h10)
      (KHostPre.v21_eq (W0 m ρ c) P1 h10)
      (KHostPre.v22_eq (W0 m ρ c) P1 h10)
      (KHostPre.v18_eq (W0 m ρ c) a2 P1 pb1 h9 h10 h11)
      (KHostPre.v23_eq (W0 m ρ c) P2 h12)
      (KHostPre.v13_eq (W0 m ρ c) pb2 h13))

/-- The second call's entry, as one stretch of operations run from the first call's exit. -/
theorem W7_eq : Hand.W7 (F := Ideal) m ρ c
    = StableHlo.after (KHostMid.midOps (F := Ideal)) (Hand.W2 m ρ c) :=
  (after5 _ _ _ _ _ _).symm

/-- Graph 0 of the stack of the two graphs is the first graph. -/
theorem stack_zero : (fun (a : Fin 256) (k : Fin 128) => if ((0 : Fin 2)).val = 0 then X1 a k else X2 a k) = X1 := by
  funext a k
  exact if_pos rfl

/-- Graph 1 of the stack of the two graphs is the second graph. -/
theorem stack_one : (fun (a : Fin 256) (k : Fin 128) => if ((1 : Fin 2)).val = 0 then X1 a k else X2 a k) = X2 := by
  funext a k
  exact if_neg (by decide)

/-- **The first graph's edge messages at the second call's entry are the reference's.** -/
theorem intra1_eq
    (h0 : (m ((c : Thread nD τ).loc main_arg0) : S256x128.Idx → EReal) = arr2 X1)
    (h1 : (m ((c : Thread nD τ).loc main_arg1) : S256x128.Idx → EReal) = arr2 X2)
    (h6 : (m ((c : Thread nD τ).loc main_arg6) : S768x512.Idx → EReal) = arr2 A1)
    (h7 : (m ((c : Thread nD τ).loc main_arg7) : S512.Idx → EReal) = arr1 a1)
    (h8 : (m ((c : Thread nD τ).loc main_arg8) : S512x128.Idx → EReal) = arr2 A2)
    (h9 : (m ((c : Thread nD τ).loc main_arg9) : S128.Idx → EReal) = arr1 a2)
    (h10 : (m ((c : Thread nD τ).loc main_arg10) : S384x512.Idx → EReal) = arr2 P1)
    (h11 : (m ((c : Thread nD τ).loc main_arg11) : S512.Idx → EReal) = arr1 pb1)
    (h12 : (m ((c : Thread nD τ).loc main_arg12) : S512x128.Idx → EReal) = arr2 P2)
    (h13 : (m ((c : Thread nD τ).loc main_arg13) : S128.Idx → EReal) = arr1 pb2) :
    (Hand.W7 (F := Ideal) m ρ c (Proc.devRef .tc main_v27) : S256x128.Idx → EReal)
      = Cert.ReferenceIdeal.ReadP.val_main_v82 (F := Ideal) (arr2 X1) (arr2 A1) (arr1 a1) (arr2 A2) (arr1 a2)
          (arr2 P1) (arr1 pb1) (arr2 P2) (arr1 pb2) := by
  rw [Cert.RefIntra.ref_intra1]
  refine ext2 fun a d => ?_
  rw [W7_eq, KHostMid.mid_v27_apply, v25_exit m ρ c X1 X2 A1 a1 A2 a2 P1 pb1 P2 pb2 h0 h1 h6 h7 h8 h9 h10 h11 h12 h13,
    arr3_ix3, arr2_ix2, stack_zero]
  exact congrArg (fun t : ℝ => (t : EReal)) (intraKer_eq_intraRef X1 A1 a1 A2 a2 P1 pb1 P2 pb2 a d)

/-- **The second graph's edge messages at the second call's entry are the reference's.** -/
theorem intra2_eq
    (h0 : (m ((c : Thread nD τ).loc main_arg0) : S256x128.Idx → EReal) = arr2 X1)
    (h1 : (m ((c : Thread nD τ).loc main_arg1) : S256x128.Idx → EReal) = arr2 X2)
    (h6 : (m ((c : Thread nD τ).loc main_arg6) : S768x512.Idx → EReal) = arr2 A1)
    (h7 : (m ((c : Thread nD τ).loc main_arg7) : S512.Idx → EReal) = arr1 a1)
    (h8 : (m ((c : Thread nD τ).loc main_arg8) : S512x128.Idx → EReal) = arr2 A2)
    (h9 : (m ((c : Thread nD τ).loc main_arg9) : S128.Idx → EReal) = arr1 a2)
    (h10 : (m ((c : Thread nD τ).loc main_arg10) : S384x512.Idx → EReal) = arr2 P1)
    (h11 : (m ((c : Thread nD τ).loc main_arg11) : S512.Idx → EReal) = arr1 pb1)
    (h12 : (m ((c : Thread nD τ).loc main_arg12) : S512x128.Idx → EReal) = arr2 P2)
    (h13 : (m ((c : Thread nD τ).loc main_arg13) : S128.Idx → EReal) = arr1 pb2) :
    (Hand.W7 (F := Ideal) m ρ c (Proc.devRef .tc main_v29) : S256x128.Idx → EReal)
      = Cert.ReferenceIdeal.ReadP.val_main_v101 (F := Ideal) (arr2 X2) (arr2 A1) (arr1 a1) (arr2 A2) (arr1 a2)
          (arr2 P1) (arr1 pb1) (arr2 P2) (arr1 pb2) := by
  rw [Cert.RefIntra.ref_intra2]
  refine ext2 fun a d => ?_
  rw [W7_eq, KHostMid.mid_v29_apply, v25_exit m ρ c X1 X2 A1 a1 A2 a2 P1 pb1 P2 pb2 h0 h1 h6 h7 h8 h9 h10 h11 h12 h13,
    arr3_ix3, arr2_ix2, stack_one]
  exact congrArg (fun t : ℝ => (t : EReal)) (intraKer_eq_intraRef X2 A1 a1 A2 a2 P1 pb1 P2 pb2 a d)

end Cert.KernelIdeal.Bridge

end
-- ==== Proof.PayCross.lean ====
/-
  The cross-graph kernel's stored block, entry by entry, over the extended reals.

  The block is computed from three real arrays: a (32 × 128), b (256 × 128) and a divisor den (32 × 128) that is
  nowhere zero.  Entry (r, d) of the result is ((Σ_j b j d · exp (a r d · b j d)) · (1/256)) / den r d: the two
  operands are spread over a common 32 × 256 × 128 grid, multiplied, exponentiated, multiplied by b again, summed
  along the middle axis, scaled by the constant 1/256 and divided by the divisor.  Every intermediate value is a
  real number, so the extended-real operations agree with the real ones.
-/
import proofs.«418941_j65867618451820_3_alg».proof.Proof.Gen.KernelIdeal.Skeleton
import proofs.«418941_j65867618451820_3_alg».proof.Proof.Arr
import proofs.«418941_j65867618451820_3_alg».proof.Proof.LibERealCoe
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayCross

open Idealize.ShloMosaic Idealize.ShloMosaic.ValueIdx Cert.KernelIdeal Cert.KernelIdeal.Gen GraphMatch

/-! ## Layout operations read at coordinates -/

section Layout

variable {α : Type}

/-- An [a, b] array recast to [a, 1, b] reads, at (i, u, j), the operand at (i, j): the row-major position
    (i · 1 + u) · b + j is i · b + j because u = 0. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array spread to [a, c, b] reads, at (i, k, j), the operand at (i, 0, j). -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, c, b] array spread to [a, c, b] reads, at (i, k, j), the operand at (0, k, j). -/
theorem broadcastTo_1cb_acb_apply {a b c : ℕ} (v : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

end Layout

/-- The sum along the middle axis of an [a, c, b] array of extended reals, started from the zero word, reads at
    (i, j) the sum over k of the entries (i, k, j). -/
theorem laneSum_apply {a c b : ℕ} (src : FVec Ideal ⟨3, ![a, c, b]⟩ .f32)
    (h : Shape.Reduces ⟨3, ![a, c, b]⟩ [1] ⟨2, ![a, b]⟩) (hφ : FKind.Formats .f32)
    (hacc : (0x00000000#32 : BitVec 32) = 0x00000000#32) (i : Fin a) (j : Fin b) :
    multiReduction .add [1] ⟨2, ![a, b]⟩ src 0x00000000#32 h hφ hacc (ix2 i j) = ∑ k : Fin c, src (ix3 i k j) := by
  refine (Ideal.multiReduction_add_single src 0x00000000#32 h hφ hacc (ix2 i j)).trans ?_
  refine Finset.sum_congr rfl fun k _ => congrArg src ?_
  funext ax
  match ax with
  | ⟨0, _⟩ => rfl
  | ⟨1, _⟩ => rfl
  | ⟨2, _⟩ => rfl

/-! ## The stored block -/

/-- Entry (u, r, d) of the block over arbitrary extended-real operands: the operands are read at their own
    coordinates, multiplied, exponentiated, multiplied again, summed over the 256 middle coordinates, scaled by
    the constant and divided. -/
theorem pay1_apply (v0 : FVec Ideal S1x32x128 .f32) (v2 : FVec Ideal S1x256x128 .f32) (v4 : FVec Ideal S1x32x128 .f32)
    (u : Fin 1) (r : Fin 32) (d : Fin 128) :
    k1_pay1 (F := Ideal) v0 v2 v4 (ix3 u r d)
      = Ideal.div
          ((∑ j : Fin 256, v2 (ix3 (0 : Fin 1) j d)
              * Ideal.exp (v0 (ix3 (0 : Fin 1) r d) * v2 (ix3 (0 : Fin 1) j d)))
            * Ideal.ofBits .f32 0x3B800000#32)
          (v4 (ix3 (0 : Fin 1) r d)) := by
  unfold k1_pay1
  rw [shapeCast_ab_1ab_apply, divf_apply, mulf_apply, broadcast_apply, shapeCast_1ab_ab_apply]
  refine congrArg₂ Ideal.div (congrArg₂ (· * ·) ?_ rfl) rfl
  refine (laneSum_apply _ _ _ _ r d).trans ?_
  refine Finset.sum_congr rfl fun j _ => ?_
  rw [mulf_apply, broadcastTo_1cb_acb_apply, shapeCast_ab_1ab_apply, shapeCast_1ab_ab_apply]
  refine congrArg₂ (· * ·) rfl ?_
  show Ideal.exp _ = _
  refine congrArg Ideal.exp ?_
  rw [mulf_apply, broadcastTo_a1b_acb_apply, broadcastTo_1cb_acb_apply, shapeCast_ab_a1b_apply,
    shapeCast_1ab_ab_apply, shapeCast_ab_1ab_apply, shapeCast_1ab_ab_apply]

/-- The block at real operands: entry (r, d) is the real number
    ((Σ_j b j d · exp (a r d · b j d)) · (1/256)) / den r d, the divisor being nonzero. -/
theorem pay1_eq (a : Fin 32 → Fin 128 → ℝ) (b : Fin 256 → Fin 128 → ℝ) (den : Fin 32 → Fin 128 → ℝ)
    (hden : ∀ r d, den r d ≠ 0) :
    k1_pay1 (F := Ideal) (GraphMatch.arr3 fun (_ : Fin 1) r d => a r d) (GraphMatch.arr3 fun (_ : Fin 1) j d => b j d)
        (GraphMatch.arr3 fun (_ : Fin 1) r d => den r d)
      = GraphMatch.arr3 fun (_ : Fin 1) r d =>
          ((∑ j : Fin 256, b j d * Real.exp (a r d * b j d)) * (1 / 256)) / den r d := by
  refine GraphMatch.ext3 fun u r d => ?_
  rw [pay1_apply, arr3_ix3]
  simp only [arr3_ix3]
  have hterm : ∀ j : Fin 256, ((b j d : ℝ) : EReal) * Ideal.exp (((a r d : ℝ) : EReal) * ((b j d : ℝ) : EReal))
      = ((b j d * Real.exp (a r d * b j d) : ℝ) : EReal) := fun j => by
    rw [← EReal.coe_mul, ERealCoe.exp_coe, ← EReal.coe_mul]
  rw [Finset.sum_congr rfl fun j _ => hterm j, ERealCoe.coe_sum, ERealCoe.ofBits_inv256, ← EReal.coe_mul,
    ERealCoe.div_coe _ _ (hden r d)]

end Cert.KernelIdeal.PayCross

end
-- ==== Proof.CrossArr.lean ====
/- From blocks to the array, for the cross-graph stage over the extended reals: when the three operand arrays are
   real (the first graph stack A, the second B, and the divisors A g i d · Σ_j B g j d, nowhere zero), every grid
   point (g, k) writes rows 32k … 32k + 31 of graph g of the fused cross-graph function, and the sixteen blocks
   tile the output, which therefore ends holding that function. -/
import proofs.«418941_j65867618451820_3_alg».proof.Proof.Reg1
import proofs.«418941_j65867618451820_3_alg».proof.Proof.PayCross
import proofs.«418941_j65867618451820_3_alg».proof.Proof.Spec
import proofs.«418941_j65867618451820_3_alg».proof.Proof.Arr
import Idealize.ShloMosaic.Lib.Pipeline.Value
import Idealize.ShloMosaic.Lib.ValueIdx
import Idealize.ShloMosaic.Lib.Tactic

noncomputable section

namespace Cert.KernelIdeal.CrossArr

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open GraphMatch

variable (V : (c : Dev nD) → (b : Ref sig .tc) → Buf (Elt Ideal) ((c : Thread nD τ).loc b))
variable (A B : Fin 2 → Fin 256 → Fin 128 → ℝ)

/-! ## The grid: point t is (graph t / 8, row tile t % 8) -/

theorem lt16 (t : Fin cfg1.N) : t.val < 16 := lt_of_lt_of_eq t.isLt N_1

/-- The graph a grid point works on. -/
def graphOf (t : Fin cfg1.N) : Fin 2 := ⟨t.val / 8, by have := lt16 t; omega⟩

/-- Row r of a grid point's tile, as a row of the graph. -/
def rowOf (t : Fin cfg1.N) (r : Fin 32) : Fin 256 := ⟨32 * (t.val % 8) + r.val, by have := r.isLt; omega⟩

/-- The four windows' block indices at every grid point, decided over the sixteen points: the two tiled operands
    and the output sit at (t / 8, t % 8, 0), the whole-graph operand at (t / 8, 0, 0). -/
theorem index_facts : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = 0 ∧ win1_1.index t (2 : Fin 3) = 0)
    ∧ (win1_2.index t (0 : Fin 3) = t.val / 8 ∧ win1_2.index t (1 : Fin 3) = t.val % 8 ∧ win1_2.index t (2 : Fin 3) = 0)
    ∧ (win1_3.index t (0 : Fin 3) = t.val / 8 ∧ win1_3.index t (1 : Fin 3) = t.val % 8 ∧ win1_3.index t (2 : Fin 3) = 0) :=
  (by decide +kernel : ∀ t : Fin grid1.N, _)

/-! ## The operand blocks, entry by entry -/

/-- An entry of the first operand's tile is the array's entry in graph t / 8, row 32 (t % 8) + the tile's row. -/
theorem tile0_apply (c : Dev nD) (t : Fin cfg1.N) (x : S1x32x128.Idx) (k : S2x256x128.Idx)
    (hk0 : (k 0).val = t.val / 8) (hk1 : (k 1).val = 32 * (t.val % 8) + (x 1).val) (hk2 : (k 2).val = (x 2).val) :
    (iblk1 V c 0 t : Vec Ideal S1x32x128 .f32) x = (V c main_v52 : S2x256x128.Idx → EReal) k := by
  obtain ⟨⟨e0, e1, e2⟩, -, -, -⟩ := index_facts t
  have hx0 : (x 0).val < 1 := (x 0).isLt
  unfold iblk1
  rw [View.read_apply]
  show V c main_v52 _ = V c main_v52 _
  congr 1
  funext a
  apply Fin.ext
  match a with
  | ⟨0, _⟩ => show win1_0.index t (0 : Fin 3) * 1 + 1 * (x 0).val = (k 0).val; omega
  | ⟨1, _⟩ => show win1_0.index t (1 : Fin 3) * 32 + 1 * (x 1).val = (k 1).val; omega
  | ⟨2, _⟩ => show win1_0.index t (2 : Fin 3) * 128 + 1 * (x 2).val = (k 2).val; omega

/-- An entry of the second operand's block is the array's entry in graph t / 8 at the same row. -/
theorem slab_apply (c : Dev nD) (t : Fin cfg1.N) (x : S1x256x128.Idx) (k : S2x256x128.Idx)
    (hk0 : (k 0).val = t.val / 8) (hk1 : (k 1).val = (x 1).val) (hk2 : (k 2).val = (x 2).val) :
    (iblk1 V c 1 t : Vec Ideal S1x256x128 .f32) x = (V c main_v55 : S2x256x128.Idx → EReal) k := by
  obtain ⟨-, ⟨e0, e1, e2⟩, -, -⟩ := index_facts t
  have hx0 : (x 0).val < 1 := (x 0).isLt
  unfold iblk1
  rw [View.read_apply]
  show V c main_v55 _ = V c main_v55 _
  congr 1
  funext a
  apply Fin.ext
  match a with
  | ⟨0, _⟩ => show win1_1.index t (0 : Fin 3) * 1 + 1 * (x 0).val = (k 0).val; omega
  | ⟨1, _⟩ => show win1_1.index t (1 : Fin 3) * 256 + 1 * (x 1).val = (k 1).val; omega
  | ⟨2, _⟩ => show win1_1.index t (2 : Fin 3) * 128 + 1 * (x 2).val = (k 2).val; omega

/-- An entry of the divisors' tile is the array's entry in graph t / 8, row 32 (t % 8) + the tile's row. -/
theorem tile2_apply (c : Dev nD) (t : Fin cfg1.N) (x : S1x32x128.Idx) (k : S2x256x128.Idx)
    (hk0 : (k 0).val = t.val / 8) (hk1 : (k 1).val = 32 * (t.val % 8) + (x 1).val) (hk2 : (k 2).val = (x 2).val) :
    (iblk1 V c 2 t : Vec Ideal S1x32x128 .f32) x = (V c main_v61 : S2x256x128.Idx → EReal) k := by
  obtain ⟨-, -, ⟨e0, e1, e2⟩, -⟩ := index_facts t
  have hx0 : (x 0).val < 1 := (x 0).isLt
  unfold iblk1
  rw [View.read_apply]
  show V c main_v61 _ = V c main_v61 _
  congr 1
  funext a
  apply Fin.ext
  match a with
  | ⟨0, _⟩ => show win1_2.index t (0 : Fin 3) * 1 + 1 * (x 0).val = (k 0).val; omega
  | ⟨1, _⟩ => show win1_2.index t (1 : Fin 3) * 32 + 1 * (x 1).val = (k 1).val; omega
  | ⟨2, _⟩ => show win1_2.index t (2 : Fin 3) * 128 + 1 * (x 2).val = (k 2).val; omega

/-! ## The operand blocks of real arrays -/

/-- The first operand's tile at point t, when the array is the real stack A: rows 32 (t % 8) … of graph t / 8. -/
theorem tile0_eq (c : Dev nD) (t : Fin cfg1.N) (h52 : (V c main_v52 : S2x256x128.Idx → EReal) = arr3 A) :
    (iblk1 V c 0 t : Vec Ideal S1x32x128 .f32) = arr3 fun (_ : Fin 1) r d => A (graphOf t) (rowOf t r) d := by
  refine ext3 fun u r d => ?_
  rw [tile0_apply V c t (ix3 u r d) (ix3 (graphOf t) (rowOf t r) d) rfl rfl rfl, h52, arr3_ix3, arr3_ix3]

/-- The second operand's block at point t, when the array is the real stack B: all of graph t / 8. -/
theorem slab_eq (c : Dev nD) (t : Fin cfg1.N) (h55 : (V c main_v55 : S2x256x128.Idx → EReal) = arr3 B) :
    (iblk1 V c 1 t : Vec Ideal S1x256x128 .f32) = arr3 fun (_ : Fin 1) j d => B (graphOf t) j d := by
  refine ext3 fun u j d => ?_
  rw [slab_apply V c t (ix3 u j d) (ix3 (graphOf t) j d) rfl rfl rfl, h55, arr3_ix3, arr3_ix3]

/-- The divisors' tile at point t, when the array is A g i d · Σ_j B g j d. -/
theorem tile2_eq (c : Dev nD) (t : Fin cfg1.N)
    (h61 : (V c main_v61 : S2x256x128.Idx → EReal) = arr3 fun g i d => A g i d * ∑ j : Fin 256, B g j d) :
    (iblk1 V c 2 t : Vec Ideal S1x32x128 .f32)
      = arr3 fun (_ : Fin 1) r d => A (graphOf t) (rowOf t r) d * ∑ j : Fin 256, B (graphOf t) j d := by
  refine ext3 fun u r d => ?_
  rw [tile2_apply V c t (ix3 u r d) (ix3 (graphOf t) (rowOf t r) d) rfl rfl rfl, h61, arr3_ix3, arr3_ix3]

/-! ## What a grid point writes back -/

/-- The fused cross-graph function of the two real stacks, as an array over the extended reals. -/
abbrev crossArr : S2x256x128.Idx → EReal := arr3 fun (g : Fin 2) i d => crossKer (A g) (B g) i d

/-- Where an entry of the output block at point t sits in the output array. -/
theorem out_emb (t : Fin cfg1.N) (j : S1x32x128.Idx) :
    (((cfg1.win 3).blk t).view.emb j : S2x256x128.Idx) = ix3 (graphOf t) (rowOf t (j 1)) (j 2) := by
  obtain ⟨-, -, -, ⟨e0, e1, e2⟩⟩ := index_facts t
  have hj0 : (j 0).val < 1 := (j 0).isLt
  funext a
  apply Fin.ext
  match a with
  | ⟨0, _⟩ => show win1_3.index t (0 : Fin 3) * 1 + 1 * (j 0).val = t.val / 8; omega
  | ⟨1, _⟩ => show win1_3.index t (1 : Fin 3) * 32 + 1 * (j 1).val = 32 * (t.val % 8) + (j 1).val; omega
  | ⟨2, _⟩ => show win1_3.index t (2 : Fin 3) * 128 + 1 * (j 2).val = (j 2).val; omega

/-- Point t writes back block t of the fused cross-graph function. -/
theorem flushed_eq (c : Dev nD) (t : Fin cfg1.N)
    (h52 : (V c main_v52 : S2x256x128.Idx → EReal) = arr3 A)
    (h55 : (V c main_v55 : S2x256x128.Idx → EReal) = arr3 B)
    (h61 : (V c main_v61 : S2x256x128.Idx → EReal) = arr3 fun g i d => A g i d * ∑ j : Fin 256, B g j d)
    (hden : ∀ g i d, A g i d * ∑ j : Fin 256, B g j d ≠ 0) :
    (dat1 V c).flushed 3 t = ((cfg1.win 3).blk t).view.read (Elt Ideal) (crossArr A B) := by
  show (cfg1.win 3).cut (grid1.coords t) ((dat1 V c).after 3 t) = _
  rw [after1_3, tile0_eq V A c t h52, slab_eq V B c t h55, tile2_eq V A B c t h61,
    PayCross.pay1_eq (fun r d => A (graphOf t) (rowOf t r) d) (fun j d => B (graphOf t) j d)
      (fun r d => A (graphOf t) (rowOf t r) d * ∑ j : Fin 256, B (graphOf t) j d) (fun r d => hden _ _ _)]
  funext (j : S1x32x128.Idx)
  obtain ⟨u, r, d, rfl⟩ : ∃ u r d, j = ix3 u r d := ⟨j 0, j 1, j 2, eq_ix3 j⟩
  rw [View.read_apply, out_emb t]
  rfl

/-! ## The sixteen blocks tile the output -/

/-- An entry of the output array is in point t's block iff each coordinate is in the block's range on its axis. -/
theorem mem_out_blk (t : Fin cfg1.N) (i : S2x256x128.Idx) :
    i ∈ ((cfg1.win 3).blk t).view.set ↔ ∀ a : Fin 3, win1_3.index t a * S1x32x128.size a ≤ (i a).val
      ∧ (i a).val < win1_3.index t a * S1x32x128.size a + S1x32x128.size a := by
  show i ∈ ((View.whole main_v62).slice (win1_3.rect t)).set ↔ _
  rw [View.set_slice_whole, Rect.mem_set_unit]
  exact Iff.rfl

/-- Entry (g, i, d) of the output is written by the grid point 8 g + i / 32. -/
theorem out_cover (i : S2x256x128.Idx) :
    ∃ t : Fin cfg1.N, (cfg1.win 3).flush t = true ∧ i ∈ ((cfg1.win 3).blk t).view.set := by
  have h0 : (i 0).val < 2 := (i 0).isLt
  have h1 : (i 1).val < 256 := (i 1).isLt
  have h2 : (i 2).val < 128 := (i 2).isLt
  obtain ⟨t, ht⟩ : ∃ t : Fin cfg1.N, t.val = 8 * (i 0).val + (i 1).val / 32 :=
    ⟨⟨8 * (i 0).val + (i 1).val / 32, lt_of_lt_of_eq (by omega : 8 * (i 0).val + (i 1).val / 32 < 16) N_1.symm⟩, rfl⟩
  obtain ⟨-, -, -, ⟨e0, e1, e2⟩⟩ := index_facts t
  refine ⟨t, flush1_3 t, ?_⟩
  rw [mem_out_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 32 ≤ (i 1).val ∧ (i 1).val < win1_3.index t (1 : Fin 3) * 32 + 32
    omega
  | ⟨2, _⟩ =>
    show win1_3.index t (2 : Fin 3) * 128 ≤ (i 2).val ∧ (i 2).val < win1_3.index t (2 : Fin 3) * 128 + 128
    omega

/-! ## The output array -/

/-- After the pipeline the output array holds the fused cross-graph function of the two real stacks. -/
theorem cross_arr (c : Dev nD)
    (h52 : (V c main_v52 : S2x256x128.Idx → EReal) = arr3 A)
    (h55 : (V c main_v55 : S2x256x128.Idx → EReal) = arr3 B)
    (h61 : (V c main_v61 : S2x256x128.Idx → EReal) = arr3 fun g i d => A g i d * ∑ j : Fin 256, B g j d)
    (hden : ∀ g i d, A g i d * ∑ j : Fin 256, B g j d ≠ 0) :
    (dat1 V c).arrAt 3 cfg1.N = arr3 fun (g : Fin 2) i d => crossKer (A g) (B g) i d :=
  (dat1 V c).arrAt_eq_of_cover 3 (crossArr A B) (fun t _ => flushed_eq V A B c t h52 h55 h61 hden) out_cover

end Cert.KernelIdeal.CrossArr

end
-- ==== Proof.RefCross.lean ====
/-
  The reference's cross-graph stage read at an index: with the two node embeddings real matrices a and b and
  every divisor Σ_j a i d · b j d nonzero, the stage is the real matrix
  (Σ_j b j d · (exp (a i d · b j d) / Σ_j a i d · b j d)) / 256, and likewise with the roles of a and b exchanged.
-/
import proofs.«418941_j65867618451820_3_alg».proof.Proof.RefRead
import proofs.«418941_j65867618451820_3_alg».proof.Proof.Spec
import proofs.«418941_j65867618451820_3_alg».proof.Proof.Arr
import proofs.«418941_j65867618451820_3_alg».proof.Proof.LibERealCoe

noncomputable section

namespace Cert.RefCross

open GraphMatch GraphMatch.ERealCoe Idealize.ShloMosaic Idealize.ShloMosaic.ValueIdx
open Cert.ReferenceIdeal Cert.ReferenceIdeal.ReadP

/-- One entry of the stage over real data: zero plus the sum over j of b j times the quotient of exp (a · b j) by
    (zero plus the sum of the products a · b j'), the whole divided by 256, is the real expression. -/
theorem cross_entry (a : ℝ) (b : Fin 256 → ℝ) (hden : (∑ j : Fin 256, a * b j) ≠ 0) :
    Ideal.div
        (Ideal.ofBits .f32 0x00000000#32 +
          ∑ k : Fin 256, ((b k : ℝ) : EReal) *
            Ideal.div (Ideal.exp (((a : ℝ) : EReal) * ((b k : ℝ) : EReal)))
              (Ideal.ofBits .f32 0x00000000#32 + ∑ k' : Fin 256, ((a : ℝ) : EReal) * ((b k' : ℝ) : EReal)))
        (Ideal.ofBits .f32 0x43800000#32)
      = (((∑ j : Fin 256, b j * (Real.exp (a * b j) / (∑ j : Fin 256, a * b j))) / 256 : ℝ) : EReal) := by
  have hs : (Ideal.ofBits .f32 0x00000000#32 + ∑ k' : Fin 256, ((a : ℝ) : EReal) * ((b k' : ℝ) : EReal))
      = ((∑ j : Fin 256, a * b j : ℝ) : EReal) := by
    rw [ofBits_zero]
    simp only [← EReal.coe_mul]
    rw [coe_sum, ← EReal.coe_add, zero_add]
  rw [hs]
  have ht : ∀ k : Fin 256, ((b k : ℝ) : EReal) *
      Ideal.div (Ideal.exp (((a : ℝ) : EReal) * ((b k : ℝ) : EReal))) ((∑ j : Fin 256, a * b j : ℝ) : EReal)
      = ((b k * (Real.exp (a * b k) / (∑ j : Fin 256, a * b j)) : ℝ) : EReal) := by
    intro k
    rw [← EReal.coe_mul, exp_coe, div_coe _ _ hden, ← EReal.coe_mul]
  simp only [ht]
  rw [coe_sum, ofBits_zero, ← EReal.coe_add, zero_add, ofBits_256, div_coe _ _ (by norm_num)]

/-- The first cross-graph stage of the reference is the real matrix of the specification. -/
theorem ref_cross1 (x0 x1 : (⟨S256x128, .f32⟩ : BufTy).Contents (Elt Ideal))
    (x2 : (⟨S128x512, .f32⟩ : BufTy).Contents (Elt Ideal)) (x3 : (⟨S512, .f32⟩ : BufTy).Contents (Elt Ideal))
    (x4 : (⟨S512x128, .f32⟩ : BufTy).Contents (Elt Ideal)) (x5 : (⟨S128, .f32⟩ : BufTy).Contents (Elt Ideal))
    (a b : Fin 256 → Fin 128 → ℝ)
    (ha : val_main_v8 (F := Ideal) x0 x2 x3 x4 x5 = arr2 a)
    (hb : val_main_v17 (F := Ideal) x1 x2 x3 x4 x5 = arr2 b)
    (hden : ∀ i d, crossDen a b i d ≠ 0) :
    val_main_v117 (F := Ideal) x0 x1 x2 x3 x4 x5 = arr2 (crossRef a b) := by
  refine ext2 (r := 256) (c := 128) fun i d => ?_
  rw [arr2_ix2]
  simp only [val_main_v117_apply, val_main_v115_apply, val_main_v116_apply, val_main_cst_6_apply,
    val_main_cst_5_apply, val_main_v114_apply, val_main_v113_apply, val_main_v112_apply, val_main_v111_apply,
    val_main_v107_apply, val_main_v110_apply, val_main_v109_apply, val_main_v108_apply, val_main_cst_4_apply,
    val_main_v106_apply, val_main_v104_apply, val_main_v105_apply, val_main_v102_apply, val_main_v103_apply]
  have e1 : ∀ k : Fin 256, idx_main_v112 (idx_main_v113 (idx_main_v115 (ix2 i d) k)) = ix2 k d := fun k =>
    funext fun t => Fin.ext (by match t with | ⟨0, _⟩ => rfl | ⟨1, _⟩ => rfl)
  have e2 : ∀ k : Fin 256, idx_main_v102 (idx_main_v104 (idx_main_v115 (ix2 i d) k)) = ix2 i d := fun k =>
    funext fun t => Fin.ext (by match t with | ⟨0, _⟩ => rfl | ⟨1, _⟩ => rfl)
  have e3 : ∀ k : Fin 256, idx_main_v103 (idx_main_v105 (idx_main_v115 (ix2 i d) k)) = ix2 k d := fun k =>
    funext fun t => Fin.ext (by match t with | ⟨0, _⟩ => rfl | ⟨1, _⟩ => rfl)
  have e4 : ∀ k k' : Fin 256, idx_main_v102 (idx_main_v104 (idx_main_v108 (idx_main_v109 (idx_main_v110 (idx_main_v115 (ix2 i d) k))) k'))
      = ix2 i d := fun k k' =>
    funext fun t => Fin.ext (by match t with | ⟨0, _⟩ => rfl | ⟨1, _⟩ => rfl)
  have e5 : ∀ k k' : Fin 256, idx_main_v103 (idx_main_v105 (idx_main_v108 (idx_main_v109 (idx_main_v110 (idx_main_v115 (ix2 i d) k))) k'))
      = ix2 k' d := fun k k' =>
    funext fun t => Fin.ext (by match t with | ⟨0, _⟩ => rfl | ⟨1, _⟩ => rfl)
  simp only [e1, e2, e3, e4, e5, ha, hb, arr2_ix2, Ideal.hostDivf_def, Ideal.mulf_def, Ideal.hostUnary_exp_def,
    Ideal.ofBits_def]
  exact cross_entry (a i d) (fun k => b k d) (hden i d)

/-- The second cross-graph stage of the reference: the same reading with the two embeddings exchanged. -/
theorem ref_cross2 (x0 x1 : (⟨S256x128, .f32⟩ : BufTy).Contents (Elt Ideal))
    (x2 : (⟨S128x512, .f32⟩ : BufTy).Contents (Elt Ideal)) (x3 : (⟨S512, .f32⟩ : BufTy).Contents (Elt Ideal))
    (x4 : (⟨S512x128, .f32⟩ : BufTy).Contents (Elt Ideal)) (x5 : (⟨S128, .f32⟩ : BufTy).Contents (Elt Ideal))
    (a b : Fin 256 → Fin 128 → ℝ)
    (ha : val_main_v8 (F := Ideal) x0 x2 x3 x4 x5 = arr2 a)
    (hb : val_main_v17 (F := Ideal) x1 x2 x3 x4 x5 = arr2 b)
    (hden : ∀ i d, crossDen b a i d ≠ 0) :
    val_main_v133 (F := Ideal) x0 x1 x2 x3 x4 x5 = arr2 (crossRef b a) := by
  refine ext2 (r := 256) (c := 128) fun i d => ?_
  rw [arr2_ix2]
  simp only [val_main_v133_apply, val_main_v131_apply, val_main_v132_apply, val_main_cst_9_apply,
    val_main_cst_8_apply, val_main_v130_apply, val_main_v129_apply, val_main_v128_apply, val_main_v127_apply,
    val_main_v123_apply, val_main_v126_apply, val_main_v125_apply, val_main_v124_apply, val_main_cst_7_apply,
    val_main_v122_apply, val_main_v120_apply, val_main_v121_apply, val_main_v118_apply, val_main_v119_apply]
  have e1 : ∀ k : Fin 256, idx_main_v128 (idx_main_v129 (idx_main_v131 (ix2 i d) k)) = ix2 k d := fun k =>
    funext fun t => Fin.ext (by match t with | ⟨0, _⟩ => rfl | ⟨1, _⟩ => rfl)
  have e2 : ∀ k : Fin 256, idx_main_v118 (idx_main_v120 (idx_main_v131 (ix2 i d) k)) = ix2 i d := fun k =>
    funext fun t => Fin.ext (by match t with | ⟨0, _⟩ => rfl | ⟨1, _⟩ => rfl)
  have e3 : ∀ k : Fin 256, idx_main_v119 (idx_main_v121 (idx_main_v131 (ix2 i d) k)) = ix2 k d := fun k =>
    funext fun t => Fin.ext (by match t with | ⟨0, _⟩ => rfl | ⟨1, _⟩ => rfl)
  have e4 : ∀ k k' : Fin 256, idx_main_v118 (idx_main_v120 (idx_main_v124 (idx_main_v125 (idx_main_v126 (idx_main_v131 (ix2 i d) k))) k'))
      = ix2 i d := fun k k' =>
    funext fun t => Fin.ext (by match t with | ⟨0, _⟩ => rfl | ⟨1, _⟩ => rfl)
  have e5 : ∀ k k' : Fin 256, idx_main_v119 (idx_main_v121 (idx_main_v124 (idx_main_v125 (idx_main_v126 (idx_main_v131 (ix2 i d) k))) k'))
      = ix2 k' d := fun k k' =>
    funext fun t => Fin.ext (by match t with | ⟨0, _⟩ => rfl | ⟨1, _⟩ => rfl)
  simp only [e1, e2, e3, e4, e5, ha, hb, arr2_ix2, Ideal.hostDivf_def, Ideal.mulf_def, Ideal.hostUnary_exp_def,
    Ideal.ofBits_def]
  exact cross_entry (b i d) (fun k => a k d) (hden i d)

end Cert.RefCross

end
-- ==== Proof.AlgCross.lean ====
/-
  The cross-graph stage: the fused form equals the reference form wherever the divisor is not zero.
-/
import proofs.«418941_j65867618451820_3_alg».proof.Proof.Spec
import Mathlib.Algebra.BigOperators.Field

noncomputable section

namespace GraphMatch

open Finset

/-- The divisor factors: the sum over j of a i d · b j d is a i d times the sum over j of b j d. -/
theorem crossDen_eq (a b : Fin 256 → Fin 128 → ℝ) (i : Fin 256) (d : Fin 128) :
    crossDen a b i d = a i d * ∑ j : Fin 256, b j d := by
  unfold crossDen
  rw [Finset.mul_sum]

/-- With a nonzero divisor s, the fused form ((Σ_j b_j · exp(a b_j)) · (1/256)) / s equals the mean over j
    of b_j · (exp(a b_j) / s): the common factor 1 / s moves out of the sum. -/
theorem crossKer_eq_crossRef (a b : Fin 256 → Fin 128 → ℝ) (i : Fin 256) (d : Fin 128)
    (h : crossDen a b i d ≠ 0) : crossKer a b i d = crossRef a b i d := by
  unfold crossKer crossRef
  rw [← crossDen_eq]
  have hsum : (∑ j : Fin 256, b j d * (Real.exp (a i d * b j d) / crossDen a b i d))
      = (∑ j : Fin 256, b j d * Real.exp (a i d * b j d)) / crossDen a b i d := by
    rw [Finset.sum_div]
    exact Finset.sum_congr rfl fun j _ => by rw [mul_div_assoc]
  rw [hsum, mul_one_div, div_right_comm]

end GraphMatch

end
-- ==== Proof.BridgeCross.lean ====
/- The cross-graph half of the bridge over the extended reals: when the two graphs' node features and the
   node-embedding weights are real and the two cross-graph divisors are nowhere zero, the two slices of the second
   pipelined call's stacked result are the reference's two cross-graph stages, and the two node embeddings the
   wrapper computes between the calls are the reference's. -/
import proofs.«418941_j65867618451820_3_alg».proof.Proof.RunDefs
import proofs.«418941_j65867618451820_3_alg».proof.Proof.CrossArr
import proofs.«418941_j65867618451820_3_alg».proof.Proof.KHostPre
import proofs.«418941_j65867618451820_3_alg».proof.Proof.KHostMid
import proofs.«418941_j65867618451820_3_alg».proof.Proof.EmbReal
import proofs.«418941_j65867618451820_3_alg».proof.Proof.RefCross
import proofs.«418941_j65867618451820_3_alg».proof.Proof.AlgCross
import proofs.«418941_j65867618451820_3_alg».proof.Proof.Spec
import proofs.«418941_j65867618451820_3_alg».proof.Proof.Arr
import Idealize.ShloMosaic.Lib.StableHlo.Run
import Idealize.ShloMosaic.Lib.Pipeline.Frame
import Idealize.ShloMosaic.Lib.Pipeline.Value
import Idealize.ShloMosaic.Lib.ValueIdx

noncomputable section

namespace Cert.KernelIdeal.Bridge

open Cert.KernelIdeal Cert.KernelIdeal.Gen Cert.KernelIdeal.Hand GraphMatch
open Idealize.ShloMosaic Idealize.ShloMosaic.TcCoe Idealize.SL.Sem Idealize.ShloMosaic.ValueIdx
open Cert.ReferenceIdeal.ReadP

/-! ## The two stackings of a pair of matrices -/

/-- A pair of matrices stacked along a new leading axis of length 2. -/
def stk (a b : Fin 256 → Fin 128 → ℝ) (g : Fin 2) (i : Fin 256) (d : Fin 128) : ℝ := if g.val = 0 then a i d else b i d

theorem stk_zero (a b : Fin 256 → Fin 128 → ℝ) : stk a b 0 = a := funext fun i => funext fun d => if_pos rfl
theorem stk_one (a b : Fin 256 → Fin 128 → ℝ) : stk a b 1 = b := funext fun i => funext fun d => if_neg (by decide)

/-- Each stacked entry times the other stack's column sum, graph by graph. -/
theorem stk_den (a b : Fin 256 → Fin 128 → ℝ) :
    (fun (g : Fin 2) (i : Fin 256) (d : Fin 128) => stk a b g i d * ∑ j : Fin 256, stk b a g j d)
      = fun g i d => if g.val = 0 then a i d * ∑ j : Fin 256, b j d else b i d * ∑ j : Fin 256, a j d := by
  funext g i d
  unfold stk
  by_cases hg : g.val = 0
  · simp only [if_pos hg]
  · simp only [if_neg hg]

/-- The stacked divisors are nowhere zero when the two cross-graph divisors are. -/
theorem stk_den_ne (a b : Fin 256 → Fin 128 → ℝ) (hab : ∀ i d, crossDen a b i d ≠ 0) (hba : ∀ i d, crossDen b a i d ≠ 0)
    (g : Fin 2) (i : Fin 256) (d : Fin 128) : stk a b g i d * ∑ j : Fin 256, stk b a g j d ≠ 0 := by
  rw [congrFun (congrFun (congrFun (stk_den a b) g) i) d]
  by_cases hg : g.val = 0
  · rw [if_pos hg, ← crossDen_eq]; exact hab i d
  · rw [if_neg hg, ← crossDen_eq]; exact hba i d

/-! ## The buffers between the two calls -/

section Fold

variable {Val : EltTy → Type}

/-- Five stretches run one after another are their concatenation run once. -/
theorem after5c (l1 l2 l3 l4 l5 : List (HloOp τ sig Val)) (W : Valuation τ sig Val) :
    StableHlo.after (l1 ++ l2 ++ l3 ++ l4 ++ l5) W
      = StableHlo.after l5 (StableHlo.after l4 (StableHlo.after l3 (StableHlo.after l2 (StableHlo.after l1 W)))) := by
  rw [StableHlo.after_append, StableHlo.after_append, StableHlo.after_append, StableHlo.after_append]

end Fold

variable (m : (ℓ : Loc nD τ sig) → Buf (Elt Ideal) ℓ) (ρ : Dev nD → PrngReg) (c : Dev nD)

/-- The second call is entered at the buffers the host operations between the calls leave from the first call's exit. -/
theorem W7_eqc : W7 m ρ c = StableHlo.after KHostMid.midOps (W2 m ρ c) :=
  (after5c hostOps1 hostOps1_1 hostOps1_2 hostOps1_3 hostOps1_4 (W2 m ρ c)).symm

/-! ## The program's arguments at the first call's exit -/

section Args

variable (X1 X2 : Fin 256 → Fin 128 → ℝ) (nw1 : Fin 128 → Fin 512 → ℝ) (nb1 : Fin 512 → ℝ)
  (nw2 : Fin 512 → Fin 128 → ℝ) (nb2 : Fin 128 → ℝ)

/-- An argument of the program is untouched by the host operations before the first call and by the first call. -/
theorem W2_arg0 : W2 m ρ c (Proc.devRef .tc main_arg0) = m ((c : Thread nD τ).loc main_arg0) :=
  (W2_of_ne m ρ c main_arg0 (by decide)).trans (KHostPre.arg0_kept (W0 m ρ c))
theorem W2_arg1 : W2 m ρ c (Proc.devRef .tc main_arg1) = m ((c : Thread nD τ).loc main_arg1) :=
  (W2_of_ne m ρ c main_arg1 (by decide)).trans (KHostPre.arg1_kept (W0 m ρ c))
theorem W2_arg2 : W2 m ρ c (Proc.devRef .tc main_arg2) = m ((c : Thread nD τ).loc main_arg2) :=
  (W2_of_ne m ρ c main_arg2 (by decide)).trans (KHostPre.arg2_kept (W0 m ρ c))
theorem W2_arg3 : W2 m ρ c (Proc.devRef .tc main_arg3) = m ((c : Thread nD τ).loc main_arg3) :=
  (W2_of_ne m ρ c main_arg3 (by decide)).trans (KHostPre.arg3_kept (W0 m ρ c))
theorem W2_arg4 : W2 m ρ c (Proc.devRef .tc main_arg4) = m ((c : Thread nD τ).loc main_arg4) :=
  (W2_of_ne m ρ c main_arg4 (by decide)).trans (KHostPre.arg4_kept (W0 m ρ c))
theorem W2_arg5 : W2 m ρ c (Proc.devRef .tc main_arg5) = m ((c : Thread nD τ).loc main_arg5) :=
  (W2_of_ne m ρ c main_arg5 (by decide)).trans (KHostPre.arg5_kept (W0 m ρ c))

end Args

/-! ## The second call's entry and exit over real data -/

section Real

variable (X1 X2 : Fin 256 → Fin 128 → ℝ) (nw1 : Fin 128 → Fin 512 → ℝ) (nb1 : Fin 512 → ℝ)
  (nw2 : Fin 512 → Fin 128 → ℝ) (nb2 : Fin 128 → ℝ)
  (h0 : m ((c : Thread nD τ).loc main_arg0) = arr2 X1) (h1 : m ((c : Thread nD τ).loc main_arg1) = arr2 X2)
  (h2 : m ((c : Thread nD τ).loc main_arg2) = arr2 nw1) (h3 : m ((c : Thread nD τ).loc main_arg3) = arr1 nb1)
  (h4 : m ((c : Thread nD τ).loc main_arg4) = arr2 nw2) (h5 : m ((c : Thread nD τ).loc main_arg5) = arr1 nb2)

include h0 h2 h3 h4 h5 in
/-- The first graph's node embedding, as the second call finds it, is the reference's stage. -/
theorem W7_v38 : W7 m ρ c (Proc.devRef .tc main_v38)
    = val_main_v8 (F := Ideal) (arr2 X1) (arr2 nw1) (arr1 nb1) (arr2 nw2) (arr1 nb2) :=
  (congrFun (W7_eqc m ρ c) _).trans
    (KHostMid.mid_v38 (W2 m ρ c) _ _ _ _ _ ((W2_arg0 m ρ c).trans h0) ((W2_arg2 m ρ c).trans h2) ((W2_arg3 m ρ c).trans h3)
      ((W2_arg4 m ρ c).trans h4) ((W2_arg5 m ρ c).trans h5))

include h1 h2 h3 h4 h5 in
/-- The second graph's likewise. -/
theorem W7_v47 : W7 m ρ c (Proc.devRef .tc main_v47)
    = val_main_v17 (F := Ideal) (arr2 X2) (arr2 nw1) (arr1 nb1) (arr2 nw2) (arr1 nb2) :=
  (congrFun (W7_eqc m ρ c) _).trans
    (KHostMid.mid_v47 (W2 m ρ c) _ _ _ _ _ ((W2_arg1 m ρ c).trans h1) ((W2_arg2 m ρ c).trans h2) ((W2_arg3 m ρ c).trans h3)
      ((W2_arg4 m ρ c).trans h4) ((W2_arg5 m ρ c).trans h5))

include h0 h1 h2 h3 h4 h5 in
/-- The second call's result array: graph by graph, the fused cross-graph function of the two node embeddings, the
    first graph against the second and then the second against the first. -/
theorem W8_v62 (hd12 : ∀ i d, crossDen (mlp X1 nw1 nb1 nw2 nb2) (mlp X2 nw1 nb1 nw2 nb2) i d ≠ 0)
    (hd21 : ∀ i d, crossDen (mlp X2 nw1 nb1 nw2 nb2) (mlp X1 nw1 nb1 nw2 nb2) i d ≠ 0) :
    W8 m ρ c (Proc.devRef .tc main_v62)
      = arr3 fun (g : Fin 2) i d =>
          crossKer (stk (mlp X1 nw1 nb1 nw2 nb2) (mlp X2 nw1 nb1 nw2 nb2) g)
            (stk (mlp X2 nw1 nb1 nw2 nb2) (mlp X1 nw1 nb1 nw2 nb2) g) i d := by
  have a0 := (W2_arg0 m ρ c).trans h0
  have a1 := (W2_arg1 m ρ c).trans h1
  have a2 := (W2_arg2 m ρ c).trans h2
  have a3 := (W2_arg3 m ρ c).trans h3
  have a4 := (W2_arg4 m ρ c).trans h4
  have a5 := (W2_arg5 m ρ c).trans h5
  have ea := Cert.EmbReal.emb1_real X1 nw1 nb1 nw2 nb2
  have eb := Cert.EmbReal.emb2_real X2 nw1 nb1 nw2 nb2
  have e52 : V7 m ρ c main_v52 = arr3 (stk (mlp X1 nw1 nb1 nw2 nb2) (mlp X2 nw1 nb1 nw2 nb2)) :=
    (congrFun (W7_eqc m ρ c) _).trans (KHostMid.mid_v52 (W2 m ρ c) _ _ _ _ _ _ a0 a1 a2 a3 a4 a5 _ _ ea eb)
  have e55 : V7 m ρ c main_v55 = arr3 (stk (mlp X2 nw1 nb1 nw2 nb2) (mlp X1 nw1 nb1 nw2 nb2)) :=
    (congrFun (W7_eqc m ρ c) _).trans (KHostMid.mid_v55 (W2 m ρ c) _ _ _ _ _ _ a0 a1 a2 a3 a4 a5 _ _ ea eb)
  have e61 : V7 m ρ c main_v61 = arr3 fun g i d => stk (mlp X1 nw1 nb1 nw2 nb2) (mlp X2 nw1 nb1 nw2 nb2) g i d
      * ∑ j : Fin 256, stk (mlp X2 nw1 nb1 nw2 nb2) (mlp X1 nw1 nb1 nw2 nb2) g j d := by
    rw [stk_den]
    exact (congrFun (W7_eqc m ρ c) _).trans (KHostMid.mid_v61 (W2 m ρ c) _ _ _ _ _ _ a0 a1 a2 a3 a4 a5 _ _ ea eb)
  exact (W8_out m ρ c).trans (CrossArr.cross_arr (V7 m ρ) _ _ c e52 e55 e61 (stk_den_ne _ _ hd12 hd21))

include h0 h1 h2 h3 h4 h5 in
/-- The first slice of the second call's result, as the wrapper reads it, is the reference's first cross-graph stage. -/
theorem cross1_eq (hd12 : ∀ i d, crossDen (mlp X1 nw1 nb1 nw2 nb2) (mlp X2 nw1 nb1 nw2 nb2) i d ≠ 0)
    (hd21 : ∀ i d, crossDen (mlp X2 nw1 nb1 nw2 nb2) (mlp X1 nw1 nb1 nw2 nb2) i d ≠ 0) :
    shapeCast S256x128 (extractStridedSlice S1x256x128 ![0, 0, 0] (W8 (F := Ideal) m ρ c (Proc.devRef .tc main_v62))
        slices_S2x256x128_S1x256x128_0_0_0) shapeCasts_S1x256x128_S256x128
      = val_main_v117 (F := Ideal) (arr2 X1) (arr2 X2) (arr2 nw1) (arr1 nb1) (arr2 nw2) (arr1 nb2) := by
  rw [Cert.RefCross.ref_cross1 _ _ _ _ _ _ _ _ (Cert.EmbReal.emb1_real X1 nw1 nb1 nw2 nb2)
    (Cert.EmbReal.emb2_real X2 nw1 nb1 nw2 nb2) hd12]
  refine ext2 (r := 256) (c := 128) fun i d => ?_
  rw [KHostMid.slice0_apply, W8_v62 m ρ c X1 X2 nw1 nb1 nw2 nb2 h0 h1 h2 h3 h4 h5 hd12 hd21, arr3_ix3, arr2_ix2,
    stk_zero, stk_zero, crossKer_eq_crossRef _ _ i d (hd12 i d)]

include h0 h1 h2 h3 h4 h5 in
/-- The second slice is the reference's second cross-graph stage. -/
theorem cross2_eq (hd12 : ∀ i d, crossDen (mlp X1 nw1 nb1 nw2 nb2) (mlp X2 nw1 nb1 nw2 nb2) i d ≠ 0)
    (hd21 : ∀ i d, crossDen (mlp X2 nw1 nb1 nw2 nb2) (mlp X1 nw1 nb1 nw2 nb2) i d ≠ 0) :
    shapeCast S256x128 (extractStridedSlice S1x256x128 ![1, 0, 0] (W8 (F := Ideal) m ρ c (Proc.devRef .tc main_v62))
        slices_S2x256x128_S1x256x128_1_0_0) shapeCasts_S1x256x128_S256x128
      = val_main_v133 (F := Ideal) (arr2 X1) (arr2 X2) (arr2 nw1) (arr1 nb1) (arr2 nw2) (arr1 nb2) := by
  rw [Cert.RefCross.ref_cross2 _ _ _ _ _ _ _ _ (Cert.EmbReal.emb1_real X1 nw1 nb1 nw2 nb2)
    (Cert.EmbReal.emb2_real X2 nw1 nb1 nw2 nb2) hd21]
  refine ext2 (r := 256) (c := 128) fun i d => ?_
  rw [KHostMid.slice1_apply, W8_v62 m ρ c X1 X2 nw1 nb1 nw2 nb2 h0 h1 h2 h3 h4 h5 hd12 hd21, arr3_ix3, arr2_ix2,
    stk_one, stk_one, crossKer_eq_crossRef _ _ i d (hd21 i d)]

include h0 h2 h3 h4 h5 in
/-- The first graph's node embedding is still in place after the second call. -/
theorem emb1_eq : W8 m ρ c (Proc.devRef .tc main_v38)
    = val_main_v8 (F := Ideal) (arr2 X1) (arr2 nw1) (arr1 nb1) (arr2 nw2) (arr1 nb2) :=
  (W8_of_ne m ρ c main_v38 (by decide)).trans (W7_v38 m ρ c X1 nw1 nb1 nw2 nb2 h0 h2 h3 h4 h5)

include h1 h2 h3 h4 h5 in
/-- The second graph's likewise. -/
theorem emb2_eq : W8 m ρ c (Proc.devRef .tc main_v47)
    = val_main_v17 (F := Ideal) (arr2 X2) (arr2 nw1) (arr1 nb1) (arr2 nw2) (arr1 nb2) :=
  (W8_of_ne m ρ c main_v47 (by decide)).trans (W7_v47 m ρ c X2 nw1 nb1 nw2 nb2 h1 h2 h3 h4 h5)

end Real

end Cert.KernelIdeal.Bridge

end
-- ==== Proof.Result.lean ====
/- The value the kernel's program leaves in its result buffer, under the precondition.

   The precondition makes the fourteen inputs the computation reads arrays of reals and the divisors of the
   cross-graph stage nonzero. Over such data the first fused call leaves, graph by graph, the reference's
   intra-graph message stage (the mean over the source nodes of the two-layer message of each pair), the host
   operations before the second call the reference's node embeddings, and the second call the reference's
   cross-graph stage (the exponentially weighted mean of the other graph's embeddings over their plain weighted
   sum). The host operations after the second call are, operation for operation, the reference's remaining
   stages; so the result buffer at the return holds the reference's last stage of the launch arguments. -/
import proofs.«418941_j65867618451820_3_alg».proof.Proof.RunDefs
import proofs.«418941_j65867618451820_3_alg».proof.Proof.ArgsKept
import proofs.«418941_j65867618451820_3_alg».proof.Proof.PreReal
import proofs.«418941_j65867618451820_3_alg».proof.Proof.Tail
import proofs.«418941_j65867618451820_3_alg».proof.Proof.BridgeIntra
import proofs.«418941_j65867618451820_3_alg».proof.Proof.BridgeCross
import proofs.«418941_j65867618451820_3_alg».proof.Proof.RefRead
import proofs.«418941_j65867618451820_3_alg».proof.Proof.Spec
import proofs.«418941_j65867618451820_3_alg».proof.Proof.Arr
import Idealize.ShloMosaic.Lib.StableHlo.Run

set_option maxRecDepth 16384

noncomputable section

namespace Cert.KernelIdeal.Bridge

open Cert.KernelIdeal Cert.KernelIdeal.Gen Cert.KernelIdeal.Hand GraphMatch
open Idealize.ShloMosaic Idealize.ShloMosaic.TcCoe Idealize.SL.Sem Idealize.ShloMosaic.ValueIdx
open Cert.ReferenceIdeal.ReadP

/-- Four stretches of host operations run one after another are one stretch. -/
theorem after4 {Val : EltTy → Type} (l1 l2 l3 l4 : List (HloOp τ sig Val)) (W : Valuation τ sig Val) :
    StableHlo.after (l1 ++ l2 ++ l3 ++ l4) W
      = StableHlo.after l4 (StableHlo.after l3 (StableHlo.after l2 (StableHlo.after l1 W))) := by
  rw [StableHlo.after_append, StableHlo.after_append, StableHlo.after_append]

variable (m : (ℓ : Loc nD τ sig) → Buf (Elt Ideal) ℓ) (ρ : Dev nD → PrngReg) (c : Dev nD)

/-- The buffers at the return are the host operations after the second call, run from that call's exit. -/
theorem W12_eq : W12 m ρ c = StableHlo.after (hostOps2 ++ hostOps2_1 ++ hostOps2_2 ++ hostOps2_3) (W8 m ρ c) :=
  (after4 hostOps2 hostOps2_1 hostOps2_2 hostOps2_3 (W8 m ρ c)).symm

/-- An argument of the program holds at the second call's exit what the launch memory held: no host operation
    before it and neither call writes an argument. -/
theorem W8_of_lt (r : Ref sig .tc) (hr : r.idx.val < 18) :
    W8 m ρ c (Proc.devRef .tc r) = W0 m ρ c (Proc.devRef .tc r) :=
  calc W8 m ρ c (Proc.devRef .tc r)
    _ = W7 m ρ c (Proc.devRef .tc r) := W8_of_ne m ρ c r (fun e => by subst e; exact absurd hr (by decide))
    _ = W6 m ρ c (Proc.devRef .tc r) := kept1_4 (W6 m ρ c) r hr
    _ = W5 m ρ c (Proc.devRef .tc r) := kept1_3 (W5 m ρ c) r hr
    _ = W4 m ρ c (Proc.devRef .tc r) := kept1_2 (W4 m ρ c) r hr
    _ = W3 m ρ c (Proc.devRef .tc r) := kept1_1 (W3 m ρ c) r hr
    _ = W2 m ρ c (Proc.devRef .tc r) := kept1 (W2 m ρ c) r hr
    _ = W1 m ρ c (Proc.devRef .tc r) := W2_of_ne m ρ c r (fun e => by subst e; exact absurd hr (by decide))
    _ = W0 m ρ c (Proc.devRef .tc r) := kept0 (W0 m ρ c) r hr

/-- THE KERNEL'S RESULT. Under the precondition the inputs are real arrays and the cross-graph divisors are
    nonzero; then the two fused calls leave the reference's intra-graph and cross-graph stages in their result
    arrays, the host operations between them the reference's node embeddings, and the host operations after the
    second call compute the reference's last stage from these: the result buffer holds the reference's value of the
    launch arguments. -/
theorem kernel_result
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) = fun _ => 1#1) :
    W12 (F := Ideal) m ρ c (Proc.devRef .tc main_v186)
      = Cert.ReferenceIdeal.ReadP.val_main_v253 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  obtain ⟨X1, X2, nw1, nb1, nw2, nb2, W1, b1, W2, b2, P1, pb1, P2, pb2, e0, e1, e2, e3, e4, e5, e6, e7, e8, e9, e10, e11, e12,
    e13, n12, n21⟩ := Cert.PreReal.pre_real _ _ _ _ _ _ _ _ _ _ _ _ _ _ _ _ _ _ hpre
  refine (congrFun (W12_eq m ρ c) _).trans ?_
  refine Cert.KernelIdeal.Tail.tail_eq (W8 m ρ c) _ _ _ _ _ _ _ _ _ _ _ _ _ _ _ _ _ _ ?_ ?_ ?_ ?_ ?_ ?_ ?_ ?_ ?_ ?_
  · rw [e0, e2, e3, e4, e5]; exact emb1_eq m ρ c X1 nw1 nb1 nw2 nb2 e0 e2 e3 e4 e5
  · rw [e1, e2, e3, e4, e5]; exact emb2_eq m ρ c X2 nw1 nb1 nw2 nb2 e1 e2 e3 e4 e5
  · rw [e0, e6, e7, e8, e9, e10, e11, e12, e13]
    exact (W8_of_ne m ρ c main_v27 (by decide)).trans (intra1_eq m ρ c X1 X2 W1 b1 W2 b2 P1 pb1 P2 pb2 e0 e1 e6 e7 e8 e9 e10 e11 e12 e13)
  · rw [e1, e6, e7, e8, e9, e10, e11, e12, e13]
    exact (W8_of_ne m ρ c main_v29 (by decide)).trans (intra2_eq m ρ c X1 X2 W1 b1 W2 b2 P1 pb1 P2 pb2 e0 e1 e6 e7 e8 e9 e10 e11 e12 e13)
  · rw [e0, e1, e2, e3, e4, e5]; exact cross1_eq m ρ c X1 X2 nw1 nb1 nw2 nb2 e0 e1 e2 e3 e4 e5 n12 n21
  · rw [e0, e1, e2, e3, e4, e5]; exact cross2_eq m ρ c X1 X2 nw1 nb1 nw2 nb2 e0 e1 e2 e3 e4 e5 n12 n21
  · exact (W8_of_lt m ρ c main_arg14 (by decide)).trans rfl
  · exact (W8_of_lt m ρ c main_arg15 (by decide)).trans rfl
  · exact (W8_of_lt m ρ c main_arg16 (by decide)).trans rfl
  · exact (W8_of_lt m ρ c main_arg17 (by decide)).trans rfl

end Cert.KernelIdeal.Bridge

end
-- ==== Proof.lean ====
/- The proof of `Cert.Claim`: the three programs run and leave their arguments unchanged, and at the ideal
   instance the kernel's program and the reference compute the same graph-matching score.

   The computation. Two graphs of 256 nodes with 128 features each. Per graph: a node embedding (a two-layer
   perceptron of the node features); an intra-graph message stage — for every ordered pair of nodes (m, n) a
   two-layer message of the two nodes' features and the pair's edge embedding (itself a two-layer perceptron of the
   features and one-hot positions of m and n), averaged over n —; and a cross-graph stage — for every node i and
   feature d the mean over the other graph's nodes j of b(j,d)·exp(a(i,d)·b(j,d)) divided by the sum over j of the
   products a(i,d)·b(j,d). The three are normalised row by row, concatenated, passed through a linear update and a softmax-weighted aggregation, and the two graphs' results
   are compared by cosine similarity, mapped to (x + 1) / 2.

   The kernel's program computes the two all-pairs stages in two fused calls, each tiled over a 2 × 16 (2 × 8) grid,
   with the first layer of the pair message split by the blocks of its weight matrix (a one-hot row times a matrix
   is a row of the matrix) and the edge embedding's second layer folded into the next layer's weights; the reference
   materialises the all-pairs tensors. At the ideal instance (floats are extended reals, format changes the
   identity) the two are the same function wherever the inputs are real — which the precondition gives —: sums are
   regrouped, products distributed over sums and a matrix product reassociated, all in the reals, and the
   cross-graph divisors are the same nonzero reals on both sides.

   The pieces: each fused call's body run at every grid point and the blocks it leaves assembled into its result
   array; the host operations around the calls read stage by stage; the kernel program's run from the launch to the
   return over the buffer contents at each boundary; the arguments untouched along the way; the reference's run; and
   `Bridge.kernel_result`, which puts the stages together. The word-level program's frame is the same run read at
   the bit-exact instance. -/
import proofs.«418941_j65867618451820_3_alg».proof.Defs
import proofs.«418941_j65867618451820_3_alg».proof.Proof.Gen.Kernel
import proofs.«418941_j65867618451820_3_alg».proof.Proof.Gen.Kernel.Skeleton
import proofs.«418941_j65867618451820_3_alg».proof.Proof.Gen.Kernel.Launch
import proofs.«418941_j65867618451820_3_alg».proof.Proof.Gen.Kernel.Regions
import proofs.«418941_j65867618451820_3_alg».proof.Proof.Gen.Kernel.Points
import proofs.«418941_j65867618451820_3_alg».proof.Proof.Gen.KernelIdeal
import proofs.«418941_j65867618451820_3_alg».proof.Proof.Gen.KernelIdeal.Skeleton
import proofs.«418941_j65867618451820_3_alg».proof.Proof.Gen.KernelIdeal.Launch
import proofs.«418941_j65867618451820_3_alg».proof.Proof.Gen.KernelIdeal.Regions
import proofs.«418941_j65867618451820_3_alg».proof.Proof.Gen.KernelIdeal.Points
import proofs.«418941_j65867618451820_3_alg».proof.Proof.Gen.ReferenceIdeal
import proofs.«418941_j65867618451820_3_alg».proof.Proof.Gen.Pre_finite_inputs
import proofs.«418941_j65867618451820_3_alg».proof.Proof.Run
import proofs.«418941_j65867618451820_3_alg».proof.Proof.RunK
import proofs.«418941_j65867618451820_3_alg».proof.Proof.ArgsKept
import proofs.«418941_j65867618451820_3_alg».proof.Proof.ArgsKeptK
import proofs.«418941_j65867618451820_3_alg».proof.Proof.RefRun
import proofs.«418941_j65867618451820_3_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem

/-- `Kernel` runs, and at the return every argument's buffer holds what the launch memory held: the run's
    final memory is the fold of the program's host operations and the two calls' results over the launch memory,
    and no step of that fold writes an argument. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W12_arg0 m ρ c),
      (h c _ (Cert.Kernel.Hand.mem_uc Cert.Kernel.main_arg1 (by decide))).trans (Cert.Kernel.Hand.W12_arg1 m ρ c),
      (h c _ (Cert.Kernel.Hand.mem_uc Cert.Kernel.main_arg2 (by decide))).trans (Cert.Kernel.Hand.W12_arg2 m ρ c),
      (h c _ (Cert.Kernel.Hand.mem_uc Cert.Kernel.main_arg3 (by decide))).trans (Cert.Kernel.Hand.W12_arg3 m ρ c),
      (h c _ (Cert.Kernel.Hand.mem_uc Cert.Kernel.main_arg4 (by decide))).trans (Cert.Kernel.Hand.W12_arg4 m ρ c),
      (h c _ (Cert.Kernel.Hand.mem_uc Cert.Kernel.main_arg5 (by decide))).trans (Cert.Kernel.Hand.W12_arg5 m ρ c),
      (h c _ (Cert.Kernel.Hand.mem_uc Cert.Kernel.main_arg6 (by decide))).trans (Cert.Kernel.Hand.W12_arg6 m ρ c),
      (h c _ (Cert.Kernel.Hand.mem_uc Cert.Kernel.main_arg7 (by decide))).trans (Cert.Kernel.Hand.W12_arg7 m ρ c),
      (h c _ (Cert.Kernel.Hand.mem_uc Cert.Kernel.main_arg8 (by decide))).trans (Cert.Kernel.Hand.W12_arg8 m ρ c),
      (h c _ (Cert.Kernel.Hand.mem_uc Cert.Kernel.main_arg9 (by decide))).trans (Cert.Kernel.Hand.W12_arg9 m ρ c),
      (h c _ (Cert.Kernel.Hand.mem_uc Cert.Kernel.main_arg10 (by decide))).trans (Cert.Kernel.Hand.W12_arg10 m ρ c),
      (h c _ (Cert.Kernel.Hand.mem_uc Cert.Kernel.main_arg11 (by decide))).trans (Cert.Kernel.Hand.W12_arg11 m ρ c),
      (h c _ (Cert.Kernel.Hand.mem_uc Cert.Kernel.main_arg12 (by decide))).trans (Cert.Kernel.Hand.W12_arg12 m ρ c),
      (h c _ (Cert.Kernel.Hand.mem_uc Cert.Kernel.main_arg13 (by decide))).trans (Cert.Kernel.Hand.W12_arg13 m ρ c),
      (h c _ (Cert.Kernel.Hand.mem_uc Cert.Kernel.main_arg14 (by decide))).trans (Cert.Kernel.Hand.W12_arg14 m ρ c),
      (h c _ (Cert.Kernel.Hand.mem_uc Cert.Kernel.main_arg15 (by decide))).trans (Cert.Kernel.Hand.W12_arg15 m ρ c),
      (h c _ (Cert.Kernel.Hand.mem_uc Cert.Kernel.main_arg16 (by decide))).trans (Cert.Kernel.Hand.W12_arg16 m ρ c),
      (h c _ (Cert.Kernel.Hand.mem_uc Cert.Kernel.main_arg17 (by decide))).trans (Cert.Kernel.Hand.W12_arg17 m ρ c)⟩)
    (Cert.Kernel.Hand.run_main (F := Bits) m ρ)

/-- `KernelIdeal` runs, and at the return every argument's buffer holds what the launch memory held: the run's
    final memory is the fold of the program's host operations and the two calls' results over the launch memory,
    and no step of that fold writes an argument. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W12_arg0 m ρ c),
      (h c _ (Cert.KernelIdeal.Hand.mem_uc Cert.KernelIdeal.main_arg1 (by decide))).trans (Cert.KernelIdeal.Hand.W12_arg1 m ρ c),
      (h c _ (Cert.KernelIdeal.Hand.mem_uc Cert.KernelIdeal.main_arg2 (by decide))).trans (Cert.KernelIdeal.Hand.W12_arg2 m ρ c),
      (h c _ (Cert.KernelIdeal.Hand.mem_uc Cert.KernelIdeal.main_arg3 (by decide))).trans (Cert.KernelIdeal.Hand.W12_arg3 m ρ c),
      (h c _ (Cert.KernelIdeal.Hand.mem_uc Cert.KernelIdeal.main_arg4 (by decide))).trans (Cert.KernelIdeal.Hand.W12_arg4 m ρ c),
      (h c _ (Cert.KernelIdeal.Hand.mem_uc Cert.KernelIdeal.main_arg5 (by decide))).trans (Cert.KernelIdeal.Hand.W12_arg5 m ρ c),
      (h c _ (Cert.KernelIdeal.Hand.mem_uc Cert.KernelIdeal.main_arg6 (by decide))).trans (Cert.KernelIdeal.Hand.W12_arg6 m ρ c),
      (h c _ (Cert.KernelIdeal.Hand.mem_uc Cert.KernelIdeal.main_arg7 (by decide))).trans (Cert.KernelIdeal.Hand.W12_arg7 m ρ c),
      (h c _ (Cert.KernelIdeal.Hand.mem_uc Cert.KernelIdeal.main_arg8 (by decide))).trans (Cert.KernelIdeal.Hand.W12_arg8 m ρ c),
      (h c _ (Cert.KernelIdeal.Hand.mem_uc Cert.KernelIdeal.main_arg9 (by decide))).trans (Cert.KernelIdeal.Hand.W12_arg9 m ρ c),
      (h c _ (Cert.KernelIdeal.Hand.mem_uc Cert.KernelIdeal.main_arg10 (by decide))).trans (Cert.KernelIdeal.Hand.W12_arg10 m ρ c),
      (h c _ (Cert.KernelIdeal.Hand.mem_uc Cert.KernelIdeal.main_arg11 (by decide))).trans (Cert.KernelIdeal.Hand.W12_arg11 m ρ c),
      (h c _ (Cert.KernelIdeal.Hand.mem_uc Cert.KernelIdeal.main_arg12 (by decide))).trans (Cert.KernelIdeal.Hand.W12_arg12 m ρ c),
      (h c _ (Cert.KernelIdeal.Hand.mem_uc Cert.KernelIdeal.main_arg13 (by decide))).trans (Cert.KernelIdeal.Hand.W12_arg13 m ρ c),
      (h c _ (Cert.KernelIdeal.Hand.mem_uc Cert.KernelIdeal.main_arg14 (by decide))).trans (Cert.KernelIdeal.Hand.W12_arg14 m ρ c),
      (h c _ (Cert.KernelIdeal.Hand.mem_uc Cert.KernelIdeal.main_arg15 (by decide))).trans (Cert.KernelIdeal.Hand.W12_arg15 m ρ c),
      (h c _ (Cert.KernelIdeal.Hand.mem_uc Cert.KernelIdeal.main_arg16 (by decide))).trans (Cert.KernelIdeal.Hand.W12_arg16 m ρ c),
      (h c _ (Cert.KernelIdeal.Hand.mem_uc Cert.KernelIdeal.main_arg17 (by decide))).trans (Cert.KernelIdeal.Hand.W12_arg17 m ρ c)⟩)
    (Cert.KernelIdeal.Hand.run_main (F := Ideal) m ρ)

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The ideal pass rewrote no operation of the kernel's program. -/
theorem preserves : Cert.preserves_Kernel_KernelIdeal := trivial

/-- At the ideal instance, from memories that agree on the arguments, both programs end with the reference's last
    stage of the kernel's arguments in their result buffers: the kernel's program by `Bridge.kernel_result` under the
    precondition, the reference by its run, its arguments rewritten to the kernel's. -/
theorem algebraic : Cert.algebraic_KernelIdeal_ReferenceIdeal := by
  intro m ρ m' ρ' hpre hagree
  refine ⟨fun c => Cert.ReferenceIdeal.ReadP.val_main_v253 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c =>
      ⟨(h c _ (Cert.KernelIdeal.Hand.mem_uc Cert.KernelIdeal.main_v186 (by decide))).trans
          (Cert.KernelIdeal.Bridge.kernel_result m ρ c (hpre c)),
        (h c _ (Cert.KernelIdeal.Hand.mem_uc Cert.KernelIdeal.main_arg0 (by decide))).trans (Cert.KernelIdeal.Hand.W12_arg0 m ρ c),
        (h c _ (Cert.KernelIdeal.Hand.mem_uc Cert.KernelIdeal.main_arg1 (by decide))).trans (Cert.KernelIdeal.Hand.W12_arg1 m ρ c),
        (h c _ (Cert.KernelIdeal.Hand.mem_uc Cert.KernelIdeal.main_arg2 (by decide))).trans (Cert.KernelIdeal.Hand.W12_arg2 m ρ c),
        (h c _ (Cert.KernelIdeal.Hand.mem_uc Cert.KernelIdeal.main_arg3 (by decide))).trans (Cert.KernelIdeal.Hand.W12_arg3 m ρ c),
        (h c _ (Cert.KernelIdeal.Hand.mem_uc Cert.KernelIdeal.main_arg4 (by decide))).trans (Cert.KernelIdeal.Hand.W12_arg4 m ρ c),
        (h c _ (Cert.KernelIdeal.Hand.mem_uc Cert.KernelIdeal.main_arg5 (by decide))).trans (Cert.KernelIdeal.Hand.W12_arg5 m ρ c),
        (h c _ (Cert.KernelIdeal.Hand.mem_uc Cert.KernelIdeal.main_arg6 (by decide))).trans (Cert.KernelIdeal.Hand.W12_arg6 m ρ c),
        (h c _ (Cert.KernelIdeal.Hand.mem_uc Cert.KernelIdeal.main_arg7 (by decide))).trans (Cert.KernelIdeal.Hand.W12_arg7 m ρ c),
        (h c _ (Cert.KernelIdeal.Hand.mem_uc Cert.KernelIdeal.main_arg8 (by decide))).trans (Cert.KernelIdeal.Hand.W12_arg8 m ρ c),
        (h c _ (Cert.KernelIdeal.Hand.mem_uc Cert.KernelIdeal.main_arg9 (by decide))).trans (Cert.KernelIdeal.Hand.W12_arg9 m ρ c),
        (h c _ (Cert.KernelIdeal.Hand.mem_uc Cert.KernelIdeal.main_arg10 (by decide))).trans (Cert.KernelIdeal.Hand.W12_arg10 m ρ c),
        (h c _ (Cert.KernelIdeal.Hand.mem_uc Cert.KernelIdeal.main_arg11 (by decide))).trans (Cert.KernelIdeal.Hand.W12_arg11 m ρ c),
        (h c _ (Cert.KernelIdeal.Hand.mem_uc Cert.KernelIdeal.main_arg12 (by decide))).trans (Cert.KernelIdeal.Hand.W12_arg12 m ρ c),
        (h c _ (Cert.KernelIdeal.Hand.mem_uc Cert.KernelIdeal.main_arg13 (by decide))).trans (Cert.KernelIdeal.Hand.W12_arg13 m ρ c),
        (h c _ (Cert.KernelIdeal.Hand.mem_uc Cert.KernelIdeal.main_arg14 (by decide))).trans (Cert.KernelIdeal.Hand.W12_arg14 m ρ c),
        (h c _ (Cert.KernelIdeal.Hand.mem_uc Cert.KernelIdeal.main_arg15 (by decide))).trans (Cert.KernelIdeal.Hand.W12_arg15 m ρ c),
        (h c _ (Cert.KernelIdeal.Hand.mem_uc Cert.KernelIdeal.main_arg16 (by decide))).trans (Cert.KernelIdeal.Hand.W12_arg16 m ρ c),
        (h c _ (Cert.KernelIdeal.Hand.mem_uc Cert.KernelIdeal.main_arg17 (by decide))).trans (Cert.KernelIdeal.Hand.W12_arg17 m ρ c)⟩)
      (Cert.KernelIdeal.Hand.run_main (F := Ideal) m ρ)
  · refine (θ_run Cert.ReferenceIdeal.defs _ _).mono (fun r h c => ⟨(h c).1.trans ?_, (h c).2⟩)
      (Cert.ReferenceIdeal.RunH.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
